-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x1024 .f32) (main_arg1 : FVec F S8192x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Pre_finite_inputs_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x8192 .f32) (main_arg1 : FVec F S8192x4096 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S8x1024x1024 : Shape := ⟨3, ![8, 1024, 1024]⟩
abbrev S2x1024x2048 : Shape := ⟨3, ![2, 1024, 2048]⟩
abbrev S2x1024x1024 : Shape := ⟨3, ![2, 1024, 1024]⟩
abbrev S8 : Shape := ⟨1, ![8]⟩
abbrev S2 : Shape := ⟨1, ![2]⟩
abbrev S_ : Shape := ⟨0, ![]⟩
abbrev S1x1024x1024 : Shape := ⟨3, ![1, 1024, 1024]⟩
abbrev S1024x1024 : Shape := ⟨2, ![1024, 1024]⟩
abbrev S1 : Shape := ⟨1, ![1]⟩
abbrev S1x1024x2048 : Shape := ⟨3, ![1, 1024, 2048]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .hbm, ⟨3, _⟩ => ⟨S8192x1024, .bf16⟩
  | .local _ .vmem, ⟨0, _⟩ => ⟨S1024x4096, .f32⟩
  | .local _ .vmem, ⟨1, _⟩ => ⟨S8x1024x1024, .bf16⟩
  | .local _ .vmem, ⟨2, _⟩ => ⟨S2x1024x2048, .f32⟩
  | .local _ .vmem, ⟨3, _⟩ => ⟨S2x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v95 : BitVec 32 := Scalar.muli v2 c1024_i32
  let c0_i32_66 : BitVec 32 := 0#32
  ![v95.toNat, 0]
def k0_off2 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v99 : BitVec 32 := Scalar.subi v2 c1_i32_67
  let c8_i32_68 : BitVec 32 := 8#32
  let c0_i32_69 : BitVec 32 := 0#32
  let v100 : BitVec 1 := Scalar.cmpi .eq c8_i32_68 c0_i32_69
  let c1_i32_70 : BitVec 32 := 1#32
  let v101 : BitVec 32 := Scalar.select v100 c1_i32_70 c8_i32_68
  let v102 : BitVec 32 := Scalar.remsi v99 v101
  let c0_i32_72 : BitVec 32 := 0#32
  let v104 : BitVec 1 := Scalar.cmpi .slt v102 c0_i32_72
  let c0_i32_73 : BitVec 32 := 0#32
  let v105 : BitVec 1 := Scalar.cmpi .slt v101 c0_i32_73
  let v106 : BitVec 1 := Scalar.xori v104 v105
  let c0_i32_71 : BitVec 32 := 0#32
  let v103 : BitVec 1 := Scalar.cmpi .ne v102 c0_i32_71
  let v107 : BitVec 1 := Scalar.andi v106 v103
  let v108 : BitVec 32 := Scalar.addi v102 v101
  let v109 : BitVec 32 := Scalar.select v107 v108 v102
  let c1024_i32_74 : BitVec 32 := 1024#32
  let v110 : BitVec 32 := Scalar.muli v109 c1024_i32_74
  let c0_i32_79 : BitVec 32 := 0#32
  ![v110.toNat, 0]
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_90 : BitVec 32 := 1#32
  let v125 : BitVec 32 := Scalar.subi v2 c1_i32_90
  let c8_i32_91 : BitVec 32 := 8#32
  let c0_i32_92 : BitVec 32 := 0#32
  let v126 : BitVec 1 := Scalar.cmpi .eq c8_i32_91 c0_i32_92
  let c1_i32_93 : BitVec 32 := 1#32
  let v127 : BitVec 32 := Scalar.select v126 c1_i32_93 c8_i32_91
  let v128 : BitVec 32 := Scalar.remsi v125 v127
  let c0_i32_95 : BitVec 32 := 0#32
  let v130 : BitVec 1 := Scalar.cmpi .slt v128 c0_i32_95
  let c0_i32_96 : BitVec 32 := 0#32
  let v131 : BitVec 1 := Scalar.cmpi .slt v127 c0_i32_96
  let v132 : BitVec 1 := Scalar.xori v130 v131
  let c0_i32_94 : BitVec 32 := 0#32
  let v129 : BitVec 1 := Scalar.cmpi .ne v128 c0_i32_94
  let v133 : BitVec 1 := Scalar.andi v132 v129
  let v134 : BitVec 32 := Scalar.addi v128 v127
  let v135 : BitVec 32 := Scalar.select v133 v134 v128
  let c1_i32_143 : BitVec 32 := 1#32
  let v188 : BitVec 32 := Scalar.muli v135 c1_i32_143
  let v189 : BitVec 32 := Scalar.addi c0_i32_144 v188
  v189.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v197 : BitVec 32 := Scalar.subi v2 c2_i32_148
  let c8_i32_149 : BitVec 32 := 8#32
  let c0_i32_150 : BitVec 32 := 0#32
  let v198 : BitVec 1 := Scalar.cmpi .eq c8_i32_149 c0_i32_150
  let c1_i32_151 : BitVec 32 := 1#32
  let v199 : BitVec 32 := Scalar.select v198 c1_i32_151 c8_i32_149
  let v200 : BitVec 32 := Scalar.remsi v197 v199
  let c0_i32_153 : BitVec 32 := 0#32
  let v202 : BitVec 1 := Scalar.cmpi .slt v200 c0_i32_153
  let c0_i32_154 : BitVec 32 := 0#32
  let v203 : BitVec 1 := Scalar.cmpi .slt v199 c0_i32_154
  let v204 : BitVec 1 := Scalar.xori v202 v203
  let c0_i32_152 : BitVec 32 := 0#32
  let v201 : BitVec 1 := Scalar.cmpi .ne v200 c0_i32_152
  let v205 : BitVec 1 := Scalar.andi v204 v201
  let v206 : BitVec 32 := Scalar.addi v200 v199
  let v207 : BitVec 32 := Scalar.select v205 v206 v200
  let c1_i32_202 : BitVec 32 := 1#32
  let v260 : BitVec 32 := Scalar.muli v207 c1_i32_202
  let v261 : BitVec 32 := Scalar.addi c0_i32_203 v260
  v261.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_207 : BitVec 32 := 3#32
  let v269 : BitVec 32 := Scalar.subi v2 c3_i32_207
  let c8_i32_208 : BitVec 32 := 8#32
  let c0_i32_209 : BitVec 32 := 0#32
  let v270 : BitVec 1 := Scalar.cmpi .eq c8_i32_208 c0_i32_209
  let c1_i32_210 : BitVec 32 := 1#32
  let v271 : BitVec 32 := Scalar.select v270 c1_i32_210 c8_i32_208
  let v272 : BitVec 32 := Scalar.remsi v269 v271
  let c0_i32_212 : BitVec 32 := 0#32
  let v274 : BitVec 1 := Scalar.cmpi .slt v272 c0_i32_212
  let c0_i32_213 : BitVec 32 := 0#32
  let v275 : BitVec 1 := Scalar.cmpi .slt v271 c0_i32_213
  let v276 : BitVec 1 := Scalar.xori v274 v275
  let c0_i32_211 : BitVec 32 := 0#32
  let v273 : BitVec 1 := Scalar.cmpi .ne v272 c0_i32_211
  let v277 : BitVec 1 := Scalar.andi v276 v273
  let v278 : BitVec 32 := Scalar.addi v272 v271
  let v279 : BitVec 32 := Scalar.select v277 v278 v272
  let c1_i32_261 : BitVec 32 := 1#32
  let v332 : BitVec 32 := Scalar.muli v279 c1_i32_261
  let v333 : BitVec 32 := Scalar.addi c0_i32_262 v332
  v333.toNat
def k0_dev11 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_266 : BitVec 32 := 4#32
  let v341 : BitVec 32 := Scalar.subi v2 c4_i32_266
  let c8_i32_267 : BitVec 32 := 8#32
  let c0_i32_268 : BitVec 32 := 0#32
  let v342 : BitVec 1 := Scalar.cmpi .eq c8_i32_267 c0_i32_268
  let c1_i32_269 : BitVec 32 := 1#32
  let v343 : BitVec 32 := Scalar.select v342 c1_i32_269 c8_i32_267
  let v344 : BitVec 32 := Scalar.remsi v341 v343
  let c0_i32_271 : BitVec 32 := 0#32
  let v346 : BitVec 1 := Scalar.cmpi .slt v344 c0_i32_271
  let c0_i32_272 : BitVec 32 := 0#32
  let v347 : BitVec 1 := Scalar.cmpi .slt v343 c0_i32_272
  let v348 : BitVec 1 := Scalar.xori v346 v347
  let c0_i32_270 : BitVec 32 := 0#32
  let v345 : BitVec 1 := Scalar.cmpi .ne v344 c0_i32_270
  let v349 : BitVec 1 := Scalar.andi v348 v345
  let v350 : BitVec 32 := Scalar.addi v344 v343
  let v351 : BitVec 32 := Scalar.select v349 v350 v344
  let c1_i32_320 : BitVec 32 := 1#32
  let v404 : BitVec 32 := Scalar.muli v351 c1_i32_320
  let v405 : BitVec 32 := Scalar.addi c0_i32_321 v404
  v405.toNat
def k0_dev12 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_325 : BitVec 32 := 5#32
  let v413 : BitVec 32 := Scalar.subi v2 c5_i32_325
  let c8_i32_326 : BitVec 32 := 8#32
  let c0_i32_327 : BitVec 32 := 0#32
  let v414 : BitVec 1 := Scalar.cmpi .eq c8_i32_326 c0_i32_327
  let c1_i32_328 : BitVec 32 := 1#32
  let v415 : BitVec 32 := Scalar.select v414 c1_i32_328 c8_i32_326
  let v416 : BitVec 32 := Scalar.remsi v413 v415
  let c0_i32_330 : BitVec 32 := 0#32
  let v418 : BitVec 1 := Scalar.cmpi .slt v416 c0_i32_330
  let c0_i32_331 : BitVec 32 := 0#32
  let v419 : BitVec 1 := Scalar.cmpi .slt v415 c0_i32_331
  let v420 : BitVec 1 := Scalar.xori v418 v419
  let c0_i32_329 : BitVec 32 := 0#32
  let v417 : BitVec 1 := Scalar.cmpi .ne v416 c0_i32_329
  let v421 : BitVec 1 := Scalar.andi v420 v417
  let v422 : BitVec 32 := Scalar.addi v416 v415
  let v423 : BitVec 32 := Scalar.select v421 v422 v416
  let c1_i32_379 : BitVec 32 := 1#32
  let v476 : BitVec 32 := Scalar.muli v423 c1_i32_379
  let v477 : BitVec 32 := Scalar.addi c0_i32_380 v476
  v477.toNat
def k0_dev13 (d0 : Dev nD) : Nat :=
  let c0_i32_439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_384 : BitVec 32 := 6#32
  let v485 : BitVec 32 := Scalar.subi v2 c6_i32_384
  let c8_i32_385 : BitVec 32 := 8#32
  let c0_i32_386 : BitVec 32 := 0#32
  let v486 : BitVec 1 := Scalar.cmpi .eq c8_i32_385 c0_i32_386
  let c1_i32_387 : BitVec 32 := 1#32
  let v487 : BitVec 32 := Scalar.select v486 c1_i32_387 c8_i32_385
  let v488 : BitVec 32 := Scalar.remsi v485 v487
  let c0_i32_389 : BitVec 32 := 0#32
  let v490 : BitVec 1 := Scalar.cmpi .slt v488 c0_i32_389
  let c0_i32_390 : BitVec 32 := 0#32
  let v491 : BitVec 1 := Scalar.cmpi .slt v487 c0_i32_390
  let v492 : BitVec 1 := Scalar.xori v490 v491
  let c0_i32_388 : BitVec 32 := 0#32
  let v489 : BitVec 1 := Scalar.cmpi .ne v488 c0_i32_388
  let v493 : BitVec 1 := Scalar.andi v492 v489
  let v494 : BitVec 32 := Scalar.addi v488 v487
  let v495 : BitVec 32 := Scalar.select v493 v494 v488
  let c1_i32_438 : BitVec 32 := 1#32
  let v548 : BitVec 32 := Scalar.muli v495 c1_i32_438
  let v549 : BitVec 32 := Scalar.addi c0_i32_439 v548
  v549.toNat
def k0_dev14 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_443 : BitVec 32 := 7#32
  let v557 : BitVec 32 := Scalar.subi v2 c7_i32_443
  let c8_i32_444 : BitVec 32 := 8#32
  let c0_i32_445 : BitVec 32 := 0#32
  let v558 : BitVec 1 := Scalar.cmpi .eq c8_i32_444 c0_i32_445
  let c1_i32_446 : BitVec 32 := 1#32
  let v559 : BitVec 32 := Scalar.select v558 c1_i32_446 c8_i32_444
  let v560 : BitVec 32 := Scalar.remsi v557 v559
  let c0_i32_448 : BitVec 32 := 0#32
  let v562 : BitVec 1 := Scalar.cmpi .slt v560 c0_i32_448
  let c0_i32_449 : BitVec 32 := 0#32
  let v563 : BitVec 1 := Scalar.cmpi .slt v559 c0_i32_449
  let v564 : BitVec 1 := Scalar.xori v562 v563
  let c0_i32_447 : BitVec 32 := 0#32
  let v561 : BitVec 1 := Scalar.cmpi .ne v560 c0_i32_447
  let v565 : BitVec 1 := Scalar.andi v564 v561
  let v566 : BitVec 32 := Scalar.addi v560 v559
  let v567 : BitVec 32 := Scalar.select v565 v566 v560
  let c1_i32_484 : BitVec 32 := 1#32
  let v603 : BitVec 32 := Scalar.muli v567 c1_i32_484
  let v604 : BitVec 32 := Scalar.addi c0_i32_485 v603
  v604.toNat
def k0_off3 (d0 : Dev nD) (c0_i32_489 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v612 : BitVec 32 := Scalar.addi v2 c0_i32_489
  let c8_i32_490 : BitVec 32 := 8#32
  let c0_i32_491 : BitVec 32 := 0#32
  let v613 : BitVec 1 := Scalar.cmpi .eq c8_i32_490 c0_i32_491
  let c1_i32_492 : BitVec 32 := 1#32
  let v614 : BitVec 32 := Scalar.select v613 c1_i32_492 c8_i32_490
  let v615 : BitVec 32 := Scalar.remsi v612 v614
  let c0_i32_494 : BitVec 32 := 0#32
  let v617 : BitVec 1 := Scalar.cmpi .slt v615 c0_i32_494
  let c0_i32_495 : BitVec 32 := 0#32
  let v618 : BitVec 1 := Scalar.cmpi .slt v614 c0_i32_495
  let v619 : BitVec 1 := Scalar.xori v617 v618
  let c0_i32_493 : BitVec 32 := 0#32
  let v616 : BitVec 1 := Scalar.cmpi .ne v615 c0_i32_493
  let v620 : BitVec 1 := Scalar.andi v619 v616
  let v621 : BitVec 32 := Scalar.addi v615 v614
  let v622 : BitVec 32 := Scalar.select v620 v621 v615
  let c1024_i32_496 : BitVec 32 := 1024#32
  let v623 : BitVec 32 := Scalar.muli v622 c1024_i32_496
  let c0_i32_501 : BitVec 32 := 0#32
  ![v623.toNat, 0]
def k0_off4 (d0 : Dev nD) (c0_i32_502 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v629 : BitVec 32 := Scalar.addi v2 c0_i32_502
  let c8_i32_503 : BitVec 32 := 8#32
  let c0_i32_504 : BitVec 32 := 0#32
  let v630 : BitVec 1 := Scalar.cmpi .eq c8_i32_503 c0_i32_504
  let c1_i32_505 : BitVec 32 := 1#32
  let v631 : BitVec 32 := Scalar.select v630 c1_i32_505 c8_i32_503
  let v632 : BitVec 32 := Scalar.remsi v629 v631
  let c0_i32_507 : BitVec 32 := 0#32
  let v634 : BitVec 1 := Scalar.cmpi .slt v632 c0_i32_507
  let c0_i32_508 : BitVec 32 := 0#32
  let v635 : BitVec 1 := Scalar.cmpi .slt v631 c0_i32_508
  let v636 : BitVec 1 := Scalar.xori v634 v635
  let c0_i32_506 : BitVec 32 := 0#32
  let v633 : BitVec 1 := Scalar.cmpi .ne v632 c0_i32_506
  let v637 : BitVec 1 := Scalar.andi v636 v633
  let v638 : BitVec 32 := Scalar.addi v632 v631
  let v639 : BitVec 32 := Scalar.select v637 v638 v632
  let c1024_i32_509 : BitVec 32 := 1024#32
  let v640 : BitVec 32 := Scalar.muli v639 c1024_i32_509
  let c2048_i32 : BitVec 32 := 2048#32
  ![v640.toNat, 2048]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S2x1024x2048_S1x1024x1024_0_0_0 : ∀ a, (![0, 0, 0] : Fin 3 → Nat) a + S1x1024x1024.size a ≤ S2x1024x2048.size a
  squeezes_S1x1024x1024_S1024x1024 : S1x1024x1024.Squeezes S1024x1024
  inb_S2_S1_1 : ∀ a, (![1] : Fin 1 → Nat) a + S1.size a ≤ S2.size a
  squeezes_S1_S_ : S1.Squeezes S_
  inb_S2x1024x2048_S1x1024x1024_1_0_0 : ∀ a, (![1, 0, 0] : Fin 3 → Nat) a + S1x1024x1024.size a ≤ S2x1024x2048.size a
  h_S1x1024x1024 : 0 < S1x1024x1024.numel
  shapeCasts_S1x1024x1024_S1024x1024 : S1x1024x1024.ShapeCasts S1024x1024
  bitsLt_bf16_f32 : FTy.bits .bf16 < FTy.bits .f32
  inb_S8x1024x1024_S1x1024x1024_0_0_0 : ∀ a, (![0, 0, 0] : Fin 3 → Nat) a + S1x1024x1024.size a ≤ S8x1024x1024.size a
  shapeCasts_S1024x1024_S1x1024x1024 : S1024x1024.ShapeCasts S1x1024x1024
  packedbf16_S8x1024x1024_S1x1024x1024_0_0_0 : (Rect.unit (s := S8x1024x1024) ![0, 0, 0] S1x1024x1024.size inb_S8x1024x1024_S1x1024x1024_0_0_0).PackedRows (EltTy.packing .bf16)
  hamt_7 : (7#32 : BitVec 32).msb = false
  inb_S2_S1_0 : ∀ a, (![0] : Fin 1 → Nat) a + S1.size a ≤ S2.size a
  inb_S2x1024x1024_S1x1024x1024_1_0_0 : ∀ a, (![1, 0, 0] : Fin 3 → Nat) a + S1x1024x1024.size a ≤ S2x1024x1024.size a
  packedbf16_S2x1024x1024_S1x1024x1024_1_0_0 : (Rect.unit (s := S2x1024x1024) ![1, 0, 0] S1x1024x1024.size inb_S2x1024x1024_S1x1024x1024_1_0_0).PackedRows (EltTy.packing .bf16)
  wordsbf16_S2x1024x1024_S1x1024x1024_1_0_0 : (Rect.unit (s := S2x1024x1024) ![1, 0, 0] S1x1024x1024.size inb_S2x1024x1024_S1x1024x1024_1_0_0).WholeWords (EltTy.packing .bf16)
  inb_S8_S1_1 : ∀ a, (![1] : Fin 1 → Nat) a + S1.size a ≤ S8.size a
  inb_S8x1024x1024_S1x1024x1024_1_0_0 : ∀ a, (![1, 0, 0] : Fin 3 → Nat) a + S1x1024x1024.size a ≤ S8x1024x1024.size a
  wordsbf16_S8x1024x1024_S1x1024x1024_1_0_0 : (Rect.unit (s := S8x1024x1024) ![1, 0, 0] S1x1024x1024.size inb_S8x1024x1024_S1x1024x1024_1_0_0).WholeWords (EltTy.packing .bf16)
  inb_S2x1024x1024_S1x1024x1024_0_0_0 : ∀ a, (![0, 0, 0] : Fin 3 → Nat) a + S1x1024x1024.size a ≤ S2x1024x1024.size a
  packedbf16_S2x1024x1024_S1x1024x1024_0_0_0 : (Rect.unit (s := S2x1024x1024) ![0, 0, 0] S1x1024x1024.size inb_S2x1024x1024_S1x1024x1024_0_0_0).PackedRows (EltTy.packing .bf16)
  wordsbf16_S2x1024x1024_S1x1024x1024_0_0_0 : (Rect.unit (s := S2x1024x1024) ![0, 0, 0] S1x1024x1024.size inb_S2x1024x1024_S1x1024x1024_0_0_0).WholeWords (EltTy.packing .bf16)
  inb_S8_S1_2 : ∀ a, (![2] : Fin 1 → Nat) a + S1.size a ≤ S8.size a
  inb_S8x1024x1024_S1x1024x1024_2_0_0 : ∀ a, (![2, 0, 0] : Fin 3 → Nat) a + S1x1024x1024.size a ≤ S8x1024x1024.size a
  wordsbf16_S8x1024x1024_S1x1024x1024_2_0_0 : (Rect.unit (s := S8x1024x1024) ![2, 0, 0] S1x1024x1024.size inb_S8x1024x1024_S1x1024x1024_2_0_0).WholeWords (EltTy.packing .bf16)
  inb_S8_S1_3 : ∀ a, (![3] : Fin 1 → Nat) a + S1.size a ≤ S8.size a
  inb_S8x1024x1024_S1x1024x1024_3_0_0 : ∀ a, (![3, 0, 0] : Fin 3 → Nat) a + S1x1024x1024.size a ≤ S8x1024x1024.size a
  wordsbf16_S8x1024x1024_S1x1024x1024_3_0_0 : (Rect.unit (s := S8x1024x1024) ![3, 0, 0] S1x1024x1024.size inb_S8x1024x1024_S1x1024x1024_3_0_0).WholeWords (EltTy.packing .bf16)
  inb_S8_S1_4 : ∀ a, (![4] : Fin 1 → Nat) a + S1.size a ≤ S8.size a
  inb_S8x1024x1024_S1x1024x1024_4_0_0 : ∀ a, (![4, 0, 0] : Fin 3 → Nat) a + S1x1024x1024.size a ≤ S8x1024x1024.size a
  wordsbf16_S8x1024x1024_S1x1024x1024_4_0_0 : (Rect.unit (s := S8x1024x1024) ![4, 0, 0] S1x1024x1024.size inb_S8x1024x1024_S1x1024x1024_4_0_0).WholeWords (EltTy.packing .bf16)
  inb_S8_S1_5 : ∀ a, (![5] : Fin 1 → Nat) a + S1.size a ≤ S8.size a
  inb_S8x1024x1024_S1x1024x1024_5_0_0 : ∀ a, (![5, 0, 0] : Fin 3 → Nat) a + S1x1024x1024.size a ≤ S8x1024x1024.size a
  wordsbf16_S8x1024x1024_S1x1024x1024_5_0_0 : (Rect.unit (s := S8x1024x1024) ![5, 0, 0] S1x1024x1024.size inb_S8x1024x1024_S1x1024x1024_5_0_0).WholeWords (EltTy.packing .bf16)
  inb_S8_S1_6 : ∀ a, (![6] : Fin 1 → Nat) a + S1.size a ≤ S8.size a
  inb_S8x1024x1024_S1x1024x1024_6_0_0 : ∀ a, (![6, 0, 0] : Fin 3 → Nat) a + S1x1024x1024.size a ≤ S8x1024x1024.size a
  wordsbf16_S8x1024x1024_S1x1024x1024_6_0_0 : (Rect.unit (s := S8x1024x1024) ![6, 0, 0] S1x1024x1024.size inb_S8x1024x1024_S1x1024x1024_6_0_0).WholeWords (EltTy.packing .bf16)
  inb_S8_S1_7 : ∀ a, (![7] : Fin 1 → Nat) a + S1.size a ≤ S8.size a
  inb_S8x1024x1024_S1x1024x1024_7_0_0 : ∀ a, (![7, 0, 0] : Fin 3 → Nat) a + S1x1024x1024.size a ≤ S8x1024x1024.size a
  wordsbf16_S8x1024x1024_S1x1024x1024_7_0_0 : (Rect.unit (s := S8x1024x1024) ![7, 0, 0] S1x1024x1024.size inb_S8x1024x1024_S1x1024x1024_7_0_0).WholeWords (EltTy.packing .bf16)
  inb_S2x1024x2048_S1x1024x2048_0_0_0 : ∀ a, (![0, 0, 0] : Fin 3 → Nat) a + S1x1024x2048.size a ≤ S2x1024x2048.size a
  squeezes_S1x1024x2048_S1024x2048 : S1x1024x2048.Squeezes S1024x2048
  inb_S2x1024x2048_S1x1024x2048_1_0_0 : ∀ a, (![1, 0, 0] : Fin 3 → Nat) a + S1x1024x2048.size a ≤ S2x1024x2048.size a
  h_S1x1024x2048 : 0 < S1x1024x2048.numel
  shapeCasts_S1x1024x2048_S1024x2048 : S1x1024x2048.ShapeCasts S1024x2048
  inb_S1024x4096_S1024x2048_0_0 : ∀ a, (![0, 0] : Fin 2 → Nat) a + S1024x2048.size a ≤ S1024x4096.size a
  h_S1024x2048 : 0 < S1024x2048.numel
  inb_S1024x4096_S1024x2048_0_2048 : ∀ a, (![0, 2048] : Fin 2 → Nat) a + S1024x2048.size a ≤ S1024x4096.size a
  shapeCasts_S1024x2048_S1024x2048 : S1024x2048.ShapeCasts S1024x2048
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  slices_S1024x2048_o0_0_S1024x1024 : S1024x2048.Slices ![0, 0] S1024x1024
  inb_S1024x4096_S1024x1024_0_1024 : ∀ a, (![0, 1024] : Fin 2 → Nat) a + S1024x1024.size a ≤ S1024x4096.size a
  slices_S1024x2048_o0_1024_S1024x1024 : S1024x2048.Slices ![0, 1024] S1024x1024
  inb_S1024x4096_S1024x1024_0_2048 : ∀ a, (![0, 2048] : Fin 2 → Nat) a + S1024x1024.size a ≤ S1024x4096.size a
  inb_S1024x4096_S1024x1024_0_3072 : ∀ a, (![0, 3072] : Fin 2 → Nat) a + S1024x1024.size a ≤ S1024x4096.size a
  dot_S1024x1024_S1024x2048_S1024x2048_1_0_0_1_n_n_wf : DotDims.WF S1024x1024 S1024x2048 S1024x2048 [1] [0] [0] [1] [] []
  hcc0_scratch3 : 1 + S8.numel ≤ 22
  hcc0_scratch4 : 9 + S8.numel ≤ 22
  hcc0_scratch5 : 17 + S2.numel ≤ 22
  hcc0_scratch6 : 19 + S2.numel ≤ 22
  hcc0_scratch7 : 21 + S_.numel ≤ 22
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1024x1024.size a ≤ S8192x1024.size a
  k0_off2_inb : ∀ d0 : Dev nD, ∀ (r : Fin 7), ∀ a, (k0_off2 d0 (BitVec.ofNat 32 (1 + r.val))) a + S1024x1024.size a ≤ S8192x1024.size a
  k0_off2_wordsbf16 : ∀ d0 : Dev nD, ∀ (r : Fin 7), (Rect.unit (s := S8192x1024) (k0_off2 d0 (BitVec.ofNat 32 (1 + r.val))) S1024x1024.size (k0_off2_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ (r : Fin 8), ∀ a, (k0_off3 d0 (BitVec.ofNat 32 r.val)) a + S1024x2048.size a ≤ S8192x4096.size a
  k0_off4_inb : ∀ d0 : Dev nD, ∀ (r : Fin 8), ∀ a, (k0_off4 d0 (BitVec.ofNat 32 r.val)) a + S1024x2048.size a ≤ S8192x4096.size a
  hstage0_0 : ∀ j, (stage0_0 j).IsWhole

variable [Facts₀]

abbrev cc0_scratch3 : DmaSems sig S8 := SemArray.consecutive 1 S8 hcc0_scratch3
abbrev cc0_scratch4 : DmaSems sig S8 := SemArray.consecutive 9 S8 hcc0_scratch4
abbrev cc0_scratch5 : DmaSems sig S2 := SemArray.consecutive 17 S2 hcc0_scratch5
abbrev cc0_scratch6 : DmaSems sig S2 := SemArray.consecutive 19 S2 hcc0_scratch6
abbrev cc0_scratch7 : DmaSems sig S_ := SemArray.consecutive 21 S_ hcc0_scratch7
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.whole (Memref.whole main_v1_0) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts₀]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.RefValue.lean ====
import proofs.«900489_g7700000000000490_dist_a2a_gemm_m8192_k8192_n4096_f32_gelu_v7x_i8_1_alg».proof.Defs
import proofs.«900489_g7700000000000490_dist_a2a_gemm_m8192_k8192_n4096_f32_gelu_v7x_i8_1_alg».proof.Proof.Gen.ReferenceIdeal.Run
import proofs.«900489_g7700000000000490_dist_a2a_gemm_m8192_k8192_n4096_f32_gelu_v7x_i8_1_alg».proof.Proof.Gen.ReferenceIdeal.Read

/-!
# The reference is one function of its two arguments

With `y i = ∑ k, x[i₀, k] · w[k, i₁]` (the exact contraction over all 8192 values of `k`), the
reference's result at `i` is the tanh form of gelu applied to `y i`:
`(½ · y) · (1 + tanh (c · (y + c₃ · ((y · y) · y))))`, the products grouped as the reference groups
them and the four constants kept as the words the program prints.
-/

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx

/-- gelu in its tanh form, every product grouped as the reference groups it:
    `(½ · y) · (1 + tanh (c · (y + c₃ · ((y · y) · y))))`. -/
def gelu (y : EReal) : EReal :=
  (Ideal.ofBits .f32 0x3F000000#32 * y)
    * (Ideal.ofBits .f32 0x3F800000#32
        + Ideal.tanh (Ideal.ofBits .f32 0x3F4C422A#32
            * (y + Ideal.ofBits .f32 0x3D372713#32 * ((y * y) * y))))

/-- Row coordinate of an index of the result, as a number below 8192. -/
abbrev row (i : S8192x4096.Idx) : Fin 8192 := ⟨(i 0).val, (i 0).isLt⟩
/-- Column coordinate of an index of the result, as a number below 4096. -/
abbrev col (i : S8192x4096.Idx) : Fin 4096 := ⟨(i 1).val, (i 1).isLt⟩

/-- The exact product `x @ w` at row `r`, column `j`. -/
def dot (x : FVec Ideal S8192x8192 .f32) (w : FVec Ideal S8192x4096 .f32) (r : Fin 8192) (j : Fin 4096) : EReal :=
  ∑ k : Fin 8192, x (ix2 r k) * w (ix2 k j)

/-- The reference's result: gelu of the exact product, entry by entry. -/
def Gref (x : FVec Ideal S8192x8192 .f32) (w : FVec Ideal S8192x4096 .f32) : FVec Ideal S8192x4096 .f32 :=
  fun i => gelu (dot x w (row i) (col i))

theorem Gref_ix2 (x : FVec Ideal S8192x8192 .f32) (w : FVec Ideal S8192x4096 .f32) (r : Fin 8192) (j : Fin 4096) :
    Gref x w (ix2 r j) = gelu (∑ k : Fin 8192, x (ix2 r k) * w (ix2 k j)) := rfl

theorem lidx_eq (i : S8192x4096.Idx) (k : Fin 8192) : Read.lidx_main_v0 i k = ix2 (row i) k :=
  funext fun a => by match a with | ⟨0, _⟩ => rfl | ⟨1, _⟩ => rfl

theorem ridx_eq (i : S8192x4096.Idx) (k : Fin 8192) : Read.ridx_main_v0 i k = ix2 k (col i) :=
  funext fun a => by match a with | ⟨0, _⟩ => rfl | ⟨1, _⟩ => rfl

/-- The contraction stage of the reference is the exact product. -/
theorem v0_eq (x : FVec Ideal S8192x8192 .f32) (w : FVec Ideal S8192x4096 .f32) (i : S8192x4096.Idx) :
    Read.val_main_v0 (F := Ideal) x w i = dot x w (row i) (col i) := by
  rw [Read.val_main_v0_apply]
  unfold dot
  refine Finset.sum_congr rfl fun k _ => ?_
  rw [lidx_eq, ridx_eq]

/-- The reference's last stage is `Gref`. -/
theorem ref_value (x : FVec Ideal S8192x8192 .f32) (w : FVec Ideal S8192x4096 .f32) :
    Read.val_main_v13 (F := Ideal) x w = Gref x w := by
  funext i
  rw [Read.val_main_v13_apply, Read.val_main_v2_apply, Read.val_main_v12_apply, Read.val_main_v10_apply,
    Read.val_main_v9_apply, Read.val_main_v7_apply, Read.val_main_v6_apply, Read.val_main_v4_apply,
    Read.val_main_v3_apply, Read.val_main_v1_apply, Read.val_main_v5_apply, Read.val_main_v8_apply,
    Read.val_main_v11_apply, Read.val_main_cst_apply, Read.val_main_cst_0_apply, Read.val_main_cst_1_apply,
    Read.val_main_cst_2_apply, v0_eq]
  rfl

/-- The reference's run: it terminates with its result holding `Gref` of its two arguments, and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Gref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨by rw [(h c).1, Read.val_main_v13_eq, ref_value], (h c).2⟩)
    (Cert.ReferenceIdeal.Value.run (F := Ideal) m ρ)

end Cert.RefValue

end
-- ==== Proof.PayIdx.lean ====
import proofs.«900489_g7700000000000490_dist_a2a_gemm_m8192_k8192_n4096_f32_gelu_v7x_i8_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel's arithmetic, read one entry at a time

Every pure value the kernel's body stores is one of four kinds, read here at an entry `(r, j)` over
the extended reals, where a change of float format is the identity:

* a **copy**: a `[1,1024,1024]` block re-cast through `[1024,1024]` (and narrowed on the way) is the
  block itself;
* a **block product**: `∑ κ < 1024, a[r, κ] · b[κ, j]` of a `1024 × 1024` block of `x` and a
  `1024 × 2048` block of `w`, into a zero accumulator;
* an **accumulation**: the running sum plus a block product, the running sum on the LEFT;
* the **epilogue**: gelu, in the kernel's order of products, of the running sum plus one
  1024-column half of the last block product.

The kernel's gelu multiplies `((c₃ · y) · y) · y` where the reference multiplies `c₃ · ((y · y) · y)`;
the two agree by associativity of the product of extended reals (`kgelu_eq`).
-/

noncomputable section

namespace Cert.PayIdx

open Cert.KernelIdeal Cert.KernelIdeal.Gen Idealize.ShloMosaic Idealize.ShloMosaic.ValueIdx

/-! ## gelu in the kernel's order -/

/-- gelu in its tanh form with the products grouped as the kernel groups them:
    `(½ · y) · (1 + tanh (c · (y + ((c₃ · y) · y) · y)))`. -/
def kgelu (y : EReal) : EReal :=
  (Ideal.ofBits .f32 0x3F000000#32 * y)
    * (Ideal.ofBits .f32 0x3F800000#32
        + Ideal.tanh (Ideal.ofBits .f32 0x3F4C422A#32
            * (y + ((Ideal.ofBits .f32 0x3D372713#32 * y) * y) * y)))

/-- The kernel's grouping of the cubic term and the reference's give the same extended real: the
    product is associative. -/
theorem kgelu_eq (y : EReal) :
    kgelu y = (Ideal.ofBits .f32 0x3F000000#32 * y)
      * (Ideal.ofBits .f32 0x3F800000#32
          + Ideal.tanh (Ideal.ofBits .f32 0x3F4C422A#32
              * (y + Ideal.ofBits .f32 0x3D372713#32 * ((y * y) * y)))) := by
  unfold kgelu
  rw [mul_assoc (Ideal.ofBits .f32 0x3D372713#32) y y, mul_assoc (Ideal.ofBits .f32 0x3D372713#32) (y * y) y]

/-- The kernel's epilogue on a whole `1024 × 1024` tile, operation by operation. -/
def geluVec (y : FVec Ideal S1024x1024 .f32) : FVec Ideal S1024x1024 .f32 :=
  mulf (mulf (broadcast S1024x1024 (Scalar.ofBits (F := Ideal) .f32 0x3F000000#32)) y)
    (addf (broadcast S1024x1024 (Scalar.ofBits (F := Ideal) .f32 0x3F800000#32))
      (tanh (mulf (broadcast S1024x1024 (Scalar.ofBits (F := Ideal) .f32 0x3F4C422A#32))
        (addf y (mulf (mulf (mulf (broadcast S1024x1024 (Scalar.ofBits (F := Ideal) .f32 0x3D372713#32)) y) y) y)))))

/-- Entry by entry it is `kgelu`. -/
theorem geluVec_apply (y : FVec Ideal S1024x1024 .f32) (i : S1024x1024.Idx) : geluVec y i = kgelu (y i) := rfl

/-! ## The block product at an entry -/

theorem lhs_mm_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem lhs_mm_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_mm_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_mm_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- A `1024 × 1024` by `1024 × 2048` product into a zero accumulator, at entry `(r, j)`. -/
theorem mm_apply (a : FVec Ideal S1024x1024 .bf16) (b : FVec Ideal S1024x2048 .bf16) (r : Fin 1024) (j : Fin 2048) :
    matmul dot_S1024x1024_S1024x2048_S1024x2048_1_0_0_1_n_n none a b (constant (F := Ideal) S1024x2048 .f32 0x00000000#32) (ix2 r j)
      = ∑ κ : Fin 1024, a (ix2 r κ) * b (ix2 κ j) := by
  refine (Ideal.matmul_constant_zero_apply dot_S1024x1024_S1024x2048_S1024x2048_1_0_0_1_n_n none a b (ix2 r j)).trans ?_
  rw [← Equiv.sum_comp (ValueIdx.contrEquiv1 dot_S1024x1024_S1024x2048_S1024x2048_1_0_0_1_n_n 1024 rfl rfl).symm]
  refine Finset.sum_congr rfl fun k _ => ?_
  have hk := ValueIdx.contrEquiv1_symm_val dot_S1024x1024_S1024x2048_S1024x2048_1_0_0_1_n_n 1024 rfl rfl k
  have el : dot_S1024x1024_S1024x2048_S1024x2048_1_0_0_1_n_n.lhsIdx (ix2 r j) ((ValueIdx.contrEquiv1 dot_S1024x1024_S1024x2048_S1024x2048_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x2048_S1024x2048_1_0_0_1_n_n.rhsIdx (ix2 r j) ((ValueIdx.contrEquiv1 dot_S1024x1024_S1024x2048_S1024x2048_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-- The product of an already re-cast block of `x` with a loaded block of `w` (narrowed first: the identity). -/
def mm2 (a : FVec Ideal S1024x1024 .bf16) (b : FVec Ideal S1x1024x2048 .f32) : FVec Ideal S1024x2048 .f32 :=
  matmul dot_S1024x1024_S1024x2048_S1024x2048_1_0_0_1_n_n none a
    (truncf .bf16 (shapeCast S1024x2048 b shapeCasts_S1x1024x2048_S1024x2048) bitsLt_bf16_f32)
    (constant (F := Ideal) S1024x2048 .f32 0x00000000#32)

theorem mm2_apply (a : FVec Ideal S1024x1024 .bf16) (b : FVec Ideal S1x1024x2048 .f32) (r : Fin 1024) (j : Fin 2048) :
    mm2 a b (ix2 r j) = ∑ κ : Fin 1024, a (ix2 r κ) * b (ix3 (0 : Fin 1) κ j) := by
  unfold mm2
  refine (mm_apply _ _ r j).trans ?_
  refine Finset.sum_congr rfl fun κ _ => ?_
  rw [truncf_apply, shapeCast_1ab_ab_apply]

/-- The product of a loaded block of `x` (re-cast to a matrix) with a loaded block of `w`. -/
def mm3 (a : FVec Ideal S1x1024x1024 .bf16) (b : FVec Ideal S1x1024x2048 .f32) : FVec Ideal S1024x2048 .f32 :=
  mm2 (shapeCast S1024x1024 a shapeCasts_S1x1024x1024_S1024x1024) b

theorem mm3_apply (a : FVec Ideal S1x1024x1024 .bf16) (b : FVec Ideal S1x1024x2048 .f32) (r : Fin 1024) (j : Fin 2048) :
    mm3 a b (ix2 r j) = ∑ κ : Fin 1024, a (ix3 (0 : Fin 1) r κ) * b (ix3 (0 : Fin 1) κ j) := by
  unfold mm3
  refine (mm2_apply _ _ r j).trans ?_
  refine Finset.sum_congr rfl fun κ _ => ?_
  rw [shapeCast_1ab_ab_apply]

/-! ## Copies: a block re-cast, or narrowed, is the block -/

/-- A `[1,1024,1024]` block cast to a matrix, narrowed, and cast back: entry `(u, r, κ)` is the block's
    entry `(0, r, κ)`. -/
theorem castTrunc_apply (v : FVec Ideal S1x1024x1024 .f32) (u : Fin 1) (r κ : Fin 1024) :
    shapeCast S1x1024x1024 (truncf .bf16 (shapeCast S1024x1024 v shapeCasts_S1x1024x1024_S1024x1024) bitsLt_bf16_f32)
      shapeCasts_S1024x1024_S1x1024x1024 (ix3 u r κ) = v (ix3 (0 : Fin 1) r κ) := by
  rw [shapeCast_ab_1ab_apply, truncf_apply, shapeCast_1ab_ab_apply]

/-- … so the whole block is unchanged. -/
theorem castTrunc_eq (v : FVec Ideal S1x1024x1024 .f32) :
    (shapeCast S1x1024x1024 (truncf .bf16 (shapeCast S1024x1024 v shapeCasts_S1x1024x1024_S1024x1024) bitsLt_bf16_f32)
      shapeCasts_S1024x1024_S1x1024x1024 : S1x1024x1024.Idx → EReal) = v := by
  funext i
  obtain ⟨u, r, κ, rfl⟩ : ∃ (u : Fin 1) (r : Fin 1024) (κ : Fin 1024), i = ix3 u r κ := ⟨i 0, i 1, i 2, eq_ix3 i⟩
  obtain rfl : u = 0 := Subsingleton.elim _ _
  exact castTrunc_apply v 0 r κ

theorem pay1_apply (v : FVec Ideal S1x1024x1024 .f32) (u : Fin 1) (r κ : Fin 1024) :
    k0_pay1 (F := Ideal) v (ix3 u r κ) = v (ix3 (0 : Fin 1) r κ) :=
  castTrunc_apply v u r κ
theorem pay1_eq (v : FVec Ideal S1x1024x1024 .f32) : (k0_pay1 (F := Ideal) v : S1x1024x1024.Idx → EReal) = v :=
  castTrunc_eq v

theorem pay2_apply (v : FVec Ideal S1x1024x1024 .f32) (u : Fin 1) (r κ : Fin 1024) :
    k0_pay2 (F := Ideal) v (ix3 u r κ) = v (ix3 (0 : Fin 1) r κ) :=
  castTrunc_apply v u r κ
theorem pay2_eq (v : FVec Ideal S1x1024x1024 .f32) : (k0_pay2 (F := Ideal) v : S1x1024x1024.Idx → EReal) = v :=
  castTrunc_eq v

theorem pay3_apply (v : FVec Ideal S1x1024x1024 .f32) (u : Fin 1) (r κ : Fin 1024) :
    k0_pay3 (F := Ideal) v (ix3 u r κ) = v (ix3 (0 : Fin 1) r κ) :=
  castTrunc_apply v u r κ
theorem pay3_eq (v : FVec Ideal S1x1024x1024 .f32) : (k0_pay3 (F := Ideal) v : S1x1024x1024.Idx → EReal) = v :=
  castTrunc_eq v

theorem pay6_apply (v : FVec Ideal S1x1024x1024 .f32) (u : Fin 1) (r κ : Fin 1024) :
    k0_pay6 (F := Ideal) v (ix3 u r κ) = v (ix3 (0 : Fin 1) r κ) :=
  castTrunc_apply v u r κ
theorem pay6_eq (v : FVec Ideal S1x1024x1024 .f32) : (k0_pay6 (F := Ideal) v : S1x1024x1024.Idx → EReal) = v :=
  castTrunc_eq v

theorem pay7_apply (v : FVec Ideal S1x1024x1024 .f32) (u : Fin 1) (r κ : Fin 1024) :
    k0_pay7 (F := Ideal) v (ix3 u r κ) = v (ix3 (0 : Fin 1) r κ) :=
  castTrunc_apply v u r κ
theorem pay7_eq (v : FVec Ideal S1x1024x1024 .f32) : (k0_pay7 (F := Ideal) v : S1x1024x1024.Idx → EReal) = v :=
  castTrunc_eq v

theorem pay8_apply (v : FVec Ideal S1x1024x1024 .f32) (u : Fin 1) (r κ : Fin 1024) :
    k0_pay8 (F := Ideal) v (ix3 u r κ) = v (ix3 (0 : Fin 1) r κ) :=
  castTrunc_apply v u r κ
theorem pay8_eq (v : FVec Ideal S1x1024x1024 .f32) : (k0_pay8 (F := Ideal) v : S1x1024x1024.Idx → EReal) = v :=
  castTrunc_eq v

theorem pay9_apply (v : FVec Ideal S1x1024x1024 .f32) (u : Fin 1) (r κ : Fin 1024) :
    k0_pay9 (F := Ideal) v (ix3 u r κ) = v (ix3 (0 : Fin 1) r κ) :=
  castTrunc_apply v u r κ
theorem pay9_eq (v : FVec Ideal S1x1024x1024 .f32) : (k0_pay9 (F := Ideal) v : S1x1024x1024.Idx → EReal) = v :=
  castTrunc_eq v

theorem pay4_apply (v : FVec Ideal S1x1024x1024 .f32) (r κ : Fin 1024) :
    k0_pay4 (F := Ideal) v (ix2 r κ) = v (ix3 (0 : Fin 1) r κ) := by
  unfold k0_pay4
  rw [truncf_apply, shapeCast_1ab_ab_apply]

theorem pay5_apply (v : FVec Ideal S1024x1024 .bf16) (u : Fin 1) (r κ : Fin 1024) :
    k0_pay5 (F := Ideal) v (ix3 u r κ) = v (ix2 r κ) := by
  unfold k0_pay5
  rw [shapeCast_ab_1ab_apply]

theorem pay12_apply (v : FVec Ideal S1x1024x1024 .bf16) (r κ : Fin 1024) :
    k0_pay12 (F := Ideal) v (ix2 r κ) = v (ix3 (0 : Fin 1) r κ) := by
  unfold k0_pay12
  rw [shapeCast_1ab_ab_apply]

/-! ## Block products -/

theorem pay10_apply (a : FVec Ideal S1x1024x1024 .bf16) (b : FVec Ideal S1x1024x2048 .f32) (r : Fin 1024) (j : Fin 2048) :
    k0_pay10 (F := Ideal) a b (ix2 r j) = ∑ κ : Fin 1024, a (ix3 (0 : Fin 1) r κ) * b (ix3 (0 : Fin 1) κ j) :=
  mm3_apply a b r j

theorem pay11_apply (a : FVec Ideal S1x1024x1024 .bf16) (b : FVec Ideal S1x1024x2048 .f32) (r : Fin 1024) (j : Fin 2048) :
    k0_pay11 (F := Ideal) a b (ix2 r j) = ∑ κ : Fin 1024, a (ix3 (0 : Fin 1) r κ) * b (ix3 (0 : Fin 1) κ j) :=
  mm3_apply a b r j

theorem pay25_apply (a : FVec Ideal S1x1024x1024 .bf16) (b : FVec Ideal S1x1024x2048 .f32) (r : Fin 1024) (j : Fin 2048) :
    k0_pay25 (F := Ideal) a b (ix2 r j) = ∑ κ : Fin 1024, a (ix3 (0 : Fin 1) r κ) * b (ix3 (0 : Fin 1) κ j) :=
  mm3_apply a b r j

theorem pay28_apply (a : FVec Ideal S1x1024x1024 .bf16) (b : FVec Ideal S1x1024x2048 .f32) (r : Fin 1024) (j : Fin 2048) :
    k0_pay28 (F := Ideal) a b (ix2 r j) = ∑ κ : Fin 1024, a (ix3 (0 : Fin 1) r κ) * b (ix3 (0 : Fin 1) κ j) :=
  mm3_apply a b r j

/-! ## Accumulations: the running sum on the left, the block product on the right -/

theorem accMm2_apply (a : FVec Ideal S1024x1024 .bf16) (b : FVec Ideal S1x1024x2048 .f32) (acc : FVec Ideal S1024x2048 .f32)
    (r : Fin 1024) (j : Fin 2048) :
    addf (shapeCast S1024x2048 acc shapeCasts_S1024x2048_S1024x2048) (mm2 a b) (ix2 r j)
      = acc (ix2 r j) + ∑ κ : Fin 1024, a (ix2 r κ) * b (ix3 (0 : Fin 1) κ j) := by
  rw [addf_apply, shapeCast_self, mm2_apply]

theorem accMm3_apply (a : FVec Ideal S1x1024x1024 .bf16) (b : FVec Ideal S1x1024x2048 .f32) (acc : FVec Ideal S1024x2048 .f32)
    (r : Fin 1024) (j : Fin 2048) :
    addf (shapeCast S1024x2048 acc shapeCasts_S1024x2048_S1024x2048) (mm3 a b) (ix2 r j)
      = acc (ix2 r j) + ∑ κ : Fin 1024, a (ix3 (0 : Fin 1) r κ) * b (ix3 (0 : Fin 1) κ j) := by
  rw [addf_apply, shapeCast_self, mm3_apply]

/-- Here the block of `x` arrives already re-cast to a matrix. -/
theorem pay13_apply (a : FVec Ideal S1024x1024 .bf16) (b : FVec Ideal S1x1024x2048 .f32) (acc : FVec Ideal S1024x2048 .f32)
    (r : Fin 1024) (j : Fin 2048) :
    k0_pay13 (F := Ideal) a b acc (ix2 r j) = acc (ix2 r j) + ∑ κ : Fin 1024, a (ix2 r κ) * b (ix3 (0 : Fin 1) κ j) :=
  accMm2_apply a b acc r j

theorem pay14_apply (a : FVec Ideal S1x1024x1024 .bf16) (b : FVec Ideal S1x1024x2048 .f32) (acc : FVec Ideal S1024x2048 .f32)
    (r : Fin 1024) (j : Fin 2048) :
    k0_pay14 (F := Ideal) a b acc (ix2 r j) = acc (ix2 r j) + ∑ κ : Fin 1024, a (ix3 (0 : Fin 1) r κ) * b (ix3 (0 : Fin 1) κ j) :=
  accMm3_apply a b acc r j

theorem pay15_apply (a : FVec Ideal S1x1024x1024 .bf16) (b : FVec Ideal S1x1024x2048 .f32) (acc : FVec Ideal S1024x2048 .f32)
    (r : Fin 1024) (j : Fin 2048) :
    k0_pay15 (F := Ideal) a b acc (ix2 r j) = acc (ix2 r j) + ∑ κ : Fin 1024, a (ix3 (0 : Fin 1) r κ) * b (ix3 (0 : Fin 1) κ j) :=
  accMm3_apply a b acc r j

theorem pay16_apply (a : FVec Ideal S1x1024x1024 .bf16) (b : FVec Ideal S1x1024x2048 .f32) (acc : FVec Ideal S1024x2048 .f32)
    (r : Fin 1024) (j : Fin 2048) :
    k0_pay16 (F := Ideal) a b acc (ix2 r j) = acc (ix2 r j) + ∑ κ : Fin 1024, a (ix3 (0 : Fin 1) r κ) * b (ix3 (0 : Fin 1) κ j) :=
  accMm3_apply a b acc r j

theorem pay17_apply (a : FVec Ideal S1x1024x1024 .bf16) (b : FVec Ideal S1x1024x2048 .f32) (acc : FVec Ideal S1024x2048 .f32)
    (r : Fin 1024) (j : Fin 2048) :
    k0_pay17 (F := Ideal) a b acc (ix2 r j) = acc (ix2 r j) + ∑ κ : Fin 1024, a (ix3 (0 : Fin 1) r κ) * b (ix3 (0 : Fin 1) κ j) :=
  accMm3_apply a b acc r j

theorem pay18_apply (a : FVec Ideal S1x1024x1024 .bf16) (b : FVec Ideal S1x1024x2048 .f32) (acc : FVec Ideal S1024x2048 .f32)
    (r : Fin 1024) (j : Fin 2048) :
    k0_pay18 (F := Ideal) a b acc (ix2 r j) = acc (ix2 r j) + ∑ κ : Fin 1024, a (ix3 (0 : Fin 1) r κ) * b (ix3 (0 : Fin 1) κ j) :=
  accMm3_apply a b acc r j

theorem pay19_apply (a : FVec Ideal S1x1024x1024 .bf16) (b : FVec Ideal S1x1024x2048 .f32) (acc : FVec Ideal S1024x2048 .f32)
    (r : Fin 1024) (j : Fin 2048) :
    k0_pay19 (F := Ideal) a b acc (ix2 r j) = acc (ix2 r j) + ∑ κ : Fin 1024, a (ix3 (0 : Fin 1) r κ) * b (ix3 (0 : Fin 1) κ j) :=
  accMm3_apply a b acc r j

theorem pay20_apply (a : FVec Ideal S1x1024x1024 .bf16) (b : FVec Ideal S1x1024x2048 .f32) (acc : FVec Ideal S1024x2048 .f32)
    (r : Fin 1024) (j : Fin 2048) :
    k0_pay20 (F := Ideal) a b acc (ix2 r j) = acc (ix2 r j) + ∑ κ : Fin 1024, a (ix3 (0 : Fin 1) r κ) * b (ix3 (0 : Fin 1) κ j) :=
  accMm3_apply a b acc r j

theorem pay21_apply (a : FVec Ideal S1x1024x1024 .bf16) (b : FVec Ideal S1x1024x2048 .f32) (acc : FVec Ideal S1024x2048 .f32)
    (r : Fin 1024) (j : Fin 2048) :
    k0_pay21 (F := Ideal) a b acc (ix2 r j) = acc (ix2 r j) + ∑ κ : Fin 1024, a (ix3 (0 : Fin 1) r κ) * b (ix3 (0 : Fin 1) κ j) :=
  accMm3_apply a b acc r j

theorem pay22_apply (a : FVec Ideal S1x1024x1024 .bf16) (b : FVec Ideal S1x1024x2048 .f32) (acc : FVec Ideal S1024x2048 .f32)
    (r : Fin 1024) (j : Fin 2048) :
    k0_pay22 (F := Ideal) a b acc (ix2 r j) = acc (ix2 r j) + ∑ κ : Fin 1024, a (ix3 (0 : Fin 1) r κ) * b (ix3 (0 : Fin 1) κ j) :=
  accMm3_apply a b acc r j

theorem pay23_apply (a : FVec Ideal S1x1024x1024 .bf16) (b : FVec Ideal S1x1024x2048 .f32) (acc : FVec Ideal S1024x2048 .f32)
    (r : Fin 1024) (j : Fin 2048) :
    k0_pay23 (F := Ideal) a b acc (ix2 r j) = acc (ix2 r j) + ∑ κ : Fin 1024, a (ix3 (0 : Fin 1) r κ) * b (ix3 (0 : Fin 1) κ j) :=
  accMm3_apply a b acc r j

theorem pay24_apply (a : FVec Ideal S1x1024x1024 .bf16) (b : FVec Ideal S1x1024x2048 .f32) (acc : FVec Ideal S1024x2048 .f32)
    (r : Fin 1024) (j : Fin 2048) :
    k0_pay24 (F := Ideal) a b acc (ix2 r j) = acc (ix2 r j) + ∑ κ : Fin 1024, a (ix3 (0 : Fin 1) r κ) * b (ix3 (0 : Fin 1) κ j) :=
  accMm3_apply a b acc r j

/-! ## The epilogue: gelu of the running sum plus a 1024-column half of the last block product -/

/-- The running sum plus columns `o, …, o + 1023` of a `1024 × 2048` tile, at entry `(r, j)`. -/
theorem accSlice_apply (o : Nat) (h : S1024x2048.Slices ![0, o] S1024x1024) (acc : FVec Ideal S1024x1024 .f32)
    (P : FVec Ideal S1024x2048 .f32) (r j : Fin 1024) (k : Fin 2048) (hk : k.val = o + j.val) :
    addf (shapeCast S1024x1024 acc shapeCasts_S1024x1024_S1024x1024) (extractStridedSlice S1024x1024 ![0, o] P h) (ix2 r j)
      = acc (ix2 r j) + P (ix2 r k) := by
  rw [addf_apply, shapeCast_self, slice2_axis1_apply o P h r j k hk]

theorem pay26_apply (a : FVec Ideal S1x1024x1024 .bf16) (b : FVec Ideal S1x1024x2048 .f32) (acc : FVec Ideal S1024x1024 .f32)
    (r j : Fin 1024) :
    k0_pay26 (F := Ideal) a b acc (ix2 r j)
      = kgelu (acc (ix2 r j) + ∑ κ : Fin 1024, a (ix3 (0 : Fin 1) r κ) * b (ix3 (0 : Fin 1) κ (⟨j.val, by omega⟩ : Fin 2048))) := by
  refine (geluVec_apply _ (ix2 r j)).trans (congrArg kgelu ?_)
  refine (accSlice_apply 0 slices_S1024x2048_o0_0_S1024x1024 acc (k0_pay25 (F := Ideal) a b) r j ⟨j.val, by omega⟩ (Nat.zero_add _).symm).trans ?_
  rw [pay25_apply]

theorem pay27_apply (P : FVec Ideal S1024x2048 .f32) (acc : FVec Ideal S1024x1024 .f32) (r j : Fin 1024) :
    k0_pay27 (F := Ideal) P acc (ix2 r j) = kgelu (acc (ix2 r j) + P (ix2 r (⟨1024 + j.val, by omega⟩ : Fin 2048))) := by
  refine (geluVec_apply _ (ix2 r j)).trans (congrArg kgelu ?_)
  exact accSlice_apply 1024 slices_S1024x2048_o0_1024_S1024x1024 acc P r j ⟨1024 + j.val, by omega⟩ rfl

theorem pay29_apply (a : FVec Ideal S1x1024x1024 .bf16) (b : FVec Ideal S1x1024x2048 .f32) (acc : FVec Ideal S1024x1024 .f32)
    (r j : Fin 1024) :
    k0_pay29 (F := Ideal) a b acc (ix2 r j)
      = kgelu (acc (ix2 r j) + ∑ κ : Fin 1024, a (ix3 (0 : Fin 1) r κ) * b (ix3 (0 : Fin 1) κ (⟨j.val, by omega⟩ : Fin 2048))) := by
  refine (geluVec_apply _ (ix2 r j)).trans (congrArg kgelu ?_)
  refine (accSlice_apply 0 slices_S1024x2048_o0_0_S1024x1024 acc (k0_pay28 (F := Ideal) a b) r j ⟨j.val, by omega⟩ (Nat.zero_add _).symm).trans ?_
  rw [pay28_apply]

theorem pay30_apply (a : FVec Ideal S1x1024x1024 .bf16) (b : FVec Ideal S1x1024x2048 .f32) (acc : FVec Ideal S1024x1024 .f32)
    (r j : Fin 1024) :
    k0_pay30 (F := Ideal) a b acc (ix2 r j)
      = kgelu (acc (ix2 r j) + ∑ κ : Fin 1024, a (ix3 (0 : Fin 1) r κ) * b (ix3 (0 : Fin 1) κ (⟨1024 + j.val, by omega⟩ : Fin 2048))) := by
  refine (geluVec_apply _ (ix2 r j)).trans (congrArg kgelu ?_)
  refine (accSlice_apply 1024 slices_S1024x2048_o0_1024_S1024x1024 acc (k0_pay28 (F := Ideal) a b) r j ⟨1024 + j.val, by omega⟩ rfl).trans ?_
  rw [pay28_apply]

end Cert.PayIdx

end
-- ==== Proof.SumBlocks.lean ====
import Mathlib.Algebra.BigOperators.Fin
import Mathlib.Algebra.BigOperators.Group.Finset.Basic
import Mathlib.Logic.Equiv.Fin.Basic
import Mathlib.Algebra.Group.Fin.Basic
import Mathlib.Data.EReal.Basic

/-!
# A sum over 8192 terms, cut into eight blocks of 1024 and read in rotated order

For `f : Fin 8192 → M` in a commutative additive monoid and a starting block `c : Fin 8`, the block
sum `blockSum f c t` adds the 1024 consecutive terms of block `(c + t) mod 8`.  Adding the eight
block sums for `t = 0, …, 7`, left to right, gives the sum of all 8192 terms: the blocks partition
`Fin 8192` (`k = b * 1024 + κ`), and `t ↦ (c + t) mod 8` is a permutation of the eight blocks.
Only commutativity and associativity of `+` are used, so the law holds in the extended reals with
no finiteness assumption.
-/

namespace SumBlocks

variable {M : Type*} [AddCommMonoid M]

/-- The index `b * 1024 + κ` of entry `κ` of block `b`. -/
def blockIdx (b : Fin 8) (κ : Fin 1024) : Fin 8192 := ⟨b.val * 1024 + κ.val, by omega⟩

@[simp] theorem blockIdx_val (b : Fin 8) (κ : Fin 1024) : (blockIdx b κ).val = b.val * 1024 + κ.val := rfl

/-- The block visited at step `t` when starting from block `c`: `(c + t) mod 8`. -/
def rot (c : Fin 8) (t : ℕ) : Fin 8 := ⟨(c.val + t) % 8, Nat.mod_lt _ (by decide)⟩

@[simp] theorem rot_val (c : Fin 8) (t : ℕ) : (rot c t).val = (c.val + t) % 8 := rfl

/-- The sum of the 1024 terms of block `(c + t) mod 8`. -/
def blockSum (f : Fin 8192 → M) (c : Fin 8) (t : ℕ) : M := ∑ κ : Fin 1024, f (blockIdx (rot c t) κ)

/-- The whole sum is the sum over blocks of the sums inside each block. -/
theorem sum_eq_sum_blocks (f : Fin 8192 → M) :
    ∑ k : Fin 8192, f k = ∑ b : Fin 8, ∑ κ : Fin 1024, f (blockIdx b κ) := by
  rw [← Equiv.sum_comp (finProdFinEquiv (m := 8) (n := 1024)) f, Fintype.sum_prod_type]
  refine Finset.sum_congr rfl fun b _ => Finset.sum_congr rfl fun κ _ => ?_
  congr 1
  apply Fin.ext
  simp only [finProdFinEquiv_apply_val, blockIdx_val]
  omega

/-- Rotating the order in which the eight blocks are visited does not change the sum. -/
theorem sum_rot (g : Fin 8 → M) (c : Fin 8) : ∑ t : Fin 8, g (rot c t.val) = ∑ b : Fin 8, g b := by
  have h : ∀ t : Fin 8, rot c t.val = Equiv.addLeft c t := fun t => Fin.ext (by simp [Fin.val_add])
  simp only [h]
  exact Equiv.sum_comp (Equiv.addLeft c) g

/-- The eight rotated block sums, added left to right, are the sum of all 8192 terms. -/
theorem blocks_eq_sum (f : Fin 8192 → M) (c : Fin 8) :
    (((((((blockSum f c 0 + blockSum f c 1) + blockSum f c 2) + blockSum f c 3) + blockSum f c 4)
      + blockSum f c 5) + blockSum f c 6) + blockSum f c 7) = ∑ k : Fin 8192, f k := by
  rw [sum_eq_sum_blocks f, ← sum_rot (fun b => ∑ κ : Fin 1024, f (blockIdx b κ)) c, Fin.sum_univ_eight]
  rfl

/-- The same law in the extended reals, the block index written out. -/
theorem blocks_eq_sum_ereal (f : Fin 8192 → EReal) (c : Fin 8) :
    (((((((blockSum f c 0 + blockSum f c 1) + blockSum f c 2) + blockSum f c 3) + blockSum f c 4)
      + blockSum f c 5) + blockSum f c 6) + blockSum f c 7) = ∑ k : Fin 8192, f k :=
  blocks_eq_sum f c

theorem blockSum_def (f : Fin 8192 → M) (c : Fin 8) (t : ℕ) :
    blockSum f c t = ∑ κ : Fin 1024, f ⟨((c.val + t) % 8) * 1024 + κ.val, by omega⟩ := rfl

end SumBlocks
-- ==== Proof.Combine.lean ====
import proofs.«900489_g7700000000000490_dist_a2a_gemm_m8192_k8192_n4096_f32_gelu_v7x_i8_1_alg».proof.Proof.SumBlocks
import proofs.«900489_g7700000000000490_dist_a2a_gemm_m8192_k8192_n4096_f32_gelu_v7x_i8_1_alg».proof.Proof.RefValue
import proofs.«900489_g7700000000000490_dist_a2a_gemm_m8192_k8192_n4096_f32_gelu_v7x_i8_1_alg».proof.Proof.PayIdx
import Idealize.ShloMosaic.Lib.Layout

/-!
# One entry of the kernel's result is the reference's

Device `c` of eight computes rows `c·1024, …, c·1024 + 1023` of the result.  For a row `R` of `x` and a
column `J` of `w` put `f k = x[R, k] · w[k, J]`.  The kernel adds the eight block sums
`S t = ∑ κ < 1024, f ((c + t) mod 8 · 1024 + κ)` left to right and applies gelu with its own grouping
of the cubic term; the reference applies gelu to `∑ k < 8192, f k`.  The two agree: the blocks
partition the 8192 terms and are visited in a rotated order (commutativity and associativity of the
sum), and the two gelus differ by the association of a product.  Nothing here needs a finite entry.

Also here: what block `c` of an array cut along its columns, or along its rows, holds at an entry.
-/

noncomputable section

namespace Cert.Combine

open Cert.ReferenceIdeal Idealize.ShloMosaic Idealize.ShloMosaic.ValueIdx
open SumBlocks (blockIdx rot blockSum)

/-- The reference's gelu and the kernel's are one function. -/
theorem gelu_eq_kgelu (y : EReal) : Cert.RefValue.gelu y = Cert.PayIdx.kgelu y :=
  (Cert.PayIdx.kgelu_eq y).symm

/-- Eight rotated block sums, added left to right, then the kernel's gelu: the reference's gelu of the
    whole sum. -/
theorem kgelu_blocks (f : Fin 8192 → EReal) (c : Fin 8) :
    Cert.PayIdx.kgelu (((((((blockSum f c 0 + blockSum f c 1) + blockSum f c 2) + blockSum f c 3) + blockSum f c 4)
      + blockSum f c 5) + blockSum f c 6) + blockSum f c 7) = Cert.RefValue.gelu (∑ k : Fin 8192, f k) := by
  rw [SumBlocks.blocks_eq_sum f c, gelu_eq_kgelu]

/-- The same at an entry `(R, J)` of the reference's result, the block sums written out over `x` and `w`. -/
theorem kgelu_blocks_Gref (x : FVec Ideal S8192x8192 .f32) (w : FVec Ideal S8192x4096 .f32) (c : Fin 8)
    (R : Fin 8192) (J : Fin 4096) :
    Cert.PayIdx.kgelu
      ((((((((∑ κ : Fin 1024, x (ix2 R (blockIdx (rot c 0) κ)) * w (ix2 (blockIdx (rot c 0) κ) J))
        + ∑ κ : Fin 1024, x (ix2 R (blockIdx (rot c 1) κ)) * w (ix2 (blockIdx (rot c 1) κ) J))
        + ∑ κ : Fin 1024, x (ix2 R (blockIdx (rot c 2) κ)) * w (ix2 (blockIdx (rot c 2) κ) J))
        + ∑ κ : Fin 1024, x (ix2 R (blockIdx (rot c 3) κ)) * w (ix2 (blockIdx (rot c 3) κ) J))
        + ∑ κ : Fin 1024, x (ix2 R (blockIdx (rot c 4) κ)) * w (ix2 (blockIdx (rot c 4) κ) J))
        + ∑ κ : Fin 1024, x (ix2 R (blockIdx (rot c 5) κ)) * w (ix2 (blockIdx (rot c 5) κ) J))
        + ∑ κ : Fin 1024, x (ix2 R (blockIdx (rot c 6) κ)) * w (ix2 (blockIdx (rot c 6) κ) J))
        + ∑ κ : Fin 1024, x (ix2 R (blockIdx (rot c 7) κ)) * w (ix2 (blockIdx (rot c 7) κ) J))
      = Cert.RefValue.Gref x w (ix2 R J) := by
  rw [Cert.RefValue.Gref_ix2]
  exact kgelu_blocks (fun k => x (ix2 R k) * w (ix2 k J)) c

/-! ## Blocks of the whole arrays at an entry -/

/-- Block `c` of eight of an `8192 × 8192` array cut along its columns: entry `(r, κ)` is the array's
    entry `(r, c·1024 + κ)`. -/
theorem colBlock_apply {α : Type} (x : (⟨2, ![8192, 8192]⟩ : Shape).Idx → α) (c : Fin 8) (r : Fin 8192) (κ : Fin 1024) :
    (Layout.block ⟨2, ![8192, 1024]⟩ ⟨2, ![8192, 8192]⟩ 1 8 c x) (ix2 r κ)
      = x (ix2 r (⟨c.val * 1024 + κ.val, by omega⟩ : Fin 8192)) := by
  rw [Layout.block_apply]
  congr 1
  funext a
  match a with
  | ⟨0, _⟩ => rfl
  | ⟨1, _⟩ => rfl

/-- The same entry through `blockIdx`. -/
theorem colBlock_apply' {α : Type} (x : (⟨2, ![8192, 8192]⟩ : Shape).Idx → α) (c : Fin 8) (r : Fin 8192) (κ : Fin 1024) :
    (Layout.block ⟨2, ![8192, 1024]⟩ ⟨2, ![8192, 8192]⟩ 1 8 c x) (ix2 r κ) = x (ix2 r (blockIdx c κ)) :=
  colBlock_apply x c r κ

/-- Block `c` of eight of an `8192 × 4096` array cut along its rows: entry `(r, j)` is the array's
    entry `(c·1024 + r, j)`. -/
theorem rowBlock_apply {α : Type} (v : (⟨2, ![8192, 4096]⟩ : Shape).Idx → α) (c : Fin 8) (r : Fin 1024) (j : Fin 4096) :
    (Layout.block ⟨2, ![1024, 4096]⟩ ⟨2, ![8192, 4096]⟩ 0 8 c v) (ix2 r j)
      = v (ix2 (⟨c.val * 1024 + r.val, by omega⟩ : Fin 8192) j) := by
  rw [Layout.block_apply]
  congr 1
  funext a
  match a with
  | ⟨0, _⟩ => rfl
  | ⟨1, _⟩ => rfl

/-- The same entry through `blockIdx`. -/
theorem rowBlock_apply' {α : Type} (v : (⟨2, ![8192, 4096]⟩ : Shape).Idx → α) (c : Fin 8) (r : Fin 1024) (j : Fin 4096) :
    (Layout.block ⟨2, ![1024, 4096]⟩ ⟨2, ![8192, 4096]⟩ 0 8 c v) (ix2 r j) = v (ix2 (blockIdx c r) j) :=
  rowBlock_apply v c r j

/-- Entry `(r, J)` of device `c`'s part of the reference's result is the kernel's gelu of the eight
    rotated block sums of row `c·1024 + r` of `x` against column `J` of `w`. -/
theorem kgelu_blocks_block (x : FVec Ideal S8192x8192 .f32) (w : FVec Ideal S8192x4096 .f32) (c : Fin 8)
    (r : Fin 1024) (J : Fin 4096) :
    Cert.PayIdx.kgelu
      ((((((((∑ κ : Fin 1024, x (ix2 (blockIdx c r) (blockIdx (rot c 0) κ)) * w (ix2 (blockIdx (rot c 0) κ) J))
        + ∑ κ : Fin 1024, x (ix2 (blockIdx c r) (blockIdx (rot c 1) κ)) * w (ix2 (blockIdx (rot c 1) κ) J))
        + ∑ κ : Fin 1024, x (ix2 (blockIdx c r) (blockIdx (rot c 2) κ)) * w (ix2 (blockIdx (rot c 2) κ) J))
        + ∑ κ : Fin 1024, x (ix2 (blockIdx c r) (blockIdx (rot c 3) κ)) * w (ix2 (blockIdx (rot c 3) κ) J))
        + ∑ κ : Fin 1024, x (ix2 (blockIdx c r) (blockIdx (rot c 4) κ)) * w (ix2 (blockIdx (rot c 4) κ) J))
        + ∑ κ : Fin 1024, x (ix2 (blockIdx c r) (blockIdx (rot c 5) κ)) * w (ix2 (blockIdx (rot c 5) κ) J))
        + ∑ κ : Fin 1024, x (ix2 (blockIdx c r) (blockIdx (rot c 6) κ)) * w (ix2 (blockIdx (rot c 6) κ) J))
        + ∑ κ : Fin 1024, x (ix2 (blockIdx c r) (blockIdx (rot c 7) κ)) * w (ix2 (blockIdx (rot c 7) κ) J))
      = (Layout.block ⟨2, ![1024, 4096]⟩ ⟨2, ![8192, 4096]⟩ 0 8 c (Cert.RefValue.Gref x w)) (ix2 r J) := by
  rw [rowBlock_apply']
  exact kgelu_blocks_Gref x w c (blockIdx c r) J

/-- The same, for eight partial products `P 0, …, P 7` known only through what each one sums: whatever the
    blocks the kernel multiplied at step `t`, if their product at the entry is the block sum of row
    `c·1024 + r` of `x` against column `J` of `w` over block `(c + t) mod 8`, the kernel's final entry is the
    reference's. -/
theorem entry_of_partials (x : FVec Ideal S8192x8192 .f32) (w : FVec Ideal S8192x4096 .f32) (c : Fin 8)
    (r : Fin 1024) (J : Fin 4096) (P : ℕ → EReal)
    (hP : ∀ t : ℕ, t < 8 → P t
      = ∑ κ : Fin 1024, x (ix2 (blockIdx c r) (blockIdx (rot c t) κ)) * w (ix2 (blockIdx (rot c t) κ) J)) :
    Cert.PayIdx.kgelu (((((((P 0 + P 1) + P 2) + P 3) + P 4) + P 5) + P 6) + P 7)
      = (Layout.block ⟨2, ![1024, 4096]⟩ ⟨2, ![8192, 4096]⟩ 0 8 c (Cert.RefValue.Gref x w)) (ix2 r J) := by
  rw [hP 0 (by omega), hP 1 (by omega), hP 2 (by omega), hP 3 (by omega), hP 4 (by omega), hP 5 (by omega),
    hP 6 (by omega), hP 7 (by omega)]
  exact kgelu_blocks_block x w c r J

end Cert.Combine

end
-- ==== Proof.KernelValue.lean ====
import proofs.«900489_g7700000000000490_dist_a2a_gemm_m8192_k8192_n4096_f32_gelu_v7x_i8_1_alg».proof.Proof.PayIdx
import proofs.«900489_g7700000000000490_dist_a2a_gemm_m8192_k8192_n4096_f32_gelu_v7x_i8_1_alg».proof.Proof.Combine

/-!
# The kernel's arithmetic, composed: from the loaded blocks to a quarter of the result

`A t` is the `1024 × 1024` block of `x` the device multiplies at step `t` (its own rows, the columns of
`K`-block `(c + t) mod 8`), `B t h` the `1024 × 2048` block of `w` at step `t` for column half `h` (rows
of the same `K`-block).  Each column half of the result starts as the product at step 0, takes the
products of steps 1 to 6 on top, one after the other, and at step 7 each 1024-column quarter of the
half becomes gelu of the running sum plus the quarter's share of the last product.  Entry `(r, j)` of
quarter `q` of half `h` is therefore gelu of eight block sums added left to right, which is the
reference's entry `(c·1024 + r, 2048 h + 1024 q + j)`.
-/

noncomputable section

namespace Cert.KernelValue

open Cert.KernelIdeal Cert.KernelIdeal.Gen Idealize.ShloMosaic Idealize.ShloMosaic.ValueIdx
open Cert.PayIdx
open SumBlocks (blockIdx rot)

variable (A : Fin 8 → FVec Ideal S1x1024x1024 .bf16) (B : Fin 8 → Fin 2 → FVec Ideal S1x1024x2048 .f32)

/-! ## The chain of running sums, as the kernel composes its payloads -/

/-- Column half 0 after step 0: the first block product. -/
def accL0 : FVec Ideal S1024x2048 .f32 := k0_pay10 (F := Ideal) (A 0) (B 0 0)
/-- Column half 0 after step 1: the block of `x` is re-cast to a matrix before the product. -/
def accL1 : FVec Ideal S1024x2048 .f32 := k0_pay13 (F := Ideal) (k0_pay12 (F := Ideal) (A 1)) (B 1 0) (accL0 A B)
/-- Column half 0 after step 2. -/
def accL2 : FVec Ideal S1024x2048 .f32 := k0_pay15 (F := Ideal) (A 2) (B 2 0) (accL1 A B)
/-- Column half 0 after step 3. -/
def accL3 : FVec Ideal S1024x2048 .f32 := k0_pay17 (F := Ideal) (A 3) (B 3 0) (accL2 A B)
/-- Column half 0 after step 4. -/
def accL4 : FVec Ideal S1024x2048 .f32 := k0_pay19 (F := Ideal) (A 4) (B 4 0) (accL3 A B)
/-- Column half 0 after step 5. -/
def accL5 : FVec Ideal S1024x2048 .f32 := k0_pay21 (F := Ideal) (A 5) (B 5 0) (accL4 A B)
/-- Column half 0 after step 6. -/
def accL6 : FVec Ideal S1024x2048 .f32 := k0_pay23 (F := Ideal) (A 6) (B 6 0) (accL5 A B)

/-- Column half 1 after step 0. -/
def accR0 : FVec Ideal S1024x2048 .f32 := k0_pay11 (F := Ideal) (A 0) (B 0 1)
/-- Column half 1 after step 1. -/
def accR1 : FVec Ideal S1024x2048 .f32 := k0_pay14 (F := Ideal) (A 1) (B 1 1) (accR0 A B)
/-- Column half 1 after step 2. -/
def accR2 : FVec Ideal S1024x2048 .f32 := k0_pay16 (F := Ideal) (A 2) (B 2 1) (accR1 A B)
/-- Column half 1 after step 3. -/
def accR3 : FVec Ideal S1024x2048 .f32 := k0_pay18 (F := Ideal) (A 3) (B 3 1) (accR2 A B)
/-- Column half 1 after step 4. -/
def accR4 : FVec Ideal S1024x2048 .f32 := k0_pay20 (F := Ideal) (A 4) (B 4 1) (accR3 A B)
/-- Column half 1 after step 5. -/
def accR5 : FVec Ideal S1024x2048 .f32 := k0_pay22 (F := Ideal) (A 5) (B 5 1) (accR4 A B)
/-- Column half 1 after step 6. -/
def accR6 : FVec Ideal S1024x2048 .f32 := k0_pay24 (F := Ideal) (A 6) (B 6 1) (accR5 A B)

/-- The running sum of column half `h` after step `t`, `t = 0, …, 6`. -/
def accH (h : Fin 2) (t : Fin 7) : FVec Ideal S1024x2048 .f32 :=
  match h with
  | ⟨0, _⟩ => (match t with
    | ⟨0, _⟩ => accL0 A B | ⟨1, _⟩ => accL1 A B | ⟨2, _⟩ => accL2 A B | ⟨3, _⟩ => accL3 A B
    | ⟨4, _⟩ => accL4 A B | ⟨5, _⟩ => accL5 A B | ⟨6, _⟩ => accL6 A B)
  | ⟨1, _⟩ => (match t with
    | ⟨0, _⟩ => accR0 A B | ⟨1, _⟩ => accR1 A B | ⟨2, _⟩ => accR2 A B | ⟨3, _⟩ => accR3 A B
    | ⟨4, _⟩ => accR4 A B | ⟨5, _⟩ => accR5 A B | ⟨6, _⟩ => accR6 A B)

/-- Columns `off, …, off + 1023` of a `1024 × 2048` tile, as a `1024 × 1024` tile. -/
def cols (v : FVec Ideal S1024x2048 .f32) (off : Nat) (hoff : off + 1024 ≤ 2048) : FVec Ideal S1024x1024 .f32 :=
  fun i => v (ix2 (⟨(i 0).val, idx2_lt0 i⟩ : Fin 1024) (⟨off + (i 1).val, by have := idx2_lt1 i; omega⟩ : Fin 2048))

theorem cols_apply (v : FVec Ideal S1024x2048 .f32) (off : Nat) (hoff : off + 1024 ≤ 2048) (r j : Fin 1024) :
    cols v off hoff (ix2 r j) = v (ix2 r (⟨off + j.val, by omega⟩ : Fin 2048)) := rfl

/-- Quarter 0 of half 0: gelu of the running sum's columns 0 to 1023 plus the last product's. -/
def quarter00 : FVec Ideal S1024x1024 .f32 := k0_pay26 (F := Ideal) (A 7) (B 7 0) (cols (accL6 A B) 0 (by omega))
/-- Quarter 1 of half 0: the last product is handed over whole, its columns 1024 to 2047 are used. -/
def quarter01 : FVec Ideal S1024x1024 .f32 :=
  k0_pay27 (F := Ideal) (k0_pay25 (F := Ideal) (A 7) (B 7 0)) (cols (accL6 A B) 1024 (by omega))
/-- Quarter 0 of half 1. -/
def quarter10 : FVec Ideal S1024x1024 .f32 := k0_pay29 (F := Ideal) (A 7) (B 7 1) (cols (accR6 A B) 0 (by omega))
/-- Quarter 1 of half 1. -/
def quarter11 : FVec Ideal S1024x1024 .f32 := k0_pay30 (F := Ideal) (A 7) (B 7 1) (cols (accR6 A B) 1024 (by omega))

/-- Quarter `q` of column half `h` of the device's result. -/
def quarter (h q : Fin 2) : FVec Ideal S1024x1024 .f32 :=
  match h with
  | ⟨0, _⟩ => (match q with | ⟨0, _⟩ => quarter00 A B | ⟨1, _⟩ => quarter01 A B)
  | ⟨1, _⟩ => (match q with | ⟨0, _⟩ => quarter10 A B | ⟨1, _⟩ => quarter11 A B)

theorem accH_0_0 : accH A B 0 0 = k0_pay10 (F := Ideal) (A 0) (B 0 0) := rfl
theorem accH_0_1 : accH A B 0 1 = k0_pay13 (F := Ideal) (k0_pay12 (F := Ideal) (A 1)) (B 1 0) (accH A B 0 0) := rfl
theorem accH_0_2 : accH A B 0 2 = k0_pay15 (F := Ideal) (A 2) (B 2 0) (accH A B 0 1) := rfl
theorem accH_0_3 : accH A B 0 3 = k0_pay17 (F := Ideal) (A 3) (B 3 0) (accH A B 0 2) := rfl
theorem accH_0_4 : accH A B 0 4 = k0_pay19 (F := Ideal) (A 4) (B 4 0) (accH A B 0 3) := rfl
theorem accH_0_5 : accH A B 0 5 = k0_pay21 (F := Ideal) (A 5) (B 5 0) (accH A B 0 4) := rfl
theorem accH_0_6 : accH A B 0 6 = k0_pay23 (F := Ideal) (A 6) (B 6 0) (accH A B 0 5) := rfl
theorem accH_1_0 : accH A B 1 0 = k0_pay11 (F := Ideal) (A 0) (B 0 1) := rfl
theorem accH_1_1 : accH A B 1 1 = k0_pay14 (F := Ideal) (A 1) (B 1 1) (accH A B 1 0) := rfl
theorem accH_1_2 : accH A B 1 2 = k0_pay16 (F := Ideal) (A 2) (B 2 1) (accH A B 1 1) := rfl
theorem accH_1_3 : accH A B 1 3 = k0_pay18 (F := Ideal) (A 3) (B 3 1) (accH A B 1 2) := rfl
theorem accH_1_4 : accH A B 1 4 = k0_pay20 (F := Ideal) (A 4) (B 4 1) (accH A B 1 3) := rfl
theorem accH_1_5 : accH A B 1 5 = k0_pay22 (F := Ideal) (A 5) (B 5 1) (accH A B 1 4) := rfl
theorem accH_1_6 : accH A B 1 6 = k0_pay24 (F := Ideal) (A 6) (B 6 1) (accH A B 1 5) := rfl
theorem quarter_0_0 : quarter A B 0 0 = k0_pay26 (F := Ideal) (A 7) (B 7 0) (cols (accH A B 0 6) 0 (by omega)) := rfl
theorem quarter_0_1 : quarter A B 0 1
    = k0_pay27 (F := Ideal) (k0_pay25 (F := Ideal) (A 7) (B 7 0)) (cols (accH A B 0 6) 1024 (by omega)) := rfl
theorem quarter_1_0 : quarter A B 1 0 = k0_pay29 (F := Ideal) (A 7) (B 7 1) (cols (accH A B 1 6) 0 (by omega)) := rfl
theorem quarter_1_1 : quarter A B 1 1 = k0_pay30 (F := Ideal) (A 7) (B 7 1) (cols (accH A B 1 6) 1024 (by omega)) := rfl

/-! ## The chain at an entry -/

/-- The block product of step `t` for column half `h`, at row `r` and column `jj` of the half. -/
def part (t : Fin 8) (h : Fin 2) (r : Fin 1024) (jj : Fin 2048) : EReal :=
  ∑ κ : Fin 1024, A t (ix3 (0 : Fin 1) r κ) * B t h (ix3 (0 : Fin 1) κ jj)

theorem accL0_apply (r : Fin 1024) (jj : Fin 2048) : accL0 A B (ix2 r jj) = part A B 0 0 r jj :=
  pay10_apply (A 0) (B 0 0) r jj
theorem accL1_apply (r : Fin 1024) (jj : Fin 2048) : accL1 A B (ix2 r jj) = (part A B 0 0 r jj + part A B 1 0 r jj) := by
  unfold accL1
  rw [pay13_apply, accL0_apply]
  refine congrArg (part A B 0 0 r jj + ·) (Finset.sum_congr rfl fun κ _ => ?_)
  rw [pay12_apply]
theorem accL2_apply (r : Fin 1024) (jj : Fin 2048) : accL2 A B (ix2 r jj) = ((part A B 0 0 r jj + part A B 1 0 r jj) + part A B 2 0 r jj) := by
  unfold accL2
  rw [pay15_apply, accL1_apply]
  rfl
theorem accL3_apply (r : Fin 1024) (jj : Fin 2048) : accL3 A B (ix2 r jj) = (((part A B 0 0 r jj + part A B 1 0 r jj) + part A B 2 0 r jj) + part A B 3 0 r jj) := by
  unfold accL3
  rw [pay17_apply, accL2_apply]
  rfl
theorem accL4_apply (r : Fin 1024) (jj : Fin 2048) : accL4 A B (ix2 r jj) = ((((part A B 0 0 r jj + part A B 1 0 r jj) + part A B 2 0 r jj) + part A B 3 0 r jj) + part A B 4 0 r jj) := by
  unfold accL4
  rw [pay19_apply, accL3_apply]
  rfl
theorem accL5_apply (r : Fin 1024) (jj : Fin 2048) : accL5 A B (ix2 r jj) = (((((part A B 0 0 r jj + part A B 1 0 r jj) + part A B 2 0 r jj) + part A B 3 0 r jj) + part A B 4 0 r jj) + part A B 5 0 r jj) := by
  unfold accL5
  rw [pay21_apply, accL4_apply]
  rfl
theorem accL6_apply (r : Fin 1024) (jj : Fin 2048) : accL6 A B (ix2 r jj) = ((((((part A B 0 0 r jj + part A B 1 0 r jj) + part A B 2 0 r jj) + part A B 3 0 r jj) + part A B 4 0 r jj) + part A B 5 0 r jj) + part A B 6 0 r jj) := by
  unfold accL6
  rw [pay23_apply, accL5_apply]
  rfl

theorem accR0_apply (r : Fin 1024) (jj : Fin 2048) : accR0 A B (ix2 r jj) = part A B 0 1 r jj :=
  pay11_apply (A 0) (B 0 1) r jj
theorem accR1_apply (r : Fin 1024) (jj : Fin 2048) : accR1 A B (ix2 r jj) = (part A B 0 1 r jj + part A B 1 1 r jj) := by
  unfold accR1
  rw [pay14_apply, accR0_apply]
  rfl
theorem accR2_apply (r : Fin 1024) (jj : Fin 2048) : accR2 A B (ix2 r jj) = ((part A B 0 1 r jj + part A B 1 1 r jj) + part A B 2 1 r jj) := by
  unfold accR2
  rw [pay16_apply, accR1_apply]
  rfl
theorem accR3_apply (r : Fin 1024) (jj : Fin 2048) : accR3 A B (ix2 r jj) = (((part A B 0 1 r jj + part A B 1 1 r jj) + part A B 2 1 r jj) + part A B 3 1 r jj) := by
  unfold accR3
  rw [pay18_apply, accR2_apply]
  rfl
theorem accR4_apply (r : Fin 1024) (jj : Fin 2048) : accR4 A B (ix2 r jj) = ((((part A B 0 1 r jj + part A B 1 1 r jj) + part A B 2 1 r jj) + part A B 3 1 r jj) + part A B 4 1 r jj) := by
  unfold accR4
  rw [pay20_apply, accR3_apply]
  rfl
theorem accR5_apply (r : Fin 1024) (jj : Fin 2048) : accR5 A B (ix2 r jj) = (((((part A B 0 1 r jj + part A B 1 1 r jj) + part A B 2 1 r jj) + part A B 3 1 r jj) + part A B 4 1 r jj) + part A B 5 1 r jj) := by
  unfold accR5
  rw [pay22_apply, accR4_apply]
  rfl
theorem accR6_apply (r : Fin 1024) (jj : Fin 2048) : accR6 A B (ix2 r jj) = ((((((part A B 0 1 r jj + part A B 1 1 r jj) + part A B 2 1 r jj) + part A B 3 1 r jj) + part A B 4 1 r jj) + part A B 5 1 r jj) + part A B 6 1 r jj) := by
  unfold accR6
  rw [pay24_apply, accR5_apply]
  rfl

/-- Column `1024 q + j` of a half. -/
abbrev qcol (q : Fin 2) (j : Fin 1024) : Fin 2048 := ⟨1024 * q.val + j.val, by omega⟩
/-- Column `2048 h + 1024 q + j` of the device's result. -/
abbrev ocol (h q : Fin 2) (j : Fin 1024) : Fin 4096 := ⟨2048 * h.val + 1024 * q.val + j.val, by omega⟩

theorem quarter00_apply (r j : Fin 1024) :
    quarter00 A B (ix2 r j) = kgelu (((((((part A B 0 0 r (qcol 0 j) + part A B 1 0 r (qcol 0 j)) + part A B 2 0 r (qcol 0 j)) + part A B 3 0 r (qcol 0 j)) + part A B 4 0 r (qcol 0 j)) + part A B 5 0 r (qcol 0 j)) + part A B 6 0 r (qcol 0 j)) + part A B 7 0 r (qcol 0 j)) := by
  unfold quarter00
  rw [pay26_apply, cols_apply]
  have e0 : (⟨0 + j.val, by omega⟩ : Fin 2048) = qcol 0 j := Fin.ext (by simp)
  have e1 : (⟨j.val, by omega⟩ : Fin 2048) = qcol 0 j := Fin.ext (by simp)
  rw [e0, e1, accL6_apply]
  rfl

theorem quarter01_apply (r j : Fin 1024) :
    quarter01 A B (ix2 r j) = kgelu (((((((part A B 0 0 r (qcol 1 j) + part A B 1 0 r (qcol 1 j)) + part A B 2 0 r (qcol 1 j)) + part A B 3 0 r (qcol 1 j)) + part A B 4 0 r (qcol 1 j)) + part A B 5 0 r (qcol 1 j)) + part A B 6 0 r (qcol 1 j)) + part A B 7 0 r (qcol 1 j)) := by
  unfold quarter01
  rw [pay27_apply, cols_apply, pay25_apply]
  have e1 : (⟨1024 + j.val, by omega⟩ : Fin 2048) = qcol 1 j := Fin.ext (by simp)
  rw [e1, accL6_apply]
  rfl

theorem quarter10_apply (r j : Fin 1024) :
    quarter10 A B (ix2 r j) = kgelu (((((((part A B 0 1 r (qcol 0 j) + part A B 1 1 r (qcol 0 j)) + part A B 2 1 r (qcol 0 j)) + part A B 3 1 r (qcol 0 j)) + part A B 4 1 r (qcol 0 j)) + part A B 5 1 r (qcol 0 j)) + part A B 6 1 r (qcol 0 j)) + part A B 7 1 r (qcol 0 j)) := by
  unfold quarter10
  rw [pay29_apply, cols_apply]
  have e0 : (⟨0 + j.val, by omega⟩ : Fin 2048) = qcol 0 j := Fin.ext (by simp)
  have e1 : (⟨j.val, by omega⟩ : Fin 2048) = qcol 0 j := Fin.ext (by simp)
  rw [e0, e1, accR6_apply]
  rfl

theorem quarter11_apply (r j : Fin 1024) :
    quarter11 A B (ix2 r j) = kgelu (((((((part A B 0 1 r (qcol 1 j) + part A B 1 1 r (qcol 1 j)) + part A B 2 1 r (qcol 1 j)) + part A B 3 1 r (qcol 1 j)) + part A B 4 1 r (qcol 1 j)) + part A B 5 1 r (qcol 1 j)) + part A B 6 1 r (qcol 1 j)) + part A B 7 1 r (qcol 1 j)) := by
  unfold quarter11
  rw [pay30_apply, cols_apply]
  have e1 : (⟨1024 + j.val, by omega⟩ : Fin 2048) = qcol 1 j := Fin.ext (by simp)
  rw [e1, accR6_apply]
  rfl

/-- Entry `(r, j)` of quarter `q` of half `h`: the kernel's gelu of the eight block products at row `r`,
    column `1024 q + j` of the half, added left to right. -/
theorem quarter_apply (h q : Fin 2) (r j : Fin 1024) :
    quarter A B h q (ix2 r j)
      = kgelu (((((((part A B 0 h r (qcol q j) + part A B 1 h r (qcol q j)) + part A B 2 h r (qcol q j))
          + part A B 3 h r (qcol q j)) + part A B 4 h r (qcol q j)) + part A B 5 h r (qcol q j))
          + part A B 6 h r (qcol q j)) + part A B 7 h r (qcol q j)) := by
  match h, q with
  | ⟨0, _⟩, ⟨0, _⟩ => exact quarter00_apply A B r j
  | ⟨0, _⟩, ⟨1, _⟩ => exact quarter01_apply A B r j
  | ⟨1, _⟩, ⟨0, _⟩ => exact quarter10_apply A B r j
  | ⟨1, _⟩, ⟨1, _⟩ => exact quarter11_apply A B r j

/-- When the loaded blocks are what the exchange delivers — `A t` the rows `c·1024 + r` of `x` in the
    columns of block `(c + t) mod 8`, `B t h` the rows of that block of `w` in column half `h` — a quarter
    of the device's result is that part of block `c` of the reference's result. -/
theorem quarter_block (x : FVec Ideal Cert.ReferenceIdeal.S8192x8192 .f32) (w : FVec Ideal Cert.ReferenceIdeal.S8192x4096 .f32)
    (c : Fin 8)
    (hA : ∀ (t : Fin 8) (r κ : Fin 1024), A t (ix3 (0 : Fin 1) r κ) = x (ix2 (blockIdx c r) (blockIdx (rot c t.val) κ)))
    (hB : ∀ (t : Fin 8) (h : Fin 2) (κ : Fin 1024) (jj : Fin 2048),
      B t h (ix3 (0 : Fin 1) κ jj) = w (ix2 (blockIdx (rot c t.val) κ) (⟨2048 * h.val + jj.val, by omega⟩ : Fin 4096)))
    (h q : Fin 2) (r j : Fin 1024) :
    quarter A B h q (ix2 r j)
      = (Layout.block ⟨2, ![1024, 4096]⟩ ⟨2, ![8192, 4096]⟩ 0 8 c (Cert.RefValue.Gref x w)) (ix2 r (ocol h q j)) := by
  rw [quarter_apply]
  have hcol : (⟨2048 * h.val + (qcol q j).val, by omega⟩ : Fin 4096) = ocol h q j := Fin.ext (by simp; omega)
  have hp : ∀ t : Fin 8, part A B t h r (qcol q j)
      = ∑ κ : Fin 1024, x (ix2 (blockIdx c r) (blockIdx (rot c t.val) κ)) * w (ix2 (blockIdx (rot c t.val) κ) (ocol h q j)) := by
    intro t
    unfold part
    refine Finset.sum_congr rfl fun κ _ => ?_
    rw [hA, hB, hcol]
  rw [hp 0, hp 1, hp 2, hp 3, hp 4, hp 5, hp 6, hp 7]
  exact Cert.Combine.kgelu_blocks_block x w c r (ocol h q j)

/-! ## From the four quarters of both halves to the device's whole result -/

/-- Every column of the device's result is column `j` of quarter `q` of half `h`. -/
theorem col_split (J : Fin 4096) : ∃ (h q : Fin 2) (j : Fin 1024), J = ocol h q j :=
  ⟨⟨J.val / 2048, by omega⟩, ⟨J.val % 2048 / 1024, by omega⟩, ⟨J.val % 1024, by omega⟩, Fin.ext (by simp only [ocol]; omega)⟩

/-- The device's whole result is its part of the reference's: when every entry of `out` is the matching
    quarter's entry, the blocks of `x` come from the devices' own column blocks `xb s` of `x` (device
    `(c + t) mod 8`'s block, rows `c·1024 + r`) and the blocks of `w` from `w` itself. -/
theorem out_eq_block (x : FVec Ideal Cert.ReferenceIdeal.S8192x8192 .f32) (w : FVec Ideal Cert.ReferenceIdeal.S8192x4096 .f32)
    (c : Fin 8) (xb : Fin 8 → FVec Ideal S8192x1024 .f32)
    (hxb : ∀ s : Fin 8, xb s = Layout.block ⟨2, ![8192, 1024]⟩ ⟨2, ![8192, 8192]⟩ 1 8 s x)
    (hA : ∀ (t : Fin 8) (r κ : Fin 1024), A t (ix3 (0 : Fin 1) r κ) = xb (rot c t.val) (ix2 (blockIdx c r) κ))
    (hB : ∀ (t : Fin 8) (h : Fin 2) (κ : Fin 1024) (jj : Fin 2048),
      B t h (ix3 (0 : Fin 1) κ jj) = w (ix2 (blockIdx (rot c t.val) κ) (⟨2048 * h.val + jj.val, by omega⟩ : Fin 4096)))
    (out : FVec Ideal S1024x4096 .f32)
    (hout : ∀ (h q : Fin 2) (r j : Fin 1024), out (ix2 r (ocol h q j)) = quarter A B h q (ix2 r j)) :
    out = Layout.block ⟨2, ![1024, 4096]⟩ ⟨2, ![8192, 4096]⟩ 0 8 c (Cert.RefValue.Gref x w) := by
  funext i
  obtain ⟨r, J, rfl⟩ : ∃ (r : Fin 1024) (J : Fin 4096), i = ix2 r J := ⟨i 0, i 1, eq_ix2 i⟩
  obtain ⟨h, q, j, rfl⟩ := col_split J
  rw [hout]
  refine quarter_block A B x w c (fun t r κ => ?_) hB h q r j
  rw [hA, hxb, Cert.Combine.colBlock_apply']

end Cert.KernelValue

end
-- ==== Proof.Claims.lean ====
import proofs.«900489_g7700000000000490_dist_a2a_gemm_m8192_k8192_n4096_f32_gelu_v7x_i8_1_alg».proof.Defs
import proofs.«900489_g7700000000000490_dist_a2a_gemm_m8192_k8192_n4096_f32_gelu_v7x_i8_1_alg».proof.Proof.Gen.Kernel
import proofs.«900489_g7700000000000490_dist_a2a_gemm_m8192_k8192_n4096_f32_gelu_v7x_i8_1_alg».proof.Proof.Gen.KernelIdeal
import proofs.«900489_g7700000000000490_dist_a2a_gemm_m8192_k8192_n4096_f32_gelu_v7x_i8_1_alg».proof.Proof.Gen.ReferenceIdeal
import proofs.«900489_g7700000000000490_dist_a2a_gemm_m8192_k8192_n4096_f32_gelu_v7x_i8_1_alg».proof.Proof.Gen.Pre_finite_inputs_Kernel
import proofs.«900489_g7700000000000490_dist_a2a_gemm_m8192_k8192_n4096_f32_gelu_v7x_i8_1_alg».proof.Proof.Gen.Pre_finite_inputs_ReferenceIdeal
import proofs.«900489_g7700000000000490_dist_a2a_gemm_m8192_k8192_n4096_f32_gelu_v7x_i8_1_alg».proof.Proof.RefValue
import proofs.«900489_g7700000000000490_dist_a2a_gemm_m8192_k8192_n4096_f32_gelu_v7x_i8_1_alg».proof.Proof.KernelValue

/-!
# The five conjuncts, from the two runs of the kernel and its value

Given a run of the kernel at each instance — every fair execution on the eight devices terminates with
each device's result buffer at a named value and its two arguments unchanged — and, at the extended
reals, that the named value of device `c` is block `c` (rows `c·1024, …`) of gelu`(x @ w)` whenever the
devices' argument buffers hold their parts of `x` and `w`, the certificate's claim follows: the three
frames are the runs with the values dropped, nothing was rewritten by the idealization, and the
reference's run ends holding gelu`(x @ w)`.
-/

noncomputable section

namespace Cert.Claims

open Idealize.ShloMosaic Idealize.SL.Sem Idealize.ShloMosaic.ValueIdx
open SumBlocks (blockIdx rot)

/-- The value of one device's result, from its four quarters and where the loaded blocks came from:
    `A t` from device `(c + t) mod 8`'s own block of `x` (rows `c·1024 + r`), `B t h` from this device's copy
    of `w`; the devices' blocks being their parts of the reference's arrays, the result is block `c` of the
    reference's result. -/
theorem out_of_quarters
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD)
    (A : Fin 8 → FVec Ideal Cert.KernelIdeal.S1x1024x1024 .bf16) (B : Fin 8 → Fin 2 → FVec Ideal Cert.KernelIdeal.S1x1024x2048 .f32)
    (hA : ∀ (t : Fin 8) (r κ : Fin 1024), A t (ix3 (0 : Fin 1) r κ)
      = (show FVec Ideal Cert.KernelIdeal.S8192x1024 .f32 from
          m ((Dev.tc (rot c t.val : Dev Cert.KernelIdeal.nD) : Thread Cert.KernelIdeal.nD Cert.KernelIdeal.τ).loc Cert.KernelIdeal.main_arg0))
        (ix2 (blockIdx c r) κ))
    (hB : ∀ (t : Fin 8) (h : Fin 2) (κ : Fin 1024) (jj : Fin 2048), B t h (ix3 (0 : Fin 1) κ jj)
      = (show FVec Ideal Cert.KernelIdeal.S8192x4096 .f32 from
          m ((c.tc : Thread Cert.KernelIdeal.nD Cert.KernelIdeal.τ).loc Cert.KernelIdeal.main_arg1))
        (ix2 (blockIdx (rot c t.val) κ) (⟨2048 * h.val + jj.val, by omega⟩ : Fin 4096)))
    (out : FVec Ideal Cert.KernelIdeal.S1024x4096 .f32)
    (hout : ∀ (h q : Fin 2) (r j : Fin 1024),
      out (ix2 r (Cert.KernelValue.ocol h q j)) = Cert.KernelValue.quarter A B h q (ix2 r j)) :
    out = Layout.block ⟨2, ![1024, 4096]⟩ ⟨2, ![8192, 4096]⟩ 0 8 c
      (Cert.RefValue.Gref
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))) :=
  Cert.KernelValue.out_eq_block A B _ _ c
    (fun s : Dev Cert.KernelIdeal.nD => m ((Dev.tc s : Thread Cert.KernelIdeal.nD Cert.KernelIdeal.τ).loc Cert.KernelIdeal.main_arg0))
    (fun s => (hagree s).1) hA
    (fun t h κ jj => by rw [hB, (hagree c).2]) out hout

/-- The claim, from a run of the kernel at each instance and the value of the run at the extended reals. -/
theorem claim_of_runs
    (outAtB : (m : (ℓ : Loc Cert.Kernel.nD Cert.Kernel.τ Cert.Kernel.sig) → Buf (Elt Bits) ℓ) → (c : Dev Cert.Kernel.nD) →
      Buf (Elt Bits) ((c.tc : Thread Cert.Kernel.nD Cert.Kernel.τ).loc Cert.Kernel.main_v1_0))
    (runB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        r.2.mem ((c.tc : Thread Cert.Kernel.nD Cert.Kernel.τ).loc Cert.Kernel.main_v1_0) = outAtB m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)))
    (outAtI : (m : (ℓ : Loc Cert.KernelIdeal.nD Cert.KernelIdeal.τ Cert.KernelIdeal.sig) → Buf (Elt Ideal) ℓ) → (c : Dev Cert.KernelIdeal.nD) →
      Buf (Elt Ideal) ((c.tc : Thread Cert.KernelIdeal.nD Cert.KernelIdeal.τ).loc Cert.KernelIdeal.main_v1_0))
    (runI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1_0) = outAtI m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (valI : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ),
      (∀ c : Dev Cert.KernelIdeal.nD,
        m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
      ∀ c : Dev Cert.KernelIdeal.nD, outAtI m c = Layout.block ⟨2, ![1024, 4096]⟩ ⟨2, ![8192, 4096]⟩ 0 8 c
        (Cert.RefValue.Gref
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m g _ => (θ_run (Cert.Kernel.defs (F := Bits)) _ _).mono (fun _ h c => (h c).2) (runB m g),
    fun m g _ => (θ_run (Cert.KernelIdeal.defs (F := Ideal)) _ _).mono (fun _ h c => (h c).2) (runI m g),
    fun m g _ => (θ_run (Cert.ReferenceIdeal.defs (F := Ideal)) _ _).mono (fun _ h c => (h c).2) (Cert.RefValue.ref_run m g),
    trivial,
    fun m g m' g' _ hagree =>
      ⟨Cert.RefValue.Gref
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)),
        (θ_run (Cert.KernelIdeal.defs (F := Ideal)) _ _).mono
          (fun _ h c => ⟨(h c).1.trans (valI m m' hagree c), (h c).2⟩) (runI m g),
        (θ_run (Cert.ReferenceIdeal.defs (F := Ideal)) _ _).mono (fun _ h => h 0) (Cert.RefValue.ref_run m' g')⟩⟩

end Cert.Claims

/-- info: 'Cert.Claims.claim_of_runs' depends on axioms: [propext, Classical.choice, Quot.sound] -/
#guard_msgs in
#print axioms Cert.Claims.claim_of_runs

/-- info: 'Cert.Claims.out_of_quarters' depends on axioms: [propext, Classical.choice, Quot.sound] -/
#guard_msgs in
#print axioms Cert.Claims.out_of_quarters

end
-- ==== Proof.Ring8.lean ====
/-
  The ring arithmetic of the eight devices. Device `c` addresses, at offset `k`, the device `k` places
  ahead of it (`fwd k c`: the peers it signals at entry) and the device `k` places behind it (`bwd k c`: the
  peer whose row block of `x` it casts and sends at step `k`). The printed device chains and slice
  offsets are these rotations, decided over the mesh.
-/
import proofs.«900489_g7700000000000490_dist_a2a_gemm_m8192_k8192_n4096_f32_gelu_v7x_i8_1_alg».proof.Proof.Gen.KernelIdeal
import Idealize.ShloMosaic.Lib.Tactic

namespace Cert.KernelIdeal.Ring8

open Idealize.ShloMosaic Cert.KernelIdeal Cert.KernelIdeal.Gen

/-- The device `k` places ahead of `c` on the ring of eight. -/
def fwd (k : Nat) (c : Dev nD) : Dev nD := ⟨(c.val + k) % 8, Nat.mod_lt _ (by decide)⟩
/-- The device `k` places behind `c`. -/
def bwd (k : Nat) (c : Dev nD) : Dev nD := ⟨(c.val + (8 - k % 8)) % 8, Nat.mod_lt _ (by decide)⟩

theorem bwd_fwd : ∀ (k : Fin 8) (c : Dev nD), bwd k.val (fwd k.val c) = c := by decide
theorem fwd_bwd : ∀ (k : Fin 8) (c : Dev nD), fwd k.val (bwd k.val c) = c := by decide
theorem fwd_zero : ∀ c : Dev nD, fwd 0 c = c := by decide
theorem bwd_zero : ∀ c : Dev nD, bwd 0 c = c := by decide
theorem fwd_ne : ∀ (k : Fin 8) (c : Dev nD), k.val ≠ 0 → fwd k.val c ≠ c := by decide
theorem bwd_ne : ∀ (k : Fin 8) (c : Dev nD), k.val ≠ 0 → bwd k.val c ≠ c := by decide

/-- Rotation by `k` as a permutation of the devices. -/
def rot (k : Fin 8) : Dev nD ≃ Dev nD := ⟨fwd k.val, bwd k.val, bwd_fwd k, fwd_bwd k⟩

/-! The seven entry signals address the devices ahead. -/
@[sl_canon] theorem dev1_eq : ∀ c : Dev nD, (⟨k0_dev1 c, k0_dev1_lt c⟩ : Dev nD) = fwd 1 c := by decide +kernel
@[sl_canon] theorem dev2_eq : ∀ c : Dev nD, (⟨k0_dev2 c, k0_dev2_lt c⟩ : Dev nD) = fwd 2 c := by decide +kernel
@[sl_canon] theorem dev3_eq : ∀ c : Dev nD, (⟨k0_dev3 c, k0_dev3_lt c⟩ : Dev nD) = fwd 3 c := by decide +kernel
@[sl_canon] theorem dev4_eq : ∀ c : Dev nD, (⟨k0_dev4 c, k0_dev4_lt c⟩ : Dev nD) = fwd 4 c := by decide +kernel
@[sl_canon] theorem dev5_eq : ∀ c : Dev nD, (⟨k0_dev5 c, k0_dev5_lt c⟩ : Dev nD) = fwd 5 c := by decide +kernel
@[sl_canon] theorem dev6_eq : ∀ c : Dev nD, (⟨k0_dev6 c, k0_dev6_lt c⟩ : Dev nD) = fwd 6 c := by decide +kernel
@[sl_canon] theorem dev7_eq : ∀ c : Dev nD, (⟨k0_dev7 c, k0_dev7_lt c⟩ : Dev nD) = fwd 7 c := by decide +kernel
/-! The seven remote copies address the devices behind. -/
@[sl_canon] theorem dev8_eq : ∀ c : Dev nD, (⟨k0_dev8 c, k0_dev8_lt c⟩ : Dev nD) = bwd 1 c := by decide +kernel
@[sl_canon] theorem dev9_eq : ∀ c : Dev nD, (⟨k0_dev9 c, k0_dev9_lt c⟩ : Dev nD) = bwd 2 c := by decide +kernel
@[sl_canon] theorem dev10_eq : ∀ c : Dev nD, (⟨k0_dev10 c, k0_dev10_lt c⟩ : Dev nD) = bwd 3 c := by decide +kernel
@[sl_canon] theorem dev11_eq : ∀ c : Dev nD, (⟨k0_dev11 c, k0_dev11_lt c⟩ : Dev nD) = bwd 4 c := by decide +kernel
@[sl_canon] theorem dev12_eq : ∀ c : Dev nD, (⟨k0_dev12 c, k0_dev12_lt c⟩ : Dev nD) = bwd 5 c := by decide +kernel
@[sl_canon] theorem dev13_eq : ∀ c : Dev nD, (⟨k0_dev13 c, k0_dev13_lt c⟩ : Dev nD) = bwd 6 c := by decide +kernel
@[sl_canon] theorem dev14_eq : ∀ c : Dev nD, (⟨k0_dev14 c, k0_dev14_lt c⟩ : Dev nD) = bwd 7 c := by decide +kernel

/-! The row offsets: step `k`'s block of `x` (and of its bf16 copy) starts at the row block of the device `k`
    behind; the weight's row block at step `t` is that of the device `t` ahead, its columns the low or the high half. -/
theorem off2_eq : ∀ (c : Dev nD) (r : Fin 7), k0_off2 c (BitVec.ofNat 32 (1 + r.val)) = ![1024 * (bwd (1 + r.val) c).val, 0] := by decide +kernel
theorem off3_eq : ∀ (c : Dev nD) (r : Fin 8), k0_off3 c (BitVec.ofNat 32 r.val) = ![1024 * (fwd r.val c).val, 0] := by decide +kernel
theorem off4_eq : ∀ (c : Dev nD) (r : Fin 8), k0_off4 c (BitVec.ofNat 32 r.val) = ![1024 * (fwd r.val c).val, 2048] := by decide +kernel

instance closedOff_off2 (c : Dev nD) (r : Fin 7) : ClosedOff (k0_off2 c (BitVec.ofNat 32 (1 + r.val))) := ⟨_, off2_eq c r⟩
instance closedOff_off3 (c : Dev nD) (r : Fin 8) : ClosedOff (k0_off3 c (BitVec.ofNat 32 r.val)) := ⟨_, off3_eq c r⟩
instance closedOff_off4 (c : Dev nD) (r : Fin 8) : ClosedOff (k0_off4 c (BitVec.ofNat 32 r.val)) := ⟨_, off4_eq c r⟩

end Cert.KernelIdeal.Ring8
-- ==== Proof.Proto.lean ====
/-
  The all-to-all's protocol as a schedule of rounds. Every device signals the barrier semaphore of each of
  the seven others (one unit each) and waits for seven; at step `r + 1` (`r : Fin 7`) it sends the bf16 copy of
  the row block of its `x` that belongs to the device `r + 1` places behind it into that device's receive
  slot `r + 1`, on its own send semaphore `r + 1` and the peer's receive semaphore `r + 1`.
  A barrier cell has one round of seven unit duties, duty `r` paid by the device `r + 1` behind the owner and
  handing over the payer's receive slot `r + 1` (which the owner then fills) with the fact that the payer's
  receive cell `r` is open; a send cell has one duty that returns the sent block; a receive cell one duty
  that delivers the slot holding the sender's rows.
-/
import proofs.«900489_g7700000000000490_dist_a2a_gemm_m8192_k8192_n4096_f32_gelu_v7x_i8_1_alg».proof.Proof.Ring8
import proofs.«900489_g7700000000000490_dist_a2a_gemm_m8192_k8192_n4096_f32_gelu_v7x_i8_1_alg».proof.Proof.Gen.KernelIdeal.Skeleton
import proofs.«900489_g7700000000000490_dist_a2a_gemm_m8192_k8192_n4096_f32_gelu_v7x_i8_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the step) -/

abbrev Dy : Type := Fin 7
abbrev UB : Type := URounds (GSem nD τ sig) Dy
/-- The pipeline library's copy, beside the protocol's rounds and the counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

/-- The runtime's barrier semaphore of collective id 0. -/
abbrev barS : Sem sig := (SemArray.scalar (sig.barrier 0 rfl) : Sems sig S_).sem
/-- Step `r + 1`'s send and receive semaphores: entries `r + 1` of the two arrays of eight. -/
abbrev sendSem (r : Fin 7) : DmaSem sig := ⟨2 + r.val, by have := r.isLt; show _ < 22; omega⟩
abbrev recvSem (r : Fin 7) : DmaSem sig := ⟨10 + r.val, by have := r.isLt; show _ < 22; omega⟩

abbrev barCell (c : Dev nD) : GSem nD τ sig := ((c : Thread nD τ), .reg barS)
abbrev sendCell (r : Fin 7) (c : Dev nD) : GSem nD τ sig := ((c : Thread nD τ), .dma (sendSem r))
abbrev recvCell (r : Fin 7) (c : Dev nD) : GSem nD τ sig := ((c : Thread nD τ), .dma (recvSem r))

/-- Which transfer cell a semaphore is: `(false, r)` the send cell of step `r + 1`, `(true, r)` its receive cell. -/
def xfer : SemLoc sig → Option (Bool × Fin 7)
  | .dma s => if h : 2 ≤ s.val ∧ s.val < 9 then some (false, ⟨s.val - 2, by omega⟩)
      else if h : 10 ≤ s.val ∧ s.val < 17 then some (true, ⟨s.val - 10, by omega⟩) else none
  | .reg _ => none

theorem xfer_send : ∀ r : Fin 7, xfer (.dma (sendSem r)) = some (false, r) := by decide
theorem xfer_recv : ∀ r : Fin 7, xfer (.dma (recvSem r)) = some (true, r) := by decide
theorem xfer_bar : xfer (.reg barS) = none := rfl

/-! ## Memrefs -/

theorem slot_inb : ∀ (k : Fin 8) a, (![k.val, 0, 0] : Fin 3 → Nat) a + S1x1024x1024.size a ≤ S8x1024x1024.size a := by decide

/-- Receive slot `k` of the eight: `[1024, 1024]` of bf16. -/
abbrev rslot (k : Fin 8) : Memref sig .tc .vmem S1024x1024 .bf16 :=
  ((Memref.whole cc0_scratch0 : Memref sig .tc .vmem S8x1024x1024 .bf16).slice (Rect.unit (s := S8x1024x1024) ![k.val, 0, 0] S1x1024x1024.size (slot_inb k)) (fun _ => rfl)).squeeze S1024x1024 squeezes_S1x1024x1024_S1024x1024

/-- The row block of the bf16 copy of `x` that step `r + 1` fills and sends: rows of the device `r + 1` behind. -/
abbrev xblk16 (r : Fin 7) (c : Dev nD) : Memref sig .tc .hbm S1024x1024 .bf16 :=
  (Memref.whole main_v1_1 : Memref sig .tc .hbm S8192x1024 .bf16).slice (Rect.unit (s := S8192x1024) (k0_off2 c (BitVec.ofNat 32 (1 + r.val))) S1024x1024.size (k0_off2_inb c r)) (fun _ => rfl)

/-- The credit of one `[1024, 1024]` bf16 transfer. -/
abbrev N : ℕ := (rslot 1 : Memref sig .tc .vmem S1024x1024 .bf16).view.dmaCredit
theorem N_pos : 0 < N := View.dmaCredit_pos _ (by decide)

/-! ## Contents -/

/-- Device `c`'s block of `x` as launched, and its bf16 cast: what the bf16 copy holds in every row block it fills. -/
def xin (c : Dev nD) : FVec F S8192x1024 .f32 := m ((c : Thread nD τ).loc main_arg0)
def x16full (c : Dev nD) : Buf (Elt F) ((c : Thread nD τ).loc main_v1_1) := truncf .bf16 (xin m c) bitsLt_bf16_f32

/-- What device `c`'s eight receive slots hold in the end: slot `k` the cast of the rows of `c` in the block of
    `x` of the device `k` ahead (slot 0 its own). -/
def recvFull (c : Dev nD) : Buf (Elt F) ((c : Thread nD τ).loc cc0_scratch0) := fun i =>
  x16full m (fwd (i 0).val c) (ValueIdx.ix2 (⟨1024 * c.val + (i 1).val, by have h1 : (i 1).val < 1024 := (i 1).isLt; have hc : c.val < 8 := c.isLt; show _ < 8192; omega⟩ : Fin 8192) (⟨(i 2).val, (i 2).isLt⟩ : Fin 1024))

/-! ## The schedule -/

def recvPay (r : Fin 7) (c : Dev nD) : sProp 𝕄 :=
  (rslot r.succ : Memref sig .tc .vmem S1024x1024 .bf16).view.loc (c : Thread nD τ) ↦[(rslot r.succ : Memref sig .tc .vmem S1024x1024 .bf16).view.set]{fullShare} recvFull m c
def sendPay (r : Fin 7) (c : Dev nD) : sProp 𝕄 :=
  (xblk16 r c).view.loc (c : Thread nD τ) ↦[(xblk16 r c).view.set]{fullShare} x16full m c
/-- Duty `r` of `c`'s barrier cell, paid by the device `r + 1` behind: that device's receive slot `r + 1` at any
    contents, and that its receive cell `r` is open. -/
def barPay (r : Fin 7) (c : Dev nD) : sProp 𝕄 :=
  iprop((∃ f, (rslot r.succ : Memref sig .tc .vmem S1024x1024 .bf16).view.loc (bwd (r.val + 1) c : Thread nD τ) ↦[(rslot r.succ : Memref sig .tc .vmem S1024x1024 .bf16).view.set]{fullShare} f)
    ∗ reached ER (recvCell r (bwd (r.val + 1) c)) 0)

abbrev IsBar (g : GSem nD τ sig) : Prop := g.1.2 = .tc ∧ g.2 = .reg barS
abbrev IsXfer (g : GSem nD τ sig) : Prop := g.1.2 = .tc ∧ (xfer g.2).isSome = true

/-- One round: a barrier cell has seven unit duties; a send or receive cell the one duty of a block's credit. -/
def sched : Rounds.Schedule (GSem nD τ sig) Dy 𝕄 where
  duties g r := if r = 0 ∧ IsBar g then Finset.univ else if r = 0 ∧ IsXfer g then {0} else ∅
  unitless _ := False
  amount g _ _ := if g.2 = .reg barS then 1 else N
  payload g _ d :=
    match xfer g.2 with
    | some (true, r) => recvPay m r g.1.1
    | some (false, r) => sendPay m r g.1.1
    | none => if g.2 = .reg barS then barPay d g.1.1 else iprop(emp)
  amount_pos g _ _ _ := by
    by_cases h : g.2 = .reg barS
    · rw [if_pos h]; exact Nat.one_pos
    · rw [if_neg h]; exact N_pos

/-! ## The schedule's tables, cell by cell -/

section Sched
variable (c : Dev nD) (r : Fin 7)

theorem send_ne_bar : (SemLoc.dma (sendSem r) : SemLoc sig) ≠ .reg barS := fun h => by cases h
theorem recv_ne_bar : (SemLoc.dma (recvSem r) : SemLoc sig) ≠ .reg barS := fun h => by cases h
theorem not_bar_send : ¬ IsBar (sendCell r c) := fun h => send_ne_bar r h.2
theorem not_bar_recv : ¬ IsBar (recvCell r c) := fun h => recv_ne_bar r h.2
theorem isXfer_send : IsXfer (sendCell r c) := ⟨rfl, by show (xfer (.dma (sendSem r))).isSome = true; rw [xfer_send]; rfl⟩
theorem isXfer_recv : IsXfer (recvCell r c) := ⟨rfl, by show (xfer (.dma (recvSem r))).isSome = true; rw [xfer_recv]; rfl⟩

theorem duties_bar : (sched (F := F) m).duties (barCell c) 0 = Finset.univ := by dsimp only [sched]; exact if_pos ⟨rfl, rfl, rfl⟩
theorem duties_send : (sched (F := F) m).duties (sendCell r c) 0 = {0} := by
  dsimp only [sched]; rw [if_neg (fun h => not_bar_send c r h.2)]; exact if_pos ⟨rfl, isXfer_send c r⟩
theorem duties_recv : (sched (F := F) m).duties (recvCell r c) 0 = {0} := by
  dsimp only [sched]; rw [if_neg (fun h => not_bar_recv c r h.2)]; exact if_pos ⟨rfl, isXfer_recv c r⟩
theorem duties_later (g : GSem nD τ sig) : ∀ r', 1 ≤ r' → (sched (F := F) m).duties g r' = ∅ :=
  fun r' hr => by dsimp only [sched]; rw [if_neg fun h => by omega, if_neg fun h => by omega]

theorem amount_bar (d : Dy) : (sched (F := F) m).amount (barCell c) 0 d = 1 := by dsimp only [sched]; exact if_pos rfl
theorem amount_send (d : Dy) : (sched (F := F) m).amount (sendCell r c) 0 d = N := by dsimp only [sched]; exact if_neg (send_ne_bar r)
theorem amount_recv (d : Dy) : (sched (F := F) m).amount (recvCell r c) 0 d = N := by dsimp only [sched]; exact if_neg (recv_ne_bar r)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell r c) 0 = N := by
  unfold Schedule.expect Schedule.amountOf; rw [duties_send, Finset.sum_singleton, amount_send]
theorem expect_recv : (sched (F := F) m).expect (recvCell r c) 0 = N := by
  unfold Schedule.expect Schedule.amountOf; rw [duties_recv, Finset.sum_singleton, amount_recv]

theorem payload_bar (d : Dy) : (sched (F := F) m).payload (barCell c) 0 d
    = iprop((∃ f, (rslot d.succ : Memref sig .tc .vmem S1024x1024 .bf16).view.loc (bwd (d.val + 1) c : Thread nD τ) ↦[(rslot d.succ : Memref sig .tc .vmem S1024x1024 .bf16).view.set]{fullShare} f)
      ∗ reached ER (recvCell d (bwd (d.val + 1) c)) 0) := by
  show (match xfer (SemLoc.reg barS : SemLoc sig) with
    | some (true, r) => recvPay m r c | some (false, r) => sendPay m r c
    | none => if (SemLoc.reg barS : SemLoc sig) = SemLoc.reg barS then barPay d c else iprop(emp)) = _
  rw [xfer_bar]; dsimp only; rw [if_pos rfl]; rfl
theorem payload_send (d : Dy) : (sched (F := F) m).payload (sendCell r c) 0 d
    = ((xblk16 r c).view.loc (c : Thread nD τ) ↦[(xblk16 r c).view.set]{fullShare} x16full m c) := by
  show (match xfer (SemLoc.dma (sendSem r) : SemLoc sig) with
    | some (true, r') => recvPay m r' c | some (false, r') => sendPay m r' c
    | none => if (SemLoc.dma (sendSem r) : SemLoc sig) = SemLoc.reg barS then barPay d c else iprop(emp)) = _
  rw [xfer_send]; rfl
theorem payload_recv (d : Dy) : (sched (F := F) m).payload (recvCell r c) 0 d
    = ((rslot r.succ : Memref sig .tc .vmem S1024x1024 .bf16).view.loc (c : Thread nD τ) ↦[(rslot r.succ : Memref sig .tc .vmem S1024x1024 .bf16).view.set]{fullShare} recvFull m c) := by
  show (match xfer (SemLoc.dma (recvSem r) : SemLoc sig) with
    | some (true, r') => recvPay m r' c | some (false, r') => sendPay m r' c
    | none => if (SemLoc.dma (recvSem r) : SemLoc sig) = SemLoc.reg barS then barPay d c else iprop(emp)) = _
  rw [xfer_recv]; rfl

end Sched

/-! The barrier cells ahead, duty by duty: the payload a device's own signal carries is its own receive slot. -/
section Lit
variable (c : Dev nD)
theorem payload_bar_fwd1 : (sched (F := F) m).payload (barCell (fwd 1 c)) 0 (0 : Fin 7)
    = iprop((∃ f, (rslot 1 : Memref sig .tc .vmem S1024x1024 .bf16).view.loc (c : Thread nD τ) ↦[(rslot 1 : Memref sig .tc .vmem S1024x1024 .bf16).view.set]{fullShare} f) ∗ reached ER (recvCell 0 c) 0) := by
  rw [payload_bar]; show iprop((∃ f, (rslot 1 : Memref sig .tc .vmem S1024x1024 .bf16).view.loc (bwd 1 (fwd 1 c) : Thread nD τ) ↦[_]{fullShare} f) ∗ reached ER (recvCell 0 (bwd 1 (fwd 1 c))) 0) = _
  rw [show bwd 1 (fwd 1 c) = c from bwd_fwd 1 c]; rfl
theorem payload_bar_fwd2 : (sched (F := F) m).payload (barCell (fwd 2 c)) 0 (1 : Fin 7)
    = iprop((∃ f, (rslot 2 : Memref sig .tc .vmem S1024x1024 .bf16).view.loc (c : Thread nD τ) ↦[(rslot 2 : Memref sig .tc .vmem S1024x1024 .bf16).view.set]{fullShare} f) ∗ reached ER (recvCell 1 c) 0) := by
  rw [payload_bar]; show iprop((∃ f, (rslot 2 : Memref sig .tc .vmem S1024x1024 .bf16).view.loc (bwd 2 (fwd 2 c) : Thread nD τ) ↦[_]{fullShare} f) ∗ reached ER (recvCell 1 (bwd 2 (fwd 2 c))) 0) = _
  rw [show bwd 2 (fwd 2 c) = c from bwd_fwd 2 c]; rfl
theorem payload_bar_fwd3 : (sched (F := F) m).payload (barCell (fwd 3 c)) 0 (2 : Fin 7)
    = iprop((∃ f, (rslot 3 : Memref sig .tc .vmem S1024x1024 .bf16).view.loc (c : Thread nD τ) ↦[(rslot 3 : Memref sig .tc .vmem S1024x1024 .bf16).view.set]{fullShare} f) ∗ reached ER (recvCell 2 c) 0) := by
  rw [payload_bar]; show iprop((∃ f, (rslot 3 : Memref sig .tc .vmem S1024x1024 .bf16).view.loc (bwd 3 (fwd 3 c) : Thread nD τ) ↦[_]{fullShare} f) ∗ reached ER (recvCell 2 (bwd 3 (fwd 3 c))) 0) = _
  rw [show bwd 3 (fwd 3 c) = c from bwd_fwd 3 c]; rfl
theorem payload_bar_fwd4 : (sched (F := F) m).payload (barCell (fwd 4 c)) 0 (3 : Fin 7)
    = iprop((∃ f, (rslot 4 : Memref sig .tc .vmem S1024x1024 .bf16).view.loc (c : Thread nD τ) ↦[(rslot 4 : Memref sig .tc .vmem S1024x1024 .bf16).view.set]{fullShare} f) ∗ reached ER (recvCell 3 c) 0) := by
  rw [payload_bar]; show iprop((∃ f, (rslot 4 : Memref sig .tc .vmem S1024x1024 .bf16).view.loc (bwd 4 (fwd 4 c) : Thread nD τ) ↦[_]{fullShare} f) ∗ reached ER (recvCell 3 (bwd 4 (fwd 4 c))) 0) = _
  rw [show bwd 4 (fwd 4 c) = c from bwd_fwd 4 c]; rfl
theorem payload_bar_fwd5 : (sched (F := F) m).payload (barCell (fwd 5 c)) 0 (4 : Fin 7)
    = iprop((∃ f, (rslot 5 : Memref sig .tc .vmem S1024x1024 .bf16).view.loc (c : Thread nD τ) ↦[(rslot 5 : Memref sig .tc .vmem S1024x1024 .bf16).view.set]{fullShare} f) ∗ reached ER (recvCell 4 c) 0) := by
  rw [payload_bar]; show iprop((∃ f, (rslot 5 : Memref sig .tc .vmem S1024x1024 .bf16).view.loc (bwd 5 (fwd 5 c) : Thread nD τ) ↦[_]{fullShare} f) ∗ reached ER (recvCell 4 (bwd 5 (fwd 5 c))) 0) = _
  rw [show bwd 5 (fwd 5 c) = c from bwd_fwd 5 c]; rfl
theorem payload_bar_fwd6 : (sched (F := F) m).payload (barCell (fwd 6 c)) 0 (5 : Fin 7)
    = iprop((∃ f, (rslot 6 : Memref sig .tc .vmem S1024x1024 .bf16).view.loc (c : Thread nD τ) ↦[(rslot 6 : Memref sig .tc .vmem S1024x1024 .bf16).view.set]{fullShare} f) ∗ reached ER (recvCell 5 c) 0) := by
  rw [payload_bar]; show iprop((∃ f, (rslot 6 : Memref sig .tc .vmem S1024x1024 .bf16).view.loc (bwd 6 (fwd 6 c) : Thread nD τ) ↦[_]{fullShare} f) ∗ reached ER (recvCell 5 (bwd 6 (fwd 6 c))) 0) = _
  rw [show bwd 6 (fwd 6 c) = c from bwd_fwd 6 c]; rfl
theorem payload_bar_fwd7 : (sched (F := F) m).payload (barCell (fwd 7 c)) 0 (6 : Fin 7)
    = iprop((∃ f, (rslot 7 : Memref sig .tc .vmem S1024x1024 .bf16).view.loc (c : Thread nD τ) ↦[(rslot 7 : Memref sig .tc .vmem S1024x1024 .bf16).view.set]{fullShare} f) ∗ reached ER (recvCell 6 c) 0) := by
  rw [payload_bar]; show iprop((∃ f, (rslot 7 : Memref sig .tc .vmem S1024x1024 .bf16).view.loc (bwd 7 (fwd 7 c) : Thread nD τ) ↦[_]{fullShare} f) ∗ reached ER (recvCell 6 (bwd 7 (fwd 7 c))) 0) = _
  rw [show bwd 7 (fwd 7 c) = c from bwd_fwd 7 c]; rfl
end Lit

/-! ## What each device owes at launch; the levels -/

/-- Device `c` owes, for each step `r + 1`, the block's credit to the receive cell `r` of the device `r + 1` behind it,
    and one unit to the barrier cell of the device `r + 1` ahead of it. -/
def O₀ (c : Dev nD) : CellTallies nD τ sig Unit :=
  tallyAt (recvCell 0 (bwd 1 c)) () N + tallyAt (recvCell 1 (bwd 2 c)) () N + tallyAt (recvCell 2 (bwd 3 c)) () N + tallyAt (recvCell 3 (bwd 4 c)) () N
    + tallyAt (recvCell 4 (bwd 5 c)) () N + tallyAt (recvCell 5 (bwd 6 c)) () N + tallyAt (recvCell 6 (bwd 7 c)) () N
    + tallyAt (barCell (fwd 1 c)) () 1 + tallyAt (barCell (fwd 2 c)) () 1 + tallyAt (barCell (fwd 3 c)) () 1 + tallyAt (barCell (fwd 4 c)) () 1
    + tallyAt (barCell (fwd 5 c)) () 1 + tallyAt (barCell (fwd 6 c)) () 1 + tallyAt (barCell (fwd 7 c)) () 1

def L (g : GSem nD τ sig) : Finset Unit := if g.1.2 = .tc then {()} else ∅
/-- barrier cells at 1, receive cells at 2, every other cell (staging, send, the local copies') at 0. -/
def lv (g : GSem nD τ sig) (_ : Unit) : ℕ :=
  if g.2 = .reg barS then 1 else match xfer g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (r : Fin 7) (c : Dev nD) (u : Unit) : lv (recvCell r c) u = 2 := by
  unfold lv; rw [if_neg (recv_ne_bar r)]; show (match xfer (.dma (recvSem r)) with | some (true, _) => 2 | _ => 0) = 2; rw [xfer_recv]

end Cert.KernelIdeal.A2A
-- ==== Proof.OutDef.lean ====
import proofs.«900489_g7700000000000490_dist_a2a_gemm_m8192_k8192_n4096_f32_gelu_v7x_i8_1_alg».proof.Proof.Proto
import proofs.«900489_g7700000000000490_dist_a2a_gemm_m8192_k8192_n4096_f32_gelu_v7x_i8_1_alg».proof.Proof.Gen.KernelIdeal.Skeleton

/-!
# The device's result, as a function of the memory at launch

Device `c` multiplies, at step `t`, the block `Ablk c t` — slot `t` of what its receive buffer holds in the
end: its own rows of the narrowed block of `x` of the device `t` places ahead — with the block
`Bblk c t h` of its copy of `w`: the rows of the `K`-block of the device `t` ahead, column half `h`.  Each
column half of the result starts as the product at step 0, takes the products of steps 1 to 6 on top,
and at step 7 each 1024-column quarter becomes gelu of the running sum plus the quarter's share of the
last product.  `outAt c` lays the four quarters side by side: column `2048 h + 1024 q + j` of the result
is column `j` of quarter `q` of half `h`.  Everything here is stated for any reading of the floats.
-/

noncomputable section

namespace Cert.KernelIdeal.A2A

open Cert.KernelIdeal Cert.KernelIdeal.Gen Cert.KernelIdeal.Ring8
open Idealize.ShloMosaic
open Idealize.ShloMosaic.TcCoe
open Idealize.ShloMosaic.ValueIdx

variable {F : FTy → Type} [FloatOps F]

/-! ## The chain of running sums over given blocks, as the kernel composes its arithmetic -/

section Chain
variable (A : Fin 8 → Vec F S1x1024x1024 .bf16) (B : Fin 8 → Fin 2 → Vec F S1x1024x2048 .f32)

/-- Column half 0 after step 0: the first block product. -/
def accL0F : FVec F S1024x2048 .f32 := k0_pay10 (A 0) (B 0 0)
/-- Column half 0 after step 1: the block of `x` is re-cast to a matrix before the product. -/
def accL1F : FVec F S1024x2048 .f32 := k0_pay13 (k0_pay12 (A 1)) (B 1 0) (accL0F A B)
/-- Column half 0 after step 2. -/
def accL2F : FVec F S1024x2048 .f32 := k0_pay15 (A 2) (B 2 0) (accL1F A B)
/-- Column half 0 after step 3. -/
def accL3F : FVec F S1024x2048 .f32 := k0_pay17 (A 3) (B 3 0) (accL2F A B)
/-- Column half 0 after step 4. -/
def accL4F : FVec F S1024x2048 .f32 := k0_pay19 (A 4) (B 4 0) (accL3F A B)
/-- Column half 0 after step 5. -/
def accL5F : FVec F S1024x2048 .f32 := k0_pay21 (A 5) (B 5 0) (accL4F A B)
/-- Column half 0 after step 6. -/
def accL6F : FVec F S1024x2048 .f32 := k0_pay23 (A 6) (B 6 0) (accL5F A B)

/-- Column half 1 after step 0. -/
def accR0F : FVec F S1024x2048 .f32 := k0_pay11 (A 0) (B 0 1)
/-- Column half 1 after step 1. -/
def accR1F : FVec F S1024x2048 .f32 := k0_pay14 (A 1) (B 1 1) (accR0F A B)
/-- Column half 1 after step 2. -/
def accR2F : FVec F S1024x2048 .f32 := k0_pay16 (A 2) (B 2 1) (accR1F A B)
/-- Column half 1 after step 3. -/
def accR3F : FVec F S1024x2048 .f32 := k0_pay18 (A 3) (B 3 1) (accR2F A B)
/-- Column half 1 after step 4. -/
def accR4F : FVec F S1024x2048 .f32 := k0_pay20 (A 4) (B 4 1) (accR3F A B)
/-- Column half 1 after step 5. -/
def accR5F : FVec F S1024x2048 .f32 := k0_pay22 (A 5) (B 5 1) (accR4F A B)
/-- Column half 1 after step 6. -/
def accR6F : FVec F S1024x2048 .f32 := k0_pay24 (A 6) (B 6 1) (accR5F A B)

/-- The running sum of column half `h` after step `t`, `t = 0, …, 6`. -/
def accHF (h : Fin 2) (t : Fin 7) : FVec F S1024x2048 .f32 :=
  match h with
  | ⟨0, _⟩ => (match t with
    | ⟨0, _⟩ => accL0F A B | ⟨1, _⟩ => accL1F A B | ⟨2, _⟩ => accL2F A B | ⟨3, _⟩ => accL3F A B
    | ⟨4, _⟩ => accL4F A B | ⟨5, _⟩ => accL5F A B | ⟨6, _⟩ => accL6F A B)
  | ⟨1, _⟩ => (match t with
    | ⟨0, _⟩ => accR0F A B | ⟨1, _⟩ => accR1F A B | ⟨2, _⟩ => accR2F A B | ⟨3, _⟩ => accR3F A B
    | ⟨4, _⟩ => accR4F A B | ⟨5, _⟩ => accR5F A B | ⟨6, _⟩ => accR6F A B)

/-- Columns `off, …, off + 1023` of a `1024 × 2048` tile, as a `1024 × 1024` tile. -/
def colsF (v : FVec F S1024x2048 .f32) (off : Nat) (hoff : off + 1024 ≤ 2048) : FVec F S1024x1024 .f32 :=
  fun i => v (ix2 (⟨(i 0).val, idx2_lt0 i⟩ : Fin 1024) (⟨off + (i 1).val, by have := idx2_lt1 i; omega⟩ : Fin 2048))

theorem colsF_apply (v : FVec F S1024x2048 .f32) (off : Nat) (hoff : off + 1024 ≤ 2048) (r j : Fin 1024) :
    colsF v off hoff (ix2 r j) = v (ix2 r (⟨off + j.val, by omega⟩ : Fin 2048)) := rfl

/-- Quarter 0 of half 0: gelu of the running sum's columns 0 to 1023 plus the last product's. -/
def quarter00F : FVec F S1024x1024 .f32 := k0_pay26 (A 7) (B 7 0) (colsF (accL6F A B) 0 (by omega))
/-- Quarter 1 of half 0: the last product is handed over whole, its columns 1024 to 2047 are used. -/
def quarter01F : FVec F S1024x1024 .f32 := k0_pay27 (k0_pay25 (A 7) (B 7 0)) (colsF (accL6F A B) 1024 (by omega))
/-- Quarter 0 of half 1. -/
def quarter10F : FVec F S1024x1024 .f32 := k0_pay29 (A 7) (B 7 1) (colsF (accR6F A B) 0 (by omega))
/-- Quarter 1 of half 1. -/
def quarter11F : FVec F S1024x1024 .f32 := k0_pay30 (A 7) (B 7 1) (colsF (accR6F A B) 1024 (by omega))

/-- Quarter `q` of column half `h` of the device's result. -/
def quarterF (h q : Fin 2) : FVec F S1024x1024 .f32 :=
  match h with
  | ⟨0, _⟩ => (match q with | ⟨0, _⟩ => quarter00F A B | ⟨1, _⟩ => quarter01F A B)
  | ⟨1, _⟩ => (match q with | ⟨0, _⟩ => quarter10F A B | ⟨1, _⟩ => quarter11F A B)

theorem accHF_0_0 : accHF A B 0 0 = k0_pay10 (A 0) (B 0 0) := rfl
theorem accHF_0_1 : accHF A B 0 1 = k0_pay13 (k0_pay12 (A 1)) (B 1 0) (accHF A B 0 0) := rfl
theorem accHF_0_2 : accHF A B 0 2 = k0_pay15 (A 2) (B 2 0) (accHF A B 0 1) := rfl
theorem accHF_0_3 : accHF A B 0 3 = k0_pay17 (A 3) (B 3 0) (accHF A B 0 2) := rfl
theorem accHF_0_4 : accHF A B 0 4 = k0_pay19 (A 4) (B 4 0) (accHF A B 0 3) := rfl
theorem accHF_0_5 : accHF A B 0 5 = k0_pay21 (A 5) (B 5 0) (accHF A B 0 4) := rfl
theorem accHF_0_6 : accHF A B 0 6 = k0_pay23 (A 6) (B 6 0) (accHF A B 0 5) := rfl
theorem accHF_1_0 : accHF A B 1 0 = k0_pay11 (A 0) (B 0 1) := rfl
theorem accHF_1_1 : accHF A B 1 1 = k0_pay14 (A 1) (B 1 1) (accHF A B 1 0) := rfl
theorem accHF_1_2 : accHF A B 1 2 = k0_pay16 (A 2) (B 2 1) (accHF A B 1 1) := rfl
theorem accHF_1_3 : accHF A B 1 3 = k0_pay18 (A 3) (B 3 1) (accHF A B 1 2) := rfl
theorem accHF_1_4 : accHF A B 1 4 = k0_pay20 (A 4) (B 4 1) (accHF A B 1 3) := rfl
theorem accHF_1_5 : accHF A B 1 5 = k0_pay22 (A 5) (B 5 1) (accHF A B 1 4) := rfl
theorem accHF_1_6 : accHF A B 1 6 = k0_pay24 (A 6) (B 6 1) (accHF A B 1 5) := rfl
theorem quarterF_0_0 : quarterF A B 0 0 = k0_pay26 (A 7) (B 7 0) (colsF (accHF A B 0 6) 0 (by omega)) := rfl
theorem quarterF_0_1 : quarterF A B 0 1 = k0_pay27 (k0_pay25 (A 7) (B 7 0)) (colsF (accHF A B 0 6) 1024 (by omega)) := rfl
theorem quarterF_1_0 : quarterF A B 1 0 = k0_pay29 (A 7) (B 7 1) (colsF (accHF A B 1 6) 0 (by omega)) := rfl
theorem quarterF_1_1 : quarterF A B 1 1 = k0_pay30 (A 7) (B 7 1) (colsF (accHF A B 1 6) 1024 (by omega)) := rfl

end Chain

/-! ## The blocks a device multiplies, and its result -/

/-- Column `1024 q + j` of a half. -/
abbrev qcol (q : Fin 2) (j : Fin 1024) : Fin 2048 := ⟨1024 * q.val + j.val, by omega⟩
/-- Column `2048 h + 1024 q + j` of the device's result. -/
abbrev ocol (h q : Fin 2) (j : Fin 1024) : Fin 4096 := ⟨2048 * h.val + 1024 * q.val + j.val, by omega⟩

variable (m : (ℓ : Loc nD τ sig) → Buf (Elt F) ℓ)

/-- The block of `x` of step `t`: slot `t` of the receive buffer as it ends. -/
def Ablk (c : Dev nD) (t : Fin 8) : Vec F S1x1024x1024 .bf16 := fun i =>
  (show Vec F S8x1024x1024 .bf16 from recvFull m c)
    (ix3 t (⟨(i 1).val, (i 1).isLt⟩ : Fin 1024) (⟨(i 2).val, (i 2).isLt⟩ : Fin 1024))

/-- The device's copy of `w` as launched. -/
def win (c : Dev nD) : FVec F S8192x4096 .f32 := m ((c : Thread nD τ).loc main_arg1)

/-- The block of `w` of step `t` for column half `h`: rows of the `K`-block of the device `t` places ahead. -/
def Bblk (c : Dev nD) (t : Fin 8) (h : Fin 2) : Vec F S1x1024x2048 .f32 := fun i =>
  win m c (ix2
    (⟨1024 * (fwd t.val c).val + (i 1).val, by
        have h1 : (i 1).val < 1024 := (i 1).isLt
        have hc : (fwd t.val c).val < 8 := (fwd t.val c).isLt
        show _ < 8192; omega⟩ : Fin 8192)
    (⟨2048 * h.val + (i 2).val, by
        have h2 : (i 2).val < 2048 := (i 2).isLt
        have hh : h.val < 2 := h.isLt
        show _ < 4096; omega⟩ : Fin 4096))

/-- The device's result: the four quarters of the two halves, side by side. -/
def outAt (c : Dev nD) : Buf (Elt F) ((c : Thread nD τ).loc cc0_stg0_0) := fun i =>
  quarterF (Ablk m c) (Bblk m c)
    (⟨(i 1).val / 2048, by have h1 : (i 1).val < 4096 := (i 1).isLt; omega⟩ : Fin 2)
    (⟨(i 1).val % 2048 / 1024, by omega⟩ : Fin 2)
    (ix2 (⟨(i 0).val, (i 0).isLt⟩ : Fin 1024) (⟨(i 1).val % 1024, by omega⟩ : Fin 1024))

/-- Column `2048 h + 1024 q + j` of the result is column `j` of quarter `q` of half `h`. -/
theorem outAt_apply (c : Dev nD) (h q : Fin 2) (r j : Fin 1024) :
    (show Vec F S1024x4096 .f32 from outAt m c) (ix2 r (ocol h q j)) = quarterF (Ablk m c) (Bblk m c) h q (ix2 r j) := by
  have key : ∀ (h' q' : Fin 2) (j' : Fin 1024), h' = h → q' = q → j' = j →
      quarterF (Ablk m c) (Bblk m c) h' q' (ix2 r j') = quarterF (Ablk m c) (Bblk m c) h q (ix2 r j) := by
    rintro _ _ _ rfl rfl rfl; rfl
  exact key _ _ _ (Fin.ext (by show (2048 * h.val + 1024 * q.val + j.val) / 2048 = h.val; omega))
    (Fin.ext (by show (2048 * h.val + 1024 * q.val + j.val) % 2048 / 1024 = q.val; omega))
    (Fin.ext (by show (2048 * h.val + 1024 * q.val + j.val) % 1024 = j.val; omega))

end Cert.KernelIdeal.A2A

end
-- ==== Proof.OutVal.lean ====
import proofs.«900489_g7700000000000490_dist_a2a_gemm_m8192_k8192_n4096_f32_gelu_v7x_i8_1_alg».proof.Proof.OutDef
import proofs.«900489_g7700000000000490_dist_a2a_gemm_m8192_k8192_n4096_f32_gelu_v7x_i8_1_alg».proof.Proof.Claims

/-!
# The device's result is its part of the reference's

At the extended reals the narrowing of `x` is the identity, so the block `Ablk c t` is rows
`c·1024, …` of the block of `x` held by the device `t` places ahead, and `Bblk c t h` is the matching
block of `w`.  The devices' blocks being their column blocks of the reference's `x`, and `w` the
reference's, every entry of `outAt c` is gelu of the eight block sums added in rotated order, which
is the reference's entry: `outAt c` is block `c` (rows `c·1024, …`) of gelu`(x @ w)`.
-/

noncomputable section

namespace Cert.KernelIdeal.A2A

open Cert.KernelIdeal Cert.KernelIdeal.Gen Cert.KernelIdeal.Ring8
open Idealize.ShloMosaic
open Idealize.ShloMosaic.TcCoe
open Idealize.ShloMosaic.ValueIdx

/-- At the extended reals the chain over given blocks is the one read entry by entry. -/
theorem accHF_eq (A : Fin 8 → Vec Ideal S1x1024x1024 .bf16) (B : Fin 8 → Fin 2 → Vec Ideal S1x1024x2048 .f32)
    (h : Fin 2) (t : Fin 7) : accHF (F := Ideal) A B h t = Cert.KernelValue.accH A B h t := by
  match h, t with
  | ⟨0, _⟩, ⟨0, _⟩ => rfl | ⟨0, _⟩, ⟨1, _⟩ => rfl | ⟨0, _⟩, ⟨2, _⟩ => rfl | ⟨0, _⟩, ⟨3, _⟩ => rfl
  | ⟨0, _⟩, ⟨4, _⟩ => rfl | ⟨0, _⟩, ⟨5, _⟩ => rfl | ⟨0, _⟩, ⟨6, _⟩ => rfl
  | ⟨1, _⟩, ⟨0, _⟩ => rfl | ⟨1, _⟩, ⟨1, _⟩ => rfl | ⟨1, _⟩, ⟨2, _⟩ => rfl | ⟨1, _⟩, ⟨3, _⟩ => rfl
  | ⟨1, _⟩, ⟨4, _⟩ => rfl | ⟨1, _⟩, ⟨5, _⟩ => rfl | ⟨1, _⟩, ⟨6, _⟩ => rfl

theorem quarterF_eq (A : Fin 8 → Vec Ideal S1x1024x1024 .bf16) (B : Fin 8 → Fin 2 → Vec Ideal S1x1024x2048 .f32)
    (h q : Fin 2) : quarterF (F := Ideal) A B h q = Cert.KernelValue.quarter A B h q := by
  match h, q with
  | ⟨0, _⟩, ⟨0, _⟩ => rfl | ⟨0, _⟩, ⟨1, _⟩ => rfl | ⟨1, _⟩, ⟨0, _⟩ => rfl | ⟨1, _⟩, ⟨1, _⟩ => rfl

/-- The device's result at the extended reals, typed as the result buffer's contents. -/
def outAtI (m : (ℓ : Loc nD τ sig) → Buf (Elt Ideal) ℓ) (c : Dev nD) :
    Buf (Elt Ideal) ((c.tc : Thread nD τ).loc main_v1_0) := outAt (F := Ideal) m c

theorem outAtI_eq (m : (ℓ : Loc nD τ sig) → Buf (Elt Ideal) ℓ) (c : Dev nD) :
    outAtI m c = (show Vec Ideal S1024x4096 .f32 from outAt (F := Ideal) m c) := rfl

/-- Slot `t` of the receive buffer, at the extended reals: rows `c·1024 + r` of the block of `x` of the
    device `t` places ahead. -/
theorem Ablk_apply (m : (ℓ : Loc nD τ sig) → Buf (Elt Ideal) ℓ) (c : Dev nD) (t : Fin 8) (r κ : Fin 1024) :
    Ablk (F := Ideal) m c t (ix3 (0 : Fin 1) r κ)
      = (show FVec Ideal S8192x1024 .f32 from
          m ((Dev.tc (SumBlocks.rot c t.val : Dev nD) : Thread nD τ).loc main_arg0))
        (ix2 (SumBlocks.blockIdx c r) κ) := by
  have e : (⟨1024 * c.val + r.val, by have hc : c.val < 8 := c.isLt; omega⟩ : Fin 8192) = SumBlocks.blockIdx c r :=
    Fin.ext (by simp only [SumBlocks.blockIdx_val]; omega)
  rw [← e]
  rfl

/-- The block of `w` of step `t`, half `h`, at an entry. -/
theorem Bblk_apply (m : (ℓ : Loc nD τ sig) → Buf (Elt Ideal) ℓ) (c : Dev nD) (t : Fin 8) (h : Fin 2)
    (κ : Fin 1024) (jj : Fin 2048) :
    Bblk (F := Ideal) m c t h (ix3 (0 : Fin 1) κ jj)
      = (show FVec Ideal S8192x4096 .f32 from m ((c.tc : Thread nD τ).loc main_arg1))
        (ix2 (SumBlocks.blockIdx (SumBlocks.rot c t.val) κ) (⟨2048 * h.val + jj.val, by omega⟩ : Fin 4096)) := by
  have e : (⟨1024 * (fwd t.val c).val + κ.val, by have hf : (fwd t.val c).val < 8 := (fwd t.val c).isLt; omega⟩ : Fin 8192)
      = SumBlocks.blockIdx (SumBlocks.rot c t.val) κ :=
    Fin.ext (by show 1024 * ((c.val + t.val) % 8) + κ.val = ((c.val + t.val) % 8) * 1024 + κ.val; omega)
  rw [← e]
  rfl

/-- The value of the kernel's run at the extended reals: when every device's argument buffers hold
    their parts of the reference's arrays, device `c`'s result is block `c` of gelu`(x @ w)`. -/
theorem valI_outAt :
    ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ),
      (∀ c : Dev Cert.KernelIdeal.nD,
        m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
      ∀ c : Dev Cert.KernelIdeal.nD, outAtI m c = Layout.block ⟨2, ![1024, 4096]⟩ ⟨2, ![8192, 4096]⟩ 0 8 c
        (Cert.RefValue.Gref
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))) :=
  fun m m' hagree c =>
    Cert.Claims.out_of_quarters m m' hagree c (Ablk (F := Ideal) m c) (Bblk (F := Ideal) m c)
      (fun t r κ => Ablk_apply m c t r κ) (fun t h κ jj => Bblk_apply m c t h κ jj)
      (outAt (F := Ideal) m c)
      (fun h q r j => (outAt_apply (F := Ideal) m c h q r j).trans (congrFun (quarterF_eq _ _ h q) _))

end Cert.KernelIdeal.A2A

/-- info: 'Cert.KernelIdeal.A2A.valI_outAt' depends on axioms: [propext, Classical.choice, Quot.sound] -/
#guard_msgs in
#print axioms Cert.KernelIdeal.A2A.valI_outAt

end
-- ==== Proof.Ghost.lean ====
/-
  What one device's body starts from. The cells' invariants it opens (its own barrier, seven send and seven receive
  cells; the barrier cells of the seven devices ahead, which it signals; the receive cells of the seven devices
  behind, which its transfers credit), its positions at round 0 of its own fifteen cells, the facts that round 0 of
  each cell it pays or waits on is reached, the one-shot tokens of the twenty-one duties it pays, the credit its
  waits consume, the seven semaphores of its own that take part in no round (the local copies' five and the two
  unused array entries) at zero, and the levels.
-/
import proofs.«900489_g7700000000000490_dist_a2a_gemm_m8192_k8192_n4096_f32_gelu_v7x_i8_1_alg».proof.Proof.Proto

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A local copy's semaphore, or an unused array entry: pool position `j`. -/
abbrev locCell (j : Fin 22) (c : Dev nD) : GSem nD τ sig := ((c : Thread nD τ), .dma (Fin.cast (show 22 = sig.nDmaSem from rfl) j))

def invs (K : GSem nD τ sig → ℕ) (c : Dev nD) : sProp 𝕄 :=
  iprop(cellInv ER (sched m) (K (barCell c)) (barCell c)
    ∗ cellInv ER (sched m) (K (sendCell 0 c)) (sendCell 0 c) ∗ cellInv ER (sched m) (K (sendCell 1 c)) (sendCell 1 c)
    ∗ cellInv ER (sched m) (K (sendCell 2 c)) (sendCell 2 c) ∗ cellInv ER (sched m) (K (sendCell 3 c)) (sendCell 3 c)
    ∗ cellInv ER (sched m) (K (sendCell 4 c)) (sendCell 4 c) ∗ cellInv ER (sched m) (K (sendCell 5 c)) (sendCell 5 c)
    ∗ cellInv ER (sched m) (K (sendCell 6 c)) (sendCell 6 c)
    ∗ cellInv ER (sched m) (K (recvCell 0 c)) (recvCell 0 c) ∗ cellInv ER (sched m) (K (recvCell 1 c)) (recvCell 1 c)
    ∗ cellInv ER (sched m) (K (recvCell 2 c)) (recvCell 2 c) ∗ cellInv ER (sched m) (K (recvCell 3 c)) (recvCell 3 c)
    ∗ cellInv ER (sched m) (K (recvCell 4 c)) (recvCell 4 c) ∗ cellInv ER (sched m) (K (recvCell 5 c)) (recvCell 5 c)
    ∗ cellInv ER (sched m) (K (recvCell 6 c)) (recvCell 6 c)
    ∗ cellInv ER (sched m) (K (barCell (fwd 1 c))) (barCell (fwd 1 c)) ∗ cellInv ER (sched m) (K (barCell (fwd 2 c))) (barCell (fwd 2 c))
    ∗ cellInv ER (sched m) (K (barCell (fwd 3 c))) (barCell (fwd 3 c)) ∗ cellInv ER (sched m) (K (barCell (fwd 4 c))) (barCell (fwd 4 c))
    ∗ cellInv ER (sched m) (K (barCell (fwd 5 c))) (barCell (fwd 5 c)) ∗ cellInv ER (sched m) (K (barCell (fwd 6 c))) (barCell (fwd 6 c))
    ∗ cellInv ER (sched m) (K (barCell (fwd 7 c))) (barCell (fwd 7 c))
    ∗ cellInv ER (sched m) (K (recvCell 0 (bwd 1 c))) (recvCell 0 (bwd 1 c)) ∗ cellInv ER (sched m) (K (recvCell 1 (bwd 2 c))) (recvCell 1 (bwd 2 c))
    ∗ cellInv ER (sched m) (K (recvCell 2 (bwd 3 c))) (recvCell 2 (bwd 3 c)) ∗ cellInv ER (sched m) (K (recvCell 3 (bwd 4 c))) (recvCell 3 (bwd 4 c))
    ∗ cellInv ER (sched m) (K (recvCell 4 (bwd 5 c))) (recvCell 4 (bwd 5 c)) ∗ cellInv ER (sched m) (K (recvCell 5 (bwd 6 c))) (recvCell 5 (bwd 6 c))
    ∗ cellInv ER (sched m) (K (recvCell 6 (bwd 7 c))) (recvCell 6 (bwd 7 c)))

instance invs_persistent (K : GSem nD τ sig → ℕ) (c : Dev nD) : BI.Persistent (invs m K c) := by unfold invs; infer_instance

/-- The positions at round 0 of the device's own fifteen cells. -/
def poss (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0 ∗ atPos ER (sendCell 3 c) 0 ∅ 0
    ∗ atPos ER (sendCell 4 c) 0 ∅ 0 ∗ atPos ER (sendCell 5 c) 0 ∅ 0 ∗ atPos ER (sendCell 6 c) 0 ∅ 0
    ∗ atPos ER (recvCell 0 c) 0 ∅ 0 ∗ atPos ER (recvCell 1 c) 0 ∅ 0 ∗ atPos ER (recvCell 2 c) 0 ∅ 0 ∗ atPos ER (recvCell 3 c) 0 ∅ 0
    ∗ atPos ER (recvCell 4 c) 0 ∅ 0 ∗ atPos ER (recvCell 5 c) 0 ∅ 0 ∗ atPos ER (recvCell 6 c) 0 ∅ 0)

/-- Round 0 reached: of the barrier cells ahead, of the receive cells behind, of its own send and receive cells. -/
def reacheds (c : Dev nD) : sProp 𝕄 :=
  iprop(reached ER (barCell (fwd 1 c)) 0 ∗ reached ER (barCell (fwd 2 c)) 0 ∗ reached ER (barCell (fwd 3 c)) 0 ∗ reached ER (barCell (fwd 4 c)) 0
    ∗ reached ER (barCell (fwd 5 c)) 0 ∗ reached ER (barCell (fwd 6 c)) 0 ∗ reached ER (barCell (fwd 7 c)) 0
    ∗ reached ER (recvCell 0 (bwd 1 c)) 0 ∗ reached ER (recvCell 1 (bwd 2 c)) 0 ∗ reached ER (recvCell 2 (bwd 3 c)) 0 ∗ reached ER (recvCell 3 (bwd 4 c)) 0
    ∗ reached ER (recvCell 4 (bwd 5 c)) 0 ∗ reached ER (recvCell 5 (bwd 6 c)) 0 ∗ reached ER (recvCell 6 (bwd 7 c)) 0
    ∗ reached ER (sendCell 0 c) 0 ∗ reached ER (sendCell 1 c) 0 ∗ reached ER (sendCell 2 c) 0 ∗ reached ER (sendCell 3 c) 0
    ∗ reached ER (sendCell 4 c) 0 ∗ reached ER (sendCell 5 c) 0 ∗ reached ER (sendCell 6 c) 0
    ∗ reached ER (recvCell 0 c) 0 ∗ reached ER (recvCell 1 c) 0 ∗ reached ER (recvCell 2 c) 0 ∗ reached ER (recvCell 3 c) 0
    ∗ reached ER (recvCell 4 c) 0 ∗ reached ER (recvCell 5 c) 0 ∗ reached ER (recvCell 6 c) 0)

instance reacheds_persistent (c : Dev nD) : BI.Persistent (reacheds (F := F) c) := by unfold reacheds; infer_instance

/-- The tokens of the duties the device pays: duty `r` of the barrier cell `r + 1` ahead, the one duty of the
    receive cell `r` of the device `r + 1` behind, the one duty of its own send cell `r`. -/
def payToks (c : Dev nD) : sProp 𝕄 :=
  iprop(dutyTok ER (barCell (fwd 1 c)) 0 (0 : Fin 7) ∗ dutyTok ER (barCell (fwd 2 c)) 0 (1 : Fin 7) ∗ dutyTok ER (barCell (fwd 3 c)) 0 (2 : Fin 7)
    ∗ dutyTok ER (barCell (fwd 4 c)) 0 (3 : Fin 7) ∗ dutyTok ER (barCell (fwd 5 c)) 0 (4 : Fin 7) ∗ dutyTok ER (barCell (fwd 6 c)) 0 (5 : Fin 7)
    ∗ dutyTok ER (barCell (fwd 7 c)) 0 (6 : Fin 7)
    ∗ dutyTok ER (recvCell 0 (bwd 1 c)) 0 (0 : Fin 7) ∗ dutyTok ER (recvCell 1 (bwd 2 c)) 0 (0 : Fin 7) ∗ dutyTok ER (recvCell 2 (bwd 3 c)) 0 (0 : Fin 7)
    ∗ dutyTok ER (recvCell 3 (bwd 4 c)) 0 (0 : Fin 7) ∗ dutyTok ER (recvCell 4 (bwd 5 c)) 0 (0 : Fin 7) ∗ dutyTok ER (recvCell 5 (bwd 6 c)) 0 (0 : Fin 7)
    ∗ dutyTok ER (recvCell 6 (bwd 7 c)) 0 (0 : Fin 7)
    ∗ dutyTok ER (sendCell 0 c) 0 (0 : Fin 7) ∗ dutyTok ER (sendCell 1 c) 0 (0 : Fin 7) ∗ dutyTok ER (sendCell 2 c) 0 (0 : Fin 7)
    ∗ dutyTok ER (sendCell 3 c) 0 (0 : Fin 7) ∗ dutyTok ER (sendCell 4 c) 0 (0 : Fin 7) ∗ dutyTok ER (sendCell 5 c) 0 (0 : Fin 7)
    ∗ dutyTok ER (sendCell 6 c) 0 (0 : Fin 7))

/-- The credit its waits consume: seven units on its barrier cell, a block's credit on each receive cell. -/
def creds (c : Dev nD) : sProp 𝕄 :=
  iprop(cred (tallyAt (barCell c) () 7)
    ∗ cred (tallyAt (recvCell 0 c) () N) ∗ cred (tallyAt (recvCell 1 c) () N) ∗ cred (tallyAt (recvCell 2 c) () N) ∗ cred (tallyAt (recvCell 3 c) () N)
    ∗ cred (tallyAt (recvCell 4 c) () N) ∗ cred (tallyAt (recvCell 5 c) () N) ∗ cred (tallyAt (recvCell 6 c) () N))

/-- The seven own semaphores outside every round, at zero: array entries 0 of the send and receive arrays (unused),
    the two semaphores of the staging copies of `x` and `w`, the two of the copies into the bf16 array, the first copy's. -/
def idleSems (c : Dev nD) : sProp 𝕄 :=
  iprop(semVal (locCell 1 c) 0 ∗ semVal (locCell 9 c) 0 ∗ semVal (locCell 17 c) 0 ∗ semVal (locCell 18 c) 0
    ∗ semVal (locCell 19 c) 0 ∗ semVal (locCell 20 c) 0 ∗ semVal (locCell 21 c) 0)

def ghost (K : GSem nD τ sig → ℕ) (c : Dev nD) : sProp 𝕄 :=
  iprop(invs m K c ∗ poss c ∗ reacheds c ∗ payToks c)

/-- What device `c`'s body starts from, beside the buffers. -/
def start (c : Dev nD) : sProp 𝕄 :=
  iprop((∃ K, ghost m K c) ∗ creds c ∗ idleSems c ∗ levAts L lv)

end Cert.KernelIdeal.A2A
-- ==== Proof.Ledger.lean ====
/-
  The deadlock argument, as a ledger. Receive cells sit at level 2, barrier cells at level 1, every other cell at
  level 0. A device waits on a level-0 cell (a local copy's, a send cell, the staging cell) while it owes only
  barrier and receive cells, and on its barrier cell while it owes only receive cells: each wait is below
  everything its device still owes.
-/
import proofs.«900489_g7700000000000490_dist_a2a_gemm_m8192_k8192_n4096_f32_gelu_v7x_i8_1_alg».proof.Proof.Proto

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A debt that is positive only at TensorCore cells of level at least `n`. -/
def AtLeast (n : ℕ) (O : CellTallies nD τ sig Unit) : Prop := ∀ (g : GSem nD τ sig) (u : Unit), 0 < O g u → u ∈ L g ∧ n ≤ lv g u

theorem atLeast_zero (n : ℕ) : AtLeast n (0 : CellTallies nD τ sig Unit) := fun g u h => absurd h (Nat.lt_irrefl 0)
theorem atLeast_add {n : ℕ} {O₁ O₂ : CellTallies nD τ sig Unit} (h₁ : AtLeast n O₁) (h₂ : AtLeast n O₂) : AtLeast n (O₁ + O₂) :=
  fun g u h => (Pipeline.add_pos_cases h).elim (h₁ g u) (h₂ g u)
theorem atLeast_recv (r : Fin 7) (d : Dev nD) (k : ℕ) : AtLeast 2 (tallyAt (recvCell r d) () k) := fun g u h => by
  obtain ⟨rfl, rfl⟩ := Pipeline.tallyAt_pos h
  exact ⟨by rw [L_tc]; exact Finset.mem_singleton_self _, by rw [lv_recv]⟩
theorem atLeast_bar (d : Dev nD) (k : ℕ) : AtLeast 1 (tallyAt (barCell d) () k) := fun g u h => by
  obtain ⟨rfl, rfl⟩ := Pipeline.tallyAt_pos h
  exact ⟨by rw [L_tc]; exact Finset.mem_singleton_self _, by rw [lv_bar]⟩
theorem atLeast_mono {n n' : ℕ} (hn : n' ≤ n) {O : CellTallies nD τ sig Unit} (h : AtLeast n O) : AtLeast n' O :=
  fun g u hp => ⟨(h g u hp).1, le_trans hn (h g u hp).2⟩

/-- A wait on a cell of level 0 while owing only cells of level 1 or more. -/
theorem mayWait_low (c : Dev nD) (sm : SemLoc sig) (hsm : lv ((c : Thread nD τ), sm) () = 0) (O : CellTallies nD τ sig Unit) (hO : AtLeast 1 O) :
    (levAts L lv : sProp 𝕄) ⊢ MayWait (c : Thread nD τ) sm () O :=
  Pipeline.mayWait_of_levAts (by rw [L_tc]; exact Finset.mem_singleton_self _)
    (fun g u h => ⟨(hO g u h).1, by rw [hsm]; exact (hO g u h).2⟩)

/-- The barrier wait while owing only receive cells. -/
theorem mayWait_bar (c : Dev nD) (O : CellTallies nD τ sig Unit) (hO : AtLeast 2 O) :
    (levAts L lv : sProp 𝕄) ⊢ MayWait (c : Thread nD τ) (.reg barS) () O :=
  Pipeline.mayWait_of_levAts (by rw [L_tc]; exact Finset.mem_singleton_self _)
    (fun g u h => ⟨(hO g u h).1, by rw [lv_bar]; exact (hO g u h).2⟩)

end Cert.KernelIdeal.A2A
-- ==== Proof.SrcBlocks.lean ====
import proofs.«900489_g7700000000000490_dist_a2a_gemm_m8192_k8192_n4096_f32_gelu_v7x_i8_1_alg».proof.Proof.Proto
import proofs.«900489_g7700000000000490_dist_a2a_gemm_m8192_k8192_n4096_f32_gelu_v7x_i8_1_alg».proof.Proof.OutDef
import Idealize.ShloMosaic.Lib.Pipeline.Value
import Idealize.ShloMosaic.Lib.ValueLayout

/-!
# What the local copies read

The kernel's local copies take a `1024 × 1024` row block of the device's block of `x` — its own rows
first, then at step `r + 1` the rows of the device `r + 1` places behind — and a `1024 × 2048` block of
its copy of `w`: the rows of the `K`-block of the device `t` places ahead, the low or the high column
half.  Read at an entry, a source block is the whole array at the entry shifted by the block's
offsets; the two blocks of `w` of step `t` are the blocks the products are taken with.
-/

noncomputable section

namespace Cert.KernelIdeal.A2A

open Cert.KernelIdeal Cert.KernelIdeal.Gen Cert.KernelIdeal.Ring8
open Idealize.ShloMosaic
open Idealize.ShloMosaic.TcCoe
open Idealize.ShloMosaic.ValueIdx

variable {F : FTy → Type} [FloatOps F]

variable (m : (ℓ : Loc nD τ sig) → Buf (Elt F) ℓ)

/-! ## The source blocks -/

/-- The device's own rows of its block of `x`. -/
abbrev xsrc0 (c : Dev nD) : Memref sig .tc .hbm S1024x1024 .f32 :=
  (Memref.whole main_arg0 : Memref sig .tc .hbm S8192x1024 .f32).slice (Rect.unit (s := S8192x1024) (k0_off1 c) S1024x1024.size (k0_off1_inb c)) (fun _ => rfl)

/-- Step `r + 1`'s rows of the device's block of `x`: those of the device `r + 1` places behind. -/
abbrev xsrc (r : Fin 7) (c : Dev nD) : Memref sig .tc .hbm S1024x1024 .f32 :=
  (Memref.whole main_arg0 : Memref sig .tc .hbm S8192x1024 .f32).slice (Rect.unit (s := S8192x1024) (k0_off2 c (BitVec.ofNat 32 (1 + r.val))) S1024x1024.size (k0_off2_inb c r)) (fun _ => rfl)

/-- Step `t`'s block of `w`, low column half: rows of the `K`-block of the device `t` places ahead. -/
abbrev wsrc0 (t : Fin 8) (c : Dev nD) : Memref sig .tc .hbm S1024x2048 .f32 :=
  (Memref.whole main_arg1 : Memref sig .tc .hbm S8192x4096 .f32).slice (Rect.unit (s := S8192x4096) (k0_off3 c (BitVec.ofNat 32 t.val)) S1024x2048.size (k0_off3_inb c t)) (fun _ => rfl)

/-- Step `t`'s block of `w`, high column half. -/
abbrev wsrc1 (t : Fin 8) (c : Dev nD) : Memref sig .tc .hbm S1024x2048 .f32 :=
  (Memref.whole main_arg1 : Memref sig .tc .hbm S8192x4096 .f32).slice (Rect.unit (s := S8192x4096) (k0_off4 c (BitVec.ofNat 32 t.val)) S1024x2048.size (k0_off4_inb c t)) (fun _ => rfl)

/-! ## Where a block's entry sits in the whole array -/

theorem own_row_lt (c : Dev nD) (ρ : Fin 1024) : 1024 * c.val + ρ.val < 8192 := by
  have h : c.val < 8 := c.isLt
  have := ρ.isLt
  omega

theorem bwd_row_lt' (k : Nat) (c : Dev nD) (ρ : Fin 1024) : 1024 * (bwd k c).val + ρ.val < 8192 := by
  have h : (bwd k c).val < 8 := (bwd k c).isLt
  have := ρ.isLt
  omega

theorem fwd_row_lt (k : Nat) (c : Dev nD) (κ : Fin 1024) : 1024 * (fwd k c).val + κ.val < 8192 := by
  have h : (fwd k c).val < 8 := (fwd k c).isLt
  have := κ.isLt
  omega

theorem xsrc0_emb (c : Dev nD) (ρ κ : Fin 1024) :
    (xsrc0 c).view.emb (ix2 ρ κ) = (ix2 (⟨1024 * c.val + ρ.val, own_row_lt c ρ⟩ : Fin 8192) κ : S8192x1024.Idx) := by
  show (Rect.unit (s := S8192x1024) (k0_off1 c) S1024x1024.size (k0_off1_inb c)).emb (ix2 ρ κ) = _
  funext a
  apply Fin.ext
  rw [Rect.emb_apply, Rect.off_unit, Rect.stride_unit]
  have hoff := k0_off1_eq c
  match a with
  | ⟨0, _⟩ =>
    show k0_off1 c 0 + 1 * ρ.val = 1024 * c.val + ρ.val
    rw [hoff]; simp
  | ⟨1, _⟩ =>
    show k0_off1 c 1 + 1 * κ.val = κ.val
    rw [hoff]; simp

theorem xsrc_emb (r : Fin 7) (c : Dev nD) (ρ κ : Fin 1024) :
    (xsrc r c).view.emb (ix2 ρ κ)
      = (ix2 (⟨1024 * (bwd (1 + r.val) c).val + ρ.val, bwd_row_lt' _ c ρ⟩ : Fin 8192) κ : S8192x1024.Idx) := by
  show (Rect.unit (s := S8192x1024) (k0_off2 c (BitVec.ofNat 32 (1 + r.val))) S1024x1024.size (k0_off2_inb c r)).emb (ix2 ρ κ) = _
  funext a
  apply Fin.ext
  rw [Rect.emb_apply, Rect.off_unit, Rect.stride_unit]
  have hoff := off2_eq c r
  match a with
  | ⟨0, _⟩ =>
    show k0_off2 c (BitVec.ofNat 32 (1 + r.val)) 0 + 1 * ρ.val = 1024 * (bwd (1 + r.val) c).val + ρ.val
    rw [hoff]; simp
  | ⟨1, _⟩ =>
    show k0_off2 c (BitVec.ofNat 32 (1 + r.val)) 1 + 1 * κ.val = κ.val
    rw [hoff]; simp

theorem wsrc0_emb (t : Fin 8) (c : Dev nD) (κ : Fin 1024) (jj : Fin 2048) :
    (wsrc0 t c).view.emb (ix2 κ jj)
      = (ix2 (⟨1024 * (fwd t.val c).val + κ.val, fwd_row_lt _ c κ⟩ : Fin 8192) (⟨jj.val, by omega⟩ : Fin 4096) : S8192x4096.Idx) := by
  show (Rect.unit (s := S8192x4096) (k0_off3 c (BitVec.ofNat 32 t.val)) S1024x2048.size (k0_off3_inb c t)).emb (ix2 κ jj) = _
  funext a
  apply Fin.ext
  rw [Rect.emb_apply, Rect.off_unit, Rect.stride_unit]
  have hoff := off3_eq c t
  match a with
  | ⟨0, _⟩ =>
    show k0_off3 c (BitVec.ofNat 32 t.val) 0 + 1 * κ.val = 1024 * (fwd t.val c).val + κ.val
    rw [hoff]; simp
  | ⟨1, _⟩ =>
    show k0_off3 c (BitVec.ofNat 32 t.val) 1 + 1 * jj.val = jj.val
    rw [hoff]; simp

theorem wsrc1_emb (t : Fin 8) (c : Dev nD) (κ : Fin 1024) (jj : Fin 2048) :
    (wsrc1 t c).view.emb (ix2 κ jj)
      = (ix2 (⟨1024 * (fwd t.val c).val + κ.val, fwd_row_lt _ c κ⟩ : Fin 8192) (⟨2048 + jj.val, by omega⟩ : Fin 4096) : S8192x4096.Idx) := by
  show (Rect.unit (s := S8192x4096) (k0_off4 c (BitVec.ofNat 32 t.val)) S1024x2048.size (k0_off4_inb c t)).emb (ix2 κ jj) = _
  funext a
  apply Fin.ext
  rw [Rect.emb_apply, Rect.off_unit, Rect.stride_unit]
  have hoff := off4_eq c t
  match a with
  | ⟨0, _⟩ =>
    show k0_off4 c (BitVec.ofNat 32 t.val) 0 + 1 * κ.val = 1024 * (fwd t.val c).val + κ.val
    rw [hoff]; simp
  | ⟨1, _⟩ =>
    show k0_off4 c (BitVec.ofNat 32 t.val) 1 + 1 * jj.val = 2048 + jj.val
    rw [hoff]; simp

/-! ## A source block read at an entry -/

theorem xsrc0_read (c : Dev nD) (ρ κ : Fin 1024) :
    (xsrc0 c).view.read (Elt F) (xin m c) (ix2 ρ κ)
      = xin m c (ix2 (⟨1024 * c.val + ρ.val, own_row_lt c ρ⟩ : Fin 8192) κ) := by
  rw [View.read_apply, xsrc0_emb]
  rfl

theorem xsrc_read (r : Fin 7) (c : Dev nD) (ρ κ : Fin 1024) :
    (xsrc r c).view.read (Elt F) (xin m c) (ix2 ρ κ)
      = xin m c (ix2 (⟨1024 * (bwd (1 + r.val) c).val + ρ.val, bwd_row_lt' _ c ρ⟩ : Fin 8192) κ) := by
  rw [View.read_apply, xsrc_emb]
  rfl

theorem wsrc0_read (t : Fin 8) (c : Dev nD) (κ : Fin 1024) (jj : Fin 2048) :
    (wsrc0 t c).view.read (Elt F) (win m c) (ix2 κ jj)
      = win m c (ix2 (⟨1024 * (fwd t.val c).val + κ.val, fwd_row_lt _ c κ⟩ : Fin 8192) (⟨jj.val, by omega⟩ : Fin 4096)) := by
  rw [View.read_apply, wsrc0_emb]
  rfl

theorem wsrc1_read (t : Fin 8) (c : Dev nD) (κ : Fin 1024) (jj : Fin 2048) :
    (wsrc1 t c).view.read (Elt F) (win m c) (ix2 κ jj)
      = win m c (ix2 (⟨1024 * (fwd t.val c).val + κ.val, fwd_row_lt _ c κ⟩ : Fin 8192) (⟨2048 + jj.val, by omega⟩ : Fin 4096)) := by
  rw [View.read_apply, wsrc1_emb]
  rfl

/-! ## The blocks of `w` the products are taken with -/

/-- The low half's source block, with a unit axis in front, is the block of `w` of step `t`, half 0. -/
theorem wsrc0_eq_Bblk (t : Fin 8) (c : Dev nD) :
    (fun i : S1x1024x2048.Idx => (wsrc0 t c).view.read (Elt F) (win m c)
        (ix2 (⟨(i 1).val, (i 1).isLt⟩ : Fin 1024) (⟨(i 2).val, (i 2).isLt⟩ : Fin 2048))) = Bblk m c t 0 := by
  funext i
  rw [wsrc0_read]
  unfold Bblk
  refine congrArg (win m c) ?_
  funext a
  apply Fin.ext
  match a with
  | ⟨0, _⟩ => rfl
  | ⟨1, _⟩ =>
    show (i 2).val = 2048 * (0 : Fin 2).val + (i 2).val
    simp

/-- The high half's source block is the block of `w` of step `t`, half 1. -/
theorem wsrc1_eq_Bblk (t : Fin 8) (c : Dev nD) :
    (fun i : S1x1024x2048.Idx => (wsrc1 t c).view.read (Elt F) (win m c)
        (ix2 (⟨(i 1).val, (i 1).isLt⟩ : Fin 1024) (⟨(i 2).val, (i 2).isLt⟩ : Fin 2048))) = Bblk m c t 1 := by
  funext i
  rw [wsrc1_read]
  unfold Bblk
  refine congrArg (win m c) ?_
  funext a
  apply Fin.ext
  match a with
  | ⟨0, _⟩ => rfl
  | ⟨1, _⟩ =>
    show 2048 + (i 2).val = 2048 * (1 : Fin 2).val + (i 2).val
    simp

end Cert.KernelIdeal.A2A

end
-- ==== Proof.Views.lean ====
/-
  The planes of the staging buffers and the slots of the receive buffer, read by coordinates. Plane `b` of
  a staging buffer is the rectangle of all indices with outer coordinate `b` (for the f32 buffer either its
  low 1024 columns or all 2048), seen without the outer axis. An index `(ρ, κ)` of a plane sits at `(b, ρ, κ)`
  in the buffer. So a load through the whole buffer at the plane's rectangle, after the plane was written with
  `w`, reads `w (ρ, κ)` at `(0, ρ, κ)`; and a load through the whole receive buffer at slot `k`'s rectangle reads
  the buffer at `(k, ρ, κ)`, which for the buffer's final contents is the block of `x` of step `k`.
-/
import proofs.«900489_g7700000000000490_dist_a2a_gemm_m8192_k8192_n4096_f32_gelu_v7x_i8_1_alg».proof.Proof.OutDef
import Idealize.ShloMosaic.Lib.Pipeline.Value
import Idealize.ShloMosaic.Lib.ValueLayout

noncomputable section

namespace Cert.KernelIdeal.A2A

open Cert.KernelIdeal Cert.KernelIdeal.Gen Cert.KernelIdeal.Ring8
open Idealize.ShloMosaic
open Idealize.ShloMosaic.TcCoe
open Idealize.ShloMosaic.ValueIdx

variable {F : FTy → Type} [FloatOps F]

/-! ## The planes of the two staging buffers and of the receive buffer, by coordinates -/

theorem lo_inb : ∀ (b : Fin 2) a, (![b.val, 0, 0] : Fin 3 → Nat) a + S1x1024x1024.size a ≤ S2x1024x2048.size a := by decide
theorem ful_inb : ∀ (b : Fin 2) a, (![b.val, 0, 0] : Fin 3 → Nat) a + S1x1024x2048.size a ≤ S2x1024x2048.size a := by decide
theorem cp_inb : ∀ (b : Fin 2) a, (![b.val, 0, 0] : Fin 3 → Nat) a + S1x1024x1024.size a ≤ S2x1024x1024.size a := by decide

/-- Plane `b` of the f32 staging buffer, its low 1024 columns: where a block of `x` lands before it is narrowed. -/
abbrev vlo (b : Fin 2) : Memref sig .tc .vmem S1024x1024 .f32 :=
  ((Memref.whole cc0_scratch1 : Memref sig .tc .vmem S2x1024x2048 .f32).slice (Rect.unit (s := S2x1024x2048) ![b.val, 0, 0] S1x1024x1024.size (lo_inb b)) (fun _ => rfl)).squeeze S1024x1024 squeezes_S1x1024x1024_S1024x1024
/-- Plane `b` of the f32 staging buffer, whole: where a block of `w` lands. -/
abbrev vful (b : Fin 2) : Memref sig .tc .vmem S1024x2048 .f32 :=
  ((Memref.whole cc0_scratch1 : Memref sig .tc .vmem S2x1024x2048 .f32).slice (Rect.unit (s := S2x1024x2048) ![b.val, 0, 0] S1x1024x2048.size (ful_inb b)) (fun _ => rfl)).squeeze S1024x2048 squeezes_S1x1024x2048_S1024x2048
/-- Plane `b` of the bf16 staging buffer: the narrowed block that is sent. -/
abbrev cpl (b : Fin 2) : Memref sig .tc .vmem S1024x1024 .bf16 :=
  ((Memref.whole cc0_scratch2 : Memref sig .tc .vmem S2x1024x1024 .bf16).slice (Rect.unit (s := S2x1024x1024) ![b.val, 0, 0] S1x1024x1024.size (cp_inb b)) (fun _ => rfl)).squeeze S1024x1024 squeezes_S1x1024x1024_S1024x1024

/-! Where an index of a plane sits in its buffer: the plane's number in front. -/

theorem vlo_emb (b : Fin 2) (ρ κ : Fin 1024) :
    (vlo b).view.emb (ix2 ρ κ) = ix3 b ρ (⟨κ.val, by omega⟩ : Fin 2048) := by
  have h1 : (vlo b).view.emb (ix2 ρ κ)
      = (Rect.unit (s := S2x1024x2048) ![b.val, 0, 0] S1x1024x1024.size (lo_inb b)).emb (Shape.reshapeEquiv squeezes_S1x1024x1024_S1024x1024.numel_eq (ix2 ρ κ)) := rfl
  rw [h1, reshapeEquiv_ix2_1ab]
  funext a
  apply Fin.ext
  rw [Rect.emb_apply]
  match a with
  | ⟨0, _⟩ => show b.val + 1 * 0 = b.val; omega
  | ⟨1, _⟩ => show 0 + 1 * ρ.val = ρ.val; omega
  | ⟨2, _⟩ => show 0 + 1 * κ.val = κ.val; omega

theorem vful_emb (b : Fin 2) (κ : Fin 1024) (jj : Fin 2048) :
    (vful b).view.emb (ix2 κ jj) = ix3 b κ jj := by
  have h1 : (vful b).view.emb (ix2 κ jj)
      = (Rect.unit (s := S2x1024x2048) ![b.val, 0, 0] S1x1024x2048.size (ful_inb b)).emb (Shape.reshapeEquiv squeezes_S1x1024x2048_S1024x2048.numel_eq (ix2 κ jj)) := rfl
  rw [h1, reshapeEquiv_ix2_1ab]
  funext a
  apply Fin.ext
  rw [Rect.emb_apply]
  match a with
  | ⟨0, _⟩ => show b.val + 1 * 0 = b.val; omega
  | ⟨1, _⟩ => show 0 + 1 * κ.val = κ.val; omega
  | ⟨2, _⟩ => show 0 + 1 * jj.val = jj.val; omega

theorem cpl_emb (b : Fin 2) (ρ κ : Fin 1024) :
    (cpl b).view.emb (ix2 ρ κ) = ix3 b ρ κ := by
  have h1 : (cpl b).view.emb (ix2 ρ κ)
      = (Rect.unit (s := S2x1024x1024) ![b.val, 0, 0] S1x1024x1024.size (cp_inb b)).emb (Shape.reshapeEquiv squeezes_S1x1024x1024_S1024x1024.numel_eq (ix2 ρ κ)) := rfl
  rw [h1, reshapeEquiv_ix2_1ab]
  funext a
  apply Fin.ext
  rw [Rect.emb_apply]
  match a with
  | ⟨0, _⟩ => show b.val + 1 * 0 = b.val; omega
  | ⟨1, _⟩ => show 0 + 1 * ρ.val = ρ.val; omega
  | ⟨2, _⟩ => show 0 + 1 * κ.val = κ.val; omega

/-! A load through the whole buffer at a plane's rectangle, after a write through the plane, reads the payload. -/

theorem lo_idx (b : Fin 2) (ρ κ : Fin 1024) :
    (Rect.unit (s := S2x1024x2048) ![b.val, 0, 0] S1x1024x1024.size (lo_inb b)).toLoadRect.idx (ix3 (0 : Fin 1) ρ κ) = ix3 b ρ (⟨κ.val, by omega⟩ : Fin 2048) := by
  funext a
  apply Fin.ext
  rw [LoadRect.idx_apply]
  match a with
  | ⟨0, _⟩ => show b.val + 1 * 0 = b.val; omega
  | ⟨1, _⟩ => show 0 + 1 * ρ.val = ρ.val; omega
  | ⟨2, _⟩ => show 0 + 1 * κ.val = κ.val; omega

theorem ful_idx (b : Fin 2) (κ : Fin 1024) (jj : Fin 2048) :
    (Rect.unit (s := S2x1024x2048) ![b.val, 0, 0] S1x1024x2048.size (ful_inb b)).toLoadRect.idx (ix3 (0 : Fin 1) κ jj) = ix3 b κ jj := by
  funext a
  apply Fin.ext
  rw [LoadRect.idx_apply]
  match a with
  | ⟨0, _⟩ => show b.val + 1 * 0 = b.val; omega
  | ⟨1, _⟩ => show 0 + 1 * κ.val = κ.val; omega
  | ⟨2, _⟩ => show 0 + 1 * jj.val = jj.val; omega

theorem slot_idx (k : Fin 8) (ρ κ : Fin 1024) :
    (Rect.unit (s := S8x1024x1024) ![k.val, 0, 0] S1x1024x1024.size (slot_inb k)).toLoadRect.idx (ix3 (0 : Fin 1) ρ κ) = ix3 k ρ κ := by
  funext a
  apply Fin.ext
  rw [LoadRect.idx_apply]
  match a with
  | ⟨0, _⟩ => show k.val + 1 * 0 = k.val; omega
  | ⟨1, _⟩ => show 0 + 1 * ρ.val = ρ.val; omega
  | ⟨2, _⟩ => show 0 + 1 * κ.val = κ.val; omega

theorem readAt_vlo_write (b : Fin 2) (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![b.val, 0, 0] S1x1024x1024.size (lo_inb b)).toLoadRect ((vlo b).view.write (Elt F) f w Finset.univ) (ix3 (0 : Fin 1) ρ κ)
      = w (ix2 ρ κ) := by
  have h2 : (Memref.whole cc0_scratch1 : Memref sig .tc .vmem S2x1024x2048 .f32).view.readAt (Elt F) (Rect.unit (s := S2x1024x2048) ![b.val, 0, 0] S1x1024x1024.size (lo_inb b)).toLoadRect ((vlo b).view.write (Elt F) f w Finset.univ) (ix3 (0 : Fin 1) ρ κ)
      = (vlo b).view.write (Elt F) f w Finset.univ ((Rect.unit (s := S2x1024x2048) ![b.val, 0, 0] S1x1024x1024.size (lo_inb b)).toLoadRect.idx (ix3 (0 : Fin 1) ρ κ)) := rfl
  rw [h2, lo_idx, ← vlo_emb, View.write_emb_of_mem _ _ (Finset.mem_univ _)]
  rfl

theorem readAt_vful_write (b : Fin 2) (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![b.val, 0, 0] S1x1024x2048.size (ful_inb b)).toLoadRect ((vful b).view.write (Elt F) f w Finset.univ) (ix3 (0 : Fin 1) κ jj)
      = w (ix2 κ jj) := by
  have h2 : (Memref.whole cc0_scratch1 : Memref sig .tc .vmem S2x1024x2048 .f32).view.readAt (Elt F) (Rect.unit (s := S2x1024x2048) ![b.val, 0, 0] S1x1024x2048.size (ful_inb b)).toLoadRect ((vful b).view.write (Elt F) f w Finset.univ) (ix3 (0 : Fin 1) κ jj)
      = (vful b).view.write (Elt F) f w Finset.univ ((Rect.unit (s := S2x1024x2048) ![b.val, 0, 0] S1x1024x2048.size (ful_inb b)).toLoadRect.idx (ix3 (0 : Fin 1) κ jj)) := rfl
  rw [h2, ful_idx, ← vful_emb, View.write_emb_of_mem _ _ (Finset.mem_univ _)]
  rfl

/-- Reading the bf16 staging buffer through plane `b`. -/
theorem cpl_read (b : Fin 2) (g : (Memref.whole cc0_scratch2 : Memref sig .tc .vmem S2x1024x1024 .bf16).view.ty.Contents (Elt F)) (ρ κ : Fin 1024) :
    (cpl b).view.read (Elt F) g (ix2 ρ κ) = g (ix3 b ρ κ) := by
  rw [View.read_apply, cpl_emb]
  rfl

/-- A load through the whole receive buffer at slot `k`'s rectangle reads the buffer at outer coordinate `k`. -/
theorem readAt_slot (k : Fin 8) (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![k.val, 0, 0] S1x1024x1024.size (slot_inb k)).toLoadRect g (ix3 (0 : Fin 1) ρ κ) = g (ix3 k ρ κ) := by
  have h2 : (Memref.whole cc0_scratch0 : Memref sig .tc .vmem S8x1024x1024 .bf16).view.readAt (Elt F) (Rect.unit (s := S8x1024x1024) ![k.val, 0, 0] S1x1024x1024.size (slot_inb k)).toLoadRect g (ix3 (0 : Fin 1) ρ κ)
      = g ((Rect.unit (s := S8x1024x1024) ![k.val, 0, 0] S1x1024x1024.size (slot_inb k)).toLoadRect.idx (ix3 (0 : Fin 1) ρ κ)) := rfl
  rw [h2, slot_idx]

/-- What the receive buffer holds in the end, loaded at slot `k`'s rectangle, is the block of `x` of step `k`. -/
theorem readAt_slot_recvFull (m : (ℓ : Loc nD τ sig) → Buf (Elt F) ℓ) (c : Dev nD) (k : Fin 8) :
    (Memref.whole cc0_scratch0 : Memref sig .tc .vmem S8x1024x1024 .bf16).view.readAt (Elt F) (Rect.unit (s := S8x1024x1024) ![k.val, 0, 0] S1x1024x1024.size (slot_inb k)).toLoadRect (recvFull m c) = Ablk m c k := by
  funext i
  obtain ⟨z, ρ, κ, rfl⟩ : ∃ (z : Fin 1) (ρ κ : Fin 1024), i = ix3 z ρ κ := ⟨i 0, i 1, i 2, eq_ix3 i⟩
  obtain rfl : z = 0 := Subsingleton.elim _ _
  rw [readAt_slot]
  rfl

/-! ## The same at literal plane and slot numbers, in the printed program's spelling -/

theorem vlo_lit0 : (vlo 0 : Memref sig .tc .vmem S1024x1024 .f32) = (((Memref.whole cc0_scratch1 : Memref sig .tc .vmem S2x1024x2048 .f32).slice (Rect.unit (s := S2x1024x2048) ![0, 0, 0] S1x1024x1024.size inb_S2x1024x2048_S1x1024x1024_0_0_0) (fun _ => rfl)).squeeze S1024x1024 squeezes_S1x1024x1024_S1024x1024) := rfl
theorem vful_lit0 : (vful 0 : Memref sig .tc .vmem S1024x2048 .f32) = (((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048) := rfl
theorem cpl_lit0 : (cpl 0 : Memref sig .tc .vmem S1024x1024 .bf16) = (((Memref.whole cc0_scratch2 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024) := rfl

theorem readAt_vlo_write_lit0 (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![0, 0, 0] S1x1024x1024.size inb_S2x1024x2048_S1x1024x1024_0_0_0).toLoadRect ((((Memref.whole cc0_scratch1 : Memref sig .tc .vmem S2x1024x2048 .f32).slice (Rect.unit (s := S2x1024x2048) ![0, 0, 0] S1x1024x1024.size inb_S2x1024x2048_S1x1024x1024_0_0_0) (fun _ => rfl)).squeeze S1024x1024 squeezes_S1x1024x1024_S1024x1024).view.write (Elt F) f w Finset.univ) (ix3 (0 : Fin 1) ρ κ)
      = w (ix2 ρ κ) := readAt_vlo_write 0 f w ρ κ

theorem readAt_vful_write_lit0 (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.write (Elt F) f w Finset.univ) (ix3 (0 : Fin 1) κ jj)
      = w (ix2 κ jj) := readAt_vful_write 0 f w κ jj

theorem cpl_read_lit0 (g : (Memref.whole cc0_scratch2 : Memref sig .tc .vmem S2x1024x1024 .bf16).view.ty.Contents (Elt F)) (ρ κ : Fin 1024) :
    (((Memref.whole cc0_scratch2 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.read (Elt F) g (ix2 ρ κ) = g (ix3 (0 : Fin 2) ρ κ) := cpl_read 0 g ρ κ

theorem vlo_lit1 : (vlo 1 : Memref sig .tc .vmem S1024x1024 .f32) = (((Memref.whole cc0_scratch1 : Memref sig .tc .vmem S2x1024x2048 .f32).slice (Rect.unit (s := S2x1024x2048) ![1, 0, 0] S1x1024x1024.size inb_S2x1024x2048_S1x1024x1024_1_0_0) (fun _ => rfl)).squeeze S1024x1024 squeezes_S1x1024x1024_S1024x1024) := rfl
theorem vful_lit1 : (vful 1 : Memref sig .tc .vmem S1024x2048 .f32) = (((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048) := rfl
theorem cpl_lit1 : (cpl 1 : Memref sig .tc .vmem S1024x1024 .bf16) = (((Memref.whole cc0_scratch2 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024) := rfl

theorem readAt_vlo_write_lit1 (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![1, 0, 0] S1x1024x1024.size inb_S2x1024x2048_S1x1024x1024_1_0_0).toLoadRect ((((Memref.whole cc0_scratch1 : Memref sig .tc .vmem S2x1024x2048 .f32).slice (Rect.unit (s := S2x1024x2048) ![1, 0, 0] S1x1024x1024.size inb_S2x1024x2048_S1x1024x1024_1_0_0) (fun _ => rfl)).squeeze S1024x1024 squeezes_S1x1024x1024_S1024x1024).view.write (Elt F) f w Finset.univ) (ix3 (0 : Fin 1) ρ κ)
      = w (ix2 ρ κ) := readAt_vlo_write 1 f w ρ κ

theorem readAt_vful_write_lit1 (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.write (Elt F) f w Finset.univ) (ix3 (0 : Fin 1) κ jj)
      = w (ix2 κ jj) := readAt_vful_write 1 f w κ jj

theorem cpl_read_lit1 (g : (Memref.whole cc0_scratch2 : Memref sig .tc .vmem S2x1024x1024 .bf16).view.ty.Contents (Elt F)) (ρ κ : Fin 1024) :
    (((Memref.whole cc0_scratch2 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.read (Elt F) g (ix2 ρ κ) = g (ix3 (1 : Fin 2) ρ κ) := cpl_read 1 g ρ κ

theorem readAt_slot_lit0 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect g (ix3 (0 : Fin 1) ρ κ) = g (ix3 (0 : Fin 8) ρ κ) := readAt_slot 0 g ρ κ
theorem readAt_slot_recvFull_lit0 (m : (ℓ : Loc nD τ sig) → Buf (Elt F) ℓ) (c : Dev nD) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect (recvFull m c) = Ablk m c 0 := readAt_slot_recvFull m c 0

theorem readAt_slot_lit1 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect g (ix3 (0 : Fin 1) ρ κ) = g (ix3 (1 : Fin 8) ρ κ) := readAt_slot 1 g ρ κ
theorem readAt_slot_recvFull_lit1 (m : (ℓ : Loc nD τ sig) → Buf (Elt F) ℓ) (c : Dev nD) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect (recvFull m c) = Ablk m c 1 := readAt_slot_recvFull m c 1

theorem readAt_slot_lit2 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect g (ix3 (0 : Fin 1) ρ κ) = g (ix3 (2 : Fin 8) ρ κ) := readAt_slot 2 g ρ κ
theorem readAt_slot_recvFull_lit2 (m : (ℓ : Loc nD τ sig) → Buf (Elt F) ℓ) (c : Dev nD) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect (recvFull m c) = Ablk m c 2 := readAt_slot_recvFull m c 2

theorem readAt_slot_lit3 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect g (ix3 (0 : Fin 1) ρ κ) = g (ix3 (3 : Fin 8) ρ κ) := readAt_slot 3 g ρ κ
theorem readAt_slot_recvFull_lit3 (m : (ℓ : Loc nD τ sig) → Buf (Elt F) ℓ) (c : Dev nD) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect (recvFull m c) = Ablk m c 3 := readAt_slot_recvFull m c 3

theorem readAt_slot_lit4 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect g (ix3 (0 : Fin 1) ρ κ) = g (ix3 (4 : Fin 8) ρ κ) := readAt_slot 4 g ρ κ
theorem readAt_slot_recvFull_lit4 (m : (ℓ : Loc nD τ sig) → Buf (Elt F) ℓ) (c : Dev nD) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect (recvFull m c) = Ablk m c 4 := readAt_slot_recvFull m c 4

theorem readAt_slot_lit5 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect g (ix3 (0 : Fin 1) ρ κ) = g (ix3 (5 : Fin 8) ρ κ) := readAt_slot 5 g ρ κ
theorem readAt_slot_recvFull_lit5 (m : (ℓ : Loc nD τ sig) → Buf (Elt F) ℓ) (c : Dev nD) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect (recvFull m c) = Ablk m c 5 := readAt_slot_recvFull m c 5

theorem readAt_slot_lit6 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect g (ix3 (0 : Fin 1) ρ κ) = g (ix3 (6 : Fin 8) ρ κ) := readAt_slot 6 g ρ κ
theorem readAt_slot_recvFull_lit6 (m : (ℓ : Loc nD τ sig) → Buf (Elt F) ℓ) (c : Dev nD) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect (recvFull m c) = Ablk m c 6 := readAt_slot_recvFull m c 6

theorem readAt_slot_lit7 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect g (ix3 (0 : Fin 1) ρ κ) = g (ix3 (7 : Fin 8) ρ κ) := readAt_slot 7 g ρ κ
theorem readAt_slot_recvFull_lit7 (m : (ℓ : Loc nD τ sig) → Buf (Elt F) ℓ) (c : Dev nD) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect (recvFull m c) = Ablk m c 7 := readAt_slot_recvFull m c 7

end Cert.KernelIdeal.A2A
-- ==== Proof.Slots.lean ====
/-
  The receive buffer cut into its eight slots and put together again. Slot `k` is the rectangle of all
  indices whose outer coordinate is `k`; different slots share no element and every element lies in the slot
  its outer coordinate names. So holding the whole buffer at contents `f` is the same as holding the eight
  slots' element sets at `f`, and eight slots held at eight contents make the whole buffer at the contents
  that agree with each on its slot.
-/
import proofs.«900489_g7700000000000490_dist_a2a_gemm_m8192_k8192_n4096_f32_gelu_v7x_i8_1_alg».proof.Proof.Proto
import Idealize.ShloMosaic.Rules.PointsTo

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The eight receive slots tile the receive buffer -/

/-- A separating conjunction over the eight slot numbers, written out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- The rectangle of slot `k`: all of the two inner axes at coordinate `k` of the outer one. -/
abbrev slotRect (k : Fin 8) : Rect S8x1024x1024 := Rect.unit (s := S8x1024x1024) ![k.val, 0, 0] S1x1024x1024.size (slot_inb k)

/-- Slot `k`'s elements are its rectangle's. -/
theorem rslot_set (k : Fin 8) : (rslot k : Memref sig .tc .vmem S1024x1024 .bf16).view.set = (slotRect k).set := by
  show (((View.whole cc0_scratch0 : View sig .tc .vmem S8x1024x1024 .bf16).slice (slotRect k)).reshape S1024x1024 _).set = _
  rw [View.set_reshape, View.set_slice_whole]

/-- An index lies in the rectangle of slot `k` exactly when its outer coordinate is `k`. -/
theorem mem_slotRect (k : Fin 8) (i : S8x1024x1024.Idx) : i ∈ (slotRect k).set ↔ (i 0).val = k.val := by
  rw [Rect.mem_set_unit]
  constructor
  · intro h
    have h0 := h 0
    have e0 : (![k.val, 0, 0] : Fin 3 → Nat) 0 = k.val := rfl
    have e1 : S1x1024x1024.size 0 = 1 := rfl
    rw [e0, e1] at h0
    omega
  · intro h a
    match a with
    | 0 =>
      show k.val ≤ (i 0).val ∧ (i 0).val < k.val + 1
      omega
    | 1 =>
      have h1 : (i 1).val < 1024 := (i 1).isLt
      show 0 ≤ (i 1).val ∧ (i 1).val < 0 + 1024
      omega
    | 2 =>
      have h2 : (i 2).val < 1024 := (i 2).isLt
      show 0 ≤ (i 2).val ∧ (i 2).val < 0 + 1024
      omega

theorem mem_rslot (k : Fin 8) (i : S8x1024x1024.Idx) :
    i ∈ (rslot k : Memref sig .tc .vmem S1024x1024 .bf16).view.set ↔ (i 0).val = k.val := by
  rw [rslot_set]; exact mem_slotRect k i

/-- Slots of different numbers share no element. -/
theorem rslot_disjoint (k k' : Fin 8) (h : k ≠ k') :
    Disjoint (rslot k : Memref sig .tc .vmem S1024x1024 .bf16).view.set (rslot k' : Memref sig .tc .vmem S1024x1024 .bf16).view.set :=
  Finset.disjoint_left.mpr fun i hi hi' => h (Fin.ext (((mem_rslot k i).mp hi).symm.trans ((mem_rslot k' i).mp hi')))

/-- Slot `k`'s elements, as elements of device `c`'s receive buffer. -/
abbrev slotSet (c : Dev nD) (k : Fin 8) : Finset (Idx ((c : Thread nD τ).loc cc0_scratch0)) :=
  (rslot k : Memref sig .tc .vmem S1024x1024 .bf16).view.set

/-- Every element of the buffer lies in the slot numbered by its outer coordinate. -/
theorem slotSet_biUnion (c : Dev nD) : (Finset.univ : Finset (Fin 8)).biUnion (slotSet c) = Finset.univ :=
  Finset.eq_univ_iff_forall.mpr fun i =>
    Finset.mem_biUnion.mpr ⟨⟨(i 0).val, (i 0).isLt⟩, Finset.mem_univ _, (mem_rslot _ i).mpr rfl⟩

/-- The whole receive buffer at contents `f` is the eight slots, each at `f`. -/
theorem recv_split_eq (c : Dev nD) (f : Buf (Elt F) ((c : Thread nD τ).loc cc0_scratch0)) :
    (((c : Thread nD τ).loc cc0_scratch0) ↦{fullShare} f : sProp 𝕄)
      = iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) := by
  have h := pointsTo_biUnion (Val := Elt F) (U := UU) (Ix := Unit) (Name := ℕ) (Lvl := ℕ) (ℓ := (c : Thread nD τ).loc cc0_scratch0) (q := fullShare) (f := f) (Finset.univ : Finset (Fin 8))
    (slotSet c) (fun k _ k' _ hne => rslot_disjoint k k' hne)
  have h2 : (((c : Thread nD τ).loc cc0_scratch0) ↦{fullShare} f : sProp 𝕄)
      = (((c : Thread nD τ).loc cc0_scratch0) ↦[(Finset.univ : Finset (Fin 8)).biUnion (slotSet c)]{fullShare} f) :=
    congrArg (fun S => (((c : Thread nD τ).loc cc0_scratch0) ↦[S]{fullShare} f : sProp 𝕄)) (slotSet_biUnion c).symm
  exact h2.trans (h.trans (bigSep_fin8 _))

theorem recv_split (c : Dev nD) (f : Buf (Elt F) ((c : Thread nD τ).loc cc0_scratch0)) :
    (((Memref.whole cc0_scratch0 : Memref sig .tc .vmem S8x1024x1024 .bf16).view.loc (c : Thread nD τ)) ↦{fullShare} f : sProp 𝕄)
      ⊢ iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) :=
  Entails.of_eq (recv_split_eq c f)

/-- The same with the buffer's location written directly. -/
theorem recv_split_loc (c : Dev nD) (f : Buf (Elt F) ((c : Thread nD τ).loc cc0_scratch0)) :
    (((c : Thread nD τ).loc cc0_scratch0) ↦{fullShare} f : sProp 𝕄)
      ⊢ iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) :=
  Entails.of_eq (recv_split_eq c f)

/-- And back: the eight slots, each at `f`, are the whole buffer at `f`. -/
theorem recv_unsplit (c : Dev nD) (f : Buf (Elt F) ((c : Thread nD τ).loc cc0_scratch0)) :
    iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f))
      ⊢ (((c : Thread nD τ).loc cc0_scratch0) ↦{fullShare} f : sProp 𝕄) :=
  Entails.of_eq (recv_split_eq c f).symm

/-- Eight slots held at eight contents are the whole buffer at some contents. -/
theorem recv_join (c : Dev nD) (f0 f1 f2 f3 f4 f5 f6 f7 : Buf (Elt F) ((c : Thread nD τ).loc cc0_scratch0)) :
    iprop(((rslot 0 : Memref sig .tc .vmem S1024x1024 .bf16).view.loc (c : Thread nD τ) ↦[(rslot 0 : Memref sig .tc .vmem S1024x1024 .bf16).view.set]{fullShare} f0)
        ∗ ((rslot 1 : Memref sig .tc .vmem S1024x1024 .bf16).view.loc (c : Thread nD τ) ↦[(rslot 1 : Memref sig .tc .vmem S1024x1024 .bf16).view.set]{fullShare} f1)
        ∗ ((rslot 2 : Memref sig .tc .vmem S1024x1024 .bf16).view.loc (c : Thread nD τ) ↦[(rslot 2 : Memref sig .tc .vmem S1024x1024 .bf16).view.set]{fullShare} f2)
        ∗ ((rslot 3 : Memref sig .tc .vmem S1024x1024 .bf16).view.loc (c : Thread nD τ) ↦[(rslot 3 : Memref sig .tc .vmem S1024x1024 .bf16).view.set]{fullShare} f3)
        ∗ ((rslot 4 : Memref sig .tc .vmem S1024x1024 .bf16).view.loc (c : Thread nD τ) ↦[(rslot 4 : Memref sig .tc .vmem S1024x1024 .bf16).view.set]{fullShare} f4)
        ∗ ((rslot 5 : Memref sig .tc .vmem S1024x1024 .bf16).view.loc (c : Thread nD τ) ↦[(rslot 5 : Memref sig .tc .vmem S1024x1024 .bf16).view.set]{fullShare} f5)
        ∗ ((rslot 6 : Memref sig .tc .vmem S1024x1024 .bf16).view.loc (c : Thread nD τ) ↦[(rslot 6 : Memref sig .tc .vmem S1024x1024 .bf16).view.set]{fullShare} f6)
        ∗ ((rslot 7 : Memref sig .tc .vmem S1024x1024 .bf16).view.loc (c : Thread nD τ) ↦[(rslot 7 : Memref sig .tc .vmem S1024x1024 .bf16).view.set]{fullShare} f7))
      ⊢ (iprop(∃ f, (((c : Thread nD τ).loc cc0_scratch0) ↦{fullShare} f)) : sProp 𝕄) := by
  have h := pointsTo_biUnion_join (Val := Elt F) (U := UU) (Ix := Unit) (Name := ℕ) (Lvl := ℕ) (ℓ := (c : Thread nD τ).loc cc0_scratch0) (q := fullShare) (Finset.univ : Finset (Fin 8))
    (slotSet c) ![f0, f1, f2, f3, f4, f5, f6, f7] f0 (fun k _ k' _ hne => rslot_disjoint k k' hne)
  rw [bigSep_fin8, slotSet_biUnion] at h
  refine BIBase.Entails.trans ?_ (h.trans ?_)
  · exact .rfl
  · iintro ⟨%g, -, H⟩
    iexists g
    iexact H

/-! ## The bf16 copy of `x` cut into the seven row blocks sent and the block kept -/

theorem rows_inb : ∀ (d : Dev nD) a, (![1024 * d.val, 0] : Fin 2 → Nat) a + S1024x1024.size a ≤ S8192x1024.size a := by decide

/-- The row block of device `d`: rows `1024 d` to `1024 d + 1023`, every column. -/
abbrev rowsOf (d : Dev nD) : Rect S8192x1024 := Rect.unit (s := S8192x1024) ![1024 * d.val, 0] S1024x1024.size (rows_inb d)

/-- An index lies in device `d`'s row block exactly when its row, divided by 1024, is `d`. -/
theorem mem_rowsOf (d : Dev nD) (i : S8192x1024.Idx) : i ∈ (rowsOf d).set ↔ (i 0).val / 1024 = d.val := by
  rw [Rect.mem_set_unit]
  constructor
  · intro h
    have h0 := h 0
    have e0 : (![1024 * d.val, 0] : Fin 2 → Nat) 0 = 1024 * d.val := rfl
    have e1 : S1024x1024.size 0 = 1024 := rfl
    rw [e0, e1] at h0
    omega
  · intro h a
    match a with
    | 0 =>
      show 1024 * d.val ≤ (i 0).val ∧ (i 0).val < 1024 * d.val + 1024
      omega
    | 1 =>
      have h1 : (i 1).val < 1024 := (i 1).isLt
      show 0 ≤ (i 1).val ∧ (i 1).val < 0 + 1024
      omega

/-- The block sent at step `r + 1` is the row block of the device `r + 1` behind. -/
theorem xblk16_set (r : Fin 7) (c : Dev nD) : (xblk16 r c).view.set = (rowsOf (bwd (1 + r.val) c)).set := by
  show ((View.whole main_v1_1 : View sig .tc .hbm S8192x1024 .bf16).slice
    (Rect.unit (s := S8192x1024) (k0_off2 c (BitVec.ofNat 32 (1 + r.val))) S1024x1024.size (k0_off2_inb c r))).set = _
  rw [View.set_slice_whole, Rect.unit_congr (off2_eq c r) (k0_off2_inb c r) (rows_inb (bwd (1 + r.val) c))]

theorem bwd_succ_inj : ∀ (t t' : Fin 8) (c : Dev nD), bwd (t.val + 1) c = bwd (t'.val + 1) c → t = t' := by decide
theorem bwd_succ_surj : ∀ (c d : Dev nD), ∃ t : Fin 8, bwd (t.val + 1) c = d := by decide
theorem bwd_eight : ∀ c : Dev nD, bwd 8 c = c := by decide

/-- The row block of the device `t + 1` behind `c` (`t = 7`: of `c` itself), as elements of `c`'s array. -/
def xset (c : Dev nD) (t : Fin 8) : Finset (Idx ((c : Thread nD τ).loc main_v1_1)) := (rowsOf (bwd (t.val + 1) c)).set

theorem mem_xset (c : Dev nD) (t : Fin 8) (i : S8192x1024.Idx) : i ∈ xset c t ↔ (i 0).val / 1024 = (bwd (t.val + 1) c).val :=
  mem_rowsOf _ i

theorem xset_disjoint (c : Dev nD) (t t' : Fin 8) (h : t ≠ t') : Disjoint (xset c t) (xset c t') :=
  Finset.disjoint_left.mpr fun i hi hi' =>
    h (bwd_succ_inj t t' c (Fin.ext (((mem_xset c t i).mp hi).symm.trans ((mem_xset c t' i).mp hi'))))

theorem xset_biUnion (c : Dev nD) : (Finset.univ : Finset (Fin 8)).biUnion (xset c) = Finset.univ :=
  Finset.eq_univ_iff_forall.mpr fun i => by
    have hi : (i 0).val < 8192 := (i 0).isLt
    obtain ⟨t, ht⟩ := bwd_succ_surj c (⟨(i 0).val / 1024, by show _ < 8; omega⟩ : Dev nD)
    exact Finset.mem_biUnion.mpr ⟨t, Finset.mem_univ _, (mem_xset c t i).mpr (congrArg Fin.val ht).symm⟩

/-- The whole bf16 copy at contents `f` is the seven blocks sent and the device's own block, each at `f`. -/
theorem x16_split_eq (c : Dev nD) (f : Buf (Elt F) ((c : Thread nD τ).loc main_v1_1)) :
    (((c : Thread nD τ).loc main_v1_1) ↦{fullShare} f : sProp 𝕄)
      = iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f)) := by
  have h := pointsTo_biUnion (Val := Elt F) (U := UU) (Ix := Unit) (Name := ℕ) (Lvl := ℕ) (ℓ := (c : Thread nD τ).loc main_v1_1) (q := fullShare) (f := f) (Finset.univ : Finset (Fin 8))
    (xset c) (fun t _ t' _ hne => xset_disjoint c t t' hne)
  have h2 : (((c : Thread nD τ).loc main_v1_1) ↦{fullShare} f : sProp 𝕄)
      = (((c : Thread nD τ).loc main_v1_1) ↦[(Finset.univ : Finset (Fin 8)).biUnion (xset c)]{fullShare} f) :=
    congrArg (fun S => (((c : Thread nD τ).loc main_v1_1) ↦[S]{fullShare} f : sProp 𝕄)) (xset_biUnion c).symm
  have e0 : xset c 0 = (xblk16 0 c).view.set := (xblk16_set 0 c).symm
  have e1 : xset c 1 = (xblk16 1 c).view.set := (xblk16_set 1 c).symm
  have e2 : xset c 2 = (xblk16 2 c).view.set := (xblk16_set 2 c).symm
  have e3 : xset c 3 = (xblk16 3 c).view.set := (xblk16_set 3 c).symm
  have e4 : xset c 4 = (xblk16 4 c).view.set := (xblk16_set 4 c).symm
  have e5 : xset c 5 = (xblk16 5 c).view.set := (xblk16_set 5 c).symm
  have e6 : xset c 6 = (xblk16 6 c).view.set := (xblk16_set 6 c).symm
  have e7 : xset c 7 = (rowsOf c).set := by show (rowsOf (bwd 8 c)).set = _; rw [bwd_eight]
  rw [bigSep_fin8, e0, e1, e2, e3, e4, e5, e6, e7] at h
  exact h2.trans h

theorem x16_split (c : Dev nD) (f : Buf (Elt F) ((c : Thread nD τ).loc main_v1_1)) :
    (((Memref.whole main_v1_1 : Memref sig .tc .hbm S8192x1024 .bf16).view.loc (c : Thread nD τ)) ↦{fullShare} f : sProp 𝕄)
      ⊢ iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f)) :=
  Entails.of_eq (x16_split_eq c f)

/-- And back. -/
theorem x16_unsplit (c : Dev nD) (f : Buf (Elt F) ((c : Thread nD τ).loc main_v1_1)) :
    iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f))
      ⊢ (((c : Thread nD τ).loc main_v1_1) ↦{fullShare} f : sProp 𝕄) :=
  Entails.of_eq (x16_split_eq c f).symm

end Cert.KernelIdeal.A2A
-- ==== Proof.Splits.lean ====
/-
  The arrays a device's body moves block by block, cut into those blocks and put together again. The
  device's block of `x` is its eight row blocks (its own and those of the seven devices behind it); its copy of
  `w` is sixteen blocks, the rows of each device's `K`-block in two column halves; the f32 staging buffer is
  two planes of two column halves each. In each case the blocks are pairwise disjoint and cover the array,
  so holding the array at `f` is holding every block at `f`; and two column halves of a plane, or the two
  planes, held at different contents make the plane, or the buffer, at the contents that agree with each.
-/
import proofs.«900489_g7700000000000490_dist_a2a_gemm_m8192_k8192_n4096_f32_gelu_v7x_i8_1_alg».proof.Proof.Slots
import proofs.«900489_g7700000000000490_dist_a2a_gemm_m8192_k8192_n4096_f32_gelu_v7x_i8_1_alg».proof.Proof.SrcBlocks
import proofs.«900489_g7700000000000490_dist_a2a_gemm_m8192_k8192_n4096_f32_gelu_v7x_i8_1_alg».proof.Proof.Views

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer held whole is its pieces held one by one, for any finite tiling -/

/-- Pairwise disjoint element sets that cover a buffer: the whole buffer at `f` is the pieces at `f`. -/
theorem pointsTo_univ_split {n : Nat} {ℓ : Loc nD τ sig} (K : Fin n → Finset (Idx ℓ))
    (hd : ∀ t t', t ≠ t' → Disjoint (K t) (K t')) (hc : ∀ i, ∃ t, i ∈ K t) (f : Buf (Elt F) ℓ) :
    (ℓ ↦{fullShare} f : sProp 𝕄) = bigSep Finset.univ (fun t => (ℓ ↦[K t]{fullShare} f : sProp 𝕄)) := by
  have h := pointsTo_biUnion (Val := Elt F) (U := UU) (Ix := Unit) (Name := ℕ) (Lvl := ℕ) (ℓ := ℓ) (q := fullShare) (f := f)
    (Finset.univ : Finset (Fin n)) K (fun t _ t' _ hne => hd t t' hne)
  have hU : (Finset.univ : Finset (Fin n)).biUnion K = Finset.univ :=
    Finset.eq_univ_iff_forall.mpr fun i => by
      obtain ⟨t, ht⟩ := hc i
      exact Finset.mem_biUnion.mpr ⟨t, Finset.mem_univ _, ht⟩
  rw [hU] at h
  exact h

theorem bigSep_fin4 {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The device's block of `x` cut into its eight row blocks -/

theorem xsrc0_set (c : Dev nD) : (xsrc0 c).view.set = (rowsOf c).set := by
  show ((View.whole main_arg0 : View sig .tc .hbm S8192x1024 .f32).slice
    (Rect.unit (s := S8192x1024) (k0_off1 c) S1024x1024.size (k0_off1_inb c))).set = _
  rw [View.set_slice_whole, Rect.unit_congr (k0_off1_eq c) (k0_off1_inb c) (rows_inb c)]

theorem xsrc_set (r : Fin 7) (c : Dev nD) : (xsrc r c).view.set = (rowsOf (bwd (1 + r.val) c)).set := by
  show ((View.whole main_arg0 : View sig .tc .hbm S8192x1024 .f32).slice
    (Rect.unit (s := S8192x1024) (k0_off2 c (BitVec.ofNat 32 (1 + r.val))) S1024x1024.size (k0_off2_inb c r))).set = _
  rw [View.set_slice_whole, Rect.unit_congr (off2_eq c r) (k0_off2_inb c r) (rows_inb (bwd (1 + r.val) c))]

theorem bwd_inj8 : ∀ (t t' : Fin 8) (c : Dev nD), bwd t.val c = bwd t'.val c → t = t' := by decide
theorem bwd_surj8 : ∀ (c d : Dev nD), ∃ t : Fin 8, bwd t.val c = d := by decide

/-- The row block of the device `t` behind `c` (`t = 0`: of `c` itself), as elements of `c`'s block of `x`. -/
def xsetA (c : Dev nD) (t : Fin 8) : Finset (Idx ((c : Thread nD τ).loc main_arg0)) := (rowsOf (bwd t.val c)).set

theorem mem_xsetA (c : Dev nD) (t : Fin 8) (i : S8192x1024.Idx) : i ∈ xsetA c t ↔ (i 0).val / 1024 = (bwd t.val c).val :=
  mem_rowsOf _ i

theorem xsetA_disjoint (c : Dev nD) (t t' : Fin 8) (h : t ≠ t') : Disjoint (xsetA c t) (xsetA c t') :=
  Finset.disjoint_left.mpr fun i hi hi' =>
    h (bwd_inj8 t t' c (Fin.ext (((mem_xsetA c t i).mp hi).symm.trans ((mem_xsetA c t' i).mp hi'))))

theorem xsetA_cover (c : Dev nD) (i : S8192x1024.Idx) : ∃ t, i ∈ xsetA c t := by
  have hi : (i 0).val < 8192 := (i 0).isLt
  obtain ⟨t, ht⟩ := bwd_surj8 c (⟨(i 0).val / 1024, by show _ < 8; omega⟩ : Dev nD)
  exact ⟨t, (mem_xsetA c t i).mpr (congrArg Fin.val ht).symm⟩

/-- The device's block of `x` at `f` is its own row block and the seven it sends on, each at `f`. -/
theorem x_split_eq (c : Dev nD) (f : Buf (Elt F) ((c : Thread nD τ).loc main_arg0)) :
    (((c : Thread nD τ).loc main_arg0) ↦{fullShare} f : sProp 𝕄)
      = iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f)) := by
  have h := pointsTo_univ_split (F := F) (xsetA c) (xsetA_disjoint c) (xsetA_cover c) f
  have e0 : xsetA c 0 = (xsrc0 c).view.set := by show (rowsOf (bwd 0 c)).set = _; rw [bwd_zero, xsrc0_set]
  have e1 : xsetA c 1 = (xsrc 0 c).view.set := (xsrc_set 0 c).symm
  have e2 : xsetA c 2 = (xsrc 1 c).view.set := (xsrc_set 1 c).symm
  have e3 : xsetA c 3 = (xsrc 2 c).view.set := (xsrc_set 2 c).symm
  have e4 : xsetA c 4 = (xsrc 3 c).view.set := (xsrc_set 3 c).symm
  have e5 : xsetA c 5 = (xsrc 4 c).view.set := (xsrc_set 4 c).symm
  have e6 : xsetA c 6 = (xsrc 5 c).view.set := (xsrc_set 5 c).symm
  have e7 : xsetA c 7 = (xsrc 6 c).view.set := (xsrc_set 6 c).symm
  rw [bigSep_fin8, e0, e1, e2, e3, e4, e5, e6, e7] at h
  exact h

theorem x_split (c : Dev nD) (f : Buf (Elt F) ((c : Thread nD τ).loc main_arg0)) :
    (((Memref.whole main_arg0 : Memref sig .tc .hbm S8192x1024 .f32).view.loc (c : Thread nD τ)) ↦{fullShare} f : sProp 𝕄)
      ⊢ iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f)) :=
  Entails.of_eq (x_split_eq c f)

theorem x_unsplit (c : Dev nD) (f : Buf (Elt F) ((c : Thread nD τ).loc main_arg0)) :
    iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f))
      ⊢ (((c : Thread nD τ).loc main_arg0) ↦{fullShare} f : sProp 𝕄) :=
  Entails.of_eq (x_split_eq c f).symm

/-! ## The device's copy of `w` cut into sixteen blocks: eight row blocks, two column halves each -/

theorem wrect_inb (d : Dev nD) (o : Nat) (ho : o + 2048 ≤ 4096) :
    ∀ a, (![1024 * d.val, o] : Fin 2 → Nat) a + S1024x2048.size a ≤ S8192x4096.size a := by
  intro a
  have hd : d.val < 8 := d.isLt
  match a with
  | ⟨0, _⟩ => show 1024 * d.val + 1024 ≤ 8192; omega
  | ⟨1, _⟩ => show o + 2048 ≤ 4096; omega

/-- Rows of device `d`'s `K`-block, columns `o` to `o + 2047`. -/
abbrev wRect (d : Dev nD) (o : Nat) (ho : o + 2048 ≤ 4096) : Rect S8192x4096 :=
  Rect.unit (s := S8192x4096) ![1024 * d.val, o] S1024x2048.size (wrect_inb d o ho)

theorem mem_wRect (d : Dev nD) (o : Nat) (ho : o + 2048 ≤ 4096) (i : S8192x4096.Idx) :
    i ∈ (wRect d o ho).set ↔ (i 0).val / 1024 = d.val ∧ o ≤ (i 1).val ∧ (i 1).val < o + 2048 := by
  rw [Rect.mem_set_unit]
  constructor
  · intro h
    have h0 := h 0
    have h1 := h 1
    have e0 : (![1024 * d.val, o] : Fin 2 → Nat) 0 = 1024 * d.val := rfl
    have e1 : (![1024 * d.val, o] : Fin 2 → Nat) 1 = o := rfl
    have s0 : S1024x2048.size 0 = 1024 := rfl
    have s1 : S1024x2048.size 1 = 2048 := rfl
    rw [e0, s0] at h0
    rw [e1, s1] at h1
    omega
  · intro h a
    match a with
    | 0 =>
      show 1024 * d.val ≤ (i 0).val ∧ (i 0).val < 1024 * d.val + 1024
      omega
    | 1 =>
      show o ≤ (i 1).val ∧ (i 1).val < o + 2048
      omega

theorem wsrc0_set (t : Fin 8) (c : Dev nD) : (wsrc0 t c).view.set = (wRect (fwd t.val c) 0 (by omega)).set := by
  show ((View.whole main_arg1 : View sig .tc .hbm S8192x4096 .f32).slice
    (Rect.unit (s := S8192x4096) (k0_off3 c (BitVec.ofNat 32 t.val)) S1024x2048.size (k0_off3_inb c t))).set = _
  rw [View.set_slice_whole, Rect.unit_congr (off3_eq c t) (k0_off3_inb c t) (wrect_inb (fwd t.val c) 0 (by omega))]

theorem wsrc1_set (t : Fin 8) (c : Dev nD) : (wsrc1 t c).view.set = (wRect (fwd t.val c) 2048 (by omega)).set := by
  show ((View.whole main_arg1 : View sig .tc .hbm S8192x4096 .f32).slice
    (Rect.unit (s := S8192x4096) (k0_off4 c (BitVec.ofNat 32 t.val)) S1024x2048.size (k0_off4_inb c t))).set = _
  rw [View.set_slice_whole, Rect.unit_congr (off4_eq c t) (k0_off4_inb c t) (wrect_inb (fwd t.val c) 2048 (by omega))]

theorem fwd_inj8 : ∀ (t t' : Fin 8) (c : Dev nD), fwd t.val c = fwd t'.val c → t = t' := by decide
theorem fwd_surj8 : ∀ (c d : Dev nD), ∃ t : Fin 8, fwd t.val c = d := by decide

/-- Block `u = 2 t + h`: the rows of the `K`-block of the device `t` ahead, column half `h`. -/
def wsetA (c : Dev nD) (u : Fin 16) : Finset (Idx ((c : Thread nD τ).loc main_arg1)) :=
  (wRect (fwd (u.val / 2) c) (2048 * (u.val % 2)) (by omega)).set

theorem mem_wsetA (c : Dev nD) (u : Fin 16) (i : S8192x4096.Idx) :
    i ∈ wsetA c u ↔ (i 0).val / 1024 = (fwd (u.val / 2) c).val ∧ 2048 * (u.val % 2) ≤ (i 1).val ∧ (i 1).val < 2048 * (u.val % 2) + 2048 :=
  mem_wRect _ _ _ i

theorem wsetA_disjoint (c : Dev nD) (u u' : Fin 16) (h : u ≠ u') : Disjoint (wsetA c u) (wsetA c u') :=
  Finset.disjoint_left.mpr fun i hi hi' => by
    have h1 := (mem_wsetA c u i).mp hi
    have h2 := (mem_wsetA c u' i).mp hi'
    have hu : u.val < 16 := u.isLt
    have hu' : u'.val < 16 := u'.isLt
    have hf : fwd (u.val / 2) c = fwd (u'.val / 2) c := Fin.ext (h1.1.symm.trans h2.1)
    have ht : (⟨u.val / 2, by omega⟩ : Fin 8) = ⟨u'.val / 2, by omega⟩ := fwd_inj8 _ _ c hf
    have ht' : u.val / 2 = u'.val / 2 := congrArg Fin.val ht
    exact h (Fin.ext (by omega))

theorem wsetA_cover (c : Dev nD) (i : S8192x4096.Idx) : ∃ u, i ∈ wsetA c u := by
  have hi0 : (i 0).val < 8192 := (i 0).isLt
  have hi1 : (i 1).val < 4096 := (i 1).isLt
  obtain ⟨t, ht⟩ := fwd_surj8 c (⟨(i 0).val / 1024, by show _ < 8; omega⟩ : Dev nD)
  have ht' : (fwd t.val c).val = (i 0).val / 1024 := congrArg Fin.val ht
  have htl : t.val < 8 := t.isLt
  refine ⟨⟨2 * t.val + (i 1).val / 2048, by omega⟩, (mem_wsetA c _ i).mpr ?_⟩
  have e1 : (2 * t.val + (i 1).val / 2048) / 2 = t.val := by omega
  have e2 : (2 * t.val + (i 1).val / 2048) % 2 = (i 1).val / 2048 := by omega
  show (i 0).val / 1024 = (fwd ((2 * t.val + (i 1).val / 2048) / 2) c).val
    ∧ 2048 * ((2 * t.val + (i 1).val / 2048) % 2) ≤ (i 1).val
    ∧ (i 1).val < 2048 * ((2 * t.val + (i 1).val / 2048) % 2) + 2048
  rw [e1, e2, ht']
  omega

/-- The device's copy of `w` at `f` is its sixteen blocks, each at `f`, in the order the steps use them. -/
theorem w_split_eq (c : Dev nD) (f : Buf (Elt F) ((c : Thread nD τ).loc main_arg1)) :
    (((c : Thread nD τ).loc main_arg1) ↦{fullShare} f : sProp 𝕄)
      = iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f)) := by
  have h := pointsTo_univ_split (F := F) (wsetA c) (wsetA_disjoint c) (wsetA_cover c) f
  have e0 : wsetA c 0 = (wsrc0 0 c).view.set := (wsrc0_set 0 c).symm
  have e1 : wsetA c 1 = (wsrc1 0 c).view.set := (wsrc1_set 0 c).symm
  have e2 : wsetA c 2 = (wsrc0 1 c).view.set := (wsrc0_set 1 c).symm
  have e3 : wsetA c 3 = (wsrc1 1 c).view.set := (wsrc1_set 1 c).symm
  have e4 : wsetA c 4 = (wsrc0 2 c).view.set := (wsrc0_set 2 c).symm
  have e5 : wsetA c 5 = (wsrc1 2 c).view.set := (wsrc1_set 2 c).symm
  have e6 : wsetA c 6 = (wsrc0 3 c).view.set := (wsrc0_set 3 c).symm
  have e7 : wsetA c 7 = (wsrc1 3 c).view.set := (wsrc1_set 3 c).symm
  have e8 : wsetA c 8 = (wsrc0 4 c).view.set := (wsrc0_set 4 c).symm
  have e9 : wsetA c 9 = (wsrc1 4 c).view.set := (wsrc1_set 4 c).symm
  have e10 : wsetA c 10 = (wsrc0 5 c).view.set := (wsrc0_set 5 c).symm
  have e11 : wsetA c 11 = (wsrc1 5 c).view.set := (wsrc1_set 5 c).symm
  have e12 : wsetA c 12 = (wsrc0 6 c).view.set := (wsrc0_set 6 c).symm
  have e13 : wsetA c 13 = (wsrc1 6 c).view.set := (wsrc1_set 6 c).symm
  have e14 : wsetA c 14 = (wsrc0 7 c).view.set := (wsrc0_set 7 c).symm
  have e15 : wsetA c 15 = (wsrc1 7 c).view.set := (wsrc1_set 7 c).symm
  rw [bigSep_fin16, e0, e1, e2, e3, e4, e5, e6, e7, e8, e9, e10, e11, e12, e13, e14, e15] at h
  exact h

theorem w_split (c : Dev nD) (f : Buf (Elt F) ((c : Thread nD τ).loc main_arg1)) :
    (((Memref.whole main_arg1 : Memref sig .tc .hbm S8192x4096 .f32).view.loc (c : Thread nD τ)) ↦{fullShare} f : sProp 𝕄)
      ⊢ iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f)) :=
  Entails.of_eq (w_split_eq c f)

theorem w_unsplit (c : Dev nD) (f : Buf (Elt F) ((c : Thread nD τ).loc main_arg1)) :
    iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f))
      ⊢ (((c : Thread nD τ).loc main_arg1) ↦{fullShare} f : sProp 𝕄) :=
  Entails.of_eq (w_split_eq c f).symm

/-! ## The f32 staging buffer: two planes, each two column halves -/

theorem hi_inb : ∀ (b : Fin 2) a, (![b.val, 0, 1024] : Fin 3 → Nat) a + S1x1024x1024.size a ≤ S2x1024x2048.size a := by decide

/-- Plane `b` of the f32 staging buffer, its high 1024 columns. -/
abbrev vhi (b : Fin 2) : Memref sig .tc .vmem S1024x1024 .f32 :=
  ((Memref.whole cc0_scratch1 : Memref sig .tc .vmem S2x1024x2048 .f32).slice (Rect.unit (s := S2x1024x2048) ![b.val, 0, 1024] S1x1024x1024.size (hi_inb b)) (fun _ => rfl)).squeeze S1024x1024 squeezes_S1x1024x1024_S1024x1024

theorem prect_inb (b : Fin 2) (o : Nat) (ho : o + 1024 ≤ 2048) :
    ∀ a, (![b.val, 0, o] : Fin 3 → Nat) a + S1x1024x1024.size a ≤ S2x1024x2048.size a := by
  intro a
  have hb : b.val < 2 := b.isLt
  match a with
  | ⟨0, _⟩ => show b.val + 1 ≤ 2; omega
  | ⟨1, _⟩ => show 0 + 1024 ≤ 1024; omega
  | ⟨2, _⟩ => show o + 1024 ≤ 2048; omega

/-- Plane `b`, columns `o` to `o + 1023`. -/
abbrev pRect (b : Fin 2) (o : Nat) (ho : o + 1024 ≤ 2048) : Rect S2x1024x2048 :=
  Rect.unit (s := S2x1024x2048) ![b.val, 0, o] S1x1024x1024.size (prect_inb b o ho)

theorem mem_pRect (b : Fin 2) (o : Nat) (ho : o + 1024 ≤ 2048) (i : S2x1024x2048.Idx) :
    i ∈ (pRect b o ho).set ↔ (i 0).val = b.val ∧ o ≤ (i 2).val ∧ (i 2).val < o + 1024 := by
  rw [Rect.mem_set_unit]
  constructor
  · intro h
    have h0 := h 0
    have h2 := h 2
    have e0 : (![b.val, 0, o] : Fin 3 → Nat) 0 = b.val := rfl
    have e2 : (![b.val, 0, o] : Fin 3 → Nat) 2 = o := rfl
    have s0 : S1x1024x1024.size 0 = 1 := rfl
    have s2 : S1x1024x1024.size 2 = 1024 := rfl
    rw [e0, s0] at h0
    rw [e2, s2] at h2
    omega
  · intro h a
    match a with
    | 0 =>
      show b.val ≤ (i 0).val ∧ (i 0).val < b.val + 1
      omega
    | 1 =>
      have h1 : (i 1).val < 1024 := (i 1).isLt
      show 0 ≤ (i 1).val ∧ (i 1).val < 0 + 1024
      omega
    | 2 =>
      show o ≤ (i 2).val ∧ (i 2).val < o + 1024
      omega

/-- Plane `b`, all columns. -/
abbrev fRect (b : Fin 2) : Rect S2x1024x2048 := Rect.unit (s := S2x1024x2048) ![b.val, 0, 0] S1x1024x2048.size (ful_inb b)

theorem mem_fRect (b : Fin 2) (i : S2x1024x2048.Idx) : i ∈ (fRect b).set ↔ (i 0).val = b.val := by
  rw [Rect.mem_set_unit]
  constructor
  · intro h
    have h0 := h 0
    have e0 : (![b.val, 0, 0] : Fin 3 → Nat) 0 = b.val := rfl
    have s0 : S1x1024x2048.size 0 = 1 := rfl
    rw [e0, s0] at h0
    omega
  · intro h a
    match a with
    | 0 =>
      show b.val ≤ (i 0).val ∧ (i 0).val < b.val + 1
      omega
    | 1 =>
      have h1 : (i 1).val < 1024 := (i 1).isLt
      show 0 ≤ (i 1).val ∧ (i 1).val < 0 + 1024
      omega
    | 2 =>
      have h2 : (i 2).val < 2048 := (i 2).isLt
      show 0 ≤ (i 2).val ∧ (i 2).val < 0 + 2048
      omega

theorem vlo_set (b : Fin 2) : (vlo b : Memref sig .tc .vmem S1024x1024 .f32).view.set = (pRect b 0 (by omega)).set := by
  show (((View.whole cc0_scratch1 : View sig .tc .vmem S2x1024x2048 .f32).slice
    (Rect.unit (s := S2x1024x2048) ![b.val, 0, 0] S1x1024x1024.size (lo_inb b))).reshape S1024x1024 _).set = _
  rw [View.set_reshape, View.set_slice_whole]

theorem vhi_set (b : Fin 2) : (vhi b : Memref sig .tc .vmem S1024x1024 .f32).view.set = (pRect b 1024 (by omega)).set := by
  show (((View.whole cc0_scratch1 : View sig .tc .vmem S2x1024x2048 .f32).slice
    (Rect.unit (s := S2x1024x2048) ![b.val, 0, 1024] S1x1024x1024.size (hi_inb b))).reshape S1024x1024 _).set = _
  rw [View.set_reshape, View.set_slice_whole]

theorem vful_set (b : Fin 2) : (vful b : Memref sig .tc .vmem S1024x2048 .f32).view.set = (fRect b).set := by
  show (((View.whole cc0_scratch1 : View sig .tc .vmem S2x1024x2048 .f32).slice
    (Rect.unit (s := S2x1024x2048) ![b.val, 0, 0] S1x1024x2048.size (ful_inb b))).reshape S1024x2048 _).set = _
  rw [View.set_reshape, View.set_slice_whole]

theorem mem_vlo (b : Fin 2) (i : S2x1024x2048.Idx) :
    i ∈ (vlo b : Memref sig .tc .vmem S1024x1024 .f32).view.set ↔ (i 0).val = b.val ∧ 0 ≤ (i 2).val ∧ (i 2).val < 0 + 1024 := by
  rw [vlo_set]; exact mem_pRect b 0 _ i
theorem mem_vhi (b : Fin 2) (i : S2x1024x2048.Idx) :
    i ∈ (vhi b : Memref sig .tc .vmem S1024x1024 .f32).view.set ↔ (i 0).val = b.val ∧ 1024 ≤ (i 2).val ∧ (i 2).val < 1024 + 1024 := by
  rw [vhi_set]; exact mem_pRect b 1024 _ i
theorem mem_vful (b : Fin 2) (i : S2x1024x2048.Idx) :
    i ∈ (vful b : Memref sig .tc .vmem S1024x2048 .f32).view.set ↔ (i 0).val = b.val := by
  rw [vful_set]; exact mem_fRect b i

/-- Block `u = 2 b + h`: plane `b`, column half `h`. -/
def vsetA (c : Dev nD) (u : Fin 4) : Finset (Idx ((c : Thread nD τ).loc cc0_scratch1)) :=
  (pRect ⟨u.val / 2, by have := u.isLt; omega⟩ (1024 * (u.val % 2)) (by omega)).set

theorem mem_vsetA (c : Dev nD) (u : Fin 4) (i : S2x1024x2048.Idx) :
    i ∈ vsetA c u ↔ (i 0).val = u.val / 2 ∧ 1024 * (u.val % 2) ≤ (i 2).val ∧ (i 2).val < 1024 * (u.val % 2) + 1024 :=
  mem_pRect _ _ _ i

theorem vsetA_disjoint (c : Dev nD) (u u' : Fin 4) (h : u ≠ u') : Disjoint (vsetA c u) (vsetA c u') :=
  Finset.disjoint_left.mpr fun i hi hi' => by
    have h1 := (mem_vsetA c u i).mp hi
    have h2 := (mem_vsetA c u' i).mp hi'
    exact h (Fin.ext (by omega))

theorem vsetA_cover (c : Dev nD) (i : S2x1024x2048.Idx) : ∃ u, i ∈ vsetA c u := by
  have hi0 : (i 0).val < 2 := (i 0).isLt
  have hi2 : (i 2).val < 2048 := (i 2).isLt
  refine ⟨⟨2 * (i 0).val + (i 2).val / 1024, by omega⟩, (mem_vsetA c _ i).mpr ?_⟩
  show (i 0).val = (2 * (i 0).val + (i 2).val / 1024) / 2
    ∧ 1024 * ((2 * (i 0).val + (i 2).val / 1024) % 2) ≤ (i 2).val
    ∧ (i 2).val < 1024 * ((2 * (i 0).val + (i 2).val / 1024) % 2) + 1024
  omega

/-- The f32 staging buffer at `f` is its four blocks, each at `f`. -/
theorem v_split_eq (c : Dev nD) (f : Buf (Elt F) ((c : Thread nD τ).loc cc0_scratch1)) :
    (((c : Thread nD τ).loc cc0_scratch1) ↦{fullShare} f : sProp 𝕄)
      = iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f)) := by
  have h := pointsTo_univ_split (F := F) (vsetA c) (vsetA_disjoint c) (vsetA_cover c) f
  have e0 : vsetA c 0 = (vlo 0 : Memref sig .tc .vmem S1024x1024 .f32).view.set := (vlo_set 0).symm
  have e1 : vsetA c 1 = (vhi 0 : Memref sig .tc .vmem S1024x1024 .f32).view.set := (vhi_set 0).symm
  have e2 : vsetA c 2 = (vlo 1 : Memref sig .tc .vmem S1024x1024 .f32).view.set := (vlo_set 1).symm
  have e3 : vsetA c 3 = (vhi 1 : Memref sig .tc .vmem S1024x1024 .f32).view.set := (vhi_set 1).symm
  rw [bigSep_fin4, e0, e1, e2, e3] at h
  exact h

theorem v_split (c : Dev nD) (f : Buf (Elt F) ((c : Thread nD τ).loc cc0_scratch1)) :
    (((c : Thread nD τ).loc cc0_scratch1) ↦{fullShare} f : sProp 𝕄)
      ⊢ iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f)) :=
  Entails.of_eq (v_split_eq c f)

theorem v_unsplit (c : Dev nD) (f : Buf (Elt F) ((c : Thread nD τ).loc cc0_scratch1)) :
    iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f))
      ⊢ (((c : Thread nD τ).loc cc0_scratch1) ↦{fullShare} f : sProp 𝕄) :=
  Entails.of_eq (v_split_eq c f).symm

/-- The two column halves of a plane, held at two contents, are the plane at some contents. -/
theorem v_plane_join (c : Dev nD) (b : Fin 2) (f g : Buf (Elt F) ((c : Thread nD τ).loc cc0_scratch1)) :
    iprop(((vlo b : Memref sig .tc .vmem S1024x1024 .f32).view.loc (c : Thread nD τ) ↦[(vlo b : Memref sig .tc .vmem S1024x1024 .f32).view.set]{fullShare} f)
        ∗ ((vhi b : Memref sig .tc .vmem S1024x1024 .f32).view.loc (c : Thread nD τ) ↦[(vhi b : Memref sig .tc .vmem S1024x1024 .f32).view.set]{fullShare} g))
      ⊢ (iprop(∃ h, ((vful b : Memref sig .tc .vmem S1024x2048 .f32).view.loc (c : Thread nD τ) ↦[(vful b : Memref sig .tc .vmem S1024x2048 .f32).view.set]{fullShare} h)) : sProp 𝕄) := by
  have hd : Disjoint (vlo b : Memref sig .tc .vmem S1024x1024 .f32).view.set (vhi b : Memref sig .tc .vmem S1024x1024 .f32).view.set :=
    Finset.disjoint_left.mpr fun i hi hi' => by
      have h1 := (mem_vlo b i).mp hi
      have h2 := (mem_vhi b i).mp hi'
      omega
  have hU : (vlo b : Memref sig .tc .vmem S1024x1024 .f32).view.set ∪ (vhi b : Memref sig .tc .vmem S1024x1024 .f32).view.set
      = (vful b : Memref sig .tc .vmem S1024x2048 .f32).view.set :=
    Finset.ext fun i => by
      have h2 : (i 2).val < 2048 := (i 2).isLt
      constructor
      · intro h
        rcases Finset.mem_union.mp h with h | h
        · exact (mem_vful b i).mpr ((mem_vlo b i).mp h).1
        · exact (mem_vful b i).mpr ((mem_vhi b i).mp h).1
      · intro h
        have h0 := (mem_vful b i).mp h
        by_cases hc : (i 2).val < 1024
        · exact Finset.mem_union_left _ ((mem_vlo b i).mpr ⟨h0, by omega, by omega⟩)
        · exact Finset.mem_union_right _ ((mem_vhi b i).mpr ⟨h0, by omega, by omega⟩)
  have hj := pointsTo_join (Val := Elt F) (U := UU) (Ix := Unit) (Name := ℕ) (Lvl := ℕ) (ℓ := (c : Thread nD τ).loc cc0_scratch1)
    (q := fullShare) (f := f) (g := g) hd
  rw [hU] at hj
  refine BIBase.Entails.trans hj ?_
  iintro H
  iexists _
  iexact H

/-- The two planes, held at two contents, are the buffer at some contents. -/
theorem v_join (c : Dev nD) (f g : Buf (Elt F) ((c : Thread nD τ).loc cc0_scratch1)) :
    iprop(((vful 0 : Memref sig .tc .vmem S1024x2048 .f32).view.loc (c : Thread nD τ) ↦[(vful 0 : Memref sig .tc .vmem S1024x2048 .f32).view.set]{fullShare} f)
        ∗ ((vful 1 : Memref sig .tc .vmem S1024x2048 .f32).view.loc (c : Thread nD τ) ↦[(vful 1 : Memref sig .tc .vmem S1024x2048 .f32).view.set]{fullShare} g))
      ⊢ (iprop(∃ h, (((c : Thread nD τ).loc cc0_scratch1) ↦{fullShare} h)) : sProp 𝕄) := by
  have hd : Disjoint (vful 0 : Memref sig .tc .vmem S1024x2048 .f32).view.set (vful 1 : Memref sig .tc .vmem S1024x2048 .f32).view.set :=
    Finset.disjoint_left.mpr fun i hi hi' => by
      have h1 : (i 0).val = 0 := (mem_vful 0 i).mp hi
      have h2 : (i 0).val = 1 := (mem_vful 1 i).mp hi'
      omega
  have hU : (vful 0 : Memref sig .tc .vmem S1024x2048 .f32).view.set ∪ (vful 1 : Memref sig .tc .vmem S1024x2048 .f32).view.set
      = (Finset.univ : Finset (Idx ((c : Thread nD τ).loc cc0_scratch1))) :=
    Finset.eq_univ_iff_forall.mpr fun i => by
      have h0 : (i 0).val < 2 := (i 0).isLt
      by_cases hc : (i 0).val = 0
      · exact Finset.mem_union_left _ ((mem_vful 0 i).mpr hc)
      · exact Finset.mem_union_right _ ((mem_vful 1 i).mpr (by show (i 0).val = 1; omega))
  have hj := pointsTo_join (Val := Elt F) (U := UU) (Ix := Unit) (Name := ℕ) (Lvl := ℕ) (ℓ := (c : Thread nD τ).loc cc0_scratch1)
    (q := fullShare) (f := f) (g := g) hd
  rw [hU] at hj
  refine BIBase.Entails.trans hj ?_
  iintro H
  iexists _
  iexact H

end Cert.KernelIdeal.A2A
-- ==== Proof.LaunchIdeal.lean ====
/-
  The launch of the all-to-all matmul kernel, stated ONCE over what is the protocol's own.

  The program is one pallas_call on each of the eight devices, with no grid: the pipeline has one point and one
  staged window, the f32 result, written back whole. Everything else the body touches travels beside the
  pipeline: the two argument arrays and the bf16 copy of the device's block of `x` (unscoped HBM buffers no window
  stages), three scoped scratch buffers, and the kernel's twenty-one own DMA semaphores; the cross-device protocol
  runs on those semaphores and on the runtime's barrier semaphore.

  `run_of` takes the protocol's side as hypotheses — what a device starts from (`start`), what it owes at launch
  (`O₀`), the levels, the ghost state dealt at launch and its allocation (`G`, `G'`, `hu₀`, `hglob`), the launch
  credit sorted into `start` (`hstart`), that the staging cell may be waited on while the device owes `O₀`
  (`hwait`), and the body's triple in flat form (`hbody`) — and concludes the run of @main on the mesh: every fair
  execution terminates and in every final state each device's result array holds `outAt c` and its two argument
  arrays hold what they held.
-/
import proofs.«900489_g7700000000000490_dist_a2a_gemm_m8192_k8192_n4096_f32_gelu_v7x_i8_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.LaunchKit

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the protocol's own resource algebra, beside the pipeline library's copy
variable {U₂ : Type} [URA U₂]

local notation "𝕄" => MT nD τ sig Unit (Elt F) ℕ (UR sig nD τ × U₂) ℕ

/-! ## The semaphores -/

/-- The kernel's twenty-one own DMA semaphores: positions 1 to 21 of the pool (position 0 is the staging
    buffer's). Positions 1–8 are the send array, 9–16 the receive array, 17–18, 19–20 and 21 the local copies'. -/
abbrev osem : Fin 21 → SemLoc sig := fun k => .dma (Fin.cast (show 22 = sig.nDmaSem from rfl) k.succ)

theorem ownSemFacts : Pipeline.OwnSemFacts spec0 osem := by decide

/-- The runtime's barrier semaphore of collective id 0. -/
abbrev barS : Sem sig := (SemArray.scalar (sig.barrier 0 rfl) : Sems sig S_).sem

omit [FloatOps F] in
/-- The barrier semaphore is the launch's one unscoped semaphore. -/
theorem unscopedSems0_eq (c : Dev nD) : (unscopedSems0 c : sProp 𝕄) = semVal (((c : Thread nD τ), .reg barS) : GSem nD τ sig) 0 := by
  unfold unscopedSems0; rw [bigSep_eq_bigSepL_of_eq [SemLoc.reg barS] (by decide) (by decide)]; rfl

/-- The own semaphores at zero, as a chain. -/
abbrev ownChain (c : Dev nD) : sProp 𝕄 := bigSepL (List.finRange 21) fun k => semVal (((c : Thread nD τ), osem k) : GSem nD τ sig) 0

omit [FloatOps F] in
theorem ownSems0_eq (c : Dev nD) :
    (Pipeline.ownSems0 (Ix := Unit) (Name := ℕ) (U := UR sig nD τ × U₂) (Lvl := ℕ) (Val := Elt F) (τ := τ) osem c : sProp 𝕄) = ownChain c :=
  Pipeline.ownSems0_eq_of_list c osem (List.finRange 21) (by decide) (by decide)

/-! ## The buffers -/

/-- A whole buffer of device `c` at the full share. -/
abbrev pt (c : Dev nD) (b : Ref sig .tc) (f : Buf (Elt F) ((c : Thread nD τ).loc b)) : sProp 𝕄 := ((c : Thread nD τ).loc b) ↦{fullShare} f

omit [FloatOps F] in
theorem owns_whole_eq (c : Dev nD) (b : Ref sig .tc) (X : b.ty.Contents (Elt F)) :
    (owns (Ix := Unit) (Name := ℕ) (U := UR sig nD τ × U₂) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable (m : (ℓ : Loc nD τ sig) → Buf (Elt F) ℓ) (ρ : Dev nD → PrngReg)

/-! ## The body's triple, flat -/

/-- What the body starts from on device `c`: the protocol's start, the two argument arrays and the bf16 copy as
    launched, the three scratch buffers and the staging buffer of the result at any contents, and what it owes. -/
def bodyPre (start : Dev nD → sProp 𝕄) (O₀ : Dev nD → CellTallies nD τ sig Unit) (c : Dev nD) : sProp 𝕄 :=
  iprop(start c ∗ pt c main_arg0 (m _) ∗ pt c main_arg1 (m _) ∗ pt c main_v1_1 (m _)
    ∗ (∃ f, pt c cc0_scratch0 f) ∗ (∃ f, pt c cc0_scratch1 f) ∗ (∃ f, pt c cc0_scratch2 f)
    ∗ (∃ W, owes (c : Thread nD τ) (O₀ c) W) ∗ (∃ f, pt c cc0_stg0_0 f))

/-- What it ends with: the argument arrays as launched, the scratch buffers at any contents, its own semaphores
    back at zero, nothing owed, and the staging buffer at the result (the bf16 copy is not asked back). -/
def bodyPost (outAt : (c : Dev nD) → (cc0_stg0_0 : Ref sig .tc).ty.Contents (Elt F)) (c : Dev nD) : sProp 𝕄 :=
  iprop(pt c main_arg0 (m _) ∗ pt c main_arg1 (m _)
    ∗ (∃ f, pt c cc0_scratch0 f) ∗ (∃ f, pt c cc0_scratch1 f) ∗ (∃ f, pt c cc0_scratch2 f)
    ∗ ownChain c
    ∗ (∃ W, owes (c : Thread nD τ) (0 : CellTallies nD τ sig Unit) W) ∗ pt c cc0_stg0_0 (outAt c))

/-- The kernel body as the pipeline calls it at its one point. -/
abbrev theBody : Prog (TpuEff nD τ sig (Elt F) Λ₀ .tc) PUnit :=
  cc0_body (Memref.whole main_arg0) (Memref.isWhole_whole _) (Memref.whole main_arg1) (Memref.isWhole_whole _)
    (Memref.whole cc0_stg0_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

/-! ## The pipeline's proof data -/

def Φ₀ (start : Dev nD → sProp 𝕄) (c : Dev nD) : sProp 𝕄 :=
  iprop(start c ∗ pt c main_arg0 (m _) ∗ pt c main_arg1 (m _) ∗ pt c main_v1_1 (m _)
    ∗ (∃ f, pt c cc0_scratch0 f) ∗ (∃ f, pt c cc0_scratch1 f) ∗ (∃ f, pt c cc0_scratch2 f))

def Φ₁ (c : Dev nD) : sProp 𝕄 :=
  iprop(pt c main_arg0 (m _) ∗ pt c main_arg1 (m _)
    ∗ (∃ f, pt c cc0_scratch0 f) ∗ (∃ f, pt c cc0_scratch1 f) ∗ (∃ f, pt c cc0_scratch2 f)
    ∗ ownChain c)

def dats (start : Dev nD → sProp 𝕄) (O₀ : Dev nD → CellTallies nD τ sig Unit)
    (outAt : (c : Dev nD) → (cc0_stg0_0 : Ref sig .tc).ty.Contents (Elt F))
    (_ : Fin 1) (c : Dev nD) : Dat τ (Elt F) Unit ℕ (UR sig nD τ × U₂) ℕ cfg0 c where
  A w := m ((cfg0.win w).arr.view.loc (c : Thread nD τ))
  after w _ := match w with
    | ⟨0, _⟩ => outAt c
  Φ t := match t with
    | ⟨0, _⟩ => Φ₀ m start c
    | ⟨_ + 1, _⟩ => Φ₁ (U₂ := U₂) m c
  q _ := fullShare
  owed t := match t with
    | ⟨0, _⟩ => O₀ c
    | ⟨_ + 1, _⟩ => 0

abbrev 𝒱₀ : Variants := Variants.none

theorem share_eq (start : Dev nD → sProp 𝕄) (O₀ : Dev nD → CellTallies nD τ sig Unit)
    (outAt : (c : Dev nD) → (cc0_stg0_0 : Ref sig .tc).ty.Contents (Elt F)) (c : Dev nD) (w : Fin cfg0.W) :
    (dats m start O₀ outAt 0 c).share w = fullShare := by unfold Dat.share; split <;> rfl

/-! ## The body obligation from the flat triple -/

def bodyPre' (start : Dev nD → sProp 𝕄) (O₀ : Dev nD → CellTallies nD τ sig Unit)
    (outAt : (c : Dev nD) → (cc0_stg0_0 : Ref sig .tc).ty.Contents (Elt F)) (c : Dev nD) : sProp 𝕄 :=
  iprop(Φ₀ m start c ∗ (dats m start O₀ outAt 0 c).owesAt () (t0_0 : Fin cfg0.N).castSucc
    ∗ (∃ d, ∃ f : Buf (Elt F) ((c : Thread nD τ).loc cc0_stg0_0),
        ⌜f = (dats m start O₀ outAt 0 c).before (0 : Fin 1) t0_0 d⌝ ∗ pt c cc0_stg0_0 f))

def bodyPost' (start : Dev nD → sProp 𝕄) (O₀ : Dev nD → CellTallies nD τ sig Unit)
    (outAt : (c : Dev nD) → (cc0_stg0_0 : Ref sig .tc).ty.Contents (Elt F)) (c : Dev nD) : sProp 𝕄 :=
  iprop(Φ₁ (U₂ := U₂) m c ∗ (dats m start O₀ outAt 0 c).owesAt () (t0_0 : Fin cfg0.N).succ
    ∗ (∃ f : Buf (Elt F) ((c : Thread nD τ).loc cc0_stg0_0), ⌜f = outAt c⌝ ∗ pt c cc0_stg0_0 f))

set_option maxRecDepth 8000 in
/-- The library's body obligation on device `c`, from the body's flat triple. -/
theorem body_obligation (start : Dev nD → sProp 𝕄) (O₀ : Dev nD → CellTallies nD τ sig Unit)
    (outAt : (c : Dev nD) → (cc0_stg0_0 : Ref sig .tc).ty.Contents (Elt F))
    (hbody : ∀ c : Dev nD, bodyPre m start O₀ c
      ⊢ wp frame (wpE (defs₀ (F := F)) 𝒱₀ (c : Thread nD τ) none) Set.univ (theBody (F := F)) fun _ => bodyPost m outAt c)
    (c : Dev nD) : BodyObligation (dats m start O₀ outAt 0 c) (defs₀ (F := F)) 𝒱₀ () Set.univ := fun t => by
  rw [fin_N0 t]
  rw [bigSep_W0, bigSep_W0]
  simp only [owns_whole_eq]
  show bodyPre' m start O₀ outAt c ⊢ wp frame (wpE (defs₀ (F := F)) 𝒱₀ (c : Thread nD τ) none) Set.univ (theBody (F := F))
    (fun _ => bodyPost' m start O₀ outAt c)
  refine (?_ : bodyPre' m start O₀ outAt c ⊢ bodyPre m start O₀ c).trans ((hbody c).trans (wp_mono _ _ _ fun _ => ?_))
  · unfold bodyPre' bodyPre Φ₀ Dat.owesAt Pipeline.owesWithin
    rw [show (dats m start O₀ outAt 0 c).owed (t0_0 : Fin cfg0.N).castSucc = O₀ c from rfl]
    iintro ⟨⟨Hs, Ha0, Ha1, Hv, H0, H1, H2⟩, ⟨%W, -, Ho⟩, ⟨%d, %f, -, Hstg⟩⟩
    isplitl [Hs]; · iexact Hs
    isplitl [Ha0]; · iexact Ha0
    isplitl [Ha1]; · iexact Ha1
    isplitl [Hv]; · iexact Hv
    isplitl [H0]; · iexact H0
    isplitl [H1]; · iexact H1
    isplitl [H2]; · iexact H2
    isplitl [Ho]; · iexists W; iexact Ho
    iexists f; iexact Hstg
  · unfold bodyPost' bodyPost Φ₁ Dat.owesAt Pipeline.owesWithin
    rw [show (dats m start O₀ outAt 0 c).owed (t0_0 : Fin cfg0.N).succ = 0 from rfl]
    iintro ⟨Ha0, Ha1, H0, H1, H2, Hsem, ⟨%W, Ho⟩, Hstg⟩
    isplitl [Ha0 Ha1 H0 H1 H2 Hsem]
    · isplitl [Ha0]; · iexact Ha0
      isplitl [Ha1]; · iexact Ha1
      isplitl [H0]; · iexact H0
      isplitl [H1]; · iexact H1
      isplitl [H2]; · iexact H2
      iexact Hsem
    isplitl [Ho]
    · iexists W; isplitr; · ipureintro; exact fun _ _ => Or.inl trivial
      iexact Ho
    iexists _; isplitr; · (ipureintro; rfl)
    iexact Hstg

/-! ## The launch theorem's side conditions -/

/-- What a device routes into the pipeline's invariant: the protocol's start and the three unscoped buffers no
    window stages, as launched. -/
def X (start : Dev nD → sProp 𝕄) (c : Dev nD) : sProp 𝕄 :=
  iprop(start c ∗ pt c main_arg0 (m _) ∗ pt c main_arg1 (m _) ∗ pt c main_v1_1 (m _))

/-- What comes back out of it: the argument arrays as launched. -/
def Y (c : Dev nD) : sProp 𝕄 :=
  iprop(pt c main_arg0 (m _) ∗ pt c main_arg1 (m _))

theorem start_intro (start : Dev nD → sProp 𝕄) (O₀ : Dev nD → CellTallies nD τ sig Unit)
    (L : GSem nD τ sig → Finset Unit) (lv : GSem nD τ sig → Unit → ℕ) (G' : Dev nD → sProp 𝕄)
    (hstart : ∀ c : Dev nD, iprop(levAts L lv ∗ Pipeline.launchCred O₀ c ∗ G' c) ⊢ |={Set.univ}=> start c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(X m start c ∗ emp) := by
  rw [Pipeline.unscopedRestP_none, unscopedRest0_eq]
  iintro ⟨⟨Ha0, Ha1, Hv⟩, Hlev, Hcr, -, HG⟩
  imod (hstart c) $$ [Hlev Hcr HG] with Hs
  · isplitl [Hlev]; · iexact Hlev
    isplitl [Hcr] <;> iassumption
  imodintro
  unfold X
  isplitl
  · isplitl [Hs]; · iexact Hs
    isplitl [Ha0]; · iexact Ha0
    isplitl [Ha1] <;> iassumption
  · iempintro

theorem phi0_intro (start : Dev nD → sProp 𝕄) (O₀ : Dev nD → CellTallies nD τ sig Unit)
    (outAt : (c : Dev nD) → (cc0_stg0_0 : Ref sig .tc).ty.Contents (Elt F)) (c : Dev nD) :
    iprop(X m start c ∗ Pipeline.prefHeld Pipeline.Prefetch.none c (fun _ => fullShare.right) (fun k => k.elim0) ∗ Pipeline.scopedRest cfg0.spec c)
      ⊢ (dats m start O₀ outAt 0 c).Φ 0 := by
  rw [show (dats m start O₀ outAt 0 c).Φ 0 = Φ₀ m start c from rfl, scopedRest0_eq]
  unfold Φ₀ X
  iintro ⟨⟨Hs, Ha0, Ha1, Hv⟩, -, H0, H1, H2⟩
  isplitl [Hs]; · iexact Hs
  isplitl [Ha0]; · iexact Ha0
  isplitl [Ha1]; · iexact Ha1
  isplitl [Hv]; · iexact Hv
  isplitl [H0]; · iexact H0
  isplitl [H1] <;> iassumption

theorem phi1_exit (start : Dev nD → sProp 𝕄) (O₀ : Dev nD → CellTallies nD τ sig Unit)
    (outAt : (c : Dev nD) → (cc0_stg0_0 : Ref sig .tc).ty.Contents (Elt F)) (c : Dev nD) :
    (dats m start O₀ outAt 0 c).Φ (Fin.last cfg0.N) ⊢ iprop(Y (U₂ := U₂) m c ∗ Pipeline.ownSems0 osem c ∗ Pipeline.scopedRest cfg0.spec c) := by
  rw [show (dats m start O₀ outAt 0 c).Φ (Fin.last cfg0.N) = Φ₁ (U₂ := U₂) m c from rfl, scopedRest0_eq, ownSems0_eq]
  unfold Φ₁ Y
  iintro ⟨Ha0, Ha1, H0, H1, H2, Hsem⟩
  isplitl [Ha0 Ha1]
  · isplitl [Ha0] <;> iassumption
  isplitl [Hsem]; · iexact Hsem
  isplitl [H0]; · iexact H0
  isplitl [H1] <;> iassumption

theorem waits (start : Dev nD → sProp 𝕄) (O₀ : Dev nD → CellTallies nD τ sig Unit)
    (outAt : (c : Dev nD) → (cc0_stg0_0 : Ref sig .tc).ty.Contents (Elt F))
    (L : GSem nD τ sig → Finset Unit) (lv : GSem nD τ sig → Unit → ℕ)
    (hwait : ∀ c : Dev nD, (levAts L lv : sProp 𝕄) ⊢ MayWait (c : Thread nD τ) (.dma cc0_sem0_0) () (O₀ c)) (c : Dev nD) :
    (levAts L lv : sProp 𝕄) ⊢ Pipeline.cellsWaits cfgs (dats m start O₀ outAt) () 0 c :=
  Pipeline.cellsWaits_intro cfgs (dats m start O₀ outAt) () 0 c fun w s t => by
    have hs : ((cfgs 0).win w).sem s = cc0_sem0_0 := by fin_cases w; fin_cases s; rfl
    rw [hs]
    rcases t with ⟨_ | _, ht⟩
    · exact hwait c
    · rw [show (dats m start O₀ outAt 0 c).owed ⟨_ + 1, ht⟩ = 0 from rfl, MayWait_zero]; iintro -; iempintro

/-! ## The run -/

/-- The result array after the run: its one block, the whole array, written back from the staging buffer. -/
theorem finalA_out (start : Dev nD → sProp 𝕄) (O₀ : Dev nD → CellTallies nD τ sig Unit)
    (outAt : (c : Dev nD) → (cc0_stg0_0 : Ref sig .tc).ty.Contents (Elt F)) (c : Dev nD) :
    (dats m start O₀ outAt 0 c).arrAt (0 : Fin 1) cfg0.N = outAt c := by
  rw [show cfg0.N = (t0_0 : Fin cfg0.N).val + 1 from rfl, (dats m start O₀ outAt 0 c).arrAt_succ (0 : Fin 1) t0_0]
  rw [show (cfg0.win (0 : Fin 1)).flush t0_0 = true from flush0_0 _, if_pos rfl]
  exact Memref.write_access_unit_zero_univ (Elt F) main_v1_0 (funext fun a => by fin_cases a <;> rfl) _ _ _

/-- The run's post: on every device the result array holds `outAt c` and the two argument arrays what they held. -/
def QC (outAt : (c : Dev nD) → (cc0_stg0_0 : Ref sig .tc).ty.Contents (Elt F)) : PUnit × MemSt nD τ sig (Elt F) → Prop := fun r =>
  ∀ c : Dev nD, r.2.mem ((c : Thread nD τ).loc main_v1_0) = outAt c
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- THE RUN, over the protocol's side: at the compiled mesh of eight devices, for any float values, from any memory
    with zero counters, every weakly fair execution of @main terminates, and in every final state each device's
    result array holds `outAt c` and its two argument arrays hold what they held. -/
theorem run_of (start : Dev nD → sProp 𝕄) (O₀ : Dev nD → CellTallies nD τ sig Unit)
    (outAt : (c : Dev nD) → (cc0_stg0_0 : Ref sig .tc).ty.Contents (Elt F))
    (L : GSem nD τ sig → Finset Unit) (lv : GSem nD τ sig → Unit → ℕ) (hL : ∀ g : GSem nD τ sig, g.1.2 ≠ .tc → L g = ∅)
    (G G' : Dev nD → sProp 𝕄) (u₀ : UR sig nD τ × U₂)
    (hu₀ : (ownU u₀ : sProp 𝕄)
      ⊢ |={Set.univ}=> iprop(BI.own ((embL : Emb (UR sig nD τ) 𝕄) (initOf (Pipeline.cells cfgs cellOf_inj) (Pipeline.launchToks cfgs cellOf_inj))) ∗ bigSep Finset.univ G))
    (hglob : (bigSep Finset.univ fun c => iprop(Pipeline.ownSems0 osem c ∗ unscopedSems0 c ∗ G c) : sProp 𝕄) ⊢ |={Set.univ}=> bigSep Finset.univ G')
    (hstart : ∀ c : Dev nD, iprop(levAts L lv ∗ Pipeline.launchCred O₀ c ∗ G' c) ⊢ |={Set.univ}=> start c)
    (hwait : ∀ c : Dev nD, (levAts L lv : sProp 𝕄) ⊢ MayWait (c : Thread nD τ) (.dma cc0_sem0_0) () (O₀ c))
    (hbody : ∀ c : Dev nD, bodyPre m start O₀ c
      ⊢ wp frame (wpE (defs₀ (F := F)) 𝒱₀ (c : Thread nD τ) none) Set.univ (theBody (F := F)) fun _ => bodyPost m outAt c) :
    θ_run defs (onTc (τ := τ) (main (F := F))) (s₀ m ρ) (QC m outAt) :=
  Pipeline.θ_run_region_owing_glob_pf (fun p => (cfgs p).toPCfg) (fun p => (cfgs p).toPCfg_adm) (dats m start O₀ outAt) () cellOf_inj (0 : Fin 1)
    winFacts0.to₀ ownSemFacts (Pipeline.PreFacts.none _) (embL : Emb (UR sig nD τ) 𝕄) defs₀ 𝒱₀ m ρ main
    (hmain := fun c => (main_chain c).trans rfl)
    (hbody := body_obligation m start O₀ outAt hbody) (hne := block_pos0) (harr := arr_whole0) (hstage := stage_whole0)
    (hshare := share_eq m start O₀ outAt) (hdistinct := winFacts0.arr_inj)
    (O₀ := O₀) (howed₀ := fun _ => rfl) (howedN := fun _ => rfl)
    (L := L) (lv := lv) (hL := hL) (hwaits := waits m start O₀ outAt L lv hwait)
    (G := G) (G' := G') (u₀ := u₀) (hu₀ := hu₀) (hglob := hglob)
    (hA := fun _ _ => rfl) (hpf := fun _ k => k.elim0)
    (X := X m start) (Y := Y m) (Z := fun _ => iprop(emp))
    (hX := start_intro m ρ start O₀ L lv G' hstart) (hin := phi0_intro m start O₀ outAt) (hout := phi1_exit m start O₀ outAt)
    (QY := fun c s => s.mem ((c : Thread nD τ).loc main_arg0) = m ((c : Thread nD τ).loc main_arg0)
      ∧ s.mem ((c : Thread nD τ).loc main_arg1) = m ((c : Thread nD τ).loc main_arg1))
    (hY := fun c s' => by
      unfold Y
      iintro ⟨⟨Ha0, Ha1⟩, -, HSI⟩
      icombine HSI Ha0 gives %h0
      icombine HSI Ha1 gives %h1
      imodintro
      isplitr; · ipureintro; exact ⟨Buf.eq_of_forall_mem_univ h0, Buf.eq_of_forall_mem_univ h1⟩
      iexact HSI)
    (hQ := fun s h c => ⟨((h c).1 (0 : Fin 1)).trans (finalA_out m start O₀ outAt c), (h c).2.2.1, (h c).2.2.2⟩)

/-- info: 'Cert.KernelIdeal.LaunchKit.run_of' depends on axioms: [propext, Classical.choice, Quot.sound] -/
#guard_msgs in #print axioms run_of

end Cert.KernelIdeal.LaunchKit

end
-- ==== Proof.OwnChain.lean ====
/-
  The kernel's own semaphores back at zero, regrouped: the chain the launch asks back, in pool order, from the
  seven send and seven receive cells' semaphores and the seven that take part in no round.
-/
import proofs.«900489_g7700000000000490_dist_a2a_gemm_m8192_k8192_n4096_f32_gelu_v7x_i8_1_alg».proof.Proof.Ghost
import proofs.«900489_g7700000000000490_dist_a2a_gemm_m8192_k8192_n4096_f32_gelu_v7x_i8_1_alg».proof.Proof.LaunchIdeal

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The seven send semaphores and the seven receive semaphores at zero. -/
def xferSems0 (c : Dev nD) : sProp 𝕄 :=
  iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0
    ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0)

theorem ownChain_eq (c : Dev nD) : (LaunchKit.ownChain (F := F) (U₂ := UB × Counters) c : sProp 𝕄)
    = iprop(semVal (((c : Thread nD τ), LaunchKit.osem 0) : GSem nD τ sig) 0
      ∗ semVal (((c : Thread nD τ), LaunchKit.osem 1) : GSem nD τ sig) 0
      ∗ semVal (((c : Thread nD τ), LaunchKit.osem 2) : GSem nD τ sig) 0
      ∗ semVal (((c : Thread nD τ), LaunchKit.osem 3) : GSem nD τ sig) 0
      ∗ semVal (((c : Thread nD τ), LaunchKit.osem 4) : GSem nD τ sig) 0
      ∗ semVal (((c : Thread nD τ), LaunchKit.osem 5) : GSem nD τ sig) 0
      ∗ semVal (((c : Thread nD τ), LaunchKit.osem 6) : GSem nD τ sig) 0
      ∗ semVal (((c : Thread nD τ), LaunchKit.osem 7) : GSem nD τ sig) 0
      ∗ semVal (((c : Thread nD τ), LaunchKit.osem 8) : GSem nD τ sig) 0
      ∗ semVal (((c : Thread nD τ), LaunchKit.osem 9) : GSem nD τ sig) 0
      ∗ semVal (((c : Thread nD τ), LaunchKit.osem 10) : GSem nD τ sig) 0
      ∗ semVal (((c : Thread nD τ), LaunchKit.osem 11) : GSem nD τ sig) 0
      ∗ semVal (((c : Thread nD τ), LaunchKit.osem 12) : GSem nD τ sig) 0
      ∗ semVal (((c : Thread nD τ), LaunchKit.osem 13) : GSem nD τ sig) 0
      ∗ semVal (((c : Thread nD τ), LaunchKit.osem 14) : GSem nD τ sig) 0
      ∗ semVal (((c : Thread nD τ), LaunchKit.osem 15) : GSem nD τ sig) 0
      ∗ semVal (((c : Thread nD τ), LaunchKit.osem 16) : GSem nD τ sig) 0
      ∗ semVal (((c : Thread nD τ), LaunchKit.osem 17) : GSem nD τ sig) 0
      ∗ semVal (((c : Thread nD τ), LaunchKit.osem 18) : GSem nD τ sig) 0
      ∗ semVal (((c : Thread nD τ), LaunchKit.osem 19) : GSem nD τ sig) 0
      ∗ semVal (((c : Thread nD τ), LaunchKit.osem 20) : GSem nD τ sig) 0) := rfl

/-- The chain of the twenty-one own semaphores at zero, from the transfer cells' and the idle ones. -/
theorem ownChain_intro (c : Dev nD) : iprop(xferSems0 c ∗ idleSems c) ⊢ (LaunchKit.ownChain (F := F) (U₂ := UB × Counters) c : sProp 𝕄) := by
  rw [ownChain_eq]
  unfold xferSems0 idleSems
  iintro ⟨⟨S0, S1, S2, S3, S4, S5, S6, R0, R1, R2, R3, R4, R5, R6⟩, I1, I9, I17, I18, I19, I20, I21⟩
  isplitl [I1]; · iexact I1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [I9]; · iexact I9
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [I17]; · iexact I17
  isplitl [I18]; · iexact I18
  isplitl [I19]; · iexact I19
  isplitl [I20]; · iexact I20
  iexact I21

end Cert.KernelIdeal.A2A

end
-- ==== Proof.BodyDefs.lean ====
/-
  The body's statement with every array held by the blocks that move. The local copies are stepped only when
  source and destination are each held by exactly the copy's own elements, so the precondition holds `x` by its
  eight row blocks, `w` by its sixteen blocks (row block of the device `t` ahead, column half), the bf16 copy by the
  seven blocks it fills, the receive buffer by its eight slots and the f32 staging buffer by the low and high
  columns of its two planes; the postcondition returns `x` and `w` unchanged block by block, the slots and the
  staging planes at some contents, every own semaphore at zero, nothing owed, and the result at `outAt`.
-/
import proofs.«900489_g7700000000000490_dist_a2a_gemm_m8192_k8192_n4096_f32_gelu_v7x_i8_1_alg».proof.Proof.Ghost
import proofs.«900489_g7700000000000490_dist_a2a_gemm_m8192_k8192_n4096_f32_gelu_v7x_i8_1_alg».proof.Proof.Ledger
import proofs.«900489_g7700000000000490_dist_a2a_gemm_m8192_k8192_n4096_f32_gelu_v7x_i8_1_alg».proof.Proof.SrcBlocks
import proofs.«900489_g7700000000000490_dist_a2a_gemm_m8192_k8192_n4096_f32_gelu_v7x_i8_1_alg».proof.Proof.Views
import proofs.«900489_g7700000000000490_dist_a2a_gemm_m8192_k8192_n4096_f32_gelu_v7x_i8_1_alg».proof.Proof.Splits
import proofs.«900489_g7700000000000490_dist_a2a_gemm_m8192_k8192_n4096_f32_gelu_v7x_i8_1_alg».proof.Proof.OutDef
import proofs.«900489_g7700000000000490_dist_a2a_gemm_m8192_k8192_n4096_f32_gelu_v7x_i8_1_alg».proof.Proof.OwnChain

noncomputable section

namespace Cert.KernelIdeal.A2A

open Cert.KernelIdeal Cert.KernelIdeal.Gen Cert.KernelIdeal.Ring8
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A resource set aside: the same assertion under a name the symbolic run does not read. -/
def Held (P : sProp 𝕄) : sProp 𝕄 := P
theorem held_intro (P : sProp 𝕄) : P ⊢ Held P := BI.Entails.refl _
theorem held_elim (P : sProp 𝕄) : Held P ⊢ P := BI.Entails.refl _

section Owed
variable (c : Dev nD)
/-! What the device still owes, step by step: the receive credits in the order opposite to the sends, then the
    barrier units in the order opposite to the signals, so that the next payment is always the last summand. -/
def OR6 : CellTallies nD τ sig Unit := tallyAt (recvCell 6 (bwd 7 c)) () N
def OR5 : CellTallies nD τ sig Unit := OR6 c + tallyAt (recvCell 5 (bwd 6 c)) () N
def OR4 : CellTallies nD τ sig Unit := OR5 c + tallyAt (recvCell 4 (bwd 5 c)) () N
def OR3 : CellTallies nD τ sig Unit := OR4 c + tallyAt (recvCell 3 (bwd 4 c)) () N
def OR2 : CellTallies nD τ sig Unit := OR3 c + tallyAt (recvCell 2 (bwd 3 c)) () N
def OR1 : CellTallies nD τ sig Unit := OR2 c + tallyAt (recvCell 1 (bwd 2 c)) () N
def OR0 : CellTallies nD τ sig Unit := OR1 c + tallyAt (recvCell 0 (bwd 1 c)) () N
def OB7 : CellTallies nD τ sig Unit := OR0 c + tallyAt (barCell (fwd 7 c)) () 1
def OB6 : CellTallies nD τ sig Unit := OB7 c + tallyAt (barCell (fwd 6 c)) () 1
def OB5 : CellTallies nD τ sig Unit := OB6 c + tallyAt (barCell (fwd 5 c)) () 1
def OB4 : CellTallies nD τ sig Unit := OB5 c + tallyAt (barCell (fwd 4 c)) () 1
def OB3 : CellTallies nD τ sig Unit := OB4 c + tallyAt (barCell (fwd 3 c)) () 1
def OB2 : CellTallies nD τ sig Unit := OB3 c + tallyAt (barCell (fwd 2 c)) () 1
def OB1 : CellTallies nD τ sig Unit := OB2 c + tallyAt (barCell (fwd 1 c)) () 1

theorem O₀_eq : O₀ c = OB1 c := by
  unfold O₀ OB1 OB2 OB3 OB4 OB5 OB6 OB7 OR0 OR1 OR2 OR3 OR4 OR5 OR6
  ac_rfl

theorem atLeast_OR6 : AtLeast 2 (OR6 c) := atLeast_recv _ _ _
theorem atLeast_OR5 : AtLeast 2 (OR5 c) := atLeast_add (atLeast_OR6 c) (atLeast_recv _ _ _)
theorem atLeast_OR4 : AtLeast 2 (OR4 c) := atLeast_add (atLeast_OR5 c) (atLeast_recv _ _ _)
theorem atLeast_OR3 : AtLeast 2 (OR3 c) := atLeast_add (atLeast_OR4 c) (atLeast_recv _ _ _)
theorem atLeast_OR2 : AtLeast 2 (OR2 c) := atLeast_add (atLeast_OR3 c) (atLeast_recv _ _ _)
theorem atLeast_OR1 : AtLeast 2 (OR1 c) := atLeast_add (atLeast_OR2 c) (atLeast_recv _ _ _)
theorem atLeast_OR0 : AtLeast 2 (OR0 c) := atLeast_add (atLeast_OR1 c) (atLeast_recv _ _ _)
end Owed

/-- What the body starts from, every array held by the blocks that move. -/
def preS (K : GSem nD τ sig → ℕ) (c : Dev nD) (W : Waits sig Unit)
    (f16 : Buf (Elt F) ((c : Thread nD τ).loc main_v1_1)) (fr : Buf (Elt F) ((c : Thread nD τ).loc cc0_scratch0))
    (fwv : Buf (Elt F) ((c : Thread nD τ).loc cc0_scratch1)) (fc16 : Buf (Elt F) ((c : Thread nD τ).loc cc0_scratch2))
    (fo : Buf (Elt F) ((c : Thread nD τ).loc cc0_stg0_0)) : sProp 𝕄 :=
  iprop(invs m K c ∗ poss c ∗ reacheds c ∗ payToks c ∗ creds c ∗ idleSems c ∗ levAts L lv
    ∗ ((xsrc0 c).view.loc (c : Thread nD τ) ↦[(xsrc0 c).view.set]{fullShare} m ((c : Thread nD τ).loc main_arg0))
    ∗ ((xsrc 0 c).view.loc (c : Thread nD τ) ↦[(xsrc 0 c).view.set]{fullShare} m ((c : Thread nD τ).loc main_arg0))
    ∗ ((xsrc 1 c).view.loc (c : Thread nD τ) ↦[(xsrc 1 c).view.set]{fullShare} m ((c : Thread nD τ).loc main_arg0))
    ∗ ((xsrc 2 c).view.loc (c : Thread nD τ) ↦[(xsrc 2 c).view.set]{fullShare} m ((c : Thread nD τ).loc main_arg0))
    ∗ ((xsrc 3 c).view.loc (c : Thread nD τ) ↦[(xsrc 3 c).view.set]{fullShare} m ((c : Thread nD τ).loc main_arg0))
    ∗ ((xsrc 4 c).view.loc (c : Thread nD τ) ↦[(xsrc 4 c).view.set]{fullShare} m ((c : Thread nD τ).loc main_arg0))
    ∗ ((xsrc 5 c).view.loc (c : Thread nD τ) ↦[(xsrc 5 c).view.set]{fullShare} m ((c : Thread nD τ).loc main_arg0))
    ∗ ((xsrc 6 c).view.loc (c : Thread nD τ) ↦[(xsrc 6 c).view.set]{fullShare} m ((c : Thread nD τ).loc main_arg0))
    ∗ ((wsrc0 0 c).view.loc (c : Thread nD τ) ↦[(wsrc0 0 c).view.set]{fullShare} m ((c : Thread nD τ).loc main_arg1))
    ∗ ((wsrc1 0 c).view.loc (c : Thread nD τ) ↦[(wsrc1 0 c).view.set]{fullShare} m ((c : Thread nD τ).loc main_arg1))
    ∗ ((wsrc0 1 c).view.loc (c : Thread nD τ) ↦[(wsrc0 1 c).view.set]{fullShare} m ((c : Thread nD τ).loc main_arg1))
    ∗ ((wsrc1 1 c).view.loc (c : Thread nD τ) ↦[(wsrc1 1 c).view.set]{fullShare} m ((c : Thread nD τ).loc main_arg1))
    ∗ ((wsrc0 2 c).view.loc (c : Thread nD τ) ↦[(wsrc0 2 c).view.set]{fullShare} m ((c : Thread nD τ).loc main_arg1))
    ∗ ((wsrc1 2 c).view.loc (c : Thread nD τ) ↦[(wsrc1 2 c).view.set]{fullShare} m ((c : Thread nD τ).loc main_arg1))
    ∗ ((wsrc0 3 c).view.loc (c : Thread nD τ) ↦[(wsrc0 3 c).view.set]{fullShare} m ((c : Thread nD τ).loc main_arg1))
    ∗ ((wsrc1 3 c).view.loc (c : Thread nD τ) ↦[(wsrc1 3 c).view.set]{fullShare} m ((c : Thread nD τ).loc main_arg1))
    ∗ ((wsrc0 4 c).view.loc (c : Thread nD τ) ↦[(wsrc0 4 c).view.set]{fullShare} m ((c : Thread nD τ).loc main_arg1))
    ∗ ((wsrc1 4 c).view.loc (c : Thread nD τ) ↦[(wsrc1 4 c).view.set]{fullShare} m ((c : Thread nD τ).loc main_arg1))
    ∗ ((wsrc0 5 c).view.loc (c : Thread nD τ) ↦[(wsrc0 5 c).view.set]{fullShare} m ((c : Thread nD τ).loc main_arg1))
    ∗ ((wsrc1 5 c).view.loc (c : Thread nD τ) ↦[(wsrc1 5 c).view.set]{fullShare} m ((c : Thread nD τ).loc main_arg1))
    ∗ ((wsrc0 6 c).view.loc (c : Thread nD τ) ↦[(wsrc0 6 c).view.set]{fullShare} m ((c : Thread nD τ).loc main_arg1))
    ∗ ((wsrc1 6 c).view.loc (c : Thread nD τ) ↦[(wsrc1 6 c).view.set]{fullShare} m ((c : Thread nD τ).loc main_arg1))
    ∗ ((wsrc0 7 c).view.loc (c : Thread nD τ) ↦[(wsrc0 7 c).view.set]{fullShare} m ((c : Thread nD τ).loc main_arg1))
    ∗ ((wsrc1 7 c).view.loc (c : Thread nD τ) ↦[(wsrc1 7 c).view.set]{fullShare} m ((c : Thread nD τ).loc main_arg1))
    ∗ ((xblk16 0 c).view.loc (c : Thread nD τ) ↦[(xblk16 0 c).view.set]{fullShare} f16)
    ∗ ((xblk16 1 c).view.loc (c : Thread nD τ) ↦[(xblk16 1 c).view.set]{fullShare} f16)
    ∗ ((xblk16 2 c).view.loc (c : Thread nD τ) ↦[(xblk16 2 c).view.set]{fullShare} f16)
    ∗ ((xblk16 3 c).view.loc (c : Thread nD τ) ↦[(xblk16 3 c).view.set]{fullShare} f16)
    ∗ ((xblk16 4 c).view.loc (c : Thread nD τ) ↦[(xblk16 4 c).view.set]{fullShare} f16)
    ∗ ((xblk16 5 c).view.loc (c : Thread nD τ) ↦[(xblk16 5 c).view.set]{fullShare} f16)
    ∗ ((xblk16 6 c).view.loc (c : Thread nD τ) ↦[(xblk16 6 c).view.set]{fullShare} f16)
    ∗ (((rslot 1 : Memref sig .tc .vmem S1024x1024 .bf16)).view.loc (c : Thread nD τ) ↦[((rslot 1 : Memref sig .tc .vmem S1024x1024 .bf16)).view.set]{fullShare} fr)
    ∗ (((rslot 2 : Memref sig .tc .vmem S1024x1024 .bf16)).view.loc (c : Thread nD τ) ↦[((rslot 2 : Memref sig .tc .vmem S1024x1024 .bf16)).view.set]{fullShare} fr)
    ∗ (((rslot 3 : Memref sig .tc .vmem S1024x1024 .bf16)).view.loc (c : Thread nD τ) ↦[((rslot 3 : Memref sig .tc .vmem S1024x1024 .bf16)).view.set]{fullShare} fr)
    ∗ (((rslot 4 : Memref sig .tc .vmem S1024x1024 .bf16)).view.loc (c : Thread nD τ) ↦[((rslot 4 : Memref sig .tc .vmem S1024x1024 .bf16)).view.set]{fullShare} fr)
    ∗ (((rslot 5 : Memref sig .tc .vmem S1024x1024 .bf16)).view.loc (c : Thread nD τ) ↦[((rslot 5 : Memref sig .tc .vmem S1024x1024 .bf16)).view.set]{fullShare} fr)
    ∗ (((rslot 6 : Memref sig .tc .vmem S1024x1024 .bf16)).view.loc (c : Thread nD τ) ↦[((rslot 6 : Memref sig .tc .vmem S1024x1024 .bf16)).view.set]{fullShare} fr)
    ∗ (((rslot 7 : Memref sig .tc .vmem S1024x1024 .bf16)).view.loc (c : Thread nD τ) ↦[((rslot 7 : Memref sig .tc .vmem S1024x1024 .bf16)).view.set]{fullShare} fr)
    ∗ (((rslot 0 : Memref sig .tc .vmem S1024x1024 .bf16)).view.loc (c : Thread nD τ) ↦[((rslot 0 : Memref sig .tc .vmem S1024x1024 .bf16)).view.set]{fullShare} fr)
    ∗ (((vlo 0 : Memref sig .tc .vmem S1024x1024 .f32)).view.loc (c : Thread nD τ) ↦[((vlo 0 : Memref sig .tc .vmem S1024x1024 .f32)).view.set]{fullShare} fwv)
    ∗ (((vhi 0 : Memref sig .tc .vmem S1024x1024 .f32)).view.loc (c : Thread nD τ) ↦[((vhi 0 : Memref sig .tc .vmem S1024x1024 .f32)).view.set]{fullShare} fwv)
    ∗ (((vlo 1 : Memref sig .tc .vmem S1024x1024 .f32)).view.loc (c : Thread nD τ) ↦[((vlo 1 : Memref sig .tc .vmem S1024x1024 .f32)).view.set]{fullShare} fwv)
    ∗ (((vhi 1 : Memref sig .tc .vmem S1024x1024 .f32)).view.loc (c : Thread nD τ) ↦[((vhi 1 : Memref sig .tc .vmem S1024x1024 .f32)).view.set]{fullShare} fwv)
    ∗ ((Memref.whole cc0_scratch2 : Memref sig .tc .vmem S2x1024x1024 .bf16).view.loc (c : Thread nD τ) ↦{fullShare} fc16)
    ∗ owes (c : Thread nD τ) (OB1 c) W
    ∗ ((Memref.whole cc0_stg0_0 : Memref sig .tc .vmem S1024x4096 .f32).view.loc (c : Thread nD τ) ↦{fullShare} fo))

/-- What the body ends with. -/
def postS (c : Dev nD) : sProp 𝕄 :=
  iprop(emp
    ∗ ((xsrc0 c).view.loc (c : Thread nD τ) ↦[(xsrc0 c).view.set]{fullShare} m ((c : Thread nD τ).loc main_arg0))
    ∗ ((xsrc 0 c).view.loc (c : Thread nD τ) ↦[(xsrc 0 c).view.set]{fullShare} m ((c : Thread nD τ).loc main_arg0))
    ∗ ((xsrc 1 c).view.loc (c : Thread nD τ) ↦[(xsrc 1 c).view.set]{fullShare} m ((c : Thread nD τ).loc main_arg0))
    ∗ ((xsrc 2 c).view.loc (c : Thread nD τ) ↦[(xsrc 2 c).view.set]{fullShare} m ((c : Thread nD τ).loc main_arg0))
    ∗ ((xsrc 3 c).view.loc (c : Thread nD τ) ↦[(xsrc 3 c).view.set]{fullShare} m ((c : Thread nD τ).loc main_arg0))
    ∗ ((xsrc 4 c).view.loc (c : Thread nD τ) ↦[(xsrc 4 c).view.set]{fullShare} m ((c : Thread nD τ).loc main_arg0))
    ∗ ((xsrc 5 c).view.loc (c : Thread nD τ) ↦[(xsrc 5 c).view.set]{fullShare} m ((c : Thread nD τ).loc main_arg0))
    ∗ ((xsrc 6 c).view.loc (c : Thread nD τ) ↦[(xsrc 6 c).view.set]{fullShare} m ((c : Thread nD τ).loc main_arg0))
    ∗ ((wsrc0 0 c).view.loc (c : Thread nD τ) ↦[(wsrc0 0 c).view.set]{fullShare} m ((c : Thread nD τ).loc main_arg1))
    ∗ ((wsrc1 0 c).view.loc (c : Thread nD τ) ↦[(wsrc1 0 c).view.set]{fullShare} m ((c : Thread nD τ).loc main_arg1))
    ∗ ((wsrc0 1 c).view.loc (c : Thread nD τ) ↦[(wsrc0 1 c).view.set]{fullShare} m ((c : Thread nD τ).loc main_arg1))
    ∗ ((wsrc1 1 c).view.loc (c : Thread nD τ) ↦[(wsrc1 1 c).view.set]{fullShare} m ((c : Thread nD τ).loc main_arg1))
    ∗ ((wsrc0 2 c).view.loc (c : Thread nD τ) ↦[(wsrc0 2 c).view.set]{fullShare} m ((c : Thread nD τ).loc main_arg1))
    ∗ ((wsrc1 2 c).view.loc (c : Thread nD τ) ↦[(wsrc1 2 c).view.set]{fullShare} m ((c : Thread nD τ).loc main_arg1))
    ∗ ((wsrc0 3 c).view.loc (c : Thread nD τ) ↦[(wsrc0 3 c).view.set]{fullShare} m ((c : Thread nD τ).loc main_arg1))
    ∗ ((wsrc1 3 c).view.loc (c : Thread nD τ) ↦[(wsrc1 3 c).view.set]{fullShare} m ((c : Thread nD τ).loc main_arg1))
    ∗ ((wsrc0 4 c).view.loc (c : Thread nD τ) ↦[(wsrc0 4 c).view.set]{fullShare} m ((c : Thread nD τ).loc main_arg1))
    ∗ ((wsrc1 4 c).view.loc (c : Thread nD τ) ↦[(wsrc1 4 c).view.set]{fullShare} m ((c : Thread nD τ).loc main_arg1))
    ∗ ((wsrc0 5 c).view.loc (c : Thread nD τ) ↦[(wsrc0 5 c).view.set]{fullShare} m ((c : Thread nD τ).loc main_arg1))
    ∗ ((wsrc1 5 c).view.loc (c : Thread nD τ) ↦[(wsrc1 5 c).view.set]{fullShare} m ((c : Thread nD τ).loc main_arg1))
    ∗ ((wsrc0 6 c).view.loc (c : Thread nD τ) ↦[(wsrc0 6 c).view.set]{fullShare} m ((c : Thread nD τ).loc main_arg1))
    ∗ ((wsrc1 6 c).view.loc (c : Thread nD τ) ↦[(wsrc1 6 c).view.set]{fullShare} m ((c : Thread nD τ).loc main_arg1))
    ∗ ((wsrc0 7 c).view.loc (c : Thread nD τ) ↦[(wsrc0 7 c).view.set]{fullShare} m ((c : Thread nD τ).loc main_arg1))
    ∗ ((wsrc1 7 c).view.loc (c : Thread nD τ) ↦[(wsrc1 7 c).view.set]{fullShare} m ((c : Thread nD τ).loc main_arg1))
    ∗ (∃ f0 f1 f2 f3 f4 f5 f6 f7 : Buf (Elt F) ((c : Thread nD τ).loc cc0_scratch0), iprop(emp
      ∗ (((rslot 0 : Memref sig .tc .vmem S1024x1024 .bf16)).view.loc (c : Thread nD τ) ↦[((rslot 0 : Memref sig .tc .vmem S1024x1024 .bf16)).view.set]{fullShare} f0)
      ∗ (((rslot 1 : Memref sig .tc .vmem S1024x1024 .bf16)).view.loc (c : Thread nD τ) ↦[((rslot 1 : Memref sig .tc .vmem S1024x1024 .bf16)).view.set]{fullShare} f1)
      ∗ (((rslot 2 : Memref sig .tc .vmem S1024x1024 .bf16)).view.loc (c : Thread nD τ) ↦[((rslot 2 : Memref sig .tc .vmem S1024x1024 .bf16)).view.set]{fullShare} f2)
      ∗ (((rslot 3 : Memref sig .tc .vmem S1024x1024 .bf16)).view.loc (c : Thread nD τ) ↦[((rslot 3 : Memref sig .tc .vmem S1024x1024 .bf16)).view.set]{fullShare} f3)
      ∗ (((rslot 4 : Memref sig .tc .vmem S1024x1024 .bf16)).view.loc (c : Thread nD τ) ↦[((rslot 4 : Memref sig .tc .vmem S1024x1024 .bf16)).view.set]{fullShare} f4)
      ∗ (((rslot 5 : Memref sig .tc .vmem S1024x1024 .bf16)).view.loc (c : Thread nD τ) ↦[((rslot 5 : Memref sig .tc .vmem S1024x1024 .bf16)).view.set]{fullShare} f5)
      ∗ (((rslot 6 : Memref sig .tc .vmem S1024x1024 .bf16)).view.loc (c : Thread nD τ) ↦[((rslot 6 : Memref sig .tc .vmem S1024x1024 .bf16)).view.set]{fullShare} f6)
      ∗ (((rslot 7 : Memref sig .tc .vmem S1024x1024 .bf16)).view.loc (c : Thread nD τ) ↦[((rslot 7 : Memref sig .tc .vmem S1024x1024 .bf16)).view.set]{fullShare} f7)
      ))
    ∗ (∃ h0 h1 : Buf (Elt F) ((c : Thread nD τ).loc cc0_scratch1), iprop(
        ((vful 0 : Memref sig .tc .vmem S1024x2048 .f32).view.loc (c : Thread nD τ) ↦[(vful 0 : Memref sig .tc .vmem S1024x2048 .f32).view.set]{fullShare} h0)
        ∗ ((vful 1 : Memref sig .tc .vmem S1024x2048 .f32).view.loc (c : Thread nD τ) ↦[(vful 1 : Memref sig .tc .vmem S1024x2048 .f32).view.set]{fullShare} h1)))
    ∗ (∃ g : Buf (Elt F) ((c : Thread nD τ).loc cc0_scratch2), (Memref.whole cc0_scratch2 : Memref sig .tc .vmem S2x1024x1024 .bf16).view.loc (c : Thread nD τ) ↦{fullShare} g)
    ∗ xferSems0 c ∗ idleSems c
    ∗ (∃ W, owes (c : Thread nD τ) 0 W)
    ∗ ((Memref.whole cc0_stg0_0 : Memref sig .tc .vmem S1024x4096 .f32).view.loc (c : Thread nD τ) ↦{fullShare} outAt m c))

end Cert.KernelIdeal.A2A
-- ==== Proof.FundIdeal.lean ====
/-
  The launch's ghost state for the all-to-all's protocol: the fifteen cells of each device (its barrier cell, seven
  send and seven receive cells), the one-shot duty tokens — minted indexed by the device that PAYS the duty, so that
  each device's share is its own row —, the launch element, and what it funds.
-/
import proofs.«900489_g7700000000000490_dist_a2a_gemm_m8192_k8192_n4096_f32_gelu_v7x_i8_1_alg».proof.Proof.Ghost
import proofs.«900489_g7700000000000490_dist_a2a_gemm_m8192_k8192_n4096_f32_gelu_v7x_i8_1_alg».proof.Proof.Ledger
import proofs.«900489_g7700000000000490_dist_a2a_gemm_m8192_k8192_n4096_f32_gelu_v7x_i8_1_alg».proof.Proof.LaunchIdeal

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.LaunchKit (osem)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A device's fifteen protocol semaphores: the barrier, the seven send and the seven receive semaphores. -/
abbrev csem : Fin 15 → SemLoc sig := fun
  | 0 => .reg barS
  | 1 => .dma (sendSem 0)
  | 2 => .dma (sendSem 1)
  | 3 => .dma (sendSem 2)
  | 4 => .dma (sendSem 3)
  | 5 => .dma (sendSem 4)
  | 6 => .dma (sendSem 5)
  | 7 => .dma (sendSem 6)
  | 8 => .dma (recvSem 0)
  | 9 => .dma (recvSem 1)
  | 10 => .dma (recvSem 2)
  | 11 => .dma (recvSem 3)
  | 12 => .dma (recvSem 4)
  | 13 => .dma (recvSem 5)
  | 14 => .dma (recvSem 6)
abbrev kcell (ck : Dev nD × Fin 15) : GSem nD τ sig := ((ck.1 : Thread nD τ), csem ck.2)

theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def ringCells : Finset (GSem nD τ sig) := Finset.univ.map ⟨kcell, kcell_injective⟩

/-! ## The duty tokens, by payer -/

/-- The twenty-one duties device `cj.1` pays: duty `r` of the barrier cell `r + 1` ahead, the duty of the receive
    cell `r` of the device `r + 1` behind, the duty of its own send cell `r`. -/
abbrev payTok (cj : Dev nD × Fin 21) : GSem nD τ sig × ℕ × Dy :=
  (![(barCell (fwd 1 cj.1), 0, 0),
    (barCell (fwd 2 cj.1), 0, 1),
    (barCell (fwd 3 cj.1), 0, 2),
    (barCell (fwd 4 cj.1), 0, 3),
    (barCell (fwd 5 cj.1), 0, 4),
    (barCell (fwd 6 cj.1), 0, 5),
    (barCell (fwd 7 cj.1), 0, 6),
    (recvCell 0 (bwd 1 cj.1), 0, 0),
    (recvCell 1 (bwd 2 cj.1), 0, 0),
    (recvCell 2 (bwd 3 cj.1), 0, 0),
    (recvCell 3 (bwd 4 cj.1), 0, 0),
    (recvCell 4 (bwd 5 cj.1), 0, 0),
    (recvCell 5 (bwd 6 cj.1), 0, 0),
    (recvCell 6 (bwd 7 cj.1), 0, 0),
    (sendCell 0 cj.1, 0, 0),
    (sendCell 1 cj.1, 0, 0),
    (sendCell 2 cj.1, 0, 0),
    (sendCell 3 cj.1, 0, 0),
    (sendCell 4 cj.1, 0, 0),
    (sendCell 5 cj.1, 0, 0),
    (sendCell 6 cj.1, 0, 0)] : Fin 21 → GSem nD τ sig × ℕ × Dy) cj.2

/-- The payer and the row of a minted token. -/
def unpay (x : GSem nD τ sig × ℕ × Dy) : Dev nD × Fin 21 :=
  match x.1.2 with
  | .reg _ => (bwd (x.2.2.val + 1) x.1.1.1, ⟨x.2.2.val, by have := x.2.2.isLt; omega⟩)
  | .dma s => match xfer (.dma s) with
    | some (true, r) => (fwd (r.val + 1) x.1.1.1, ⟨7 + r.val, by have := r.isLt; omega⟩)
    | some (false, r) => (x.1.1.1, ⟨14 + r.val, by have := r.isLt; omega⟩)
    | none => (x.1.1.1, 0)

theorem unpay_payTok : ∀ cj : Dev nD × Fin 21, unpay (payTok cj) = cj := by decide

theorem payTok_injective : Function.Injective (payTok : Dev nD × Fin 21 → GSem nD τ sig × ℕ × Dy) :=
  Function.LeftInverse.injective unpay_payTok

def ringToks : Finset (GSem nD τ sig × ℕ × Dy) := Finset.univ.map ⟨payTok, payTok_injective⟩

/-! ## The launch element and what it funds -/

def u₀ : UU :=
  (initOf (Pipeline.cells cfgs cellOf_inj) (Pipeline.launchToks cfgs cellOf_inj), (initOf ringCells ringToks, 1))

/-- What the launch element deals device `c` (the launch theorem's `G`): the round states, positions and reached
    facts of its own fifteen cells, and the tokens of the duties it pays. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ payToks c)

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin21 (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by unfold payToks; rw [bigSep_fin21]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element pays for the pipeline library's cells and for the protocol's (the launch theorem's `hu₀`); its
    counters' component is the unit. -/
theorem fund :
    (ownU (u₀ : UU) : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb (embR : Emb (UB × Counters) 𝕄) _ _) $$ HX
  icases HX' with ⟨HR, -⟩
  imod (fund_ring m) $$ HR with HG
  imodintro
  isplitl [HP] <;> iassumption

/-! ## The payloads can be stored in an invariant -/

instance sched_payload_storable_launch (g : GSem nD τ sig) (r : ℕ) (d : Dy) :
    BI.Storable (upEmb : UEmb _ 𝕄) ((sched (F := F) m).payload g r d) := by
  show BI.Storable upEmb (match xfer g.2 with
    | some (true, r) => recvPay m r g.1.1
    | some (false, r) => sendPay m r g.1.1
    | none => if g.2 = .reg barS then barPay d g.1.1 else iprop(emp))
  unfold recvPay sendPay barPay
  (repeat' split) <;> infer_instance

/-! ## The semaphores at launch -/

theorem ownSems0_eq (c : Dev nD) :
    (Pipeline.ownSems0 (Ix := Unit) (Name := ℕ) (U := UU) (Lvl := ℕ) (Val := Elt F) (τ := τ) osem c : sProp 𝕄)
      = iprop(semVal (((c : Thread nD τ), osem 0) : GSem nD τ sig) 0
        ∗ semVal (((c : Thread nD τ), osem 1) : GSem nD τ sig) 0
        ∗ semVal (((c : Thread nD τ), osem 2) : GSem nD τ sig) 0
        ∗ semVal (((c : Thread nD τ), osem 3) : GSem nD τ sig) 0
        ∗ semVal (((c : Thread nD τ), osem 4) : GSem nD τ sig) 0
        ∗ semVal (((c : Thread nD τ), osem 5) : GSem nD τ sig) 0
        ∗ semVal (((c : Thread nD τ), osem 6) : GSem nD τ sig) 0
        ∗ semVal (((c : Thread nD τ), osem 7) : GSem nD τ sig) 0
        ∗ semVal (((c : Thread nD τ), osem 8) : GSem nD τ sig) 0
        ∗ semVal (((c : Thread nD τ), osem 9) : GSem nD τ sig) 0
        ∗ semVal (((c : Thread nD τ), osem 10) : GSem nD τ sig) 0
        ∗ semVal (((c : Thread nD τ), osem 11) : GSem nD τ sig) 0
        ∗ semVal (((c : Thread nD τ), osem 12) : GSem nD τ sig) 0
        ∗ semVal (((c : Thread nD τ), osem 13) : GSem nD τ sig) 0
        ∗ semVal (((c : Thread nD τ), osem 14) : GSem nD τ sig) 0
        ∗ semVal (((c : Thread nD τ), osem 15) : GSem nD τ sig) 0
        ∗ semVal (((c : Thread nD τ), osem 16) : GSem nD τ sig) 0
        ∗ semVal (((c : Thread nD τ), osem 17) : GSem nD τ sig) 0
        ∗ semVal (((c : Thread nD τ), osem 18) : GSem nD τ sig) 0
        ∗ semVal (((c : Thread nD τ), osem 19) : GSem nD τ sig) 0
        ∗ semVal (((c : Thread nD τ), osem 20) : GSem nD τ sig) 0) := by
  rw [Pipeline.ownSems0_eq_of_list c osem [0, 1, 2, 3, 4, 5, 6, 7, 8, 9, 10, 11, 12, 13, 14, 15, 16, 17, 18, 19, 20] (by decide) (by decide)]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, sorted: its fifteen cells', and the seven that take part in no round. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ idleSems c) : sProp 𝕄) := by
  rw [ownSems0_eq, unscopedSems0_eq, bigSep_fin15]
  unfold idleSems
  iintro ⟨⟨H0, H1, H2, H3, H4, H5, H6, H7, H8, H9, H10, H11, H12, H13, H14, H15, H16, H17, H18, H19, H20⟩, HB⟩
  isplitl [HB H1 H2 H3 H4 H5 H6 H7 H9 H10 H11 H12 H13 H14 H15]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iexact H15
  · isplitl [H0]; · iexact H0
    isplitl [H8]; · iexact H8
    isplitl [H16]; · iexact H16
    isplitl [H17]; · iexact H17
    isplitl [H18]; · iexact H18
    isplitl [H19]; · iexact H19
    iexact H20

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ payToks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## Every device's start from all devices' cells -/

/-- The cells' names as a function of the cell: the allocated names along the cell map. -/
abbrev Kx (K : Dev nD × Fin 15 → ℕ) : GSem nD τ sig → ℕ := Function.extend kcell K (fun _ => 0)

theorem Kx_kcell (K : Dev nD × Fin 15 → ℕ) (ck : Dev nD × Fin 15) : Kx K (kcell ck) = K ck := kcell_injective.extend_apply K _ ck

/-- What every device may use of every other: all the invariants, and that every cell is at round 0. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at0 (K : Dev nD × Fin 15 → ℕ) (ck : Dev nD × Fin 15) :
    (bigSep Finset.univ fun ck : Dev nD × Fin 15 => (cellInv ER (sched m) (K ck) (kcell ck) : sProp 𝕄)) ⊢ cellInv ER (sched m) (K ck) (kcell ck) :=
  bigSep_elim (Finset.mem_univ ck)
theorem reached_at0 (ck : Dev nD × Fin 15) :
    (bigSep Finset.univ fun ck : Dev nD × Fin 15 => (reached ER (kcell ck) 0 : sProp 𝕄)) ⊢ reached ER (kcell ck) 0 :=
  bigSep_elim (Finset.mem_univ ck)
theorem inv_at (K : Dev nD × Fin 15 → ℕ) (ck : Dev nD × Fin 15) :
    records m K ⊢ cellInv ER (sched m) (Kx K (kcell ck)) (kcell ck) := by
  rw [Kx_kcell]; unfold records
  iintro ⟨H, -⟩
  iapply (inv_at0 m K ck)
  iexact H
theorem reached_at (K : Dev nD × Fin 15 → ℕ) (ck : Dev nD × Fin 15) :
    records m K ⊢ reached ER (kcell ck) 0 := by
  unfold records
  iintro ⟨-, H⟩
  iapply (reached_at0 (F := F) ck)
  iexact H

/-- What stays with device `c`: its positions, the tokens of the duties it pays, its idle semaphores. -/
def linear (c : Dev nD) : sProp 𝕄 := iprop(poss c ∗ payToks c ∗ idleSems c)

/-- What the global step makes for device `c` (the launch theorem's `G'`). -/
def G' (c : Dev nD) : sProp 𝕄 := iprop((∃ K, ghost m K c) ∗ idleSems c)

set_option maxRecDepth 4000 in
theorem ghost_intro (K : Dev nD × Fin 15 → ℕ) (c : Dev nD) : iprop(records m K ∗ linear c) ⊢ G' m c := by
  unfold linear G' ghost invs reacheds
  iintro ⟨#HR, Hat, Htok, Hidle⟩
  isplitr [Hidle]
  swap
  · iexact Hidle
  iexists (Kx K)
  isplitr
  · isplitr; · iapply (inv_at m K (c, 0)); iexact HR
    isplitr; · iapply (inv_at m K (c, 1)); iexact HR
    isplitr; · iapply (inv_at m K (c, 2)); iexact HR
    isplitr; · iapply (inv_at m K (c, 3)); iexact HR
    isplitr; · iapply (inv_at m K (c, 4)); iexact HR
    isplitr; · iapply (inv_at m K (c, 5)); iexact HR
    isplitr; · iapply (inv_at m K (c, 6)); iexact HR
    isplitr; · iapply (inv_at m K (c, 7)); iexact HR
    isplitr; · iapply (inv_at m K (c, 8)); iexact HR
    isplitr; · iapply (inv_at m K (c, 9)); iexact HR
    isplitr; · iapply (inv_at m K (c, 10)); iexact HR
    isplitr; · iapply (inv_at m K (c, 11)); iexact HR
    isplitr; · iapply (inv_at m K (c, 12)); iexact HR
    isplitr; · iapply (inv_at m K (c, 13)); iexact HR
    isplitr; · iapply (inv_at m K (c, 14)); iexact HR
    isplitr; · iapply (inv_at m K (fwd 1 c, 0)); iexact HR
    isplitr; · iapply (inv_at m K (fwd 2 c, 0)); iexact HR
    isplitr; · iapply (inv_at m K (fwd 3 c, 0)); iexact HR
    isplitr; · iapply (inv_at m K (fwd 4 c, 0)); iexact HR
    isplitr; · iapply (inv_at m K (fwd 5 c, 0)); iexact HR
    isplitr; · iapply (inv_at m K (fwd 6 c, 0)); iexact HR
    isplitr; · iapply (inv_at m K (fwd 7 c, 0)); iexact HR
    isplitr; · iapply (inv_at m K (bwd 1 c, 8)); iexact HR
    isplitr; · iapply (inv_at m K (bwd 2 c, 9)); iexact HR
    isplitr; · iapply (inv_at m K (bwd 3 c, 10)); iexact HR
    isplitr; · iapply (inv_at m K (bwd 4 c, 11)); iexact HR
    isplitr; · iapply (inv_at m K (bwd 5 c, 12)); iexact HR
    isplitr; · iapply (inv_at m K (bwd 6 c, 13)); iexact HR
    iapply (inv_at m K (bwd 7 c, 14)); iexact HR
  isplitl [Hat]; · iexact Hat
  isplitr
  · isplitr; · iapply (reached_at m K (fwd 1 c, 0)); iexact HR
    isplitr; · iapply (reached_at m K (fwd 2 c, 0)); iexact HR
    isplitr; · iapply (reached_at m K (fwd 3 c, 0)); iexact HR
    isplitr; · iapply (reached_at m K (fwd 4 c, 0)); iexact HR
    isplitr; · iapply (reached_at m K (fwd 5 c, 0)); iexact HR
    isplitr; · iapply (reached_at m K (fwd 6 c, 0)); iexact HR
    isplitr; · iapply (reached_at m K (fwd 7 c, 0)); iexact HR
    isplitr; · iapply (reached_at m K (bwd 1 c, 8)); iexact HR
    isplitr; · iapply (reached_at m K (bwd 2 c, 9)); iexact HR
    isplitr; · iapply (reached_at m K (bwd 3 c, 10)); iexact HR
    isplitr; · iapply (reached_at m K (bwd 4 c, 11)); iexact HR
    isplitr; · iapply (reached_at m K (bwd 5 c, 12)); iexact HR
    isplitr; · iapply (reached_at m K (bwd 6 c, 13)); iexact HR
    isplitr; · iapply (reached_at m K (bwd 7 c, 14)); iexact HR
    isplitr; · iapply (reached_at m K (c, 1)); iexact HR
    isplitr; · iapply (reached_at m K (c, 2)); iexact HR
    isplitr; · iapply (reached_at m K (c, 3)); iexact HR
    isplitr; · iapply (reached_at m K (c, 4)); iexact HR
    isplitr; · iapply (reached_at m K (c, 5)); iexact HR
    isplitr; · iapply (reached_at m K (c, 6)); iexact HR
    isplitr; · iapply (reached_at m K (c, 7)); iexact HR
    isplitr; · iapply (reached_at m K (c, 8)); iexact HR
    isplitr; · iapply (reached_at m K (c, 9)); iexact HR
    isplitr; · iapply (reached_at m K (c, 10)); iexact HR
    isplitr; · iapply (reached_at m K (c, 11)); iexact HR
    isplitr; · iapply (reached_at m K (c, 12)); iexact HR
    isplitr; · iapply (reached_at m K (c, 13)); iexact HR
    iapply (reached_at m K (c, 14)); iexact HR
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : Fin 15 => (atPos ER (kcell (c, k)) 0 ∅ 0 : sProp 𝕄)) = poss c := by
  unfold poss; rw [bigSep_fin15]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ payToks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)),
    bigSep_congr (s := Finset.univ) (fun (c : Dev nD) _ => poss_eq (F := F) c)]
  iintro ⟨HI, ⟨Hat, #HR⟩, Htok, Hidle⟩
  ihave HK := (BI.bigSep_exists_pi Finset.univ (fun (ck : Dev nD × Fin 15) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear
    iapply (Entails.of_eq (bigSep_sep' Finset.univ (fun c : Dev nD => (poss c : sProp 𝕄)) (fun c => iprop(payToks c ∗ idleSems c))).symm)
    isplitl [Hat]; · iexact Hat
    iapply (Entails.of_eq (bigSep_sep' Finset.univ (fun c : Dev nD => (payToks c : sProp 𝕄)) (fun c => idleSems c)).symm)
    isplitl [Htok]; · iexact Htok
    iexact Hidle

/-- The global step (the launch theorem's `hglob`): every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_bar7 (g : GSem nD τ sig) :
    iprop(cred (tallyAt g () 1) ∗ cred (tallyAt g () 1) ∗ cred (tallyAt g () 1) ∗ cred (tallyAt g () 1)
        ∗ cred (tallyAt g () 1) ∗ cred (tallyAt g () 1) ∗ cred (tallyAt g () 1))
      ⊢ (cred (tallyAt g () 7) : sProp 𝕄) := by
  have e : (tallyAt g () 7 : CellTallies nD τ sig Unit)
      = tallyAt g () 1 + (tallyAt g () 1 + (tallyAt g () 1 + (tallyAt g () 1 + (tallyAt g () 1 + (tallyAt g () 1 + tallyAt g () 1))))) := by
    simp only [tallyAt_add]
  rw [e]
  iintro ⟨H1, H2, H3, H4, H5, H6, H7⟩
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iapply (cred_add _ _).2; isplitl [H6]; · iexact H6
  iexact H7

/-- What the launch deals device `c` for the units the others owe its cells: seven on its barrier cell (one from each
    device behind), a block's credit on each receive cell (from the device that sends into it). -/
theorem creds_intro (c : Dev nD) : (Pipeline.launchCred O₀ c : sProp 𝕄) ⊢ creds c := by
  unfold O₀
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨⟨⟨⟨⟨⟨R0, R1⟩, R2⟩, R3⟩, R4⟩, R5⟩, R6⟩, B1⟩, B2⟩, B3⟩, B4⟩, B5⟩, B6⟩, B7⟩
  ihave C1 := (Pipeline.launchCred_tallyAt (.reg barS) (fwd 1) (bwd 1) (fwd_bwd 1) (bwd_fwd 1) () 1 c) $$ B1
  ihave C2 := (Pipeline.launchCred_tallyAt (.reg barS) (fwd 2) (bwd 2) (fwd_bwd 2) (bwd_fwd 2) () 1 c) $$ B2
  ihave C3 := (Pipeline.launchCred_tallyAt (.reg barS) (fwd 3) (bwd 3) (fwd_bwd 3) (bwd_fwd 3) () 1 c) $$ B3
  ihave C4 := (Pipeline.launchCred_tallyAt (.reg barS) (fwd 4) (bwd 4) (fwd_bwd 4) (bwd_fwd 4) () 1 c) $$ B4
  ihave C5 := (Pipeline.launchCred_tallyAt (.reg barS) (fwd 5) (bwd 5) (fwd_bwd 5) (bwd_fwd 5) () 1 c) $$ B5
  ihave C6 := (Pipeline.launchCred_tallyAt (.reg barS) (fwd 6) (bwd 6) (fwd_bwd 6) (bwd_fwd 6) () 1 c) $$ B6
  ihave C7 := (Pipeline.launchCred_tallyAt (.reg barS) (fwd 7) (bwd 7) (fwd_bwd 7) (bwd_fwd 7) () 1 c) $$ B7
  ihave D0 := (Pipeline.launchCred_tallyAt (.dma (recvSem 0)) (bwd 1) (fwd 1) (bwd_fwd 1) (fwd_bwd 1) () N c) $$ R0
  ihave D1 := (Pipeline.launchCred_tallyAt (.dma (recvSem 1)) (bwd 2) (fwd 2) (bwd_fwd 2) (fwd_bwd 2) () N c) $$ R1
  ihave D2 := (Pipeline.launchCred_tallyAt (.dma (recvSem 2)) (bwd 3) (fwd 3) (bwd_fwd 3) (fwd_bwd 3) () N c) $$ R2
  ihave D3 := (Pipeline.launchCred_tallyAt (.dma (recvSem 3)) (bwd 4) (fwd 4) (bwd_fwd 4) (fwd_bwd 4) () N c) $$ R3
  ihave D4 := (Pipeline.launchCred_tallyAt (.dma (recvSem 4)) (bwd 5) (fwd 5) (bwd_fwd 5) (fwd_bwd 5) () N c) $$ R4
  ihave D5 := (Pipeline.launchCred_tallyAt (.dma (recvSem 5)) (bwd 6) (fwd 6) (bwd_fwd 6) (fwd_bwd 6) () N c) $$ R5
  ihave D6 := (Pipeline.launchCred_tallyAt (.dma (recvSem 6)) (bwd 7) (fwd 7) (bwd_fwd 7) (fwd_bwd 7) () N c) $$ R6
  isplitl [C1 C2 C3 C4 C5 C6 C7]
  · iapply (cred_bar7 (F := F) (barCell c))
    isplitl [C1]; · iexact C1
    isplitl [C2]; · iexact C2
    isplitl [C3]; · iexact C3
    isplitl [C4]; · iexact C4
    isplitl [C5]; · iexact C5
    isplitl [C6]; · iexact C6
    iexact C7
  isplitl [D0]; · iexact D0
  isplitl [D1]; · iexact D1
  isplitl [D2]; · iexact D2
  isplitl [D3]; · iexact D3
  isplitl [D4]; · iexact D4
  isplitl [D5]; · iexact D5
  iexact D6

/-- A device's start from the levels, its launch credit and its share of the global step (the launch theorem's `hX`,
    the protocol's part). -/
theorem start_of (c : Dev nD) :
    iprop(levAts L lv ∗ Pipeline.launchCred O₀ c ∗ G' m c) ⊢ |={Set.univ}=> start m c := by
  unfold G' start
  iintro ⟨Hlev, Hcr, HG, Hidle⟩
  ihave Hc := (creds_intro (F := F) c) $$ Hcr
  imodintro
  isplitl [HG]; · iexact HG
  isplitl [Hc]; · iexact Hc
  isplitl [Hidle]; · iexact Hidle
  iexact Hlev

/-! ## The staging cell's wait -/

theorem lv_stage (c : Dev nD) : lv (((c : Thread nD τ), SemLoc.dma cc0_sem0_0) : GSem nD τ sig) () = 0 := rfl

theorem atLeast_O₀ (c : Dev nD) : AtLeast 1 (O₀ c) := by
  unfold O₀
  repeat' (first | exact atLeast_bar _ _ | exact atLeast_mono (by decide) (atLeast_recv _ _ _) | apply atLeast_add)

/-- While it owes all of `O₀`, a device may wait on the result's staging cell: level 0, below every cell it owes. -/
theorem mayWait_stage (c : Dev nD) : (levAts L lv : sProp 𝕄) ⊢ MayWait (c : Thread nD τ) (.dma cc0_sem0_0) () (O₀ c) :=
  mayWait_low c (.dma cc0_sem0_0) (lv_stage c) (O₀ c) (atLeast_O₀ c)

/-! ## The run, from the body's triple alone -/

/-- THE RUN of @main on the eight devices, given the body's triple (in `LaunchKit`'s flat form, at this protocol's
    start and dues): every fair execution terminates, and in every final state each device's result array holds
    `outAt c` and its two argument arrays hold what they held. -/
theorem run_main (outAt : (c : Dev nD) → (cc0_stg0_0 : Ref sig .tc).ty.Contents (Elt F))
    (hbody : ∀ c : Dev nD, LaunchKit.bodyPre m (start m) O₀ c
      ⊢ wp frame (wpE (defs₀ (F := F)) LaunchKit.𝒱₀ (c : Thread nD τ) none) Set.univ (LaunchKit.theBody (F := F)) fun _ => LaunchKit.bodyPost m outAt c) :
    θ_run defs (onTc (τ := τ) (main (F := F))) (Idealize.ShloMosaic.s₀ m ρ) (LaunchKit.QC m outAt) :=
  LaunchKit.run_of (U₂ := UB × Counters) m ρ (start m) O₀ outAt L lv L_of_ne (G m) (G' m) u₀ (fund m) (glob m) (start_of m) mayWait_stage hbody

/-- info: 'Cert.KernelIdeal.A2A.run_main' depends on axioms: [propext, Classical.choice, Quot.sound] -/
#guard_msgs in #print axioms run_main

end Cert.KernelIdeal.A2A

end
-- ==== Proof.BodyWrap.lean ====
/-
  The body's triple in the launch's flat form from its triple over the arrays cut into the blocks that move: the
  start is opened into its parts, the five arrays are cut (the argument block of `x` into eight row blocks, `w` into
  sixteen blocks, the bf16 copy into the seven blocks sent, the receive buffer into its eight slots, the f32 staging
  buffer into the halves of its two planes), and after the body the pieces are joined again.
-/
import proofs.«900489_g7700000000000490_dist_a2a_gemm_m8192_k8192_n4096_f32_gelu_v7x_i8_1_alg».proof.Proof.BodyDefs
import proofs.«900489_g7700000000000490_dist_a2a_gemm_m8192_k8192_n4096_f32_gelu_v7x_i8_1_alg».proof.Proof.FundIdeal

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The flat triple from the triple over the pieces. -/
theorem sound_body
    (hpieces : ∀ (K : GSem nD τ sig → ℕ) (c : Dev nD) (W : Waits sig Unit)
      (f16 : Buf (Elt F) ((c : Thread nD τ).loc main_v1_1)) (fr : Buf (Elt F) ((c : Thread nD τ).loc cc0_scratch0))
      (fwv : Buf (Elt F) ((c : Thread nD τ).loc cc0_scratch1)) (fc16 : Buf (Elt F) ((c : Thread nD τ).loc cc0_scratch2))
      (fo : Buf (Elt F) ((c : Thread nD τ).loc cc0_stg0_0)) (Kt : PUnit → sProp 𝕄),
      iprop(preS m K c W f16 fr fwv fc16 fo ∗ (postS m c -∗ Kt ⟨⟩))
        ⊢ wp frame (wpE (defs₀ (F := F)) 𝒱₀ (c : Thread nD τ) none) Set.univ (LaunchKit.theBody (F := F)) Kt)
    (c : Dev nD) :
    LaunchKit.bodyPre m (start m) O₀ c
      ⊢ wp frame (wpE (defs₀ (F := F)) LaunchKit.𝒱₀ (c : Thread nD τ) none) Set.univ (LaunchKit.theBody (F := F))
          fun _ => LaunchKit.bodyPost m (outAt m) c := by
  unfold LaunchKit.bodyPre start ghost
  rw [O₀_eq c]
  iintro ⟨⟨⟨%K, Hinv, Hpos, Hrea, Htok⟩, Hcr, Hidle, Hlev⟩, Hx, Hw, Hx16, ⟨%fr, Hr⟩, ⟨%fwv, Hv⟩, ⟨%fc16, Hc16⟩, ⟨%W, Ho⟩, ⟨%fo, Hstg⟩⟩
  ihave Hxs := (x_split (F := F) c (m ((c : Thread nD τ).loc main_arg0))) $$ Hx
  ihave Hws := (w_split (F := F) c (m ((c : Thread nD τ).loc main_arg1))) $$ Hw
  ihave Hbs := (x16_split (F := F) c (m ((c : Thread nD τ).loc main_v1_1))) $$ Hx16
  ihave Hrs := (recv_split_loc (F := F) c fr) $$ Hr
  ihave Hvs := (v_split (F := F) c fwv) $$ Hv
  icases Hxs with ⟨X0, X1, X2, X3, X4, X5, X6, X7⟩
  icases Hws with ⟨W0, W1, W2, W3, W4, W5, W6, W7, W8, W9, W10, W11, W12, W13, W14, W15⟩
  icases Hbs with ⟨B0, B1, B2, B3, B4, B5, B6, -⟩
  icases Hrs with ⟨R0, R1, R2, R3, R4, R5, R6, R7⟩
  icases Hvs with ⟨V0, V1, V2, V3⟩
  iapply (hpieces K c W (m ((c : Thread nD τ).loc main_v1_1)) fr fwv fc16 fo (fun _ => LaunchKit.bodyPost m (outAt m) c))
  isplitr []
  · unfold preS
    isplitl [Hinv]; · iexact Hinv
    isplitl [Hpos]; · iexact Hpos
    isplitl [Hrea]; · iexact Hrea
    isplitl [Htok]; · iexact Htok
    isplitl [Hcr]; · iexact Hcr
    isplitl [Hidle]; · iexact Hidle
    isplitl [Hlev]; · iexact Hlev
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R0]; · iexact R0
    isplitl [V0]; · iexact V0
    isplitl [V1]; · iexact V1
    isplitl [V2]; · iexact V2
    isplitl [V3]; · iexact V3
    isplitl [Hc16]; · iexact Hc16
    isplitl [Ho]; · iexact Ho
    iexact Hstg
  · iintro Hp
    unfold postS
    icases Hp with ⟨-, X0, X1, X2, X3, X4, X5, X6, X7, W0, W1, W2, W3, W4, W5, W6, W7, W8, W9, W10, W11, W12, W13, W14, W15, ⟨%f0, %f1, %f2, %f3, %f4, %f5, %f6, %f7, -, R0, R1, R2, R3, R4, R5, R6, R7⟩, ⟨%h0, %h1, V0, V1⟩, ⟨%g, Hc16⟩, Hxf, Hidle, ⟨%W', Ho⟩, Hstg⟩
    ihave Hx := (x_unsplit (F := F) c (m ((c : Thread nD τ).loc main_arg0))) $$ [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    ihave Hw := (w_unsplit (F := F) c (m ((c : Thread nD τ).loc main_arg1))) $$ [W0 W1 W2 W3 W4 W5 W6 W7 W8 W9 W10 W11 W12 W13 W14 W15]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [W10]; · iexact W10
      isplitl [W11]; · iexact W11
      isplitl [W12]; · iexact W12
      isplitl [W13]; · iexact W13
      isplitl [W14]; · iexact W14
      iexact W15
    ihave Hr := (recv_join (F := F) c f0 f1 f2 f3 f4 f5 f6 f7) $$ [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    ihave Hv := (v_join (F := F) c h0 h1) $$ [V0 V1]
    · isplitl [V0] <;> iassumption
    ihave Hch := (ownChain_intro (F := F) c) $$ [Hxf Hidle]
    · isplitl [Hxf] <;> iassumption
    unfold LaunchKit.bodyPost
    isplitl [Hx]; · iexact Hx
    isplitl [Hw]; · iexact Hw
    isplitl [Hr]; · iexact Hr
    isplitl [Hv]; · iexact Hv
    isplitl [Hc16]; · iexists g; iexact Hc16
    isplitl [Hch]; · iexact Hch
    isplitl [Ho]; · iexists W'; iexact Ho
    iexact Hstg

/-- THE RUN at any float values, from the body's triple over the pieces. -/
theorem run_ideal
    (hpieces : ∀ (K : GSem nD τ sig → ℕ) (c : Dev nD) (W : Waits sig Unit)
      (f16 : Buf (Elt F) ((c : Thread nD τ).loc main_v1_1)) (fr : Buf (Elt F) ((c : Thread nD τ).loc cc0_scratch0))
      (fwv : Buf (Elt F) ((c : Thread nD τ).loc cc0_scratch1)) (fc16 : Buf (Elt F) ((c : Thread nD τ).loc cc0_scratch2))
      (fo : Buf (Elt F) ((c : Thread nD τ).loc cc0_stg0_0)) (Kt : PUnit → sProp 𝕄),
      iprop(preS m K c W f16 fr fwv fc16 fo ∗ (postS m c -∗ Kt ⟨⟩))
        ⊢ wp frame (wpE (defs₀ (F := F)) 𝒱₀ (c : Thread nD τ) none) Set.univ (LaunchKit.theBody (F := F)) Kt) :
    θ_run defs (onTc (τ := τ) (main (F := F))) (Idealize.ShloMosaic.s₀ m ρ) (LaunchKit.QC m (outAt m)) :=
  run_main m ρ (outAt m) (sound_body m hpieces)

/-- info: 'Cert.KernelIdeal.A2A.run_ideal' depends on axioms: [propext, Classical.choice, Quot.sound] -/
#guard_msgs in #print axioms run_ideal

end Cert.KernelIdeal.A2A

end
-- ==== Proof.RoundsSteps.lean ====
/-
  The all-to-all's remaining steps on its cells, generic in the step: the entry signal to the device `r + 1` places
  ahead (which hands over this device's receive slot `r + 1` and that its receive cell `r` is open), the wait for the
  seven entry signals (which brings the seven peers' slots), and the waits on a step's receive and send cells,
  each followed by closing the cell so that its counter comes back at zero.
-/
import proofs.«900489_g7700000000000490_dist_a2a_gemm_m8192_k8192_n4096_f32_gelu_v7x_i8_1_alg».proof.Proof.Proto
import Idealize.ShloMosaic.Rules.Footprints

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The entry signal -/

/-- Duty `r` of the barrier cell of the device `r + 1` ahead of `c` is `c`'s to pay: it hands over `c`'s own receive
    slot `r + 1` and that `c`'s receive cell `r` is open. -/
theorem payload_bar_fwd (r : Fin 7) (c : Dev nD) : (sched (F := F) m).payload (barCell (fwd (r.val + 1) c)) 0 r
    = iprop((∃ f, (rslot r.succ : Memref sig .tc .vmem S1024x1024 .bf16).view.loc (c : Thread nD τ)
          ↦[(rslot r.succ : Memref sig .tc .vmem S1024x1024 .bf16).view.set]{fullShare} f) ∗ reached ER (recvCell r c) 0) := by
  rw [payload_bar, show bwd (r.val + 1) (fwd (r.val + 1) c) = c from bwd_fwd ⟨r.val + 1, by have := r.isLt; omega⟩ c]

/-- The signal of one unit to the barrier semaphore of `n`, the device `r + 1` ahead of `c`. -/
theorem wp_signal_step (K : GSem nD τ sig → ℕ) (𝒱 : Variants) (bd : Option 𝒱.V) {Γ : PendingWaitsCtx sig Unit}
    (r : Fin 7) (c n : Dev nD) (hn : n = fwd (r.val + 1) c)
    {α : Type} {Q : α → sProp 𝕄} {k : PUnit → Prog (TpuEff nD τ sig (Elt F) Λ₀ .tc) α}
    (f : Buf (Elt F) ((rslot r.succ : Memref sig .tc .vmem S1024x1024 .bf16).view.loc (c : Thread nD τ)))
    {O₀' : CellTallies nD τ sig Unit} (O : CellTallies nD τ sig Unit)
    (hO : O₀' = O + tallyAt (barCell (fwd (r.val + 1) c)) () 1) (W : Waits sig Unit) {Es : Set ℕ} :
    iprop(cellInv ER (sched (F := F) m) (K (barCell (fwd (r.val + 1) c))) (barCell (fwd (r.val + 1) c))
        ∗ owes (c : Thread nD τ) O₀' W
        ∗ dutyTok ER (barCell (fwd (r.val + 1) c)) 0 r
        ∗ ((rslot r.succ : Memref sig .tc .vmem S1024x1024 .bf16).view.loc (c : Thread nD τ)
            ↦[(rslot r.succ : Memref sig .tc .vmem S1024x1024 .bf16).view.set]{fullShare} f)
        ∗ reached ER (recvCell r c) 0
        ∗ reached ER (barCell (fwd (r.val + 1) c)) 0)
      ⊢ iprop((owes (c : Thread nD τ) O W -∗ wp frame (wpE' (defs₀ (F := F)) 𝒱 (c : Thread nD τ) bd Γ) Es (k ⟨⟩) Q)
          -∗ wp frame (wpE' (defs₀ (F := F)) 𝒱 (c : Thread nD τ) bd Γ) Es
              (.op (.semSignal (Dev.tc n : Thread nD τ) barS 1) k) Q) := by
  subst hn
  iintro ⟨HI, HO, Htok, Hslot, HrV, HrB⟩
  iapply (Rounds.wp_signal 𝒱 ER (sched (F := F) m) (c : Thread nD τ) bd (dst := (fwd (r.val + 1) c : Thread nD τ))
      (sem := barS) (κ := K (barCell (fwd (r.val + 1) c))) (r := 0) (d := r)
      (by rw [duties_bar]; exact Finset.mem_univ _) (amount_bar m (fwd (r.val + 1) c) r) () O hO (W := W))
  isplitl [HI]; · iexact HI
  isplitl [HO]; · iexact HO
  isplitl [Htok]; · iexact Htok
  isplitr [HrB]
  · rw [payload_bar_fwd]
    isplitl [Hslot]; · iexists f; iexact Hslot
    iexact HrV
  · iexact HrB

/-! ## The wait for the seven entry signals -/

/-- What the barrier cell's one round delivers, duty by duty: the slot `d + 1` of the device `d + 1` behind, and that its
    receive cell `d` is open. -/
theorem rest_bar (c : Dev nD) :
    bigSep ((sched (F := F) m).duties (barCell c) 0 \ ∅) (fun d => (sched (F := F) m).payload (barCell c) 0 d)
      = iprop(
        ((∃ f, (rslot 1 : Memref sig .tc .vmem S1024x1024 .bf16).view.loc (bwd 1 c : Thread nD τ) ↦[(rslot 1 : Memref sig .tc .vmem S1024x1024 .bf16).view.set]{fullShare} f) ∗ reached ER (recvCell 0 (bwd 1 c)) 0)
        ∗ ((∃ f, (rslot 2 : Memref sig .tc .vmem S1024x1024 .bf16).view.loc (bwd 2 c : Thread nD τ) ↦[(rslot 2 : Memref sig .tc .vmem S1024x1024 .bf16).view.set]{fullShare} f) ∗ reached ER (recvCell 1 (bwd 2 c)) 0)
        ∗ ((∃ f, (rslot 3 : Memref sig .tc .vmem S1024x1024 .bf16).view.loc (bwd 3 c : Thread nD τ) ↦[(rslot 3 : Memref sig .tc .vmem S1024x1024 .bf16).view.set]{fullShare} f) ∗ reached ER (recvCell 2 (bwd 3 c)) 0)
        ∗ ((∃ f, (rslot 4 : Memref sig .tc .vmem S1024x1024 .bf16).view.loc (bwd 4 c : Thread nD τ) ↦[(rslot 4 : Memref sig .tc .vmem S1024x1024 .bf16).view.set]{fullShare} f) ∗ reached ER (recvCell 3 (bwd 4 c)) 0)
        ∗ ((∃ f, (rslot 5 : Memref sig .tc .vmem S1024x1024 .bf16).view.loc (bwd 5 c : Thread nD τ) ↦[(rslot 5 : Memref sig .tc .vmem S1024x1024 .bf16).view.set]{fullShare} f) ∗ reached ER (recvCell 4 (bwd 5 c)) 0)
        ∗ ((∃ f, (rslot 6 : Memref sig .tc .vmem S1024x1024 .bf16).view.loc (bwd 6 c : Thread nD τ) ↦[(rslot 6 : Memref sig .tc .vmem S1024x1024 .bf16).view.set]{fullShare} f) ∗ reached ER (recvCell 5 (bwd 6 c)) 0)
        ∗ ((∃ f, (rslot 7 : Memref sig .tc .vmem S1024x1024 .bf16).view.loc (bwd 7 c : Thread nD τ) ↦[(rslot 7 : Memref sig .tc .vmem S1024x1024 .bf16).view.set]{fullShare} f) ∗ reached ER (recvCell 6 (bwd 7 c)) 0)) := by
  rw [Finset.sdiff_empty, duties_bar,
    bigSep_univ_eq_bigSepL [(0 : Fin 7), 1, 2, 3, 4, 5, 6] (by decide) (by decide)]
  show iprop((sched (F := F) m).payload (barCell c) 0 0 ∗ (sched (F := F) m).payload (barCell c) 0 1
    ∗ (sched (F := F) m).payload (barCell c) 0 2 ∗ (sched (F := F) m).payload (barCell c) 0 3
    ∗ (sched (F := F) m).payload (barCell c) 0 4 ∗ (sched (F := F) m).payload (barCell c) 0 5
    ∗ (sched (F := F) m).payload (barCell c) 0 6) = _
  rw [payload_bar m c 0, payload_bar m c 1, payload_bar m c 2, payload_bar m c 3, payload_bar m c 4, payload_bar m c 5,
    payload_bar m c 6]
  rfl

/-- The wait for seven units on the own barrier semaphore, while still owing `O` (the level evidence `hmw`): the seven
    peers' slots come with it. -/
theorem wp_bar_wait (K : GSem nD τ sig → ℕ) (𝒱 : Variants) (bd : Option 𝒱.V) (c : Dev nD)
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.reg barS) () O)
    (W : Waits sig Unit) {Es : Set ℕ} (hE : K (barCell c) ∈ Es) :
    iprop(cellInv ER (sched (F := F) m) (K (barCell c)) (barCell c) ∗ cred (tallyAt (barCell c) () 7)
        ∗ owes (c : Thread nD τ) O W ∗ levAts L lv ∗ atPos ER (barCell c) 0 ∅ 0)
      ⊢ iprop(((owes (c : Thread nD τ) O (insert (SemLoc.reg barS, ()) W) ∗ atPos ER (barCell c) 1 ∅ 0
            ∗ ((∃ f, (rslot 1 : Memref sig .tc .vmem S1024x1024 .bf16).view.loc (bwd 1 c : Thread nD τ) ↦[(rslot 1 : Memref sig .tc .vmem S1024x1024 .bf16).view.set]{fullShare} f) ∗ reached ER (recvCell 0 (bwd 1 c)) 0)
            ∗ ((∃ f, (rslot 2 : Memref sig .tc .vmem S1024x1024 .bf16).view.loc (bwd 2 c : Thread nD τ) ↦[(rslot 2 : Memref sig .tc .vmem S1024x1024 .bf16).view.set]{fullShare} f) ∗ reached ER (recvCell 1 (bwd 2 c)) 0)
            ∗ ((∃ f, (rslot 3 : Memref sig .tc .vmem S1024x1024 .bf16).view.loc (bwd 3 c : Thread nD τ) ↦[(rslot 3 : Memref sig .tc .vmem S1024x1024 .bf16).view.set]{fullShare} f) ∗ reached ER (recvCell 2 (bwd 3 c)) 0)
            ∗ ((∃ f, (rslot 4 : Memref sig .tc .vmem S1024x1024 .bf16).view.loc (bwd 4 c : Thread nD τ) ↦[(rslot 4 : Memref sig .tc .vmem S1024x1024 .bf16).view.set]{fullShare} f) ∗ reached ER (recvCell 3 (bwd 4 c)) 0)
            ∗ ((∃ f, (rslot 5 : Memref sig .tc .vmem S1024x1024 .bf16).view.loc (bwd 5 c : Thread nD τ) ↦[(rslot 5 : Memref sig .tc .vmem S1024x1024 .bf16).view.set]{fullShare} f) ∗ reached ER (recvCell 4 (bwd 5 c)) 0)
            ∗ ((∃ f, (rslot 6 : Memref sig .tc .vmem S1024x1024 .bf16).view.loc (bwd 6 c : Thread nD τ) ↦[(rslot 6 : Memref sig .tc .vmem S1024x1024 .bf16).view.set]{fullShare} f) ∗ reached ER (recvCell 5 (bwd 6 c)) 0)
            ∗ ((∃ f, (rslot 7 : Memref sig .tc .vmem S1024x1024 .bf16).view.loc (bwd 7 c : Thread nD τ) ↦[(rslot 7 : Memref sig .tc .vmem S1024x1024 .bf16).view.set]{fullShare} f) ∗ reached ER (recvCell 6 (bwd 7 c)) 0))
            -∗ wp frame (wpE (defs₀ (F := F)) 𝒱 (c : Thread nD τ) bd) Es (k ⟨⟩) Q)
          -∗ wp frame (wpE (defs₀ (F := F)) 𝒱 (c : Thread nD τ) bd) Es (.op (.semWait barS 7) k) Q) := by
  iintro ⟨HI, Hc, HO, Hlev, Hat⟩ Hk
  iapply (Rounds.wp_wait_rest_token 𝒱 ER (sched (F := F) m) (c : Thread nD τ) bd (κ := K (barCell c))
      (wpE_semWait_eq 𝒱 (c : Thread nD τ) bd Es) hE () (O := O) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## The waits on a step's receive and send cells -/

theorem rest_recv (r : Fin 7) (c : Dev nD) :
    bigSep ((sched (F := F) m).duties (recvCell r c) 0 \ ∅) (fun d => (sched (F := F) m).payload (recvCell r c) 0 d)
      = ((rslot r.succ : Memref sig .tc .vmem S1024x1024 .bf16).view.loc (c : Thread nD τ)
          ↦[(rslot r.succ : Memref sig .tc .vmem S1024x1024 .bf16).view.set]{fullShare} recvFull m c) := by
  rw [Finset.sdiff_empty, duties_recv, bigSep_singleton, payload_recv]

theorem rest_send (r : Fin 7) (c : Dev nD) :
    bigSep ((sched (F := F) m).duties (sendCell r c) 0 \ ∅) (fun d => (sched (F := F) m).payload (sendCell r c) 0 d)
      = ((xblk16 r c).view.loc (c : Thread nD τ) ↦[(xblk16 r c).view.set]{fullShare} x16full m c) := by
  rw [Finset.sdiff_empty, duties_send, bigSep_singleton, payload_send]

/-- A block of the bf16 copy in HBM credits a transfer as a receive slot does. -/
theorem xblk16_credit (r : Fin 7) (c : Dev nD) : (xblk16 r c).view.dmaCredit = N := rfl

/-- The wait on step `r + 1`'s receive cell, owing nothing: the slot comes back holding the sender's rows, and the
    cell, which has no later round, is closed with its counter at zero. -/
theorem wp_recv_wait_step (K : GSem nD τ sig → ℕ) (𝒱 : Variants) (bd : Option 𝒱.V) (r : Fin 7) (c : Dev nD)
    {sp' : Space} {s' : Shape} {e' : EltTy} {src : Memref sig .tc sp' s' e'}
    {hsrc : src.view.WordExact} {hdst : (rslot r.succ : Memref sig .tc .vmem S1024x1024 .bf16).view.WordExact}
    {α : Type} {Q : α → sProp 𝕄} {k : PUnit → Prog (TpuEff nD τ sig (Elt F) Λ₀ .tc) α}
    (W : Waits sig Unit) {Es : Set ℕ} (hE : K (recvCell r c) ∈ Es) :
    iprop(cellInv ER (sched (F := F) m) (K (recvCell r c)) (recvCell r c) ∗ cred (tallyAt (recvCell r c) () N)
        ∗ owes (c : Thread nD τ) 0 W ∗ atPos ER (recvCell r c) 0 ∅ 0)
      ⊢ iprop(((owes (c : Thread nD τ) 0 (insert (SemLoc.dma (recvSem r), ()) W)
            ∗ ((rslot r.succ : Memref sig .tc .vmem S1024x1024 .bf16).view.loc (c : Thread nD τ)
                ↦[(rslot r.succ : Memref sig .tc .vmem S1024x1024 .bf16).view.set]{fullShare} recvFull m c)
            ∗ semVal (recvCell r c) 0)
            -∗ wp frame (wpE (defs₀ (F := F)) 𝒱 (c : Thread nD τ) bd) Es (k ⟨⟩) Q)
          -∗ wp frame (wpE (defs₀ (F := F)) 𝒱 (c : Thread nD τ) bd) Es
              (.op (.waitDma2 (recvSem r) src (rslot r.succ : Memref sig .tc .vmem S1024x1024 .bf16) hsrc hdst) k) Q) := by
  iintro ⟨#HI, Hc, HO, Hat⟩ Hk
  iapply (Rounds.wp_wait_rest_token 𝒱 ER (sched (F := F) m) (c : Thread nD τ) bd (κ := K (recvCell r c))
      (wpE_waitDma2_eq 𝒱 (c : Thread nD τ) bd Es) hE () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m r c)) $$ Hpay
  imod (Rounds.cell_close ER (sched (F := F) m) hE (fun h => h) (R := 0 + 1) (duties_later m (recvCell r c))) $$ [Hat] with Hz
  · isplitr; · iexact HI
    iexact Hat
  iapply Hk
  isplitl [HO]; · iexact HO
  isplitl [Hp]; · iexact Hp
  iexact Hz

/-- The wait on step `r + 1`'s send cell with the credit the transfer left: the block comes back, and the cell is
    closed with its counter at zero. -/
theorem wp_send_wait_step (K : GSem nD τ sig → ℕ) (𝒱 : Variants) (bd : Option 𝒱.V) (r : Fin 7) (c : Dev nD)
    {sp' : Space} {s' : Shape} {e' : EltTy} {src : Memref sig .tc sp' s' e'}
    {hsrc : src.view.WordExact} {hdst : (xblk16 r c).view.WordExact}
    {α : Type} {Q : α → sProp 𝕄} {k : PUnit → Prog (TpuEff nD τ sig (Elt F) Λ₀ .tc) α}
    (W : Waits sig Unit) {Es : Set ℕ} (hE : K (sendCell r c) ∈ Es) :
    iprop(cellInv ER (sched (F := F) m) (K (sendCell r c)) (sendCell r c) ∗ cred (tallyAt (sendCell r c) () N)
        ∗ owes (c : Thread nD τ) 0 W ∗ atPos ER (sendCell r c) 0 ∅ 0)
      ⊢ iprop(((owes (c : Thread nD τ) 0 (insert (SemLoc.dma (sendSem r), ()) W)
            ∗ ((xblk16 r c).view.loc (c : Thread nD τ) ↦[(xblk16 r c).view.set]{fullShare} x16full m c)
            ∗ semVal (sendCell r c) 0)
            -∗ wp frame (wpE (defs₀ (F := F)) 𝒱 (c : Thread nD τ) bd) Es (k ⟨⟩) Q)
          -∗ wp frame (wpE (defs₀ (F := F)) 𝒱 (c : Thread nD τ) bd) Es
              (.op (.waitDma2 (sendSem r) src (xblk16 r c) hsrc hdst) k) Q) := by
  iintro ⟨#HI, Hc, HO, Hat⟩ Hk
  iapply (Rounds.wp_wait_rest_token 𝒱 ER (sched (F := F) m) (c : Thread nD τ) bd (κ := K (sendCell r c))
      (wpE_waitDma2_eq 𝒱 (c : Thread nD τ) bd Es) hE () (O := 0) (W := W) (R := 0) (m := 0) (T := ∅)
      (by rw [Nat.zero_add, expect_send, xblk16_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m r c)) $$ Hpay
  imod (Rounds.cell_close ER (sched (F := F) m) hE (fun h => h) (R := 0 + 1) (duties_later m (sendCell r c))) $$ [Hat] with Hz
  · isplitr; · iexact HI
    iexact Hat
  iapply Hk
  isplitl [HO]; · iexact HO
  isplitl [Hp]; · iexact Hp
  iexact Hz

end Cert.KernelIdeal.A2A

/-- info: 'Cert.KernelIdeal.A2A.wp_signal_step' depends on axioms: [propext, Classical.choice, Quot.sound] -/
#guard_msgs in #print axioms Cert.KernelIdeal.A2A.wp_signal_step
/-- info: 'Cert.KernelIdeal.A2A.wp_bar_wait' depends on axioms: [propext, Classical.choice, Quot.sound] -/
#guard_msgs in #print axioms Cert.KernelIdeal.A2A.wp_bar_wait
/-- info: 'Cert.KernelIdeal.A2A.wp_recv_wait_step' depends on axioms: [propext, Classical.choice, Quot.sound] -/
#guard_msgs in #print axioms Cert.KernelIdeal.A2A.wp_recv_wait_step
/-- info: 'Cert.KernelIdeal.A2A.wp_send_wait_step' depends on axioms: [propext, Classical.choice, Quot.sound] -/
#guard_msgs in #print axioms Cert.KernelIdeal.A2A.wp_send_wait_step
-- ==== Proof.SendStep.lean ====
/-
  One step of the all-to-all's remote copies, generic in the step. At step `r + 1` device `c` sends the row block of
  its bf16 copy of `x` at the rows of the device `p` that is `r + 1` places behind it into `p`'s receive slot `r + 1`.
  The device `r + 1` places ahead of `p` is `c`, so what lands is what that slot of `p` holds in the end; the slot,
  rewritten, is the payload of `p`'s receive cell `r`, and the transfer rule applies at the two cells.
-/
import proofs.«900489_g7700000000000490_dist_a2a_gemm_m8192_k8192_n4096_f32_gelu_v7x_i8_1_alg».proof.Proof.Proto
import Idealize.ShloMosaic.Lib.Pipeline.Value
import Idealize.ShloMosaic.Lib.ValueLayout
import Idealize.ShloMosaic.Rules.PointsTo

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- Where receive slot `k` places its element `(ρ, κ)` in the buffer of eight slots. -/
theorem rslot_emb (k : Fin 8) (ρ κ : Fin 1024) :
    (rslot k : Memref sig .tc .vmem S1024x1024 .bf16).view.emb (ix2 ρ κ) = (ix3 k ρ κ : S8x1024x1024.Idx) := by
  show (Rect.unit (s := S8x1024x1024) ![k.val, 0, 0] S1x1024x1024.size (slot_inb k)).emb
      (Shape.reshapeEquiv squeezes_S1x1024x1024_S1024x1024.numel_eq (ix2 ρ κ)) = _
  rw [reshapeEquiv_ix2_1ab]
  funext a
  apply Fin.ext
  rw [Rect.emb_apply]
  match a with
  | ⟨0, _⟩ => simp
  | ⟨1, _⟩ => simp
  | ⟨2, _⟩ => simp

theorem bwd_row_lt (k : Nat) (c : Dev nD) (ρ : Fin 1024) : 1024 * (bwd k c).val + ρ.val < 8192 := by
  have h : (bwd k c).val < 8 := (bwd k c).isLt
  have := ρ.isLt
  omega

/-- Where step `r + 1`'s block places its element `(ρ, κ)` in the bf16 copy: at the rows of the device `r + 1` behind. -/
theorem xblk16_emb (r : Fin 7) (c : Dev nD) (ρ κ : Fin 1024) :
    (xblk16 r c).view.emb (ix2 ρ κ)
      = (ix2 (⟨1024 * (bwd (1 + r.val) c).val + ρ.val, bwd_row_lt _ c ρ⟩ : Fin 8192) κ : S8192x1024.Idx) := by
  show (Rect.unit (s := S8192x1024) (k0_off2 c (BitVec.ofNat 32 (1 + r.val))) S1024x1024.size (k0_off2_inb c r)).emb (ix2 ρ κ) = _
  funext a
  apply Fin.ext
  rw [Rect.emb_apply, Rect.off_unit, Rect.stride_unit]
  have hoff := off2_eq c r
  match a with
  | ⟨0, _⟩ =>
    show k0_off2 c (BitVec.ofNat 32 (1 + r.val)) 0 + 1 * ρ.val = 1024 * (bwd (1 + r.val) c).val + ρ.val
    rw [hoff]; simp
  | ⟨1, _⟩ =>
    show k0_off2 c (BitVec.ofNat 32 (1 + r.val)) 1 + 1 * κ.val = κ.val
    rw [hoff]; simp

/-- The cast's contents depend on the device only through its name. -/
theorem x16full_congr {d d' : Dev nD} (h : d = d') (j : S8192x1024.Idx) :
    x16full m d j = x16full m d' j := by subst h; rfl

/-- What step `r + 1`'s copy lands in the peer's slot `r + 1` is what that slot holds in the end: the peer `r + 1` behind
    finds the sender `r + 1` ahead of it. -/
theorem landed_agree (r : Fin 7) (c : Dev nD)
    (fd : Buf (Elt F) (((bwd (r.val + 1) c : Dev nD) : Thread nD τ).loc cc0_scratch0)) :
    ∀ i ∈ (rslot r.succ : Memref sig .tc .vmem S1024x1024 .bf16).view.set,
      (rslot r.succ : Memref sig .tc .vmem S1024x1024 .bf16).view.write (Elt F) fd
        ((xblk16 r c).view.read (Elt F) (x16full m c)) Finset.univ i = recvFull m (bwd (r.val + 1) c) i := by
  intro i hi
  obtain ⟨y, rfl⟩ := View.exists_emb_of_mem_set _ hi
  obtain ⟨ρ, κ, rfl⟩ : ∃ ρ κ : Fin 1024, y = ix2 ρ κ := ⟨y 0, y 1, eq_ix2 y⟩
  rw [View.write_emb_of_mem _ _ (Finset.mem_univ _), View.read_apply, xblk16_emb, rslot_emb]
  rw [cast_cast, cast_eq]
  have h1 : 1 + r.val = r.val + 1 := Nat.add_comm _ _
  have hd : fwd (r.val + 1) (bwd (r.val + 1) c) = c :=
    fwd_bwd ⟨r.val + 1, by have := r.isLt; omega⟩ c
  show _ = x16full m (fwd (r.val + 1) (bwd (r.val + 1) c))
    (ix2 (⟨1024 * (bwd (r.val + 1) c).val + ρ.val, bwd_row_lt _ c ρ⟩ : Fin 8192) (⟨κ.val, κ.isLt⟩ : Fin 1024))
  refine (x16full_congr m hd.symm _).trans ?_
  refine congrArg (x16full m _) ?_
  funext a
  apply Fin.ext
  match a with
  | ⟨0, _⟩ =>
    show 1024 * (bwd (1 + r.val) c).val + ρ.val = 1024 * (bwd (r.val + 1) c).val + ρ.val
    rw [h1]
  | ⟨1, _⟩ => rfl

/-- The peer's slot, rewritten by the landing, is the receive cell's payload. -/
theorem recv_pay_of_landed (r : Fin 7) (c : Dev nD)
    (fd : Buf (Elt F) (((bwd (r.val + 1) c : Dev nD) : Thread nD τ).loc cc0_scratch0)) :
    (((rslot r.succ : Memref sig .tc .vmem S1024x1024 .bf16).view.loc ((bwd (r.val + 1) c : Dev nD) : Thread nD τ)
        ↦[(rslot r.succ : Memref sig .tc .vmem S1024x1024 .bf16).view.set]{fullShare}
          (rslot r.succ : Memref sig .tc .vmem S1024x1024 .bf16).view.write (Elt F) fd
            ((xblk16 r c).view.read (Elt F) (x16full m c)) Finset.univ) : sProp 𝕄)
      ⊢ (sched (F := F) m).payload (recvCell r (bwd (r.val + 1) c)) 0 0 := by
  rw [payload_recv]
  exact Entails.of_eq (pointsTo_congr (landed_agree m r c fd))

/-- The transfer rule at step `r + 1`'s two cells, the copy addressed to `n`, the device `r + 1` behind `c`: device `c`
    gives its block and the peer's slot at any contents, pays the peer's receive cell what it owed it, and is left
    with the send cell's credit. -/
theorem wp_send_step (K : GSem nD τ sig → ℕ) (𝒱 : Variants) (bd : Option 𝒱.V) {Γ : PendingWaitsCtx sig Unit}
    (r : Fin 7) (c n : Dev nD) (hn : n = bwd (r.val + 1) c)
    {hsc : (rslot r.succ : Memref sig (Dev.tc n : Thread nD τ).2.kind .vmem S1024x1024 .bf16).view.ref.isScScratch = false}
    {hsrc : (xblk16 r c).view.WordExact}
    {hdst : (rslot r.succ : Memref sig .tc .vmem S1024x1024 .bf16).view.WordExact}
    {hsem : DmaTarget.Typed .hbm (.dma (recvSem r))
      (.remote (Dev.tc n : Thread nD τ) (rslot r.succ : Memref sig .tc .vmem S1024x1024 .bf16) (.dma (sendSem r)) hsc)}
    {α : Type} {Q : α → sProp 𝕄} {k : PUnit → Prog (TpuEff nD τ sig (Elt F) Λ₀ .tc) α}
    (fd : Buf (Elt F) ((rslot r.succ : Memref sig .tc .vmem S1024x1024 .bf16).view.loc (bwd (r.val + 1) c : Thread nD τ)))
    {O₀' : CellTallies nD τ sig Unit} (O : CellTallies nD τ sig Unit)
    (hO : O₀' = O + tallyAt (recvCell r (bwd (r.val + 1) c)) () N) (W : Waits sig Unit) {Es : Set ℕ} :
    iprop(cellInv ER (sched (F := F) m) (K (sendCell r c)) (sendCell r c)
        ∗ cellInv ER (sched (F := F) m) (K (recvCell r (bwd (r.val + 1) c))) (recvCell r (bwd (r.val + 1) c))
        ∗ ((xblk16 r c).view.loc (c : Thread nD τ) ↦[(xblk16 r c).view.set]{fullShare} x16full m c)
        ∗ ((rslot r.succ : Memref sig .tc .vmem S1024x1024 .bf16).view.loc (bwd (r.val + 1) c : Thread nD τ)
            ↦[(rslot r.succ : Memref sig .tc .vmem S1024x1024 .bf16).view.set]{fullShare} fd)
        ∗ owes (c : Thread nD τ) O₀' W
        ∗ dutyTok ER (sendCell r c) 0 (0 : Fin 7) ∗ reached ER (sendCell r c) 0
        ∗ dutyTok ER (recvCell r (bwd (r.val + 1) c)) 0 (0 : Fin 7) ∗ reached ER (recvCell r (bwd (r.val + 1) c)) 0)
      ⊢ iprop(((cred (tallyAt (sendCell r c) () N) ∗ owes (c : Thread nD τ) O W)
            -∗ wp frame (wpE' (defs₀ (F := F)) 𝒱 (c : Thread nD τ) bd Γ) Es (k ⟨⟩) Q)
          -∗ wp frame (wpE' (defs₀ (F := F)) 𝒱 (c : Thread nD τ) bd Γ) Es
              (.op (.enqueueDma (xblk16 r c) (.remote (Dev.tc n : Thread nD τ) (rslot r.succ) (.dma (sendSem r)) hsc)
                (.dma (recvSem r)) hsrc hdst hsem) k) Q) := by
  subst hn
  exact Rounds.wp_send_pointsTo 𝒱 ER (sched (F := F) m) (c : Thread nD τ) bd
    (c' := (bwd (r.val + 1) c : Thread nD τ)) (src := xblk16 r c) (dst := rslot r.succ) (q := fullShare)
    (fs := x16full m c) (fd := fd) (κ₁ := K (sendCell r c)) (κ₂ := K (recvCell r (bwd (r.val + 1) c)))
    (r₁ := 0) (r₂ := 0) (d₁ := (0 : Fin 7)) (d₂ := (0 : Fin 7))
    (by rw [duties_send]; exact Finset.mem_singleton_self _) (by rw [duties_recv]; exact Finset.mem_singleton_self _)
    () () N rfl (amount_send m c r 0) (amount_recv m (bwd (r.val + 1) c) r 0) O hO (W := W)
    (Entails.of_eq (payload_send m c r 0).symm)
    (recv_pay_of_landed m r c fd)

end Cert.KernelIdeal.A2A

/-- info: 'Cert.KernelIdeal.A2A.wp_send_step' depends on axioms: [propext, Classical.choice, Quot.sound] -/
#guard_msgs in #print axioms Cert.KernelIdeal.A2A.wp_send_step
/-- info: 'Cert.KernelIdeal.A2A.landed_agree' depends on axioms: [propext, Classical.choice, Quot.sound] -/
#guard_msgs in #print axioms Cert.KernelIdeal.A2A.landed_agree
-- ==== Proof.Convert.lean ====
/-
  The contents a buffer holds just before it leaves the device, restated as the schedule names them. The device's own
  row block of `x`, narrowed to bf16 and stored into receive slot 0, is that slot's final contents; a narrowed row
  block written into the bf16 copy of `x` at the rows of the device `r + 1` behind is the whole narrowed array there.
-/
import proofs.«900489_g7700000000000490_dist_a2a_gemm_m8192_k8192_n4096_f32_gelu_v7x_i8_1_alg».proof.Proof.SendStep
import proofs.«900489_g7700000000000490_dist_a2a_gemm_m8192_k8192_n4096_f32_gelu_v7x_i8_1_alg».proof.Proof.SrcBlocks
import proofs.«900489_g7700000000000490_dist_a2a_gemm_m8192_k8192_n4096_f32_gelu_v7x_i8_1_alg».proof.Proof.Views
import Idealize.ShloMosaic.Lib.Writes

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The narrowing, at an entry -/

/-- A `[1,1024,1024]` block cast to a matrix, narrowed, and cast back: entry `(u, ρ, κ)` is the narrowing of the
    block's entry `(0, ρ, κ)`. -/
theorem castTruncF_apply (v : FVec F S1x1024x1024 .f32) (u : Fin 1) (ρ κ : Fin 1024) :
    shapeCast S1x1024x1024 (truncf .bf16 (shapeCast S1024x1024 v shapeCasts_S1x1024x1024_S1024x1024) bitsLt_bf16_f32)
      shapeCasts_S1024x1024_S1x1024x1024 (ix3 u ρ κ) = FloatOps.truncf .bf16 bitsLt_bf16_f32 (v (ix3 (0 : Fin 1) ρ κ)) := by
  rw [shapeCast_ab_1ab_apply]
  show FloatOps.truncf .bf16 bitsLt_bf16_f32 (shapeCast S1024x1024 v shapeCasts_S1x1024x1024_S1024x1024 (ix2 ρ κ)) = _
  rw [shapeCast_1ab_ab_apply]

theorem pay1F_apply (v : Vec F S1x1024x1024 .f32) (u : Fin 1) (ρ κ : Fin 1024) :
    k0_pay1 v (ix3 u ρ κ) = FloatOps.truncf .bf16 bitsLt_bf16_f32 (v (ix3 (0 : Fin 1) ρ κ)) := castTruncF_apply v u ρ κ
theorem pay2F_apply (v : Vec F S1x1024x1024 .f32) (u : Fin 1) (ρ κ : Fin 1024) :
    k0_pay2 v (ix3 u ρ κ) = FloatOps.truncf .bf16 bitsLt_bf16_f32 (v (ix3 (0 : Fin 1) ρ κ)) := castTruncF_apply v u ρ κ
theorem pay3F_apply (v : Vec F S1x1024x1024 .f32) (u : Fin 1) (ρ κ : Fin 1024) :
    k0_pay3 v (ix3 u ρ κ) = FloatOps.truncf .bf16 bitsLt_bf16_f32 (v (ix3 (0 : Fin 1) ρ κ)) := castTruncF_apply v u ρ κ
theorem pay6F_apply (v : Vec F S1x1024x1024 .f32) (u : Fin 1) (ρ κ : Fin 1024) :
    k0_pay6 v (ix3 u ρ κ) = FloatOps.truncf .bf16 bitsLt_bf16_f32 (v (ix3 (0 : Fin 1) ρ κ)) := castTruncF_apply v u ρ κ
theorem pay7F_apply (v : Vec F S1x1024x1024 .f32) (u : Fin 1) (ρ κ : Fin 1024) :
    k0_pay7 v (ix3 u ρ κ) = FloatOps.truncf .bf16 bitsLt_bf16_f32 (v (ix3 (0 : Fin 1) ρ κ)) := castTruncF_apply v u ρ κ
theorem pay8F_apply (v : Vec F S1x1024x1024 .f32) (u : Fin 1) (ρ κ : Fin 1024) :
    k0_pay8 v (ix3 u ρ κ) = FloatOps.truncf .bf16 bitsLt_bf16_f32 (v (ix3 (0 : Fin 1) ρ κ)) := castTruncF_apply v u ρ κ
theorem pay9F_apply (v : Vec F S1x1024x1024 .f32) (u : Fin 1) (ρ κ : Fin 1024) :
    k0_pay9 v (ix3 u ρ κ) = FloatOps.truncf .bf16 bitsLt_bf16_f32 (v (ix3 (0 : Fin 1) ρ κ)) := castTruncF_apply v u ρ κ
/-- The fourth step's narrowing is carried as a matrix and given its unit axis by a second payload. -/
theorem pay4F_apply (v : Vec F S1x1024x1024 .f32) (ρ κ : Fin 1024) :
    k0_pay4 v (ix2 ρ κ) = FloatOps.truncf .bf16 bitsLt_bf16_f32 (v (ix3 (0 : Fin 1) ρ κ)) := by
  show FloatOps.truncf .bf16 bitsLt_bf16_f32 (shapeCast S1024x1024 v shapeCasts_S1x1024x1024_S1024x1024 (ix2 ρ κ)) = _
  rw [shapeCast_1ab_ab_apply]
theorem pay5F_apply (v : FVec F S1024x1024 .bf16) (u : Fin 1) (ρ κ : Fin 1024) :
    k0_pay5 v (ix3 u ρ κ) = v (ix2 ρ κ) := by
  show shapeCast S1x1024x1024 v shapeCasts_S1024x1024_S1x1024x1024 (ix3 u ρ κ) = _
  rw [shapeCast_ab_1ab_apply]
theorem pay54F_apply (v : Vec F S1x1024x1024 .f32) (u : Fin 1) (ρ κ : Fin 1024) :
    k0_pay5 (k0_pay4 v) (ix3 u ρ κ) = FloatOps.truncf .bf16 bitsLt_bf16_f32 (v (ix3 (0 : Fin 1) ρ κ)) := by
  rw [pay5F_apply, pay4F_apply]

/-- The narrowed array at an entry is the narrowing of the array's entry. -/
theorem x16full_apply (c : Dev nD) (j : S8192x1024.Idx) :
    x16full m c j = FloatOps.truncf .bf16 bitsLt_bf16_f32 (xin m c j) := rfl

/-! ## Receive slot 0: the device's own rows -/

/-- Where the whole receive buffer's rectangle of slot 0 places its entry `(0, ρ, κ)`. -/
theorem acc0_emb (ρ κ : Fin 1024) :
    ((Memref.whole cc0_scratch0 : Memref sig .tc .vmem S8x1024x1024 .bf16).access
        (Rect.unit (s := S8x1024x1024) ![0, 0, 0] S1x1024x1024.size inb_S8x1024x1024_S1x1024x1024_0_0_0)).emb (ix3 (0 : Fin 1) ρ κ)
      = (ix3 (0 : Fin 8) ρ κ : S8x1024x1024.Idx) := by
  show (Rect.unit (s := S8x1024x1024) ![0, 0, 0] S1x1024x1024.size inb_S8x1024x1024_S1x1024x1024_0_0_0).emb (ix3 (0 : Fin 1) ρ κ) = _
  funext a
  apply Fin.ext
  rw [Rect.emb_apply]
  match a with
  | ⟨0, _⟩ => simp
  | ⟨1, _⟩ => simp
  | ⟨2, _⟩ => simp

/-- The device's own row block of `x`, narrowed and stored into receive slot 0, is what that slot holds in the end. -/
theorem slot0_convert (c : Dev nD) (fr : Buf (Elt F) ((c : Thread nD τ).loc cc0_scratch0)) (v : Vec F S1x1024x1024 .f32)
    (hv : ∀ (ρ κ : Fin 1024), v (ix3 (0 : Fin 1) ρ κ) = xin m c (ix2 (⟨1024 * c.val + ρ.val, own_row_lt c ρ⟩ : Fin 8192) κ)) :
    (((rslot 0 : Memref sig .tc .vmem S1024x1024 .bf16).view.loc (c : Thread nD τ)
        ↦[(rslot 0 : Memref sig .tc .vmem S1024x1024 .bf16).view.set]{fullShare}
          View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr (k0_pay1 v) Finset.univ) : sProp 𝕄)
      ⊢ ((rslot 0 : Memref sig .tc .vmem S1024x1024 .bf16).view.loc (c : Thread nD τ)
          ↦[(rslot 0 : Memref sig .tc .vmem S1024x1024 .bf16).view.set]{fullShare} recvFull m c) := by
  refine Entails.of_eq (pointsTo_congr fun i hi => ?_)
  obtain ⟨y, rfl⟩ := View.exists_emb_of_mem_set _ hi
  obtain ⟨ρ, κ, rfl⟩ : ∃ ρ κ : Fin 1024, y = ix2 ρ κ := ⟨y 0, y 1, eq_ix2 y⟩
  rw [rslot_emb, ← acc0_emb, View.write_emb_of_mem _ _ (Finset.mem_univ _), acc0_emb, pay1F_apply, hv]
  show _ = x16full m (fwd 0 c) (ix2 (⟨1024 * c.val + ρ.val, own_row_lt c ρ⟩ : Fin 8192) (⟨κ.val, κ.isLt⟩ : Fin 1024))
  rw [x16full_congr m (fwd_zero c), x16full_apply]
  exact cast_eq _ _

/-! ## The bf16 copy's block of step `r + 1`, before it is sent -/

/-- Contents that agree with the narrowed array on the block's entries hold the block as the narrowed array does. -/
theorem x16_agree (r : Fin 7) (c : Dev nD) (g : Buf (Elt F) ((c : Thread nD τ).loc main_v1_1))
    (hg : ∀ ρ κ : Fin 1024, g ((xblk16 r c).view.emb (ix2 ρ κ)) = x16full m c ((xblk16 r c).view.emb (ix2 ρ κ))) :
    (((xblk16 r c).view.loc (c : Thread nD τ) ↦[(xblk16 r c).view.set]{fullShare} g) : sProp 𝕄)
      ⊢ ((xblk16 r c).view.loc (c : Thread nD τ) ↦[(xblk16 r c).view.set]{fullShare} x16full m c) := by
  refine Entails.of_eq (pointsTo_congr fun i hi => ?_)
  obtain ⟨y, rfl⟩ := View.exists_emb_of_mem_set _ hi
  obtain ⟨ρ, κ, rfl⟩ : ∃ ρ κ : Fin 1024, y = ix2 ρ κ := ⟨y 0, y 1, eq_ix2 y⟩
  exact hg ρ κ

/-- The block written through its own view with the narrowed rows of the device `r + 1` behind. -/
theorem x16_convert_write (r : Fin 7) (c : Dev nD) (f : Buf (Elt F) ((c : Thread nD τ).loc main_v1_1)) (w : Vec F S1024x1024 .bf16)
    (hw : ∀ ρ κ : Fin 1024, w (ix2 ρ κ) = x16full m c (ix2 (⟨1024 * (bwd (1 + r.val) c).val + ρ.val, bwd_row_lt _ c ρ⟩ : Fin 8192) κ)) :
    (((xblk16 r c).view.loc (c : Thread nD τ) ↦[(xblk16 r c).view.set]{fullShare} (xblk16 r c).view.write (Elt F) f w Finset.univ) : sProp 𝕄)
      ⊢ ((xblk16 r c).view.loc (c : Thread nD τ) ↦[(xblk16 r c).view.set]{fullShare} x16full m c) := by
  refine x16_agree m r c _ fun ρ κ => ?_
  rw [View.write_emb_of_mem _ _ (Finset.mem_univ _), hw, xblk16_emb]
  exact cast_eq _ _

/-- The same, the write named as the one piece through the block's whole rectangle. -/
theorem x16_convert_writes (r : Fin 7) (c : Dev nD) (f : Buf (Elt F) ((c : Thread nD τ).loc main_v1_1)) (w : Vec F S1024x1024 .bf16)
    (hw : ∀ ρ κ : Fin 1024, w (ix2 ρ κ) = x16full m c (ix2 (⟨1024 * (bwd (1 + r.val) c).val + ρ.val, bwd_row_lt _ c ρ⟩ : Fin 8192) κ)) :
    (((xblk16 r c).view.loc (c : Thread nD τ) ↦[(xblk16 r c).view.set]{fullShare}
        (xblk16 r c).view.writes (Elt F) f [⟨Rect.whole S1024x1024, w⟩]) : sProp 𝕄)
      ⊢ ((xblk16 r c).view.loc (c : Thread nD τ) ↦[(xblk16 r c).view.set]{fullShare} x16full m c) := by
  refine x16_agree m r c _ fun ρ κ => ?_
  have he : (xblk16 r c).view.emb (ix2 ρ κ) = ((xblk16 r c).view.slice (Rect.whole S1024x1024)).emb (ix2 ρ κ) := by
    show _ = (xblk16 r c).view.emb ((Rect.whole S1024x1024).emb (ix2 ρ κ))
    rw [Rect.emb_whole_apply]
  rw [View.writes_singleton]
  conv_lhs => rw [he, View.write_emb_of_mem _ _ (Finset.mem_univ _)]
  rw [hw, xblk16_emb]
  exact cast_eq _ _

end Cert.KernelIdeal.A2A

/-- info: 'Cert.KernelIdeal.A2A.slot0_convert' depends on axioms: [propext, Classical.choice, Quot.sound] -/
#guard_msgs in #print axioms Cert.KernelIdeal.A2A.slot0_convert
/-- info: 'Cert.KernelIdeal.A2A.x16_convert_writes' depends on axioms: [propext, Classical.choice, Quot.sound] -/
#guard_msgs in #print axioms Cert.KernelIdeal.A2A.x16_convert_writes
/-- info: 'Cert.KernelIdeal.A2A.x16_convert_write' depends on axioms: [propext, Classical.choice, Quot.sound] -/
#guard_msgs in #print axioms Cert.KernelIdeal.A2A.x16_convert_write
-- ==== Proof.Chain.lean ====
/-
  The contents the run leaves in receive slot 0 and in the bf16 copy's block of each step, as the stores and copies
  write them one over another, restated as the schedule names them. A load of a staging plane's low window reads the
  newest whole-window write; a read of a bf16 staging plane reads the newest store through that plane's rectangle;
  whatever was written before does not matter.
-/
import proofs.«900489_g7700000000000490_dist_a2a_gemm_m8192_k8192_n4096_f32_gelu_v7x_i8_1_alg».proof.Proof.Convert

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## A staging plane's low window, loaded after whole-window writes -/

/-- A load through the whole f32 staging buffer at plane `b`'s low window reads what the plane's view reads. -/
theorem readAt_lo_eq_read (b : Fin 2) (G : (Memref.whole cc0_scratch1 : Memref sig .tc .vmem S2x1024x2048 .f32).view.ty.Contents (Elt F))
    (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect G (ix3 (0 : Fin 1) ρ κ)
      = (vlo b).view.read (Elt F) G (ix2 ρ κ) := by
  rw [View.readAt_apply, View.read_apply, View.read_apply, lo_idx, vlo_emb]
  rfl

/-- … so after writes the newest of which fills the window with `w`, it reads `w (ρ, κ)` at `(0, ρ, κ)`. -/
theorem lo_load_cons (b : Fin 2) (jv : (Memref.whole cc0_scratch1 : Memref sig .tc .vmem S2x1024x2048 .f32).view.ty.Contents (Elt F))
    (w : Vec F S1024x1024 .f32) (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024, w⟩ :: Lv)) (ix3 (0 : Fin 1) ρ κ)
      = w (ix2 ρ κ) := by
  rw [readAt_lo_eq_read]
  have h := View.read_writes_cons_emb (vlo b).view jv (Rect.whole S1024x1024) w Lv (ix2 ρ κ)
  rw [Rect.emb_whole_apply] at h
  exact h

theorem lo_load_own_cons (b : Fin 2) (c : Dev nD)
    (jv : (Memref.whole cc0_scratch1 : Memref sig .tc .vmem S2x1024x2048 .f32).view.ty.Contents (Elt F))
    (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024,
          ReadAs.same.apply ((xsrc0 c).view.read (Elt F) (m ((c : Thread nD τ).loc main_arg0)))⟩ :: Lv)) (ix3 (0 : Fin 1) ρ κ)
      = xin m c (ix2 (⟨1024 * c.val + ρ.val, own_row_lt c ρ⟩ : Fin 8192) κ) := by
  rw [lo_load_cons]
  exact xsrc0_read m c ρ κ

theorem lo_load_step_cons (b : Fin 2) (r : Fin 7) (c : Dev nD)
    (jv : (Memref.whole cc0_scratch1 : Memref sig .tc .vmem S2x1024x2048 .f32).view.ty.Contents (Elt F))
    (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024,
          ReadAs.same.apply ((xsrc r c).view.read (Elt F) (m ((c : Thread nD τ).loc main_arg0)))⟩ :: Lv)) (ix3 (0 : Fin 1) ρ κ)
      = xin m c (ix2 (⟨1024 * (bwd (1 + r.val) c).val + ρ.val, bwd_row_lt _ c ρ⟩ : Fin 8192) κ) := by
  rw [lo_load_cons]
  exact xsrc_read m r c ρ κ

/-! ## Receive slot 0 -/

/-- Receive slot 0 as the run leaves it: the own rows, copied into plane 0's low window (over whatever was written there
    before), loaded, narrowed and stored. -/
theorem slot0_step (c : Dev nD) (fr : Buf (Elt F) ((c : Thread nD τ).loc cc0_scratch0))
    (jv : (Memref.whole cc0_scratch1 : Memref sig .tc .vmem S2x1024x2048 .f32).view.ty.Contents (Elt F))
    (Lv : List (View.Piece (Elt F) S1024x1024 .f32)) :
    (((rslot 0 : Memref sig .tc .vmem S1024x1024 .bf16).view.loc (c : Thread nD τ)
        ↦[(rslot 0 : Memref sig .tc .vmem S1024x1024 .bf16).view.set]{fullShare}
          View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr
            (k0_pay1 ((Memref.whole cc0_scratch1 : Memref sig .tc .vmem S2x1024x2048 .f32).view.readAt (Elt F)
              (Rect.unit (s := S2x1024x2048) ![0, 0, 0] S1x1024x1024.size inb_S2x1024x2048_S1x1024x1024_0_0_0).toLoadRect
              ((vlo 0).view.writes (Elt F) jv (⟨Rect.whole S1024x1024,
                ReadAs.same.apply ((xsrc0 c).view.read (Elt F) (m ((c : Thread nD τ).loc main_arg0)))⟩ :: Lv)))) Finset.univ) : sProp 𝕄)
      ⊢ ((rslot 0 : Memref sig .tc .vmem S1024x1024 .bf16).view.loc (c : Thread nD τ)
          ↦[(rslot 0 : Memref sig .tc .vmem S1024x1024 .bf16).view.set]{fullShare} recvFull m c) :=
  slot0_convert m c fr _ (lo_load_own_cons m 0 c jv Lv)

/-! ## The bf16 staging plane, read after stores through the whole buffer -/

/-- Where plane `b`'s rectangle of the bf16 staging buffer places its entry `(0, ρ, κ)`. -/
theorem cp_rect_emb (b : Fin 2) (ρ κ : Fin 1024) :
    (Rect.unit (s := S2x1024x1024) ![b.val, 0, 0] S1x1024x1024.size (cp_inb b)).emb (ix3 (0 : Fin 1) ρ κ)
      = (ix3 b ρ κ : S2x1024x1024.Idx) := by
  funext a
  apply Fin.ext
  rw [Rect.emb_apply]
  match a with
  | ⟨0, _⟩ => simp
  | ⟨1, _⟩ => simp
  | ⟨2, _⟩ => simp

/-- The whole bf16 staging buffer's view reads its contents. -/
theorem read_whole_c16 (G : (Memref.whole cc0_scratch2 : Memref sig .tc .vmem S2x1024x1024 .bf16).view.ty.Contents (Elt F))
    (y : S2x1024x1024.Idx) :
    (Memref.whole cc0_scratch2 : Memref sig .tc .vmem S2x1024x1024 .bf16).view.read (Elt F) G y = G y := rfl

/-- Plane `b` read after stores through the whole buffer, the newest of which stores `p` at the plane's rectangle. -/
theorem c16_read_cons (b : Fin 2) (fc : (Memref.whole cc0_scratch2 : Memref sig .tc .vmem S2x1024x1024 .bf16).view.ty.Contents (Elt F))
    (p : FVec F S1x1024x1024 .bf16) (Lc : List (View.Piece (Elt F) S2x1024x1024 .bf16)) (ρ κ : Fin 1024) :
    (cpl b).view.read (Elt F) ((Memref.whole cc0_scratch2 : Memref sig .tc .vmem S2x1024x1024 .bf16).view.writes (Elt F) fc
        (⟨Rect.unit (s := S2x1024x1024) ![b.val, 0, 0] S1x1024x1024.size (cp_inb b), p⟩ :: Lc)) (ix2 ρ κ)
      = p (ix3 (0 : Fin 1) ρ κ) := by
  have h := View.read_writes_cons_emb (Memref.whole cc0_scratch2 : Memref sig .tc .vmem S2x1024x1024 .bf16).view fc
    (Rect.unit (s := S2x1024x1024) ![b.val, 0, 0] S1x1024x1024.size (cp_inb b)) p Lc (ix3 (0 : Fin 1) ρ κ)
  rw [read_whole_c16, cp_rect_emb] at h
  rw [cpl_read]
  exact h

/-! ## The block of step `r + 1` before its send -/

/-- The block's contents as the run leaves them: the rows of step `r + 1` copied into plane `b`'s low window, loaded,
    narrowed by the payload `P`, stored into plane `b` of the bf16 staging buffer, and that plane copied into the block. -/
abbrev blkWritten (r : Fin 7) (b : Fin 2) (c : Dev nD) (P : Vec F S1x1024x1024 .f32 → FVec F S1x1024x1024 .bf16)
    (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    Buf (Elt F) ((c : Thread nD τ).loc main_v1_1) :=
  (xblk16 r c).view.writes (Elt F) f16 [⟨Rect.whole S1024x1024,
    ReadAs.same.apply ((cpl b).view.read (Elt F) ((Memref.whole cc0_scratch2 : Memref sig .tc .vmem S2x1024x1024 .bf16).view.writes (Elt F) fc
      (⟨Rect.unit (s := S2x1024x1024) ![b.val, 0, 0] S1x1024x1024.size (cp_inb b),
        P ((Memref.whole cc0_scratch1 : Memref sig .tc .vmem S2x1024x2048 .f32).view.readAt (Elt F)
          (Rect.unit (s := S2x1024x2048) ![b.val, 0, 0] S1x1024x1024.size (lo_inb b)).toLoadRect
          ((vlo b).view.writes (Elt F) jv (⟨Rect.whole S1024x1024,
            ReadAs.same.apply ((xsrc r c).view.read (Elt F) (m ((c : Thread nD τ).loc main_arg0)))⟩ :: Lv)))⟩ :: Lc)))⟩]

/-- It holds the narrowed array. -/
theorem x16_step (r : Fin 7) (b : Fin 2) (c : Dev nD) (P : Vec F S1x1024x1024 .f32 → FVec F S1x1024x1024 .bf16)
    (hP : ∀ (v : Vec F S1x1024x1024 .f32) (ρ κ : Fin 1024),
      P v (ix3 (0 : Fin 1) ρ κ) = FloatOps.truncf .bf16 bitsLt_bf16_f32 (v (ix3 (0 : Fin 1) ρ κ)))
    (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 r c).view.loc (c : Thread nD τ) ↦[(xblk16 r c).view.set]{fullShare} blkWritten m r b c P f16 fc jv Lv Lc) : sProp 𝕄)
      ⊢ ((xblk16 r c).view.loc (c : Thread nD τ) ↦[(xblk16 r c).view.set]{fullShare} x16full m c) := by
  refine x16_convert_writes m r c f16 _ fun ρ κ => ?_
  show (cpl b).view.read (Elt F) _ (ix2 ρ κ) = _
  rw [c16_read_cons, hP, lo_load_step_cons, x16full_apply]

/-! The seven steps: the plane alternates, starting at 1; the third step's narrowing is carried as a matrix. -/

theorem x16_step1 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 0 c).view.loc (c : Thread nD τ) ↦[(xblk16 0 c).view.set]{fullShare} blkWritten m 0 1 c k0_pay2 f16 fc jv Lv Lc) : sProp 𝕄)
      ⊢ ((xblk16 0 c).view.loc (c : Thread nD τ) ↦[(xblk16 0 c).view.set]{fullShare} x16full m c) :=
  x16_step m 0 1 c k0_pay2 (fun v ρ κ => pay2F_apply v 0 ρ κ) f16 fc jv Lv Lc
theorem x16_step2 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 1 c).view.loc (c : Thread nD τ) ↦[(xblk16 1 c).view.set]{fullShare} blkWritten m 1 0 c k0_pay3 f16 fc jv Lv Lc) : sProp 𝕄)
      ⊢ ((xblk16 1 c).view.loc (c : Thread nD τ) ↦[(xblk16 1 c).view.set]{fullShare} x16full m c) :=
  x16_step m 1 0 c k0_pay3 (fun v ρ κ => pay3F_apply v 0 ρ κ) f16 fc jv Lv Lc
theorem x16_step3 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 2 c).view.loc (c : Thread nD τ) ↦[(xblk16 2 c).view.set]{fullShare}
        blkWritten m 2 1 c (fun v => k0_pay5 (k0_pay4 v)) f16 fc jv Lv Lc) : sProp 𝕄)
      ⊢ ((xblk16 2 c).view.loc (c : Thread nD τ) ↦[(xblk16 2 c).view.set]{fullShare} x16full m c) :=
  x16_step m 2 1 c (fun v => k0_pay5 (k0_pay4 v)) (fun v ρ κ => pay54F_apply v 0 ρ κ) f16 fc jv Lv Lc
theorem x16_step4 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 3 c).view.loc (c : Thread nD τ) ↦[(xblk16 3 c).view.set]{fullShare} blkWritten m 3 0 c k0_pay6 f16 fc jv Lv Lc) : sProp 𝕄)
      ⊢ ((xblk16 3 c).view.loc (c : Thread nD τ) ↦[(xblk16 3 c).view.set]{fullShare} x16full m c) :=
  x16_step m 3 0 c k0_pay6 (fun v ρ κ => pay6F_apply v 0 ρ κ) f16 fc jv Lv Lc
theorem x16_step5 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 4 c).view.loc (c : Thread nD τ) ↦[(xblk16 4 c).view.set]{fullShare} blkWritten m 4 1 c k0_pay7 f16 fc jv Lv Lc) : sProp 𝕄)
      ⊢ ((xblk16 4 c).view.loc (c : Thread nD τ) ↦[(xblk16 4 c).view.set]{fullShare} x16full m c) :=
  x16_step m 4 1 c k0_pay7 (fun v ρ κ => pay7F_apply v 0 ρ κ) f16 fc jv Lv Lc
theorem x16_step6 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 5 c).view.loc (c : Thread nD τ) ↦[(xblk16 5 c).view.set]{fullShare} blkWritten m 5 0 c k0_pay8 f16 fc jv Lv Lc) : sProp 𝕄)
      ⊢ ((xblk16 5 c).view.loc (c : Thread nD τ) ↦[(xblk16 5 c).view.set]{fullShare} x16full m c) :=
  x16_step m 5 0 c k0_pay8 (fun v ρ κ => pay8F_apply v 0 ρ κ) f16 fc jv Lv Lc
theorem x16_step7 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 6 c).view.loc (c : Thread nD τ) ↦[(xblk16 6 c).view.set]{fullShare} blkWritten m 6 1 c k0_pay9 f16 fc jv Lv Lc) : sProp 𝕄)
      ⊢ ((xblk16 6 c).view.loc (c : Thread nD τ) ↦[(xblk16 6 c).view.set]{fullShare} x16full m c) :=
  x16_step m 6 1 c k0_pay9 (fun v ρ κ => pay9F_apply v 0 ρ κ) f16 fc jv Lv Lc

/-! ## The same, the contents named by a variable with its defining equation -/

theorem slot0_step' (c : Dev nD) (g fr : Buf (Elt F) ((c : Thread nD τ).loc cc0_scratch0))
    (jv : (Memref.whole cc0_scratch1 : Memref sig .tc .vmem S2x1024x2048 .f32).view.ty.Contents (Elt F))
    (Lv : List (View.Piece (Elt F) S1024x1024 .f32))
    (hg : g = View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr
            (k0_pay1 ((Memref.whole cc0_scratch1 : Memref sig .tc .vmem S2x1024x2048 .f32).view.readAt (Elt F)
              (Rect.unit (s := S2x1024x2048) ![0, 0, 0] S1x1024x1024.size inb_S2x1024x2048_S1x1024x1024_0_0_0).toLoadRect
              ((vlo 0).view.writes (Elt F) jv (⟨Rect.whole S1024x1024,
                ReadAs.same.apply ((xsrc0 c).view.read (Elt F) (m ((c : Thread nD τ).loc main_arg0)))⟩ :: Lv)))) Finset.univ) :
    (((rslot 0 : Memref sig .tc .vmem S1024x1024 .bf16).view.loc (c : Thread nD τ)
        ↦[(rslot 0 : Memref sig .tc .vmem S1024x1024 .bf16).view.set]{fullShare} g) : sProp 𝕄)
      ⊢ ((rslot 0 : Memref sig .tc .vmem S1024x1024 .bf16).view.loc (c : Thread nD τ)
          ↦[(rslot 0 : Memref sig .tc .vmem S1024x1024 .bf16).view.set]{fullShare} recvFull m c) := by
  subst hg; exact slot0_step m c fr jv Lv

theorem x16_step' (r : Fin 7) (b : Fin 2) (c : Dev nD) (P : Vec F S1x1024x1024 .f32 → FVec F S1x1024x1024 .bf16)
    (hP : ∀ (v : Vec F S1x1024x1024 .f32) (ρ κ : Fin 1024),
      P v (ix3 (0 : Fin 1) ρ κ) = FloatOps.truncf .bf16 bitsLt_bf16_f32 (v (ix3 (0 : Fin 1) ρ κ)))
    (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m r b c P f16 fc jv Lv Lc) :
    (((xblk16 r c).view.loc (c : Thread nD τ) ↦[(xblk16 r c).view.set]{fullShare} g) : sProp 𝕄)
      ⊢ ((xblk16 r c).view.loc (c : Thread nD τ) ↦[(xblk16 r c).view.set]{fullShare} x16full m c) := by
  subst hg; exact x16_step m r b c P hP f16 fc jv Lv Lc

theorem x16_step1' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 0 1 c k0_pay2 f16 fc jv Lv Lc) :
    (((xblk16 0 c).view.loc (c : Thread nD τ) ↦[(xblk16 0 c).view.set]{fullShare} g) : sProp 𝕄)
      ⊢ ((xblk16 0 c).view.loc (c : Thread nD τ) ↦[(xblk16 0 c).view.set]{fullShare} x16full m c) :=
  x16_step' m 0 1 c k0_pay2 (fun v ρ κ => pay2F_apply v 0 ρ κ) g f16 fc jv Lv Lc hg
theorem x16_step2' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 1 0 c k0_pay3 f16 fc jv Lv Lc) :
    (((xblk16 1 c).view.loc (c : Thread nD τ) ↦[(xblk16 1 c).view.set]{fullShare} g) : sProp 𝕄)
      ⊢ ((xblk16 1 c).view.loc (c : Thread nD τ) ↦[(xblk16 1 c).view.set]{fullShare} x16full m c) :=
  x16_step' m 1 0 c k0_pay3 (fun v ρ κ => pay3F_apply v 0 ρ κ) g f16 fc jv Lv Lc hg
theorem x16_step3' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 2 1 c (fun v => k0_pay5 (k0_pay4 v)) f16 fc jv Lv Lc) :
    (((xblk16 2 c).view.loc (c : Thread nD τ) ↦[(xblk16 2 c).view.set]{fullShare} g) : sProp 𝕄)
      ⊢ ((xblk16 2 c).view.loc (c : Thread nD τ) ↦[(xblk16 2 c).view.set]{fullShare} x16full m c) :=
  x16_step' m 2 1 c (fun v => k0_pay5 (k0_pay4 v)) (fun v ρ κ => pay54F_apply v 0 ρ κ) g f16 fc jv Lv Lc hg
theorem x16_step4' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 3 0 c k0_pay6 f16 fc jv Lv Lc) :
    (((xblk16 3 c).view.loc (c : Thread nD τ) ↦[(xblk16 3 c).view.set]{fullShare} g) : sProp 𝕄)
      ⊢ ((xblk16 3 c).view.loc (c : Thread nD τ) ↦[(xblk16 3 c).view.set]{fullShare} x16full m c) :=
  x16_step' m 3 0 c k0_pay6 (fun v ρ κ => pay6F_apply v 0 ρ κ) g f16 fc jv Lv Lc hg
theorem x16_step5' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 4 1 c k0_pay7 f16 fc jv Lv Lc) :
    (((xblk16 4 c).view.loc (c : Thread nD τ) ↦[(xblk16 4 c).view.set]{fullShare} g) : sProp 𝕄)
      ⊢ ((xblk16 4 c).view.loc (c : Thread nD τ) ↦[(xblk16 4 c).view.set]{fullShare} x16full m c) :=
  x16_step' m 4 1 c k0_pay7 (fun v ρ κ => pay7F_apply v 0 ρ κ) g f16 fc jv Lv Lc hg
theorem x16_step6' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 5 0 c k0_pay8 f16 fc jv Lv Lc) :
    (((xblk16 5 c).view.loc (c : Thread nD τ) ↦[(xblk16 5 c).view.set]{fullShare} g) : sProp 𝕄)
      ⊢ ((xblk16 5 c).view.loc (c : Thread nD τ) ↦[(xblk16 5 c).view.set]{fullShare} x16full m c) :=
  x16_step' m 5 0 c k0_pay8 (fun v ρ κ => pay8F_apply v 0 ρ κ) g f16 fc jv Lv Lc hg
theorem x16_step7' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 6 1 c k0_pay9 f16 fc jv Lv Lc) :
    (((xblk16 6 c).view.loc (c : Thread nD τ) ↦[(xblk16 6 c).view.set]{fullShare} g) : sProp 𝕄)
      ⊢ ((xblk16 6 c).view.loc (c : Thread nD τ) ↦[(xblk16 6 c).view.set]{fullShare} x16full m c) :=
  x16_step' m 6 1 c k0_pay9 (fun v ρ κ => pay9F_apply v 0 ρ κ) g f16 fc jv Lv Lc hg

end Cert.KernelIdeal.A2A

/-- info: 'Cert.KernelIdeal.A2A.slot0_step' depends on axioms: [propext, Classical.choice, Quot.sound] -/
#guard_msgs in #print axioms Cert.KernelIdeal.A2A.slot0_step
/-- info: 'Cert.KernelIdeal.A2A.x16_step' depends on axioms: [propext, Classical.choice, Quot.sound] -/
#guard_msgs in #print axioms Cert.KernelIdeal.A2A.x16_step
/-- info: 'Cert.KernelIdeal.A2A.x16_step3' depends on axioms: [propext, Classical.choice, Quot.sound] -/
#guard_msgs in #print axioms Cert.KernelIdeal.A2A.x16_step3
-- ==== Proof.GemmVals.lean ====
/-
  What the loads of the product phase read. A block of `w` lands in a plane of the f32 staging buffer as one
  write through the plane's whole rectangle; a load through the whole buffer at that plane's rectangle then reads
  the landed block, which, read at an entry, is the device's copy of `w` at the block's rows and column half:
  the block the product of that step is taken with. The receive buffer's final contents, loaded at slot `t`'s
  rectangle, are the block of `x` of step `t`.
-/
import proofs.«900489_g7700000000000490_dist_a2a_gemm_m8192_k8192_n4096_f32_gelu_v7x_i8_1_alg».proof.Proof.Views
import proofs.«900489_g7700000000000490_dist_a2a_gemm_m8192_k8192_n4096_f32_gelu_v7x_i8_1_alg».proof.Proof.SrcBlocks
import proofs.«900489_g7700000000000490_dist_a2a_gemm_m8192_k8192_n4096_f32_gelu_v7x_i8_1_alg».proof.Proof.Convert
import Idealize.ShloMosaic.Lib.Writes

noncomputable section

namespace Cert.KernelIdeal.A2A

open Cert.KernelIdeal Cert.KernelIdeal.Gen Cert.KernelIdeal.Ring8
open Idealize.ShloMosaic
open Idealize.ShloMosaic.TcCoe
open Idealize.ShloMosaic.ValueIdx

variable {F : FTy → Type} [FloatOps F]

variable (m : (ℓ : Loc nD τ sig) → Buf (Elt F) ℓ)

/-! ## What the products' loads read -/

/-- Where plane `b`, written through its whole rectangle, places its entry `(κ, jj)`. -/
theorem vful_whole_emb (b : Fin 2) (κ : Fin 1024) (jj : Fin 2048) :
    ((vful b : Memref sig .tc .vmem S1024x2048 .f32).view.slice (Rect.whole S1024x2048)).emb (ix2 κ jj) = ix3 b κ jj := by
  have h1 : ((vful b : Memref sig .tc .vmem S1024x2048 .f32).view.slice (Rect.whole S1024x2048)).emb (ix2 κ jj)
      = (vful b : Memref sig .tc .vmem S1024x2048 .f32).view.emb ((Rect.whole S1024x2048).emb (ix2 κ jj)) := rfl
  rw [h1, Rect.emb_whole_apply, vful_emb]

/-- A load through the whole staging buffer reads the contents at the rectangle's coordinate. -/
theorem readAt_scratch1_apply (R : LoadRect S2x1024x2048) (g : (Memref.whole cc0_scratch1 : Memref sig .tc .vmem S2x1024x2048 .f32).view.ty.Contents (Elt F)) (x : R.shape.Idx) :
    (Memref.whole cc0_scratch1 : Memref sig .tc .vmem S2x1024x2048 .f32).view.readAt (Elt F) R g x = g (R.idx x) := rfl

/-- A load through the whole staging buffer at plane `b`'s rectangle, after the plane was last written whole with `w`,
    reads `w`. -/
theorem readAt_vful_writes_whole (b : Fin 2) (j : (Memref.whole cc0_scratch1 : Memref sig .tc .vmem S2x1024x2048 .f32).view.ty.Contents (Elt F)) (w : Vec F S1024x2048 .f32)
    (L : List (View.Piece (Elt F) S1024x2048 .f32)) (κ : Fin 1024) (jj : Fin 2048) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, w⟩ : View.Piece (Elt F) S1024x2048 .f32) :: L))
        (ix3 (0 : Fin 1) κ jj)
      = w (ix2 κ jj) := by
  rw [readAt_scratch1_apply, View.writes_cons, ful_idx, ← vful_whole_emb, View.write_emb_of_mem _ _ (Finset.mem_univ _)]
  rfl

/-- The low half's block of `w` of step `t`, landed in plane `b` and loaded, is the block the product is taken with. -/
theorem wload0_eq (t : Fin 8) (b : Fin 2) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := by
  funext i
  obtain ⟨z, κ, jj, rfl⟩ : ∃ (z : Fin 1) (κ : Fin 1024) (jj : Fin 2048), i = ix3 z κ jj := ⟨i 0, i 1, i 2, eq_ix3 i⟩
  obtain rfl : z = 0 := Subsingleton.elim _ _
  rw [readAt_vful_writes_whole]
  exact congrFun (wsrc0_eq_Bblk m t c) (ix3 (0 : Fin 1) κ jj)

/-- The same for the high half. -/
theorem wload1_eq (t : Fin 8) (b : Fin 2) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := by
  funext i
  obtain ⟨z, κ, jj, rfl⟩ : ∃ (z : Fin 1) (κ : Fin 1024) (jj : Fin 2048), i = ix3 z κ jj := ⟨i 0, i 1, i 2, eq_ix3 i⟩
  obtain rfl : z = 0 := Subsingleton.elim _ _
  rw [readAt_vful_writes_whole]
  exact congrFun (wsrc1_eq_Bblk m t c) (ix3 (0 : Fin 1) κ jj)

/-! The same at literal planes, in the printed program's spelling. -/

theorem wload0_eq_lit0 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect
        ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := wload0_eq m t 0 c j L

theorem wload1_eq_lit0 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect
        ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := wload1_eq m t 0 c j L

theorem wload0_eq_lit1 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect
        ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := wload0_eq m t 1 c j L

theorem wload1_eq_lit1 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect
        ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := wload1_eq m t 1 c j L

/-! The receive buffer's final contents, loaded at slot `t`'s rectangle, are the block of `x` of step `t`. -/
theorem aload_eq0 (c : Dev nD) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect (recvFull m c) = Ablk m c 0 := readAt_slot_recvFull m c 0
theorem aload_eq1 (c : Dev nD) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect (recvFull m c) = Ablk m c 1 := readAt_slot_recvFull m c 1
theorem aload_eq2 (c : Dev nD) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect (recvFull m c) = Ablk m c 2 := readAt_slot_recvFull m c 2
theorem aload_eq3 (c : Dev nD) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect (recvFull m c) = Ablk m c 3 := readAt_slot_recvFull m c 3
theorem aload_eq4 (c : Dev nD) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect (recvFull m c) = Ablk m c 4 := readAt_slot_recvFull m c 4
theorem aload_eq5 (c : Dev nD) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect (recvFull m c) = Ablk m c 5 := readAt_slot_recvFull m c 5
theorem aload_eq6 (c : Dev nD) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect (recvFull m c) = Ablk m c 6 := readAt_slot_recvFull m c 6
theorem aload_eq7 (c : Dev nD) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect (recvFull m c) = Ablk m c 7 := readAt_slot_recvFull m c 7

end Cert.KernelIdeal.A2A
-- ==== Proof.OutList.lean ====
import proofs.«900489_g7700000000000490_dist_a2a_gemm_m8192_k8192_n4096_f32_gelu_v7x_i8_1_alg».proof.Proof.OutDef
import Idealize.ShloMosaic.Lib.Writes
import Idealize.ShloMosaic.Lib.Pipeline.FrameBody
import Idealize.ShloMosaic.Lib.Exec.Geometry

/-!
# The result buffer after the body's eighteen stores

The body fills its `1024 × 4096` result buffer with eighteen stores: for each of the steps 0 to 6 one
store per `2048`-column half (the running sum read back through the half's own rectangle, plus that
step's product), then at step 7 one store per `1024`-column quarter (gelu of the quarter's columns
of the running sum plus its share of the last product).  Kept as a list, newest first, each store a
rectangle and what was written through it.  A read of the buffer at column `2048 h + 1024 q + j` meets
the quarter's store first; what that store wrote is quarter `q` of half `h` of `outAt`, because every
read-back of a half returns the running sum the chain of steps defines.
-/

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The rectangles and the list -/

/-- The result buffer, whole. -/
abbrev ostg : View sig .tc .vmem S1024x4096 .f32 := (Memref.whole cc0_stg0_0 : Memref sig .tc .vmem S1024x4096 .f32).view

/-- Column half 0, columns 0 to 2047. -/
abbrev RH0 : Rect S1024x4096 := Rect.unit (s := S1024x4096) ![0, 0] S1024x2048.size inb_S1024x4096_S1024x2048_0_0
/-- Column half 1, columns 2048 to 4095. -/
abbrev RH1 : Rect S1024x4096 := Rect.unit (s := S1024x4096) ![0, 2048] S1024x2048.size inb_S1024x4096_S1024x2048_0_2048
/-- The four column quarters. -/
abbrev RQ0 : Rect S1024x4096 := Rect.unit (s := S1024x4096) ![0, 0] S1024x1024.size inb_S1024x4096_S1024x1024_0_0
abbrev RQ1 : Rect S1024x4096 := Rect.unit (s := S1024x4096) ![0, 1024] S1024x1024.size inb_S1024x4096_S1024x1024_0_1024
abbrev RQ2 : Rect S1024x4096 := Rect.unit (s := S1024x4096) ![0, 2048] S1024x1024.size inb_S1024x4096_S1024x1024_0_2048
abbrev RQ3 : Rect S1024x4096 := Rect.unit (s := S1024x4096) ![0, 3072] S1024x1024.size inb_S1024x4096_S1024x1024_0_3072

section Lists
variable (a0 a1 a2 a3 a4 a5 a6 a7 : Vec F S1x1024x1024 .bf16)
variable (b00 b01 b10 b11 b20 b21 b30 b31 b40 b41 b50 b51 b60 b61 b70 b71 : Vec F S1x1024x2048 .f32)

/-- After step 0, half 0. -/
def OL1 : List (View.Piece (Elt F) S1024x4096 .f32) :=
  [⟨RH0, k0_pay10 a0 b00⟩]
/-- After step 0, half 1. -/
def OL2 : List (View.Piece (Elt F) S1024x4096 .f32) :=
  ⟨RH1, k0_pay11 a0 b01⟩ :: OL1 a0 b00
/-- After step 1, half 0: the block of `x` re-cast to a matrix, the running sum read back through the half's rectangle. -/
def OL3 : List (View.Piece (Elt F) S1024x4096 .f32) :=
  ⟨RH0, k0_pay13 (k0_pay12 a1) b10 (ostg.readCov (OL2 a0 b00 b01) RH0.toLoadRect)⟩ :: OL2 a0 b00 b01
/-- After step 1, half 1. -/
def OL4 : List (View.Piece (Elt F) S1024x4096 .f32) :=
  ⟨RH1, k0_pay14 a1 b11 (ostg.readCov (OL3 a0 a1 b00 b01 b10) RH1.toLoadRect)⟩ :: OL3 a0 a1 b00 b01 b10
/-- After step 2, half 0. -/
def OL5 : List (View.Piece (Elt F) S1024x4096 .f32) :=
  ⟨RH0, k0_pay15 a2 b20 (ostg.readCov (OL4 a0 a1 b00 b01 b10 b11) RH0.toLoadRect)⟩ :: OL4 a0 a1 b00 b01 b10 b11
/-- After step 2, half 1. -/
def OL6 : List (View.Piece (Elt F) S1024x4096 .f32) :=
  ⟨RH1, k0_pay16 a2 b21 (ostg.readCov (OL5 a0 a1 a2 b00 b01 b10 b11 b20) RH1.toLoadRect)⟩ :: OL5 a0 a1 a2 b00 b01 b10 b11 b20
/-- After step 3, half 0. -/
def OL7 : List (View.Piece (Elt F) S1024x4096 .f32) :=
  ⟨RH0, k0_pay17 a3 b30 (ostg.readCov (OL6 a0 a1 a2 b00 b01 b10 b11 b20 b21) RH0.toLoadRect)⟩ :: OL6 a0 a1 a2 b00 b01 b10 b11 b20 b21
/-- After step 3, half 1. -/
def OL8 : List (View.Piece (Elt F) S1024x4096 .f32) :=
  ⟨RH1, k0_pay18 a3 b31 (ostg.readCov (OL7 a0 a1 a2 a3 b00 b01 b10 b11 b20 b21 b30) RH1.toLoadRect)⟩ :: OL7 a0 a1 a2 a3 b00 b01 b10 b11 b20 b21 b30
/-- After step 4, half 0. -/
def OL9 : List (View.Piece (Elt F) S1024x4096 .f32) :=
  ⟨RH0, k0_pay19 a4 b40 (ostg.readCov (OL8 a0 a1 a2 a3 b00 b01 b10 b11 b20 b21 b30 b31) RH0.toLoadRect)⟩ :: OL8 a0 a1 a2 a3 b00 b01 b10 b11 b20 b21 b30 b31
/-- After step 4, half 1. -/
def OL10 : List (View.Piece (Elt F) S1024x4096 .f32) :=
  ⟨RH1, k0_pay20 a4 b41 (ostg.readCov (OL9 a0 a1 a2 a3 a4 b00 b01 b10 b11 b20 b21 b30 b31 b40) RH1.toLoadRect)⟩ :: OL9 a0 a1 a2 a3 a4 b00 b01 b10 b11 b20 b21 b30 b31 b40
/-- After step 5, half 0. -/
def OL11 : List (View.Piece (Elt F) S1024x4096 .f32) :=
  ⟨RH0, k0_pay21 a5 b50 (ostg.readCov (OL10 a0 a1 a2 a3 a4 b00 b01 b10 b11 b20 b21 b30 b31 b40 b41) RH0.toLoadRect)⟩ :: OL10 a0 a1 a2 a3 a4 b00 b01 b10 b11 b20 b21 b30 b31 b40 b41
/-- After step 5, half 1. -/
def OL12 : List (View.Piece (Elt F) S1024x4096 .f32) :=
  ⟨RH1, k0_pay22 a5 b51 (ostg.readCov (OL11 a0 a1 a2 a3 a4 a5 b00 b01 b10 b11 b20 b21 b30 b31 b40 b41 b50) RH1.toLoadRect)⟩ :: OL11 a0 a1 a2 a3 a4 a5 b00 b01 b10 b11 b20 b21 b30 b31 b40 b41 b50
/-- After step 6, half 0. -/
def OL13 : List (View.Piece (Elt F) S1024x4096 .f32) :=
  ⟨RH0, k0_pay23 a6 b60 (ostg.readCov (OL12 a0 a1 a2 a3 a4 a5 b00 b01 b10 b11 b20 b21 b30 b31 b40 b41 b50 b51) RH0.toLoadRect)⟩ :: OL12 a0 a1 a2 a3 a4 a5 b00 b01 b10 b11 b20 b21 b30 b31 b40 b41 b50 b51
/-- After step 6, half 1. -/
def OL14 : List (View.Piece (Elt F) S1024x4096 .f32) :=
  ⟨RH1, k0_pay24 a6 b61 (ostg.readCov (OL13 a0 a1 a2 a3 a4 a5 a6 b00 b01 b10 b11 b20 b21 b30 b31 b40 b41 b50 b51 b60) RH1.toLoadRect)⟩ :: OL13 a0 a1 a2 a3 a4 a5 a6 b00 b01 b10 b11 b20 b21 b30 b31 b40 b41 b50 b51 b60
/-- Quarter 0 of half 0 at step 7. -/
def OL15 : List (View.Piece (Elt F) S1024x4096 .f32) :=
  ⟨RQ0, k0_pay26 a7 b70 (ostg.readCov (OL14 a0 a1 a2 a3 a4 a5 a6 b00 b01 b10 b11 b20 b21 b30 b31 b40 b41 b50 b51 b60 b61) RQ0.toLoadRect)⟩ :: OL14 a0 a1 a2 a3 a4 a5 a6 b00 b01 b10 b11 b20 b21 b30 b31 b40 b41 b50 b51 b60 b61
/-- Quarter 1 of half 0: the last product handed over whole. -/
def OL16 : List (View.Piece (Elt F) S1024x4096 .f32) :=
  ⟨RQ1, k0_pay27 (k0_pay25 a7 b70) (ostg.readCov (OL15 a0 a1 a2 a3 a4 a5 a6 a7 b00 b01 b10 b11 b20 b21 b30 b31 b40 b41 b50 b51 b60 b61 b70) RQ1.toLoadRect)⟩ :: OL15 a0 a1 a2 a3 a4 a5 a6 a7 b00 b01 b10 b11 b20 b21 b30 b31 b40 b41 b50 b51 b60 b61 b70
/-- Quarter 0 of half 1. -/
def OL17 : List (View.Piece (Elt F) S1024x4096 .f32) :=
  ⟨RQ2, k0_pay29 a7 b71 (ostg.readCov (OL16 a0 a1 a2 a3 a4 a5 a6 a7 b00 b01 b10 b11 b20 b21 b30 b31 b40 b41 b50 b51 b60 b61 b70) RQ2.toLoadRect)⟩ :: OL16 a0 a1 a2 a3 a4 a5 a6 a7 b00 b01 b10 b11 b20 b21 b30 b31 b40 b41 b50 b51 b60 b61 b70
/-- Quarter 1 of half 1: all eighteen stores, newest first. -/
def OL18 : List (View.Piece (Elt F) S1024x4096 .f32) :=
  ⟨RQ3, k0_pay30 a7 b71 (ostg.readCov (OL17 a0 a1 a2 a3 a4 a5 a6 a7 b00 b01 b10 b11 b20 b21 b30 b31 b40 b41 b50 b51 b60 b61 b70 b71) RQ3.toLoadRect)⟩ :: OL17 a0 a1 a2 a3 a4 a5 a6 a7 b00 b01 b10 b11 b20 b21 b30 b31 b40 b41 b50 b51 b60 b61 b70 b71

end Lists

end Cert.KernelIdeal.A2A

end
-- ==== Proof.OutConv.lean ====
import proofs.«900489_g7700000000000490_dist_a2a_gemm_m8192_k8192_n4096_f32_gelu_v7x_i8_1_alg».proof.Proof.OutList

/-!
# The buffer the body leaves is the device's result

A read of the result buffer at column `2048 h + 1024 q + j` meets the store of quarter `q` of half `h`
first among the eighteen; what that store wrote is quarter `q` of half `h` of the device's result,
because every read-back of a column half returns the running sum the chain of steps defines: a store
through one half leaves the other half as it was, and a read through the newest store's own rectangle
returns what it wrote.  Every step looks through exactly one store.
-/

noncomputable section

namespace Cert.KernelIdeal.A2A

open Cert.KernelIdeal Cert.KernelIdeal.Gen Cert.KernelIdeal.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Reading a list of stores through a rectangle -/

section Canon

/-- A covered load is the canonical contents read through the load's rectangle. -/
theorem readCov_ld (L : List (View.Piece (Elt F) S1024x4096 .f32)) (r : Rect S1024x4096) :
    ostg.readCov L r.toLoadRect = View.ld (View.canon L) r :=
  View.readCov_eq_canon' ostg L r.toLoadRect

/-- Through the newest store's own rectangle: what it wrote. -/
theorem ld_cons_self (L : List (View.Piece (Elt F) S1024x4096 .f32)) (r : Rect S1024x4096) (w : r.shape.Idx → Elt F .f32) :
    View.ld (View.canon ((⟨r, w⟩ : View.Piece (Elt F) S1024x4096 .f32) :: L)) r = w :=
  funext fun x => View.canon_cons_emb r w L x

/-- Through a rectangle the newest store misses: what the older stores left. -/
theorem ld_cons_disjoint (r : Rect S1024x4096) (w : r.shape.Idx → Elt F .f32) (L : List (View.Piece (Elt F) S1024x4096 .f32))
    (r' : Rect S1024x4096) (h : Disjoint r.set r'.set) :
    View.ld (View.canon ((⟨r, w⟩ : View.Piece (Elt F) S1024x4096 .f32) :: L)) r' = View.ld (View.canon L) r' :=
  funext fun x => View.canon_cons_of_not_mem (⟨r, w⟩ : View.Piece (Elt F) S1024x4096 .f32) L
    (Finset.disjoint_right.mp h (r'.toLoadRect.idx_mem x))

theorem disj_H0_H1 : Disjoint RH0.set RH1.set := Rect.unit_disjoint (1 : Fin 2) (Or.inl (by decide))
theorem disj_H1_H0 : Disjoint RH1.set RH0.set := Rect.unit_disjoint (1 : Fin 2) (Or.inr (by decide))

theorem disj_Q0_Q1 : Disjoint RQ0.set RQ1.set := Rect.unit_disjoint (1 : Fin 2) (Or.inl (by decide))
theorem disj_Q0_Q2 : Disjoint RQ0.set RQ2.set := Rect.unit_disjoint (1 : Fin 2) (Or.inl (by decide))
theorem disj_Q0_Q3 : Disjoint RQ0.set RQ3.set := Rect.unit_disjoint (1 : Fin 2) (Or.inl (by decide))
theorem disj_Q1_Q0 : Disjoint RQ1.set RQ0.set := Rect.unit_disjoint (1 : Fin 2) (Or.inr (by decide))
theorem disj_Q1_Q2 : Disjoint RQ1.set RQ2.set := Rect.unit_disjoint (1 : Fin 2) (Or.inl (by decide))
theorem disj_Q1_Q3 : Disjoint RQ1.set RQ3.set := Rect.unit_disjoint (1 : Fin 2) (Or.inl (by decide))
theorem disj_Q2_Q0 : Disjoint RQ2.set RQ0.set := Rect.unit_disjoint (1 : Fin 2) (Or.inr (by decide))
theorem disj_Q2_Q1 : Disjoint RQ2.set RQ1.set := Rect.unit_disjoint (1 : Fin 2) (Or.inr (by decide))
theorem disj_Q2_Q3 : Disjoint RQ2.set RQ3.set := Rect.unit_disjoint (1 : Fin 2) (Or.inl (by decide))
theorem disj_Q3_Q0 : Disjoint RQ3.set RQ0.set := Rect.unit_disjoint (1 : Fin 2) (Or.inr (by decide))
theorem disj_Q3_Q1 : Disjoint RQ3.set RQ1.set := Rect.unit_disjoint (1 : Fin 2) (Or.inr (by decide))
theorem disj_Q3_Q2 : Disjoint RQ3.set RQ2.set := Rect.unit_disjoint (1 : Fin 2) (Or.inr (by decide))

/-- A quarter read through its rectangle is the matching 1024 columns of its half read through the half's. -/
theorem ld_cols (X : S1024x4096.Idx → Elt F .f32) (oq oh off : Nat) (hoff : off + 1024 ≤ 2048) (e : oq = oh + off)
    (inbq : ∀ a, (![0, oq] : Fin 2 → Nat) a + S1024x1024.size a ≤ S1024x4096.size a)
    (inbh : ∀ a, (![0, oh] : Fin 2 → Nat) a + S1024x2048.size a ≤ S1024x4096.size a) :
    (View.ld X (Rect.unit (s := S1024x4096) ![0, oq] S1024x1024.size inbq) : FVec F S1024x1024 .f32)
      = colsF (View.ld X (Rect.unit (s := S1024x4096) ![0, oh] S1024x2048.size inbh)) off hoff := by
  funext i
  refine congrArg X (funext fun a => Fin.ext ?_)
  match a with
  | ⟨0, _⟩ =>
    show 0 + 1 * (i 0).val = 0 + 1 * (i 0).val
    rfl
  | ⟨1, _⟩ =>
    show oq + 1 * (i 1).val = oh + 1 * (off + (i 1).val)
    omega

theorem ld_RQ0 (X : S1024x4096.Idx → Elt F .f32) : (View.ld X RQ0 : FVec F S1024x1024 .f32) = colsF (View.ld X RH0) 0 (by omega) :=
  ld_cols X 0 0 0 (by omega) rfl _ _
theorem ld_RQ1 (X : S1024x4096.Idx → Elt F .f32) : (View.ld X RQ1 : FVec F S1024x1024 .f32) = colsF (View.ld X RH0) 1024 (by omega) :=
  ld_cols X 1024 0 1024 (by omega) rfl _ _
theorem ld_RQ2 (X : S1024x4096.Idx → Elt F .f32) : (View.ld X RQ2 : FVec F S1024x1024 .f32) = colsF (View.ld X RH1) 0 (by omega) :=
  ld_cols X 2048 2048 0 (by omega) rfl _ _
theorem ld_RQ3 (X : S1024x4096.Idx → Elt F .f32) : (View.ld X RQ3 : FVec F S1024x1024 .f32) = colsF (View.ld X RH1) 1024 (by omega) :=
  ld_cols X 3072 2048 1024 (by omega) rfl _ _

end Canon

/-! ## Every read-back of a half returns the chain's running sum -/

section Invariant
variable (A : Fin 8 → Vec F S1x1024x1024 .bf16) (B : Fin 8 → Fin 2 → Vec F S1x1024x2048 .f32)

theorem H0_1 : View.ld (View.canon (OL1 (A 0) (B 0 0))) RH0 = accHF A B 0 0 := by
  unfold OL1
  exact ld_cons_self _ RH0 _
theorem H1_2 : View.ld (View.canon (OL2 (A 0) (B 0 0) (B 0 1))) RH1 = accHF A B 1 0 := by
  unfold OL2
  exact ld_cons_self _ RH1 _
theorem H0_2 : View.ld (View.canon (OL2 (A 0) (B 0 0) (B 0 1))) RH0 = accHF A B 0 0 := by
  unfold OL2
  exact (ld_cons_disjoint RH1 _ _ RH0 disj_H1_H0).trans (H0_1 A B)
theorem H0_3 : View.ld (View.canon (OL3 (A 0) (A 1) (B 0 0) (B 0 1) (B 1 0))) RH0 = accHF A B 0 1 := by
  unfold OL3
  refine (ld_cons_self _ RH0 _).trans ?_
  exact congrArg (k0_pay13 (k0_pay12 (A 1)) (B 1 0)) ((readCov_ld _ RH0).trans (H0_2 A B))
theorem H1_3 : View.ld (View.canon (OL3 (A 0) (A 1) (B 0 0) (B 0 1) (B 1 0))) RH1 = accHF A B 1 0 := by
  unfold OL3
  exact (ld_cons_disjoint RH0 _ _ RH1 disj_H0_H1).trans (H1_2 A B)
theorem H1_4 : View.ld (View.canon (OL4 (A 0) (A 1) (B 0 0) (B 0 1) (B 1 0) (B 1 1))) RH1 = accHF A B 1 1 := by
  unfold OL4
  refine (ld_cons_self _ RH1 _).trans ?_
  exact congrArg (k0_pay14 (A 1) (B 1 1)) ((readCov_ld _ RH1).trans (H1_3 A B))
theorem H0_4 : View.ld (View.canon (OL4 (A 0) (A 1) (B 0 0) (B 0 1) (B 1 0) (B 1 1))) RH0 = accHF A B 0 1 := by
  unfold OL4
  exact (ld_cons_disjoint RH1 _ _ RH0 disj_H1_H0).trans (H0_3 A B)
theorem H0_5 : View.ld (View.canon (OL5 (A 0) (A 1) (A 2) (B 0 0) (B 0 1) (B 1 0) (B 1 1) (B 2 0))) RH0 = accHF A B 0 2 := by
  unfold OL5
  refine (ld_cons_self _ RH0 _).trans ?_
  exact congrArg (k0_pay15 (A 2) (B 2 0)) ((readCov_ld _ RH0).trans (H0_4 A B))
theorem H1_5 : View.ld (View.canon (OL5 (A 0) (A 1) (A 2) (B 0 0) (B 0 1) (B 1 0) (B 1 1) (B 2 0))) RH1 = accHF A B 1 1 := by
  unfold OL5
  exact (ld_cons_disjoint RH0 _ _ RH1 disj_H0_H1).trans (H1_4 A B)
theorem H1_6 : View.ld (View.canon (OL6 (A 0) (A 1) (A 2) (B 0 0) (B 0 1) (B 1 0) (B 1 1) (B 2 0) (B 2 1))) RH1 = accHF A B 1 2 := by
  unfold OL6
  refine (ld_cons_self _ RH1 _).trans ?_
  exact congrArg (k0_pay16 (A 2) (B 2 1)) ((readCov_ld _ RH1).trans (H1_5 A B))
theorem H0_6 : View.ld (View.canon (OL6 (A 0) (A 1) (A 2) (B 0 0) (B 0 1) (B 1 0) (B 1 1) (B 2 0) (B 2 1))) RH0 = accHF A B 0 2 := by
  unfold OL6
  exact (ld_cons_disjoint RH1 _ _ RH0 disj_H1_H0).trans (H0_5 A B)
theorem H0_7 : View.ld (View.canon (OL7 (A 0) (A 1) (A 2) (A 3) (B 0 0) (B 0 1) (B 1 0) (B 1 1) (B 2 0) (B 2 1) (B 3 0))) RH0 = accHF A B 0 3 := by
  unfold OL7
  refine (ld_cons_self _ RH0 _).trans ?_
  exact congrArg (k0_pay17 (A 3) (B 3 0)) ((readCov_ld _ RH0).trans (H0_6 A B))
theorem H1_7 : View.ld (View.canon (OL7 (A 0) (A 1) (A 2) (A 3) (B 0 0) (B 0 1) (B 1 0) (B 1 1) (B 2 0) (B 2 1) (B 3 0))) RH1 = accHF A B 1 2 := by
  unfold OL7
  exact (ld_cons_disjoint RH0 _ _ RH1 disj_H0_H1).trans (H1_6 A B)
theorem H1_8 : View.ld (View.canon (OL8 (A 0) (A 1) (A 2) (A 3) (B 0 0) (B 0 1) (B 1 0) (B 1 1) (B 2 0) (B 2 1) (B 3 0) (B 3 1))) RH1 = accHF A B 1 3 := by
  unfold OL8
  refine (ld_cons_self _ RH1 _).trans ?_
  exact congrArg (k0_pay18 (A 3) (B 3 1)) ((readCov_ld _ RH1).trans (H1_7 A B))
theorem H0_8 : View.ld (View.canon (OL8 (A 0) (A 1) (A 2) (A 3) (B 0 0) (B 0 1) (B 1 0) (B 1 1) (B 2 0) (B 2 1) (B 3 0) (B 3 1))) RH0 = accHF A B 0 3 := by
  unfold OL8
  exact (ld_cons_disjoint RH1 _ _ RH0 disj_H1_H0).trans (H0_7 A B)
theorem H0_9 : View.ld (View.canon (OL9 (A 0) (A 1) (A 2) (A 3) (A 4) (B 0 0) (B 0 1) (B 1 0) (B 1 1) (B 2 0) (B 2 1) (B 3 0) (B 3 1) (B 4 0))) RH0 = accHF A B 0 4 := by
  unfold OL9
  refine (ld_cons_self _ RH0 _).trans ?_
  exact congrArg (k0_pay19 (A 4) (B 4 0)) ((readCov_ld _ RH0).trans (H0_8 A B))
theorem H1_9 : View.ld (View.canon (OL9 (A 0) (A 1) (A 2) (A 3) (A 4) (B 0 0) (B 0 1) (B 1 0) (B 1 1) (B 2 0) (B 2 1) (B 3 0) (B 3 1) (B 4 0))) RH1 = accHF A B 1 3 := by
  unfold OL9
  exact (ld_cons_disjoint RH0 _ _ RH1 disj_H0_H1).trans (H1_8 A B)
theorem H1_10 : View.ld (View.canon (OL10 (A 0) (A 1) (A 2) (A 3) (A 4) (B 0 0) (B 0 1) (B 1 0) (B 1 1) (B 2 0) (B 2 1) (B 3 0) (B 3 1) (B 4 0) (B 4 1))) RH1 = accHF A B 1 4 := by
  unfold OL10
  refine (ld_cons_self _ RH1 _).trans ?_
  exact congrArg (k0_pay20 (A 4) (B 4 1)) ((readCov_ld _ RH1).trans (H1_9 A B))
theorem H0_10 : View.ld (View.canon (OL10 (A 0) (A 1) (A 2) (A 3) (A 4) (B 0 0) (B 0 1) (B 1 0) (B 1 1) (B 2 0) (B 2 1) (B 3 0) (B 3 1) (B 4 0) (B 4 1))) RH0 = accHF A B 0 4 := by
  unfold OL10
  exact (ld_cons_disjoint RH1 _ _ RH0 disj_H1_H0).trans (H0_9 A B)
theorem H0_11 : View.ld (View.canon (OL11 (A 0) (A 1) (A 2) (A 3) (A 4) (A 5) (B 0 0) (B 0 1) (B 1 0) (B 1 1) (B 2 0) (B 2 1) (B 3 0) (B 3 1) (B 4 0) (B 4 1) (B 5 0))) RH0 = accHF A B 0 5 := by
  unfold OL11
  refine (ld_cons_self _ RH0 _).trans ?_
  exact congrArg (k0_pay21 (A 5) (B 5 0)) ((readCov_ld _ RH0).trans (H0_10 A B))
theorem H1_11 : View.ld (View.canon (OL11 (A 0) (A 1) (A 2) (A 3) (A 4) (A 5) (B 0 0) (B 0 1) (B 1 0) (B 1 1) (B 2 0) (B 2 1) (B 3 0) (B 3 1) (B 4 0) (B 4 1) (B 5 0))) RH1 = accHF A B 1 4 := by
  unfold OL11
  exact (ld_cons_disjoint RH0 _ _ RH1 disj_H0_H1).trans (H1_10 A B)
theorem H1_12 : View.ld (View.canon (OL12 (A 0) (A 1) (A 2) (A 3) (A 4) (A 5) (B 0 0) (B 0 1) (B 1 0) (B 1 1) (B 2 0) (B 2 1) (B 3 0) (B 3 1) (B 4 0) (B 4 1) (B 5 0) (B 5 1))) RH1 = accHF A B 1 5 := by
  unfold OL12
  refine (ld_cons_self _ RH1 _).trans ?_
  exact congrArg (k0_pay22 (A 5) (B 5 1)) ((readCov_ld _ RH1).trans (H1_11 A B))
theorem H0_12 : View.ld (View.canon (OL12 (A 0) (A 1) (A 2) (A 3) (A 4) (A 5) (B 0 0) (B 0 1) (B 1 0) (B 1 1) (B 2 0) (B 2 1) (B 3 0) (B 3 1) (B 4 0) (B 4 1) (B 5 0) (B 5 1))) RH0 = accHF A B 0 5 := by
  unfold OL12
  exact (ld_cons_disjoint RH1 _ _ RH0 disj_H1_H0).trans (H0_11 A B)
theorem H0_13 : View.ld (View.canon (OL13 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0))) RH0 = accHF A B 0 6 := by
  unfold OL13
  refine (ld_cons_self _ RH0 _).trans ?_
  exact congrArg (k0_pay23 (A 6) (B 6 0)) ((readCov_ld _ RH0).trans (H0_12 A B))
theorem H1_13 : View.ld (View.canon (OL13 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0))) RH1 = accHF A B 1 5 := by
  unfold OL13
  exact (ld_cons_disjoint RH0 _ _ RH1 disj_H0_H1).trans (H1_12 A B)
theorem H1_14 : View.ld (View.canon (OL14 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0) (B 6 1))) RH1 = accHF A B 1 6 := by
  unfold OL14
  refine (ld_cons_self _ RH1 _).trans ?_
  exact congrArg (k0_pay24 (A 6) (B 6 1)) ((readCov_ld _ RH1).trans (H1_13 A B))
theorem H0_14 : View.ld (View.canon (OL14 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0) (B 6 1))) RH0 = accHF A B 0 6 := by
  unfold OL14
  exact (ld_cons_disjoint RH1 _ _ RH0 disj_H1_H0).trans (H0_13 A B)

/-! ## The four quarters -/

theorem Q0_15 : View.ld (View.canon (OL15 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ0 = quarterF A B 0 0 := by
  unfold OL15
  refine (ld_cons_self _ RQ0 _).trans ?_
  refine congrArg (k0_pay26 (A 7) (B 7 0)) ?_
  refine (readCov_ld _ RQ0).trans ((ld_RQ0 _).trans ?_)
  rw [H0_14 A B]
  rfl

theorem Q0_16 : View.ld (View.canon (OL16 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ0 = quarterF A B 0 0 := by
  unfold OL16
  exact (ld_cons_disjoint RQ1 _ _ RQ0 disj_Q1_Q0).trans (Q0_15 A B)

theorem Q1_16 : View.ld (View.canon (OL16 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ1 = quarterF A B 0 1 := by
  unfold OL16
  refine (ld_cons_self _ RQ1 _).trans ?_
  refine congrArg (k0_pay27 (k0_pay25 (A 7) (B 7 0))) ?_
  refine (readCov_ld _ RQ1).trans ?_
  unfold OL15
  refine (ld_cons_disjoint RQ0 _ _ RQ1 disj_Q0_Q1).trans ((ld_RQ1 _).trans ?_)
  rw [H0_14 A B]
  rfl

theorem Q0_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ0 = quarterF A B 0 0 := by
  unfold OL17
  exact (ld_cons_disjoint RQ2 _ _ RQ0 disj_Q2_Q0).trans (Q0_16 A B)

theorem Q1_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ1 = quarterF A B 0 1 := by
  unfold OL17
  exact (ld_cons_disjoint RQ2 _ _ RQ1 disj_Q2_Q1).trans (Q1_16 A B)

theorem Q2_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ2 = quarterF A B 1 0 := by
  unfold OL17
  refine (ld_cons_self _ RQ2 _).trans ?_
  refine congrArg (k0_pay29 (A 7) (B 7 1)) ?_
  refine (readCov_ld _ RQ2).trans ?_
  unfold OL16
  refine (ld_cons_disjoint RQ1 _ _ RQ2 disj_Q1_Q2).trans ?_
  unfold OL15
  refine (ld_cons_disjoint RQ0 _ _ RQ2 disj_Q0_Q2).trans ((ld_RQ2 _).trans ?_)
  rw [H1_14 A B]
  rfl

theorem Q0_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ0 = quarterF A B 0 0 := by
  unfold OL18
  exact (ld_cons_disjoint RQ3 _ _ RQ0 disj_Q3_Q0).trans (Q0_17 A B)

theorem Q1_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ1 = quarterF A B 0 1 := by
  unfold OL18
  exact (ld_cons_disjoint RQ3 _ _ RQ1 disj_Q3_Q1).trans (Q1_17 A B)

theorem Q2_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ2 = quarterF A B 1 0 := by
  unfold OL18
  exact (ld_cons_disjoint RQ3 _ _ RQ2 disj_Q3_Q2).trans (Q2_17 A B)

theorem Q3_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ3 = quarterF A B 1 1 := by
  unfold OL18
  refine (ld_cons_self _ RQ3 _).trans ?_
  refine congrArg (k0_pay30 (A 7) (B 7 1)) ?_
  refine (readCov_ld _ RQ3).trans ?_
  unfold OL17
  refine (ld_cons_disjoint RQ2 _ _ RQ3 disj_Q2_Q3).trans ?_
  unfold OL16
  refine (ld_cons_disjoint RQ1 _ _ RQ3 disj_Q1_Q3).trans ?_
  unfold OL15
  refine (ld_cons_disjoint RQ0 _ _ RQ3 disj_Q0_Q3).trans ((ld_RQ3 _).trans ?_)
  rw [H1_14 A B]
  rfl

/-- What the eighteen stores leave at column `2048 h + 1024 q + j`: quarter `q` of half `h`. -/
theorem canon18_apply (h q : Fin 2) (r j : Fin 1024) :
    View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)) (ix2 r (ocol h q j)) = quarterF A B h q (ix2 r j) := by
  have key : ∀ (R : Rect S1024x4096) (Y : R.shape.Idx → Elt F .f32) (x : R.shape.Idx), View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) R = Y →
      ∀ y : S1024x4096.Idx, y = R.toLoadRect.idx x → View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)) y = Y x := by
    intro R Y x hY y hy
    rw [hy]
    exact congrFun hY x
  match h, q with
  | ⟨0, _⟩, ⟨0, _⟩ =>
    refine key RQ0 (quarterF A B 0 0) (ix2 r j) (Q0_18 A B) _ (funext fun a => Fin.ext ?_)
    match a with
    | ⟨0, _⟩ => show r.val = 0 + 1 * r.val; omega
    | ⟨1, _⟩ => show 2048 * 0 + 1024 * 0 + j.val = 0 + 1 * j.val; omega
  | ⟨0, _⟩, ⟨1, _⟩ =>
    refine key RQ1 (quarterF A B 0 1) (ix2 r j) (Q1_18 A B) _ (funext fun a => Fin.ext ?_)
    match a with
    | ⟨0, _⟩ => show r.val = 0 + 1 * r.val; omega
    | ⟨1, _⟩ => show 2048 * 0 + 1024 * 1 + j.val = 1024 + 1 * j.val; omega
  | ⟨1, _⟩, ⟨0, _⟩ =>
    refine key RQ2 (quarterF A B 1 0) (ix2 r j) (Q2_18 A B) _ (funext fun a => Fin.ext ?_)
    match a with
    | ⟨0, _⟩ => show r.val = 0 + 1 * r.val; omega
    | ⟨1, _⟩ => show 2048 * 1 + 1024 * 0 + j.val = 2048 + 1 * j.val; omega
  | ⟨1, _⟩, ⟨1, _⟩ =>
    refine key RQ3 (quarterF A B 1 1) (ix2 r j) (Q3_18 A B) _ (funext fun a => Fin.ext ?_)
    match a with
    | ⟨0, _⟩ => show r.val = 0 + 1 * r.val; omega
    | ⟨1, _⟩ => show 2048 * 1 + 1024 * 1 + j.val = 3072 + 1 * j.val; omega

/-- An entry whose column lies in a quarter's range lies in the quarter's rectangle. -/
theorem mem_RQ (r : Fin 1024) (o : Nat) (inb : ∀ a, (![0, o] : Fin 2 → Nat) a + S1024x1024.size a ≤ S1024x4096.size a) (J : Fin 4096)
    (h1 : o ≤ J.val) (h2 : J.val < o + 1024) :
    (ix2 r J : S1024x4096.Idx) ∈ (Rect.unit (s := S1024x4096) ![0, o] S1024x1024.size inb).set := by
  refine Rect.mem_set_unit.mpr fun a => ?_
  match a with
  | ⟨0, _⟩ => exact ⟨Nat.zero_le _, by show r.val < 0 + 1024; omega⟩
  | ⟨1, _⟩ => exact ⟨h1, h2⟩

theorem cover_00 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 0 0 j) : S1024x4096.Idx) ∈ p.1.set := by
  unfold OL18 OL17 OL16 OL15
  refine ⟨_, List.mem_cons_of_mem _ (List.mem_cons_of_mem _ (List.mem_cons_of_mem _ List.mem_cons_self)), ?_⟩
  exact mem_RQ r 0 inb_S1024x4096_S1024x1024_0_0 (ocol 0 0 j) (by show 0 ≤ 2048 * 0 + 1024 * 0 + j.val; omega) (by show 2048 * 0 + 1024 * 0 + j.val < 0 + 1024; omega)

theorem cover_01 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 0 1 j) : S1024x4096.Idx) ∈ p.1.set := by
  unfold OL18 OL17 OL16
  refine ⟨_, List.mem_cons_of_mem _ (List.mem_cons_of_mem _ List.mem_cons_self), ?_⟩
  exact mem_RQ r 1024 inb_S1024x4096_S1024x1024_0_1024 (ocol 0 1 j) (by show 1024 ≤ 2048 * 0 + 1024 * 1 + j.val; omega) (by show 2048 * 0 + 1024 * 1 + j.val < 1024 + 1024; omega)

theorem cover_10 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 1 0 j) : S1024x4096.Idx) ∈ p.1.set := by
  unfold OL18 OL17
  refine ⟨_, List.mem_cons_of_mem _ List.mem_cons_self, ?_⟩
  exact mem_RQ r 2048 inb_S1024x4096_S1024x1024_0_2048 (ocol 1 0 j) (by show 2048 ≤ 2048 * 1 + 1024 * 0 + j.val; omega) (by show 2048 * 1 + 1024 * 0 + j.val < 2048 + 1024; omega)

theorem cover_11 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 1 1 j) : S1024x4096.Idx) ∈ p.1.set := by
  unfold OL18
  refine ⟨_, List.mem_cons_self, ?_⟩
  exact mem_RQ r 3072 inb_S1024x4096_S1024x1024_0_3072 (ocol 1 1 j) (by show 3072 ≤ 2048 * 1 + 1024 * 1 + j.val; omega) (by show 2048 * 1 + 1024 * 1 + j.val < 3072 + 1024; omega)

/-- Every entry of the buffer lies under one of the four quarter stores. -/
theorem cover18 (h q : Fin 2) (r j : Fin 1024) :
    ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol h q j) : S1024x4096.Idx) ∈ p.1.set := by
  match h, q with
  | ⟨0, _⟩, ⟨0, _⟩ => exact cover_00 A B r j
  | ⟨0, _⟩, ⟨1, _⟩ => exact cover_01 A B r j
  | ⟨1, _⟩, ⟨0, _⟩ => exact cover_10 A B r j
  | ⟨1, _⟩, ⟨1, _⟩ => exact cover_11 A B r j

end Invariant

/-! ## The buffer the body leaves is the device's result -/

theorem col_split' (J : Fin 4096) : ∃ (h q : Fin 2) (j : Fin 1024), J = ocol h q j :=
  ⟨⟨J.val / 2048, by omega⟩, ⟨J.val % 2048 / 1024, by omega⟩, ⟨J.val % 1024, by omega⟩, Fin.ext (by simp only [ocol]; omega)⟩

variable (m : (ℓ : Loc nD τ sig) → Buf (Elt F) ℓ)

/-- Over any prior contents, the eighteen stores over the blocks the device multiplies leave `outAt`. -/
theorem writes18_eq_outAt (c : Dev nD) (fo : Buf (Elt F) ((c : Thread nD τ).loc cc0_stg0_0)) :
    ostg.writes (Elt F) fo (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) = outAt m c := by
  refine View.contents_ext ostg (fun y => ?_) (fun i hi => absurd rfl (hi i))
  obtain ⟨r, J, rfl⟩ : ∃ (r : Fin 1024) (J : Fin 4096), y = ix2 r J := ⟨y 0, y 1, eq_ix2 y⟩
  obtain ⟨h, q, j, rfl⟩ := col_split' J
  rw [View.read_writes_apply_eq_canon ostg fo (ix2 r (ocol h q j)) (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) (cover18 (Ablk m c) (Bblk m c) h q r j), canon18_apply (Ablk m c) (Bblk m c) h q r j]
  exact (outAt_apply m c h q r j).symm

local notation "𝕄" => MT nD τ sig Unit (Elt F) ℕ UU ℕ

/-- The result buffer as the body leaves it, held whole, is held at the device's result. -/
theorem out_convert (c : Dev nD) (fo g : Buf (Elt F) ((c : Thread nD τ).loc cc0_stg0_0))
    (a0 a1 a2 a3 a4 a5 a6 a7 : Vec F S1x1024x1024 .bf16) (b00 b01 b10 b11 b20 b21 b30 b31 b40 b41 b50 b51 b60 b61 b70 b71 : Vec F S1x1024x2048 .f32)
    (ha0 : a0 = Ablk m c 0)
    (ha1 : a1 = Ablk m c 1)
    (ha2 : a2 = Ablk m c 2)
    (ha3 : a3 = Ablk m c 3)
    (ha4 : a4 = Ablk m c 4)
    (ha5 : a5 = Ablk m c 5)
    (ha6 : a6 = Ablk m c 6)
    (ha7 : a7 = Ablk m c 7)
    (hb00 : b00 = Bblk m c 0 0)
    (hb01 : b01 = Bblk m c 0 1)
    (hb10 : b10 = Bblk m c 1 0)
    (hb11 : b11 = Bblk m c 1 1)
    (hb20 : b20 = Bblk m c 2 0)
    (hb21 : b21 = Bblk m c 2 1)
    (hb30 : b30 = Bblk m c 3 0)
    (hb31 : b31 = Bblk m c 3 1)
    (hb40 : b40 = Bblk m c 4 0)
    (hb41 : b41 = Bblk m c 4 1)
    (hb50 : b50 = Bblk m c 5 0)
    (hb51 : b51 = Bblk m c 5 1)
    (hb60 : b60 = Bblk m c 6 0)
    (hb61 : b61 = Bblk m c 6 1)
    (hb70 : b70 = Bblk m c 7 0)
    (hb71 : b71 = Bblk m c 7 1)
    (hg : g = (Memref.whole cc0_stg0_0 : Memref sig .tc .vmem S1024x4096 .f32).view.writes (Elt F) fo (OL18 a0 a1 a2 a3 a4 a5 a6 a7 b00 b01 b10 b11 b20 b21 b30 b31 b40 b41 b50 b51 b60 b61 b70 b71)) :
    (((Memref.whole cc0_stg0_0 : Memref sig .tc .vmem S1024x4096 .f32).view.loc (c : Thread nD τ) ↦{fullShare} g : sProp 𝕄)
      ⊢ ((Memref.whole cc0_stg0_0 : Memref sig .tc .vmem S1024x4096 .f32).view.loc (c : Thread nD τ) ↦{fullShare} outAt m c)) := by
  subst ha0 ha1 ha2 ha3 ha4 ha5 ha6 ha7 hb00 hb01 hb10 hb11 hb20 hb21 hb30 hb31 hb40 hb41 hb50 hb51 hb60 hb61 hb70 hb71
  rw [hg]
  rw [show (Memref.whole cc0_stg0_0 : Memref sig .tc .vmem S1024x4096 .f32).view.writes (Elt F) fo (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) = outAt m c from writes18_eq_outAt m c fo]

end Cert.KernelIdeal.A2A

/-- info: 'Cert.KernelIdeal.A2A.out_convert' depends on axioms: [propext, Classical.choice, Quot.sound] -/
#guard_msgs in
#print axioms Cert.KernelIdeal.A2A.out_convert

end
-- ==== Proof.Body.lean ====
/-
  The body of the kernel on one device, from the state the launch hands it to the state it hands back, every
  array held by the blocks that move. In program order: seven signals, one to the barrier cell of each device
  ahead, each handing over the receive slot that device will fill; the device's own rows of x copied in and cast
  into receive slot 0; the wait for seven on its own barrier cell, which brings the seven slots of the devices
  behind; seven steps, each casting the rows of the device k behind into the bf16 array and sending that block
  into that device's slot k; sixteen matmul steps over the two column halves, step (t, h) multiplying slot t by the
  weight rows of the device t ahead, accumulating in the result buffer and applying the gelu at t = 7, the wait
  for slot t's landing placed before its first use; the seven waits that return the sent blocks. The remote
  statements are applied from the rounds rules by hand, one lemma per kind; everything local is run symbolically.
-/
import proofs.«900489_g7700000000000490_dist_a2a_gemm_m8192_k8192_n4096_f32_gelu_v7x_i8_1_alg».proof.Proof.BodyDefs
import proofs.«900489_g7700000000000490_dist_a2a_gemm_m8192_k8192_n4096_f32_gelu_v7x_i8_1_alg».proof.Proof.RoundsSteps
import proofs.«900489_g7700000000000490_dist_a2a_gemm_m8192_k8192_n4096_f32_gelu_v7x_i8_1_alg».proof.Proof.SendStep
import proofs.«900489_g7700000000000490_dist_a2a_gemm_m8192_k8192_n4096_f32_gelu_v7x_i8_1_alg».proof.Proof.Chain
import proofs.«900489_g7700000000000490_dist_a2a_gemm_m8192_k8192_n4096_f32_gelu_v7x_i8_1_alg».proof.Proof.GemmVals
import proofs.«900489_g7700000000000490_dist_a2a_gemm_m8192_k8192_n4096_f32_gelu_v7x_i8_1_alg».proof.Proof.OutList
import proofs.«900489_g7700000000000490_dist_a2a_gemm_m8192_k8192_n4096_f32_gelu_v7x_i8_1_alg».proof.Proof.OutConv
import proofs.«900489_g7700000000000490_dist_a2a_gemm_m8192_k8192_n4096_f32_gelu_v7x_i8_1_alg».proof.Proof.LaunchIdeal
import proofs.«900489_g7700000000000490_dist_a2a_gemm_m8192_k8192_n4096_f32_gelu_v7x_i8_1_alg».proof.Proof.Gen.KernelIdeal.Points
import proofs.«900489_g7700000000000490_dist_a2a_gemm_m8192_k8192_n4096_f32_gelu_v7x_i8_1_alg».proof.Proof.Gen.KernelIdeal.Frame

noncomputable section

namespace Cert.KernelIdeal.A2A

open Cert.KernelIdeal Cert.KernelIdeal.Gen Cert.KernelIdeal.Ring8
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
theorem body_pieces (K : GSem nD τ sig → ℕ) (c : Dev nD) (W : Waits sig Unit)
    (f16 : Buf (Elt F) ((c : Thread nD τ).loc main_v1_1)) (fr : Buf (Elt F) ((c : Thread nD τ).loc cc0_scratch0))
    (fwv : Buf (Elt F) ((c : Thread nD τ).loc cc0_scratch1)) (fc16 : Buf (Elt F) ((c : Thread nD τ).loc cc0_scratch2))
    (fo : Buf (Elt F) ((c : Thread nD τ).loc cc0_stg0_0)) (Kt : PUnit → sProp 𝕄) :
    iprop(preS m K c W f16 fr fwv fc16 fo ∗ (postS m c -∗ Kt ⟨⟩))
      ⊢ wp frame (wpE (defs₀ (F := F)) 𝒱₀ c none) Set.univ
          (cc0_body (Memref.whole main_arg0) (Memref.isWhole_whole _) (Memref.whole main_arg1) (Memref.isWhole_whole _)
            (Memref.whole cc0_stg0_0) (Memref.isWhole_whole _) (Memref.whole main_v1_1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7) Kt := by
  unfold preS invs poss reacheds payToks creds idleSems
  iintro ⟨⟨⟨#Ibar, #Is0, #Is1, #Is2, #Is3, #Is4, #Is5, #Is6, #Ir0, #Ir1, #Ir2, #Ir3, #Ir4, #Ir5, #Ir6, #Ibf1, #Ibf2, #Ibf3, #Ibf4, #Ibf5, #Ibf6, #Ibf7, #Irb0, #Irb1, #Irb2, #Irb3, #Irb4, #Irb5, #Irb6⟩,
      ⟨Pbar, Ps0, Ps1, Ps2, Ps3, Ps4, Ps5, Ps6, Pr0, Pr1, Pr2, Pr3, Pr4, Pr5, Pr6⟩,
      ⟨#Rbf1, #Rbf2, #Rbf3, #Rbf4, #Rbf5, #Rbf6, #Rbf7, #Rrb0, #Rrb1, #Rrb2, #Rrb3, #Rrb4, #Rrb5, #Rrb6, #Rs0, #Rs1, #Rs2, #Rs3, #Rs4, #Rs5, #Rs6, #Rr0, #Rr1, #Rr2, #Rr3, #Rr4, #Rr5, #Rr6⟩,
      ⟨Tbf1, Tbf2, Tbf3, Tbf4, Tbf5, Tbf6, Tbf7, Trb0, Trb1, Trb2, Trb3, Trb4, Trb5, Trb6, Ts0, Ts1, Ts2, Ts3, Ts4, Ts5, Ts6⟩,
    ⟨Cbar, Cr0, Cr1, Cr2, Cr3, Cr4, Cr5, Cr6⟩,
    ⟨Z1, Z9, Z17, Z18, Z19, Z20, Z21⟩, #Hlev,
    Hx0, Hx1, Hx2, Hx3, Hx4, Hx5, Hx6, Hx7,
    Hw00, Hw01, Hw10, Hw11, Hw20, Hw21, Hw30, Hw31, Hw40, Hw41, Hw50, Hw51, Hw60, Hw61, Hw70, Hw71,
    Hb0, Hb1, Hb2, Hb3, Hb4, Hb5, Hb6,
    Hr1, Hr2, Hr3, Hr4, Hr5, Hr6, Hr7, Hr0, Hv0, Hvh0, Hv1, Hvh1, Hc16, HO, Hout⟩, Hk⟩
  -- set the protocol's tokens, positions and credits aside until the step that spends each
  ihave Tbf1 := held_intro _ $$ Tbf1; ihave Tbf2 := held_intro _ $$ Tbf2; ihave Tbf3 := held_intro _ $$ Tbf3; ihave Tbf4 := held_intro _ $$ Tbf4
  ihave Tbf5 := held_intro _ $$ Tbf5; ihave Tbf6 := held_intro _ $$ Tbf6; ihave Tbf7 := held_intro _ $$ Tbf7
  ihave Trb0 := held_intro _ $$ Trb0; ihave Trb1 := held_intro _ $$ Trb1; ihave Trb2 := held_intro _ $$ Trb2; ihave Trb3 := held_intro _ $$ Trb3
  ihave Trb4 := held_intro _ $$ Trb4; ihave Trb5 := held_intro _ $$ Trb5; ihave Trb6 := held_intro _ $$ Trb6
  ihave Ts0 := held_intro _ $$ Ts0; ihave Ts1 := held_intro _ $$ Ts1; ihave Ts2 := held_intro _ $$ Ts2; ihave Ts3 := held_intro _ $$ Ts3
  ihave Ts4 := held_intro _ $$ Ts4; ihave Ts5 := held_intro _ $$ Ts5; ihave Ts6 := held_intro _ $$ Ts6
  ihave Pbar := held_intro _ $$ Pbar
  ihave Ps0 := held_intro _ $$ Ps0; ihave Ps1 := held_intro _ $$ Ps1; ihave Ps2 := held_intro _ $$ Ps2; ihave Ps3 := held_intro _ $$ Ps3
  ihave Ps4 := held_intro _ $$ Ps4; ihave Ps5 := held_intro _ $$ Ps5; ihave Ps6 := held_intro _ $$ Ps6
  ihave Pr0 := held_intro _ $$ Pr0; ihave Pr1 := held_intro _ $$ Pr1; ihave Pr2 := held_intro _ $$ Pr2; ihave Pr3 := held_intro _ $$ Pr3
  ihave Pr4 := held_intro _ $$ Pr4; ihave Pr5 := held_intro _ $$ Pr5; ihave Pr6 := held_intro _ $$ Pr6
  ihave Cbar := held_intro _ $$ Cbar
  ihave Cr0 := held_intro _ $$ Cr0; ihave Cr1 := held_intro _ $$ Cr1; ihave Cr2 := held_intro _ $$ Cr2; ihave Cr3 := held_intro _ $$ Cr3
  ihave Cr4 := held_intro _ $$ Cr4; ihave Cr5 := held_intro _ $$ Cr5; ihave Cr6 := held_intro _ $$ Cr6
  have hmwl : ∀ (sm : SemLoc sig) (O : CellTallies nD τ sig Unit), lv ((c : Thread nD τ), sm) () = 0 → AtLeast 1 O →
      ((levAts L lv : sProp 𝕄) ⊢ MayWait (c : Thread nD τ) sm () O) := fun sm O h1 h2 => mayWait_low c sm h1 O h2
  have hA0 : AtLeast 1 (OR0 c) := atLeast_mono (by decide) (atLeast_OR0 c)
  have hA1 : AtLeast 1 (OR1 c) := atLeast_mono (by decide) (atLeast_OR1 c)
  have hA2 : AtLeast 1 (OR2 c) := atLeast_mono (by decide) (atLeast_OR2 c)
  have hA3 : AtLeast 1 (OR3 c) := atLeast_mono (by decide) (atLeast_OR3 c)
  have hA4 : AtLeast 1 (OR4 c) := atLeast_mono (by decide) (atLeast_OR4 c)
  have hA5 : AtLeast 1 (OR5 c) := atLeast_mono (by decide) (atLeast_OR5 c)
  have hA6 : AtLeast 1 (OR6 c) := atLeast_mono (by decide) (atLeast_OR6 c)
  sl_exec_parts
  -- the signal to the device 1 ahead: duty 0 of its barrier cell, handing over this device's receive slot 1
  ihave T := held_elim $$ Tbf1
  iapply (wp_signal_step m K 𝒱₀ none (0 : Fin 7) c (fwd 1 c) rfl fr (OB2 c) rfl W) $$ [HO T Hr1]
  · isplitr; · iexact Ibf1
    isplitl [HO]; · iexact HO
    isplitl [T]; · iexact T
    isplitl [Hr1]; · iexact Hr1
    isplitr; · iexact Rr0
    iexact Rbf1
  iintro HO
  sl_exec_parts
  -- the signal to the device 2 ahead: duty 1 of its barrier cell, handing over this device's receive slot 2
  ihave T := held_elim $$ Tbf2
  iapply (wp_signal_step m K 𝒱₀ none (1 : Fin 7) c (fwd 2 c) rfl fr (OB3 c) rfl W) $$ [HO T Hr2]
  · isplitr; · iexact Ibf2
    isplitl [HO]; · iexact HO
    isplitl [T]; · iexact T
    isplitl [Hr2]; · iexact Hr2
    isplitr; · iexact Rr1
    iexact Rbf2
  iintro HO
  sl_exec_parts
  -- the signal to the device 3 ahead: duty 2 of its barrier cell, handing over this device's receive slot 3
  ihave T := held_elim $$ Tbf3
  iapply (wp_signal_step m K 𝒱₀ none (2 : Fin 7) c (fwd 3 c) rfl fr (OB4 c) rfl W) $$ [HO T Hr3]
  · isplitr; · iexact Ibf3
    isplitl [HO]; · iexact HO
    isplitl [T]; · iexact T
    isplitl [Hr3]; · iexact Hr3
    isplitr; · iexact Rr2
    iexact Rbf3
  iintro HO
  sl_exec_parts
  -- the signal to the device 4 ahead: duty 3 of its barrier cell, handing over this device's receive slot 4
  ihave T := held_elim $$ Tbf4
  iapply (wp_signal_step m K 𝒱₀ none (3 : Fin 7) c (fwd 4 c) rfl fr (OB5 c) rfl W) $$ [HO T Hr4]
  · isplitr; · iexact Ibf4
    isplitl [HO]; · iexact HO
    isplitl [T]; · iexact T
    isplitl [Hr4]; · iexact Hr4
    isplitr; · iexact Rr3
    iexact Rbf4
  iintro HO
  sl_exec_parts
  -- the signal to the device 5 ahead: duty 4 of its barrier cell, handing over this device's receive slot 5
  ihave T := held_elim $$ Tbf5
  iapply (wp_signal_step m K 𝒱₀ none (4 : Fin 7) c (fwd 5 c) rfl fr (OB6 c) rfl W) $$ [HO T Hr5]
  · isplitr; · iexact Ibf5
    isplitl [HO]; · iexact HO
    isplitl [T]; · iexact T
    isplitl [Hr5]; · iexact Hr5
    isplitr; · iexact Rr4
    iexact Rbf5
  iintro HO
  sl_exec_parts
  -- the signal to the device 6 ahead: duty 5 of its barrier cell, handing over this device's receive slot 6
  ihave T := held_elim $$ Tbf6
  iapply (wp_signal_step m K 𝒱₀ none (5 : Fin 7) c (fwd 6 c) rfl fr (OB7 c) rfl W) $$ [HO T Hr6]
  · isplitr; · iexact Ibf6
    isplitl [HO]; · iexact HO
    isplitl [T]; · iexact T
    isplitl [Hr6]; · iexact Hr6
    isplitr; · iexact Rr5
    iexact Rbf6
  iintro HO
  sl_exec_parts
  -- the signal to the device 7 ahead: duty 6 of its barrier cell, handing over this device's receive slot 7
  ihave T := held_elim $$ Tbf7
  iapply (wp_signal_step m K 𝒱₀ none (6 : Fin 7) c (fwd 7 c) rfl fr (OR0 c) rfl W) $$ [HO T Hr7]
  · isplitr; · iexact Ibf7
    isplitl [HO]; · iexact HO
    isplitl [T]; · iexact T
    isplitl [Hr7]; · iexact Hr7
    isplitr; · iexact Rr6
    iexact Rbf7
  iintro HO
  sl_exec_parts
  -- the barrier wait, owing the seven receive credits: the seven peers' slots come with it
  ihave Cb := held_elim _ $$ Cbar
  ihave Pb := held_elim _ $$ Pbar
  iapply (wp_bar_wait m K 𝒱₀ none c (OR0 c) (mayWait_bar c (OR0 c) (atLeast_OR0 c)) _ (Set.mem_univ _)) $$ [Cb HO Pb]
  · isplitr; · iexact Ibar
    isplitl [Cb]; · iexact Cb
    isplitl [HO]; · iexact HO
    isplitr; · iexact Hlev
    iexact Pb
  iintro ⟨HO, Pb, ⟨⟨%g1, Hq1⟩, #Rq1⟩, ⟨⟨%g2, Hq2⟩, #Rq2⟩, ⟨⟨%g3, Hq3⟩, #Rq3⟩, ⟨⟨%g4, Hq4⟩, #Rq4⟩, ⟨⟨%g5, Hq5⟩, #Rq5⟩, ⟨⟨%g6, Hq6⟩, #Rq6⟩, ⟨⟨%g7, Hq7⟩, #Rq7⟩⟩
  sl_exec_parts
  -- this device's own rows, cast: receive slot 0 holds what the landing contents say it holds
  ihave Hr0 := (slot0_step' m c _ _ _ _ (by rfl)) $$ Hr0
  -- step 1: the bf16 copy of the rows of the device 1 behind goes into that device's receive slot 1
  ihave Hb := (x16_step1' m c _ _ _ _ _ _ (by rfl)) $$ Hb0
  ihave Tsd := held_elim _ $$ Ts0
  ihave Trv := held_elim _ $$ Trb0
  iapply (wp_send_step m K 𝒱₀ none (0 : Fin 7) c _ (dev8_eq c) g1 (OR1 c) rfl _) $$ [Hb Hq1 HO Tsd Trv]
  · isplitr; · iexact Is0
    isplitr; · iexact Irb0
    isplitl [Hb]; · iexact Hb
    isplitl [Hq1]; · iexact Hq1
    isplitl [HO]; · iexact HO
    isplitl [Tsd]; · iexact Tsd
    isplitr; · iexact Rs0
    isplitl [Trv]; · iexact Trv
    iexact Rrb0
  iintro ⟨Csd0, HO⟩
  ihave Csd0 := held_intro _ $$ Csd0
  sl_exec_parts
  -- step 2: the bf16 copy of the rows of the device 2 behind goes into that device's receive slot 2
  ihave Hb := (x16_step2' m c _ _ _ _ _ _ (by rfl)) $$ Hb1
  ihave Tsd := held_elim _ $$ Ts1
  ihave Trv := held_elim _ $$ Trb1
  iapply (wp_send_step m K 𝒱₀ none (1 : Fin 7) c _ (dev9_eq c) g2 (OR2 c) rfl _) $$ [Hb Hq2 HO Tsd Trv]
  · isplitr; · iexact Is1
    isplitr; · iexact Irb1
    isplitl [Hb]; · iexact Hb
    isplitl [Hq2]; · iexact Hq2
    isplitl [HO]; · iexact HO
    isplitl [Tsd]; · iexact Tsd
    isplitr; · iexact Rs1
    isplitl [Trv]; · iexact Trv
    iexact Rrb1
  iintro ⟨Csd1, HO⟩
  ihave Csd1 := held_intro _ $$ Csd1
  sl_exec_parts
  -- step 3: the bf16 copy of the rows of the device 3 behind goes into that device's receive slot 3
  ihave Hb := (x16_step3' m c _ _ _ _ _ _ (by rfl)) $$ Hb2
  ihave Tsd := held_elim _ $$ Ts2
  ihave Trv := held_elim _ $$ Trb2
  iapply (wp_send_step m K 𝒱₀ none (2 : Fin 7) c _ (dev10_eq c) g3 (OR3 c) rfl _) $$ [Hb Hq3 HO Tsd Trv]
  · isplitr; · iexact Is2
    isplitr; · iexact Irb2
    isplitl [Hb]; · iexact Hb
    isplitl [Hq3]; · iexact Hq3
    isplitl [HO]; · iexact HO
    isplitl [Tsd]; · iexact Tsd
    isplitr; · iexact Rs2
    isplitl [Trv]; · iexact Trv
    iexact Rrb2
  iintro ⟨Csd2, HO⟩
  ihave Csd2 := held_intro _ $$ Csd2
  sl_exec_parts
  -- step 4: the bf16 copy of the rows of the device 4 behind goes into that device's receive slot 4
  ihave Hb := (x16_step4' m c _ _ _ _ _ _ (by rfl)) $$ Hb3
  ihave Tsd := held_elim _ $$ Ts3
  ihave Trv := held_elim _ $$ Trb3
  iapply (wp_send_step m K 𝒱₀ none (3 : Fin 7) c _ (dev11_eq c) g4 (OR4 c) rfl _) $$ [Hb Hq4 HO Tsd Trv]
  · isplitr; · iexact Is3
    isplitr; · iexact Irb3
    isplitl [Hb]; · iexact Hb
    isplitl [Hq4]; · iexact Hq4
    isplitl [HO]; · iexact HO
    isplitl [Tsd]; · iexact Tsd
    isplitr; · iexact Rs3
    isplitl [Trv]; · iexact Trv
    iexact Rrb3
  iintro ⟨Csd3, HO⟩
  ihave Csd3 := held_intro _ $$ Csd3
  sl_exec_parts
  -- step 5: the bf16 copy of the rows of the device 5 behind goes into that device's receive slot 5
  ihave Hb := (x16_step5' m c _ _ _ _ _ _ (by rfl)) $$ Hb4
  ihave Tsd := held_elim _ $$ Ts4
  ihave Trv := held_elim _ $$ Trb4
  iapply (wp_send_step m K 𝒱₀ none (4 : Fin 7) c _ (dev12_eq c) g5 (OR5 c) rfl _) $$ [Hb Hq5 HO Tsd Trv]
  · isplitr; · iexact Is4
    isplitr; · iexact Irb4
    isplitl [Hb]; · iexact Hb
    isplitl [Hq5]; · iexact Hq5
    isplitl [HO]; · iexact HO
    isplitl [Tsd]; · iexact Tsd
    isplitr; · iexact Rs4
    isplitl [Trv]; · iexact Trv
    iexact Rrb4
  iintro ⟨Csd4, HO⟩
  ihave Csd4 := held_intro _ $$ Csd4
  sl_exec_parts
  -- step 6: the bf16 copy of the rows of the device 6 behind goes into that device's receive slot 6
  ihave Hb := (x16_step6' m c _ _ _ _ _ _ (by rfl)) $$ Hb5
  ihave Tsd := held_elim _ $$ Ts5
  ihave Trv := held_elim _ $$ Trb5
  iapply (wp_send_step m K 𝒱₀ none (5 : Fin 7) c _ (dev13_eq c) g6 (OR6 c) rfl _) $$ [Hb Hq6 HO Tsd Trv]
  · isplitr; · iexact Is5
    isplitr; · iexact Irb5
    isplitl [Hb]; · iexact Hb
    isplitl [Hq6]; · iexact Hq6
    isplitl [HO]; · iexact HO
    isplitl [Tsd]; · iexact Tsd
    isplitr; · iexact Rs5
    isplitl [Trv]; · iexact Trv
    iexact Rrb5
  iintro ⟨Csd5, HO⟩
  ihave Csd5 := held_intro _ $$ Csd5
  sl_exec_parts
  -- step 7: the bf16 copy of the rows of the device 7 behind goes into that device's receive slot 7
  ihave Hb := (x16_step7' m c _ _ _ _ _ _ (by rfl)) $$ Hb6
  ihave Tsd := held_elim _ $$ Ts6
  ihave Trv := held_elim _ $$ Trb6
  iapply (wp_send_step m K 𝒱₀ none (6 : Fin 7) c _ (dev14_eq c) g7 0 (zero_add _).symm _) $$ [Hb Hq7 HO Tsd Trv]
  · isplitr; · iexact Is6
    isplitr; · iexact Irb6
    isplitl [Hb]; · iexact Hb
    isplitl [Hq7]; · iexact Hq7
    isplitl [HO]; · iexact HO
    isplitl [Tsd]; · iexact Tsd
    isplitr; · iexact Rs6
    isplitl [Trv]; · iexact Trv
    iexact Rrb6
  iintro ⟨Csd6, HO⟩
  ihave Csd6 := held_intro _ $$ Csd6
  sl_exec_parts
  -- each plane of the f32 staging buffer again in one piece: the weight blocks fill whole planes
  ihave Hp0 := (v_plane_join c 0 _ _) $$ [Hv0 Hvh0]
  · isplitl [Hv0]; · iexact Hv0
    iexact Hvh0
  icases Hp0 with ⟨%h0, Hp0⟩
  ihave Hp1 := (v_plane_join c 1 _ _) $$ [Hv1 Hvh1]
  · isplitl [Hv1]; · iexact Hv1
    iexact Hvh1
  icases Hp1 with ⟨%h1, Hp1⟩
  sl_exec_parts
  -- the wait for the rows sent by the device 1 ahead: receive slot 1 now holds them
  ihave Crv := held_elim _ $$ Cr0
  ihave Prv := held_elim _ $$ Pr0
  iapply (wp_recv_wait_step m K 𝒱₀ none (0 : Fin 7) c _ (Set.mem_univ _)) $$ [Crv HO Prv]
  · isplitr; · iexact Ir0
    isplitl [Crv]; · iexact Crv
    isplitl [HO]; · iexact HO
    iexact Prv
  iintro ⟨HO, Hr1, Zr0⟩
  sl_exec_parts
  -- the wait for the rows sent by the device 2 ahead: receive slot 2 now holds them
  ihave Crv := held_elim _ $$ Cr1
  ihave Prv := held_elim _ $$ Pr1
  iapply (wp_recv_wait_step m K 𝒱₀ none (1 : Fin 7) c _ (Set.mem_univ _)) $$ [Crv HO Prv]
  · isplitr; · iexact Ir1
    isplitl [Crv]; · iexact Crv
    isplitl [HO]; · iexact HO
    iexact Prv
  iintro ⟨HO, Hr2, Zr1⟩
  sl_exec_parts
  -- the wait for the rows sent by the device 3 ahead: receive slot 3 now holds them
  ihave Crv := held_elim _ $$ Cr2
  ihave Prv := held_elim _ $$ Pr2
  iapply (wp_recv_wait_step m K 𝒱₀ none (2 : Fin 7) c _ (Set.mem_univ _)) $$ [Crv HO Prv]
  · isplitr; · iexact Ir2
    isplitl [Crv]; · iexact Crv
    isplitl [HO]; · iexact HO
    iexact Prv
  iintro ⟨HO, Hr3, Zr2⟩
  sl_exec_parts
  -- the wait for the rows sent by the device 4 ahead: receive slot 4 now holds them
  ihave Crv := held_elim _ $$ Cr3
  ihave Prv := held_elim _ $$ Pr3
  iapply (wp_recv_wait_step m K 𝒱₀ none (3 : Fin 7) c _ (Set.mem_univ _)) $$ [Crv HO Prv]
  · isplitr; · iexact Ir3
    isplitl [Crv]; · iexact Crv
    isplitl [HO]; · iexact HO
    iexact Prv
  iintro ⟨HO, Hr4, Zr3⟩
  sl_exec_parts
  -- the wait for the rows sent by the device 5 ahead: receive slot 5 now holds them
  ihave Crv := held_elim _ $$ Cr4
  ihave Prv := held_elim _ $$ Pr4
  iapply (wp_recv_wait_step m K 𝒱₀ none (4 : Fin 7) c _ (Set.mem_univ _)) $$ [Crv HO Prv]
  · isplitr; · iexact Ir4
    isplitl [Crv]; · iexact Crv
    isplitl [HO]; · iexact HO
    iexact Prv
  iintro ⟨HO, Hr5, Zr4⟩
  sl_exec_parts
  -- the wait for the rows sent by the device 6 ahead: receive slot 6 now holds them
  ihave Crv := held_elim _ $$ Cr5
  ihave Prv := held_elim _ $$ Pr5
  iapply (wp_recv_wait_step m K 𝒱₀ none (5 : Fin 7) c _ (Set.mem_univ _)) $$ [Crv HO Prv]
  · isplitr; · iexact Ir5
    isplitl [Crv]; · iexact Crv
    isplitl [HO]; · iexact HO
    iexact Prv
  iintro ⟨HO, Hr6, Zr5⟩
  sl_exec_parts
  -- the wait for the rows sent by the device 7 ahead: receive slot 7 now holds them
  ihave Crv := held_elim _ $$ Cr6
  ihave Prv := held_elim _ $$ Pr6
  iapply (wp_recv_wait_step m K 𝒱₀ none (6 : Fin 7) c _ (Set.mem_univ _)) $$ [Crv HO Prv]
  · isplitr; · iexact Ir6
    isplitl [Crv]; · iexact Crv
    isplitl [HO]; · iexact HO
    iexact Prv
  iintro ⟨HO, Hr7, Zr6⟩
  sl_exec_parts
  -- the wait on send semaphore 1: the sent block is this device's again
  ihave Csd := held_elim _ $$ Csd0
  ihave Psd := held_elim _ $$ Ps0
  iapply (wp_send_wait_step m K 𝒱₀ none (0 : Fin 7) c _ (Set.mem_univ _)) $$ [Csd HO Psd]
  · isplitr; · iexact Is0
    isplitl [Csd]; · iexact Csd
    isplitl [HO]; · iexact HO
    iexact Psd
  iintro ⟨HO, Hb0, Zs0⟩
  sl_exec_parts
  -- the wait on send semaphore 2: the sent block is this device's again
  ihave Csd := held_elim _ $$ Csd1
  ihave Psd := held_elim _ $$ Ps1
  iapply (wp_send_wait_step m K 𝒱₀ none (1 : Fin 7) c _ (Set.mem_univ _)) $$ [Csd HO Psd]
  · isplitr; · iexact Is1
    isplitl [Csd]; · iexact Csd
    isplitl [HO]; · iexact HO
    iexact Psd
  iintro ⟨HO, Hb1, Zs1⟩
  sl_exec_parts
  -- the wait on send semaphore 3: the sent block is this device's again
  ihave Csd := held_elim _ $$ Csd2
  ihave Psd := held_elim _ $$ Ps2
  iapply (wp_send_wait_step m K 𝒱₀ none (2 : Fin 7) c _ (Set.mem_univ _)) $$ [Csd HO Psd]
  · isplitr; · iexact Is2
    isplitl [Csd]; · iexact Csd
    isplitl [HO]; · iexact HO
    iexact Psd
  iintro ⟨HO, Hb2, Zs2⟩
  sl_exec_parts
  -- the wait on send semaphore 4: the sent block is this device's again
  ihave Csd := held_elim _ $$ Csd3
  ihave Psd := held_elim _ $$ Ps3
  iapply (wp_send_wait_step m K 𝒱₀ none (3 : Fin 7) c _ (Set.mem_univ _)) $$ [Csd HO Psd]
  · isplitr; · iexact Is3
    isplitl [Csd]; · iexact Csd
    isplitl [HO]; · iexact HO
    iexact Psd
  iintro ⟨HO, Hb3, Zs3⟩
  sl_exec_parts
  -- the wait on send semaphore 5: the sent block is this device's again
  ihave Csd := held_elim _ $$ Csd4
  ihave Psd := held_elim _ $$ Ps4
  iapply (wp_send_wait_step m K 𝒱₀ none (4 : Fin 7) c _ (Set.mem_univ _)) $$ [Csd HO Psd]
  · isplitr; · iexact Is4
    isplitl [Csd]; · iexact Csd
    isplitl [HO]; · iexact HO
    iexact Psd
  iintro ⟨HO, Hb4, Zs4⟩
  sl_exec_parts
  -- the wait on send semaphore 6: the sent block is this device's again
  ihave Csd := held_elim _ $$ Csd5
  ihave Psd := held_elim _ $$ Ps5
  iapply (wp_send_wait_step m K 𝒱₀ none (5 : Fin 7) c _ (Set.mem_univ _)) $$ [Csd HO Psd]
  · isplitr; · iexact Is5
    isplitl [Csd]; · iexact Csd
    isplitl [HO]; · iexact HO
    iexact Psd
  iintro ⟨HO, Hb5, Zs5⟩
  sl_exec_parts
  -- the wait on send semaphore 7: the sent block is this device's again
  ihave Csd := held_elim _ $$ Csd6
  ihave Psd := held_elim _ $$ Ps6
  iapply (wp_send_wait_step m K 𝒱₀ none (6 : Fin 7) c _ (Set.mem_univ _)) $$ [Csd HO Psd]
  · isplitr; · iexact Is6
    isplitl [Csd]; · iexact Csd
    isplitl [HO]; · iexact HO
    iexact Psd
  iintro ⟨HO, Hb6, Zs6⟩
  sl_exec_parts
  -- the return: every array back in the shape the postcondition names
  ihave Hout := (out_convert m c _ _ _ _ _ _ _ _ _ _ _ _ _ _ _ _ _ _ _ _ _ _ _ _ _ _
      (aload_eq0 m c) (aload_eq1 m c) (aload_eq2 m c) (aload_eq3 m c) (aload_eq4 m c) (aload_eq5 m c) (aload_eq6 m c) (aload_eq7 m c)
      (wload0_eq_lit0 m 0 c _ _) (wload1_eq_lit1 m 0 c _ _) (wload0_eq_lit0 m 1 c _ _) (wload1_eq_lit1 m 1 c _ _) (wload0_eq_lit0 m 2 c _ _) (wload1_eq_lit1 m 2 c _ _) (wload0_eq_lit0 m 3 c _ _) (wload1_eq_lit1 m 3 c _ _) (wload0_eq_lit0 m 4 c _ _) (wload1_eq_lit1 m 4 c _ _) (wload0_eq_lit0 m 5 c _ _) (wload1_eq_lit1 m 5 c _ _) (wload0_eq_lit0 m 6 c _ _) (wload1_eq_lit1 m 6 c _ _) (wload0_eq_lit0 m 7 c _ _) (wload1_eq_lit1 m 7 c _ _)
      (by rfl)) $$ Hout
  rw [wp_ret]; imodintro
  iapply Hk
  unfold postS xferSems0 idleSems
  isplitr; · iempintro
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hw00]; · iexact Hw00
  isplitl [Hw01]; · iexact Hw01
  isplitl [Hw10]; · iexact Hw10
  isplitl [Hw11]; · iexact Hw11
  isplitl [Hw20]; · iexact Hw20
  isplitl [Hw21]; · iexact Hw21
  isplitl [Hw30]; · iexact Hw30
  isplitl [Hw31]; · iexact Hw31
  isplitl [Hw40]; · iexact Hw40
  isplitl [Hw41]; · iexact Hw41
  isplitl [Hw50]; · iexact Hw50
  isplitl [Hw51]; · iexact Hw51
  isplitl [Hw60]; · iexact Hw60
  isplitl [Hw61]; · iexact Hw61
  isplitl [Hw70]; · iexact Hw70
  isplitl [Hw71]; · iexact Hw71
  isplitl [Hr0 Hr1 Hr2 Hr3 Hr4 Hr5 Hr6 Hr7]
  · iexists _, _, _, _, _, _, _, _
    isplitr; · iempintro
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hp0 Hp1]
  · iexists _, _
    isplitl [Hp0]; · iexact Hp0
    iexact Hp1
  isplitl [Hc16]; · iexists _; iexact Hc16
  isplitl [Zs0 Zs1 Zs2 Zs3 Zs4 Zs5 Zs6 Zr0 Zr1 Zr2 Zr3 Zr4 Zr5 Zr6]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    iexact Zr6
  isplitl [Z1 Z9 Z17 Z18 Z19 Z20 Z21]
  · isplitl [Z1]; · iexact Z1
    isplitl [Z9]; · iexact Z9
    isplitl [Z17]; · iexact Z17
    isplitl [Z18]; · iexact Z18
    isplitl [Z19]; · iexact Z19
    isplitl [Z20]; · iexact Z20
    iexact Z21
  isplitl [HO]; · iexists _; iexact HO
  iexact Hout

/-- info: 'Cert.KernelIdeal.A2A.body_pieces' depends on axioms: [propext, Classical.choice, Quot.sound] -/
#guard_msgs in #print axioms body_pieces

end Cert.KernelIdeal.A2A

end
-- ==== Proof.Bits.Ring8.lean ====
/-
  The ring arithmetic of the eight devices. Device `c` addresses, at offset `k`, the device `k` places
  ahead of it (`fwd k c`: the peers it signals at entry) and the device `k` places behind it (`bwd k c`: the
  peer whose row block of `x` it casts and sends at step `k`). The printed device chains and slice
  offsets are these rotations, decided over the mesh.
-/
import proofs.«900489_g7700000000000490_dist_a2a_gemm_m8192_k8192_n4096_f32_gelu_v7x_i8_1_alg».proof.Proof.Gen.Kernel
import Idealize.ShloMosaic.Lib.Tactic

namespace Cert.Kernel.Ring8

open Idealize.ShloMosaic Cert.Kernel Cert.Kernel.Gen

/-- The device `k` places ahead of `c` on the ring of eight. -/
def fwd (k : Nat) (c : Dev nD) : Dev nD := ⟨(c.val + k) % 8, Nat.mod_lt _ (by decide)⟩
/-- The device `k` places behind `c`. -/
def bwd (k : Nat) (c : Dev nD) : Dev nD := ⟨(c.val + (8 - k % 8)) % 8, Nat.mod_lt _ (by decide)⟩

theorem bwd_fwd : ∀ (k : Fin 8) (c : Dev nD), bwd k.val (fwd k.val c) = c := by decide
theorem fwd_bwd : ∀ (k : Fin 8) (c : Dev nD), fwd k.val (bwd k.val c) = c := by decide
theorem fwd_zero : ∀ c : Dev nD, fwd 0 c = c := by decide
theorem bwd_zero : ∀ c : Dev nD, bwd 0 c = c := by decide
theorem fwd_ne : ∀ (k : Fin 8) (c : Dev nD), k.val ≠ 0 → fwd k.val c ≠ c := by decide
theorem bwd_ne : ∀ (k : Fin 8) (c : Dev nD), k.val ≠ 0 → bwd k.val c ≠ c := by decide

/-- Rotation by `k` as a permutation of the devices. -/
def rot (k : Fin 8) : Dev nD ≃ Dev nD := ⟨fwd k.val, bwd k.val, bwd_fwd k, fwd_bwd k⟩

/-! The seven entry signals address the devices ahead. -/
@[sl_canon] theorem dev1_eq : ∀ c : Dev nD, (⟨k0_dev1 c, k0_dev1_lt c⟩ : Dev nD) = fwd 1 c := by decide +kernel
@[sl_canon] theorem dev2_eq : ∀ c : Dev nD, (⟨k0_dev2 c, k0_dev2_lt c⟩ : Dev nD) = fwd 2 c := by decide +kernel
@[sl_canon] theorem dev3_eq : ∀ c : Dev nD, (⟨k0_dev3 c, k0_dev3_lt c⟩ : Dev nD) = fwd 3 c := by decide +kernel
@[sl_canon] theorem dev4_eq : ∀ c : Dev nD, (⟨k0_dev4 c, k0_dev4_lt c⟩ : Dev nD) = fwd 4 c := by decide +kernel
@[sl_canon] theorem dev5_eq : ∀ c : Dev nD, (⟨k0_dev5 c, k0_dev5_lt c⟩ : Dev nD) = fwd 5 c := by decide +kernel
@[sl_canon] theorem dev6_eq : ∀ c : Dev nD, (⟨k0_dev6 c, k0_dev6_lt c⟩ : Dev nD) = fwd 6 c := by decide +kernel
@[sl_canon] theorem dev7_eq : ∀ c : Dev nD, (⟨k0_dev7 c, k0_dev7_lt c⟩ : Dev nD) = fwd 7 c := by decide +kernel
/-! The seven remote copies address the devices behind. -/
@[sl_canon] theorem dev8_eq : ∀ c : Dev nD, (⟨k0_dev8 c, k0_dev8_lt c⟩ : Dev nD) = bwd 1 c := by decide +kernel
@[sl_canon] theorem dev9_eq : ∀ c : Dev nD, (⟨k0_dev9 c, k0_dev9_lt c⟩ : Dev nD) = bwd 2 c := by decide +kernel
@[sl_canon] theorem dev10_eq : ∀ c : Dev nD, (⟨k0_dev10 c, k0_dev10_lt c⟩ : Dev nD) = bwd 3 c := by decide +kernel
@[sl_canon] theorem dev11_eq : ∀ c : Dev nD, (⟨k0_dev11 c, k0_dev11_lt c⟩ : Dev nD) = bwd 4 c := by decide +kernel
@[sl_canon] theorem dev12_eq : ∀ c : Dev nD, (⟨k0_dev12 c, k0_dev12_lt c⟩ : Dev nD) = bwd 5 c := by decide +kernel
@[sl_canon] theorem dev13_eq : ∀ c : Dev nD, (⟨k0_dev13 c, k0_dev13_lt c⟩ : Dev nD) = bwd 6 c := by decide +kernel
@[sl_canon] theorem dev14_eq : ∀ c : Dev nD, (⟨k0_dev14 c, k0_dev14_lt c⟩ : Dev nD) = bwd 7 c := by decide +kernel

/-! The row offsets: step `k`'s block of `x` (and of its bf16 copy) starts at the row block of the device `k`
    behind; the weight's row block at step `t` is that of the device `t` ahead, its columns the low or the high half. -/
theorem off2_eq : ∀ (c : Dev nD) (r : Fin 7), k0_off2 c (BitVec.ofNat 32 (1 + r.val)) = ![1024 * (bwd (1 + r.val) c).val, 0] := by decide +kernel
theorem off3_eq : ∀ (c : Dev nD) (r : Fin 8), k0_off3 c (BitVec.ofNat 32 r.val) = ![1024 * (fwd r.val c).val, 0] := by decide +kernel
theorem off4_eq : ∀ (c : Dev nD) (r : Fin 8), k0_off4 c (BitVec.ofNat 32 r.val) = ![1024 * (fwd r.val c).val, 2048] := by decide +kernel

instance closedOff_off2 (c : Dev nD) (r : Fin 7) : ClosedOff (k0_off2 c (BitVec.ofNat 32 (1 + r.val))) := ⟨_, off2_eq c r⟩
instance closedOff_off3 (c : Dev nD) (r : Fin 8) : ClosedOff (k0_off3 c (BitVec.ofNat 32 r.val)) := ⟨_, off3_eq c r⟩
instance closedOff_off4 (c : Dev nD) (r : Fin 8) : ClosedOff (k0_off4 c (BitVec.ofNat 32 r.val)) := ⟨_, off4_eq c r⟩

end Cert.Kernel.Ring8
-- ==== Proof.Bits.Proto.lean ====
/-
  The all-to-all's protocol as a schedule of rounds. Every device signals the barrier semaphore of each of
  the seven others (one unit each) and waits for seven; at step `r + 1` (`r : Fin 7`) it sends the bf16 copy of
  the row block of its `x` that belongs to the device `r + 1` places behind it into that device's receive
  slot `r + 1`, on its own send semaphore `r + 1` and the peer's receive semaphore `r + 1`.
  A barrier cell has one round of seven unit duties, duty `r` paid by the device `r + 1` behind the owner and
  handing over the payer's receive slot `r + 1` (which the owner then fills) with the fact that the payer's
  receive cell `r` is open; a send cell has one duty that returns the sent block; a receive cell one duty
  that delivers the slot holding the sender's rows.
-/
import proofs.«900489_g7700000000000490_dist_a2a_gemm_m8192_k8192_n4096_f32_gelu_v7x_i8_1_alg».proof.Proof.Bits.Ring8
import proofs.«900489_g7700000000000490_dist_a2a_gemm_m8192_k8192_n4096_f32_gelu_v7x_i8_1_alg».proof.Proof.Gen.Kernel.Skeleton
import proofs.«900489_g7700000000000490_dist_a2a_gemm_m8192_k8192_n4096_f32_gelu_v7x_i8_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the step) -/

abbrev Dy : Type := Fin 7
abbrev UB : Type := URounds (GSem nD τ sig) Dy
/-- The pipeline library's copy, beside the protocol's rounds and the counters the local copies' invariants take their tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

/-- The runtime's barrier semaphore of collective id 0. -/
abbrev barS : Sem sig := (SemArray.scalar (sig.barrier 0 rfl) : Sems sig S_).sem
/-- Step `r + 1`'s send and receive semaphores: entries `r + 1` of the two arrays of eight. -/
abbrev sendSem (r : Fin 7) : DmaSem sig := ⟨2 + r.val, by have := r.isLt; show _ < 22; omega⟩
abbrev recvSem (r : Fin 7) : DmaSem sig := ⟨10 + r.val, by have := r.isLt; show _ < 22; omega⟩

abbrev barCell (c : Dev nD) : GSem nD τ sig := ((c : Thread nD τ), .reg barS)
abbrev sendCell (r : Fin 7) (c : Dev nD) : GSem nD τ sig := ((c : Thread nD τ), .dma (sendSem r))
abbrev recvCell (r : Fin 7) (c : Dev nD) : GSem nD τ sig := ((c : Thread nD τ), .dma (recvSem r))

/-- Which transfer cell a semaphore is: `(false, r)` the send cell of step `r + 1`, `(true, r)` its receive cell. -/
def xfer : SemLoc sig → Option (Bool × Fin 7)
  | .dma s => if h : 2 ≤ s.val ∧ s.val < 9 then some (false, ⟨s.val - 2, by omega⟩)
      else if h : 10 ≤ s.val ∧ s.val < 17 then some (true, ⟨s.val - 10, by omega⟩) else none
  | .reg _ => none

theorem xfer_send : ∀ r : Fin 7, xfer (.dma (sendSem r)) = some (false, r) := by decide
theorem xfer_recv : ∀ r : Fin 7, xfer (.dma (recvSem r)) = some (true, r) := by decide
theorem xfer_bar : xfer (.reg barS) = none := rfl

/-! ## Memrefs -/

theorem slot_inb : ∀ (k : Fin 8) a, (![k.val, 0, 0] : Fin 3 → Nat) a + S1x1024x1024.size a ≤ S8x1024x1024.size a := by decide

/-- Receive slot `k` of the eight: `[1024, 1024]` of bf16. -/
abbrev rslot (k : Fin 8) : Memref sig .tc .vmem S1024x1024 .bf16 :=
  ((Memref.whole cc0_scratch0 : Memref sig .tc .vmem S8x1024x1024 .bf16).slice (Rect.unit (s := S8x1024x1024) ![k.val, 0, 0] S1x1024x1024.size (slot_inb k)) (fun _ => rfl)).squeeze S1024x1024 squeezes_S1x1024x1024_S1024x1024

/-- The row block of the bf16 copy of `x` that step `r + 1` fills and sends: rows of the device `r + 1` behind. -/
abbrev xblk16 (r : Fin 7) (c : Dev nD) : Memref sig .tc .hbm S1024x1024 .bf16 :=
  (Memref.whole main_v1_1 : Memref sig .tc .hbm S8192x1024 .bf16).slice (Rect.unit (s := S8192x1024) (k0_off2 c (BitVec.ofNat 32 (1 + r.val))) S1024x1024.size (k0_off2_inb c r)) (fun _ => rfl)

/-- The credit of one `[1024, 1024]` bf16 transfer. -/
abbrev N : ℕ := (rslot 1 : Memref sig .tc .vmem S1024x1024 .bf16).view.dmaCredit
theorem N_pos : 0 < N := View.dmaCredit_pos _ (by decide)

/-! ## Contents -/

/-- Device `c`'s block of `x` as launched, and its bf16 cast: what the bf16 copy holds in every row block it fills. -/
def xin (c : Dev nD) : FVec F S8192x1024 .f32 := m ((c : Thread nD τ).loc main_arg0)
def x16full (c : Dev nD) : Buf (Elt F) ((c : Thread nD τ).loc main_v1_1) := truncf .bf16 (xin m c) bitsLt_bf16_f32

/-- What device `c`'s eight receive slots hold in the end: slot `k` the cast of the rows of `c` in the block of
    `x` of the device `k` ahead (slot 0 its own). -/
def recvFull (c : Dev nD) : Buf (Elt F) ((c : Thread nD τ).loc cc0_scratch0) := fun i =>
  x16full m (fwd (i 0).val c) (ValueIdx.ix2 (⟨1024 * c.val + (i 1).val, by have h1 : (i 1).val < 1024 := (i 1).isLt; have hc : c.val < 8 := c.isLt; show _ < 8192; omega⟩ : Fin 8192) (⟨(i 2).val, (i 2).isLt⟩ : Fin 1024))

/-! ## The schedule -/

def recvPay (r : Fin 7) (c : Dev nD) : sProp 𝕄 :=
  (rslot r.succ : Memref sig .tc .vmem S1024x1024 .bf16).view.loc (c : Thread nD τ) ↦[(rslot r.succ : Memref sig .tc .vmem S1024x1024 .bf16).view.set]{fullShare} recvFull m c
def sendPay (r : Fin 7) (c : Dev nD) : sProp 𝕄 :=
  (xblk16 r c).view.loc (c : Thread nD τ) ↦[(xblk16 r c).view.set]{fullShare} x16full m c
/-- Duty `r` of `c`'s barrier cell, paid by the device `r + 1` behind: that device's receive slot `r + 1` at any
    contents, and that its receive cell `r` is open. -/
def barPay (r : Fin 7) (c : Dev nD) : sProp 𝕄 :=
  iprop((∃ f, (rslot r.succ : Memref sig .tc .vmem S1024x1024 .bf16).view.loc (bwd (r.val + 1) c : Thread nD τ) ↦[(rslot r.succ : Memref sig .tc .vmem S1024x1024 .bf16).view.set]{fullShare} f)
    ∗ reached ER (recvCell r (bwd (r.val + 1) c)) 0)

abbrev IsBar (g : GSem nD τ sig) : Prop := g.1.2 = .tc ∧ g.2 = .reg barS
abbrev IsXfer (g : GSem nD τ sig) : Prop := g.1.2 = .tc ∧ (xfer g.2).isSome = true

/-- One round: a barrier cell has seven unit duties; a send or receive cell the one duty of a block's credit. -/
def sched : Rounds.Schedule (GSem nD τ sig) Dy 𝕄 where
  duties g r := if r = 0 ∧ IsBar g then Finset.univ else if r = 0 ∧ IsXfer g then {0} else ∅
  unitless _ := False
  amount g _ _ := if g.2 = .reg barS then 1 else N
  payload g _ d :=
    match xfer g.2 with
    | some (true, r) => recvPay m r g.1.1
    | some (false, r) => sendPay m r g.1.1
    | none => if g.2 = .reg barS then barPay d g.1.1 else iprop(emp)
  amount_pos g _ _ _ := by
    by_cases h : g.2 = .reg barS
    · rw [if_pos h]; exact Nat.one_pos
    · rw [if_neg h]; exact N_pos

/-! ## The schedule's tables, cell by cell -/

section Sched
variable (c : Dev nD) (r : Fin 7)

theorem send_ne_bar : (SemLoc.dma (sendSem r) : SemLoc sig) ≠ .reg barS := fun h => by cases h
theorem recv_ne_bar : (SemLoc.dma (recvSem r) : SemLoc sig) ≠ .reg barS := fun h => by cases h
theorem not_bar_send : ¬ IsBar (sendCell r c) := fun h => send_ne_bar r h.2
theorem not_bar_recv : ¬ IsBar (recvCell r c) := fun h => recv_ne_bar r h.2
theorem isXfer_send : IsXfer (sendCell r c) := ⟨rfl, by show (xfer (.dma (sendSem r))).isSome = true; rw [xfer_send]; rfl⟩
theorem isXfer_recv : IsXfer (recvCell r c) := ⟨rfl, by show (xfer (.dma (recvSem r))).isSome = true; rw [xfer_recv]; rfl⟩

theorem duties_bar : (sched (F := F) m).duties (barCell c) 0 = Finset.univ := by dsimp only [sched]; exact if_pos ⟨rfl, rfl, rfl⟩
theorem duties_send : (sched (F := F) m).duties (sendCell r c) 0 = {0} := by
  dsimp only [sched]; rw [if_neg (fun h => not_bar_send c r h.2)]; exact if_pos ⟨rfl, isXfer_send c r⟩
theorem duties_recv : (sched (F := F) m).duties (recvCell r c) 0 = {0} := by
  dsimp only [sched]; rw [if_neg (fun h => not_bar_recv c r h.2)]; exact if_pos ⟨rfl, isXfer_recv c r⟩
theorem duties_later (g : GSem nD τ sig) : ∀ r', 1 ≤ r' → (sched (F := F) m).duties g r' = ∅ :=
  fun r' hr => by dsimp only [sched]; rw [if_neg fun h => by omega, if_neg fun h => by omega]

theorem amount_bar (d : Dy) : (sched (F := F) m).amount (barCell c) 0 d = 1 := by dsimp only [sched]; exact if_pos rfl
theorem amount_send (d : Dy) : (sched (F := F) m).amount (sendCell r c) 0 d = N := by dsimp only [sched]; exact if_neg (send_ne_bar r)
theorem amount_recv (d : Dy) : (sched (F := F) m).amount (recvCell r c) 0 d = N := by dsimp only [sched]; exact if_neg (recv_ne_bar r)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell r c) 0 = N := by
  unfold Schedule.expect Schedule.amountOf; rw [duties_send, Finset.sum_singleton, amount_send]
theorem expect_recv : (sched (F := F) m).expect (recvCell r c) 0 = N := by
  unfold Schedule.expect Schedule.amountOf; rw [duties_recv, Finset.sum_singleton, amount_recv]

theorem payload_bar (d : Dy) : (sched (F := F) m).payload (barCell c) 0 d
    = iprop((∃ f, (rslot d.succ : Memref sig .tc .vmem S1024x1024 .bf16).view.loc (bwd (d.val + 1) c : Thread nD τ) ↦[(rslot d.succ : Memref sig .tc .vmem S1024x1024 .bf16).view.set]{fullShare} f)
      ∗ reached ER (recvCell d (bwd (d.val + 1) c)) 0) := by
  show (match xfer (SemLoc.reg barS : SemLoc sig) with
    | some (true, r) => recvPay m r c | some (false, r) => sendPay m r c
    | none => if (SemLoc.reg barS : SemLoc sig) = SemLoc.reg barS then barPay d c else iprop(emp)) = _
  rw [xfer_bar]; dsimp only; rw [if_pos rfl]; rfl
theorem payload_send (d : Dy) : (sched (F := F) m).payload (sendCell r c) 0 d
    = ((xblk16 r c).view.loc (c : Thread nD τ) ↦[(xblk16 r c).view.set]{fullShare} x16full m c) := by
  show (match xfer (SemLoc.dma (sendSem r) : SemLoc sig) with
    | some (true, r') => recvPay m r' c | some (false, r') => sendPay m r' c
    | none => if (SemLoc.dma (sendSem r) : SemLoc sig) = SemLoc.reg barS then barPay d c else iprop(emp)) = _
  rw [xfer_send]; rfl
theorem payload_recv (d : Dy) : (sched (F := F) m).payload (recvCell r c) 0 d
    = ((rslot r.succ : Memref sig .tc .vmem S1024x1024 .bf16).view.loc (c : Thread nD τ) ↦[(rslot r.succ : Memref sig .tc .vmem S1024x1024 .bf16).view.set]{fullShare} recvFull m c) := by
  show (match xfer (SemLoc.dma (recvSem r) : SemLoc sig) with
    | some (true, r') => recvPay m r' c | some (false, r') => sendPay m r' c
    | none => if (SemLoc.dma (recvSem r) : SemLoc sig) = SemLoc.reg barS then barPay d c else iprop(emp)) = _
  rw [xfer_recv]; rfl

end Sched

/-! The barrier cells ahead, duty by duty: the payload a device's own signal carries is its own receive slot. -/
section Lit
variable (c : Dev nD)
theorem payload_bar_fwd1 : (sched (F := F) m).payload (barCell (fwd 1 c)) 0 (0 : Fin 7)
    = iprop((∃ f, (rslot 1 : Memref sig .tc .vmem S1024x1024 .bf16).view.loc (c : Thread nD τ) ↦[(rslot 1 : Memref sig .tc .vmem S1024x1024 .bf16).view.set]{fullShare} f) ∗ reached ER (recvCell 0 c) 0) := by
  rw [payload_bar]; show iprop((∃ f, (rslot 1 : Memref sig .tc .vmem S1024x1024 .bf16).view.loc (bwd 1 (fwd 1 c) : Thread nD τ) ↦[_]{fullShare} f) ∗ reached ER (recvCell 0 (bwd 1 (fwd 1 c))) 0) = _
  rw [show bwd 1 (fwd 1 c) = c from bwd_fwd 1 c]; rfl
theorem payload_bar_fwd2 : (sched (F := F) m).payload (barCell (fwd 2 c)) 0 (1 : Fin 7)
    = iprop((∃ f, (rslot 2 : Memref sig .tc .vmem S1024x1024 .bf16).view.loc (c : Thread nD τ) ↦[(rslot 2 : Memref sig .tc .vmem S1024x1024 .bf16).view.set]{fullShare} f) ∗ reached ER (recvCell 1 c) 0) := by
  rw [payload_bar]; show iprop((∃ f, (rslot 2 : Memref sig .tc .vmem S1024x1024 .bf16).view.loc (bwd 2 (fwd 2 c) : Thread nD τ) ↦[_]{fullShare} f) ∗ reached ER (recvCell 1 (bwd 2 (fwd 2 c))) 0) = _
  rw [show bwd 2 (fwd 2 c) = c from bwd_fwd 2 c]; rfl
theorem payload_bar_fwd3 : (sched (F := F) m).payload (barCell (fwd 3 c)) 0 (2 : Fin 7)
    = iprop((∃ f, (rslot 3 : Memref sig .tc .vmem S1024x1024 .bf16).view.loc (c : Thread nD τ) ↦[(rslot 3 : Memref sig .tc .vmem S1024x1024 .bf16).view.set]{fullShare} f) ∗ reached ER (recvCell 2 c) 0) := by
  rw [payload_bar]; show iprop((∃ f, (rslot 3 : Memref sig .tc .vmem S1024x1024 .bf16).view.loc (bwd 3 (fwd 3 c) : Thread nD τ) ↦[_]{fullShare} f) ∗ reached ER (recvCell 2 (bwd 3 (fwd 3 c))) 0) = _
  rw [show bwd 3 (fwd 3 c) = c from bwd_fwd 3 c]; rfl
theorem payload_bar_fwd4 : (sched (F := F) m).payload (barCell (fwd 4 c)) 0 (3 : Fin 7)
    = iprop((∃ f, (rslot 4 : Memref sig .tc .vmem S1024x1024 .bf16).view.loc (c : Thread nD τ) ↦[(rslot 4 : Memref sig .tc .vmem S1024x1024 .bf16).view.set]{fullShare} f) ∗ reached ER (recvCell 3 c) 0) := by
  rw [payload_bar]; show iprop((∃ f, (rslot 4 : Memref sig .tc .vmem S1024x1024 .bf16).view.loc (bwd 4 (fwd 4 c) : Thread nD τ) ↦[_]{fullShare} f) ∗ reached ER (recvCell 3 (bwd 4 (fwd 4 c))) 0) = _
  rw [show bwd 4 (fwd 4 c) = c from bwd_fwd 4 c]; rfl
theorem payload_bar_fwd5 : (sched (F := F) m).payload (barCell (fwd 5 c)) 0 (4 : Fin 7)
    = iprop((∃ f, (rslot 5 : Memref sig .tc .vmem S1024x1024 .bf16).view.loc (c : Thread nD τ) ↦[(rslot 5 : Memref sig .tc .vmem S1024x1024 .bf16).view.set]{fullShare} f) ∗ reached ER (recvCell 4 c) 0) := by
  rw [payload_bar]; show iprop((∃ f, (rslot 5 : Memref sig .tc .vmem S1024x1024 .bf16).view.loc (bwd 5 (fwd 5 c) : Thread nD τ) ↦[_]{fullShare} f) ∗ reached ER (recvCell 4 (bwd 5 (fwd 5 c))) 0) = _
  rw [show bwd 5 (fwd 5 c) = c from bwd_fwd 5 c]; rfl
theorem payload_bar_fwd6 : (sched (F := F) m).payload (barCell (fwd 6 c)) 0 (5 : Fin 7)
    = iprop((∃ f, (rslot 6 : Memref sig .tc .vmem S1024x1024 .bf16).view.loc (c : Thread nD τ) ↦[(rslot 6 : Memref sig .tc .vmem S1024x1024 .bf16).view.set]{fullShare} f) ∗ reached ER (recvCell 5 c) 0) := by
  rw [payload_bar]; show iprop((∃ f, (rslot 6 : Memref sig .tc .vmem S1024x1024 .bf16).view.loc (bwd 6 (fwd 6 c) : Thread nD τ) ↦[_]{fullShare} f) ∗ reached ER (recvCell 5 (bwd 6 (fwd 6 c))) 0) = _
  rw [show bwd 6 (fwd 6 c) = c from bwd_fwd 6 c]; rfl
theorem payload_bar_fwd7 : (sched (F := F) m).payload (barCell (fwd 7 c)) 0 (6 : Fin 7)
    = iprop((∃ f, (rslot 7 : Memref sig .tc .vmem S1024x1024 .bf16).view.loc (c : Thread nD τ) ↦[(rslot 7 : Memref sig .tc .vmem S1024x1024 .bf16).view.set]{fullShare} f) ∗ reached ER (recvCell 6 c) 0) := by
  rw [payload_bar]; show iprop((∃ f, (rslot 7 : Memref sig .tc .vmem S1024x1024 .bf16).view.loc (bwd 7 (fwd 7 c) : Thread nD τ) ↦[_]{fullShare} f) ∗ reached ER (recvCell 6 (bwd 7 (fwd 7 c))) 0) = _
  rw [show bwd 7 (fwd 7 c) = c from bwd_fwd 7 c]; rfl
end Lit

/-! ## What each device owes at launch; the levels -/

/-- Device `c` owes, for each step `r + 1`, the block's credit to the receive cell `r` of the device `r + 1` behind it,
    and one unit to the barrier cell of the device `r + 1` ahead of it. -/
def O₀ (c : Dev nD) : CellTallies nD τ sig Unit :=
  tallyAt (recvCell 0 (bwd 1 c)) () N + tallyAt (recvCell 1 (bwd 2 c)) () N + tallyAt (recvCell 2 (bwd 3 c)) () N + tallyAt (recvCell 3 (bwd 4 c)) () N
    + tallyAt (recvCell 4 (bwd 5 c)) () N + tallyAt (recvCell 5 (bwd 6 c)) () N + tallyAt (recvCell 6 (bwd 7 c)) () N
    + tallyAt (barCell (fwd 1 c)) () 1 + tallyAt (barCell (fwd 2 c)) () 1 + tallyAt (barCell (fwd 3 c)) () 1 + tallyAt (barCell (fwd 4 c)) () 1
    + tallyAt (barCell (fwd 5 c)) () 1 + tallyAt (barCell (fwd 6 c)) () 1 + tallyAt (barCell (fwd 7 c)) () 1

def L (g : GSem nD τ sig) : Finset Unit := if g.1.2 = .tc then {()} else ∅
/-- barrier cells at 1, receive cells at 2, every other cell (staging, send, the local copies') at 0. -/
def lv (g : GSem nD τ sig) (_ : Unit) : ℕ :=
  if g.2 = .reg barS then 1 else match xfer g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (r : Fin 7) (c : Dev nD) (u : Unit) : lv (recvCell r c) u = 2 := by
  unfold lv; rw [if_neg (recv_ne_bar r)]; show (match xfer (.dma (recvSem r)) with | some (true, _) => 2 | _ => 0) = 2; rw [xfer_recv]

end Cert.Kernel.A2A
-- ==== Proof.Bits.Ghost.lean ====
/-
  What one device's body starts from. The cells' invariants it opens (its own barrier, seven send and seven receive
  cells; the barrier cells of the seven devices ahead, which it signals; the receive cells of the seven devices
  behind, which its transfers credit), its positions at round 0 of its own fifteen cells, the facts that round 0 of
  each cell it pays or waits on is reached, the one-shot tokens of the twenty-one duties it pays, the credit its
  waits consume, the seven semaphores of its own that take part in no round (the local copies' five and the two
  unused array entries) at zero, and the levels.
-/
import proofs.«900489_g7700000000000490_dist_a2a_gemm_m8192_k8192_n4096_f32_gelu_v7x_i8_1_alg».proof.Proof.Bits.Proto

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A local copy's semaphore, or an unused array entry: pool position `j`. -/
abbrev locCell (j : Fin 22) (c : Dev nD) : GSem nD τ sig := ((c : Thread nD τ), .dma (Fin.cast (show 22 = sig.nDmaSem from rfl) j))

def invs (K : GSem nD τ sig → ℕ) (c : Dev nD) : sProp 𝕄 :=
  iprop(cellInv ER (sched m) (K (barCell c)) (barCell c)
    ∗ cellInv ER (sched m) (K (sendCell 0 c)) (sendCell 0 c) ∗ cellInv ER (sched m) (K (sendCell 1 c)) (sendCell 1 c)
    ∗ cellInv ER (sched m) (K (sendCell 2 c)) (sendCell 2 c) ∗ cellInv ER (sched m) (K (sendCell 3 c)) (sendCell 3 c)
    ∗ cellInv ER (sched m) (K (sendCell 4 c)) (sendCell 4 c) ∗ cellInv ER (sched m) (K (sendCell 5 c)) (sendCell 5 c)
    ∗ cellInv ER (sched m) (K (sendCell 6 c)) (sendCell 6 c)
    ∗ cellInv ER (sched m) (K (recvCell 0 c)) (recvCell 0 c) ∗ cellInv ER (sched m) (K (recvCell 1 c)) (recvCell 1 c)
    ∗ cellInv ER (sched m) (K (recvCell 2 c)) (recvCell 2 c) ∗ cellInv ER (sched m) (K (recvCell 3 c)) (recvCell 3 c)
    ∗ cellInv ER (sched m) (K (recvCell 4 c)) (recvCell 4 c) ∗ cellInv ER (sched m) (K (recvCell 5 c)) (recvCell 5 c)
    ∗ cellInv ER (sched m) (K (recvCell 6 c)) (recvCell 6 c)
    ∗ cellInv ER (sched m) (K (barCell (fwd 1 c))) (barCell (fwd 1 c)) ∗ cellInv ER (sched m) (K (barCell (fwd 2 c))) (barCell (fwd 2 c))
    ∗ cellInv ER (sched m) (K (barCell (fwd 3 c))) (barCell (fwd 3 c)) ∗ cellInv ER (sched m) (K (barCell (fwd 4 c))) (barCell (fwd 4 c))
    ∗ cellInv ER (sched m) (K (barCell (fwd 5 c))) (barCell (fwd 5 c)) ∗ cellInv ER (sched m) (K (barCell (fwd 6 c))) (barCell (fwd 6 c))
    ∗ cellInv ER (sched m) (K (barCell (fwd 7 c))) (barCell (fwd 7 c))
    ∗ cellInv ER (sched m) (K (recvCell 0 (bwd 1 c))) (recvCell 0 (bwd 1 c)) ∗ cellInv ER (sched m) (K (recvCell 1 (bwd 2 c))) (recvCell 1 (bwd 2 c))
    ∗ cellInv ER (sched m) (K (recvCell 2 (bwd 3 c))) (recvCell 2 (bwd 3 c)) ∗ cellInv ER (sched m) (K (recvCell 3 (bwd 4 c))) (recvCell 3 (bwd 4 c))
    ∗ cellInv ER (sched m) (K (recvCell 4 (bwd 5 c))) (recvCell 4 (bwd 5 c)) ∗ cellInv ER (sched m) (K (recvCell 5 (bwd 6 c))) (recvCell 5 (bwd 6 c))
    ∗ cellInv ER (sched m) (K (recvCell 6 (bwd 7 c))) (recvCell 6 (bwd 7 c)))

instance invs_persistent (K : GSem nD τ sig → ℕ) (c : Dev nD) : BI.Persistent (invs m K c) := by unfold invs; infer_instance

/-- The positions at round 0 of the device's own fifteen cells. -/
def poss (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0 ∗ atPos ER (sendCell 3 c) 0 ∅ 0
    ∗ atPos ER (sendCell 4 c) 0 ∅ 0 ∗ atPos ER (sendCell 5 c) 0 ∅ 0 ∗ atPos ER (sendCell 6 c) 0 ∅ 0
    ∗ atPos ER (recvCell 0 c) 0 ∅ 0 ∗ atPos ER (recvCell 1 c) 0 ∅ 0 ∗ atPos ER (recvCell 2 c) 0 ∅ 0 ∗ atPos ER (recvCell 3 c) 0 ∅ 0
    ∗ atPos ER (recvCell 4 c) 0 ∅ 0 ∗ atPos ER (recvCell 5 c) 0 ∅ 0 ∗ atPos ER (recvCell 6 c) 0 ∅ 0)

/-- Round 0 reached: of the barrier cells ahead, of the receive cells behind, of its own send and receive cells. -/
def reacheds (c : Dev nD) : sProp 𝕄 :=
  iprop(reached ER (barCell (fwd 1 c)) 0 ∗ reached ER (barCell (fwd 2 c)) 0 ∗ reached ER (barCell (fwd 3 c)) 0 ∗ reached ER (barCell (fwd 4 c)) 0
    ∗ reached ER (barCell (fwd 5 c)) 0 ∗ reached ER (barCell (fwd 6 c)) 0 ∗ reached ER (barCell (fwd 7 c)) 0
    ∗ reached ER (recvCell 0 (bwd 1 c)) 0 ∗ reached ER (recvCell 1 (bwd 2 c)) 0 ∗ reached ER (recvCell 2 (bwd 3 c)) 0 ∗ reached ER (recvCell 3 (bwd 4 c)) 0
    ∗ reached ER (recvCell 4 (bwd 5 c)) 0 ∗ reached ER (recvCell 5 (bwd 6 c)) 0 ∗ reached ER (recvCell 6 (bwd 7 c)) 0
    ∗ reached ER (sendCell 0 c) 0 ∗ reached ER (sendCell 1 c) 0 ∗ reached ER (sendCell 2 c) 0 ∗ reached ER (sendCell 3 c) 0
    ∗ reached ER (sendCell 4 c) 0 ∗ reached ER (sendCell 5 c) 0 ∗ reached ER (sendCell 6 c) 0
    ∗ reached ER (recvCell 0 c) 0 ∗ reached ER (recvCell 1 c) 0 ∗ reached ER (recvCell 2 c) 0 ∗ reached ER (recvCell 3 c) 0
    ∗ reached ER (recvCell 4 c) 0 ∗ reached ER (recvCell 5 c) 0 ∗ reached ER (recvCell 6 c) 0)

instance reacheds_persistent (c : Dev nD) : BI.Persistent (reacheds (F := F) c) := by unfold reacheds; infer_instance

/-- The tokens of the duties the device pays: duty `r` of the barrier cell `r + 1` ahead, the one duty of the
    receive cell `r` of the device `r + 1` behind, the one duty of its own send cell `r`. -/
def payToks (c : Dev nD) : sProp 𝕄 :=
  iprop(dutyTok ER (barCell (fwd 1 c)) 0 (0 : Fin 7) ∗ dutyTok ER (barCell (fwd 2 c)) 0 (1 : Fin 7) ∗ dutyTok ER (barCell (fwd 3 c)) 0 (2 : Fin 7)
    ∗ dutyTok ER (barCell (fwd 4 c)) 0 (3 : Fin 7) ∗ dutyTok ER (barCell (fwd 5 c)) 0 (4 : Fin 7) ∗ dutyTok ER (barCell (fwd 6 c)) 0 (5 : Fin 7)
    ∗ dutyTok ER (barCell (fwd 7 c)) 0 (6 : Fin 7)
    ∗ dutyTok ER (recvCell 0 (bwd 1 c)) 0 (0 : Fin 7) ∗ dutyTok ER (recvCell 1 (bwd 2 c)) 0 (0 : Fin 7) ∗ dutyTok ER (recvCell 2 (bwd 3 c)) 0 (0 : Fin 7)
    ∗ dutyTok ER (recvCell 3 (bwd 4 c)) 0 (0 : Fin 7) ∗ dutyTok ER (recvCell 4 (bwd 5 c)) 0 (0 : Fin 7) ∗ dutyTok ER (recvCell 5 (bwd 6 c)) 0 (0 : Fin 7)
    ∗ dutyTok ER (recvCell 6 (bwd 7 c)) 0 (0 : Fin 7)
    ∗ dutyTok ER (sendCell 0 c) 0 (0 : Fin 7) ∗ dutyTok ER (sendCell 1 c) 0 (0 : Fin 7) ∗ dutyTok ER (sendCell 2 c) 0 (0 : Fin 7)
    ∗ dutyTok ER (sendCell 3 c) 0 (0 : Fin 7) ∗ dutyTok ER (sendCell 4 c) 0 (0 : Fin 7) ∗ dutyTok ER (sendCell 5 c) 0 (0 : Fin 7)
    ∗ dutyTok ER (sendCell 6 c) 0 (0 : Fin 7))

/-- The credit its waits consume: seven units on its barrier cell, a block's credit on each receive cell. -/
def creds (c : Dev nD) : sProp 𝕄 :=
  iprop(cred (tallyAt (barCell c) () 7)
    ∗ cred (tallyAt (recvCell 0 c) () N) ∗ cred (tallyAt (recvCell 1 c) () N) ∗ cred (tallyAt (recvCell 2 c) () N) ∗ cred (tallyAt (recvCell 3 c) () N)
    ∗ cred (tallyAt (recvCell 4 c) () N) ∗ cred (tallyAt (recvCell 5 c) () N) ∗ cred (tallyAt (recvCell 6 c) () N))

/-- The seven own semaphores outside every round, at zero: array entries 0 of the send and receive arrays (unused),
    the two semaphores of the staging copies of `x` and `w`, the two of the copies into the bf16 array, the first copy's. -/
def idleSems (c : Dev nD) : sProp 𝕄 :=
  iprop(semVal (locCell 1 c) 0 ∗ semVal (locCell 9 c) 0 ∗ semVal (locCell 17 c) 0 ∗ semVal (locCell 18 c) 0
    ∗ semVal (locCell 19 c) 0 ∗ semVal (locCell 20 c) 0 ∗ semVal (locCell 21 c) 0)

def ghost (K : GSem nD τ sig → ℕ) (c : Dev nD) : sProp 𝕄 :=
  iprop(invs m K c ∗ poss c ∗ reacheds c ∗ payToks c)

/-- What device `c`'s body starts from, beside the buffers. -/
def start (c : Dev nD) : sProp 𝕄 :=
  iprop((∃ K, ghost m K c) ∗ creds c ∗ idleSems c ∗ levAts L lv)

end Cert.Kernel.A2A
-- ==== Proof.Bits.Ledger.lean ====
/-
  The deadlock argument, as a ledger. Receive cells sit at level 2, barrier cells at level 1, every other cell at
  level 0. A device waits on a level-0 cell (a local copy's, a send cell, the staging cell) while it owes only
  barrier and receive cells, and on its barrier cell while it owes only receive cells: each wait is below
  everything its device still owes.
-/
import proofs.«900489_g7700000000000490_dist_a2a_gemm_m8192_k8192_n4096_f32_gelu_v7x_i8_1_alg».proof.Proof.Bits.Proto

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A debt that is positive only at TensorCore cells of level at least `n`. -/
def AtLeast (n : ℕ) (O : CellTallies nD τ sig Unit) : Prop := ∀ (g : GSem nD τ sig) (u : Unit), 0 < O g u → u ∈ L g ∧ n ≤ lv g u

theorem atLeast_zero (n : ℕ) : AtLeast n (0 : CellTallies nD τ sig Unit) := fun g u h => absurd h (Nat.lt_irrefl 0)
theorem atLeast_add {n : ℕ} {O₁ O₂ : CellTallies nD τ sig Unit} (h₁ : AtLeast n O₁) (h₂ : AtLeast n O₂) : AtLeast n (O₁ + O₂) :=
  fun g u h => (Pipeline.add_pos_cases h).elim (h₁ g u) (h₂ g u)
theorem atLeast_recv (r : Fin 7) (d : Dev nD) (k : ℕ) : AtLeast 2 (tallyAt (recvCell r d) () k) := fun g u h => by
  obtain ⟨rfl, rfl⟩ := Pipeline.tallyAt_pos h
  exact ⟨by rw [L_tc]; exact Finset.mem_singleton_self _, by rw [lv_recv]⟩
theorem atLeast_bar (d : Dev nD) (k : ℕ) : AtLeast 1 (tallyAt (barCell d) () k) := fun g u h => by
  obtain ⟨rfl, rfl⟩ := Pipeline.tallyAt_pos h
  exact ⟨by rw [L_tc]; exact Finset.mem_singleton_self _, by rw [lv_bar]⟩
theorem atLeast_mono {n n' : ℕ} (hn : n' ≤ n) {O : CellTallies nD τ sig Unit} (h : AtLeast n O) : AtLeast n' O :=
  fun g u hp => ⟨(h g u hp).1, le_trans hn (h g u hp).2⟩

/-- A wait on a cell of level 0 while owing only cells of level 1 or more. -/
theorem mayWait_low (c : Dev nD) (sm : SemLoc sig) (hsm : lv ((c : Thread nD τ), sm) () = 0) (O : CellTallies nD τ sig Unit) (hO : AtLeast 1 O) :
    (levAts L lv : sProp 𝕄) ⊢ MayWait (c : Thread nD τ) sm () O :=
  Pipeline.mayWait_of_levAts (by rw [L_tc]; exact Finset.mem_singleton_self _)
    (fun g u h => ⟨(hO g u h).1, by rw [hsm]; exact (hO g u h).2⟩)

/-- The barrier wait while owing only receive cells. -/
theorem mayWait_bar (c : Dev nD) (O : CellTallies nD τ sig Unit) (hO : AtLeast 2 O) :
    (levAts L lv : sProp 𝕄) ⊢ MayWait (c : Thread nD τ) (.reg barS) () O :=
  Pipeline.mayWait_of_levAts (by rw [L_tc]; exact Finset.mem_singleton_self _)
    (fun g u h => ⟨(hO g u h).1, by rw [lv_bar]; exact (hO g u h).2⟩)

end Cert.Kernel.A2A
-- ==== Proof.Bits.OutDef.lean ====
import proofs.«900489_g7700000000000490_dist_a2a_gemm_m8192_k8192_n4096_f32_gelu_v7x_i8_1_alg».proof.Proof.Bits.Proto
import proofs.«900489_g7700000000000490_dist_a2a_gemm_m8192_k8192_n4096_f32_gelu_v7x_i8_1_alg».proof.Proof.Gen.Kernel.Skeleton

/-!
# The device's result, as a function of the memory at launch

Device `c` multiplies, at step `t`, the block `Ablk c t` — slot `t` of what its receive buffer holds in the
end: its own rows of the narrowed block of `x` of the device `t` places ahead — with the block
`Bblk c t h` of its copy of `w`: the rows of the `K`-block of the device `t` ahead, column half `h`.  Each
column half of the result starts as the product at step 0, takes the products of steps 1 to 6 on top,
and at step 7 each 1024-column quarter becomes gelu of the running sum plus the quarter's share of the
last product.  `outAt c` lays the four quarters side by side: column `2048 h + 1024 q + j` of the result
is column `j` of quarter `q` of half `h`.  Everything here is stated for any reading of the floats.
-/

noncomputable section

namespace Cert.Kernel.A2A

open Cert.Kernel Cert.Kernel.Gen Cert.Kernel.Ring8
open Idealize.ShloMosaic
open Idealize.ShloMosaic.TcCoe
open Idealize.ShloMosaic.ValueIdx

variable {F : FTy → Type} [FloatOps F]

/-! ## The chain of running sums over given blocks, as the kernel composes its arithmetic -/

section Chain
variable (A : Fin 8 → Vec F S1x1024x1024 .bf16) (B : Fin 8 → Fin 2 → Vec F S1x1024x2048 .f32)

/-- Column half 0 after step 0: the first block product. -/
def accL0F : FVec F S1024x2048 .f32 := k0_pay10 (A 0) (B 0 0)
/-- Column half 0 after step 1: the block of `x` is re-cast to a matrix before the product. -/
def accL1F : FVec F S1024x2048 .f32 := k0_pay13 (k0_pay12 (A 1)) (B 1 0) (accL0F A B)
/-- Column half 0 after step 2. -/
def accL2F : FVec F S1024x2048 .f32 := k0_pay15 (A 2) (B 2 0) (accL1F A B)
/-- Column half 0 after step 3. -/
def accL3F : FVec F S1024x2048 .f32 := k0_pay17 (A 3) (B 3 0) (accL2F A B)
/-- Column half 0 after step 4. -/
def accL4F : FVec F S1024x2048 .f32 := k0_pay19 (A 4) (B 4 0) (accL3F A B)
/-- Column half 0 after step 5. -/
def accL5F : FVec F S1024x2048 .f32 := k0_pay21 (A 5) (B 5 0) (accL4F A B)
/-- Column half 0 after step 6. -/
def accL6F : FVec F S1024x2048 .f32 := k0_pay23 (A 6) (B 6 0) (accL5F A B)

/-- Column half 1 after step 0. -/
def accR0F : FVec F S1024x2048 .f32 := k0_pay11 (A 0) (B 0 1)
/-- Column half 1 after step 1. -/
def accR1F : FVec F S1024x2048 .f32 := k0_pay14 (A 1) (B 1 1) (accR0F A B)
/-- Column half 1 after step 2. -/
def accR2F : FVec F S1024x2048 .f32 := k0_pay16 (A 2) (B 2 1) (accR1F A B)
/-- Column half 1 after step 3. -/
def accR3F : FVec F S1024x2048 .f32 := k0_pay18 (A 3) (B 3 1) (accR2F A B)
/-- Column half 1 after step 4. -/
def accR4F : FVec F S1024x2048 .f32 := k0_pay20 (A 4) (B 4 1) (accR3F A B)
/-- Column half 1 after step 5. -/
def accR5F : FVec F S1024x2048 .f32 := k0_pay22 (A 5) (B 5 1) (accR4F A B)
/-- Column half 1 after step 6. -/
def accR6F : FVec F S1024x2048 .f32 := k0_pay24 (A 6) (B 6 1) (accR5F A B)

/-- The running sum of column half `h` after step `t`, `t = 0, …, 6`. -/
def accHF (h : Fin 2) (t : Fin 7) : FVec F S1024x2048 .f32 :=
  match h with
  | ⟨0, _⟩ => (match t with
    | ⟨0, _⟩ => accL0F A B | ⟨1, _⟩ => accL1F A B | ⟨2, _⟩ => accL2F A B | ⟨3, _⟩ => accL3F A B
    | ⟨4, _⟩ => accL4F A B | ⟨5, _⟩ => accL5F A B | ⟨6, _⟩ => accL6F A B)
  | ⟨1, _⟩ => (match t with
    | ⟨0, _⟩ => accR0F A B | ⟨1, _⟩ => accR1F A B | ⟨2, _⟩ => accR2F A B | ⟨3, _⟩ => accR3F A B
    | ⟨4, _⟩ => accR4F A B | ⟨5, _⟩ => accR5F A B | ⟨6, _⟩ => accR6F A B)

/-- Columns `off, …, off + 1023` of a `1024 × 2048` tile, as a `1024 × 1024` tile. -/
def colsF (v : FVec F S1024x2048 .f32) (off : Nat) (hoff : off + 1024 ≤ 2048) : FVec F S1024x1024 .f32 :=
  fun i => v (ix2 (⟨(i 0).val, idx2_lt0 i⟩ : Fin 1024) (⟨off + (i 1).val, by have := idx2_lt1 i; omega⟩ : Fin 2048))

theorem colsF_apply (v : FVec F S1024x2048 .f32) (off : Nat) (hoff : off + 1024 ≤ 2048) (r j : Fin 1024) :
    colsF v off hoff (ix2 r j) = v (ix2 r (⟨off + j.val, by omega⟩ : Fin 2048)) := rfl

/-- Quarter 0 of half 0: gelu of the running sum's columns 0 to 1023 plus the last product's. -/
def quarter00F : FVec F S1024x1024 .f32 := k0_pay26 (A 7) (B 7 0) (colsF (accL6F A B) 0 (by omega))
/-- Quarter 1 of half 0: the last product is handed over whole, its columns 1024 to 2047 are used. -/
def quarter01F : FVec F S1024x1024 .f32 := k0_pay27 (k0_pay25 (A 7) (B 7 0)) (colsF (accL6F A B) 1024 (by omega))
/-- Quarter 0 of half 1. -/
def quarter10F : FVec F S1024x1024 .f32 := k0_pay29 (A 7) (B 7 1) (colsF (accR6F A B) 0 (by omega))
/-- Quarter 1 of half 1. -/
def quarter11F : FVec F S1024x1024 .f32 := k0_pay30 (A 7) (B 7 1) (colsF (accR6F A B) 1024 (by omega))

/-- Quarter `q` of column half `h` of the device's result. -/
def quarterF (h q : Fin 2) : FVec F S1024x1024 .f32 :=
  match h with
  | ⟨0, _⟩ => (match q with | ⟨0, _⟩ => quarter00F A B | ⟨1, _⟩ => quarter01F A B)
  | ⟨1, _⟩ => (match q with | ⟨0, _⟩ => quarter10F A B | ⟨1, _⟩ => quarter11F A B)

theorem accHF_0_0 : accHF A B 0 0 = k0_pay10 (A 0) (B 0 0) := rfl
theorem accHF_0_1 : accHF A B 0 1 = k0_pay13 (k0_pay12 (A 1)) (B 1 0) (accHF A B 0 0) := rfl
theorem accHF_0_2 : accHF A B 0 2 = k0_pay15 (A 2) (B 2 0) (accHF A B 0 1) := rfl
theorem accHF_0_3 : accHF A B 0 3 = k0_pay17 (A 3) (B 3 0) (accHF A B 0 2) := rfl
theorem accHF_0_4 : accHF A B 0 4 = k0_pay19 (A 4) (B 4 0) (accHF A B 0 3) := rfl
theorem accHF_0_5 : accHF A B 0 5 = k0_pay21 (A 5) (B 5 0) (accHF A B 0 4) := rfl
theorem accHF_0_6 : accHF A B 0 6 = k0_pay23 (A 6) (B 6 0) (accHF A B 0 5) := rfl
theorem accHF_1_0 : accHF A B 1 0 = k0_pay11 (A 0) (B 0 1) := rfl
theorem accHF_1_1 : accHF A B 1 1 = k0_pay14 (A 1) (B 1 1) (accHF A B 1 0) := rfl
theorem accHF_1_2 : accHF A B 1 2 = k0_pay16 (A 2) (B 2 1) (accHF A B 1 1) := rfl
theorem accHF_1_3 : accHF A B 1 3 = k0_pay18 (A 3) (B 3 1) (accHF A B 1 2) := rfl
theorem accHF_1_4 : accHF A B 1 4 = k0_pay20 (A 4) (B 4 1) (accHF A B 1 3) := rfl
theorem accHF_1_5 : accHF A B 1 5 = k0_pay22 (A 5) (B 5 1) (accHF A B 1 4) := rfl
theorem accHF_1_6 : accHF A B 1 6 = k0_pay24 (A 6) (B 6 1) (accHF A B 1 5) := rfl
theorem quarterF_0_0 : quarterF A B 0 0 = k0_pay26 (A 7) (B 7 0) (colsF (accHF A B 0 6) 0 (by omega)) := rfl
theorem quarterF_0_1 : quarterF A B 0 1 = k0_pay27 (k0_pay25 (A 7) (B 7 0)) (colsF (accHF A B 0 6) 1024 (by omega)) := rfl
theorem quarterF_1_0 : quarterF A B 1 0 = k0_pay29 (A 7) (B 7 1) (colsF (accHF A B 1 6) 0 (by omega)) := rfl
theorem quarterF_1_1 : quarterF A B 1 1 = k0_pay30 (A 7) (B 7 1) (colsF (accHF A B 1 6) 1024 (by omega)) := rfl

end Chain

/-! ## The blocks a device multiplies, and its result -/

/-- Column `1024 q + j` of a half. -/
abbrev qcol (q : Fin 2) (j : Fin 1024) : Fin 2048 := ⟨1024 * q.val + j.val, by omega⟩
/-- Column `2048 h + 1024 q + j` of the device's result. -/
abbrev ocol (h q : Fin 2) (j : Fin 1024) : Fin 4096 := ⟨2048 * h.val + 1024 * q.val + j.val, by omega⟩

variable (m : (ℓ : Loc nD τ sig) → Buf (Elt F) ℓ)

/-- The block of `x` of step `t`: slot `t` of the receive buffer as it ends. -/
def Ablk (c : Dev nD) (t : Fin 8) : Vec F S1x1024x1024 .bf16 := fun i =>
  (show Vec F S8x1024x1024 .bf16 from recvFull m c)
    (ix3 t (⟨(i 1).val, (i 1).isLt⟩ : Fin 1024) (⟨(i 2).val, (i 2).isLt⟩ : Fin 1024))

/-- The device's copy of `w` as launched. -/
def win (c : Dev nD) : FVec F S8192x4096 .f32 := m ((c : Thread nD τ).loc main_arg1)

/-- The block of `w` of step `t` for column half `h`: rows of the `K`-block of the device `t` places ahead. -/
def Bblk (c : Dev nD) (t : Fin 8) (h : Fin 2) : Vec F S1x1024x2048 .f32 := fun i =>
  win m c (ix2
    (⟨1024 * (fwd t.val c).val + (i 1).val, by
        have h1 : (i 1).val < 1024 := (i 1).isLt
        have hc : (fwd t.val c).val < 8 := (fwd t.val c).isLt
        show _ < 8192; omega⟩ : Fin 8192)
    (⟨2048 * h.val + (i 2).val, by
        have h2 : (i 2).val < 2048 := (i 2).isLt
        have hh : h.val < 2 := h.isLt
        show _ < 4096; omega⟩ : Fin 4096))

/-- The device's result: the four quarters of the two halves, side by side. -/
def outAt (c : Dev nD) : Buf (Elt F) ((c : Thread nD τ).loc cc0_stg0_0) := fun i =>
  quarterF (Ablk m c) (Bblk m c)
    (⟨(i 1).val / 2048, by have h1 : (i 1).val < 4096 := (i 1).isLt; omega⟩ : Fin 2)
    (⟨(i 1).val % 2048 / 1024, by omega⟩ : Fin 2)
    (ix2 (⟨(i 0).val, (i 0).isLt⟩ : Fin 1024) (⟨(i 1).val % 1024, by omega⟩ : Fin 1024))

/-- Column `2048 h + 1024 q + j` of the result is column `j` of quarter `q` of half `h`. -/
theorem outAt_apply (c : Dev nD) (h q : Fin 2) (r j : Fin 1024) :
    (show Vec F S1024x4096 .f32 from outAt m c) (ix2 r (ocol h q j)) = quarterF (Ablk m c) (Bblk m c) h q (ix2 r j) := by
  have key : ∀ (h' q' : Fin 2) (j' : Fin 1024), h' = h → q' = q → j' = j →
      quarterF (Ablk m c) (Bblk m c) h' q' (ix2 r j') = quarterF (Ablk m c) (Bblk m c) h q (ix2 r j) := by
    rintro _ _ _ rfl rfl rfl; rfl
  exact key _ _ _ (Fin.ext (by show (2048 * h.val + 1024 * q.val + j.val) / 2048 = h.val; omega))
    (Fin.ext (by show (2048 * h.val + 1024 * q.val + j.val) % 2048 / 1024 = q.val; omega))
    (Fin.ext (by show (2048 * h.val + 1024 * q.val + j.val) % 1024 = j.val; omega))

end Cert.Kernel.A2A

end
-- ==== Proof.Bits.SrcBlocks.lean ====
import proofs.«900489_g7700000000000490_dist_a2a_gemm_m8192_k8192_n4096_f32_gelu_v7x_i8_1_alg».proof.Proof.Bits.Proto
import proofs.«900489_g7700000000000490_dist_a2a_gemm_m8192_k8192_n4096_f32_gelu_v7x_i8_1_alg».proof.Proof.Bits.OutDef
import Idealize.ShloMosaic.Lib.Pipeline.Value
import Idealize.ShloMosaic.Lib.ValueLayout

/-!
# What the local copies read

The kernel's local copies take a `1024 × 1024` row block of the device's block of `x` — its own rows
first, then at step `r + 1` the rows of the device `r + 1` places behind — and a `1024 × 2048` block of
its copy of `w`: the rows of the `K`-block of the device `t` places ahead, the low or the high column
half.  Read at an entry, a source block is the whole array at the entry shifted by the block's
offsets; the two blocks of `w` of step `t` are the blocks the products are taken with.
-/

noncomputable section

namespace Cert.Kernel.A2A

open Cert.Kernel Cert.Kernel.Gen Cert.Kernel.Ring8
open Idealize.ShloMosaic
open Idealize.ShloMosaic.TcCoe
open Idealize.ShloMosaic.ValueIdx

variable {F : FTy → Type} [FloatOps F]

variable (m : (ℓ : Loc nD τ sig) → Buf (Elt F) ℓ)

/-! ## The source blocks -/

/-- The device's own rows of its block of `x`. -/
abbrev xsrc0 (c : Dev nD) : Memref sig .tc .hbm S1024x1024 .f32 :=
  (Memref.whole main_arg0 : Memref sig .tc .hbm S8192x1024 .f32).slice (Rect.unit (s := S8192x1024) (k0_off1 c) S1024x1024.size (k0_off1_inb c)) (fun _ => rfl)

/-- Step `r + 1`'s rows of the device's block of `x`: those of the device `r + 1` places behind. -/
abbrev xsrc (r : Fin 7) (c : Dev nD) : Memref sig .tc .hbm S1024x1024 .f32 :=
  (Memref.whole main_arg0 : Memref sig .tc .hbm S8192x1024 .f32).slice (Rect.unit (s := S8192x1024) (k0_off2 c (BitVec.ofNat 32 (1 + r.val))) S1024x1024.size (k0_off2_inb c r)) (fun _ => rfl)

/-- Step `t`'s block of `w`, low column half: rows of the `K`-block of the device `t` places ahead. -/
abbrev wsrc0 (t : Fin 8) (c : Dev nD) : Memref sig .tc .hbm S1024x2048 .f32 :=
  (Memref.whole main_arg1 : Memref sig .tc .hbm S8192x4096 .f32).slice (Rect.unit (s := S8192x4096) (k0_off3 c (BitVec.ofNat 32 t.val)) S1024x2048.size (k0_off3_inb c t)) (fun _ => rfl)

/-- Step `t`'s block of `w`, high column half. -/
abbrev wsrc1 (t : Fin 8) (c : Dev nD) : Memref sig .tc .hbm S1024x2048 .f32 :=
  (Memref.whole main_arg1 : Memref sig .tc .hbm S8192x4096 .f32).slice (Rect.unit (s := S8192x4096) (k0_off4 c (BitVec.ofNat 32 t.val)) S1024x2048.size (k0_off4_inb c t)) (fun _ => rfl)

/-! ## Where a block's entry sits in the whole array -/

theorem own_row_lt (c : Dev nD) (ρ : Fin 1024) : 1024 * c.val + ρ.val < 8192 := by
  have h : c.val < 8 := c.isLt
  have := ρ.isLt
  omega

theorem bwd_row_lt' (k : Nat) (c : Dev nD) (ρ : Fin 1024) : 1024 * (bwd k c).val + ρ.val < 8192 := by
  have h : (bwd k c).val < 8 := (bwd k c).isLt
  have := ρ.isLt
  omega

theorem fwd_row_lt (k : Nat) (c : Dev nD) (κ : Fin 1024) : 1024 * (fwd k c).val + κ.val < 8192 := by
  have h : (fwd k c).val < 8 := (fwd k c).isLt
  have := κ.isLt
  omega

theorem xsrc0_emb (c : Dev nD) (ρ κ : Fin 1024) :
    (xsrc0 c).view.emb (ix2 ρ κ) = (ix2 (⟨1024 * c.val + ρ.val, own_row_lt c ρ⟩ : Fin 8192) κ : S8192x1024.Idx) := by
  show (Rect.unit (s := S8192x1024) (k0_off1 c) S1024x1024.size (k0_off1_inb c)).emb (ix2 ρ κ) = _
  funext a
  apply Fin.ext
  rw [Rect.emb_apply, Rect.off_unit, Rect.stride_unit]
  have hoff := k0_off1_eq c
  match a with
  | ⟨0, _⟩ =>
    show k0_off1 c 0 + 1 * ρ.val = 1024 * c.val + ρ.val
    rw [hoff]; simp
  | ⟨1, _⟩ =>
    show k0_off1 c 1 + 1 * κ.val = κ.val
    rw [hoff]; simp

theorem xsrc_emb (r : Fin 7) (c : Dev nD) (ρ κ : Fin 1024) :
    (xsrc r c).view.emb (ix2 ρ κ)
      = (ix2 (⟨1024 * (bwd (1 + r.val) c).val + ρ.val, bwd_row_lt' _ c ρ⟩ : Fin 8192) κ : S8192x1024.Idx) := by
  show (Rect.unit (s := S8192x1024) (k0_off2 c (BitVec.ofNat 32 (1 + r.val))) S1024x1024.size (k0_off2_inb c r)).emb (ix2 ρ κ) = _
  funext a
  apply Fin.ext
  rw [Rect.emb_apply, Rect.off_unit, Rect.stride_unit]
  have hoff := off2_eq c r
  match a with
  | ⟨0, _⟩ =>
    show k0_off2 c (BitVec.ofNat 32 (1 + r.val)) 0 + 1 * ρ.val = 1024 * (bwd (1 + r.val) c).val + ρ.val
    rw [hoff]; simp
  | ⟨1, _⟩ =>
    show k0_off2 c (BitVec.ofNat 32 (1 + r.val)) 1 + 1 * κ.val = κ.val
    rw [hoff]; simp

theorem wsrc0_emb (t : Fin 8) (c : Dev nD) (κ : Fin 1024) (jj : Fin 2048) :
    (wsrc0 t c).view.emb (ix2 κ jj)
      = (ix2 (⟨1024 * (fwd t.val c).val + κ.val, fwd_row_lt _ c κ⟩ : Fin 8192) (⟨jj.val, by omega⟩ : Fin 4096) : S8192x4096.Idx) := by
  show (Rect.unit (s := S8192x4096) (k0_off3 c (BitVec.ofNat 32 t.val)) S1024x2048.size (k0_off3_inb c t)).emb (ix2 κ jj) = _
  funext a
  apply Fin.ext
  rw [Rect.emb_apply, Rect.off_unit, Rect.stride_unit]
  have hoff := off3_eq c t
  match a with
  | ⟨0, _⟩ =>
    show k0_off3 c (BitVec.ofNat 32 t.val) 0 + 1 * κ.val = 1024 * (fwd t.val c).val + κ.val
    rw [hoff]; simp
  | ⟨1, _⟩ =>
    show k0_off3 c (BitVec.ofNat 32 t.val) 1 + 1 * jj.val = jj.val
    rw [hoff]; simp

theorem wsrc1_emb (t : Fin 8) (c : Dev nD) (κ : Fin 1024) (jj : Fin 2048) :
    (wsrc1 t c).view.emb (ix2 κ jj)
      = (ix2 (⟨1024 * (fwd t.val c).val + κ.val, fwd_row_lt _ c κ⟩ : Fin 8192) (⟨2048 + jj.val, by omega⟩ : Fin 4096) : S8192x4096.Idx) := by
  show (Rect.unit (s := S8192x4096) (k0_off4 c (BitVec.ofNat 32 t.val)) S1024x2048.size (k0_off4_inb c t)).emb (ix2 κ jj) = _
  funext a
  apply Fin.ext
  rw [Rect.emb_apply, Rect.off_unit, Rect.stride_unit]
  have hoff := off4_eq c t
  match a with
  | ⟨0, _⟩ =>
    show k0_off4 c (BitVec.ofNat 32 t.val) 0 + 1 * κ.val = 1024 * (fwd t.val c).val + κ.val
    rw [hoff]; simp
  | ⟨1, _⟩ =>
    show k0_off4 c (BitVec.ofNat 32 t.val) 1 + 1 * jj.val = 2048 + jj.val
    rw [hoff]; simp

/-! ## A source block read at an entry -/

theorem xsrc0_read (c : Dev nD) (ρ κ : Fin 1024) :
    (xsrc0 c).view.read (Elt F) (xin m c) (ix2 ρ κ)
      = xin m c (ix2 (⟨1024 * c.val + ρ.val, own_row_lt c ρ⟩ : Fin 8192) κ) := by
  rw [View.read_apply, xsrc0_emb]
  rfl

theorem xsrc_read (r : Fin 7) (c : Dev nD) (ρ κ : Fin 1024) :
    (xsrc r c).view.read (Elt F) (xin m c) (ix2 ρ κ)
      = xin m c (ix2 (⟨1024 * (bwd (1 + r.val) c).val + ρ.val, bwd_row_lt' _ c ρ⟩ : Fin 8192) κ) := by
  rw [View.read_apply, xsrc_emb]
  rfl

theorem wsrc0_read (t : Fin 8) (c : Dev nD) (κ : Fin 1024) (jj : Fin 2048) :
    (wsrc0 t c).view.read (Elt F) (win m c) (ix2 κ jj)
      = win m c (ix2 (⟨1024 * (fwd t.val c).val + κ.val, fwd_row_lt _ c κ⟩ : Fin 8192) (⟨jj.val, by omega⟩ : Fin 4096)) := by
  rw [View.read_apply, wsrc0_emb]
  rfl

theorem wsrc1_read (t : Fin 8) (c : Dev nD) (κ : Fin 1024) (jj : Fin 2048) :
    (wsrc1 t c).view.read (Elt F) (win m c) (ix2 κ jj)
      = win m c (ix2 (⟨1024 * (fwd t.val c).val + κ.val, fwd_row_lt _ c κ⟩ : Fin 8192) (⟨2048 + jj.val, by omega⟩ : Fin 4096)) := by
  rw [View.read_apply, wsrc1_emb]
  rfl

/-! ## The blocks of `w` the products are taken with -/

/-- The low half's source block, with a unit axis in front, is the block of `w` of step `t`, half 0. -/
theorem wsrc0_eq_Bblk (t : Fin 8) (c : Dev nD) :
    (fun i : S1x1024x2048.Idx => (wsrc0 t c).view.read (Elt F) (win m c)
        (ix2 (⟨(i 1).val, (i 1).isLt⟩ : Fin 1024) (⟨(i 2).val, (i 2).isLt⟩ : Fin 2048))) = Bblk m c t 0 := by
  funext i
  rw [wsrc0_read]
  unfold Bblk
  refine congrArg (win m c) ?_
  funext a
  apply Fin.ext
  match a with
  | ⟨0, _⟩ => rfl
  | ⟨1, _⟩ =>
    show (i 2).val = 2048 * (0 : Fin 2).val + (i 2).val
    simp

/-- The high half's source block is the block of `w` of step `t`, half 1. -/
theorem wsrc1_eq_Bblk (t : Fin 8) (c : Dev nD) :
    (fun i : S1x1024x2048.Idx => (wsrc1 t c).view.read (Elt F) (win m c)
        (ix2 (⟨(i 1).val, (i 1).isLt⟩ : Fin 1024) (⟨(i 2).val, (i 2).isLt⟩ : Fin 2048))) = Bblk m c t 1 := by
  funext i
  rw [wsrc1_read]
  unfold Bblk
  refine congrArg (win m c) ?_
  funext a
  apply Fin.ext
  match a with
  | ⟨0, _⟩ => rfl
  | ⟨1, _⟩ =>
    show 2048 + (i 2).val = 2048 * (1 : Fin 2).val + (i 2).val
    simp

end Cert.Kernel.A2A

end
-- ==== Proof.Bits.Views.lean ====
/-
  The planes of the staging buffers and the slots of the receive buffer, read by coordinates. Plane `b` of
  a staging buffer is the rectangle of all indices with outer coordinate `b` (for the f32 buffer either its
  low 1024 columns or all 2048), seen without the outer axis. An index `(ρ, κ)` of a plane sits at `(b, ρ, κ)`
  in the buffer. So a load through the whole buffer at the plane's rectangle, after the plane was written with
  `w`, reads `w (ρ, κ)` at `(0, ρ, κ)`; and a load through the whole receive buffer at slot `k`'s rectangle reads
  the buffer at `(k, ρ, κ)`, which for the buffer's final contents is the block of `x` of step `k`.
-/
import proofs.«900489_g7700000000000490_dist_a2a_gemm_m8192_k8192_n4096_f32_gelu_v7x_i8_1_alg».proof.Proof.Bits.OutDef
import Idealize.ShloMosaic.Lib.Pipeline.Value
import Idealize.ShloMosaic.Lib.ValueLayout

noncomputable section

namespace Cert.Kernel.A2A

open Cert.Kernel Cert.Kernel.Gen Cert.Kernel.Ring8
open Idealize.ShloMosaic
open Idealize.ShloMosaic.TcCoe
open Idealize.ShloMosaic.ValueIdx

variable {F : FTy → Type} [FloatOps F]

/-! ## The planes of the two staging buffers and of the receive buffer, by coordinates -/

theorem lo_inb : ∀ (b : Fin 2) a, (![b.val, 0, 0] : Fin 3 → Nat) a + S1x1024x1024.size a ≤ S2x1024x2048.size a := by decide
theorem ful_inb : ∀ (b : Fin 2) a, (![b.val, 0, 0] : Fin 3 → Nat) a + S1x1024x2048.size a ≤ S2x1024x2048.size a := by decide
theorem cp_inb : ∀ (b : Fin 2) a, (![b.val, 0, 0] : Fin 3 → Nat) a + S1x1024x1024.size a ≤ S2x1024x1024.size a := by decide

/-- Plane `b` of the f32 staging buffer, its low 1024 columns: where a block of `x` lands before it is narrowed. -/
abbrev vlo (b : Fin 2) : Memref sig .tc .vmem S1024x1024 .f32 :=
  ((Memref.whole cc0_scratch1 : Memref sig .tc .vmem S2x1024x2048 .f32).slice (Rect.unit (s := S2x1024x2048) ![b.val, 0, 0] S1x1024x1024.size (lo_inb b)) (fun _ => rfl)).squeeze S1024x1024 squeezes_S1x1024x1024_S1024x1024
/-- Plane `b` of the f32 staging buffer, whole: where a block of `w` lands. -/
abbrev vful (b : Fin 2) : Memref sig .tc .vmem S1024x2048 .f32 :=
  ((Memref.whole cc0_scratch1 : Memref sig .tc .vmem S2x1024x2048 .f32).slice (Rect.unit (s := S2x1024x2048) ![b.val, 0, 0] S1x1024x2048.size (ful_inb b)) (fun _ => rfl)).squeeze S1024x2048 squeezes_S1x1024x2048_S1024x2048
/-- Plane `b` of the bf16 staging buffer: the narrowed block that is sent. -/
abbrev cpl (b : Fin 2) : Memref sig .tc .vmem S1024x1024 .bf16 :=
  ((Memref.whole cc0_scratch2 : Memref sig .tc .vmem S2x1024x1024 .bf16).slice (Rect.unit (s := S2x1024x1024) ![b.val, 0, 0] S1x1024x1024.size (cp_inb b)) (fun _ => rfl)).squeeze S1024x1024 squeezes_S1x1024x1024_S1024x1024

/-! Where an index of a plane sits in its buffer: the plane's number in front. -/

theorem vlo_emb (b : Fin 2) (ρ κ : Fin 1024) :
    (vlo b).view.emb (ix2 ρ κ) = ix3 b ρ (⟨κ.val, by omega⟩ : Fin 2048) := by
  have h1 : (vlo b).view.emb (ix2 ρ κ)
      = (Rect.unit (s := S2x1024x2048) ![b.val, 0, 0] S1x1024x1024.size (lo_inb b)).emb (Shape.reshapeEquiv squeezes_S1x1024x1024_S1024x1024.numel_eq (ix2 ρ κ)) := rfl
  rw [h1, reshapeEquiv_ix2_1ab]
  funext a
  apply Fin.ext
  rw [Rect.emb_apply]
  match a with
  | ⟨0, _⟩ => show b.val + 1 * 0 = b.val; omega
  | ⟨1, _⟩ => show 0 + 1 * ρ.val = ρ.val; omega
  | ⟨2, _⟩ => show 0 + 1 * κ.val = κ.val; omega

theorem vful_emb (b : Fin 2) (κ : Fin 1024) (jj : Fin 2048) :
    (vful b).view.emb (ix2 κ jj) = ix3 b κ jj := by
  have h1 : (vful b).view.emb (ix2 κ jj)
      = (Rect.unit (s := S2x1024x2048) ![b.val, 0, 0] S1x1024x2048.size (ful_inb b)).emb (Shape.reshapeEquiv squeezes_S1x1024x2048_S1024x2048.numel_eq (ix2 κ jj)) := rfl
  rw [h1, reshapeEquiv_ix2_1ab]
  funext a
  apply Fin.ext
  rw [Rect.emb_apply]
  match a with
  | ⟨0, _⟩ => show b.val + 1 * 0 = b.val; omega
  | ⟨1, _⟩ => show 0 + 1 * κ.val = κ.val; omega
  | ⟨2, _⟩ => show 0 + 1 * jj.val = jj.val; omega

theorem cpl_emb (b : Fin 2) (ρ κ : Fin 1024) :
    (cpl b).view.emb (ix2 ρ κ) = ix3 b ρ κ := by
  have h1 : (cpl b).view.emb (ix2 ρ κ)
      = (Rect.unit (s := S2x1024x1024) ![b.val, 0, 0] S1x1024x1024.size (cp_inb b)).emb (Shape.reshapeEquiv squeezes_S1x1024x1024_S1024x1024.numel_eq (ix2 ρ κ)) := rfl
  rw [h1, reshapeEquiv_ix2_1ab]
  funext a
  apply Fin.ext
  rw [Rect.emb_apply]
  match a with
  | ⟨0, _⟩ => show b.val + 1 * 0 = b.val; omega
  | ⟨1, _⟩ => show 0 + 1 * ρ.val = ρ.val; omega
  | ⟨2, _⟩ => show 0 + 1 * κ.val = κ.val; omega

/-! A load through the whole buffer at a plane's rectangle, after a write through the plane, reads the payload. -/

theorem lo_idx (b : Fin 2) (ρ κ : Fin 1024) :
    (Rect.unit (s := S2x1024x2048) ![b.val, 0, 0] S1x1024x1024.size (lo_inb b)).toLoadRect.idx (ix3 (0 : Fin 1) ρ κ) = ix3 b ρ (⟨κ.val, by omega⟩ : Fin 2048) := by
  funext a
  apply Fin.ext
  rw [LoadRect.idx_apply]
  match a with
  | ⟨0, _⟩ => show b.val + 1 * 0 = b.val; omega
  | ⟨1, _⟩ => show 0 + 1 * ρ.val = ρ.val; omega
  | ⟨2, _⟩ => show 0 + 1 * κ.val = κ.val; omega

theorem ful_idx (b : Fin 2) (κ : Fin 1024) (jj : Fin 2048) :
    (Rect.unit (s := S2x1024x2048) ![b.val, 0, 0] S1x1024x2048.size (ful_inb b)).toLoadRect.idx (ix3 (0 : Fin 1) κ jj) = ix3 b κ jj := by
  funext a
  apply Fin.ext
  rw [LoadRect.idx_apply]
  match a with
  | ⟨0, _⟩ => show b.val + 1 * 0 = b.val; omega
  | ⟨1, _⟩ => show 0 + 1 * κ.val = κ.val; omega
  | ⟨2, _⟩ => show 0 + 1 * jj.val = jj.val; omega

theorem slot_idx (k : Fin 8) (ρ κ : Fin 1024) :
    (Rect.unit (s := S8x1024x1024) ![k.val, 0, 0] S1x1024x1024.size (slot_inb k)).toLoadRect.idx (ix3 (0 : Fin 1) ρ κ) = ix3 k ρ κ := by
  funext a
  apply Fin.ext
  rw [LoadRect.idx_apply]
  match a with
  | ⟨0, _⟩ => show k.val + 1 * 0 = k.val; omega
  | ⟨1, _⟩ => show 0 + 1 * ρ.val = ρ.val; omega
  | ⟨2, _⟩ => show 0 + 1 * κ.val = κ.val; omega

theorem readAt_vlo_write (b : Fin 2) (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![b.val, 0, 0] S1x1024x1024.size (lo_inb b)).toLoadRect ((vlo b).view.write (Elt F) f w Finset.univ) (ix3 (0 : Fin 1) ρ κ)
      = w (ix2 ρ κ) := by
  have h2 : (Memref.whole cc0_scratch1 : Memref sig .tc .vmem S2x1024x2048 .f32).view.readAt (Elt F) (Rect.unit (s := S2x1024x2048) ![b.val, 0, 0] S1x1024x1024.size (lo_inb b)).toLoadRect ((vlo b).view.write (Elt F) f w Finset.univ) (ix3 (0 : Fin 1) ρ κ)
      = (vlo b).view.write (Elt F) f w Finset.univ ((Rect.unit (s := S2x1024x2048) ![b.val, 0, 0] S1x1024x1024.size (lo_inb b)).toLoadRect.idx (ix3 (0 : Fin 1) ρ κ)) := rfl
  rw [h2, lo_idx, ← vlo_emb, View.write_emb_of_mem _ _ (Finset.mem_univ _)]
  rfl

theorem readAt_vful_write (b : Fin 2) (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![b.val, 0, 0] S1x1024x2048.size (ful_inb b)).toLoadRect ((vful b).view.write (Elt F) f w Finset.univ) (ix3 (0 : Fin 1) κ jj)
      = w (ix2 κ jj) := by
  have h2 : (Memref.whole cc0_scratch1 : Memref sig .tc .vmem S2x1024x2048 .f32).view.readAt (Elt F) (Rect.unit (s := S2x1024x2048) ![b.val, 0, 0] S1x1024x2048.size (ful_inb b)).toLoadRect ((vful b).view.write (Elt F) f w Finset.univ) (ix3 (0 : Fin 1) κ jj)
      = (vful b).view.write (Elt F) f w Finset.univ ((Rect.unit (s := S2x1024x2048) ![b.val, 0, 0] S1x1024x2048.size (ful_inb b)).toLoadRect.idx (ix3 (0 : Fin 1) κ jj)) := rfl
  rw [h2, ful_idx, ← vful_emb, View.write_emb_of_mem _ _ (Finset.mem_univ _)]
  rfl

/-- Reading the bf16 staging buffer through plane `b`. -/
theorem cpl_read (b : Fin 2) (g : (Memref.whole cc0_scratch2 : Memref sig .tc .vmem S2x1024x1024 .bf16).view.ty.Contents (Elt F)) (ρ κ : Fin 1024) :
    (cpl b).view.read (Elt F) g (ix2 ρ κ) = g (ix3 b ρ κ) := by
  rw [View.read_apply, cpl_emb]
  rfl

/-- A load through the whole receive buffer at slot `k`'s rectangle reads the buffer at outer coordinate `k`. -/
theorem readAt_slot (k : Fin 8) (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![k.val, 0, 0] S1x1024x1024.size (slot_inb k)).toLoadRect g (ix3 (0 : Fin 1) ρ κ) = g (ix3 k ρ κ) := by
  have h2 : (Memref.whole cc0_scratch0 : Memref sig .tc .vmem S8x1024x1024 .bf16).view.readAt (Elt F) (Rect.unit (s := S8x1024x1024) ![k.val, 0, 0] S1x1024x1024.size (slot_inb k)).toLoadRect g (ix3 (0 : Fin 1) ρ κ)
      = g ((Rect.unit (s := S8x1024x1024) ![k.val, 0, 0] S1x1024x1024.size (slot_inb k)).toLoadRect.idx (ix3 (0 : Fin 1) ρ κ)) := rfl
  rw [h2, slot_idx]

/-- What the receive buffer holds in the end, loaded at slot `k`'s rectangle, is the block of `x` of step `k`. -/
theorem readAt_slot_recvFull (m : (ℓ : Loc nD τ sig) → Buf (Elt F) ℓ) (c : Dev nD) (k : Fin 8) :
    (Memref.whole cc0_scratch0 : Memref sig .tc .vmem S8x1024x1024 .bf16).view.readAt (Elt F) (Rect.unit (s := S8x1024x1024) ![k.val, 0, 0] S1x1024x1024.size (slot_inb k)).toLoadRect (recvFull m c) = Ablk m c k := by
  funext i
  obtain ⟨z, ρ, κ, rfl⟩ : ∃ (z : Fin 1) (ρ κ : Fin 1024), i = ix3 z ρ κ := ⟨i 0, i 1, i 2, eq_ix3 i⟩
  obtain rfl : z = 0 := Subsingleton.elim _ _
  rw [readAt_slot]
  rfl

/-! ## The same at literal plane and slot numbers, in the printed program's spelling -/

theorem vlo_lit0 : (vlo 0 : Memref sig .tc .vmem S1024x1024 .f32) = (((Memref.whole cc0_scratch1 : Memref sig .tc .vmem S2x1024x2048 .f32).slice (Rect.unit (s := S2x1024x2048) ![0, 0, 0] S1x1024x1024.size inb_S2x1024x2048_S1x1024x1024_0_0_0) (fun _ => rfl)).squeeze S1024x1024 squeezes_S1x1024x1024_S1024x1024) := rfl
theorem vful_lit0 : (vful 0 : Memref sig .tc .vmem S1024x2048 .f32) = (((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048) := rfl
theorem cpl_lit0 : (cpl 0 : Memref sig .tc .vmem S1024x1024 .bf16) = (((Memref.whole cc0_scratch2 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024) := rfl

theorem readAt_vlo_write_lit0 (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![0, 0, 0] S1x1024x1024.size inb_S2x1024x2048_S1x1024x1024_0_0_0).toLoadRect ((((Memref.whole cc0_scratch1 : Memref sig .tc .vmem S2x1024x2048 .f32).slice (Rect.unit (s := S2x1024x2048) ![0, 0, 0] S1x1024x1024.size inb_S2x1024x2048_S1x1024x1024_0_0_0) (fun _ => rfl)).squeeze S1024x1024 squeezes_S1x1024x1024_S1024x1024).view.write (Elt F) f w Finset.univ) (ix3 (0 : Fin 1) ρ κ)
      = w (ix2 ρ κ) := readAt_vlo_write 0 f w ρ κ

theorem readAt_vful_write_lit0 (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.write (Elt F) f w Finset.univ) (ix3 (0 : Fin 1) κ jj)
      = w (ix2 κ jj) := readAt_vful_write 0 f w κ jj

theorem cpl_read_lit0 (g : (Memref.whole cc0_scratch2 : Memref sig .tc .vmem S2x1024x1024 .bf16).view.ty.Contents (Elt F)) (ρ κ : Fin 1024) :
    (((Memref.whole cc0_scratch2 : Memref sig .tc .vmem S2x1024x1024 .bf16).slice (Rect.unit (s := S2x1024x1024) ![0, 0, 0] S1x1024x1024.size inb_S2x1024x1024_S1x1024x1024_0_0_0) (fun _ => rfl)).squeeze S1024x1024 squeezes_S1x1024x1024_S1024x1024).view.read (Elt F) g (ix2 ρ κ) = g (ix3 (0 : Fin 2) ρ κ) := cpl_read 0 g ρ κ

theorem vlo_lit1 : (vlo 1 : Memref sig .tc .vmem S1024x1024 .f32) = (((Memref.whole cc0_scratch1 : Memref sig .tc .vmem S2x1024x2048 .f32).slice (Rect.unit (s := S2x1024x2048) ![1, 0, 0] S1x1024x1024.size inb_S2x1024x2048_S1x1024x1024_1_0_0) (fun _ => rfl)).squeeze S1024x1024 squeezes_S1x1024x1024_S1024x1024) := rfl
theorem vful_lit1 : (vful 1 : Memref sig .tc .vmem S1024x2048 .f32) = (((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048) := rfl
theorem cpl_lit1 : (cpl 1 : Memref sig .tc .vmem S1024x1024 .bf16) = (((Memref.whole cc0_scratch2 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024) := rfl

theorem readAt_vlo_write_lit1 (f : (Memref.whole cc0_scratch1 : Memref sig .tc .vmem S2x1024x2048 .f32).view.ty.Contents (Elt F)) (w : Vec F S1024x1024 .f32) (ρ κ : Fin 1024) :
    (Memref.whole cc0_scratch1 : Memref sig .tc .vmem S2x1024x2048 .f32).view.readAt (Elt F) (Rect.unit (s := S2x1024x2048) ![1, 0, 0] S1x1024x1024.size inb_S2x1024x2048_S1x1024x1024_1_0_0).toLoadRect ((((Memref.whole cc0_scratch1 : Memref sig .tc .vmem S2x1024x2048 .f32).slice (Rect.unit (s := S2x1024x2048) ![1, 0, 0] S1x1024x1024.size inb_S2x1024x2048_S1x1024x1024_1_0_0) (fun _ => rfl)).squeeze S1024x1024 squeezes_S1x1024x1024_S1024x1024).view.write (Elt F) f w Finset.univ) (ix3 (0 : Fin 1) ρ κ)
      = w (ix2 ρ κ) := readAt_vlo_write 1 f w ρ κ

theorem readAt_vful_write_lit1 (f : (Memref.whole cc0_scratch1 : Memref sig .tc .vmem S2x1024x2048 .f32).view.ty.Contents (Elt F)) (w : Vec F S1024x2048 .f32) (κ : Fin 1024) (jj : Fin 2048) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.write (Elt F) f w Finset.univ) (ix3 (0 : Fin 1) κ jj)
      = w (ix2 κ jj) := readAt_vful_write 1 f w κ jj

theorem cpl_read_lit1 (g : (Memref.whole cc0_scratch2 : Memref sig .tc .vmem S2x1024x1024 .bf16).view.ty.Contents (Elt F)) (ρ κ : Fin 1024) :
    (((Memref.whole cc0_scratch2 : Memref sig .tc .vmem S2x1024x1024 .bf16).slice (Rect.unit (s := S2x1024x1024) ![1, 0, 0] S1x1024x1024.size inb_S2x1024x1024_S1x1024x1024_1_0_0) (fun _ => rfl)).squeeze S1024x1024 squeezes_S1x1024x1024_S1024x1024).view.read (Elt F) g (ix2 ρ κ) = g (ix3 (1 : Fin 2) ρ κ) := cpl_read 1 g ρ κ

theorem readAt_slot_lit0 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect g (ix3 (0 : Fin 1) ρ κ) = g (ix3 (0 : Fin 8) ρ κ) := readAt_slot 0 g ρ κ
theorem readAt_slot_recvFull_lit0 (m : (ℓ : Loc nD τ sig) → Buf (Elt F) ℓ) (c : Dev nD) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect (recvFull m c) = Ablk m c 0 := readAt_slot_recvFull m c 0

theorem readAt_slot_lit1 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect g (ix3 (0 : Fin 1) ρ κ) = g (ix3 (1 : Fin 8) ρ κ) := readAt_slot 1 g ρ κ
theorem readAt_slot_recvFull_lit1 (m : (ℓ : Loc nD τ sig) → Buf (Elt F) ℓ) (c : Dev nD) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect (recvFull m c) = Ablk m c 1 := readAt_slot_recvFull m c 1

theorem readAt_slot_lit2 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect g (ix3 (0 : Fin 1) ρ κ) = g (ix3 (2 : Fin 8) ρ κ) := readAt_slot 2 g ρ κ
theorem readAt_slot_recvFull_lit2 (m : (ℓ : Loc nD τ sig) → Buf (Elt F) ℓ) (c : Dev nD) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect (recvFull m c) = Ablk m c 2 := readAt_slot_recvFull m c 2

theorem readAt_slot_lit3 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect g (ix3 (0 : Fin 1) ρ κ) = g (ix3 (3 : Fin 8) ρ κ) := readAt_slot 3 g ρ κ
theorem readAt_slot_recvFull_lit3 (m : (ℓ : Loc nD τ sig) → Buf (Elt F) ℓ) (c : Dev nD) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect (recvFull m c) = Ablk m c 3 := readAt_slot_recvFull m c 3

theorem readAt_slot_lit4 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect g (ix3 (0 : Fin 1) ρ κ) = g (ix3 (4 : Fin 8) ρ κ) := readAt_slot 4 g ρ κ
theorem readAt_slot_recvFull_lit4 (m : (ℓ : Loc nD τ sig) → Buf (Elt F) ℓ) (c : Dev nD) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect (recvFull m c) = Ablk m c 4 := readAt_slot_recvFull m c 4

theorem readAt_slot_lit5 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect g (ix3 (0 : Fin 1) ρ κ) = g (ix3 (5 : Fin 8) ρ κ) := readAt_slot 5 g ρ κ
theorem readAt_slot_recvFull_lit5 (m : (ℓ : Loc nD τ sig) → Buf (Elt F) ℓ) (c : Dev nD) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect (recvFull m c) = Ablk m c 5 := readAt_slot_recvFull m c 5

theorem readAt_slot_lit6 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect g (ix3 (0 : Fin 1) ρ κ) = g (ix3 (6 : Fin 8) ρ κ) := readAt_slot 6 g ρ κ
theorem readAt_slot_recvFull_lit6 (m : (ℓ : Loc nD τ sig) → Buf (Elt F) ℓ) (c : Dev nD) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect (recvFull m c) = Ablk m c 6 := readAt_slot_recvFull m c 6

theorem readAt_slot_lit7 (g : (Memref.whole cc0_scratch0 : Memref sig .tc .vmem S8x1024x1024 .bf16).view.ty.Contents (Elt F)) (ρ κ : Fin 1024) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect g (ix3 (0 : Fin 1) ρ κ) = g (ix3 (7 : Fin 8) ρ κ) := readAt_slot 7 g ρ κ
theorem readAt_slot_recvFull_lit7 (m : (ℓ : Loc nD τ sig) → Buf (Elt F) ℓ) (c : Dev nD) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect (recvFull m c) = Ablk m c 7 := readAt_slot_recvFull m c 7

end Cert.Kernel.A2A
-- ==== Proof.Bits.Slots.lean ====
/-
  The receive buffer cut into its eight slots and put together again. Slot `k` is the rectangle of all
  indices whose outer coordinate is `k`; different slots share no element and every element lies in the slot
  its outer coordinate names. So holding the whole buffer at contents `f` is the same as holding the eight
  slots' element sets at `f`, and eight slots held at eight contents make the whole buffer at the contents
  that agree with each on its slot.
-/
import proofs.«900489_g7700000000000490_dist_a2a_gemm_m8192_k8192_n4096_f32_gelu_v7x_i8_1_alg».proof.Proof.Bits.Proto
import Idealize.ShloMosaic.Rules.PointsTo

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The eight receive slots tile the receive buffer -/

/-- A separating conjunction over the eight slot numbers, written out. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- The rectangle of slot `k`: all of the two inner axes at coordinate `k` of the outer one. -/
abbrev slotRect (k : Fin 8) : Rect S8x1024x1024 := Rect.unit (s := S8x1024x1024) ![k.val, 0, 0] S1x1024x1024.size (slot_inb k)

/-- Slot `k`'s elements are its rectangle's. -/
theorem rslot_set (k : Fin 8) : (rslot k : Memref sig .tc .vmem S1024x1024 .bf16).view.set = (slotRect k).set := by
  show (((View.whole cc0_scratch0 : View sig .tc .vmem S8x1024x1024 .bf16).slice (slotRect k)).reshape S1024x1024 _).set = _
  rw [View.set_reshape, View.set_slice_whole]

/-- An index lies in the rectangle of slot `k` exactly when its outer coordinate is `k`. -/
theorem mem_slotRect (k : Fin 8) (i : S8x1024x1024.Idx) : i ∈ (slotRect k).set ↔ (i 0).val = k.val := by
  rw [Rect.mem_set_unit]
  constructor
  · intro h
    have h0 := h 0
    have e0 : (![k.val, 0, 0] : Fin 3 → Nat) 0 = k.val := rfl
    have e1 : S1x1024x1024.size 0 = 1 := rfl
    rw [e0, e1] at h0
    omega
  · intro h a
    match a with
    | 0 =>
      show k.val ≤ (i 0).val ∧ (i 0).val < k.val + 1
      omega
    | 1 =>
      have h1 : (i 1).val < 1024 := (i 1).isLt
      show 0 ≤ (i 1).val ∧ (i 1).val < 0 + 1024
      omega
    | 2 =>
      have h2 : (i 2).val < 1024 := (i 2).isLt
      show 0 ≤ (i 2).val ∧ (i 2).val < 0 + 1024
      omega

theorem mem_rslot (k : Fin 8) (i : S8x1024x1024.Idx) :
    i ∈ (rslot k : Memref sig .tc .vmem S1024x1024 .bf16).view.set ↔ (i 0).val = k.val := by
  rw [rslot_set]; exact mem_slotRect k i

/-- Slots of different numbers share no element. -/
theorem rslot_disjoint (k k' : Fin 8) (h : k ≠ k') :
    Disjoint (rslot k : Memref sig .tc .vmem S1024x1024 .bf16).view.set (rslot k' : Memref sig .tc .vmem S1024x1024 .bf16).view.set :=
  Finset.disjoint_left.mpr fun i hi hi' => h (Fin.ext (((mem_rslot k i).mp hi).symm.trans ((mem_rslot k' i).mp hi')))

/-- Slot `k`'s elements, as elements of device `c`'s receive buffer. -/
abbrev slotSet (c : Dev nD) (k : Fin 8) : Finset (Idx ((c : Thread nD τ).loc cc0_scratch0)) :=
  (rslot k : Memref sig .tc .vmem S1024x1024 .bf16).view.set

/-- Every element of the buffer lies in the slot numbered by its outer coordinate. -/
theorem slotSet_biUnion (c : Dev nD) : (Finset.univ : Finset (Fin 8)).biUnion (slotSet c) = Finset.univ :=
  Finset.eq_univ_iff_forall.mpr fun i =>
    Finset.mem_biUnion.mpr ⟨⟨(i 0).val, (i 0).isLt⟩, Finset.mem_univ _, (mem_rslot _ i).mpr rfl⟩

/-- The whole receive buffer at contents `f` is the eight slots, each at `f`. -/
theorem recv_split_eq (c : Dev nD) (f : Buf (Elt F) ((c : Thread nD τ).loc cc0_scratch0)) :
    (((c : Thread nD τ).loc cc0_scratch0) ↦{fullShare} f : sProp 𝕄)
      = iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) := by
  have h := pointsTo_biUnion (Val := Elt F) (U := UU) (Ix := Unit) (Name := ℕ) (Lvl := ℕ) (ℓ := (c : Thread nD τ).loc cc0_scratch0) (q := fullShare) (f := f) (Finset.univ : Finset (Fin 8))
    (slotSet c) (fun k _ k' _ hne => rslot_disjoint k k' hne)
  have h2 : (((c : Thread nD τ).loc cc0_scratch0) ↦{fullShare} f : sProp 𝕄)
      = (((c : Thread nD τ).loc cc0_scratch0) ↦[(Finset.univ : Finset (Fin 8)).biUnion (slotSet c)]{fullShare} f) :=
    congrArg (fun S => (((c : Thread nD τ).loc cc0_scratch0) ↦[S]{fullShare} f : sProp 𝕄)) (slotSet_biUnion c).symm
  exact h2.trans (h.trans (bigSep_fin8 _))

theorem recv_split (c : Dev nD) (f : Buf (Elt F) ((c : Thread nD τ).loc cc0_scratch0)) :
    (((Memref.whole cc0_scratch0 : Memref sig .tc .vmem S8x1024x1024 .bf16).view.loc (c : Thread nD τ)) ↦{fullShare} f : sProp 𝕄)
      ⊢ iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) :=
  Entails.of_eq (recv_split_eq c f)

/-- The same with the buffer's location written directly. -/
theorem recv_split_loc (c : Dev nD) (f : Buf (Elt F) ((c : Thread nD τ).loc cc0_scratch0)) :
    (((c : Thread nD τ).loc cc0_scratch0) ↦{fullShare} f : sProp 𝕄)
      ⊢ iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f)) :=
  Entails.of_eq (recv_split_eq c f)

/-- And back: the eight slots, each at `f`, are the whole buffer at `f`. -/
theorem recv_unsplit (c : Dev nD) (f : Buf (Elt F) ((c : Thread nD τ).loc cc0_scratch0)) :
    iprop(((rslot 0 : Memref sig .tc .vmem S1024x1024 .bf16).view.loc (c : Thread nD τ) ↦[(rslot 0 : Memref sig .tc .vmem S1024x1024 .bf16).view.set]{fullShare} f)
        ∗ ((rslot 1 : Memref sig .tc .vmem S1024x1024 .bf16).view.loc (c : Thread nD τ) ↦[(rslot 1 : Memref sig .tc .vmem S1024x1024 .bf16).view.set]{fullShare} f)
        ∗ ((rslot 2 : Memref sig .tc .vmem S1024x1024 .bf16).view.loc (c : Thread nD τ) ↦[(rslot 2 : Memref sig .tc .vmem S1024x1024 .bf16).view.set]{fullShare} f)
        ∗ ((rslot 3 : Memref sig .tc .vmem S1024x1024 .bf16).view.loc (c : Thread nD τ) ↦[(rslot 3 : Memref sig .tc .vmem S1024x1024 .bf16).view.set]{fullShare} f)
        ∗ ((rslot 4 : Memref sig .tc .vmem S1024x1024 .bf16).view.loc (c : Thread nD τ) ↦[(rslot 4 : Memref sig .tc .vmem S1024x1024 .bf16).view.set]{fullShare} f)
        ∗ ((rslot 5 : Memref sig .tc .vmem S1024x1024 .bf16).view.loc (c : Thread nD τ) ↦[(rslot 5 : Memref sig .tc .vmem S1024x1024 .bf16).view.set]{fullShare} f)
        ∗ ((rslot 6 : Memref sig .tc .vmem S1024x1024 .bf16).view.loc (c : Thread nD τ) ↦[(rslot 6 : Memref sig .tc .vmem S1024x1024 .bf16).view.set]{fullShare} f)
        ∗ ((rslot 7 : Memref sig .tc .vmem S1024x1024 .bf16).view.loc (c : Thread nD τ) ↦[(rslot 7 : Memref sig .tc .vmem S1024x1024 .bf16).view.set]{fullShare} f))
      ⊢ (((c : Thread nD τ).loc cc0_scratch0) ↦{fullShare} f : sProp 𝕄) :=
  Entails.of_eq (recv_split_eq c f).symm

/-- Eight slots held at eight contents are the whole buffer at some contents. -/
theorem recv_join (c : Dev nD) (f0 f1 f2 f3 f4 f5 f6 f7 : Buf (Elt F) ((c : Thread nD τ).loc cc0_scratch0)) :
    iprop(((rslot 0 : Memref sig .tc .vmem S1024x1024 .bf16).view.loc (c : Thread nD τ) ↦[(rslot 0 : Memref sig .tc .vmem S1024x1024 .bf16).view.set]{fullShare} f0)
        ∗ ((rslot 1 : Memref sig .tc .vmem S1024x1024 .bf16).view.loc (c : Thread nD τ) ↦[(rslot 1 : Memref sig .tc .vmem S1024x1024 .bf16).view.set]{fullShare} f1)
        ∗ ((rslot 2 : Memref sig .tc .vmem S1024x1024 .bf16).view.loc (c : Thread nD τ) ↦[(rslot 2 : Memref sig .tc .vmem S1024x1024 .bf16).view.set]{fullShare} f2)
        ∗ ((rslot 3 : Memref sig .tc .vmem S1024x1024 .bf16).view.loc (c : Thread nD τ) ↦[(rslot 3 : Memref sig .tc .vmem S1024x1024 .bf16).view.set]{fullShare} f3)
        ∗ ((rslot 4 : Memref sig .tc .vmem S1024x1024 .bf16).view.loc (c : Thread nD τ) ↦[(rslot 4 : Memref sig .tc .vmem S1024x1024 .bf16).view.set]{fullShare} f4)
        ∗ ((rslot 5 : Memref sig .tc .vmem S1024x1024 .bf16).view.loc (c : Thread nD τ) ↦[(rslot 5 : Memref sig .tc .vmem S1024x1024 .bf16).view.set]{fullShare} f5)
        ∗ ((rslot 6 : Memref sig .tc .vmem S1024x1024 .bf16).view.loc (c : Thread nD τ) ↦[(rslot 6 : Memref sig .tc .vmem S1024x1024 .bf16).view.set]{fullShare} f6)
        ∗ ((rslot 7 : Memref sig .tc .vmem S1024x1024 .bf16).view.loc (c : Thread nD τ) ↦[(rslot 7 : Memref sig .tc .vmem S1024x1024 .bf16).view.set]{fullShare} f7))
      ⊢ (iprop(∃ f, (((c : Thread nD τ).loc cc0_scratch0) ↦{fullShare} f)) : sProp 𝕄) := by
  have h := pointsTo_biUnion_join (Val := Elt F) (U := UU) (Ix := Unit) (Name := ℕ) (Lvl := ℕ) (ℓ := (c : Thread nD τ).loc cc0_scratch0) (q := fullShare) (Finset.univ : Finset (Fin 8))
    (slotSet c) ![f0, f1, f2, f3, f4, f5, f6, f7] f0 (fun k _ k' _ hne => rslot_disjoint k k' hne)
  rw [bigSep_fin8, slotSet_biUnion] at h
  refine BIBase.Entails.trans ?_ (h.trans ?_)
  · exact .rfl
  · iintro ⟨%g, -, H⟩
    iexists g
    iexact H

/-! ## The bf16 copy of `x` cut into the seven row blocks sent and the block kept -/

theorem rows_inb : ∀ (d : Dev nD) a, (![1024 * d.val, 0] : Fin 2 → Nat) a + S1024x1024.size a ≤ S8192x1024.size a := by decide

/-- The row block of device `d`: rows `1024 d` to `1024 d + 1023`, every column. -/
abbrev rowsOf (d : Dev nD) : Rect S8192x1024 := Rect.unit (s := S8192x1024) ![1024 * d.val, 0] S1024x1024.size (rows_inb d)

/-- An index lies in device `d`'s row block exactly when its row, divided by 1024, is `d`. -/
theorem mem_rowsOf (d : Dev nD) (i : S8192x1024.Idx) : i ∈ (rowsOf d).set ↔ (i 0).val / 1024 = d.val := by
  rw [Rect.mem_set_unit]
  constructor
  · intro h
    have h0 := h 0
    have e0 : (![1024 * d.val, 0] : Fin 2 → Nat) 0 = 1024 * d.val := rfl
    have e1 : S1024x1024.size 0 = 1024 := rfl
    rw [e0, e1] at h0
    omega
  · intro h a
    match a with
    | 0 =>
      show 1024 * d.val ≤ (i 0).val ∧ (i 0).val < 1024 * d.val + 1024
      omega
    | 1 =>
      have h1 : (i 1).val < 1024 := (i 1).isLt
      show 0 ≤ (i 1).val ∧ (i 1).val < 0 + 1024
      omega

/-- The block sent at step `r + 1` is the row block of the device `r + 1` behind. -/
theorem xblk16_set (r : Fin 7) (c : Dev nD) : (xblk16 r c).view.set = (rowsOf (bwd (1 + r.val) c)).set := by
  show ((View.whole main_v1_1 : View sig .tc .hbm S8192x1024 .bf16).slice
    (Rect.unit (s := S8192x1024) (k0_off2 c (BitVec.ofNat 32 (1 + r.val))) S1024x1024.size (k0_off2_inb c r))).set = _
  rw [View.set_slice_whole, Rect.unit_congr (off2_eq c r) (k0_off2_inb c r) (rows_inb (bwd (1 + r.val) c))]

theorem bwd_succ_inj : ∀ (t t' : Fin 8) (c : Dev nD), bwd (t.val + 1) c = bwd (t'.val + 1) c → t = t' := by decide
theorem bwd_succ_surj : ∀ (c d : Dev nD), ∃ t : Fin 8, bwd (t.val + 1) c = d := by decide
theorem bwd_eight : ∀ c : Dev nD, bwd 8 c = c := by decide

/-- The row block of the device `t + 1` behind `c` (`t = 7`: of `c` itself), as elements of `c`'s array. -/
def xset (c : Dev nD) (t : Fin 8) : Finset (Idx ((c : Thread nD τ).loc main_v1_1)) := (rowsOf (bwd (t.val + 1) c)).set

theorem mem_xset (c : Dev nD) (t : Fin 8) (i : S8192x1024.Idx) : i ∈ xset c t ↔ (i 0).val / 1024 = (bwd (t.val + 1) c).val :=
  mem_rowsOf _ i

theorem xset_disjoint (c : Dev nD) (t t' : Fin 8) (h : t ≠ t') : Disjoint (xset c t) (xset c t') :=
  Finset.disjoint_left.mpr fun i hi hi' =>
    h (bwd_succ_inj t t' c (Fin.ext (((mem_xset c t i).mp hi).symm.trans ((mem_xset c t' i).mp hi'))))

theorem xset_biUnion (c : Dev nD) : (Finset.univ : Finset (Fin 8)).biUnion (xset c) = Finset.univ :=
  Finset.eq_univ_iff_forall.mpr fun i => by
    have hi : (i 0).val < 8192 := (i 0).isLt
    obtain ⟨t, ht⟩ := bwd_succ_surj c (⟨(i 0).val / 1024, by show _ < 8; omega⟩ : Dev nD)
    exact Finset.mem_biUnion.mpr ⟨t, Finset.mem_univ _, (mem_xset c t i).mpr (congrArg Fin.val ht).symm⟩

/-- The whole bf16 copy at contents `f` is the seven blocks sent and the device's own block, each at `f`. -/
theorem x16_split_eq (c : Dev nD) (f : Buf (Elt F) ((c : Thread nD τ).loc main_v1_1)) :
    (((c : Thread nD τ).loc main_v1_1) ↦{fullShare} f : sProp 𝕄)
      = iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f)) := by
  have h := pointsTo_biUnion (Val := Elt F) (U := UU) (Ix := Unit) (Name := ℕ) (Lvl := ℕ) (ℓ := (c : Thread nD τ).loc main_v1_1) (q := fullShare) (f := f) (Finset.univ : Finset (Fin 8))
    (xset c) (fun t _ t' _ hne => xset_disjoint c t t' hne)
  have h2 : (((c : Thread nD τ).loc main_v1_1) ↦{fullShare} f : sProp 𝕄)
      = (((c : Thread nD τ).loc main_v1_1) ↦[(Finset.univ : Finset (Fin 8)).biUnion (xset c)]{fullShare} f) :=
    congrArg (fun S => (((c : Thread nD τ).loc main_v1_1) ↦[S]{fullShare} f : sProp 𝕄)) (xset_biUnion c).symm
  have e0 : xset c 0 = (xblk16 0 c).view.set := (xblk16_set 0 c).symm
  have e1 : xset c 1 = (xblk16 1 c).view.set := (xblk16_set 1 c).symm
  have e2 : xset c 2 = (xblk16 2 c).view.set := (xblk16_set 2 c).symm
  have e3 : xset c 3 = (xblk16 3 c).view.set := (xblk16_set 3 c).symm
  have e4 : xset c 4 = (xblk16 4 c).view.set := (xblk16_set 4 c).symm
  have e5 : xset c 5 = (xblk16 5 c).view.set := (xblk16_set 5 c).symm
  have e6 : xset c 6 = (xblk16 6 c).view.set := (xblk16_set 6 c).symm
  have e7 : xset c 7 = (rowsOf c).set := by show (rowsOf (bwd 8 c)).set = _; rw [bwd_eight]
  rw [bigSep_fin8, e0, e1, e2, e3, e4, e5, e6, e7] at h
  exact h2.trans h

theorem x16_split (c : Dev nD) (f : Buf (Elt F) ((c : Thread nD τ).loc main_v1_1)) :
    (((Memref.whole main_v1_1 : Memref sig .tc .hbm S8192x1024 .bf16).view.loc (c : Thread nD τ)) ↦{fullShare} f : sProp 𝕄)
      ⊢ iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f)) :=
  Entails.of_eq (x16_split_eq c f)

/-- And back. -/
theorem x16_unsplit (c : Dev nD) (f : Buf (Elt F) ((c : Thread nD τ).loc main_v1_1)) :
    iprop(((xblk16 0 c).view.loc (c : Thread nD τ) ↦[(xblk16 0 c).view.set]{fullShare} f)
        ∗ ((xblk16 1 c).view.loc (c : Thread nD τ) ↦[(xblk16 1 c).view.set]{fullShare} f)
        ∗ ((xblk16 2 c).view.loc (c : Thread nD τ) ↦[(xblk16 2 c).view.set]{fullShare} f)
        ∗ ((xblk16 3 c).view.loc (c : Thread nD τ) ↦[(xblk16 3 c).view.set]{fullShare} f)
        ∗ ((xblk16 4 c).view.loc (c : Thread nD τ) ↦[(xblk16 4 c).view.set]{fullShare} f)
        ∗ ((xblk16 5 c).view.loc (c : Thread nD τ) ↦[(xblk16 5 c).view.set]{fullShare} f)
        ∗ ((xblk16 6 c).view.loc (c : Thread nD τ) ↦[(xblk16 6 c).view.set]{fullShare} f)
        ∗ (((c : Thread nD τ).loc main_v1_1) ↦[(rowsOf c).set]{fullShare} f))
      ⊢ (((c : Thread nD τ).loc main_v1_1) ↦{fullShare} f : sProp 𝕄) :=
  Entails.of_eq (x16_split_eq c f).symm

end Cert.Kernel.A2A
-- ==== Proof.Bits.Splits.lean ====
/-
  The arrays a device's body moves block by block, cut into those blocks and put together again. The
  device's block of `x` is its eight row blocks (its own and those of the seven devices behind it); its copy of
  `w` is sixteen blocks, the rows of each device's `K`-block in two column halves; the f32 staging buffer is
  two planes of two column halves each. In each case the blocks are pairwise disjoint and cover the array,
  so holding the array at `f` is holding every block at `f`; and two column halves of a plane, or the two
  planes, held at different contents make the plane, or the buffer, at the contents that agree with each.
-/
import proofs.«900489_g7700000000000490_dist_a2a_gemm_m8192_k8192_n4096_f32_gelu_v7x_i8_1_alg».proof.Proof.Bits.Slots
import proofs.«900489_g7700000000000490_dist_a2a_gemm_m8192_k8192_n4096_f32_gelu_v7x_i8_1_alg».proof.Proof.Bits.SrcBlocks
import proofs.«900489_g7700000000000490_dist_a2a_gemm_m8192_k8192_n4096_f32_gelu_v7x_i8_1_alg».proof.Proof.Bits.Views

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer held whole is its pieces held one by one, for any finite tiling -/

/-- Pairwise disjoint element sets that cover a buffer: the whole buffer at `f` is the pieces at `f`. -/
theorem pointsTo_univ_split {n : Nat} {ℓ : Loc nD τ sig} (K : Fin n → Finset (Idx ℓ))
    (hd : ∀ t t', t ≠ t' → Disjoint (K t) (K t')) (hc : ∀ i, ∃ t, i ∈ K t) (f : Buf (Elt F) ℓ) :
    (ℓ ↦{fullShare} f : sProp 𝕄) = bigSep Finset.univ (fun t => (ℓ ↦[K t]{fullShare} f : sProp 𝕄)) := by
  have h := pointsTo_biUnion (Val := Elt F) (U := UU) (Ix := Unit) (Name := ℕ) (Lvl := ℕ) (ℓ := ℓ) (q := fullShare) (f := f)
    (Finset.univ : Finset (Fin n)) K (fun t _ t' _ hne => hd t t' hne)
  have hU : (Finset.univ : Finset (Fin n)).biUnion K = Finset.univ :=
    Finset.eq_univ_iff_forall.mpr fun i => by
      obtain ⟨t, ht⟩ := hc i
      exact Finset.mem_biUnion.mpr ⟨t, Finset.mem_univ _, ht⟩
  rw [hU] at h
  exact h

theorem bigSep_fin4 {M : Type} [URA M] (Φ : Fin 4 → sProp M) :
    bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} from by decide,
    bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-! ## The device's block of `x` cut into its eight row blocks -/

theorem xsrc0_set (c : Dev nD) : (xsrc0 c).view.set = (rowsOf c).set := by
  show ((View.whole main_arg0 : View sig .tc .hbm S8192x1024 .f32).slice
    (Rect.unit (s := S8192x1024) (k0_off1 c) S1024x1024.size (k0_off1_inb c))).set = _
  rw [View.set_slice_whole, Rect.unit_congr (k0_off1_eq c) (k0_off1_inb c) (rows_inb c)]

theorem xsrc_set (r : Fin 7) (c : Dev nD) : (xsrc r c).view.set = (rowsOf (bwd (1 + r.val) c)).set := by
  show ((View.whole main_arg0 : View sig .tc .hbm S8192x1024 .f32).slice
    (Rect.unit (s := S8192x1024) (k0_off2 c (BitVec.ofNat 32 (1 + r.val))) S1024x1024.size (k0_off2_inb c r))).set = _
  rw [View.set_slice_whole, Rect.unit_congr (off2_eq c r) (k0_off2_inb c r) (rows_inb (bwd (1 + r.val) c))]

theorem bwd_inj8 : ∀ (t t' : Fin 8) (c : Dev nD), bwd t.val c = bwd t'.val c → t = t' := by decide
theorem bwd_surj8 : ∀ (c d : Dev nD), ∃ t : Fin 8, bwd t.val c = d := by decide

/-- The row block of the device `t` behind `c` (`t = 0`: of `c` itself), as elements of `c`'s block of `x`. -/
def xsetA (c : Dev nD) (t : Fin 8) : Finset (Idx ((c : Thread nD τ).loc main_arg0)) := (rowsOf (bwd t.val c)).set

theorem mem_xsetA (c : Dev nD) (t : Fin 8) (i : S8192x1024.Idx) : i ∈ xsetA c t ↔ (i 0).val / 1024 = (bwd t.val c).val :=
  mem_rowsOf _ i

theorem xsetA_disjoint (c : Dev nD) (t t' : Fin 8) (h : t ≠ t') : Disjoint (xsetA c t) (xsetA c t') :=
  Finset.disjoint_left.mpr fun i hi hi' =>
    h (bwd_inj8 t t' c (Fin.ext (((mem_xsetA c t i).mp hi).symm.trans ((mem_xsetA c t' i).mp hi'))))

theorem xsetA_cover (c : Dev nD) (i : S8192x1024.Idx) : ∃ t, i ∈ xsetA c t := by
  have hi : (i 0).val < 8192 := (i 0).isLt
  obtain ⟨t, ht⟩ := bwd_surj8 c (⟨(i 0).val / 1024, by show _ < 8; omega⟩ : Dev nD)
  exact ⟨t, (mem_xsetA c t i).mpr (congrArg Fin.val ht).symm⟩

/-- The device's block of `x` at `f` is its own row block and the seven it sends on, each at `f`. -/
theorem x_split_eq (c : Dev nD) (f : Buf (Elt F) ((c : Thread nD τ).loc main_arg0)) :
    (((c : Thread nD τ).loc main_arg0) ↦{fullShare} f : sProp 𝕄)
      = iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f)) := by
  have h := pointsTo_univ_split (F := F) (xsetA c) (xsetA_disjoint c) (xsetA_cover c) f
  have e0 : xsetA c 0 = (xsrc0 c).view.set := by show (rowsOf (bwd 0 c)).set = _; rw [bwd_zero, xsrc0_set]
  have e1 : xsetA c 1 = (xsrc 0 c).view.set := (xsrc_set 0 c).symm
  have e2 : xsetA c 2 = (xsrc 1 c).view.set := (xsrc_set 1 c).symm
  have e3 : xsetA c 3 = (xsrc 2 c).view.set := (xsrc_set 2 c).symm
  have e4 : xsetA c 4 = (xsrc 3 c).view.set := (xsrc_set 3 c).symm
  have e5 : xsetA c 5 = (xsrc 4 c).view.set := (xsrc_set 4 c).symm
  have e6 : xsetA c 6 = (xsrc 5 c).view.set := (xsrc_set 5 c).symm
  have e7 : xsetA c 7 = (xsrc 6 c).view.set := (xsrc_set 6 c).symm
  rw [bigSep_fin8, e0, e1, e2, e3, e4, e5, e6, e7] at h
  exact h

theorem x_split (c : Dev nD) (f : Buf (Elt F) ((c : Thread nD τ).loc main_arg0)) :
    (((Memref.whole main_arg0 : Memref sig .tc .hbm S8192x1024 .f32).view.loc (c : Thread nD τ)) ↦{fullShare} f : sProp 𝕄)
      ⊢ iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f)) :=
  Entails.of_eq (x_split_eq c f)

theorem x_unsplit (c : Dev nD) (f : Buf (Elt F) ((c : Thread nD τ).loc main_arg0)) :
    iprop(((xsrc0 c).view.loc (c : Thread nD τ) ↦[(xsrc0 c).view.set]{fullShare} f)
        ∗ ((xsrc 0 c).view.loc (c : Thread nD τ) ↦[(xsrc 0 c).view.set]{fullShare} f)
        ∗ ((xsrc 1 c).view.loc (c : Thread nD τ) ↦[(xsrc 1 c).view.set]{fullShare} f)
        ∗ ((xsrc 2 c).view.loc (c : Thread nD τ) ↦[(xsrc 2 c).view.set]{fullShare} f)
        ∗ ((xsrc 3 c).view.loc (c : Thread nD τ) ↦[(xsrc 3 c).view.set]{fullShare} f)
        ∗ ((xsrc 4 c).view.loc (c : Thread nD τ) ↦[(xsrc 4 c).view.set]{fullShare} f)
        ∗ ((xsrc 5 c).view.loc (c : Thread nD τ) ↦[(xsrc 5 c).view.set]{fullShare} f)
        ∗ ((xsrc 6 c).view.loc (c : Thread nD τ) ↦[(xsrc 6 c).view.set]{fullShare} f))
      ⊢ (((c : Thread nD τ).loc main_arg0) ↦{fullShare} f : sProp 𝕄) :=
  Entails.of_eq (x_split_eq c f).symm

/-! ## The device's copy of `w` cut into sixteen blocks: eight row blocks, two column halves each -/

theorem wrect_inb (d : Dev nD) (o : Nat) (ho : o + 2048 ≤ 4096) :
    ∀ a, (![1024 * d.val, o] : Fin 2 → Nat) a + S1024x2048.size a ≤ S8192x4096.size a := by
  intro a
  have hd : d.val < 8 := d.isLt
  match a with
  | ⟨0, _⟩ => show 1024 * d.val + 1024 ≤ 8192; omega
  | ⟨1, _⟩ => show o + 2048 ≤ 4096; omega

/-- Rows of device `d`'s `K`-block, columns `o` to `o + 2047`. -/
abbrev wRect (d : Dev nD) (o : Nat) (ho : o + 2048 ≤ 4096) : Rect S8192x4096 :=
  Rect.unit (s := S8192x4096) ![1024 * d.val, o] S1024x2048.size (wrect_inb d o ho)

theorem mem_wRect (d : Dev nD) (o : Nat) (ho : o + 2048 ≤ 4096) (i : S8192x4096.Idx) :
    i ∈ (wRect d o ho).set ↔ (i 0).val / 1024 = d.val ∧ o ≤ (i 1).val ∧ (i 1).val < o + 2048 := by
  rw [Rect.mem_set_unit]
  constructor
  · intro h
    have h0 := h 0
    have h1 := h 1
    have e0 : (![1024 * d.val, o] : Fin 2 → Nat) 0 = 1024 * d.val := rfl
    have e1 : (![1024 * d.val, o] : Fin 2 → Nat) 1 = o := rfl
    have s0 : S1024x2048.size 0 = 1024 := rfl
    have s1 : S1024x2048.size 1 = 2048 := rfl
    rw [e0, s0] at h0
    rw [e1, s1] at h1
    omega
  · intro h a
    match a with
    | 0 =>
      show 1024 * d.val ≤ (i 0).val ∧ (i 0).val < 1024 * d.val + 1024
      omega
    | 1 =>
      show o ≤ (i 1).val ∧ (i 1).val < o + 2048
      omega

theorem wsrc0_set (t : Fin 8) (c : Dev nD) : (wsrc0 t c).view.set = (wRect (fwd t.val c) 0 (by omega)).set := by
  show ((View.whole main_arg1 : View sig .tc .hbm S8192x4096 .f32).slice
    (Rect.unit (s := S8192x4096) (k0_off3 c (BitVec.ofNat 32 t.val)) S1024x2048.size (k0_off3_inb c t))).set = _
  rw [View.set_slice_whole, Rect.unit_congr (off3_eq c t) (k0_off3_inb c t) (wrect_inb (fwd t.val c) 0 (by omega))]

theorem wsrc1_set (t : Fin 8) (c : Dev nD) : (wsrc1 t c).view.set = (wRect (fwd t.val c) 2048 (by omega)).set := by
  show ((View.whole main_arg1 : View sig .tc .hbm S8192x4096 .f32).slice
    (Rect.unit (s := S8192x4096) (k0_off4 c (BitVec.ofNat 32 t.val)) S1024x2048.size (k0_off4_inb c t))).set = _
  rw [View.set_slice_whole, Rect.unit_congr (off4_eq c t) (k0_off4_inb c t) (wrect_inb (fwd t.val c) 2048 (by omega))]

theorem fwd_inj8 : ∀ (t t' : Fin 8) (c : Dev nD), fwd t.val c = fwd t'.val c → t = t' := by decide
theorem fwd_surj8 : ∀ (c d : Dev nD), ∃ t : Fin 8, fwd t.val c = d := by decide

/-- Block `u = 2 t + h`: the rows of the `K`-block of the device `t` ahead, column half `h`. -/
def wsetA (c : Dev nD) (u : Fin 16) : Finset (Idx ((c : Thread nD τ).loc main_arg1)) :=
  (wRect (fwd (u.val / 2) c) (2048 * (u.val % 2)) (by omega)).set

theorem mem_wsetA (c : Dev nD) (u : Fin 16) (i : S8192x4096.Idx) :
    i ∈ wsetA c u ↔ (i 0).val / 1024 = (fwd (u.val / 2) c).val ∧ 2048 * (u.val % 2) ≤ (i 1).val ∧ (i 1).val < 2048 * (u.val % 2) + 2048 :=
  mem_wRect _ _ _ i

theorem wsetA_disjoint (c : Dev nD) (u u' : Fin 16) (h : u ≠ u') : Disjoint (wsetA c u) (wsetA c u') :=
  Finset.disjoint_left.mpr fun i hi hi' => by
    have h1 := (mem_wsetA c u i).mp hi
    have h2 := (mem_wsetA c u' i).mp hi'
    have hu : u.val < 16 := u.isLt
    have hu' : u'.val < 16 := u'.isLt
    have hf : fwd (u.val / 2) c = fwd (u'.val / 2) c := Fin.ext (h1.1.symm.trans h2.1)
    have ht : (⟨u.val / 2, by omega⟩ : Fin 8) = ⟨u'.val / 2, by omega⟩ := fwd_inj8 _ _ c hf
    have ht' : u.val / 2 = u'.val / 2 := congrArg Fin.val ht
    exact h (Fin.ext (by omega))

theorem wsetA_cover (c : Dev nD) (i : S8192x4096.Idx) : ∃ u, i ∈ wsetA c u := by
  have hi0 : (i 0).val < 8192 := (i 0).isLt
  have hi1 : (i 1).val < 4096 := (i 1).isLt
  obtain ⟨t, ht⟩ := fwd_surj8 c (⟨(i 0).val / 1024, by show _ < 8; omega⟩ : Dev nD)
  have ht' : (fwd t.val c).val = (i 0).val / 1024 := congrArg Fin.val ht
  have htl : t.val < 8 := t.isLt
  refine ⟨⟨2 * t.val + (i 1).val / 2048, by omega⟩, (mem_wsetA c _ i).mpr ?_⟩
  have e1 : (2 * t.val + (i 1).val / 2048) / 2 = t.val := by omega
  have e2 : (2 * t.val + (i 1).val / 2048) % 2 = (i 1).val / 2048 := by omega
  show (i 0).val / 1024 = (fwd ((2 * t.val + (i 1).val / 2048) / 2) c).val
    ∧ 2048 * ((2 * t.val + (i 1).val / 2048) % 2) ≤ (i 1).val
    ∧ (i 1).val < 2048 * ((2 * t.val + (i 1).val / 2048) % 2) + 2048
  rw [e1, e2, ht']
  omega

/-- The device's copy of `w` at `f` is its sixteen blocks, each at `f`, in the order the steps use them. -/
theorem w_split_eq (c : Dev nD) (f : Buf (Elt F) ((c : Thread nD τ).loc main_arg1)) :
    (((c : Thread nD τ).loc main_arg1) ↦{fullShare} f : sProp 𝕄)
      = iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f)) := by
  have h := pointsTo_univ_split (F := F) (wsetA c) (wsetA_disjoint c) (wsetA_cover c) f
  have e0 : wsetA c 0 = (wsrc0 0 c).view.set := (wsrc0_set 0 c).symm
  have e1 : wsetA c 1 = (wsrc1 0 c).view.set := (wsrc1_set 0 c).symm
  have e2 : wsetA c 2 = (wsrc0 1 c).view.set := (wsrc0_set 1 c).symm
  have e3 : wsetA c 3 = (wsrc1 1 c).view.set := (wsrc1_set 1 c).symm
  have e4 : wsetA c 4 = (wsrc0 2 c).view.set := (wsrc0_set 2 c).symm
  have e5 : wsetA c 5 = (wsrc1 2 c).view.set := (wsrc1_set 2 c).symm
  have e6 : wsetA c 6 = (wsrc0 3 c).view.set := (wsrc0_set 3 c).symm
  have e7 : wsetA c 7 = (wsrc1 3 c).view.set := (wsrc1_set 3 c).symm
  have e8 : wsetA c 8 = (wsrc0 4 c).view.set := (wsrc0_set 4 c).symm
  have e9 : wsetA c 9 = (wsrc1 4 c).view.set := (wsrc1_set 4 c).symm
  have e10 : wsetA c 10 = (wsrc0 5 c).view.set := (wsrc0_set 5 c).symm
  have e11 : wsetA c 11 = (wsrc1 5 c).view.set := (wsrc1_set 5 c).symm
  have e12 : wsetA c 12 = (wsrc0 6 c).view.set := (wsrc0_set 6 c).symm
  have e13 : wsetA c 13 = (wsrc1 6 c).view.set := (wsrc1_set 6 c).symm
  have e14 : wsetA c 14 = (wsrc0 7 c).view.set := (wsrc0_set 7 c).symm
  have e15 : wsetA c 15 = (wsrc1 7 c).view.set := (wsrc1_set 7 c).symm
  rw [bigSep_fin16, e0, e1, e2, e3, e4, e5, e6, e7, e8, e9, e10, e11, e12, e13, e14, e15] at h
  exact h

theorem w_split (c : Dev nD) (f : Buf (Elt F) ((c : Thread nD τ).loc main_arg1)) :
    (((Memref.whole main_arg1 : Memref sig .tc .hbm S8192x4096 .f32).view.loc (c : Thread nD τ)) ↦{fullShare} f : sProp 𝕄)
      ⊢ iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f)) :=
  Entails.of_eq (w_split_eq c f)

theorem w_unsplit (c : Dev nD) (f : Buf (Elt F) ((c : Thread nD τ).loc main_arg1)) :
    iprop(((wsrc0 0 c).view.loc (c : Thread nD τ) ↦[(wsrc0 0 c).view.set]{fullShare} f)
        ∗ ((wsrc1 0 c).view.loc (c : Thread nD τ) ↦[(wsrc1 0 c).view.set]{fullShare} f)
        ∗ ((wsrc0 1 c).view.loc (c : Thread nD τ) ↦[(wsrc0 1 c).view.set]{fullShare} f)
        ∗ ((wsrc1 1 c).view.loc (c : Thread nD τ) ↦[(wsrc1 1 c).view.set]{fullShare} f)
        ∗ ((wsrc0 2 c).view.loc (c : Thread nD τ) ↦[(wsrc0 2 c).view.set]{fullShare} f)
        ∗ ((wsrc1 2 c).view.loc (c : Thread nD τ) ↦[(wsrc1 2 c).view.set]{fullShare} f)
        ∗ ((wsrc0 3 c).view.loc (c : Thread nD τ) ↦[(wsrc0 3 c).view.set]{fullShare} f)
        ∗ ((wsrc1 3 c).view.loc (c : Thread nD τ) ↦[(wsrc1 3 c).view.set]{fullShare} f)
        ∗ ((wsrc0 4 c).view.loc (c : Thread nD τ) ↦[(wsrc0 4 c).view.set]{fullShare} f)
        ∗ ((wsrc1 4 c).view.loc (c : Thread nD τ) ↦[(wsrc1 4 c).view.set]{fullShare} f)
        ∗ ((wsrc0 5 c).view.loc (c : Thread nD τ) ↦[(wsrc0 5 c).view.set]{fullShare} f)
        ∗ ((wsrc1 5 c).view.loc (c : Thread nD τ) ↦[(wsrc1 5 c).view.set]{fullShare} f)
        ∗ ((wsrc0 6 c).view.loc (c : Thread nD τ) ↦[(wsrc0 6 c).view.set]{fullShare} f)
        ∗ ((wsrc1 6 c).view.loc (c : Thread nD τ) ↦[(wsrc1 6 c).view.set]{fullShare} f)
        ∗ ((wsrc0 7 c).view.loc (c : Thread nD τ) ↦[(wsrc0 7 c).view.set]{fullShare} f)
        ∗ ((wsrc1 7 c).view.loc (c : Thread nD τ) ↦[(wsrc1 7 c).view.set]{fullShare} f))
      ⊢ (((c : Thread nD τ).loc main_arg1) ↦{fullShare} f : sProp 𝕄) :=
  Entails.of_eq (w_split_eq c f).symm

/-! ## The f32 staging buffer: two planes, each two column halves -/

theorem hi_inb : ∀ (b : Fin 2) a, (![b.val, 0, 1024] : Fin 3 → Nat) a + S1x1024x1024.size a ≤ S2x1024x2048.size a := by decide

/-- Plane `b` of the f32 staging buffer, its high 1024 columns. -/
abbrev vhi (b : Fin 2) : Memref sig .tc .vmem S1024x1024 .f32 :=
  ((Memref.whole cc0_scratch1 : Memref sig .tc .vmem S2x1024x2048 .f32).slice (Rect.unit (s := S2x1024x2048) ![b.val, 0, 1024] S1x1024x1024.size (hi_inb b)) (fun _ => rfl)).squeeze S1024x1024 squeezes_S1x1024x1024_S1024x1024

theorem prect_inb (b : Fin 2) (o : Nat) (ho : o + 1024 ≤ 2048) :
    ∀ a, (![b.val, 0, o] : Fin 3 → Nat) a + S1x1024x1024.size a ≤ S2x1024x2048.size a := by
  intro a
  have hb : b.val < 2 := b.isLt
  match a with
  | ⟨0, _⟩ => show b.val + 1 ≤ 2; omega
  | ⟨1, _⟩ => show 0 + 1024 ≤ 1024; omega
  | ⟨2, _⟩ => show o + 1024 ≤ 2048; omega

/-- Plane `b`, columns `o` to `o + 1023`. -/
abbrev pRect (b : Fin 2) (o : Nat) (ho : o + 1024 ≤ 2048) : Rect S2x1024x2048 :=
  Rect.unit (s := S2x1024x2048) ![b.val, 0, o] S1x1024x1024.size (prect_inb b o ho)

theorem mem_pRect (b : Fin 2) (o : Nat) (ho : o + 1024 ≤ 2048) (i : S2x1024x2048.Idx) :
    i ∈ (pRect b o ho).set ↔ (i 0).val = b.val ∧ o ≤ (i 2).val ∧ (i 2).val < o + 1024 := by
  rw [Rect.mem_set_unit]
  constructor
  · intro h
    have h0 := h 0
    have h2 := h 2
    have e0 : (![b.val, 0, o] : Fin 3 → Nat) 0 = b.val := rfl
    have e2 : (![b.val, 0, o] : Fin 3 → Nat) 2 = o := rfl
    have s0 : S1x1024x1024.size 0 = 1 := rfl
    have s2 : S1x1024x1024.size 2 = 1024 := rfl
    rw [e0, s0] at h0
    rw [e2, s2] at h2
    omega
  · intro h a
    match a with
    | 0 =>
      show b.val ≤ (i 0).val ∧ (i 0).val < b.val + 1
      omega
    | 1 =>
      have h1 : (i 1).val < 1024 := (i 1).isLt
      show 0 ≤ (i 1).val ∧ (i 1).val < 0 + 1024
      omega
    | 2 =>
      show o ≤ (i 2).val ∧ (i 2).val < o + 1024
      omega

/-- Plane `b`, all columns. -/
abbrev fRect (b : Fin 2) : Rect S2x1024x2048 := Rect.unit (s := S2x1024x2048) ![b.val, 0, 0] S1x1024x2048.size (ful_inb b)

theorem mem_fRect (b : Fin 2) (i : S2x1024x2048.Idx) : i ∈ (fRect b).set ↔ (i 0).val = b.val := by
  rw [Rect.mem_set_unit]
  constructor
  · intro h
    have h0 := h 0
    have e0 : (![b.val, 0, 0] : Fin 3 → Nat) 0 = b.val := rfl
    have s0 : S1x1024x2048.size 0 = 1 := rfl
    rw [e0, s0] at h0
    omega
  · intro h a
    match a with
    | 0 =>
      show b.val ≤ (i 0).val ∧ (i 0).val < b.val + 1
      omega
    | 1 =>
      have h1 : (i 1).val < 1024 := (i 1).isLt
      show 0 ≤ (i 1).val ∧ (i 1).val < 0 + 1024
      omega
    | 2 =>
      have h2 : (i 2).val < 2048 := (i 2).isLt
      show 0 ≤ (i 2).val ∧ (i 2).val < 0 + 2048
      omega

theorem vlo_set (b : Fin 2) : (vlo b : Memref sig .tc .vmem S1024x1024 .f32).view.set = (pRect b 0 (by omega)).set := by
  show (((View.whole cc0_scratch1 : View sig .tc .vmem S2x1024x2048 .f32).slice
    (Rect.unit (s := S2x1024x2048) ![b.val, 0, 0] S1x1024x1024.size (lo_inb b))).reshape S1024x1024 _).set = _
  rw [View.set_reshape, View.set_slice_whole]

theorem vhi_set (b : Fin 2) : (vhi b : Memref sig .tc .vmem S1024x1024 .f32).view.set = (pRect b 1024 (by omega)).set := by
  show (((View.whole cc0_scratch1 : View sig .tc .vmem S2x1024x2048 .f32).slice
    (Rect.unit (s := S2x1024x2048) ![b.val, 0, 1024] S1x1024x1024.size (hi_inb b))).reshape S1024x1024 _).set = _
  rw [View.set_reshape, View.set_slice_whole]

theorem vful_set (b : Fin 2) : (vful b : Memref sig .tc .vmem S1024x2048 .f32).view.set = (fRect b).set := by
  show (((View.whole cc0_scratch1 : View sig .tc .vmem S2x1024x2048 .f32).slice
    (Rect.unit (s := S2x1024x2048) ![b.val, 0, 0] S1x1024x2048.size (ful_inb b))).reshape S1024x2048 _).set = _
  rw [View.set_reshape, View.set_slice_whole]

theorem mem_vlo (b : Fin 2) (i : S2x1024x2048.Idx) :
    i ∈ (vlo b : Memref sig .tc .vmem S1024x1024 .f32).view.set ↔ (i 0).val = b.val ∧ 0 ≤ (i 2).val ∧ (i 2).val < 0 + 1024 := by
  rw [vlo_set]; exact mem_pRect b 0 _ i
theorem mem_vhi (b : Fin 2) (i : S2x1024x2048.Idx) :
    i ∈ (vhi b : Memref sig .tc .vmem S1024x1024 .f32).view.set ↔ (i 0).val = b.val ∧ 1024 ≤ (i 2).val ∧ (i 2).val < 1024 + 1024 := by
  rw [vhi_set]; exact mem_pRect b 1024 _ i
theorem mem_vful (b : Fin 2) (i : S2x1024x2048.Idx) :
    i ∈ (vful b : Memref sig .tc .vmem S1024x2048 .f32).view.set ↔ (i 0).val = b.val := by
  rw [vful_set]; exact mem_fRect b i

/-- Block `u = 2 b + h`: plane `b`, column half `h`. -/
def vsetA (c : Dev nD) (u : Fin 4) : Finset (Idx ((c : Thread nD τ).loc cc0_scratch1)) :=
  (pRect ⟨u.val / 2, by have := u.isLt; omega⟩ (1024 * (u.val % 2)) (by omega)).set

theorem mem_vsetA (c : Dev nD) (u : Fin 4) (i : S2x1024x2048.Idx) :
    i ∈ vsetA c u ↔ (i 0).val = u.val / 2 ∧ 1024 * (u.val % 2) ≤ (i 2).val ∧ (i 2).val < 1024 * (u.val % 2) + 1024 :=
  mem_pRect _ _ _ i

theorem vsetA_disjoint (c : Dev nD) (u u' : Fin 4) (h : u ≠ u') : Disjoint (vsetA c u) (vsetA c u') :=
  Finset.disjoint_left.mpr fun i hi hi' => by
    have h1 := (mem_vsetA c u i).mp hi
    have h2 := (mem_vsetA c u' i).mp hi'
    exact h (Fin.ext (by omega))

theorem vsetA_cover (c : Dev nD) (i : S2x1024x2048.Idx) : ∃ u, i ∈ vsetA c u := by
  have hi0 : (i 0).val < 2 := (i 0).isLt
  have hi2 : (i 2).val < 2048 := (i 2).isLt
  refine ⟨⟨2 * (i 0).val + (i 2).val / 1024, by omega⟩, (mem_vsetA c _ i).mpr ?_⟩
  show (i 0).val = (2 * (i 0).val + (i 2).val / 1024) / 2
    ∧ 1024 * ((2 * (i 0).val + (i 2).val / 1024) % 2) ≤ (i 2).val
    ∧ (i 2).val < 1024 * ((2 * (i 0).val + (i 2).val / 1024) % 2) + 1024
  omega

/-- The f32 staging buffer at `f` is its four blocks, each at `f`. -/
theorem v_split_eq (c : Dev nD) (f : Buf (Elt F) ((c : Thread nD τ).loc cc0_scratch1)) :
    (((c : Thread nD τ).loc cc0_scratch1) ↦{fullShare} f : sProp 𝕄)
      = iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f)) := by
  have h := pointsTo_univ_split (F := F) (vsetA c) (vsetA_disjoint c) (vsetA_cover c) f
  have e0 : vsetA c 0 = (vlo 0 : Memref sig .tc .vmem S1024x1024 .f32).view.set := (vlo_set 0).symm
  have e1 : vsetA c 1 = (vhi 0 : Memref sig .tc .vmem S1024x1024 .f32).view.set := (vhi_set 0).symm
  have e2 : vsetA c 2 = (vlo 1 : Memref sig .tc .vmem S1024x1024 .f32).view.set := (vlo_set 1).symm
  have e3 : vsetA c 3 = (vhi 1 : Memref sig .tc .vmem S1024x1024 .f32).view.set := (vhi_set 1).symm
  rw [bigSep_fin4, e0, e1, e2, e3] at h
  exact h

theorem v_split (c : Dev nD) (f : Buf (Elt F) ((c : Thread nD τ).loc cc0_scratch1)) :
    (((c : Thread nD τ).loc cc0_scratch1) ↦{fullShare} f : sProp 𝕄)
      ⊢ iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f)) :=
  Entails.of_eq (v_split_eq c f)

theorem v_unsplit (c : Dev nD) (f : Buf (Elt F) ((c : Thread nD τ).loc cc0_scratch1)) :
    iprop(((vlo 0 : Memref sig .tc .vmem S1024x1024 .f32).view.loc (c : Thread nD τ) ↦[(vlo 0 : Memref sig .tc .vmem S1024x1024 .f32).view.set]{fullShare} f)
        ∗ ((vhi 0 : Memref sig .tc .vmem S1024x1024 .f32).view.loc (c : Thread nD τ) ↦[(vhi 0 : Memref sig .tc .vmem S1024x1024 .f32).view.set]{fullShare} f)
        ∗ ((vlo 1 : Memref sig .tc .vmem S1024x1024 .f32).view.loc (c : Thread nD τ) ↦[(vlo 1 : Memref sig .tc .vmem S1024x1024 .f32).view.set]{fullShare} f)
        ∗ ((vhi 1 : Memref sig .tc .vmem S1024x1024 .f32).view.loc (c : Thread nD τ) ↦[(vhi 1 : Memref sig .tc .vmem S1024x1024 .f32).view.set]{fullShare} f))
      ⊢ (((c : Thread nD τ).loc cc0_scratch1) ↦{fullShare} f : sProp 𝕄) :=
  Entails.of_eq (v_split_eq c f).symm

/-- The two column halves of a plane, held at two contents, are the plane at some contents. -/
theorem v_plane_join (c : Dev nD) (b : Fin 2) (f g : Buf (Elt F) ((c : Thread nD τ).loc cc0_scratch1)) :
    iprop(((vlo b : Memref sig .tc .vmem S1024x1024 .f32).view.loc (c : Thread nD τ) ↦[(vlo b : Memref sig .tc .vmem S1024x1024 .f32).view.set]{fullShare} f)
        ∗ ((vhi b : Memref sig .tc .vmem S1024x1024 .f32).view.loc (c : Thread nD τ) ↦[(vhi b : Memref sig .tc .vmem S1024x1024 .f32).view.set]{fullShare} g))
      ⊢ (iprop(∃ h, ((vful b : Memref sig .tc .vmem S1024x2048 .f32).view.loc (c : Thread nD τ) ↦[(vful b : Memref sig .tc .vmem S1024x2048 .f32).view.set]{fullShare} h)) : sProp 𝕄) := by
  have hd : Disjoint (vlo b : Memref sig .tc .vmem S1024x1024 .f32).view.set (vhi b : Memref sig .tc .vmem S1024x1024 .f32).view.set :=
    Finset.disjoint_left.mpr fun i hi hi' => by
      have h1 := (mem_vlo b i).mp hi
      have h2 := (mem_vhi b i).mp hi'
      omega
  have hU : (vlo b : Memref sig .tc .vmem S1024x1024 .f32).view.set ∪ (vhi b : Memref sig .tc .vmem S1024x1024 .f32).view.set
      = (vful b : Memref sig .tc .vmem S1024x2048 .f32).view.set :=
    Finset.ext fun i => by
      have h2 : (i 2).val < 2048 := (i 2).isLt
      constructor
      · intro h
        rcases Finset.mem_union.mp h with h | h
        · exact (mem_vful b i).mpr ((mem_vlo b i).mp h).1
        · exact (mem_vful b i).mpr ((mem_vhi b i).mp h).1
      · intro h
        have h0 := (mem_vful b i).mp h
        by_cases hc : (i 2).val < 1024
        · exact Finset.mem_union_left _ ((mem_vlo b i).mpr ⟨h0, by omega, by omega⟩)
        · exact Finset.mem_union_right _ ((mem_vhi b i).mpr ⟨h0, by omega, by omega⟩)
  have hj := pointsTo_join (Val := Elt F) (U := UU) (Ix := Unit) (Name := ℕ) (Lvl := ℕ) (ℓ := (c : Thread nD τ).loc cc0_scratch1)
    (q := fullShare) (f := f) (g := g) hd
  rw [hU] at hj
  refine BIBase.Entails.trans hj ?_
  iintro H
  iexists _
  iexact H

/-- The two planes, held at two contents, are the buffer at some contents. -/
theorem v_join (c : Dev nD) (f g : Buf (Elt F) ((c : Thread nD τ).loc cc0_scratch1)) :
    iprop(((vful 0 : Memref sig .tc .vmem S1024x2048 .f32).view.loc (c : Thread nD τ) ↦[(vful 0 : Memref sig .tc .vmem S1024x2048 .f32).view.set]{fullShare} f)
        ∗ ((vful 1 : Memref sig .tc .vmem S1024x2048 .f32).view.loc (c : Thread nD τ) ↦[(vful 1 : Memref sig .tc .vmem S1024x2048 .f32).view.set]{fullShare} g))
      ⊢ (iprop(∃ h, (((c : Thread nD τ).loc cc0_scratch1) ↦{fullShare} h)) : sProp 𝕄) := by
  have hd : Disjoint (vful 0 : Memref sig .tc .vmem S1024x2048 .f32).view.set (vful 1 : Memref sig .tc .vmem S1024x2048 .f32).view.set :=
    Finset.disjoint_left.mpr fun i hi hi' => by
      have h1 : (i 0).val = 0 := (mem_vful 0 i).mp hi
      have h2 : (i 0).val = 1 := (mem_vful 1 i).mp hi'
      omega
  have hU : (vful 0 : Memref sig .tc .vmem S1024x2048 .f32).view.set ∪ (vful 1 : Memref sig .tc .vmem S1024x2048 .f32).view.set
      = (Finset.univ : Finset (Idx ((c : Thread nD τ).loc cc0_scratch1))) :=
    Finset.eq_univ_iff_forall.mpr fun i => by
      have h0 : (i 0).val < 2 := (i 0).isLt
      by_cases hc : (i 0).val = 0
      · exact Finset.mem_union_left _ ((mem_vful 0 i).mpr hc)
      · exact Finset.mem_union_right _ ((mem_vful 1 i).mpr (by show (i 0).val = 1; omega))
  have hj := pointsTo_join (Val := Elt F) (U := UU) (Ix := Unit) (Name := ℕ) (Lvl := ℕ) (ℓ := (c : Thread nD τ).loc cc0_scratch1)
    (q := fullShare) (f := f) (g := g) hd
  rw [hU] at hj
  refine BIBase.Entails.trans hj ?_
  iintro H
  iexists _
  iexact H

end Cert.Kernel.A2A
-- ==== Proof.Bits.LaunchIdeal.lean ====
/-
  The launch of the all-to-all matmul kernel, stated ONCE over what is the protocol's own.

  The program is one pallas_call on each of the eight devices, with no grid: the pipeline has one point and one
  staged window, the f32 result, written back whole. Everything else the body touches travels beside the
  pipeline: the two argument arrays and the bf16 copy of the device's block of `x` (unscoped HBM buffers no window
  stages), three scoped scratch buffers, and the kernel's twenty-one own DMA semaphores; the cross-device protocol
  runs on those semaphores and on the runtime's barrier semaphore.

  `run_of` takes the protocol's side as hypotheses — what a device starts from (`start`), what it owes at launch
  (`O₀`), the levels, the ghost state dealt at launch and its allocation (`G`, `G'`, `hu₀`, `hglob`), the launch
  credit sorted into `start` (`hstart`), that the staging cell may be waited on while the device owes `O₀`
  (`hwait`), and the body's triple in flat form (`hbody`) — and concludes the run of @main on the mesh: every fair
  execution terminates and in every final state each device's result array holds `outAt c` and its two argument
  arrays hold what they held.
-/
import proofs.«900489_g7700000000000490_dist_a2a_gemm_m8192_k8192_n4096_f32_gelu_v7x_i8_1_alg».proof.Proof.Gen.Kernel.Frame
import Idealize.ShloMosaic.Lib.Pipeline.Launch
import Idealize.ShloMosaic.Lib.Pipeline.Kit
import Idealize.ShloMosaic.Lib.Tactic

noncomputable section

namespace Cert.Kernel.LaunchKit

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
-- the protocol's own resource algebra, beside the pipeline library's copy
variable {U₂ : Type} [URA U₂]

local notation "𝕄" => MT nD τ sig Unit (Elt F) ℕ (UR sig nD τ × U₂) ℕ

/-! ## The semaphores -/

/-- The kernel's twenty-one own DMA semaphores: positions 1 to 21 of the pool (position 0 is the staging
    buffer's). Positions 1–8 are the send array, 9–16 the receive array, 17–18, 19–20 and 21 the local copies'. -/
abbrev osem : Fin 21 → SemLoc sig := fun k => .dma (Fin.cast (show 22 = sig.nDmaSem from rfl) k.succ)

theorem ownSemFacts : Pipeline.OwnSemFacts spec0 osem := by decide

/-- The runtime's barrier semaphore of collective id 0. -/
abbrev barS : Sem sig := (SemArray.scalar (sig.barrier 0 rfl) : Sems sig S_).sem

omit [FloatOps F] in
/-- The barrier semaphore is the launch's one unscoped semaphore. -/
theorem unscopedSems0_eq (c : Dev nD) : (unscopedSems0 c : sProp 𝕄) = semVal (((c : Thread nD τ), .reg barS) : GSem nD τ sig) 0 := by
  unfold unscopedSems0; rw [bigSep_eq_bigSepL_of_eq [SemLoc.reg barS] (by decide) (by decide)]; rfl

/-- The own semaphores at zero, as a chain. -/
abbrev ownChain (c : Dev nD) : sProp 𝕄 := bigSepL (List.finRange 21) fun k => semVal (((c : Thread nD τ), osem k) : GSem nD τ sig) 0

omit [FloatOps F] in
theorem ownSems0_eq (c : Dev nD) :
    (Pipeline.ownSems0 (Ix := Unit) (Name := ℕ) (U := UR sig nD τ × U₂) (Lvl := ℕ) (Val := Elt F) (τ := τ) osem c : sProp 𝕄) = ownChain c :=
  Pipeline.ownSems0_eq_of_list c osem (List.finRange 21) (by decide) (by decide)

/-! ## The buffers -/

/-- A whole buffer of device `c` at the full share. -/
abbrev pt (c : Dev nD) (b : Ref sig .tc) (f : Buf (Elt F) ((c : Thread nD τ).loc b)) : sProp 𝕄 := ((c : Thread nD τ).loc b) ↦{fullShare} f

omit [FloatOps F] in
theorem owns_whole_eq (c : Dev nD) (b : Ref sig .tc) (X : b.ty.Contents (Elt F)) :
    (owns (Ix := Unit) (Name := ℕ) (U := UR sig nD τ × U₂) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable (m : (ℓ : Loc nD τ sig) → Buf (Elt F) ℓ) (ρ : Dev nD → PrngReg)

/-! ## The body's triple, flat -/

/-- What the body starts from on device `c`: the protocol's start, the two argument arrays and the bf16 copy as
    launched, the three scratch buffers and the staging buffer of the result at any contents, and what it owes. -/
def bodyPre (start : Dev nD → sProp 𝕄) (O₀ : Dev nD → CellTallies nD τ sig Unit) (c : Dev nD) : sProp 𝕄 :=
  iprop(start c ∗ pt c main_arg0 (m _) ∗ pt c main_arg1 (m _) ∗ pt c main_v1_1 (m _)
    ∗ (∃ f, pt c cc0_scratch0 f) ∗ (∃ f, pt c cc0_scratch1 f) ∗ (∃ f, pt c cc0_scratch2 f)
    ∗ (∃ W, owes (c : Thread nD τ) (O₀ c) W) ∗ (∃ f, pt c cc0_stg0_0 f))

/-- What it ends with: the argument arrays as launched, the scratch buffers at any contents, its own semaphores
    back at zero, nothing owed, and the staging buffer at the result (the bf16 copy is not asked back). -/
def bodyPost (outAt : (c : Dev nD) → (cc0_stg0_0 : Ref sig .tc).ty.Contents (Elt F)) (c : Dev nD) : sProp 𝕄 :=
  iprop(pt c main_arg0 (m _) ∗ pt c main_arg1 (m _)
    ∗ (∃ f, pt c cc0_scratch0 f) ∗ (∃ f, pt c cc0_scratch1 f) ∗ (∃ f, pt c cc0_scratch2 f)
    ∗ ownChain c
    ∗ (∃ W, owes (c : Thread nD τ) (0 : CellTallies nD τ sig Unit) W) ∗ pt c cc0_stg0_0 (outAt c))

/-- The kernel body as the pipeline calls it at its one point. -/
abbrev theBody : Prog (TpuEff nD τ sig (Elt F) Λ₀ .tc) PUnit :=
  cc0_body (Memref.whole main_arg0) (Memref.isWhole_whole _) (Memref.whole main_arg1) (Memref.isWhole_whole _)
    (Memref.whole cc0_stg0_0) (Memref.isWhole_whole _) (Memref.whole main_v1_1) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7

/-! ## The pipeline's proof data -/

def Φ₀ (start : Dev nD → sProp 𝕄) (c : Dev nD) : sProp 𝕄 :=
  iprop(start c ∗ pt c main_arg0 (m _) ∗ pt c main_arg1 (m _) ∗ pt c main_v1_1 (m _)
    ∗ (∃ f, pt c cc0_scratch0 f) ∗ (∃ f, pt c cc0_scratch1 f) ∗ (∃ f, pt c cc0_scratch2 f))

def Φ₁ (c : Dev nD) : sProp 𝕄 :=
  iprop(pt c main_arg0 (m _) ∗ pt c main_arg1 (m _)
    ∗ (∃ f, pt c cc0_scratch0 f) ∗ (∃ f, pt c cc0_scratch1 f) ∗ (∃ f, pt c cc0_scratch2 f)
    ∗ ownChain c)

def dats (start : Dev nD → sProp 𝕄) (O₀ : Dev nD → CellTallies nD τ sig Unit)
    (outAt : (c : Dev nD) → (cc0_stg0_0 : Ref sig .tc).ty.Contents (Elt F))
    (_ : Fin 1) (c : Dev nD) : Dat τ (Elt F) Unit ℕ (UR sig nD τ × U₂) ℕ cfg0 c where
  A w := m ((cfg0.win w).arr.view.loc (c : Thread nD τ))
  after w _ := match w with
    | ⟨0, _⟩ => outAt c
  Φ t := match t with
    | ⟨0, _⟩ => Φ₀ m start c
    | ⟨_ + 1, _⟩ => Φ₁ (U₂ := U₂) m c
  q _ := fullShare
  owed t := match t with
    | ⟨0, _⟩ => O₀ c
    | ⟨_ + 1, _⟩ => 0

abbrev 𝒱₀ : Variants := Variants.none

theorem share_eq (start : Dev nD → sProp 𝕄) (O₀ : Dev nD → CellTallies nD τ sig Unit)
    (outAt : (c : Dev nD) → (cc0_stg0_0 : Ref sig .tc).ty.Contents (Elt F)) (c : Dev nD) (w : Fin cfg0.W) :
    (dats m start O₀ outAt 0 c).share w = fullShare := by unfold Dat.share; split <;> rfl

/-! ## The body obligation from the flat triple -/

def bodyPre' (start : Dev nD → sProp 𝕄) (O₀ : Dev nD → CellTallies nD τ sig Unit)
    (outAt : (c : Dev nD) → (cc0_stg0_0 : Ref sig .tc).ty.Contents (Elt F)) (c : Dev nD) : sProp 𝕄 :=
  iprop(Φ₀ m start c ∗ (dats m start O₀ outAt 0 c).owesAt () (t0_0 : Fin cfg0.N).castSucc
    ∗ (∃ d, ∃ f : Buf (Elt F) ((c : Thread nD τ).loc cc0_stg0_0),
        ⌜f = (dats m start O₀ outAt 0 c).before (0 : Fin 1) t0_0 d⌝ ∗ pt c cc0_stg0_0 f))

def bodyPost' (start : Dev nD → sProp 𝕄) (O₀ : Dev nD → CellTallies nD τ sig Unit)
    (outAt : (c : Dev nD) → (cc0_stg0_0 : Ref sig .tc).ty.Contents (Elt F)) (c : Dev nD) : sProp 𝕄 :=
  iprop(Φ₁ (U₂ := U₂) m c ∗ (dats m start O₀ outAt 0 c).owesAt () (t0_0 : Fin cfg0.N).succ
    ∗ (∃ f : Buf (Elt F) ((c : Thread nD τ).loc cc0_stg0_0), ⌜f = outAt c⌝ ∗ pt c cc0_stg0_0 f))

set_option maxRecDepth 8000 in
/-- The library's body obligation on device `c`, from the body's flat triple. -/
theorem body_obligation (start : Dev nD → sProp 𝕄) (O₀ : Dev nD → CellTallies nD τ sig Unit)
    (outAt : (c : Dev nD) → (cc0_stg0_0 : Ref sig .tc).ty.Contents (Elt F))
    (hbody : ∀ c : Dev nD, bodyPre m start O₀ c
      ⊢ wp frame (wpE (defs₀ (F := F)) 𝒱₀ (c : Thread nD τ) none) Set.univ (theBody (F := F)) fun _ => bodyPost m outAt c)
    (c : Dev nD) : BodyObligation (dats m start O₀ outAt 0 c) (defs₀ (F := F)) 𝒱₀ () Set.univ := fun t => by
  rw [fin_N0 t]
  rw [bigSep_W0, bigSep_W0]
  simp only [owns_whole_eq]
  show bodyPre' m start O₀ outAt c ⊢ wp frame (wpE (defs₀ (F := F)) 𝒱₀ (c : Thread nD τ) none) Set.univ (theBody (F := F))
    (fun _ => bodyPost' m start O₀ outAt c)
  refine (?_ : bodyPre' m start O₀ outAt c ⊢ bodyPre m start O₀ c).trans ((hbody c).trans (wp_mono _ _ _ fun _ => ?_))
  · unfold bodyPre' bodyPre Φ₀ Dat.owesAt Pipeline.owesWithin
    rw [show (dats m start O₀ outAt 0 c).owed (t0_0 : Fin cfg0.N).castSucc = O₀ c from rfl]
    iintro ⟨⟨Hs, Ha0, Ha1, Hv, H0, H1, H2⟩, ⟨%W, -, Ho⟩, ⟨%d, %f, -, Hstg⟩⟩
    isplitl [Hs]; · iexact Hs
    isplitl [Ha0]; · iexact Ha0
    isplitl [Ha1]; · iexact Ha1
    isplitl [Hv]; · iexact Hv
    isplitl [H0]; · iexact H0
    isplitl [H1]; · iexact H1
    isplitl [H2]; · iexact H2
    isplitl [Ho]; · iexists W; iexact Ho
    iexists f; iexact Hstg
  · unfold bodyPost' bodyPost Φ₁ Dat.owesAt Pipeline.owesWithin
    rw [show (dats m start O₀ outAt 0 c).owed (t0_0 : Fin cfg0.N).succ = 0 from rfl]
    iintro ⟨Ha0, Ha1, H0, H1, H2, Hsem, ⟨%W, Ho⟩, Hstg⟩
    isplitl [Ha0 Ha1 H0 H1 H2 Hsem]
    · isplitl [Ha0]; · iexact Ha0
      isplitl [Ha1]; · iexact Ha1
      isplitl [H0]; · iexact H0
      isplitl [H1]; · iexact H1
      isplitl [H2]; · iexact H2
      iexact Hsem
    isplitl [Ho]
    · iexists W; isplitr; · ipureintro; exact fun _ _ => Or.inl trivial
      iexact Ho
    iexists _; isplitr; · (ipureintro; rfl)
    iexact Hstg

/-! ## The launch theorem's side conditions -/

/-- What a device routes into the pipeline's invariant: the protocol's start and the three unscoped buffers no
    window stages, as launched. -/
def X (start : Dev nD → sProp 𝕄) (c : Dev nD) : sProp 𝕄 :=
  iprop(start c ∗ pt c main_arg0 (m _) ∗ pt c main_arg1 (m _) ∗ pt c main_v1_1 (m _))

/-- What comes back out of it: the argument arrays as launched. -/
def Y (c : Dev nD) : sProp 𝕄 :=
  iprop(pt c main_arg0 (m _) ∗ pt c main_arg1 (m _))

theorem start_intro (start : Dev nD → sProp 𝕄) (O₀ : Dev nD → CellTallies nD τ sig Unit)
    (L : GSem nD τ sig → Finset Unit) (lv : GSem nD τ sig → Unit → ℕ) (G' : Dev nD → sProp 𝕄)
    (hstart : ∀ c : Dev nD, iprop(levAts L lv ∗ Pipeline.launchCred O₀ c ∗ G' c) ⊢ |={Set.univ}=> start c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(X m start c ∗ emp) := by
  rw [Pipeline.unscopedRestP_none, unscopedRest0_eq]
  iintro ⟨⟨Ha0, Ha1, Hv⟩, Hlev, Hcr, -, HG⟩
  imod (hstart c) $$ [Hlev Hcr HG] with Hs
  · isplitl [Hlev]; · iexact Hlev
    isplitl [Hcr] <;> iassumption
  imodintro
  unfold X
  isplitl
  · isplitl [Hs]; · iexact Hs
    isplitl [Ha0]; · iexact Ha0
    isplitl [Ha1] <;> iassumption
  · iempintro

theorem phi0_intro (start : Dev nD → sProp 𝕄) (O₀ : Dev nD → CellTallies nD τ sig Unit)
    (outAt : (c : Dev nD) → (cc0_stg0_0 : Ref sig .tc).ty.Contents (Elt F)) (c : Dev nD) :
    iprop(X m start c ∗ Pipeline.prefHeld Pipeline.Prefetch.none c (fun _ => fullShare.right) (fun k => k.elim0) ∗ Pipeline.scopedRest cfg0.spec c)
      ⊢ (dats m start O₀ outAt 0 c).Φ 0 := by
  rw [show (dats m start O₀ outAt 0 c).Φ 0 = Φ₀ m start c from rfl, scopedRest0_eq]
  unfold Φ₀ X
  iintro ⟨⟨Hs, Ha0, Ha1, Hv⟩, -, H0, H1, H2⟩
  isplitl [Hs]; · iexact Hs
  isplitl [Ha0]; · iexact Ha0
  isplitl [Ha1]; · iexact Ha1
  isplitl [Hv]; · iexact Hv
  isplitl [H0]; · iexact H0
  isplitl [H1] <;> iassumption

theorem phi1_exit (start : Dev nD → sProp 𝕄) (O₀ : Dev nD → CellTallies nD τ sig Unit)
    (outAt : (c : Dev nD) → (cc0_stg0_0 : Ref sig .tc).ty.Contents (Elt F)) (c : Dev nD) :
    (dats m start O₀ outAt 0 c).Φ (Fin.last cfg0.N) ⊢ iprop(Y (U₂ := U₂) m c ∗ Pipeline.ownSems0 osem c ∗ Pipeline.scopedRest cfg0.spec c) := by
  rw [show (dats m start O₀ outAt 0 c).Φ (Fin.last cfg0.N) = Φ₁ (U₂ := U₂) m c from rfl, scopedRest0_eq, ownSems0_eq]
  unfold Φ₁ Y
  iintro ⟨Ha0, Ha1, H0, H1, H2, Hsem⟩
  isplitl [Ha0 Ha1]
  · isplitl [Ha0] <;> iassumption
  isplitl [Hsem]; · iexact Hsem
  isplitl [H0]; · iexact H0
  isplitl [H1] <;> iassumption

theorem waits (start : Dev nD → sProp 𝕄) (O₀ : Dev nD → CellTallies nD τ sig Unit)
    (outAt : (c : Dev nD) → (cc0_stg0_0 : Ref sig .tc).ty.Contents (Elt F))
    (L : GSem nD τ sig → Finset Unit) (lv : GSem nD τ sig → Unit → ℕ)
    (hwait : ∀ c : Dev nD, (levAts L lv : sProp 𝕄) ⊢ MayWait (c : Thread nD τ) (.dma cc0_sem0_0) () (O₀ c)) (c : Dev nD) :
    (levAts L lv : sProp 𝕄) ⊢ Pipeline.cellsWaits cfgs (dats m start O₀ outAt) () 0 c :=
  Pipeline.cellsWaits_intro cfgs (dats m start O₀ outAt) () 0 c fun w s t => by
    have hs : ((cfgs 0).win w).sem s = cc0_sem0_0 := by fin_cases w; fin_cases s; rfl
    rw [hs]
    rcases t with ⟨_ | _, ht⟩
    · exact hwait c
    · rw [show (dats m start O₀ outAt 0 c).owed ⟨_ + 1, ht⟩ = 0 from rfl, MayWait_zero]; iintro -; iempintro

/-! ## The run -/

/-- The result array after the run: its one block, the whole array, written back from the staging buffer. -/
theorem finalA_out (start : Dev nD → sProp 𝕄) (O₀ : Dev nD → CellTallies nD τ sig Unit)
    (outAt : (c : Dev nD) → (cc0_stg0_0 : Ref sig .tc).ty.Contents (Elt F)) (c : Dev nD) :
    (dats m start O₀ outAt 0 c).arrAt (0 : Fin 1) cfg0.N = outAt c := by
  rw [show cfg0.N = (t0_0 : Fin cfg0.N).val + 1 from rfl, (dats m start O₀ outAt 0 c).arrAt_succ (0 : Fin 1) t0_0]
  rw [show (cfg0.win (0 : Fin 1)).flush t0_0 = true from flush0_0 _, if_pos rfl]
  exact Memref.write_access_unit_zero_univ (Elt F) main_v1_0 (funext fun a => by fin_cases a <;> rfl) _ _ _

/-- The run's post: on every device the result array holds `outAt c` and the two argument arrays what they held. -/
def QC (outAt : (c : Dev nD) → (cc0_stg0_0 : Ref sig .tc).ty.Contents (Elt F)) : PUnit × MemSt nD τ sig (Elt F) → Prop := fun r =>
  ∀ c : Dev nD, r.2.mem ((c : Thread nD τ).loc main_v1_0) = outAt c
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- THE RUN, over the protocol's side: at the compiled mesh of eight devices, for any float values, from any memory
    with zero counters, every weakly fair execution of @main terminates, and in every final state each device's
    result array holds `outAt c` and its two argument arrays hold what they held. -/
theorem run_of (start : Dev nD → sProp 𝕄) (O₀ : Dev nD → CellTallies nD τ sig Unit)
    (outAt : (c : Dev nD) → (cc0_stg0_0 : Ref sig .tc).ty.Contents (Elt F))
    (L : GSem nD τ sig → Finset Unit) (lv : GSem nD τ sig → Unit → ℕ) (hL : ∀ g : GSem nD τ sig, g.1.2 ≠ .tc → L g = ∅)
    (G G' : Dev nD → sProp 𝕄) (u₀ : UR sig nD τ × U₂)
    (hu₀ : (ownU u₀ : sProp 𝕄)
      ⊢ |={Set.univ}=> iprop(BI.own ((embL : Emb (UR sig nD τ) 𝕄) (initOf (Pipeline.cells cfgs cellOf_inj) (Pipeline.launchToks cfgs cellOf_inj))) ∗ bigSep Finset.univ G))
    (hglob : (bigSep Finset.univ fun c => iprop(Pipeline.ownSems0 osem c ∗ unscopedSems0 c ∗ G c) : sProp 𝕄) ⊢ |={Set.univ}=> bigSep Finset.univ G')
    (hstart : ∀ c : Dev nD, iprop(levAts L lv ∗ Pipeline.launchCred O₀ c ∗ G' c) ⊢ |={Set.univ}=> start c)
    (hwait : ∀ c : Dev nD, (levAts L lv : sProp 𝕄) ⊢ MayWait (c : Thread nD τ) (.dma cc0_sem0_0) () (O₀ c))
    (hbody : ∀ c : Dev nD, bodyPre m start O₀ c
      ⊢ wp frame (wpE (defs₀ (F := F)) 𝒱₀ (c : Thread nD τ) none) Set.univ (theBody (F := F)) fun _ => bodyPost m outAt c) :
    θ_run defs (onTc (τ := τ) (main (F := F))) (s₀ m ρ) (QC m outAt) :=
  Pipeline.θ_run_region_owing_glob_pf (fun p => (cfgs p).toPCfg) (fun p => (cfgs p).toPCfg_adm) (dats m start O₀ outAt) () cellOf_inj (0 : Fin 1)
    winFacts0.to₀ ownSemFacts (Pipeline.PreFacts.none _) (embL : Emb (UR sig nD τ) 𝕄) defs₀ 𝒱₀ m ρ main
    (hmain := fun c => (main_chain c).trans rfl)
    (hbody := body_obligation m start O₀ outAt hbody) (hne := block_pos0) (harr := arr_whole0) (hstage := stage_whole0)
    (hshare := share_eq m start O₀ outAt) (hdistinct := winFacts0.arr_inj)
    (O₀ := O₀) (howed₀ := fun _ => rfl) (howedN := fun _ => rfl)
    (L := L) (lv := lv) (hL := hL) (hwaits := waits m start O₀ outAt L lv hwait)
    (G := G) (G' := G') (u₀ := u₀) (hu₀ := hu₀) (hglob := hglob)
    (hA := fun _ _ => rfl) (hpf := fun _ k => k.elim0)
    (X := X m start) (Y := Y m) (Z := fun _ => iprop(emp))
    (hX := start_intro m ρ start O₀ L lv G' hstart) (hin := phi0_intro m start O₀ outAt) (hout := phi1_exit m start O₀ outAt)
    (QY := fun c s => s.mem ((c : Thread nD τ).loc main_arg0) = m ((c : Thread nD τ).loc main_arg0)
      ∧ s.mem ((c : Thread nD τ).loc main_arg1) = m ((c : Thread nD τ).loc main_arg1))
    (hY := fun c s' => by
      unfold Y
      iintro ⟨⟨Ha0, Ha1⟩, -, HSI⟩
      icombine HSI Ha0 gives %h0
      icombine HSI Ha1 gives %h1
      imodintro
      isplitr; · ipureintro; exact ⟨Buf.eq_of_forall_mem_univ h0, Buf.eq_of_forall_mem_univ h1⟩
      iexact HSI)
    (hQ := fun s h c => ⟨((h c).1 (0 : Fin 1)).trans (finalA_out m start O₀ outAt c), (h c).2.2.1, (h c).2.2.2⟩)

/-- info: 'Cert.Kernel.LaunchKit.run_of' depends on axioms: [propext, Classical.choice, Quot.sound] -/
#guard_msgs in #print axioms run_of

end Cert.Kernel.LaunchKit

end
-- ==== Proof.Bits.OwnChain.lean ====
/-
  The kernel's own semaphores back at zero, regrouped: the chain the launch asks back, in pool order, from the
  seven send and seven receive cells' semaphores and the seven that take part in no round.
-/
import proofs.«900489_g7700000000000490_dist_a2a_gemm_m8192_k8192_n4096_f32_gelu_v7x_i8_1_alg».proof.Proof.Bits.Ghost
import proofs.«900489_g7700000000000490_dist_a2a_gemm_m8192_k8192_n4096_f32_gelu_v7x_i8_1_alg».proof.Proof.Bits.LaunchIdeal

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The seven send semaphores and the seven receive semaphores at zero. -/
def xferSems0 (c : Dev nD) : sProp 𝕄 :=
  iprop(semVal (sendCell 0 c) 0 ∗ semVal (sendCell 1 c) 0 ∗ semVal (sendCell 2 c) 0 ∗ semVal (sendCell 3 c) 0 ∗ semVal (sendCell 4 c) 0 ∗ semVal (sendCell 5 c) 0 ∗ semVal (sendCell 6 c) 0
    ∗ semVal (recvCell 0 c) 0 ∗ semVal (recvCell 1 c) 0 ∗ semVal (recvCell 2 c) 0 ∗ semVal (recvCell 3 c) 0 ∗ semVal (recvCell 4 c) 0 ∗ semVal (recvCell 5 c) 0 ∗ semVal (recvCell 6 c) 0)

theorem ownChain_eq (c : Dev nD) : (LaunchKit.ownChain (F := F) (U₂ := UB × Counters) c : sProp 𝕄)
    = iprop(semVal (((c : Thread nD τ), LaunchKit.osem 0) : GSem nD τ sig) 0
      ∗ semVal (((c : Thread nD τ), LaunchKit.osem 1) : GSem nD τ sig) 0
      ∗ semVal (((c : Thread nD τ), LaunchKit.osem 2) : GSem nD τ sig) 0
      ∗ semVal (((c : Thread nD τ), LaunchKit.osem 3) : GSem nD τ sig) 0
      ∗ semVal (((c : Thread nD τ), LaunchKit.osem 4) : GSem nD τ sig) 0
      ∗ semVal (((c : Thread nD τ), LaunchKit.osem 5) : GSem nD τ sig) 0
      ∗ semVal (((c : Thread nD τ), LaunchKit.osem 6) : GSem nD τ sig) 0
      ∗ semVal (((c : Thread nD τ), LaunchKit.osem 7) : GSem nD τ sig) 0
      ∗ semVal (((c : Thread nD τ), LaunchKit.osem 8) : GSem nD τ sig) 0
      ∗ semVal (((c : Thread nD τ), LaunchKit.osem 9) : GSem nD τ sig) 0
      ∗ semVal (((c : Thread nD τ), LaunchKit.osem 10) : GSem nD τ sig) 0
      ∗ semVal (((c : Thread nD τ), LaunchKit.osem 11) : GSem nD τ sig) 0
      ∗ semVal (((c : Thread nD τ), LaunchKit.osem 12) : GSem nD τ sig) 0
      ∗ semVal (((c : Thread nD τ), LaunchKit.osem 13) : GSem nD τ sig) 0
      ∗ semVal (((c : Thread nD τ), LaunchKit.osem 14) : GSem nD τ sig) 0
      ∗ semVal (((c : Thread nD τ), LaunchKit.osem 15) : GSem nD τ sig) 0
      ∗ semVal (((c : Thread nD τ), LaunchKit.osem 16) : GSem nD τ sig) 0
      ∗ semVal (((c : Thread nD τ), LaunchKit.osem 17) : GSem nD τ sig) 0
      ∗ semVal (((c : Thread nD τ), LaunchKit.osem 18) : GSem nD τ sig) 0
      ∗ semVal (((c : Thread nD τ), LaunchKit.osem 19) : GSem nD τ sig) 0
      ∗ semVal (((c : Thread nD τ), LaunchKit.osem 20) : GSem nD τ sig) 0) := rfl

/-- The chain of the twenty-one own semaphores at zero, from the transfer cells' and the idle ones. -/
theorem ownChain_intro (c : Dev nD) : iprop(xferSems0 c ∗ idleSems c) ⊢ (LaunchKit.ownChain (F := F) (U₂ := UB × Counters) c : sProp 𝕄) := by
  rw [ownChain_eq]
  unfold xferSems0 idleSems
  iintro ⟨⟨S0, S1, S2, S3, S4, S5, S6, R0, R1, R2, R3, R4, R5, R6⟩, I1, I9, I17, I18, I19, I20, I21⟩
  isplitl [I1]; · iexact I1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [I9]; · iexact I9
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [I17]; · iexact I17
  isplitl [I18]; · iexact I18
  isplitl [I19]; · iexact I19
  isplitl [I20]; · iexact I20
  iexact I21

end Cert.Kernel.A2A

end
-- ==== Proof.Bits.BodyDefs.lean ====
/-
  The body's statement with every array held by the blocks that move. The local copies are stepped only when
  source and destination are each held by exactly the copy's own elements, so the precondition holds `x` by its
  eight row blocks, `w` by its sixteen blocks (row block of the device `t` ahead, column half), the bf16 copy by the
  seven blocks it fills, the receive buffer by its eight slots and the f32 staging buffer by the low and high
  columns of its two planes; the postcondition returns `x` and `w` unchanged block by block, the slots and the
  staging planes at some contents, every own semaphore at zero, nothing owed, and the result at `outAt`.
-/
import proofs.«900489_g7700000000000490_dist_a2a_gemm_m8192_k8192_n4096_f32_gelu_v7x_i8_1_alg».proof.Proof.Bits.Ghost
import proofs.«900489_g7700000000000490_dist_a2a_gemm_m8192_k8192_n4096_f32_gelu_v7x_i8_1_alg».proof.Proof.Bits.Ledger
import proofs.«900489_g7700000000000490_dist_a2a_gemm_m8192_k8192_n4096_f32_gelu_v7x_i8_1_alg».proof.Proof.Bits.SrcBlocks
import proofs.«900489_g7700000000000490_dist_a2a_gemm_m8192_k8192_n4096_f32_gelu_v7x_i8_1_alg».proof.Proof.Bits.Views
import proofs.«900489_g7700000000000490_dist_a2a_gemm_m8192_k8192_n4096_f32_gelu_v7x_i8_1_alg».proof.Proof.Bits.Splits
import proofs.«900489_g7700000000000490_dist_a2a_gemm_m8192_k8192_n4096_f32_gelu_v7x_i8_1_alg».proof.Proof.Bits.OutDef
import proofs.«900489_g7700000000000490_dist_a2a_gemm_m8192_k8192_n4096_f32_gelu_v7x_i8_1_alg».proof.Proof.Bits.OwnChain

noncomputable section

namespace Cert.Kernel.A2A

open Cert.Kernel Cert.Kernel.Gen Cert.Kernel.Ring8
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A resource set aside: the same assertion under a name the symbolic run does not read. -/
def Held (P : sProp 𝕄) : sProp 𝕄 := P
theorem held_intro (P : sProp 𝕄) : P ⊢ Held P := BI.Entails.refl _
theorem held_elim (P : sProp 𝕄) : Held P ⊢ P := BI.Entails.refl _

section Owed
variable (c : Dev nD)
/-! What the device still owes, step by step: the receive credits in the order opposite to the sends, then the
    barrier units in the order opposite to the signals, so that the next payment is always the last summand. -/
def OR6 : CellTallies nD τ sig Unit := tallyAt (recvCell 6 (bwd 7 c)) () N
def OR5 : CellTallies nD τ sig Unit := OR6 c + tallyAt (recvCell 5 (bwd 6 c)) () N
def OR4 : CellTallies nD τ sig Unit := OR5 c + tallyAt (recvCell 4 (bwd 5 c)) () N
def OR3 : CellTallies nD τ sig Unit := OR4 c + tallyAt (recvCell 3 (bwd 4 c)) () N
def OR2 : CellTallies nD τ sig Unit := OR3 c + tallyAt (recvCell 2 (bwd 3 c)) () N
def OR1 : CellTallies nD τ sig Unit := OR2 c + tallyAt (recvCell 1 (bwd 2 c)) () N
def OR0 : CellTallies nD τ sig Unit := OR1 c + tallyAt (recvCell 0 (bwd 1 c)) () N
def OB7 : CellTallies nD τ sig Unit := OR0 c + tallyAt (barCell (fwd 7 c)) () 1
def OB6 : CellTallies nD τ sig Unit := OB7 c + tallyAt (barCell (fwd 6 c)) () 1
def OB5 : CellTallies nD τ sig Unit := OB6 c + tallyAt (barCell (fwd 5 c)) () 1
def OB4 : CellTallies nD τ sig Unit := OB5 c + tallyAt (barCell (fwd 4 c)) () 1
def OB3 : CellTallies nD τ sig Unit := OB4 c + tallyAt (barCell (fwd 3 c)) () 1
def OB2 : CellTallies nD τ sig Unit := OB3 c + tallyAt (barCell (fwd 2 c)) () 1
def OB1 : CellTallies nD τ sig Unit := OB2 c + tallyAt (barCell (fwd 1 c)) () 1

theorem O₀_eq : O₀ c = OB1 c := by
  unfold O₀ OB1 OB2 OB3 OB4 OB5 OB6 OB7 OR0 OR1 OR2 OR3 OR4 OR5 OR6
  ac_rfl

theorem atLeast_OR6 : AtLeast 2 (OR6 c) := atLeast_recv _ _ _
theorem atLeast_OR5 : AtLeast 2 (OR5 c) := atLeast_add (atLeast_OR6 c) (atLeast_recv _ _ _)
theorem atLeast_OR4 : AtLeast 2 (OR4 c) := atLeast_add (atLeast_OR5 c) (atLeast_recv _ _ _)
theorem atLeast_OR3 : AtLeast 2 (OR3 c) := atLeast_add (atLeast_OR4 c) (atLeast_recv _ _ _)
theorem atLeast_OR2 : AtLeast 2 (OR2 c) := atLeast_add (atLeast_OR3 c) (atLeast_recv _ _ _)
theorem atLeast_OR1 : AtLeast 2 (OR1 c) := atLeast_add (atLeast_OR2 c) (atLeast_recv _ _ _)
theorem atLeast_OR0 : AtLeast 2 (OR0 c) := atLeast_add (atLeast_OR1 c) (atLeast_recv _ _ _)
end Owed

/-- What the body starts from, every array held by the blocks that move. -/
def preS (K : GSem nD τ sig → ℕ) (c : Dev nD) (W : Waits sig Unit)
    (f16 : Buf (Elt F) ((c : Thread nD τ).loc main_v1_1)) (fr : Buf (Elt F) ((c : Thread nD τ).loc cc0_scratch0))
    (fwv : Buf (Elt F) ((c : Thread nD τ).loc cc0_scratch1)) (fc16 : Buf (Elt F) ((c : Thread nD τ).loc cc0_scratch2))
    (fo : Buf (Elt F) ((c : Thread nD τ).loc cc0_stg0_0)) : sProp 𝕄 :=
  iprop(invs m K c ∗ poss c ∗ reacheds c ∗ payToks c ∗ creds c ∗ idleSems c ∗ levAts L lv
    ∗ ((xsrc0 c).view.loc (c : Thread nD τ) ↦[(xsrc0 c).view.set]{fullShare} m ((c : Thread nD τ).loc main_arg0))
    ∗ ((xsrc 0 c).view.loc (c : Thread nD τ) ↦[(xsrc 0 c).view.set]{fullShare} m ((c : Thread nD τ).loc main_arg0))
    ∗ ((xsrc 1 c).view.loc (c : Thread nD τ) ↦[(xsrc 1 c).view.set]{fullShare} m ((c : Thread nD τ).loc main_arg0))
    ∗ ((xsrc 2 c).view.loc (c : Thread nD τ) ↦[(xsrc 2 c).view.set]{fullShare} m ((c : Thread nD τ).loc main_arg0))
    ∗ ((xsrc 3 c).view.loc (c : Thread nD τ) ↦[(xsrc 3 c).view.set]{fullShare} m ((c : Thread nD τ).loc main_arg0))
    ∗ ((xsrc 4 c).view.loc (c : Thread nD τ) ↦[(xsrc 4 c).view.set]{fullShare} m ((c : Thread nD τ).loc main_arg0))
    ∗ ((xsrc 5 c).view.loc (c : Thread nD τ) ↦[(xsrc 5 c).view.set]{fullShare} m ((c : Thread nD τ).loc main_arg0))
    ∗ ((xsrc 6 c).view.loc (c : Thread nD τ) ↦[(xsrc 6 c).view.set]{fullShare} m ((c : Thread nD τ).loc main_arg0))
    ∗ ((wsrc0 0 c).view.loc (c : Thread nD τ) ↦[(wsrc0 0 c).view.set]{fullShare} m ((c : Thread nD τ).loc main_arg1))
    ∗ ((wsrc1 0 c).view.loc (c : Thread nD τ) ↦[(wsrc1 0 c).view.set]{fullShare} m ((c : Thread nD τ).loc main_arg1))
    ∗ ((wsrc0 1 c).view.loc (c : Thread nD τ) ↦[(wsrc0 1 c).view.set]{fullShare} m ((c : Thread nD τ).loc main_arg1))
    ∗ ((wsrc1 1 c).view.loc (c : Thread nD τ) ↦[(wsrc1 1 c).view.set]{fullShare} m ((c : Thread nD τ).loc main_arg1))
    ∗ ((wsrc0 2 c).view.loc (c : Thread nD τ) ↦[(wsrc0 2 c).view.set]{fullShare} m ((c : Thread nD τ).loc main_arg1))
    ∗ ((wsrc1 2 c).view.loc (c : Thread nD τ) ↦[(wsrc1 2 c).view.set]{fullShare} m ((c : Thread nD τ).loc main_arg1))
    ∗ ((wsrc0 3 c).view.loc (c : Thread nD τ) ↦[(wsrc0 3 c).view.set]{fullShare} m ((c : Thread nD τ).loc main_arg1))
    ∗ ((wsrc1 3 c).view.loc (c : Thread nD τ) ↦[(wsrc1 3 c).view.set]{fullShare} m ((c : Thread nD τ).loc main_arg1))
    ∗ ((wsrc0 4 c).view.loc (c : Thread nD τ) ↦[(wsrc0 4 c).view.set]{fullShare} m ((c : Thread nD τ).loc main_arg1))
    ∗ ((wsrc1 4 c).view.loc (c : Thread nD τ) ↦[(wsrc1 4 c).view.set]{fullShare} m ((c : Thread nD τ).loc main_arg1))
    ∗ ((wsrc0 5 c).view.loc (c : Thread nD τ) ↦[(wsrc0 5 c).view.set]{fullShare} m ((c : Thread nD τ).loc main_arg1))
    ∗ ((wsrc1 5 c).view.loc (c : Thread nD τ) ↦[(wsrc1 5 c).view.set]{fullShare} m ((c : Thread nD τ).loc main_arg1))
    ∗ ((wsrc0 6 c).view.loc (c : Thread nD τ) ↦[(wsrc0 6 c).view.set]{fullShare} m ((c : Thread nD τ).loc main_arg1))
    ∗ ((wsrc1 6 c).view.loc (c : Thread nD τ) ↦[(wsrc1 6 c).view.set]{fullShare} m ((c : Thread nD τ).loc main_arg1))
    ∗ ((wsrc0 7 c).view.loc (c : Thread nD τ) ↦[(wsrc0 7 c).view.set]{fullShare} m ((c : Thread nD τ).loc main_arg1))
    ∗ ((wsrc1 7 c).view.loc (c : Thread nD τ) ↦[(wsrc1 7 c).view.set]{fullShare} m ((c : Thread nD τ).loc main_arg1))
    ∗ ((xblk16 0 c).view.loc (c : Thread nD τ) ↦[(xblk16 0 c).view.set]{fullShare} f16)
    ∗ ((xblk16 1 c).view.loc (c : Thread nD τ) ↦[(xblk16 1 c).view.set]{fullShare} f16)
    ∗ ((xblk16 2 c).view.loc (c : Thread nD τ) ↦[(xblk16 2 c).view.set]{fullShare} f16)
    ∗ ((xblk16 3 c).view.loc (c : Thread nD τ) ↦[(xblk16 3 c).view.set]{fullShare} f16)
    ∗ ((xblk16 4 c).view.loc (c : Thread nD τ) ↦[(xblk16 4 c).view.set]{fullShare} f16)
    ∗ ((xblk16 5 c).view.loc (c : Thread nD τ) ↦[(xblk16 5 c).view.set]{fullShare} f16)
    ∗ ((xblk16 6 c).view.loc (c : Thread nD τ) ↦[(xblk16 6 c).view.set]{fullShare} f16)
    ∗ (((rslot 1 : Memref sig .tc .vmem S1024x1024 .bf16)).view.loc (c : Thread nD τ) ↦[((rslot 1 : Memref sig .tc .vmem S1024x1024 .bf16)).view.set]{fullShare} fr)
    ∗ (((rslot 2 : Memref sig .tc .vmem S1024x1024 .bf16)).view.loc (c : Thread nD τ) ↦[((rslot 2 : Memref sig .tc .vmem S1024x1024 .bf16)).view.set]{fullShare} fr)
    ∗ (((rslot 3 : Memref sig .tc .vmem S1024x1024 .bf16)).view.loc (c : Thread nD τ) ↦[((rslot 3 : Memref sig .tc .vmem S1024x1024 .bf16)).view.set]{fullShare} fr)
    ∗ (((rslot 4 : Memref sig .tc .vmem S1024x1024 .bf16)).view.loc (c : Thread nD τ) ↦[((rslot 4 : Memref sig .tc .vmem S1024x1024 .bf16)).view.set]{fullShare} fr)
    ∗ (((rslot 5 : Memref sig .tc .vmem S1024x1024 .bf16)).view.loc (c : Thread nD τ) ↦[((rslot 5 : Memref sig .tc .vmem S1024x1024 .bf16)).view.set]{fullShare} fr)
    ∗ (((rslot 6 : Memref sig .tc .vmem S1024x1024 .bf16)).view.loc (c : Thread nD τ) ↦[((rslot 6 : Memref sig .tc .vmem S1024x1024 .bf16)).view.set]{fullShare} fr)
    ∗ (((rslot 7 : Memref sig .tc .vmem S1024x1024 .bf16)).view.loc (c : Thread nD τ) ↦[((rslot 7 : Memref sig .tc .vmem S1024x1024 .bf16)).view.set]{fullShare} fr)
    ∗ (((rslot 0 : Memref sig .tc .vmem S1024x1024 .bf16)).view.loc (c : Thread nD τ) ↦[((rslot 0 : Memref sig .tc .vmem S1024x1024 .bf16)).view.set]{fullShare} fr)
    ∗ (((vlo 0 : Memref sig .tc .vmem S1024x1024 .f32)).view.loc (c : Thread nD τ) ↦[((vlo 0 : Memref sig .tc .vmem S1024x1024 .f32)).view.set]{fullShare} fwv)
    ∗ (((vhi 0 : Memref sig .tc .vmem S1024x1024 .f32)).view.loc (c : Thread nD τ) ↦[((vhi 0 : Memref sig .tc .vmem S1024x1024 .f32)).view.set]{fullShare} fwv)
    ∗ (((vlo 1 : Memref sig .tc .vmem S1024x1024 .f32)).view.loc (c : Thread nD τ) ↦[((vlo 1 : Memref sig .tc .vmem S1024x1024 .f32)).view.set]{fullShare} fwv)
    ∗ (((vhi 1 : Memref sig .tc .vmem S1024x1024 .f32)).view.loc (c : Thread nD τ) ↦[((vhi 1 : Memref sig .tc .vmem S1024x1024 .f32)).view.set]{fullShare} fwv)
    ∗ ((Memref.whole cc0_scratch2 : Memref sig .tc .vmem S2x1024x1024 .bf16).view.loc (c : Thread nD τ) ↦{fullShare} fc16)
    ∗ owes (c : Thread nD τ) (OB1 c) W
    ∗ ((Memref.whole cc0_stg0_0 : Memref sig .tc .vmem S1024x4096 .f32).view.loc (c : Thread nD τ) ↦{fullShare} fo))

/-- What the body ends with. -/
def postS (c : Dev nD) : sProp 𝕄 :=
  iprop(emp
    ∗ ((xsrc0 c).view.loc (c : Thread nD τ) ↦[(xsrc0 c).view.set]{fullShare} m ((c : Thread nD τ).loc main_arg0))
    ∗ ((xsrc 0 c).view.loc (c : Thread nD τ) ↦[(xsrc 0 c).view.set]{fullShare} m ((c : Thread nD τ).loc main_arg0))
    ∗ ((xsrc 1 c).view.loc (c : Thread nD τ) ↦[(xsrc 1 c).view.set]{fullShare} m ((c : Thread nD τ).loc main_arg0))
    ∗ ((xsrc 2 c).view.loc (c : Thread nD τ) ↦[(xsrc 2 c).view.set]{fullShare} m ((c : Thread nD τ).loc main_arg0))
    ∗ ((xsrc 3 c).view.loc (c : Thread nD τ) ↦[(xsrc 3 c).view.set]{fullShare} m ((c : Thread nD τ).loc main_arg0))
    ∗ ((xsrc 4 c).view.loc (c : Thread nD τ) ↦[(xsrc 4 c).view.set]{fullShare} m ((c : Thread nD τ).loc main_arg0))
    ∗ ((xsrc 5 c).view.loc (c : Thread nD τ) ↦[(xsrc 5 c).view.set]{fullShare} m ((c : Thread nD τ).loc main_arg0))
    ∗ ((xsrc 6 c).view.loc (c : Thread nD τ) ↦[(xsrc 6 c).view.set]{fullShare} m ((c : Thread nD τ).loc main_arg0))
    ∗ ((wsrc0 0 c).view.loc (c : Thread nD τ) ↦[(wsrc0 0 c).view.set]{fullShare} m ((c : Thread nD τ).loc main_arg1))
    ∗ ((wsrc1 0 c).view.loc (c : Thread nD τ) ↦[(wsrc1 0 c).view.set]{fullShare} m ((c : Thread nD τ).loc main_arg1))
    ∗ ((wsrc0 1 c).view.loc (c : Thread nD τ) ↦[(wsrc0 1 c).view.set]{fullShare} m ((c : Thread nD τ).loc main_arg1))
    ∗ ((wsrc1 1 c).view.loc (c : Thread nD τ) ↦[(wsrc1 1 c).view.set]{fullShare} m ((c : Thread nD τ).loc main_arg1))
    ∗ ((wsrc0 2 c).view.loc (c : Thread nD τ) ↦[(wsrc0 2 c).view.set]{fullShare} m ((c : Thread nD τ).loc main_arg1))
    ∗ ((wsrc1 2 c).view.loc (c : Thread nD τ) ↦[(wsrc1 2 c).view.set]{fullShare} m ((c : Thread nD τ).loc main_arg1))
    ∗ ((wsrc0 3 c).view.loc (c : Thread nD τ) ↦[(wsrc0 3 c).view.set]{fullShare} m ((c : Thread nD τ).loc main_arg1))
    ∗ ((wsrc1 3 c).view.loc (c : Thread nD τ) ↦[(wsrc1 3 c).view.set]{fullShare} m ((c : Thread nD τ).loc main_arg1))
    ∗ ((wsrc0 4 c).view.loc (c : Thread nD τ) ↦[(wsrc0 4 c).view.set]{fullShare} m ((c : Thread nD τ).loc main_arg1))
    ∗ ((wsrc1 4 c).view.loc (c : Thread nD τ) ↦[(wsrc1 4 c).view.set]{fullShare} m ((c : Thread nD τ).loc main_arg1))
    ∗ ((wsrc0 5 c).view.loc (c : Thread nD τ) ↦[(wsrc0 5 c).view.set]{fullShare} m ((c : Thread nD τ).loc main_arg1))
    ∗ ((wsrc1 5 c).view.loc (c : Thread nD τ) ↦[(wsrc1 5 c).view.set]{fullShare} m ((c : Thread nD τ).loc main_arg1))
    ∗ ((wsrc0 6 c).view.loc (c : Thread nD τ) ↦[(wsrc0 6 c).view.set]{fullShare} m ((c : Thread nD τ).loc main_arg1))
    ∗ ((wsrc1 6 c).view.loc (c : Thread nD τ) ↦[(wsrc1 6 c).view.set]{fullShare} m ((c : Thread nD τ).loc main_arg1))
    ∗ ((wsrc0 7 c).view.loc (c : Thread nD τ) ↦[(wsrc0 7 c).view.set]{fullShare} m ((c : Thread nD τ).loc main_arg1))
    ∗ ((wsrc1 7 c).view.loc (c : Thread nD τ) ↦[(wsrc1 7 c).view.set]{fullShare} m ((c : Thread nD τ).loc main_arg1))
    ∗ (∃ f0 f1 f2 f3 f4 f5 f6 f7 : Buf (Elt F) ((c : Thread nD τ).loc cc0_scratch0), iprop(emp
      ∗ (((rslot 0 : Memref sig .tc .vmem S1024x1024 .bf16)).view.loc (c : Thread nD τ) ↦[((rslot 0 : Memref sig .tc .vmem S1024x1024 .bf16)).view.set]{fullShare} f0)
      ∗ (((rslot 1 : Memref sig .tc .vmem S1024x1024 .bf16)).view.loc (c : Thread nD τ) ↦[((rslot 1 : Memref sig .tc .vmem S1024x1024 .bf16)).view.set]{fullShare} f1)
      ∗ (((rslot 2 : Memref sig .tc .vmem S1024x1024 .bf16)).view.loc (c : Thread nD τ) ↦[((rslot 2 : Memref sig .tc .vmem S1024x1024 .bf16)).view.set]{fullShare} f2)
      ∗ (((rslot 3 : Memref sig .tc .vmem S1024x1024 .bf16)).view.loc (c : Thread nD τ) ↦[((rslot 3 : Memref sig .tc .vmem S1024x1024 .bf16)).view.set]{fullShare} f3)
      ∗ (((rslot 4 : Memref sig .tc .vmem S1024x1024 .bf16)).view.loc (c : Thread nD τ) ↦[((rslot 4 : Memref sig .tc .vmem S1024x1024 .bf16)).view.set]{fullShare} f4)
      ∗ (((rslot 5 : Memref sig .tc .vmem S1024x1024 .bf16)).view.loc (c : Thread nD τ) ↦[((rslot 5 : Memref sig .tc .vmem S1024x1024 .bf16)).view.set]{fullShare} f5)
      ∗ (((rslot 6 : Memref sig .tc .vmem S1024x1024 .bf16)).view.loc (c : Thread nD τ) ↦[((rslot 6 : Memref sig .tc .vmem S1024x1024 .bf16)).view.set]{fullShare} f6)
      ∗ (((rslot 7 : Memref sig .tc .vmem S1024x1024 .bf16)).view.loc (c : Thread nD τ) ↦[((rslot 7 : Memref sig .tc .vmem S1024x1024 .bf16)).view.set]{fullShare} f7)
      ))
    ∗ (∃ h0 h1 : Buf (Elt F) ((c : Thread nD τ).loc cc0_scratch1), iprop(
        ((vful 0 : Memref sig .tc .vmem S1024x2048 .f32).view.loc (c : Thread nD τ) ↦[(vful 0 : Memref sig .tc .vmem S1024x2048 .f32).view.set]{fullShare} h0)
        ∗ ((vful 1 : Memref sig .tc .vmem S1024x2048 .f32).view.loc (c : Thread nD τ) ↦[(vful 1 : Memref sig .tc .vmem S1024x2048 .f32).view.set]{fullShare} h1)))
    ∗ (∃ g : Buf (Elt F) ((c : Thread nD τ).loc cc0_scratch2), (Memref.whole cc0_scratch2 : Memref sig .tc .vmem S2x1024x1024 .bf16).view.loc (c : Thread nD τ) ↦{fullShare} g)
    ∗ xferSems0 c ∗ idleSems c
    ∗ (∃ W, owes (c : Thread nD τ) 0 W)
    ∗ ((Memref.whole cc0_stg0_0 : Memref sig .tc .vmem S1024x4096 .f32).view.loc (c : Thread nD τ) ↦{fullShare} outAt m c))

end Cert.Kernel.A2A
-- ==== Proof.Bits.FundIdeal.lean ====
/-
  The launch's ghost state for the all-to-all's protocol: the fifteen cells of each device (its barrier cell, seven
  send and seven receive cells), the one-shot duty tokens — minted indexed by the device that PAYS the duty, so that
  each device's share is its own row —, the launch element, and what it funds.
-/
import proofs.«900489_g7700000000000490_dist_a2a_gemm_m8192_k8192_n4096_f32_gelu_v7x_i8_1_alg».proof.Proof.Bits.Ghost
import proofs.«900489_g7700000000000490_dist_a2a_gemm_m8192_k8192_n4096_f32_gelu_v7x_i8_1_alg».proof.Proof.Bits.Ledger
import proofs.«900489_g7700000000000490_dist_a2a_gemm_m8192_k8192_n4096_f32_gelu_v7x_i8_1_alg».proof.Proof.Bits.LaunchIdeal

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.LaunchKit (osem)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A device's fifteen protocol semaphores: the barrier, the seven send and the seven receive semaphores. -/
abbrev csem : Fin 15 → SemLoc sig := fun
  | 0 => .reg barS
  | 1 => .dma (sendSem 0)
  | 2 => .dma (sendSem 1)
  | 3 => .dma (sendSem 2)
  | 4 => .dma (sendSem 3)
  | 5 => .dma (sendSem 4)
  | 6 => .dma (sendSem 5)
  | 7 => .dma (sendSem 6)
  | 8 => .dma (recvSem 0)
  | 9 => .dma (recvSem 1)
  | 10 => .dma (recvSem 2)
  | 11 => .dma (recvSem 3)
  | 12 => .dma (recvSem 4)
  | 13 => .dma (recvSem 5)
  | 14 => .dma (recvSem 6)
abbrev kcell (ck : Dev nD × Fin 15) : GSem nD τ sig := ((ck.1 : Thread nD τ), csem ck.2)

theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

def ringCells : Finset (GSem nD τ sig) := Finset.univ.map ⟨kcell, kcell_injective⟩

/-! ## The duty tokens, by payer -/

/-- The twenty-one duties device `cj.1` pays: duty `r` of the barrier cell `r + 1` ahead, the duty of the receive
    cell `r` of the device `r + 1` behind, the duty of its own send cell `r`. -/
abbrev payTok (cj : Dev nD × Fin 21) : GSem nD τ sig × ℕ × Dy :=
  (![(barCell (fwd 1 cj.1), 0, 0),
    (barCell (fwd 2 cj.1), 0, 1),
    (barCell (fwd 3 cj.1), 0, 2),
    (barCell (fwd 4 cj.1), 0, 3),
    (barCell (fwd 5 cj.1), 0, 4),
    (barCell (fwd 6 cj.1), 0, 5),
    (barCell (fwd 7 cj.1), 0, 6),
    (recvCell 0 (bwd 1 cj.1), 0, 0),
    (recvCell 1 (bwd 2 cj.1), 0, 0),
    (recvCell 2 (bwd 3 cj.1), 0, 0),
    (recvCell 3 (bwd 4 cj.1), 0, 0),
    (recvCell 4 (bwd 5 cj.1), 0, 0),
    (recvCell 5 (bwd 6 cj.1), 0, 0),
    (recvCell 6 (bwd 7 cj.1), 0, 0),
    (sendCell 0 cj.1, 0, 0),
    (sendCell 1 cj.1, 0, 0),
    (sendCell 2 cj.1, 0, 0),
    (sendCell 3 cj.1, 0, 0),
    (sendCell 4 cj.1, 0, 0),
    (sendCell 5 cj.1, 0, 0),
    (sendCell 6 cj.1, 0, 0)] : Fin 21 → GSem nD τ sig × ℕ × Dy) cj.2

/-- The payer and the row of a minted token. -/
def unpay (x : GSem nD τ sig × ℕ × Dy) : Dev nD × Fin 21 :=
  match x.1.2 with
  | .reg _ => (bwd (x.2.2.val + 1) x.1.1.1, ⟨x.2.2.val, by have := x.2.2.isLt; omega⟩)
  | .dma s => match xfer (.dma s) with
    | some (true, r) => (fwd (r.val + 1) x.1.1.1, ⟨7 + r.val, by have := r.isLt; omega⟩)
    | some (false, r) => (x.1.1.1, ⟨14 + r.val, by have := r.isLt; omega⟩)
    | none => (x.1.1.1, 0)

theorem unpay_payTok : ∀ cj : Dev nD × Fin 21, unpay (payTok cj) = cj := by decide

theorem payTok_injective : Function.Injective (payTok : Dev nD × Fin 21 → GSem nD τ sig × ℕ × Dy) :=
  Function.LeftInverse.injective unpay_payTok

def ringToks : Finset (GSem nD τ sig × ℕ × Dy) := Finset.univ.map ⟨payTok, payTok_injective⟩

/-! ## The launch element and what it funds -/

def u₀ : UU :=
  (initOf (Pipeline.cells cfgs cellOf_inj) (Pipeline.launchToks cfgs cellOf_inj), (initOf ringCells ringToks, 1))

/-- What the launch element deals device `c` (the launch theorem's `G`): the round states, positions and reached
    facts of its own fifteen cells, and the tokens of the duties it pays. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ payToks c)

theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin21 (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks; rw [bigSep_map, bigSep_univ_prod]
    exact bigSep_congr fun c _ => by unfold payToks; rw [bigSep_fin21]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element pays for the pipeline library's cells and for the protocol's (the launch theorem's `hu₀`); its
    counters' component is the unit. -/
theorem fund :
    (ownU (u₀ : UU) : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (own_pair_emb (embR : Emb (UB × Counters) 𝕄) _ _) $$ HX
  icases HX' with ⟨HR, -⟩
  imod (fund_ring m) $$ HR with HG
  imodintro
  isplitl [HP] <;> iassumption

/-! ## The payloads can be stored in an invariant -/

instance sched_payload_storable_launch (g : GSem nD τ sig) (r : ℕ) (d : Dy) :
    BI.Storable (upEmb : UEmb _ 𝕄) ((sched (F := F) m).payload g r d) := by
  show BI.Storable upEmb (match xfer g.2 with
    | some (true, r) => recvPay m r g.1.1
    | some (false, r) => sendPay m r g.1.1
    | none => if g.2 = .reg barS then barPay d g.1.1 else iprop(emp))
  unfold recvPay sendPay barPay
  (repeat' split) <;> infer_instance

/-! ## The semaphores at launch -/

theorem ownSems0_eq (c : Dev nD) :
    (Pipeline.ownSems0 (Ix := Unit) (Name := ℕ) (U := UU) (Lvl := ℕ) (Val := Elt F) (τ := τ) osem c : sProp 𝕄)
      = iprop(semVal (((c : Thread nD τ), osem 0) : GSem nD τ sig) 0
        ∗ semVal (((c : Thread nD τ), osem 1) : GSem nD τ sig) 0
        ∗ semVal (((c : Thread nD τ), osem 2) : GSem nD τ sig) 0
        ∗ semVal (((c : Thread nD τ), osem 3) : GSem nD τ sig) 0
        ∗ semVal (((c : Thread nD τ), osem 4) : GSem nD τ sig) 0
        ∗ semVal (((c : Thread nD τ), osem 5) : GSem nD τ sig) 0
        ∗ semVal (((c : Thread nD τ), osem 6) : GSem nD τ sig) 0
        ∗ semVal (((c : Thread nD τ), osem 7) : GSem nD τ sig) 0
        ∗ semVal (((c : Thread nD τ), osem 8) : GSem nD τ sig) 0
        ∗ semVal (((c : Thread nD τ), osem 9) : GSem nD τ sig) 0
        ∗ semVal (((c : Thread nD τ), osem 10) : GSem nD τ sig) 0
        ∗ semVal (((c : Thread nD τ), osem 11) : GSem nD τ sig) 0
        ∗ semVal (((c : Thread nD τ), osem 12) : GSem nD τ sig) 0
        ∗ semVal (((c : Thread nD τ), osem 13) : GSem nD τ sig) 0
        ∗ semVal (((c : Thread nD τ), osem 14) : GSem nD τ sig) 0
        ∗ semVal (((c : Thread nD τ), osem 15) : GSem nD τ sig) 0
        ∗ semVal (((c : Thread nD τ), osem 16) : GSem nD τ sig) 0
        ∗ semVal (((c : Thread nD τ), osem 17) : GSem nD τ sig) 0
        ∗ semVal (((c : Thread nD τ), osem 18) : GSem nD τ sig) 0
        ∗ semVal (((c : Thread nD τ), osem 19) : GSem nD τ sig) 0
        ∗ semVal (((c : Thread nD τ), osem 20) : GSem nD τ sig) 0) := by
  rw [Pipeline.ownSems0_eq_of_list c osem [0, 1, 2, 3, 4, 5, 6, 7, 8, 9, 10, 11, 12, 13, 14, 15, 16, 17, 18, 19, 20] (by decide) (by decide)]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, sorted: its fifteen cells', and the seven that take part in no round. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ idleSems c) : sProp 𝕄) := by
  rw [ownSems0_eq, unscopedSems0_eq, bigSep_fin15]
  unfold idleSems
  iintro ⟨⟨H0, H1, H2, H3, H4, H5, H6, H7, H8, H9, H10, H11, H12, H13, H14, H15, H16, H17, H18, H19, H20⟩, HB⟩
  isplitl [HB H1 H2 H3 H4 H5 H6 H7 H9 H10 H11 H12 H13 H14 H15]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H14]; · iexact H14
    iexact H15
  · isplitl [H0]; · iexact H0
    isplitl [H8]; · iexact H8
    isplitl [H16]; · iexact H16
    isplitl [H17]; · iexact H17
    isplitl [H18]; · iexact H18
    isplitl [H19]; · iexact H19
    iexact H20

/-- One device's cells allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ payToks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## Every device's start from all devices' cells -/

/-- The cells' names as a function of the cell: the allocated names along the cell map. -/
abbrev Kx (K : Dev nD × Fin 15 → ℕ) : GSem nD τ sig → ℕ := Function.extend kcell K (fun _ => 0)

theorem Kx_kcell (K : Dev nD × Fin 15 → ℕ) (ck : Dev nD × Fin 15) : Kx K (kcell ck) = K ck := kcell_injective.extend_apply K _ ck

/-- What every device may use of every other: all the invariants, and that every cell is at round 0. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at0 (K : Dev nD × Fin 15 → ℕ) (ck : Dev nD × Fin 15) :
    (bigSep Finset.univ fun ck : Dev nD × Fin 15 => (cellInv ER (sched m) (K ck) (kcell ck) : sProp 𝕄)) ⊢ cellInv ER (sched m) (K ck) (kcell ck) :=
  bigSep_elim (Finset.mem_univ ck)
theorem reached_at0 (ck : Dev nD × Fin 15) :
    (bigSep Finset.univ fun ck : Dev nD × Fin 15 => (reached ER (kcell ck) 0 : sProp 𝕄)) ⊢ reached ER (kcell ck) 0 :=
  bigSep_elim (Finset.mem_univ ck)
theorem inv_at (K : Dev nD × Fin 15 → ℕ) (ck : Dev nD × Fin 15) :
    records m K ⊢ cellInv ER (sched m) (Kx K (kcell ck)) (kcell ck) := by
  rw [Kx_kcell]; unfold records
  iintro ⟨H, -⟩
  iapply (inv_at0 m K ck)
  iexact H
theorem reached_at (K : Dev nD × Fin 15 → ℕ) (ck : Dev nD × Fin 15) :
    records m K ⊢ reached ER (kcell ck) 0 := by
  unfold records
  iintro ⟨-, H⟩
  iapply (reached_at0 (F := F) ck)
  iexact H

/-- What stays with device `c`: its positions, the tokens of the duties it pays, its idle semaphores. -/
def linear (c : Dev nD) : sProp 𝕄 := iprop(poss c ∗ payToks c ∗ idleSems c)

/-- What the global step makes for device `c` (the launch theorem's `G'`). -/
def G' (c : Dev nD) : sProp 𝕄 := iprop((∃ K, ghost m K c) ∗ idleSems c)

set_option maxRecDepth 4000 in
theorem ghost_intro (K : Dev nD × Fin 15 → ℕ) (c : Dev nD) : iprop(records m K ∗ linear c) ⊢ G' m c := by
  unfold linear G' ghost invs reacheds
  iintro ⟨#HR, Hat, Htok, Hidle⟩
  isplitr [Hidle]
  swap
  · iexact Hidle
  iexists (Kx K)
  isplitr
  · isplitr; · iapply (inv_at m K (c, 0)); iexact HR
    isplitr; · iapply (inv_at m K (c, 1)); iexact HR
    isplitr; · iapply (inv_at m K (c, 2)); iexact HR
    isplitr; · iapply (inv_at m K (c, 3)); iexact HR
    isplitr; · iapply (inv_at m K (c, 4)); iexact HR
    isplitr; · iapply (inv_at m K (c, 5)); iexact HR
    isplitr; · iapply (inv_at m K (c, 6)); iexact HR
    isplitr; · iapply (inv_at m K (c, 7)); iexact HR
    isplitr; · iapply (inv_at m K (c, 8)); iexact HR
    isplitr; · iapply (inv_at m K (c, 9)); iexact HR
    isplitr; · iapply (inv_at m K (c, 10)); iexact HR
    isplitr; · iapply (inv_at m K (c, 11)); iexact HR
    isplitr; · iapply (inv_at m K (c, 12)); iexact HR
    isplitr; · iapply (inv_at m K (c, 13)); iexact HR
    isplitr; · iapply (inv_at m K (c, 14)); iexact HR
    isplitr; · iapply (inv_at m K (fwd 1 c, 0)); iexact HR
    isplitr; · iapply (inv_at m K (fwd 2 c, 0)); iexact HR
    isplitr; · iapply (inv_at m K (fwd 3 c, 0)); iexact HR
    isplitr; · iapply (inv_at m K (fwd 4 c, 0)); iexact HR
    isplitr; · iapply (inv_at m K (fwd 5 c, 0)); iexact HR
    isplitr; · iapply (inv_at m K (fwd 6 c, 0)); iexact HR
    isplitr; · iapply (inv_at m K (fwd 7 c, 0)); iexact HR
    isplitr; · iapply (inv_at m K (bwd 1 c, 8)); iexact HR
    isplitr; · iapply (inv_at m K (bwd 2 c, 9)); iexact HR
    isplitr; · iapply (inv_at m K (bwd 3 c, 10)); iexact HR
    isplitr; · iapply (inv_at m K (bwd 4 c, 11)); iexact HR
    isplitr; · iapply (inv_at m K (bwd 5 c, 12)); iexact HR
    isplitr; · iapply (inv_at m K (bwd 6 c, 13)); iexact HR
    iapply (inv_at m K (bwd 7 c, 14)); iexact HR
  isplitl [Hat]; · iexact Hat
  isplitr
  · isplitr; · iapply (reached_at m K (fwd 1 c, 0)); iexact HR
    isplitr; · iapply (reached_at m K (fwd 2 c, 0)); iexact HR
    isplitr; · iapply (reached_at m K (fwd 3 c, 0)); iexact HR
    isplitr; · iapply (reached_at m K (fwd 4 c, 0)); iexact HR
    isplitr; · iapply (reached_at m K (fwd 5 c, 0)); iexact HR
    isplitr; · iapply (reached_at m K (fwd 6 c, 0)); iexact HR
    isplitr; · iapply (reached_at m K (fwd 7 c, 0)); iexact HR
    isplitr; · iapply (reached_at m K (bwd 1 c, 8)); iexact HR
    isplitr; · iapply (reached_at m K (bwd 2 c, 9)); iexact HR
    isplitr; · iapply (reached_at m K (bwd 3 c, 10)); iexact HR
    isplitr; · iapply (reached_at m K (bwd 4 c, 11)); iexact HR
    isplitr; · iapply (reached_at m K (bwd 5 c, 12)); iexact HR
    isplitr; · iapply (reached_at m K (bwd 6 c, 13)); iexact HR
    isplitr; · iapply (reached_at m K (bwd 7 c, 14)); iexact HR
    isplitr; · iapply (reached_at m K (c, 1)); iexact HR
    isplitr; · iapply (reached_at m K (c, 2)); iexact HR
    isplitr; · iapply (reached_at m K (c, 3)); iexact HR
    isplitr; · iapply (reached_at m K (c, 4)); iexact HR
    isplitr; · iapply (reached_at m K (c, 5)); iexact HR
    isplitr; · iapply (reached_at m K (c, 6)); iexact HR
    isplitr; · iapply (reached_at m K (c, 7)); iexact HR
    isplitr; · iapply (reached_at m K (c, 8)); iexact HR
    isplitr; · iapply (reached_at m K (c, 9)); iexact HR
    isplitr; · iapply (reached_at m K (c, 10)); iexact HR
    isplitr; · iapply (reached_at m K (c, 11)); iexact HR
    isplitr; · iapply (reached_at m K (c, 12)); iexact HR
    isplitr; · iapply (reached_at m K (c, 13)); iexact HR
    iapply (reached_at m K (c, 14)); iexact HR
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (bigSep Finset.univ fun k : Fin 15 => (atPos ER (kcell (c, k)) 0 ∅ 0 : sProp 𝕄)) = poss c := by
  unfold poss; rw [bigSep_fin15]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ payToks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄)),
    bigSep_congr (s := Finset.univ) (fun (c : Dev nD) _ => poss_eq (F := F) c)]
  iintro ⟨HI, ⟨Hat, #HR⟩, Htok, Hidle⟩
  ihave HK := (BI.bigSep_exists_pi Finset.univ (fun (ck : Dev nD × Fin 15) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear
    iapply (Entails.of_eq (bigSep_sep' Finset.univ (fun c : Dev nD => (poss c : sProp 𝕄)) (fun c => iprop(payToks c ∗ idleSems c))).symm)
    isplitl [Hat]; · iexact Hat
    iapply (Entails.of_eq (bigSep_sep' Finset.univ (fun c : Dev nD => (payToks c : sProp 𝕄)) (fun c => idleSems c)).symm)
    isplitl [Htok]; · iexact Htok
    iexact Hidle

/-- The global step (the launch theorem's `hglob`): every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_bar7 (g : GSem nD τ sig) :
    iprop(cred (tallyAt g () 1) ∗ cred (tallyAt g () 1) ∗ cred (tallyAt g () 1) ∗ cred (tallyAt g () 1)
        ∗ cred (tallyAt g () 1) ∗ cred (tallyAt g () 1) ∗ cred (tallyAt g () 1))
      ⊢ (cred (tallyAt g () 7) : sProp 𝕄) := by
  have e : (tallyAt g () 7 : CellTallies nD τ sig Unit)
      = tallyAt g () 1 + (tallyAt g () 1 + (tallyAt g () 1 + (tallyAt g () 1 + (tallyAt g () 1 + (tallyAt g () 1 + tallyAt g () 1))))) := by
    simp only [tallyAt_add]
  rw [e]
  iintro ⟨H1, H2, H3, H4, H5, H6, H7⟩
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iapply (cred_add _ _).2; isplitl [H6]; · iexact H6
  iexact H7

/-- What the launch deals device `c` for the units the others owe its cells: seven on its barrier cell (one from each
    device behind), a block's credit on each receive cell (from the device that sends into it). -/
theorem creds_intro (c : Dev nD) : (Pipeline.launchCred O₀ c : sProp 𝕄) ⊢ creds c := by
  unfold O₀
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add,
    Pipeline.launchCred_add, Pipeline.launchCred_add, Pipeline.launchCred_add]
  unfold creds
  iintro ⟨⟨⟨⟨⟨⟨⟨⟨⟨⟨⟨⟨⟨R0, R1⟩, R2⟩, R3⟩, R4⟩, R5⟩, R6⟩, B1⟩, B2⟩, B3⟩, B4⟩, B5⟩, B6⟩, B7⟩
  ihave C1 := (Pipeline.launchCred_tallyAt (.reg barS) (fwd 1) (bwd 1) (fwd_bwd 1) (bwd_fwd 1) () 1 c) $$ B1
  ihave C2 := (Pipeline.launchCred_tallyAt (.reg barS) (fwd 2) (bwd 2) (fwd_bwd 2) (bwd_fwd 2) () 1 c) $$ B2
  ihave C3 := (Pipeline.launchCred_tallyAt (.reg barS) (fwd 3) (bwd 3) (fwd_bwd 3) (bwd_fwd 3) () 1 c) $$ B3
  ihave C4 := (Pipeline.launchCred_tallyAt (.reg barS) (fwd 4) (bwd 4) (fwd_bwd 4) (bwd_fwd 4) () 1 c) $$ B4
  ihave C5 := (Pipeline.launchCred_tallyAt (.reg barS) (fwd 5) (bwd 5) (fwd_bwd 5) (bwd_fwd 5) () 1 c) $$ B5
  ihave C6 := (Pipeline.launchCred_tallyAt (.reg barS) (fwd 6) (bwd 6) (fwd_bwd 6) (bwd_fwd 6) () 1 c) $$ B6
  ihave C7 := (Pipeline.launchCred_tallyAt (.reg barS) (fwd 7) (bwd 7) (fwd_bwd 7) (bwd_fwd 7) () 1 c) $$ B7
  ihave D0 := (Pipeline.launchCred_tallyAt (.dma (recvSem 0)) (bwd 1) (fwd 1) (bwd_fwd 1) (fwd_bwd 1) () N c) $$ R0
  ihave D1 := (Pipeline.launchCred_tallyAt (.dma (recvSem 1)) (bwd 2) (fwd 2) (bwd_fwd 2) (fwd_bwd 2) () N c) $$ R1
  ihave D2 := (Pipeline.launchCred_tallyAt (.dma (recvSem 2)) (bwd 3) (fwd 3) (bwd_fwd 3) (fwd_bwd 3) () N c) $$ R2
  ihave D3 := (Pipeline.launchCred_tallyAt (.dma (recvSem 3)) (bwd 4) (fwd 4) (bwd_fwd 4) (fwd_bwd 4) () N c) $$ R3
  ihave D4 := (Pipeline.launchCred_tallyAt (.dma (recvSem 4)) (bwd 5) (fwd 5) (bwd_fwd 5) (fwd_bwd 5) () N c) $$ R4
  ihave D5 := (Pipeline.launchCred_tallyAt (.dma (recvSem 5)) (bwd 6) (fwd 6) (bwd_fwd 6) (fwd_bwd 6) () N c) $$ R5
  ihave D6 := (Pipeline.launchCred_tallyAt (.dma (recvSem 6)) (bwd 7) (fwd 7) (bwd_fwd 7) (fwd_bwd 7) () N c) $$ R6
  isplitl [C1 C2 C3 C4 C5 C6 C7]
  · iapply (cred_bar7 (F := F) (barCell c))
    isplitl [C1]; · iexact C1
    isplitl [C2]; · iexact C2
    isplitl [C3]; · iexact C3
    isplitl [C4]; · iexact C4
    isplitl [C5]; · iexact C5
    isplitl [C6]; · iexact C6
    iexact C7
  isplitl [D0]; · iexact D0
  isplitl [D1]; · iexact D1
  isplitl [D2]; · iexact D2
  isplitl [D3]; · iexact D3
  isplitl [D4]; · iexact D4
  isplitl [D5]; · iexact D5
  iexact D6

/-- A device's start from the levels, its launch credit and its share of the global step (the launch theorem's `hX`,
    the protocol's part). -/
theorem start_of (c : Dev nD) :
    iprop(levAts L lv ∗ Pipeline.launchCred O₀ c ∗ G' m c) ⊢ |={Set.univ}=> start m c := by
  unfold G' start
  iintro ⟨Hlev, Hcr, HG, Hidle⟩
  ihave Hc := (creds_intro (F := F) c) $$ Hcr
  imodintro
  isplitl [HG]; · iexact HG
  isplitl [Hc]; · iexact Hc
  isplitl [Hidle]; · iexact Hidle
  iexact Hlev

/-! ## The staging cell's wait -/

theorem lv_stage (c : Dev nD) : lv (((c : Thread nD τ), SemLoc.dma cc0_sem0_0) : GSem nD τ sig) () = 0 := rfl

theorem atLeast_O₀ (c : Dev nD) : AtLeast 1 (O₀ c) := by
  unfold O₀
  repeat' (first | exact atLeast_bar _ _ | exact atLeast_mono (by decide) (atLeast_recv _ _ _) | apply atLeast_add)

/-- While it owes all of `O₀`, a device may wait on the result's staging cell: level 0, below every cell it owes. -/
theorem mayWait_stage (c : Dev nD) : (levAts L lv : sProp 𝕄) ⊢ MayWait (c : Thread nD τ) (.dma cc0_sem0_0) () (O₀ c) :=
  mayWait_low c (.dma cc0_sem0_0) (lv_stage c) (O₀ c) (atLeast_O₀ c)

/-! ## The run, from the body's triple alone -/

/-- THE RUN of @main on the eight devices, given the body's triple (in `LaunchKit`'s flat form, at this protocol's
    start and dues): every fair execution terminates, and in every final state each device's result array holds
    `outAt c` and its two argument arrays hold what they held. -/
theorem run_main (outAt : (c : Dev nD) → (cc0_stg0_0 : Ref sig .tc).ty.Contents (Elt F))
    (hbody : ∀ c : Dev nD, LaunchKit.bodyPre m (start m) O₀ c
      ⊢ wp frame (wpE (defs₀ (F := F)) LaunchKit.𝒱₀ (c : Thread nD τ) none) Set.univ (LaunchKit.theBody (F := F)) fun _ => LaunchKit.bodyPost m outAt c) :
    θ_run defs (onTc (τ := τ) (main (F := F))) (Idealize.ShloMosaic.s₀ m ρ) (LaunchKit.QC m outAt) :=
  LaunchKit.run_of (U₂ := UB × Counters) m ρ (start m) O₀ outAt L lv L_of_ne (G m) (G' m) u₀ (fund m) (glob m) (start_of m) mayWait_stage hbody

/-- info: 'Cert.Kernel.A2A.run_main' depends on axioms: [propext, Classical.choice, Quot.sound] -/
#guard_msgs in #print axioms run_main

end Cert.Kernel.A2A

end
-- ==== Proof.Bits.BodyWrap.lean ====
/-
  The body's triple in the launch's flat form from its triple over the arrays cut into the blocks that move: the
  start is opened into its parts, the five arrays are cut (the argument block of `x` into eight row blocks, `w` into
  sixteen blocks, the bf16 copy into the seven blocks sent, the receive buffer into its eight slots, the f32 staging
  buffer into the halves of its two planes), and after the body the pieces are joined again.
-/
import proofs.«900489_g7700000000000490_dist_a2a_gemm_m8192_k8192_n4096_f32_gelu_v7x_i8_1_alg».proof.Proof.Bits.BodyDefs
import proofs.«900489_g7700000000000490_dist_a2a_gemm_m8192_k8192_n4096_f32_gelu_v7x_i8_1_alg».proof.Proof.Bits.FundIdeal

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The flat triple from the triple over the pieces. -/
theorem sound_body
    (hpieces : ∀ (K : GSem nD τ sig → ℕ) (c : Dev nD) (W : Waits sig Unit)
      (f16 : Buf (Elt F) ((c : Thread nD τ).loc main_v1_1)) (fr : Buf (Elt F) ((c : Thread nD τ).loc cc0_scratch0))
      (fwv : Buf (Elt F) ((c : Thread nD τ).loc cc0_scratch1)) (fc16 : Buf (Elt F) ((c : Thread nD τ).loc cc0_scratch2))
      (fo : Buf (Elt F) ((c : Thread nD τ).loc cc0_stg0_0)) (Kt : PUnit → sProp 𝕄),
      iprop(preS m K c W f16 fr fwv fc16 fo ∗ (postS m c -∗ Kt ⟨⟩))
        ⊢ wp frame (wpE (defs₀ (F := F)) 𝒱₀ (c : Thread nD τ) none) Set.univ (LaunchKit.theBody (F := F)) Kt)
    (c : Dev nD) :
    LaunchKit.bodyPre m (start m) O₀ c
      ⊢ wp frame (wpE (defs₀ (F := F)) LaunchKit.𝒱₀ (c : Thread nD τ) none) Set.univ (LaunchKit.theBody (F := F))
          fun _ => LaunchKit.bodyPost m (outAt m) c := by
  unfold LaunchKit.bodyPre start ghost
  rw [O₀_eq c]
  iintro ⟨⟨⟨%K, Hinv, Hpos, Hrea, Htok⟩, Hcr, Hidle, Hlev⟩, Hx, Hw, Hx16, ⟨%fr, Hr⟩, ⟨%fwv, Hv⟩, ⟨%fc16, Hc16⟩, ⟨%W, Ho⟩, ⟨%fo, Hstg⟩⟩
  ihave Hxs := (x_split (F := F) c (m ((c : Thread nD τ).loc main_arg0))) $$ Hx
  ihave Hws := (w_split (F := F) c (m ((c : Thread nD τ).loc main_arg1))) $$ Hw
  ihave Hbs := (x16_split (F := F) c (m ((c : Thread nD τ).loc main_v1_1))) $$ Hx16
  ihave Hrs := (recv_split_loc (F := F) c fr) $$ Hr
  ihave Hvs := (v_split (F := F) c fwv) $$ Hv
  icases Hxs with ⟨X0, X1, X2, X3, X4, X5, X6, X7⟩
  icases Hws with ⟨W0, W1, W2, W3, W4, W5, W6, W7, W8, W9, W10, W11, W12, W13, W14, W15⟩
  icases Hbs with ⟨B0, B1, B2, B3, B4, B5, B6, -⟩
  icases Hrs with ⟨R0, R1, R2, R3, R4, R5, R6, R7⟩
  icases Hvs with ⟨V0, V1, V2, V3⟩
  iapply (hpieces K c W (m ((c : Thread nD τ).loc main_v1_1)) fr fwv fc16 fo (fun _ => LaunchKit.bodyPost m (outAt m) c))
  isplitr []
  · unfold preS
    isplitl [Hinv]; · iexact Hinv
    isplitl [Hpos]; · iexact Hpos
    isplitl [Hrea]; · iexact Hrea
    isplitl [Htok]; · iexact Htok
    isplitl [Hcr]; · iexact Hcr
    isplitl [Hidle]; · iexact Hidle
    isplitl [Hlev]; · iexact Hlev
    isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R0]; · iexact R0
    isplitl [V0]; · iexact V0
    isplitl [V1]; · iexact V1
    isplitl [V2]; · iexact V2
    isplitl [V3]; · iexact V3
    isplitl [Hc16]; · iexact Hc16
    isplitl [Ho]; · iexact Ho
    iexact Hstg
  · iintro Hp
    unfold postS
    icases Hp with ⟨-, X0, X1, X2, X3, X4, X5, X6, X7, W0, W1, W2, W3, W4, W5, W6, W7, W8, W9, W10, W11, W12, W13, W14, W15, ⟨%f0, %f1, %f2, %f3, %f4, %f5, %f6, %f7, -, R0, R1, R2, R3, R4, R5, R6, R7⟩, ⟨%h0, %h1, V0, V1⟩, ⟨%g, Hc16⟩, Hxf, Hidle, ⟨%W', Ho⟩, Hstg⟩
    ihave Hx := (x_unsplit (F := F) c (m ((c : Thread nD τ).loc main_arg0))) $$ [X0 X1 X2 X3 X4 X5 X6 X7]
    · isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    ihave Hw := (w_unsplit (F := F) c (m ((c : Thread nD τ).loc main_arg1))) $$ [W0 W1 W2 W3 W4 W5 W6 W7 W8 W9 W10 W11 W12 W13 W14 W15]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [W10]; · iexact W10
      isplitl [W11]; · iexact W11
      isplitl [W12]; · iexact W12
      isplitl [W13]; · iexact W13
      isplitl [W14]; · iexact W14
      iexact W15
    ihave Hr := (recv_join (F := F) c f0 f1 f2 f3 f4 f5 f6 f7) $$ [R0 R1 R2 R3 R4 R5 R6 R7]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact R7
    ihave Hv := (v_join (F := F) c h0 h1) $$ [V0 V1]
    · isplitl [V0] <;> iassumption
    ihave Hch := (ownChain_intro (F := F) c) $$ [Hxf Hidle]
    · isplitl [Hxf] <;> iassumption
    unfold LaunchKit.bodyPost
    isplitl [Hx]; · iexact Hx
    isplitl [Hw]; · iexact Hw
    isplitl [Hr]; · iexact Hr
    isplitl [Hv]; · iexact Hv
    isplitl [Hc16]; · iexists g; iexact Hc16
    isplitl [Hch]; · iexact Hch
    isplitl [Ho]; · iexists W'; iexact Ho
    iexact Hstg

/-- THE RUN at any float values, from the body's triple over the pieces. -/
theorem run_ideal
    (hpieces : ∀ (K : GSem nD τ sig → ℕ) (c : Dev nD) (W : Waits sig Unit)
      (f16 : Buf (Elt F) ((c : Thread nD τ).loc main_v1_1)) (fr : Buf (Elt F) ((c : Thread nD τ).loc cc0_scratch0))
      (fwv : Buf (Elt F) ((c : Thread nD τ).loc cc0_scratch1)) (fc16 : Buf (Elt F) ((c : Thread nD τ).loc cc0_scratch2))
      (fo : Buf (Elt F) ((c : Thread nD τ).loc cc0_stg0_0)) (Kt : PUnit → sProp 𝕄),
      iprop(preS m K c W f16 fr fwv fc16 fo ∗ (postS m c -∗ Kt ⟨⟩))
        ⊢ wp frame (wpE (defs₀ (F := F)) 𝒱₀ (c : Thread nD τ) none) Set.univ (LaunchKit.theBody (F := F)) Kt) :
    θ_run defs (onTc (τ := τ) (main (F := F))) (Idealize.ShloMosaic.s₀ m ρ) (LaunchKit.QC m (outAt m)) :=
  run_main m ρ (outAt m) (sound_body m hpieces)

/-- info: 'Cert.Kernel.A2A.run_ideal' depends on axioms: [propext, Classical.choice, Quot.sound] -/
#guard_msgs in #print axioms run_ideal

end Cert.Kernel.A2A

end
-- ==== Proof.Bits.RoundsSteps.lean ====
/-
  The all-to-all's remaining steps on its cells, generic in the step: the entry signal to the device `r + 1` places
  ahead (which hands over this device's receive slot `r + 1` and that its receive cell `r` is open), the wait for the
  seven entry signals (which brings the seven peers' slots), and the waits on a step's receive and send cells,
  each followed by closing the cell so that its counter comes back at zero.
-/
import proofs.«900489_g7700000000000490_dist_a2a_gemm_m8192_k8192_n4096_f32_gelu_v7x_i8_1_alg».proof.Proof.Bits.Proto
import Idealize.ShloMosaic.Rules.Footprints

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The entry signal -/

/-- Duty `r` of the barrier cell of the device `r + 1` ahead of `c` is `c`'s to pay: it hands over `c`'s own receive
    slot `r + 1` and that `c`'s receive cell `r` is open. -/
theorem payload_bar_fwd (r : Fin 7) (c : Dev nD) : (sched (F := F) m).payload (barCell (fwd (r.val + 1) c)) 0 r
    = iprop((∃ f, (rslot r.succ : Memref sig .tc .vmem S1024x1024 .bf16).view.loc (c : Thread nD τ)
          ↦[(rslot r.succ : Memref sig .tc .vmem S1024x1024 .bf16).view.set]{fullShare} f) ∗ reached ER (recvCell r c) 0) := by
  rw [payload_bar, show bwd (r.val + 1) (fwd (r.val + 1) c) = c from bwd_fwd ⟨r.val + 1, by have := r.isLt; omega⟩ c]

/-- The signal of one unit to the barrier semaphore of `n`, the device `r + 1` ahead of `c`. -/
theorem wp_signal_step (K : GSem nD τ sig → ℕ) (𝒱 : Variants) (bd : Option 𝒱.V) {Γ : PendingWaitsCtx sig Unit}
    (r : Fin 7) (c n : Dev nD) (hn : n = fwd (r.val + 1) c)
    {α : Type} {Q : α → sProp 𝕄} {k : PUnit → Prog (TpuEff nD τ sig (Elt F) Λ₀ .tc) α}
    (f : Buf (Elt F) ((rslot r.succ : Memref sig .tc .vmem S1024x1024 .bf16).view.loc (c : Thread nD τ)))
    {O₀' : CellTallies nD τ sig Unit} (O : CellTallies nD τ sig Unit)
    (hO : O₀' = O + tallyAt (barCell (fwd (r.val + 1) c)) () 1) (W : Waits sig Unit) {Es : Set ℕ} :
    iprop(cellInv ER (sched (F := F) m) (K (barCell (fwd (r.val + 1) c))) (barCell (fwd (r.val + 1) c))
        ∗ owes (c : Thread nD τ) O₀' W
        ∗ dutyTok ER (barCell (fwd (r.val + 1) c)) 0 r
        ∗ ((rslot r.succ : Memref sig .tc .vmem S1024x1024 .bf16).view.loc (c : Thread nD τ)
            ↦[(rslot r.succ : Memref sig .tc .vmem S1024x1024 .bf16).view.set]{fullShare} f)
        ∗ reached ER (recvCell r c) 0
        ∗ reached ER (barCell (fwd (r.val + 1) c)) 0)
      ⊢ iprop((owes (c : Thread nD τ) O W -∗ wp frame (wpE' (defs₀ (F := F)) 𝒱 (c : Thread nD τ) bd Γ) Es (k ⟨⟩) Q)
          -∗ wp frame (wpE' (defs₀ (F := F)) 𝒱 (c : Thread nD τ) bd Γ) Es
              (.op (.semSignal (Dev.tc n : Thread nD τ) barS 1) k) Q) := by
  subst hn
  iintro ⟨HI, HO, Htok, Hslot, HrV, HrB⟩
  iapply (Rounds.wp_signal 𝒱 ER (sched (F := F) m) (c : Thread nD τ) bd (dst := (fwd (r.val + 1) c : Thread nD τ))
      (sem := barS) (κ := K (barCell (fwd (r.val + 1) c))) (r := 0) (d := r)
      (by rw [duties_bar]; exact Finset.mem_univ _) (amount_bar m (fwd (r.val + 1) c) r) () O hO (W := W))
  isplitl [HI]; · iexact HI
  isplitl [HO]; · iexact HO
  isplitl [Htok]; · iexact Htok
  isplitr [HrB]
  · rw [payload_bar_fwd]
    isplitl [Hslot]; · iexists f; iexact Hslot
    iexact HrV
  · iexact HrB

/-! ## The wait for the seven entry signals -/

/-- What the barrier cell's one round delivers, duty by duty: the slot `d + 1` of the device `d + 1` behind, and that its
    receive cell `d` is open. -/
theorem rest_bar (c : Dev nD) :
    bigSep ((sched (F := F) m).duties (barCell c) 0 \ ∅) (fun d => (sched (F := F) m).payload (barCell c) 0 d)
      = iprop(
        ((∃ f, (rslot 1 : Memref sig .tc .vmem S1024x1024 .bf16).view.loc (bwd 1 c : Thread nD τ) ↦[(rslot 1 : Memref sig .tc .vmem S1024x1024 .bf16).view.set]{fullShare} f) ∗ reached ER (recvCell 0 (bwd 1 c)) 0)
        ∗ ((∃ f, (rslot 2 : Memref sig .tc .vmem S1024x1024 .bf16).view.loc (bwd 2 c : Thread nD τ) ↦[(rslot 2 : Memref sig .tc .vmem S1024x1024 .bf16).view.set]{fullShare} f) ∗ reached ER (recvCell 1 (bwd 2 c)) 0)
        ∗ ((∃ f, (rslot 3 : Memref sig .tc .vmem S1024x1024 .bf16).view.loc (bwd 3 c : Thread nD τ) ↦[(rslot 3 : Memref sig .tc .vmem S1024x1024 .bf16).view.set]{fullShare} f) ∗ reached ER (recvCell 2 (bwd 3 c)) 0)
        ∗ ((∃ f, (rslot 4 : Memref sig .tc .vmem S1024x1024 .bf16).view.loc (bwd 4 c : Thread nD τ) ↦[(rslot 4 : Memref sig .tc .vmem S1024x1024 .bf16).view.set]{fullShare} f) ∗ reached ER (recvCell 3 (bwd 4 c)) 0)
        ∗ ((∃ f, (rslot 5 : Memref sig .tc .vmem S1024x1024 .bf16).view.loc (bwd 5 c : Thread nD τ) ↦[(rslot 5 : Memref sig .tc .vmem S1024x1024 .bf16).view.set]{fullShare} f) ∗ reached ER (recvCell 4 (bwd 5 c)) 0)
        ∗ ((∃ f, (rslot 6 : Memref sig .tc .vmem S1024x1024 .bf16).view.loc (bwd 6 c : Thread nD τ) ↦[(rslot 6 : Memref sig .tc .vmem S1024x1024 .bf16).view.set]{fullShare} f) ∗ reached ER (recvCell 5 (bwd 6 c)) 0)
        ∗ ((∃ f, (rslot 7 : Memref sig .tc .vmem S1024x1024 .bf16).view.loc (bwd 7 c : Thread nD τ) ↦[(rslot 7 : Memref sig .tc .vmem S1024x1024 .bf16).view.set]{fullShare} f) ∗ reached ER (recvCell 6 (bwd 7 c)) 0)) := by
  rw [Finset.sdiff_empty, duties_bar,
    bigSep_univ_eq_bigSepL [(0 : Fin 7), 1, 2, 3, 4, 5, 6] (by decide) (by decide)]
  show iprop((sched (F := F) m).payload (barCell c) 0 0 ∗ (sched (F := F) m).payload (barCell c) 0 1
    ∗ (sched (F := F) m).payload (barCell c) 0 2 ∗ (sched (F := F) m).payload (barCell c) 0 3
    ∗ (sched (F := F) m).payload (barCell c) 0 4 ∗ (sched (F := F) m).payload (barCell c) 0 5
    ∗ (sched (F := F) m).payload (barCell c) 0 6) = _
  rw [payload_bar m c 0, payload_bar m c 1, payload_bar m c 2, payload_bar m c 3, payload_bar m c 4, payload_bar m c 5,
    payload_bar m c 6]
  rfl

/-- The wait for seven units on the own barrier semaphore, while still owing `O` (the level evidence `hmw`): the seven
    peers' slots come with it. -/
theorem wp_bar_wait (K : GSem nD τ sig → ℕ) (𝒱 : Variants) (bd : Option 𝒱.V) (c : Dev nD)
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.reg barS) () O)
    (W : Waits sig Unit) {Es : Set ℕ} (hE : K (barCell c) ∈ Es) :
    iprop(cellInv ER (sched (F := F) m) (K (barCell c)) (barCell c) ∗ cred (tallyAt (barCell c) () 7)
        ∗ owes (c : Thread nD τ) O W ∗ levAts L lv ∗ atPos ER (barCell c) 0 ∅ 0)
      ⊢ iprop(((owes (c : Thread nD τ) O (insert (SemLoc.reg barS, ()) W) ∗ atPos ER (barCell c) 1 ∅ 0
            ∗ ((∃ f, (rslot 1 : Memref sig .tc .vmem S1024x1024 .bf16).view.loc (bwd 1 c : Thread nD τ) ↦[(rslot 1 : Memref sig .tc .vmem S1024x1024 .bf16).view.set]{fullShare} f) ∗ reached ER (recvCell 0 (bwd 1 c)) 0)
            ∗ ((∃ f, (rslot 2 : Memref sig .tc .vmem S1024x1024 .bf16).view.loc (bwd 2 c : Thread nD τ) ↦[(rslot 2 : Memref sig .tc .vmem S1024x1024 .bf16).view.set]{fullShare} f) ∗ reached ER (recvCell 1 (bwd 2 c)) 0)
            ∗ ((∃ f, (rslot 3 : Memref sig .tc .vmem S1024x1024 .bf16).view.loc (bwd 3 c : Thread nD τ) ↦[(rslot 3 : Memref sig .tc .vmem S1024x1024 .bf16).view.set]{fullShare} f) ∗ reached ER (recvCell 2 (bwd 3 c)) 0)
            ∗ ((∃ f, (rslot 4 : Memref sig .tc .vmem S1024x1024 .bf16).view.loc (bwd 4 c : Thread nD τ) ↦[(rslot 4 : Memref sig .tc .vmem S1024x1024 .bf16).view.set]{fullShare} f) ∗ reached ER (recvCell 3 (bwd 4 c)) 0)
            ∗ ((∃ f, (rslot 5 : Memref sig .tc .vmem S1024x1024 .bf16).view.loc (bwd 5 c : Thread nD τ) ↦[(rslot 5 : Memref sig .tc .vmem S1024x1024 .bf16).view.set]{fullShare} f) ∗ reached ER (recvCell 4 (bwd 5 c)) 0)
            ∗ ((∃ f, (rslot 6 : Memref sig .tc .vmem S1024x1024 .bf16).view.loc (bwd 6 c : Thread nD τ) ↦[(rslot 6 : Memref sig .tc .vmem S1024x1024 .bf16).view.set]{fullShare} f) ∗ reached ER (recvCell 5 (bwd 6 c)) 0)
            ∗ ((∃ f, (rslot 7 : Memref sig .tc .vmem S1024x1024 .bf16).view.loc (bwd 7 c : Thread nD τ) ↦[(rslot 7 : Memref sig .tc .vmem S1024x1024 .bf16).view.set]{fullShare} f) ∗ reached ER (recvCell 6 (bwd 7 c)) 0))
            -∗ wp frame (wpE (defs₀ (F := F)) 𝒱 (c : Thread nD τ) bd) Es (k ⟨⟩) Q)
          -∗ wp frame (wpE (defs₀ (F := F)) 𝒱 (c : Thread nD τ) bd) Es (.op (.semWait barS 7) k) Q) := by
  iintro ⟨HI, Hc, HO, Hlev, Hat⟩ Hk
  iapply (Rounds.wp_wait_rest_token 𝒱 ER (sched (F := F) m) (c : Thread nD τ) bd (κ := K (barCell c))
      (wpE_semWait_eq 𝒱 (c : Thread nD τ) bd Es) hE () (O := O) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## The waits on a step's receive and send cells -/

theorem rest_recv (r : Fin 7) (c : Dev nD) :
    bigSep ((sched (F := F) m).duties (recvCell r c) 0 \ ∅) (fun d => (sched (F := F) m).payload (recvCell r c) 0 d)
      = ((rslot r.succ : Memref sig .tc .vmem S1024x1024 .bf16).view.loc (c : Thread nD τ)
          ↦[(rslot r.succ : Memref sig .tc .vmem S1024x1024 .bf16).view.set]{fullShare} recvFull m c) := by
  rw [Finset.sdiff_empty, duties_recv, bigSep_singleton, payload_recv]

theorem rest_send (r : Fin 7) (c : Dev nD) :
    bigSep ((sched (F := F) m).duties (sendCell r c) 0 \ ∅) (fun d => (sched (F := F) m).payload (sendCell r c) 0 d)
      = ((xblk16 r c).view.loc (c : Thread nD τ) ↦[(xblk16 r c).view.set]{fullShare} x16full m c) := by
  rw [Finset.sdiff_empty, duties_send, bigSep_singleton, payload_send]

/-- A block of the bf16 copy in HBM credits a transfer as a receive slot does. -/
theorem xblk16_credit (r : Fin 7) (c : Dev nD) : (xblk16 r c).view.dmaCredit = N := rfl

/-- The wait on step `r + 1`'s receive cell, owing nothing: the slot comes back holding the sender's rows, and the
    cell, which has no later round, is closed with its counter at zero. -/
theorem wp_recv_wait_step (K : GSem nD τ sig → ℕ) (𝒱 : Variants) (bd : Option 𝒱.V) (r : Fin 7) (c : Dev nD)
    {sp' : Space} {s' : Shape} {e' : EltTy} {src : Memref sig .tc sp' s' e'}
    {hsrc : src.view.WordExact} {hdst : (rslot r.succ : Memref sig .tc .vmem S1024x1024 .bf16).view.WordExact}
    {α : Type} {Q : α → sProp 𝕄} {k : PUnit → Prog (TpuEff nD τ sig (Elt F) Λ₀ .tc) α}
    (W : Waits sig Unit) {Es : Set ℕ} (hE : K (recvCell r c) ∈ Es) :
    iprop(cellInv ER (sched (F := F) m) (K (recvCell r c)) (recvCell r c) ∗ cred (tallyAt (recvCell r c) () N)
        ∗ owes (c : Thread nD τ) 0 W ∗ atPos ER (recvCell r c) 0 ∅ 0)
      ⊢ iprop(((owes (c : Thread nD τ) 0 (insert (SemLoc.dma (recvSem r), ()) W)
            ∗ ((rslot r.succ : Memref sig .tc .vmem S1024x1024 .bf16).view.loc (c : Thread nD τ)
                ↦[(rslot r.succ : Memref sig .tc .vmem S1024x1024 .bf16).view.set]{fullShare} recvFull m c)
            ∗ semVal (recvCell r c) 0)
            -∗ wp frame (wpE (defs₀ (F := F)) 𝒱 (c : Thread nD τ) bd) Es (k ⟨⟩) Q)
          -∗ wp frame (wpE (defs₀ (F := F)) 𝒱 (c : Thread nD τ) bd) Es
              (.op (.waitDma2 (recvSem r) src (rslot r.succ : Memref sig .tc .vmem S1024x1024 .bf16) hsrc hdst) k) Q) := by
  iintro ⟨#HI, Hc, HO, Hat⟩ Hk
  iapply (Rounds.wp_wait_rest_token 𝒱 ER (sched (F := F) m) (c : Thread nD τ) bd (κ := K (recvCell r c))
      (wpE_waitDma2_eq 𝒱 (c : Thread nD τ) bd Es) hE () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m r c)) $$ Hpay
  imod (Rounds.cell_close ER (sched (F := F) m) hE (fun h => h) (R := 0 + 1) (duties_later m (recvCell r c))) $$ [Hat] with Hz
  · isplitr; · iexact HI
    iexact Hat
  iapply Hk
  isplitl [HO]; · iexact HO
  isplitl [Hp]; · iexact Hp
  iexact Hz

/-- The wait on step `r + 1`'s send cell with the credit the transfer left: the block comes back, and the cell is
    closed with its counter at zero. -/
theorem wp_send_wait_step (K : GSem nD τ sig → ℕ) (𝒱 : Variants) (bd : Option 𝒱.V) (r : Fin 7) (c : Dev nD)
    {sp' : Space} {s' : Shape} {e' : EltTy} {src : Memref sig .tc sp' s' e'}
    {hsrc : src.view.WordExact} {hdst : (xblk16 r c).view.WordExact}
    {α : Type} {Q : α → sProp 𝕄} {k : PUnit → Prog (TpuEff nD τ sig (Elt F) Λ₀ .tc) α}
    (W : Waits sig Unit) {Es : Set ℕ} (hE : K (sendCell r c) ∈ Es) :
    iprop(cellInv ER (sched (F := F) m) (K (sendCell r c)) (sendCell r c) ∗ cred (tallyAt (sendCell r c) () N)
        ∗ owes (c : Thread nD τ) 0 W ∗ atPos ER (sendCell r c) 0 ∅ 0)
      ⊢ iprop(((owes (c : Thread nD τ) 0 (insert (SemLoc.dma (sendSem r), ()) W)
            ∗ ((xblk16 r c).view.loc (c : Thread nD τ) ↦[(xblk16 r c).view.set]{fullShare} x16full m c)
            ∗ semVal (sendCell r c) 0)
            -∗ wp frame (wpE (defs₀ (F := F)) 𝒱 (c : Thread nD τ) bd) Es (k ⟨⟩) Q)
          -∗ wp frame (wpE (defs₀ (F := F)) 𝒱 (c : Thread nD τ) bd) Es
              (.op (.waitDma2 (sendSem r) src (xblk16 r c) hsrc hdst) k) Q) := by
  iintro ⟨#HI, Hc, HO, Hat⟩ Hk
  iapply (Rounds.wp_wait_rest_token 𝒱 ER (sched (F := F) m) (c : Thread nD τ) bd (κ := K (sendCell r c))
      (wpE_waitDma2_eq 𝒱 (c : Thread nD τ) bd Es) hE () (O := 0) (W := W) (R := 0) (m := 0) (T := ∅)
      (by rw [Nat.zero_add, expect_send, xblk16_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m r c)) $$ Hpay
  imod (Rounds.cell_close ER (sched (F := F) m) hE (fun h => h) (R := 0 + 1) (duties_later m (sendCell r c))) $$ [Hat] with Hz
  · isplitr; · iexact HI
    iexact Hat
  iapply Hk
  isplitl [HO]; · iexact HO
  isplitl [Hp]; · iexact Hp
  iexact Hz

end Cert.Kernel.A2A

/-- info: 'Cert.Kernel.A2A.wp_signal_step' depends on axioms: [propext, Classical.choice, Quot.sound] -/
#guard_msgs in #print axioms Cert.Kernel.A2A.wp_signal_step
/-- info: 'Cert.Kernel.A2A.wp_bar_wait' depends on axioms: [propext, Classical.choice, Quot.sound] -/
#guard_msgs in #print axioms Cert.Kernel.A2A.wp_bar_wait
/-- info: 'Cert.Kernel.A2A.wp_recv_wait_step' depends on axioms: [propext, Classical.choice, Quot.sound] -/
#guard_msgs in #print axioms Cert.Kernel.A2A.wp_recv_wait_step
/-- info: 'Cert.Kernel.A2A.wp_send_wait_step' depends on axioms: [propext, Classical.choice, Quot.sound] -/
#guard_msgs in #print axioms Cert.Kernel.A2A.wp_send_wait_step
-- ==== Proof.Bits.SendStep.lean ====
/-
  One step of the all-to-all's remote copies, generic in the step. At step `r + 1` device `c` sends the row block of
  its bf16 copy of `x` at the rows of the device `p` that is `r + 1` places behind it into `p`'s receive slot `r + 1`.
  The device `r + 1` places ahead of `p` is `c`, so what lands is what that slot of `p` holds in the end; the slot,
  rewritten, is the payload of `p`'s receive cell `r`, and the transfer rule applies at the two cells.
-/
import proofs.«900489_g7700000000000490_dist_a2a_gemm_m8192_k8192_n4096_f32_gelu_v7x_i8_1_alg».proof.Proof.Bits.Proto
import Idealize.ShloMosaic.Lib.Pipeline.Value
import Idealize.ShloMosaic.Lib.ValueLayout
import Idealize.ShloMosaic.Rules.PointsTo

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- Where receive slot `k` places its element `(ρ, κ)` in the buffer of eight slots. -/
theorem rslot_emb (k : Fin 8) (ρ κ : Fin 1024) :
    (rslot k : Memref sig .tc .vmem S1024x1024 .bf16).view.emb (ix2 ρ κ) = (ix3 k ρ κ : S8x1024x1024.Idx) := by
  show (Rect.unit (s := S8x1024x1024) ![k.val, 0, 0] S1x1024x1024.size (slot_inb k)).emb
      (Shape.reshapeEquiv squeezes_S1x1024x1024_S1024x1024.numel_eq (ix2 ρ κ)) = _
  rw [reshapeEquiv_ix2_1ab]
  funext a
  apply Fin.ext
  rw [Rect.emb_apply]
  match a with
  | ⟨0, _⟩ => simp
  | ⟨1, _⟩ => simp
  | ⟨2, _⟩ => simp

theorem bwd_row_lt (k : Nat) (c : Dev nD) (ρ : Fin 1024) : 1024 * (bwd k c).val + ρ.val < 8192 := by
  have h : (bwd k c).val < 8 := (bwd k c).isLt
  have := ρ.isLt
  omega

/-- Where step `r + 1`'s block places its element `(ρ, κ)` in the bf16 copy: at the rows of the device `r + 1` behind. -/
theorem xblk16_emb (r : Fin 7) (c : Dev nD) (ρ κ : Fin 1024) :
    (xblk16 r c).view.emb (ix2 ρ κ)
      = (ix2 (⟨1024 * (bwd (1 + r.val) c).val + ρ.val, bwd_row_lt _ c ρ⟩ : Fin 8192) κ : S8192x1024.Idx) := by
  show (Rect.unit (s := S8192x1024) (k0_off2 c (BitVec.ofNat 32 (1 + r.val))) S1024x1024.size (k0_off2_inb c r)).emb (ix2 ρ κ) = _
  funext a
  apply Fin.ext
  rw [Rect.emb_apply, Rect.off_unit, Rect.stride_unit]
  have hoff := off2_eq c r
  match a with
  | ⟨0, _⟩ =>
    show k0_off2 c (BitVec.ofNat 32 (1 + r.val)) 0 + 1 * ρ.val = 1024 * (bwd (1 + r.val) c).val + ρ.val
    rw [hoff]; simp
  | ⟨1, _⟩ =>
    show k0_off2 c (BitVec.ofNat 32 (1 + r.val)) 1 + 1 * κ.val = κ.val
    rw [hoff]; simp

/-- The cast's contents depend on the device only through its name. -/
theorem x16full_congr {d d' : Dev nD} (h : d = d') (j : S8192x1024.Idx) :
    x16full m d j = x16full m d' j := by subst h; rfl

/-- What step `r + 1`'s copy lands in the peer's slot `r + 1` is what that slot holds in the end: the peer `r + 1` behind
    finds the sender `r + 1` ahead of it. -/
theorem landed_agree (r : Fin 7) (c : Dev nD)
    (fd : Buf (Elt F) (((bwd (r.val + 1) c : Dev nD) : Thread nD τ).loc cc0_scratch0)) :
    ∀ i ∈ (rslot r.succ : Memref sig .tc .vmem S1024x1024 .bf16).view.set,
      (rslot r.succ : Memref sig .tc .vmem S1024x1024 .bf16).view.write (Elt F) fd
        ((xblk16 r c).view.read (Elt F) (x16full m c)) Finset.univ i = recvFull m (bwd (r.val + 1) c) i := by
  intro i hi
  obtain ⟨y, rfl⟩ := View.exists_emb_of_mem_set _ hi
  obtain ⟨ρ, κ, rfl⟩ : ∃ ρ κ : Fin 1024, y = ix2 ρ κ := ⟨y 0, y 1, eq_ix2 y⟩
  rw [View.write_emb_of_mem _ _ (Finset.mem_univ _), View.read_apply, xblk16_emb, rslot_emb]
  rw [cast_cast, cast_eq]
  have h1 : 1 + r.val = r.val + 1 := Nat.add_comm _ _
  have hd : fwd (r.val + 1) (bwd (r.val + 1) c) = c :=
    fwd_bwd ⟨r.val + 1, by have := r.isLt; omega⟩ c
  show _ = x16full m (fwd (r.val + 1) (bwd (r.val + 1) c))
    (ix2 (⟨1024 * (bwd (r.val + 1) c).val + ρ.val, bwd_row_lt _ c ρ⟩ : Fin 8192) (⟨κ.val, κ.isLt⟩ : Fin 1024))
  refine (x16full_congr m hd.symm _).trans ?_
  refine congrArg (x16full m _) ?_
  funext a
  apply Fin.ext
  match a with
  | ⟨0, _⟩ =>
    show 1024 * (bwd (1 + r.val) c).val + ρ.val = 1024 * (bwd (r.val + 1) c).val + ρ.val
    rw [h1]
  | ⟨1, _⟩ => rfl

/-- The peer's slot, rewritten by the landing, is the receive cell's payload. -/
theorem recv_pay_of_landed (r : Fin 7) (c : Dev nD)
    (fd : Buf (Elt F) (((bwd (r.val + 1) c : Dev nD) : Thread nD τ).loc cc0_scratch0)) :
    (((rslot r.succ : Memref sig .tc .vmem S1024x1024 .bf16).view.loc ((bwd (r.val + 1) c : Dev nD) : Thread nD τ)
        ↦[(rslot r.succ : Memref sig .tc .vmem S1024x1024 .bf16).view.set]{fullShare}
          (rslot r.succ : Memref sig .tc .vmem S1024x1024 .bf16).view.write (Elt F) fd
            ((xblk16 r c).view.read (Elt F) (x16full m c)) Finset.univ) : sProp 𝕄)
      ⊢ (sched (F := F) m).payload (recvCell r (bwd (r.val + 1) c)) 0 0 := by
  rw [payload_recv]
  exact Entails.of_eq (pointsTo_congr (landed_agree m r c fd))

/-- The transfer rule at step `r + 1`'s two cells, the copy addressed to `n`, the device `r + 1` behind `c`: device `c`
    gives its block and the peer's slot at any contents, pays the peer's receive cell what it owed it, and is left
    with the send cell's credit. -/
theorem wp_send_step (K : GSem nD τ sig → ℕ) (𝒱 : Variants) (bd : Option 𝒱.V) {Γ : PendingWaitsCtx sig Unit}
    (r : Fin 7) (c n : Dev nD) (hn : n = bwd (r.val + 1) c)
    {hsc : (rslot r.succ : Memref sig (Dev.tc n : Thread nD τ).2.kind .vmem S1024x1024 .bf16).view.ref.isScScratch = false}
    {hsrc : (xblk16 r c).view.WordExact}
    {hdst : (rslot r.succ : Memref sig .tc .vmem S1024x1024 .bf16).view.WordExact}
    {hsem : DmaTarget.Typed .hbm (.dma (recvSem r))
      (.remote (Dev.tc n : Thread nD τ) (rslot r.succ : Memref sig .tc .vmem S1024x1024 .bf16) (.dma (sendSem r)) hsc)}
    {α : Type} {Q : α → sProp 𝕄} {k : PUnit → Prog (TpuEff nD τ sig (Elt F) Λ₀ .tc) α}
    (fd : Buf (Elt F) ((rslot r.succ : Memref sig .tc .vmem S1024x1024 .bf16).view.loc (bwd (r.val + 1) c : Thread nD τ)))
    {O₀' : CellTallies nD τ sig Unit} (O : CellTallies nD τ sig Unit)
    (hO : O₀' = O + tallyAt (recvCell r (bwd (r.val + 1) c)) () N) (W : Waits sig Unit) {Es : Set ℕ} :
    iprop(cellInv ER (sched (F := F) m) (K (sendCell r c)) (sendCell r c)
        ∗ cellInv ER (sched (F := F) m) (K (recvCell r (bwd (r.val + 1) c))) (recvCell r (bwd (r.val + 1) c))
        ∗ ((xblk16 r c).view.loc (c : Thread nD τ) ↦[(xblk16 r c).view.set]{fullShare} x16full m c)
        ∗ ((rslot r.succ : Memref sig .tc .vmem S1024x1024 .bf16).view.loc (bwd (r.val + 1) c : Thread nD τ)
            ↦[(rslot r.succ : Memref sig .tc .vmem S1024x1024 .bf16).view.set]{fullShare} fd)
        ∗ owes (c : Thread nD τ) O₀' W
        ∗ dutyTok ER (sendCell r c) 0 (0 : Fin 7) ∗ reached ER (sendCell r c) 0
        ∗ dutyTok ER (recvCell r (bwd (r.val + 1) c)) 0 (0 : Fin 7) ∗ reached ER (recvCell r (bwd (r.val + 1) c)) 0)
      ⊢ iprop(((cred (tallyAt (sendCell r c) () N) ∗ owes (c : Thread nD τ) O W)
            -∗ wp frame (wpE' (defs₀ (F := F)) 𝒱 (c : Thread nD τ) bd Γ) Es (k ⟨⟩) Q)
          -∗ wp frame (wpE' (defs₀ (F := F)) 𝒱 (c : Thread nD τ) bd Γ) Es
              (.op (.enqueueDma (xblk16 r c) (.remote (Dev.tc n : Thread nD τ) (rslot r.succ) (.dma (sendSem r)) hsc)
                (.dma (recvSem r)) hsrc hdst hsem) k) Q) := by
  subst hn
  exact Rounds.wp_send_pointsTo 𝒱 ER (sched (F := F) m) (c : Thread nD τ) bd
    (c' := (bwd (r.val + 1) c : Thread nD τ)) (src := xblk16 r c) (dst := rslot r.succ) (q := fullShare)
    (fs := x16full m c) (fd := fd) (κ₁ := K (sendCell r c)) (κ₂ := K (recvCell r (bwd (r.val + 1) c)))
    (r₁ := 0) (r₂ := 0) (d₁ := (0 : Fin 7)) (d₂ := (0 : Fin 7))
    (by rw [duties_send]; exact Finset.mem_singleton_self _) (by rw [duties_recv]; exact Finset.mem_singleton_self _)
    () () N rfl (amount_send m c r 0) (amount_recv m (bwd (r.val + 1) c) r 0) O hO (W := W)
    (Entails.of_eq (payload_send m c r 0).symm)
    (recv_pay_of_landed m r c fd)

end Cert.Kernel.A2A

/-- info: 'Cert.Kernel.A2A.wp_send_step' depends on axioms: [propext, Classical.choice, Quot.sound] -/
#guard_msgs in #print axioms Cert.Kernel.A2A.wp_send_step
/-- info: 'Cert.Kernel.A2A.landed_agree' depends on axioms: [propext, Classical.choice, Quot.sound] -/
#guard_msgs in #print axioms Cert.Kernel.A2A.landed_agree
-- ==== Proof.Bits.Convert.lean ====
/-
  The contents a buffer holds just before it leaves the device, restated as the schedule names them. The device's own
  row block of `x`, narrowed to bf16 and stored into receive slot 0, is that slot's final contents; a narrowed row
  block written into the bf16 copy of `x` at the rows of the device `r + 1` behind is the whole narrowed array there.
-/
import proofs.«900489_g7700000000000490_dist_a2a_gemm_m8192_k8192_n4096_f32_gelu_v7x_i8_1_alg».proof.Proof.Bits.SendStep
import proofs.«900489_g7700000000000490_dist_a2a_gemm_m8192_k8192_n4096_f32_gelu_v7x_i8_1_alg».proof.Proof.Bits.SrcBlocks
import proofs.«900489_g7700000000000490_dist_a2a_gemm_m8192_k8192_n4096_f32_gelu_v7x_i8_1_alg».proof.Proof.Bits.Views
import Idealize.ShloMosaic.Lib.Writes

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The narrowing, at an entry -/

/-- A `[1,1024,1024]` block cast to a matrix, narrowed, and cast back: entry `(u, ρ, κ)` is the narrowing of the
    block's entry `(0, ρ, κ)`. -/
theorem castTruncF_apply (v : FVec F S1x1024x1024 .f32) (u : Fin 1) (ρ κ : Fin 1024) :
    shapeCast S1x1024x1024 (truncf .bf16 (shapeCast S1024x1024 v shapeCasts_S1x1024x1024_S1024x1024) bitsLt_bf16_f32)
      shapeCasts_S1024x1024_S1x1024x1024 (ix3 u ρ κ) = FloatOps.truncf .bf16 bitsLt_bf16_f32 (v (ix3 (0 : Fin 1) ρ κ)) := by
  rw [shapeCast_ab_1ab_apply]
  show FloatOps.truncf .bf16 bitsLt_bf16_f32 (shapeCast S1024x1024 v shapeCasts_S1x1024x1024_S1024x1024 (ix2 ρ κ)) = _
  rw [shapeCast_1ab_ab_apply]

theorem pay1F_apply (v : Vec F S1x1024x1024 .f32) (u : Fin 1) (ρ κ : Fin 1024) :
    k0_pay1 v (ix3 u ρ κ) = FloatOps.truncf .bf16 bitsLt_bf16_f32 (v (ix3 (0 : Fin 1) ρ κ)) := castTruncF_apply v u ρ κ
theorem pay2F_apply (v : Vec F S1x1024x1024 .f32) (u : Fin 1) (ρ κ : Fin 1024) :
    k0_pay2 v (ix3 u ρ κ) = FloatOps.truncf .bf16 bitsLt_bf16_f32 (v (ix3 (0 : Fin 1) ρ κ)) := castTruncF_apply v u ρ κ
theorem pay3F_apply (v : Vec F S1x1024x1024 .f32) (u : Fin 1) (ρ κ : Fin 1024) :
    k0_pay3 v (ix3 u ρ κ) = FloatOps.truncf .bf16 bitsLt_bf16_f32 (v (ix3 (0 : Fin 1) ρ κ)) := castTruncF_apply v u ρ κ
theorem pay6F_apply (v : Vec F S1x1024x1024 .f32) (u : Fin 1) (ρ κ : Fin 1024) :
    k0_pay6 v (ix3 u ρ κ) = FloatOps.truncf .bf16 bitsLt_bf16_f32 (v (ix3 (0 : Fin 1) ρ κ)) := castTruncF_apply v u ρ κ
theorem pay7F_apply (v : Vec F S1x1024x1024 .f32) (u : Fin 1) (ρ κ : Fin 1024) :
    k0_pay7 v (ix3 u ρ κ) = FloatOps.truncf .bf16 bitsLt_bf16_f32 (v (ix3 (0 : Fin 1) ρ κ)) := castTruncF_apply v u ρ κ
theorem pay8F_apply (v : Vec F S1x1024x1024 .f32) (u : Fin 1) (ρ κ : Fin 1024) :
    k0_pay8 v (ix3 u ρ κ) = FloatOps.truncf .bf16 bitsLt_bf16_f32 (v (ix3 (0 : Fin 1) ρ κ)) := castTruncF_apply v u ρ κ
theorem pay9F_apply (v : Vec F S1x1024x1024 .f32) (u : Fin 1) (ρ κ : Fin 1024) :
    k0_pay9 v (ix3 u ρ κ) = FloatOps.truncf .bf16 bitsLt_bf16_f32 (v (ix3 (0 : Fin 1) ρ κ)) := castTruncF_apply v u ρ κ
/-- The fourth step's narrowing is carried as a matrix and given its unit axis by a second payload. -/
theorem pay4F_apply (v : Vec F S1x1024x1024 .f32) (ρ κ : Fin 1024) :
    k0_pay4 v (ix2 ρ κ) = FloatOps.truncf .bf16 bitsLt_bf16_f32 (v (ix3 (0 : Fin 1) ρ κ)) := by
  show FloatOps.truncf .bf16 bitsLt_bf16_f32 (shapeCast S1024x1024 v shapeCasts_S1x1024x1024_S1024x1024 (ix2 ρ κ)) = _
  rw [shapeCast_1ab_ab_apply]
theorem pay5F_apply (v : FVec F S1024x1024 .bf16) (u : Fin 1) (ρ κ : Fin 1024) :
    k0_pay5 v (ix3 u ρ κ) = v (ix2 ρ κ) := by
  show shapeCast S1x1024x1024 v shapeCasts_S1024x1024_S1x1024x1024 (ix3 u ρ κ) = _
  rw [shapeCast_ab_1ab_apply]
theorem pay54F_apply (v : Vec F S1x1024x1024 .f32) (u : Fin 1) (ρ κ : Fin 1024) :
    k0_pay5 (k0_pay4 v) (ix3 u ρ κ) = FloatOps.truncf .bf16 bitsLt_bf16_f32 (v (ix3 (0 : Fin 1) ρ κ)) := by
  rw [pay5F_apply, pay4F_apply]

/-- The narrowed array at an entry is the narrowing of the array's entry. -/
theorem x16full_apply (c : Dev nD) (j : S8192x1024.Idx) :
    x16full m c j = FloatOps.truncf .bf16 bitsLt_bf16_f32 (xin m c j) := rfl

/-! ## Receive slot 0: the device's own rows -/

/-- Where the whole receive buffer's rectangle of slot 0 places its entry `(0, ρ, κ)`. -/
theorem acc0_emb (ρ κ : Fin 1024) :
    ((Memref.whole cc0_scratch0 : Memref sig .tc .vmem S8x1024x1024 .bf16).access
        (Rect.unit (s := S8x1024x1024) ![0, 0, 0] S1x1024x1024.size inb_S8x1024x1024_S1x1024x1024_0_0_0)).emb (ix3 (0 : Fin 1) ρ κ)
      = (ix3 (0 : Fin 8) ρ κ : S8x1024x1024.Idx) := by
  show (Rect.unit (s := S8x1024x1024) ![0, 0, 0] S1x1024x1024.size inb_S8x1024x1024_S1x1024x1024_0_0_0).emb (ix3 (0 : Fin 1) ρ κ) = _
  funext a
  apply Fin.ext
  rw [Rect.emb_apply]
  match a with
  | ⟨0, _⟩ => simp
  | ⟨1, _⟩ => simp
  | ⟨2, _⟩ => simp

/-- The device's own row block of `x`, narrowed and stored into receive slot 0, is what that slot holds in the end. -/
theorem slot0_convert (c : Dev nD) (fr : Buf (Elt F) ((c : Thread nD τ).loc cc0_scratch0)) (v : Vec F S1x1024x1024 .f32)
    (hv : ∀ (ρ κ : Fin 1024), v (ix3 (0 : Fin 1) ρ κ) = xin m c (ix2 (⟨1024 * c.val + ρ.val, own_row_lt c ρ⟩ : Fin 8192) κ)) :
    (((rslot 0 : Memref sig .tc .vmem S1024x1024 .bf16).view.loc (c : Thread nD τ)
        ↦[(rslot 0 : Memref sig .tc .vmem S1024x1024 .bf16).view.set]{fullShare}
          View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr (k0_pay1 v) Finset.univ) : sProp 𝕄)
      ⊢ ((rslot 0 : Memref sig .tc .vmem S1024x1024 .bf16).view.loc (c : Thread nD τ)
          ↦[(rslot 0 : Memref sig .tc .vmem S1024x1024 .bf16).view.set]{fullShare} recvFull m c) := by
  refine Entails.of_eq (pointsTo_congr fun i hi => ?_)
  obtain ⟨y, rfl⟩ := View.exists_emb_of_mem_set _ hi
  obtain ⟨ρ, κ, rfl⟩ : ∃ ρ κ : Fin 1024, y = ix2 ρ κ := ⟨y 0, y 1, eq_ix2 y⟩
  rw [rslot_emb, ← acc0_emb, View.write_emb_of_mem _ _ (Finset.mem_univ _), acc0_emb, pay1F_apply, hv]
  show _ = x16full m (fwd 0 c) (ix2 (⟨1024 * c.val + ρ.val, own_row_lt c ρ⟩ : Fin 8192) (⟨κ.val, κ.isLt⟩ : Fin 1024))
  rw [x16full_congr m (fwd_zero c), x16full_apply]
  exact cast_eq _ _

/-! ## The bf16 copy's block of step `r + 1`, before it is sent -/

/-- Contents that agree with the narrowed array on the block's entries hold the block as the narrowed array does. -/
theorem x16_agree (r : Fin 7) (c : Dev nD) (g : Buf (Elt F) ((c : Thread nD τ).loc main_v1_1))
    (hg : ∀ ρ κ : Fin 1024, g ((xblk16 r c).view.emb (ix2 ρ κ)) = x16full m c ((xblk16 r c).view.emb (ix2 ρ κ))) :
    (((xblk16 r c).view.loc (c : Thread nD τ) ↦[(xblk16 r c).view.set]{fullShare} g) : sProp 𝕄)
      ⊢ ((xblk16 r c).view.loc (c : Thread nD τ) ↦[(xblk16 r c).view.set]{fullShare} x16full m c) := by
  refine Entails.of_eq (pointsTo_congr fun i hi => ?_)
  obtain ⟨y, rfl⟩ := View.exists_emb_of_mem_set _ hi
  obtain ⟨ρ, κ, rfl⟩ : ∃ ρ κ : Fin 1024, y = ix2 ρ κ := ⟨y 0, y 1, eq_ix2 y⟩
  exact hg ρ κ

/-- The block written through its own view with the narrowed rows of the device `r + 1` behind. -/
theorem x16_convert_write (r : Fin 7) (c : Dev nD) (f : Buf (Elt F) ((c : Thread nD τ).loc main_v1_1)) (w : Vec F S1024x1024 .bf16)
    (hw : ∀ ρ κ : Fin 1024, w (ix2 ρ κ) = x16full m c (ix2 (⟨1024 * (bwd (1 + r.val) c).val + ρ.val, bwd_row_lt _ c ρ⟩ : Fin 8192) κ)) :
    (((xblk16 r c).view.loc (c : Thread nD τ) ↦[(xblk16 r c).view.set]{fullShare} (xblk16 r c).view.write (Elt F) f w Finset.univ) : sProp 𝕄)
      ⊢ ((xblk16 r c).view.loc (c : Thread nD τ) ↦[(xblk16 r c).view.set]{fullShare} x16full m c) := by
  refine x16_agree m r c _ fun ρ κ => ?_
  rw [View.write_emb_of_mem _ _ (Finset.mem_univ _), hw, xblk16_emb]
  exact cast_eq _ _

/-- The same, the write named as the one piece through the block's whole rectangle. -/
theorem x16_convert_writes (r : Fin 7) (c : Dev nD) (f : Buf (Elt F) ((c : Thread nD τ).loc main_v1_1)) (w : Vec F S1024x1024 .bf16)
    (hw : ∀ ρ κ : Fin 1024, w (ix2 ρ κ) = x16full m c (ix2 (⟨1024 * (bwd (1 + r.val) c).val + ρ.val, bwd_row_lt _ c ρ⟩ : Fin 8192) κ)) :
    (((xblk16 r c).view.loc (c : Thread nD τ) ↦[(xblk16 r c).view.set]{fullShare}
        (xblk16 r c).view.writes (Elt F) f [⟨Rect.whole S1024x1024, w⟩]) : sProp 𝕄)
      ⊢ ((xblk16 r c).view.loc (c : Thread nD τ) ↦[(xblk16 r c).view.set]{fullShare} x16full m c) := by
  refine x16_agree m r c _ fun ρ κ => ?_
  have he : (xblk16 r c).view.emb (ix2 ρ κ) = ((xblk16 r c).view.slice (Rect.whole S1024x1024)).emb (ix2 ρ κ) := by
    show _ = (xblk16 r c).view.emb ((Rect.whole S1024x1024).emb (ix2 ρ κ))
    rw [Rect.emb_whole_apply]
  rw [View.writes_singleton]
  conv_lhs => rw [he, View.write_emb_of_mem _ _ (Finset.mem_univ _)]
  rw [hw, xblk16_emb]
  exact cast_eq _ _

end Cert.Kernel.A2A

/-- info: 'Cert.Kernel.A2A.slot0_convert' depends on axioms: [propext, Classical.choice, Quot.sound] -/
#guard_msgs in #print axioms Cert.Kernel.A2A.slot0_convert
/-- info: 'Cert.Kernel.A2A.x16_convert_writes' depends on axioms: [propext, Classical.choice, Quot.sound] -/
#guard_msgs in #print axioms Cert.Kernel.A2A.x16_convert_writes
/-- info: 'Cert.Kernel.A2A.x16_convert_write' depends on axioms: [propext, Classical.choice, Quot.sound] -/
#guard_msgs in #print axioms Cert.Kernel.A2A.x16_convert_write
-- ==== Proof.Bits.Chain.lean ====
/-
  The contents the run leaves in receive slot 0 and in the bf16 copy's block of each step, as the stores and copies
  write them one over another, restated as the schedule names them. A load of a staging plane's low window reads the
  newest whole-window write; a read of a bf16 staging plane reads the newest store through that plane's rectangle;
  whatever was written before does not matter.
-/
import proofs.«900489_g7700000000000490_dist_a2a_gemm_m8192_k8192_n4096_f32_gelu_v7x_i8_1_alg».proof.Proof.Bits.Convert

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## A staging plane's low window, loaded after whole-window writes -/

/-- A load through the whole f32 staging buffer at plane `b`'s low window reads what the plane's view reads. -/
theorem readAt_lo_eq_read (b : Fin 2) (G : (Memref.whole cc0_scratch1 : Memref sig .tc .vmem S2x1024x2048 .f32).view.ty.Contents (Elt F))
    (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect G (ix3 (0 : Fin 1) ρ κ)
      = (vlo b).view.read (Elt F) G (ix2 ρ κ) := by
  rw [View.readAt_apply, View.read_apply, View.read_apply, lo_idx, vlo_emb]
  rfl

/-- … so after writes the newest of which fills the window with `w`, it reads `w (ρ, κ)` at `(0, ρ, κ)`. -/
theorem lo_load_cons (b : Fin 2) (jv : (Memref.whole cc0_scratch1 : Memref sig .tc .vmem S2x1024x2048 .f32).view.ty.Contents (Elt F))
    (w : Vec F S1024x1024 .f32) (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024, w⟩ :: Lv)) (ix3 (0 : Fin 1) ρ κ)
      = w (ix2 ρ κ) := by
  rw [readAt_lo_eq_read]
  have h := View.read_writes_cons_emb (vlo b).view jv (Rect.whole S1024x1024) w Lv (ix2 ρ κ)
  rw [Rect.emb_whole_apply] at h
  exact h

theorem lo_load_own_cons (b : Fin 2) (c : Dev nD)
    (jv : (Memref.whole cc0_scratch1 : Memref sig .tc .vmem S2x1024x2048 .f32).view.ty.Contents (Elt F))
    (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024,
          ReadAs.same.apply ((xsrc0 c).view.read (Elt F) (m ((c : Thread nD τ).loc main_arg0)))⟩ :: Lv)) (ix3 (0 : Fin 1) ρ κ)
      = xin m c (ix2 (⟨1024 * c.val + ρ.val, own_row_lt c ρ⟩ : Fin 8192) κ) := by
  rw [lo_load_cons]
  exact xsrc0_read m c ρ κ

theorem lo_load_step_cons (b : Fin 2) (r : Fin 7) (c : Dev nD)
    (jv : (Memref.whole cc0_scratch1 : Memref sig .tc .vmem S2x1024x2048 .f32).view.ty.Contents (Elt F))
    (Lv : List (View.Piece (Elt F) S1024x1024 .f32)) (ρ κ : Fin 1024) :
    (Memref.whole cc0_scratch1 : Memref sig .tc .vmem S2x1024x2048 .f32).view.readAt (Elt F)
        (Rect.unit (s := S2x1024x2048) ![b.val, 0, 0] S1x1024x1024.size (lo_inb b)).toLoadRect
        ((vlo b).view.writes (Elt F) jv (⟨Rect.whole S1024x1024,
          ReadAs.same.apply ((xsrc r c).view.read (Elt F) (m ((c : Thread nD τ).loc main_arg0)))⟩ :: Lv)) (ix3 (0 : Fin 1) ρ κ)
      = xin m c (ix2 (⟨1024 * (bwd (1 + r.val) c).val + ρ.val, bwd_row_lt _ c ρ⟩ : Fin 8192) κ) := by
  rw [lo_load_cons]
  exact xsrc_read m r c ρ κ

/-! ## Receive slot 0 -/

/-- Receive slot 0 as the run leaves it: the own rows, copied into plane 0's low window (over whatever was written there
    before), loaded, narrowed and stored. -/
theorem slot0_step (c : Dev nD) (fr : Buf (Elt F) ((c : Thread nD τ).loc cc0_scratch0))
    (jv : (Memref.whole cc0_scratch1 : Memref sig .tc .vmem S2x1024x2048 .f32).view.ty.Contents (Elt F))
    (Lv : List (View.Piece (Elt F) S1024x1024 .f32)) :
    (((rslot 0 : Memref sig .tc .vmem S1024x1024 .bf16).view.loc (c : Thread nD τ)
        ↦[(rslot 0 : Memref sig .tc .vmem S1024x1024 .bf16).view.set]{fullShare}
          View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr
            (k0_pay1 ((Memref.whole cc0_scratch1 : Memref sig .tc .vmem S2x1024x2048 .f32).view.readAt (Elt F)
              (Rect.unit (s := S2x1024x2048) ![0, 0, 0] S1x1024x1024.size inb_S2x1024x2048_S1x1024x1024_0_0_0).toLoadRect
              ((vlo 0).view.writes (Elt F) jv (⟨Rect.whole S1024x1024,
                ReadAs.same.apply ((xsrc0 c).view.read (Elt F) (m ((c : Thread nD τ).loc main_arg0)))⟩ :: Lv)))) Finset.univ) : sProp 𝕄)
      ⊢ ((rslot 0 : Memref sig .tc .vmem S1024x1024 .bf16).view.loc (c : Thread nD τ)
          ↦[(rslot 0 : Memref sig .tc .vmem S1024x1024 .bf16).view.set]{fullShare} recvFull m c) :=
  slot0_convert m c fr _ (lo_load_own_cons m 0 c jv Lv)

/-! ## The bf16 staging plane, read after stores through the whole buffer -/

/-- Where plane `b`'s rectangle of the bf16 staging buffer places its entry `(0, ρ, κ)`. -/
theorem cp_rect_emb (b : Fin 2) (ρ κ : Fin 1024) :
    (Rect.unit (s := S2x1024x1024) ![b.val, 0, 0] S1x1024x1024.size (cp_inb b)).emb (ix3 (0 : Fin 1) ρ κ)
      = (ix3 b ρ κ : S2x1024x1024.Idx) := by
  funext a
  apply Fin.ext
  rw [Rect.emb_apply]
  match a with
  | ⟨0, _⟩ => simp
  | ⟨1, _⟩ => simp
  | ⟨2, _⟩ => simp

/-- The whole bf16 staging buffer's view reads its contents. -/
theorem read_whole_c16 (G : (Memref.whole cc0_scratch2 : Memref sig .tc .vmem S2x1024x1024 .bf16).view.ty.Contents (Elt F))
    (y : S2x1024x1024.Idx) :
    (Memref.whole cc0_scratch2 : Memref sig .tc .vmem S2x1024x1024 .bf16).view.read (Elt F) G y = G y := rfl

/-- Plane `b` read after stores through the whole buffer, the newest of which stores `p` at the plane's rectangle. -/
theorem c16_read_cons (b : Fin 2) (fc : (Memref.whole cc0_scratch2 : Memref sig .tc .vmem S2x1024x1024 .bf16).view.ty.Contents (Elt F))
    (p : FVec F S1x1024x1024 .bf16) (Lc : List (View.Piece (Elt F) S2x1024x1024 .bf16)) (ρ κ : Fin 1024) :
    (cpl b).view.read (Elt F) ((Memref.whole cc0_scratch2 : Memref sig .tc .vmem S2x1024x1024 .bf16).view.writes (Elt F) fc
        (⟨Rect.unit (s := S2x1024x1024) ![b.val, 0, 0] S1x1024x1024.size (cp_inb b), p⟩ :: Lc)) (ix2 ρ κ)
      = p (ix3 (0 : Fin 1) ρ κ) := by
  have h := View.read_writes_cons_emb (Memref.whole cc0_scratch2 : Memref sig .tc .vmem S2x1024x1024 .bf16).view fc
    (Rect.unit (s := S2x1024x1024) ![b.val, 0, 0] S1x1024x1024.size (cp_inb b)) p Lc (ix3 (0 : Fin 1) ρ κ)
  rw [read_whole_c16, cp_rect_emb] at h
  rw [cpl_read]
  exact h

/-! ## The block of step `r + 1` before its send -/

/-- The block's contents as the run leaves them: the rows of step `r + 1` copied into plane `b`'s low window, loaded,
    narrowed by the payload `P`, stored into plane `b` of the bf16 staging buffer, and that plane copied into the block. -/
abbrev blkWritten (r : Fin 7) (b : Fin 2) (c : Dev nD) (P : Vec F S1x1024x1024 .f32 → FVec F S1x1024x1024 .bf16)
    (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    Buf (Elt F) ((c : Thread nD τ).loc main_v1_1) :=
  (xblk16 r c).view.writes (Elt F) f16 [⟨Rect.whole S1024x1024,
    ReadAs.same.apply ((cpl b).view.read (Elt F) ((Memref.whole cc0_scratch2 : Memref sig .tc .vmem S2x1024x1024 .bf16).view.writes (Elt F) fc
      (⟨Rect.unit (s := S2x1024x1024) ![b.val, 0, 0] S1x1024x1024.size (cp_inb b),
        P ((Memref.whole cc0_scratch1 : Memref sig .tc .vmem S2x1024x2048 .f32).view.readAt (Elt F)
          (Rect.unit (s := S2x1024x2048) ![b.val, 0, 0] S1x1024x1024.size (lo_inb b)).toLoadRect
          ((vlo b).view.writes (Elt F) jv (⟨Rect.whole S1024x1024,
            ReadAs.same.apply ((xsrc r c).view.read (Elt F) (m ((c : Thread nD τ).loc main_arg0)))⟩ :: Lv)))⟩ :: Lc)))⟩]

/-- It holds the narrowed array. -/
theorem x16_step (r : Fin 7) (b : Fin 2) (c : Dev nD) (P : Vec F S1x1024x1024 .f32 → FVec F S1x1024x1024 .bf16)
    (hP : ∀ (v : Vec F S1x1024x1024 .f32) (ρ κ : Fin 1024),
      P v (ix3 (0 : Fin 1) ρ κ) = FloatOps.truncf .bf16 bitsLt_bf16_f32 (v (ix3 (0 : Fin 1) ρ κ)))
    (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 r c).view.loc (c : Thread nD τ) ↦[(xblk16 r c).view.set]{fullShare} blkWritten m r b c P f16 fc jv Lv Lc) : sProp 𝕄)
      ⊢ ((xblk16 r c).view.loc (c : Thread nD τ) ↦[(xblk16 r c).view.set]{fullShare} x16full m c) := by
  refine x16_convert_writes m r c f16 _ fun ρ κ => ?_
  show (cpl b).view.read (Elt F) _ (ix2 ρ κ) = _
  rw [c16_read_cons, hP, lo_load_step_cons, x16full_apply]

/-! The seven steps: the plane alternates, starting at 1; the third step's narrowing is carried as a matrix. -/

theorem x16_step1 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 0 c).view.loc (c : Thread nD τ) ↦[(xblk16 0 c).view.set]{fullShare} blkWritten m 0 1 c k0_pay2 f16 fc jv Lv Lc) : sProp 𝕄)
      ⊢ ((xblk16 0 c).view.loc (c : Thread nD τ) ↦[(xblk16 0 c).view.set]{fullShare} x16full m c) :=
  x16_step m 0 1 c k0_pay2 (fun v ρ κ => pay2F_apply v 0 ρ κ) f16 fc jv Lv Lc
theorem x16_step2 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 1 c).view.loc (c : Thread nD τ) ↦[(xblk16 1 c).view.set]{fullShare} blkWritten m 1 0 c k0_pay3 f16 fc jv Lv Lc) : sProp 𝕄)
      ⊢ ((xblk16 1 c).view.loc (c : Thread nD τ) ↦[(xblk16 1 c).view.set]{fullShare} x16full m c) :=
  x16_step m 1 0 c k0_pay3 (fun v ρ κ => pay3F_apply v 0 ρ κ) f16 fc jv Lv Lc
theorem x16_step3 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 2 c).view.loc (c : Thread nD τ) ↦[(xblk16 2 c).view.set]{fullShare}
        blkWritten m 2 1 c (fun v => k0_pay5 (k0_pay4 v)) f16 fc jv Lv Lc) : sProp 𝕄)
      ⊢ ((xblk16 2 c).view.loc (c : Thread nD τ) ↦[(xblk16 2 c).view.set]{fullShare} x16full m c) :=
  x16_step m 2 1 c (fun v => k0_pay5 (k0_pay4 v)) (fun v ρ κ => pay54F_apply v 0 ρ κ) f16 fc jv Lv Lc
theorem x16_step4 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 3 c).view.loc (c : Thread nD τ) ↦[(xblk16 3 c).view.set]{fullShare} blkWritten m 3 0 c k0_pay6 f16 fc jv Lv Lc) : sProp 𝕄)
      ⊢ ((xblk16 3 c).view.loc (c : Thread nD τ) ↦[(xblk16 3 c).view.set]{fullShare} x16full m c) :=
  x16_step m 3 0 c k0_pay6 (fun v ρ κ => pay6F_apply v 0 ρ κ) f16 fc jv Lv Lc
theorem x16_step5 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 4 c).view.loc (c : Thread nD τ) ↦[(xblk16 4 c).view.set]{fullShare} blkWritten m 4 1 c k0_pay7 f16 fc jv Lv Lc) : sProp 𝕄)
      ⊢ ((xblk16 4 c).view.loc (c : Thread nD τ) ↦[(xblk16 4 c).view.set]{fullShare} x16full m c) :=
  x16_step m 4 1 c k0_pay7 (fun v ρ κ => pay7F_apply v 0 ρ κ) f16 fc jv Lv Lc
theorem x16_step6 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 5 c).view.loc (c : Thread nD τ) ↦[(xblk16 5 c).view.set]{fullShare} blkWritten m 5 0 c k0_pay8 f16 fc jv Lv Lc) : sProp 𝕄)
      ⊢ ((xblk16 5 c).view.loc (c : Thread nD τ) ↦[(xblk16 5 c).view.set]{fullShare} x16full m c) :=
  x16_step m 5 0 c k0_pay8 (fun v ρ κ => pay8F_apply v 0 ρ κ) f16 fc jv Lv Lc
theorem x16_step7 (c : Dev nD) (f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16)) :
    (((xblk16 6 c).view.loc (c : Thread nD τ) ↦[(xblk16 6 c).view.set]{fullShare} blkWritten m 6 1 c k0_pay9 f16 fc jv Lv Lc) : sProp 𝕄)
      ⊢ ((xblk16 6 c).view.loc (c : Thread nD τ) ↦[(xblk16 6 c).view.set]{fullShare} x16full m c) :=
  x16_step m 6 1 c k0_pay9 (fun v ρ κ => pay9F_apply v 0 ρ κ) f16 fc jv Lv Lc

/-! ## The same, the contents named by a variable with its defining equation -/

theorem slot0_step' (c : Dev nD) (g fr : Buf (Elt F) ((c : Thread nD τ).loc cc0_scratch0))
    (jv : (Memref.whole cc0_scratch1 : Memref sig .tc .vmem S2x1024x2048 .f32).view.ty.Contents (Elt F))
    (Lv : List (View.Piece (Elt F) S1024x1024 .f32))
    (hg : g = View.write (Elt F) ((Memref.whole cc0_scratch0 : Memref sig .tc .vmem S8x1024x1024 .bf16).access
            (Rect.unit (s := S8x1024x1024) ![0, 0, 0] S1x1024x1024.size inb_S8x1024x1024_S1x1024x1024_0_0_0)) fr
            (k0_pay1 ((Memref.whole cc0_scratch1 : Memref sig .tc .vmem S2x1024x2048 .f32).view.readAt (Elt F)
              (Rect.unit (s := S2x1024x2048) ![0, 0, 0] S1x1024x1024.size inb_S2x1024x2048_S1x1024x1024_0_0_0).toLoadRect
              ((vlo 0).view.writes (Elt F) jv (⟨Rect.whole S1024x1024,
                ReadAs.same.apply ((xsrc0 c).view.read (Elt F) (m ((c : Thread nD τ).loc main_arg0)))⟩ :: Lv)))) Finset.univ) :
    (((rslot 0 : Memref sig .tc .vmem S1024x1024 .bf16).view.loc (c : Thread nD τ)
        ↦[(rslot 0 : Memref sig .tc .vmem S1024x1024 .bf16).view.set]{fullShare} g) : sProp 𝕄)
      ⊢ ((rslot 0 : Memref sig .tc .vmem S1024x1024 .bf16).view.loc (c : Thread nD τ)
          ↦[(rslot 0 : Memref sig .tc .vmem S1024x1024 .bf16).view.set]{fullShare} recvFull m c) := by
  subst hg; exact slot0_step m c fr jv Lv

theorem x16_step' (r : Fin 7) (b : Fin 2) (c : Dev nD) (P : Vec F S1x1024x1024 .f32 → FVec F S1x1024x1024 .bf16)
    (hP : ∀ (v : Vec F S1x1024x1024 .f32) (ρ κ : Fin 1024),
      P v (ix3 (0 : Fin 1) ρ κ) = FloatOps.truncf .bf16 bitsLt_bf16_f32 (v (ix3 (0 : Fin 1) ρ κ)))
    (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m r b c P f16 fc jv Lv Lc) :
    (((xblk16 r c).view.loc (c : Thread nD τ) ↦[(xblk16 r c).view.set]{fullShare} g) : sProp 𝕄)
      ⊢ ((xblk16 r c).view.loc (c : Thread nD τ) ↦[(xblk16 r c).view.set]{fullShare} x16full m c) := by
  subst hg; exact x16_step m r b c P hP f16 fc jv Lv Lc

theorem x16_step1' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 0 1 c k0_pay2 f16 fc jv Lv Lc) :
    (((xblk16 0 c).view.loc (c : Thread nD τ) ↦[(xblk16 0 c).view.set]{fullShare} g) : sProp 𝕄)
      ⊢ ((xblk16 0 c).view.loc (c : Thread nD τ) ↦[(xblk16 0 c).view.set]{fullShare} x16full m c) :=
  x16_step' m 0 1 c k0_pay2 (fun v ρ κ => pay2F_apply v 0 ρ κ) g f16 fc jv Lv Lc hg
theorem x16_step2' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 1 0 c k0_pay3 f16 fc jv Lv Lc) :
    (((xblk16 1 c).view.loc (c : Thread nD τ) ↦[(xblk16 1 c).view.set]{fullShare} g) : sProp 𝕄)
      ⊢ ((xblk16 1 c).view.loc (c : Thread nD τ) ↦[(xblk16 1 c).view.set]{fullShare} x16full m c) :=
  x16_step' m 1 0 c k0_pay3 (fun v ρ κ => pay3F_apply v 0 ρ κ) g f16 fc jv Lv Lc hg
theorem x16_step3' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 2 1 c (fun v => k0_pay5 (k0_pay4 v)) f16 fc jv Lv Lc) :
    (((xblk16 2 c).view.loc (c : Thread nD τ) ↦[(xblk16 2 c).view.set]{fullShare} g) : sProp 𝕄)
      ⊢ ((xblk16 2 c).view.loc (c : Thread nD τ) ↦[(xblk16 2 c).view.set]{fullShare} x16full m c) :=
  x16_step' m 2 1 c (fun v => k0_pay5 (k0_pay4 v)) (fun v ρ κ => pay54F_apply v 0 ρ κ) g f16 fc jv Lv Lc hg
theorem x16_step4' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 3 0 c k0_pay6 f16 fc jv Lv Lc) :
    (((xblk16 3 c).view.loc (c : Thread nD τ) ↦[(xblk16 3 c).view.set]{fullShare} g) : sProp 𝕄)
      ⊢ ((xblk16 3 c).view.loc (c : Thread nD τ) ↦[(xblk16 3 c).view.set]{fullShare} x16full m c) :=
  x16_step' m 3 0 c k0_pay6 (fun v ρ κ => pay6F_apply v 0 ρ κ) g f16 fc jv Lv Lc hg
theorem x16_step5' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 4 1 c k0_pay7 f16 fc jv Lv Lc) :
    (((xblk16 4 c).view.loc (c : Thread nD τ) ↦[(xblk16 4 c).view.set]{fullShare} g) : sProp 𝕄)
      ⊢ ((xblk16 4 c).view.loc (c : Thread nD τ) ↦[(xblk16 4 c).view.set]{fullShare} x16full m c) :=
  x16_step' m 4 1 c k0_pay7 (fun v ρ κ => pay7F_apply v 0 ρ κ) g f16 fc jv Lv Lc hg
theorem x16_step6' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 5 0 c k0_pay8 f16 fc jv Lv Lc) :
    (((xblk16 5 c).view.loc (c : Thread nD τ) ↦[(xblk16 5 c).view.set]{fullShare} g) : sProp 𝕄)
      ⊢ ((xblk16 5 c).view.loc (c : Thread nD τ) ↦[(xblk16 5 c).view.set]{fullShare} x16full m c) :=
  x16_step' m 5 0 c k0_pay8 (fun v ρ κ => pay8F_apply v 0 ρ κ) g f16 fc jv Lv Lc hg
theorem x16_step7' (c : Dev nD) (g f16 : Buf (Elt F) ((c : Thread nD τ).loc main_v1_1))
    (fc : (Memref.whole cc0_scratch2 : Memref sig .tc .vmem S2x1024x1024 .bf16).view.ty.Contents (Elt F))
    (jv : (Memref.whole cc0_scratch1 : Memref sig .tc .vmem S2x1024x2048 .f32).view.ty.Contents (Elt F))
    (Lv : List (View.Piece (Elt F) S1024x1024 .f32)) (Lc : List (View.Piece (Elt F) S2x1024x1024 .bf16))
    (hg : g = blkWritten m 6 1 c k0_pay9 f16 fc jv Lv Lc) :
    (((xblk16 6 c).view.loc (c : Thread nD τ) ↦[(xblk16 6 c).view.set]{fullShare} g) : sProp 𝕄)
      ⊢ ((xblk16 6 c).view.loc (c : Thread nD τ) ↦[(xblk16 6 c).view.set]{fullShare} x16full m c) :=
  x16_step' m 6 1 c k0_pay9 (fun v ρ κ => pay9F_apply v 0 ρ κ) g f16 fc jv Lv Lc hg

end Cert.Kernel.A2A

/-- info: 'Cert.Kernel.A2A.slot0_step' depends on axioms: [propext, Classical.choice, Quot.sound] -/
#guard_msgs in #print axioms Cert.Kernel.A2A.slot0_step
/-- info: 'Cert.Kernel.A2A.x16_step' depends on axioms: [propext, Classical.choice, Quot.sound] -/
#guard_msgs in #print axioms Cert.Kernel.A2A.x16_step
/-- info: 'Cert.Kernel.A2A.x16_step3' depends on axioms: [propext, Classical.choice, Quot.sound] -/
#guard_msgs in #print axioms Cert.Kernel.A2A.x16_step3
-- ==== Proof.Bits.GemmVals.lean ====
/-
  What the loads of the product phase read. A block of `w` lands in a plane of the f32 staging buffer as one
  write through the plane's whole rectangle; a load through the whole buffer at that plane's rectangle then reads
  the landed block, which, read at an entry, is the device's copy of `w` at the block's rows and column half:
  the block the product of that step is taken with. The receive buffer's final contents, loaded at slot `t`'s
  rectangle, are the block of `x` of step `t`.
-/
import proofs.«900489_g7700000000000490_dist_a2a_gemm_m8192_k8192_n4096_f32_gelu_v7x_i8_1_alg».proof.Proof.Bits.Views
import proofs.«900489_g7700000000000490_dist_a2a_gemm_m8192_k8192_n4096_f32_gelu_v7x_i8_1_alg».proof.Proof.Bits.SrcBlocks
import proofs.«900489_g7700000000000490_dist_a2a_gemm_m8192_k8192_n4096_f32_gelu_v7x_i8_1_alg».proof.Proof.Bits.Convert
import Idealize.ShloMosaic.Lib.Writes

noncomputable section

namespace Cert.Kernel.A2A

open Cert.Kernel Cert.Kernel.Gen Cert.Kernel.Ring8
open Idealize.ShloMosaic
open Idealize.ShloMosaic.TcCoe
open Idealize.ShloMosaic.ValueIdx

variable {F : FTy → Type} [FloatOps F]

variable (m : (ℓ : Loc nD τ sig) → Buf (Elt F) ℓ)

/-! ## What the products' loads read -/

/-- Where plane `b`, written through its whole rectangle, places its entry `(κ, jj)`. -/
theorem vful_whole_emb (b : Fin 2) (κ : Fin 1024) (jj : Fin 2048) :
    ((vful b : Memref sig .tc .vmem S1024x2048 .f32).view.slice (Rect.whole S1024x2048)).emb (ix2 κ jj) = ix3 b κ jj := by
  have h1 : ((vful b : Memref sig .tc .vmem S1024x2048 .f32).view.slice (Rect.whole S1024x2048)).emb (ix2 κ jj)
      = (vful b : Memref sig .tc .vmem S1024x2048 .f32).view.emb ((Rect.whole S1024x2048).emb (ix2 κ jj)) := rfl
  rw [h1, Rect.emb_whole_apply, vful_emb]

/-- A load through the whole staging buffer reads the contents at the rectangle's coordinate. -/
theorem readAt_scratch1_apply (R : LoadRect S2x1024x2048) (g : (Memref.whole cc0_scratch1 : Memref sig .tc .vmem S2x1024x2048 .f32).view.ty.Contents (Elt F)) (x : R.shape.Idx) :
    (Memref.whole cc0_scratch1 : Memref sig .tc .vmem S2x1024x2048 .f32).view.readAt (Elt F) R g x = g (R.idx x) := rfl

/-- A load through the whole staging buffer at plane `b`'s rectangle, after the plane was last written whole with `w`,
    reads `w`. -/
theorem readAt_vful_writes_whole (b : Fin 2) (j : (Memref.whole cc0_scratch1 : Memref sig .tc .vmem S2x1024x2048 .f32).view.ty.Contents (Elt F)) (w : Vec F S1024x2048 .f32)
    (L : List (View.Piece (Elt F) S1024x2048 .f32)) (κ : Fin 1024) (jj : Fin 2048) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, w⟩ : View.Piece (Elt F) S1024x2048 .f32) :: L))
        (ix3 (0 : Fin 1) κ jj)
      = w (ix2 κ jj) := by
  rw [readAt_scratch1_apply, View.writes_cons, ful_idx, ← vful_whole_emb, View.write_emb_of_mem _ _ (Finset.mem_univ _)]
  rfl

/-- The low half's block of `w` of step `t`, landed in plane `b` and loaded, is the block the product is taken with. -/
theorem wload0_eq (t : Fin 8) (b : Fin 2) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := by
  funext i
  obtain ⟨z, κ, jj, rfl⟩ : ∃ (z : Fin 1) (κ : Fin 1024) (jj : Fin 2048), i = ix3 z κ jj := ⟨i 0, i 1, i 2, eq_ix3 i⟩
  obtain rfl : z = 0 := Subsingleton.elim _ _
  rw [readAt_vful_writes_whole]
  exact congrFun (wsrc0_eq_Bblk m t c) (ix3 (0 : Fin 1) κ jj)

/-- The same for the high half. -/
theorem wload1_eq (t : Fin 8) (b : Fin 2) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![b.val, 0, 0] S1x1024x2048.size (ful_inb b)).toLoadRect
        ((vful b : Memref sig .tc .vmem S1024x2048 .f32).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := by
  funext i
  obtain ⟨z, κ, jj, rfl⟩ : ∃ (z : Fin 1) (κ : Fin 1024) (jj : Fin 2048), i = ix3 z κ jj := ⟨i 0, i 1, i 2, eq_ix3 i⟩
  obtain rfl : z = 0 := Subsingleton.elim _ _
  rw [readAt_vful_writes_whole]
  exact congrFun (wsrc1_eq_Bblk m t c) (ix3 (0 : Fin 1) κ jj)

/-! The same at literal planes, in the printed program's spelling. -/

theorem wload0_eq_lit0 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect
        ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := wload0_eq m t 0 c j L

theorem wload1_eq_lit0 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![0, 0, 0] S1x1024x2048.size inb_S2x1024x2048_S1x1024x2048_0_0_0).toLoadRect
        ((((Memref.whole cc0_scratch1 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := wload1_eq m t 0 c j L

theorem wload0_eq_lit1 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect
        ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.writes (Elt F) j ((⟨Rect.whole S1024x2048, (ReadAs.same (Val := Elt F)).apply ((wsrc0 t c).view.read (Elt F) (m ((c : Thread nD τ).loc main_arg1)))⟩ : View.Piece (Elt F) S1024x2048 .f32) :: L))
      = Bblk m c t 0 := wload0_eq m t 1 c j L

theorem wload1_eq_lit1 (t : Fin 8) (c : Dev nD) (j : (Memref.whole cc0_scratch1 : Memref sig .tc .vmem S2x1024x2048 .f32).view.ty.Contents (Elt F))
    (L : List (View.Piece (Elt F) S1024x2048 .f32)) :
    (Memref.whole cc0_scratch1 : Memref sig .tc .vmem S2x1024x2048 .f32).view.readAt (Elt F) (Rect.unit (s := S2x1024x2048) ![1, 0, 0] S1x1024x2048.size inb_S2x1024x2048_S1x1024x2048_1_0_0).toLoadRect
        ((((Memref.whole cc0_scratch1 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view.writes (Elt F) j ((⟨Rect.whole S1024x2048, (ReadAs.same (Val := Elt F)).apply ((wsrc1 t c).view.read (Elt F) (m ((c : Thread nD τ).loc main_arg1)))⟩ : View.Piece (Elt F) S1024x2048 .f32) :: L))
      = Bblk m c t 1 := wload1_eq m t 1 c j L

/-! The receive buffer's final contents, loaded at slot `t`'s rectangle, are the block of `x` of step `t`. -/
theorem aload_eq0 (c : Dev nD) :
    (Memref.whole cc0_scratch0 : Memref sig .tc .vmem S8x1024x1024 .bf16).view.readAt (Elt F) (Rect.unit (s := S8x1024x1024) ![0, 0, 0] S1x1024x1024.size inb_S8x1024x1024_S1x1024x1024_0_0_0).toLoadRect (recvFull m c) = Ablk m c 0 := readAt_slot_recvFull m c 0
theorem aload_eq1 (c : Dev nD) :
    (Memref.whole cc0_scratch0 : Memref sig .tc .vmem S8x1024x1024 .bf16).view.readAt (Elt F) (Rect.unit (s := S8x1024x1024) ![1, 0, 0] S1x1024x1024.size inb_S8x1024x1024_S1x1024x1024_1_0_0).toLoadRect (recvFull m c) = Ablk m c 1 := readAt_slot_recvFull m c 1
theorem aload_eq2 (c : Dev nD) :
    (Memref.whole cc0_scratch0 : Memref sig .tc .vmem S8x1024x1024 .bf16).view.readAt (Elt F) (Rect.unit (s := S8x1024x1024) ![2, 0, 0] S1x1024x1024.size inb_S8x1024x1024_S1x1024x1024_2_0_0).toLoadRect (recvFull m c) = Ablk m c 2 := readAt_slot_recvFull m c 2
theorem aload_eq3 (c : Dev nD) :
    (Memref.whole cc0_scratch0 : Memref sig .tc .vmem S8x1024x1024 .bf16).view.readAt (Elt F) (Rect.unit (s := S8x1024x1024) ![3, 0, 0] S1x1024x1024.size inb_S8x1024x1024_S1x1024x1024_3_0_0).toLoadRect (recvFull m c) = Ablk m c 3 := readAt_slot_recvFull m c 3
theorem aload_eq4 (c : Dev nD) :
    (Memref.whole cc0_scratch0 : Memref sig .tc .vmem S8x1024x1024 .bf16).view.readAt (Elt F) (Rect.unit (s := S8x1024x1024) ![4, 0, 0] S1x1024x1024.size inb_S8x1024x1024_S1x1024x1024_4_0_0).toLoadRect (recvFull m c) = Ablk m c 4 := readAt_slot_recvFull m c 4
theorem aload_eq5 (c : Dev nD) :
    (Memref.whole cc0_scratch0 : Memref sig .tc .vmem S8x1024x1024 .bf16).view.readAt (Elt F) (Rect.unit (s := S8x1024x1024) ![5, 0, 0] S1x1024x1024.size inb_S8x1024x1024_S1x1024x1024_5_0_0).toLoadRect (recvFull m c) = Ablk m c 5 := readAt_slot_recvFull m c 5
theorem aload_eq6 (c : Dev nD) :
    (Memref.whole cc0_scratch0 : Memref sig .tc .vmem S8x1024x1024 .bf16).view.readAt (Elt F) (Rect.unit (s := S8x1024x1024) ![6, 0, 0] S1x1024x1024.size inb_S8x1024x1024_S1x1024x1024_6_0_0).toLoadRect (recvFull m c) = Ablk m c 6 := readAt_slot_recvFull m c 6
theorem aload_eq7 (c : Dev nD) :
    (Memref.whole cc0_scratch0 : Memref sig .tc .vmem S8x1024x1024 .bf16).view.readAt (Elt F) (Rect.unit (s := S8x1024x1024) ![7, 0, 0] S1x1024x1024.size inb_S8x1024x1024_S1x1024x1024_7_0_0).toLoadRect (recvFull m c) = Ablk m c 7 := readAt_slot_recvFull m c 7

end Cert.Kernel.A2A
-- ==== Proof.Bits.OutList.lean ====
import proofs.«900489_g7700000000000490_dist_a2a_gemm_m8192_k8192_n4096_f32_gelu_v7x_i8_1_alg».proof.Proof.Bits.OutDef
import Idealize.ShloMosaic.Lib.Writes
import Idealize.ShloMosaic.Lib.Pipeline.FrameBody
import Idealize.ShloMosaic.Lib.Exec.Geometry

/-!
# The result buffer after the body's eighteen stores

The body fills its `1024 × 4096` result buffer with eighteen stores: for each of the steps 0 to 6 one
store per `2048`-column half (the running sum read back through the half's own rectangle, plus that
step's product), then at step 7 one store per `1024`-column quarter (gelu of the quarter's columns
of the running sum plus its share of the last product).  Kept as a list, newest first, each store a
rectangle and what was written through it.  A read of the buffer at column `2048 h + 1024 q + j` meets
the quarter's store first; what that store wrote is quarter `q` of half `h` of `outAt`, because every
read-back of a half returns the running sum the chain of steps defines.
-/

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The rectangles and the list -/

/-- The result buffer, whole. -/
abbrev ostg : View sig .tc .vmem S1024x4096 .f32 := (Memref.whole cc0_stg0_0 : Memref sig .tc .vmem S1024x4096 .f32).view

/-- Column half 0, columns 0 to 2047. -/
abbrev RH0 : Rect S1024x4096 := Rect.unit (s := S1024x4096) ![0, 0] S1024x2048.size inb_S1024x4096_S1024x2048_0_0
/-- Column half 1, columns 2048 to 4095. -/
abbrev RH1 : Rect S1024x4096 := Rect.unit (s := S1024x4096) ![0, 2048] S1024x2048.size inb_S1024x4096_S1024x2048_0_2048
/-- The four column quarters. -/
abbrev RQ0 : Rect S1024x4096 := Rect.unit (s := S1024x4096) ![0, 0] S1024x1024.size inb_S1024x4096_S1024x1024_0_0
abbrev RQ1 : Rect S1024x4096 := Rect.unit (s := S1024x4096) ![0, 1024] S1024x1024.size inb_S1024x4096_S1024x1024_0_1024
abbrev RQ2 : Rect S1024x4096 := Rect.unit (s := S1024x4096) ![0, 2048] S1024x1024.size inb_S1024x4096_S1024x1024_0_2048
abbrev RQ3 : Rect S1024x4096 := Rect.unit (s := S1024x4096) ![0, 3072] S1024x1024.size inb_S1024x4096_S1024x1024_0_3072

section Lists
variable (a0 a1 a2 a3 a4 a5 a6 a7 : Vec F S1x1024x1024 .bf16)
variable (b00 b01 b10 b11 b20 b21 b30 b31 b40 b41 b50 b51 b60 b61 b70 b71 : Vec F S1x1024x2048 .f32)

/-- After step 0, half 0. -/
def OL1 : List (View.Piece (Elt F) S1024x4096 .f32) :=
  [⟨RH0, k0_pay10 a0 b00⟩]
/-- After step 0, half 1. -/
def OL2 : List (View.Piece (Elt F) S1024x4096 .f32) :=
  ⟨RH1, k0_pay11 a0 b01⟩ :: OL1 a0 b00
/-- After step 1, half 0: the block of `x` re-cast to a matrix, the running sum read back through the half's rectangle. -/
def OL3 : List (View.Piece (Elt F) S1024x4096 .f32) :=
  ⟨RH0, k0_pay13 (k0_pay12 a1) b10 (ostg.readCov (OL2 a0 b00 b01) RH0.toLoadRect)⟩ :: OL2 a0 b00 b01
/-- After step 1, half 1. -/
def OL4 : List (View.Piece (Elt F) S1024x4096 .f32) :=
  ⟨RH1, k0_pay14 a1 b11 (ostg.readCov (OL3 a0 a1 b00 b01 b10) RH1.toLoadRect)⟩ :: OL3 a0 a1 b00 b01 b10
/-- After step 2, half 0. -/
def OL5 : List (View.Piece (Elt F) S1024x4096 .f32) :=
  ⟨RH0, k0_pay15 a2 b20 (ostg.readCov (OL4 a0 a1 b00 b01 b10 b11) RH0.toLoadRect)⟩ :: OL4 a0 a1 b00 b01 b10 b11
/-- After step 2, half 1. -/
def OL6 : List (View.Piece (Elt F) S1024x4096 .f32) :=
  ⟨RH1, k0_pay16 a2 b21 (ostg.readCov (OL5 a0 a1 a2 b00 b01 b10 b11 b20) RH1.toLoadRect)⟩ :: OL5 a0 a1 a2 b00 b01 b10 b11 b20
/-- After step 3, half 0. -/
def OL7 : List (View.Piece (Elt F) S1024x4096 .f32) :=
  ⟨RH0, k0_pay17 a3 b30 (ostg.readCov (OL6 a0 a1 a2 b00 b01 b10 b11 b20 b21) RH0.toLoadRect)⟩ :: OL6 a0 a1 a2 b00 b01 b10 b11 b20 b21
/-- After step 3, half 1. -/
def OL8 : List (View.Piece (Elt F) S1024x4096 .f32) :=
  ⟨RH1, k0_pay18 a3 b31 (ostg.readCov (OL7 a0 a1 a2 a3 b00 b01 b10 b11 b20 b21 b30) RH1.toLoadRect)⟩ :: OL7 a0 a1 a2 a3 b00 b01 b10 b11 b20 b21 b30
/-- After step 4, half 0. -/
def OL9 : List (View.Piece (Elt F) S1024x4096 .f32) :=
  ⟨RH0, k0_pay19 a4 b40 (ostg.readCov (OL8 a0 a1 a2 a3 b00 b01 b10 b11 b20 b21 b30 b31) RH0.toLoadRect)⟩ :: OL8 a0 a1 a2 a3 b00 b01 b10 b11 b20 b21 b30 b31
/-- After step 4, half 1. -/
def OL10 : List (View.Piece (Elt F) S1024x4096 .f32) :=
  ⟨RH1, k0_pay20 a4 b41 (ostg.readCov (OL9 a0 a1 a2 a3 a4 b00 b01 b10 b11 b20 b21 b30 b31 b40) RH1.toLoadRect)⟩ :: OL9 a0 a1 a2 a3 a4 b00 b01 b10 b11 b20 b21 b30 b31 b40
/-- After step 5, half 0. -/
def OL11 : List (View.Piece (Elt F) S1024x4096 .f32) :=
  ⟨RH0, k0_pay21 a5 b50 (ostg.readCov (OL10 a0 a1 a2 a3 a4 b00 b01 b10 b11 b20 b21 b30 b31 b40 b41) RH0.toLoadRect)⟩ :: OL10 a0 a1 a2 a3 a4 b00 b01 b10 b11 b20 b21 b30 b31 b40 b41
/-- After step 5, half 1. -/
def OL12 : List (View.Piece (Elt F) S1024x4096 .f32) :=
  ⟨RH1, k0_pay22 a5 b51 (ostg.readCov (OL11 a0 a1 a2 a3 a4 a5 b00 b01 b10 b11 b20 b21 b30 b31 b40 b41 b50) RH1.toLoadRect)⟩ :: OL11 a0 a1 a2 a3 a4 a5 b00 b01 b10 b11 b20 b21 b30 b31 b40 b41 b50
/-- After step 6, half 0. -/
def OL13 : List (View.Piece (Elt F) S1024x4096 .f32) :=
  ⟨RH0, k0_pay23 a6 b60 (ostg.readCov (OL12 a0 a1 a2 a3 a4 a5 b00 b01 b10 b11 b20 b21 b30 b31 b40 b41 b50 b51) RH0.toLoadRect)⟩ :: OL12 a0 a1 a2 a3 a4 a5 b00 b01 b10 b11 b20 b21 b30 b31 b40 b41 b50 b51
/-- After step 6, half 1. -/
def OL14 : List (View.Piece (Elt F) S1024x4096 .f32) :=
  ⟨RH1, k0_pay24 a6 b61 (ostg.readCov (OL13 a0 a1 a2 a3 a4 a5 a6 b00 b01 b10 b11 b20 b21 b30 b31 b40 b41 b50 b51 b60) RH1.toLoadRect)⟩ :: OL13 a0 a1 a2 a3 a4 a5 a6 b00 b01 b10 b11 b20 b21 b30 b31 b40 b41 b50 b51 b60
/-- Quarter 0 of half 0 at step 7. -/
def OL15 : List (View.Piece (Elt F) S1024x4096 .f32) :=
  ⟨RQ0, k0_pay26 a7 b70 (ostg.readCov (OL14 a0 a1 a2 a3 a4 a5 a6 b00 b01 b10 b11 b20 b21 b30 b31 b40 b41 b50 b51 b60 b61) RQ0.toLoadRect)⟩ :: OL14 a0 a1 a2 a3 a4 a5 a6 b00 b01 b10 b11 b20 b21 b30 b31 b40 b41 b50 b51 b60 b61
/-- Quarter 1 of half 0: the last product handed over whole. -/
def OL16 : List (View.Piece (Elt F) S1024x4096 .f32) :=
  ⟨RQ1, k0_pay27 (k0_pay25 a7 b70) (ostg.readCov (OL15 a0 a1 a2 a3 a4 a5 a6 a7 b00 b01 b10 b11 b20 b21 b30 b31 b40 b41 b50 b51 b60 b61 b70) RQ1.toLoadRect)⟩ :: OL15 a0 a1 a2 a3 a4 a5 a6 a7 b00 b01 b10 b11 b20 b21 b30 b31 b40 b41 b50 b51 b60 b61 b70
/-- Quarter 0 of half 1. -/
def OL17 : List (View.Piece (Elt F) S1024x4096 .f32) :=
  ⟨RQ2, k0_pay29 a7 b71 (ostg.readCov (OL16 a0 a1 a2 a3 a4 a5 a6 a7 b00 b01 b10 b11 b20 b21 b30 b31 b40 b41 b50 b51 b60 b61 b70) RQ2.toLoadRect)⟩ :: OL16 a0 a1 a2 a3 a4 a5 a6 a7 b00 b01 b10 b11 b20 b21 b30 b31 b40 b41 b50 b51 b60 b61 b70
/-- Quarter 1 of half 1: all eighteen stores, newest first. -/
def OL18 : List (View.Piece (Elt F) S1024x4096 .f32) :=
  ⟨RQ3, k0_pay30 a7 b71 (ostg.readCov (OL17 a0 a1 a2 a3 a4 a5 a6 a7 b00 b01 b10 b11 b20 b21 b30 b31 b40 b41 b50 b51 b60 b61 b70 b71) RQ3.toLoadRect)⟩ :: OL17 a0 a1 a2 a3 a4 a5 a6 a7 b00 b01 b10 b11 b20 b21 b30 b31 b40 b41 b50 b51 b60 b61 b70 b71

end Lists

end Cert.Kernel.A2A

end
-- ==== Proof.Bits.OutConv.lean ====
import proofs.«900489_g7700000000000490_dist_a2a_gemm_m8192_k8192_n4096_f32_gelu_v7x_i8_1_alg».proof.Proof.Bits.OutList

/-!
# The buffer the body leaves is the device's result

A read of the result buffer at column `2048 h + 1024 q + j` meets the store of quarter `q` of half `h`
first among the eighteen; what that store wrote is quarter `q` of half `h` of the device's result,
because every read-back of a column half returns the running sum the chain of steps defines: a store
through one half leaves the other half as it was, and a read through the newest store's own rectangle
returns what it wrote.  Every step looks through exactly one store.
-/

noncomputable section

namespace Cert.Kernel.A2A

open Cert.Kernel Cert.Kernel.Gen Cert.Kernel.Ring8
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## Reading a list of stores through a rectangle -/

section Canon

/-- A covered load is the canonical contents read through the load's rectangle. -/
theorem readCov_ld (L : List (View.Piece (Elt F) S1024x4096 .f32)) (r : Rect S1024x4096) :
    ostg.readCov L r.toLoadRect = View.ld (View.canon L) r :=
  View.readCov_eq_canon' ostg L r.toLoadRect

/-- Through the newest store's own rectangle: what it wrote. -/
theorem ld_cons_self (L : List (View.Piece (Elt F) S1024x4096 .f32)) (r : Rect S1024x4096) (w : r.shape.Idx → Elt F .f32) :
    View.ld (View.canon ((⟨r, w⟩ : View.Piece (Elt F) S1024x4096 .f32) :: L)) r = w :=
  funext fun x => View.canon_cons_emb r w L x

/-- Through a rectangle the newest store misses: what the older stores left. -/
theorem ld_cons_disjoint (r : Rect S1024x4096) (w : r.shape.Idx → Elt F .f32) (L : List (View.Piece (Elt F) S1024x4096 .f32))
    (r' : Rect S1024x4096) (h : Disjoint r.set r'.set) :
    View.ld (View.canon ((⟨r, w⟩ : View.Piece (Elt F) S1024x4096 .f32) :: L)) r' = View.ld (View.canon L) r' :=
  funext fun x => View.canon_cons_of_not_mem (⟨r, w⟩ : View.Piece (Elt F) S1024x4096 .f32) L
    (Finset.disjoint_right.mp h (r'.toLoadRect.idx_mem x))

theorem disj_H0_H1 : Disjoint RH0.set RH1.set := Rect.unit_disjoint (1 : Fin 2) (Or.inl (by decide))
theorem disj_H1_H0 : Disjoint RH1.set RH0.set := Rect.unit_disjoint (1 : Fin 2) (Or.inr (by decide))

theorem disj_Q0_Q1 : Disjoint RQ0.set RQ1.set := Rect.unit_disjoint (1 : Fin 2) (Or.inl (by decide))
theorem disj_Q0_Q2 : Disjoint RQ0.set RQ2.set := Rect.unit_disjoint (1 : Fin 2) (Or.inl (by decide))
theorem disj_Q0_Q3 : Disjoint RQ0.set RQ3.set := Rect.unit_disjoint (1 : Fin 2) (Or.inl (by decide))
theorem disj_Q1_Q0 : Disjoint RQ1.set RQ0.set := Rect.unit_disjoint (1 : Fin 2) (Or.inr (by decide))
theorem disj_Q1_Q2 : Disjoint RQ1.set RQ2.set := Rect.unit_disjoint (1 : Fin 2) (Or.inl (by decide))
theorem disj_Q1_Q3 : Disjoint RQ1.set RQ3.set := Rect.unit_disjoint (1 : Fin 2) (Or.inl (by decide))
theorem disj_Q2_Q0 : Disjoint RQ2.set RQ0.set := Rect.unit_disjoint (1 : Fin 2) (Or.inr (by decide))
theorem disj_Q2_Q1 : Disjoint RQ2.set RQ1.set := Rect.unit_disjoint (1 : Fin 2) (Or.inr (by decide))
theorem disj_Q2_Q3 : Disjoint RQ2.set RQ3.set := Rect.unit_disjoint (1 : Fin 2) (Or.inl (by decide))
theorem disj_Q3_Q0 : Disjoint RQ3.set RQ0.set := Rect.unit_disjoint (1 : Fin 2) (Or.inr (by decide))
theorem disj_Q3_Q1 : Disjoint RQ3.set RQ1.set := Rect.unit_disjoint (1 : Fin 2) (Or.inr (by decide))
theorem disj_Q3_Q2 : Disjoint RQ3.set RQ2.set := Rect.unit_disjoint (1 : Fin 2) (Or.inr (by decide))

/-- A quarter read through its rectangle is the matching 1024 columns of its half read through the half's. -/
theorem ld_cols (X : S1024x4096.Idx → Elt F .f32) (oq oh off : Nat) (hoff : off + 1024 ≤ 2048) (e : oq = oh + off)
    (inbq : ∀ a, (![0, oq] : Fin 2 → Nat) a + S1024x1024.size a ≤ S1024x4096.size a)
    (inbh : ∀ a, (![0, oh] : Fin 2 → Nat) a + S1024x2048.size a ≤ S1024x4096.size a) :
    (View.ld X (Rect.unit (s := S1024x4096) ![0, oq] S1024x1024.size inbq) : FVec F S1024x1024 .f32)
      = colsF (View.ld X (Rect.unit (s := S1024x4096) ![0, oh] S1024x2048.size inbh)) off hoff := by
  funext i
  refine congrArg X (funext fun a => Fin.ext ?_)
  match a with
  | ⟨0, _⟩ =>
    show 0 + 1 * (i 0).val = 0 + 1 * (i 0).val
    rfl
  | ⟨1, _⟩ =>
    show oq + 1 * (i 1).val = oh + 1 * (off + (i 1).val)
    omega

theorem ld_RQ0 (X : S1024x4096.Idx → Elt F .f32) : (View.ld X RQ0 : FVec F S1024x1024 .f32) = colsF (View.ld X RH0) 0 (by omega) :=
  ld_cols X 0 0 0 (by omega) rfl _ _
theorem ld_RQ1 (X : S1024x4096.Idx → Elt F .f32) : (View.ld X RQ1 : FVec F S1024x1024 .f32) = colsF (View.ld X RH0) 1024 (by omega) :=
  ld_cols X 1024 0 1024 (by omega) rfl _ _
theorem ld_RQ2 (X : S1024x4096.Idx → Elt F .f32) : (View.ld X RQ2 : FVec F S1024x1024 .f32) = colsF (View.ld X RH1) 0 (by omega) :=
  ld_cols X 2048 2048 0 (by omega) rfl _ _
theorem ld_RQ3 (X : S1024x4096.Idx → Elt F .f32) : (View.ld X RQ3 : FVec F S1024x1024 .f32) = colsF (View.ld X RH1) 1024 (by omega) :=
  ld_cols X 3072 2048 1024 (by omega) rfl _ _

end Canon

/-! ## Every read-back of a half returns the chain's running sum -/

section Invariant
variable (A : Fin 8 → Vec F S1x1024x1024 .bf16) (B : Fin 8 → Fin 2 → Vec F S1x1024x2048 .f32)

theorem H0_1 : View.ld (View.canon (OL1 (A 0) (B 0 0))) RH0 = accHF A B 0 0 := by
  unfold OL1
  exact ld_cons_self _ RH0 _
theorem H1_2 : View.ld (View.canon (OL2 (A 0) (B 0 0) (B 0 1))) RH1 = accHF A B 1 0 := by
  unfold OL2
  exact ld_cons_self _ RH1 _
theorem H0_2 : View.ld (View.canon (OL2 (A 0) (B 0 0) (B 0 1))) RH0 = accHF A B 0 0 := by
  unfold OL2
  exact (ld_cons_disjoint RH1 _ _ RH0 disj_H1_H0).trans (H0_1 A B)
theorem H0_3 : View.ld (View.canon (OL3 (A 0) (A 1) (B 0 0) (B 0 1) (B 1 0))) RH0 = accHF A B 0 1 := by
  unfold OL3
  refine (ld_cons_self _ RH0 _).trans ?_
  exact congrArg (k0_pay13 (k0_pay12 (A 1)) (B 1 0)) ((readCov_ld _ RH0).trans (H0_2 A B))
theorem H1_3 : View.ld (View.canon (OL3 (A 0) (A 1) (B 0 0) (B 0 1) (B 1 0))) RH1 = accHF A B 1 0 := by
  unfold OL3
  exact (ld_cons_disjoint RH0 _ _ RH1 disj_H0_H1).trans (H1_2 A B)
theorem H1_4 : View.ld (View.canon (OL4 (A 0) (A 1) (B 0 0) (B 0 1) (B 1 0) (B 1 1))) RH1 = accHF A B 1 1 := by
  unfold OL4
  refine (ld_cons_self _ RH1 _).trans ?_
  exact congrArg (k0_pay14 (A 1) (B 1 1)) ((readCov_ld _ RH1).trans (H1_3 A B))
theorem H0_4 : View.ld (View.canon (OL4 (A 0) (A 1) (B 0 0) (B 0 1) (B 1 0) (B 1 1))) RH0 = accHF A B 0 1 := by
  unfold OL4
  exact (ld_cons_disjoint RH1 _ _ RH0 disj_H1_H0).trans (H0_3 A B)
theorem H0_5 : View.ld (View.canon (OL5 (A 0) (A 1) (A 2) (B 0 0) (B 0 1) (B 1 0) (B 1 1) (B 2 0))) RH0 = accHF A B 0 2 := by
  unfold OL5
  refine (ld_cons_self _ RH0 _).trans ?_
  exact congrArg (k0_pay15 (A 2) (B 2 0)) ((readCov_ld _ RH0).trans (H0_4 A B))
theorem H1_5 : View.ld (View.canon (OL5 (A 0) (A 1) (A 2) (B 0 0) (B 0 1) (B 1 0) (B 1 1) (B 2 0))) RH1 = accHF A B 1 1 := by
  unfold OL5
  exact (ld_cons_disjoint RH0 _ _ RH1 disj_H0_H1).trans (H1_4 A B)
theorem H1_6 : View.ld (View.canon (OL6 (A 0) (A 1) (A 2) (B 0 0) (B 0 1) (B 1 0) (B 1 1) (B 2 0) (B 2 1))) RH1 = accHF A B 1 2 := by
  unfold OL6
  refine (ld_cons_self _ RH1 _).trans ?_
  exact congrArg (k0_pay16 (A 2) (B 2 1)) ((readCov_ld _ RH1).trans (H1_5 A B))
theorem H0_6 : View.ld (View.canon (OL6 (A 0) (A 1) (A 2) (B 0 0) (B 0 1) (B 1 0) (B 1 1) (B 2 0) (B 2 1))) RH0 = accHF A B 0 2 := by
  unfold OL6
  exact (ld_cons_disjoint RH1 _ _ RH0 disj_H1_H0).trans (H0_5 A B)
theorem H0_7 : View.ld (View.canon (OL7 (A 0) (A 1) (A 2) (A 3) (B 0 0) (B 0 1) (B 1 0) (B 1 1) (B 2 0) (B 2 1) (B 3 0))) RH0 = accHF A B 0 3 := by
  unfold OL7
  refine (ld_cons_self _ RH0 _).trans ?_
  exact congrArg (k0_pay17 (A 3) (B 3 0)) ((readCov_ld _ RH0).trans (H0_6 A B))
theorem H1_7 : View.ld (View.canon (OL7 (A 0) (A 1) (A 2) (A 3) (B 0 0) (B 0 1) (B 1 0) (B 1 1) (B 2 0) (B 2 1) (B 3 0))) RH1 = accHF A B 1 2 := by
  unfold OL7
  exact (ld_cons_disjoint RH0 _ _ RH1 disj_H0_H1).trans (H1_6 A B)
theorem H1_8 : View.ld (View.canon (OL8 (A 0) (A 1) (A 2) (A 3) (B 0 0) (B 0 1) (B 1 0) (B 1 1) (B 2 0) (B 2 1) (B 3 0) (B 3 1))) RH1 = accHF A B 1 3 := by
  unfold OL8
  refine (ld_cons_self _ RH1 _).trans ?_
  exact congrArg (k0_pay18 (A 3) (B 3 1)) ((readCov_ld _ RH1).trans (H1_7 A B))
theorem H0_8 : View.ld (View.canon (OL8 (A 0) (A 1) (A 2) (A 3) (B 0 0) (B 0 1) (B 1 0) (B 1 1) (B 2 0) (B 2 1) (B 3 0) (B 3 1))) RH0 = accHF A B 0 3 := by
  unfold OL8
  exact (ld_cons_disjoint RH1 _ _ RH0 disj_H1_H0).trans (H0_7 A B)
theorem H0_9 : View.ld (View.canon (OL9 (A 0) (A 1) (A 2) (A 3) (A 4) (B 0 0) (B 0 1) (B 1 0) (B 1 1) (B 2 0) (B 2 1) (B 3 0) (B 3 1) (B 4 0))) RH0 = accHF A B 0 4 := by
  unfold OL9
  refine (ld_cons_self _ RH0 _).trans ?_
  exact congrArg (k0_pay19 (A 4) (B 4 0)) ((readCov_ld _ RH0).trans (H0_8 A B))
theorem H1_9 : View.ld (View.canon (OL9 (A 0) (A 1) (A 2) (A 3) (A 4) (B 0 0) (B 0 1) (B 1 0) (B 1 1) (B 2 0) (B 2 1) (B 3 0) (B 3 1) (B 4 0))) RH1 = accHF A B 1 3 := by
  unfold OL9
  exact (ld_cons_disjoint RH0 _ _ RH1 disj_H0_H1).trans (H1_8 A B)
theorem H1_10 : View.ld (View.canon (OL10 (A 0) (A 1) (A 2) (A 3) (A 4) (B 0 0) (B 0 1) (B 1 0) (B 1 1) (B 2 0) (B 2 1) (B 3 0) (B 3 1) (B 4 0) (B 4 1))) RH1 = accHF A B 1 4 := by
  unfold OL10
  refine (ld_cons_self _ RH1 _).trans ?_
  exact congrArg (k0_pay20 (A 4) (B 4 1)) ((readCov_ld _ RH1).trans (H1_9 A B))
theorem H0_10 : View.ld (View.canon (OL10 (A 0) (A 1) (A 2) (A 3) (A 4) (B 0 0) (B 0 1) (B 1 0) (B 1 1) (B 2 0) (B 2 1) (B 3 0) (B 3 1) (B 4 0) (B 4 1))) RH0 = accHF A B 0 4 := by
  unfold OL10
  exact (ld_cons_disjoint RH1 _ _ RH0 disj_H1_H0).trans (H0_9 A B)
theorem H0_11 : View.ld (View.canon (OL11 (A 0) (A 1) (A 2) (A 3) (A 4) (A 5) (B 0 0) (B 0 1) (B 1 0) (B 1 1) (B 2 0) (B 2 1) (B 3 0) (B 3 1) (B 4 0) (B 4 1) (B 5 0))) RH0 = accHF A B 0 5 := by
  unfold OL11
  refine (ld_cons_self _ RH0 _).trans ?_
  exact congrArg (k0_pay21 (A 5) (B 5 0)) ((readCov_ld _ RH0).trans (H0_10 A B))
theorem H1_11 : View.ld (View.canon (OL11 (A 0) (A 1) (A 2) (A 3) (A 4) (A 5) (B 0 0) (B 0 1) (B 1 0) (B 1 1) (B 2 0) (B 2 1) (B 3 0) (B 3 1) (B 4 0) (B 4 1) (B 5 0))) RH1 = accHF A B 1 4 := by
  unfold OL11
  exact (ld_cons_disjoint RH0 _ _ RH1 disj_H0_H1).trans (H1_10 A B)
theorem H1_12 : View.ld (View.canon (OL12 (A 0) (A 1) (A 2) (A 3) (A 4) (A 5) (B 0 0) (B 0 1) (B 1 0) (B 1 1) (B 2 0) (B 2 1) (B 3 0) (B 3 1) (B 4 0) (B 4 1) (B 5 0) (B 5 1))) RH1 = accHF A B 1 5 := by
  unfold OL12
  refine (ld_cons_self _ RH1 _).trans ?_
  exact congrArg (k0_pay22 (A 5) (B 5 1)) ((readCov_ld _ RH1).trans (H1_11 A B))
theorem H0_12 : View.ld (View.canon (OL12 (A 0) (A 1) (A 2) (A 3) (A 4) (A 5) (B 0 0) (B 0 1) (B 1 0) (B 1 1) (B 2 0) (B 2 1) (B 3 0) (B 3 1) (B 4 0) (B 4 1) (B 5 0) (B 5 1))) RH0 = accHF A B 0 5 := by
  unfold OL12
  exact (ld_cons_disjoint RH1 _ _ RH0 disj_H1_H0).trans (H0_11 A B)
theorem H0_13 : View.ld (View.canon (OL13 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0))) RH0 = accHF A B 0 6 := by
  unfold OL13
  refine (ld_cons_self _ RH0 _).trans ?_
  exact congrArg (k0_pay23 (A 6) (B 6 0)) ((readCov_ld _ RH0).trans (H0_12 A B))
theorem H1_13 : View.ld (View.canon (OL13 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0))) RH1 = accHF A B 1 5 := by
  unfold OL13
  exact (ld_cons_disjoint RH0 _ _ RH1 disj_H0_H1).trans (H1_12 A B)
theorem H1_14 : View.ld (View.canon (OL14 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0) (B 6 1))) RH1 = accHF A B 1 6 := by
  unfold OL14
  refine (ld_cons_self _ RH1 _).trans ?_
  exact congrArg (k0_pay24 (A 6) (B 6 1)) ((readCov_ld _ RH1).trans (H1_13 A B))
theorem H0_14 : View.ld (View.canon (OL14 (A 0) (A 1) (A 2) (A 3) (A 4) (A 5) (A 6) (B 0 0) (B 0 1) (B 1 0) (B 1 1) (B 2 0) (B 2 1) (B 3 0) (B 3 1) (B 4 0) (B 4 1) (B 5 0) (B 5 1) (B 6 0) (B 6 1))) RH0 = accHF A B 0 6 := by
  unfold OL14
  exact (ld_cons_disjoint RH1 _ _ RH0 disj_H1_H0).trans (H0_13 A B)

/-! ## The four quarters -/

theorem Q0_15 : View.ld (View.canon (OL15 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ0 = quarterF A B 0 0 := by
  unfold OL15
  refine (ld_cons_self _ RQ0 _).trans ?_
  refine congrArg (k0_pay26 (A 7) (B 7 0)) ?_
  refine (readCov_ld _ RQ0).trans ((ld_RQ0 _).trans ?_)
  rw [H0_14 A B]
  rfl

theorem Q0_16 : View.ld (View.canon (OL16 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ0 = quarterF A B 0 0 := by
  unfold OL16
  exact (ld_cons_disjoint RQ1 _ _ RQ0 disj_Q1_Q0).trans (Q0_15 A B)

theorem Q1_16 : View.ld (View.canon (OL16 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0))) RQ1 = quarterF A B 0 1 := by
  unfold OL16
  refine (ld_cons_self _ RQ1 _).trans ?_
  refine congrArg (k0_pay27 (k0_pay25 (A 7) (B 7 0))) ?_
  refine (readCov_ld _ RQ1).trans ?_
  unfold OL15
  refine (ld_cons_disjoint RQ0 _ _ RQ1 disj_Q0_Q1).trans ((ld_RQ1 _).trans ?_)
  rw [H0_14 A B]
  rfl

theorem Q0_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ0 = quarterF A B 0 0 := by
  unfold OL17
  exact (ld_cons_disjoint RQ2 _ _ RQ0 disj_Q2_Q0).trans (Q0_16 A B)

theorem Q1_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ1 = quarterF A B 0 1 := by
  unfold OL17
  exact (ld_cons_disjoint RQ2 _ _ RQ1 disj_Q2_Q1).trans (Q1_16 A B)

theorem Q2_17 : View.ld (View.canon (OL17 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ2 = quarterF A B 1 0 := by
  unfold OL17
  refine (ld_cons_self _ RQ2 _).trans ?_
  refine congrArg (k0_pay29 (A 7) (B 7 1)) ?_
  refine (readCov_ld _ RQ2).trans ?_
  unfold OL16
  refine (ld_cons_disjoint RQ1 _ _ RQ2 disj_Q1_Q2).trans ?_
  unfold OL15
  refine (ld_cons_disjoint RQ0 _ _ RQ2 disj_Q0_Q2).trans ((ld_RQ2 _).trans ?_)
  rw [H1_14 A B]
  rfl

theorem Q0_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ0 = quarterF A B 0 0 := by
  unfold OL18
  exact (ld_cons_disjoint RQ3 _ _ RQ0 disj_Q3_Q0).trans (Q0_17 A B)

theorem Q1_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ1 = quarterF A B 0 1 := by
  unfold OL18
  exact (ld_cons_disjoint RQ3 _ _ RQ1 disj_Q3_Q1).trans (Q1_17 A B)

theorem Q2_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ2 = quarterF A B 1 0 := by
  unfold OL18
  exact (ld_cons_disjoint RQ3 _ _ RQ2 disj_Q3_Q2).trans (Q2_17 A B)

theorem Q3_18 : View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) RQ3 = quarterF A B 1 1 := by
  unfold OL18
  refine (ld_cons_self _ RQ3 _).trans ?_
  refine congrArg (k0_pay30 (A 7) (B 7 1)) ?_
  refine (readCov_ld _ RQ3).trans ?_
  unfold OL17
  refine (ld_cons_disjoint RQ2 _ _ RQ3 disj_Q2_Q3).trans ?_
  unfold OL16
  refine (ld_cons_disjoint RQ1 _ _ RQ3 disj_Q1_Q3).trans ?_
  unfold OL15
  refine (ld_cons_disjoint RQ0 _ _ RQ3 disj_Q0_Q3).trans ((ld_RQ3 _).trans ?_)
  rw [H1_14 A B]
  rfl

/-- What the eighteen stores leave at column `2048 h + 1024 q + j`: quarter `q` of half `h`. -/
theorem canon18_apply (h q : Fin 2) (r j : Fin 1024) :
    View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)) (ix2 r (ocol h q j)) = quarterF A B h q (ix2 r j) := by
  have key : ∀ (R : Rect S1024x4096) (Y : R.shape.Idx → Elt F .f32) (x : R.shape.Idx), View.ld (View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1))) R = Y →
      ∀ y : S1024x4096.Idx, y = R.toLoadRect.idx x → View.canon (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)) y = Y x := by
    intro R Y x hY y hy
    rw [hy]
    exact congrFun hY x
  match h, q with
  | ⟨0, _⟩, ⟨0, _⟩ =>
    refine key RQ0 (quarterF A B 0 0) (ix2 r j) (Q0_18 A B) _ (funext fun a => Fin.ext ?_)
    match a with
    | ⟨0, _⟩ => show r.val = 0 + 1 * r.val; omega
    | ⟨1, _⟩ => show 2048 * 0 + 1024 * 0 + j.val = 0 + 1 * j.val; omega
  | ⟨0, _⟩, ⟨1, _⟩ =>
    refine key RQ1 (quarterF A B 0 1) (ix2 r j) (Q1_18 A B) _ (funext fun a => Fin.ext ?_)
    match a with
    | ⟨0, _⟩ => show r.val = 0 + 1 * r.val; omega
    | ⟨1, _⟩ => show 2048 * 0 + 1024 * 1 + j.val = 1024 + 1 * j.val; omega
  | ⟨1, _⟩, ⟨0, _⟩ =>
    refine key RQ2 (quarterF A B 1 0) (ix2 r j) (Q2_18 A B) _ (funext fun a => Fin.ext ?_)
    match a with
    | ⟨0, _⟩ => show r.val = 0 + 1 * r.val; omega
    | ⟨1, _⟩ => show 2048 * 1 + 1024 * 0 + j.val = 2048 + 1 * j.val; omega
  | ⟨1, _⟩, ⟨1, _⟩ =>
    refine key RQ3 (quarterF A B 1 1) (ix2 r j) (Q3_18 A B) _ (funext fun a => Fin.ext ?_)
    match a with
    | ⟨0, _⟩ => show r.val = 0 + 1 * r.val; omega
    | ⟨1, _⟩ => show 2048 * 1 + 1024 * 1 + j.val = 3072 + 1 * j.val; omega

/-- An entry whose column lies in a quarter's range lies in the quarter's rectangle. -/
theorem mem_RQ (r : Fin 1024) (o : Nat) (inb : ∀ a, (![0, o] : Fin 2 → Nat) a + S1024x1024.size a ≤ S1024x4096.size a) (J : Fin 4096)
    (h1 : o ≤ J.val) (h2 : J.val < o + 1024) :
    (ix2 r J : S1024x4096.Idx) ∈ (Rect.unit (s := S1024x4096) ![0, o] S1024x1024.size inb).set := by
  refine Rect.mem_set_unit.mpr fun a => ?_
  match a with
  | ⟨0, _⟩ => exact ⟨Nat.zero_le _, by show r.val < 0 + 1024; omega⟩
  | ⟨1, _⟩ => exact ⟨h1, h2⟩

theorem cover_00 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 0 0 j) : S1024x4096.Idx) ∈ p.1.set := by
  unfold OL18 OL17 OL16 OL15
  refine ⟨_, List.mem_cons_of_mem _ (List.mem_cons_of_mem _ (List.mem_cons_of_mem _ List.mem_cons_self)), ?_⟩
  exact mem_RQ r 0 inb_S1024x4096_S1024x1024_0_0 (ocol 0 0 j) (by show 0 ≤ 2048 * 0 + 1024 * 0 + j.val; omega) (by show 2048 * 0 + 1024 * 0 + j.val < 0 + 1024; omega)

theorem cover_01 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 0 1 j) : S1024x4096.Idx) ∈ p.1.set := by
  unfold OL18 OL17 OL16
  refine ⟨_, List.mem_cons_of_mem _ (List.mem_cons_of_mem _ List.mem_cons_self), ?_⟩
  exact mem_RQ r 1024 inb_S1024x4096_S1024x1024_0_1024 (ocol 0 1 j) (by show 1024 ≤ 2048 * 0 + 1024 * 1 + j.val; omega) (by show 2048 * 0 + 1024 * 1 + j.val < 1024 + 1024; omega)

theorem cover_10 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 1 0 j) : S1024x4096.Idx) ∈ p.1.set := by
  unfold OL18 OL17
  refine ⟨_, List.mem_cons_of_mem _ List.mem_cons_self, ?_⟩
  exact mem_RQ r 2048 inb_S1024x4096_S1024x1024_0_2048 (ocol 1 0 j) (by show 2048 ≤ 2048 * 1 + 1024 * 0 + j.val; omega) (by show 2048 * 1 + 1024 * 0 + j.val < 2048 + 1024; omega)

theorem cover_11 (r j : Fin 1024) : ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol 1 1 j) : S1024x4096.Idx) ∈ p.1.set := by
  unfold OL18
  refine ⟨_, List.mem_cons_self, ?_⟩
  exact mem_RQ r 3072 inb_S1024x4096_S1024x1024_0_3072 (ocol 1 1 j) (by show 3072 ≤ 2048 * 1 + 1024 * 1 + j.val; omega) (by show 2048 * 1 + 1024 * 1 + j.val < 3072 + 1024; omega)

/-- Every entry of the buffer lies under one of the four quarter stores. -/
theorem cover18 (h q : Fin 2) (r j : Fin 1024) :
    ∃ p ∈ (OL18 (A 0) (A 1) (A 2) (A 3) (A 4) (A 5) (A 6) (A 7) (B 0 0) (B 0 1) (B 1 0) (B 1 1) (B 2 0) (B 2 1) (B 3 0) (B 3 1) (B 4 0) (B 4 1) (B 5 0) (B 5 1) (B 6 0) (B 6 1) (B 7 0) (B 7 1)), (ix2 r (ocol h q j) : S1024x4096.Idx) ∈ p.1.set := by
  match h, q with
  | ⟨0, _⟩, ⟨0, _⟩ => exact cover_00 A B r j
  | ⟨0, _⟩, ⟨1, _⟩ => exact cover_01 A B r j
  | ⟨1, _⟩, ⟨0, _⟩ => exact cover_10 A B r j
  | ⟨1, _⟩, ⟨1, _⟩ => exact cover_11 A B r j

end Invariant

/-! ## The buffer the body leaves is the device's result -/

theorem col_split' (J : Fin 4096) : ∃ (h q : Fin 2) (j : Fin 1024), J = ocol h q j :=
  ⟨⟨J.val / 2048, by omega⟩, ⟨J.val % 2048 / 1024, by omega⟩, ⟨J.val % 1024, by omega⟩, Fin.ext (by simp only [ocol]; omega)⟩

variable (m : (ℓ : Loc nD τ sig) → Buf (Elt F) ℓ)

/-- Over any prior contents, the eighteen stores over the blocks the device multiplies leave `outAt`. -/
theorem writes18_eq_outAt (c : Dev nD) (fo : Buf (Elt F) ((c : Thread nD τ).loc cc0_stg0_0)) :
    ostg.writes (Elt F) fo (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) = outAt m c := by
  refine View.contents_ext ostg (fun y => ?_) (fun i hi => absurd rfl (hi i))
  obtain ⟨r, J, rfl⟩ : ∃ (r : Fin 1024) (J : Fin 4096), y = ix2 r J := ⟨y 0, y 1, eq_ix2 y⟩
  obtain ⟨h, q, j, rfl⟩ := col_split' J
  rw [View.read_writes_apply_eq_canon ostg fo (ix2 r (ocol h q j)) (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) (cover18 (Ablk m c) (Bblk m c) h q r j), canon18_apply (Ablk m c) (Bblk m c) h q r j]
  exact (outAt_apply m c h q r j).symm

local notation "𝕄" => MT nD τ sig Unit (Elt F) ℕ UU ℕ

/-- The result buffer as the body leaves it, held whole, is held at the device's result. -/
theorem out_convert (c : Dev nD) (fo g : Buf (Elt F) ((c : Thread nD τ).loc cc0_stg0_0))
    (a0 a1 a2 a3 a4 a5 a6 a7 : Vec F S1x1024x1024 .bf16) (b00 b01 b10 b11 b20 b21 b30 b31 b40 b41 b50 b51 b60 b61 b70 b71 : Vec F S1x1024x2048 .f32)
    (ha0 : a0 = Ablk m c 0)
    (ha1 : a1 = Ablk m c 1)
    (ha2 : a2 = Ablk m c 2)
    (ha3 : a3 = Ablk m c 3)
    (ha4 : a4 = Ablk m c 4)
    (ha5 : a5 = Ablk m c 5)
    (ha6 : a6 = Ablk m c 6)
    (ha7 : a7 = Ablk m c 7)
    (hb00 : b00 = Bblk m c 0 0)
    (hb01 : b01 = Bblk m c 0 1)
    (hb10 : b10 = Bblk m c 1 0)
    (hb11 : b11 = Bblk m c 1 1)
    (hb20 : b20 = Bblk m c 2 0)
    (hb21 : b21 = Bblk m c 2 1)
    (hb30 : b30 = Bblk m c 3 0)
    (hb31 : b31 = Bblk m c 3 1)
    (hb40 : b40 = Bblk m c 4 0)
    (hb41 : b41 = Bblk m c 4 1)
    (hb50 : b50 = Bblk m c 5 0)
    (hb51 : b51 = Bblk m c 5 1)
    (hb60 : b60 = Bblk m c 6 0)
    (hb61 : b61 = Bblk m c 6 1)
    (hb70 : b70 = Bblk m c 7 0)
    (hb71 : b71 = Bblk m c 7 1)
    (hg : g = (Memref.whole cc0_stg0_0 : Memref sig .tc .vmem S1024x4096 .f32).view.writes (Elt F) fo (OL18 a0 a1 a2 a3 a4 a5 a6 a7 b00 b01 b10 b11 b20 b21 b30 b31 b40 b41 b50 b51 b60 b61 b70 b71)) :
    (((Memref.whole cc0_stg0_0 : Memref sig .tc .vmem S1024x4096 .f32).view.loc (c : Thread nD τ) ↦{fullShare} g : sProp 𝕄)
      ⊢ ((Memref.whole cc0_stg0_0 : Memref sig .tc .vmem S1024x4096 .f32).view.loc (c : Thread nD τ) ↦{fullShare} outAt m c)) := by
  subst ha0 ha1 ha2 ha3 ha4 ha5 ha6 ha7 hb00 hb01 hb10 hb11 hb20 hb21 hb30 hb31 hb40 hb41 hb50 hb51 hb60 hb61 hb70 hb71
  rw [hg]
  rw [show (Memref.whole cc0_stg0_0 : Memref sig .tc .vmem S1024x4096 .f32).view.writes (Elt F) fo (OL18 (Ablk m c 0) (Ablk m c 1) (Ablk m c 2) (Ablk m c 3) (Ablk m c 4) (Ablk m c 5) (Ablk m c 6) (Ablk m c 7) (Bblk m c 0 0) (Bblk m c 0 1) (Bblk m c 1 0) (Bblk m c 1 1) (Bblk m c 2 0) (Bblk m c 2 1) (Bblk m c 3 0) (Bblk m c 3 1) (Bblk m c 4 0) (Bblk m c 4 1) (Bblk m c 5 0) (Bblk m c 5 1) (Bblk m c 6 0) (Bblk m c 6 1) (Bblk m c 7 0) (Bblk m c 7 1)) = outAt m c from writes18_eq_outAt m c fo]

end Cert.Kernel.A2A

/-- info: 'Cert.Kernel.A2A.out_convert' depends on axioms: [propext, Classical.choice, Quot.sound] -/
#guard_msgs in
#print axioms Cert.Kernel.A2A.out_convert

end
-- ==== Proof.Bits.Body.lean ====
/-
  The body of the kernel on one device, from the state the launch hands it to the state it hands back, every
  array held by the blocks that move. In program order: seven signals, one to the barrier cell of each device
  ahead, each handing over the receive slot that device will fill; the device's own rows of x copied in and cast
  into receive slot 0; the wait for seven on its own barrier cell, which brings the seven slots of the devices
  behind; seven steps, each casting the rows of the device k behind into the bf16 array and sending that block
  into that device's slot k; sixteen matmul steps over the two column halves, step (t, h) multiplying slot t by the
  weight rows of the device t ahead, accumulating in the result buffer and applying the gelu at t = 7, the wait
  for slot t's landing placed before its first use; the seven waits that return the sent blocks. The remote
  statements are applied from the rounds rules by hand, one lemma per kind; everything local is run symbolically.
-/
import proofs.«900489_g7700000000000490_dist_a2a_gemm_m8192_k8192_n4096_f32_gelu_v7x_i8_1_alg».proof.Proof.Bits.BodyDefs
import proofs.«900489_g7700000000000490_dist_a2a_gemm_m8192_k8192_n4096_f32_gelu_v7x_i8_1_alg».proof.Proof.Bits.RoundsSteps
import proofs.«900489_g7700000000000490_dist_a2a_gemm_m8192_k8192_n4096_f32_gelu_v7x_i8_1_alg».proof.Proof.Bits.SendStep
import proofs.«900489_g7700000000000490_dist_a2a_gemm_m8192_k8192_n4096_f32_gelu_v7x_i8_1_alg».proof.Proof.Bits.Chain
import proofs.«900489_g7700000000000490_dist_a2a_gemm_m8192_k8192_n4096_f32_gelu_v7x_i8_1_alg».proof.Proof.Bits.GemmVals
import proofs.«900489_g7700000000000490_dist_a2a_gemm_m8192_k8192_n4096_f32_gelu_v7x_i8_1_alg».proof.Proof.Bits.OutList
import proofs.«900489_g7700000000000490_dist_a2a_gemm_m8192_k8192_n4096_f32_gelu_v7x_i8_1_alg».proof.Proof.Bits.OutConv
import proofs.«900489_g7700000000000490_dist_a2a_gemm_m8192_k8192_n4096_f32_gelu_v7x_i8_1_alg».proof.Proof.Bits.LaunchIdeal
import proofs.«900489_g7700000000000490_dist_a2a_gemm_m8192_k8192_n4096_f32_gelu_v7x_i8_1_alg».proof.Proof.Gen.Kernel.Points
import proofs.«900489_g7700000000000490_dist_a2a_gemm_m8192_k8192_n4096_f32_gelu_v7x_i8_1_alg».proof.Proof.Gen.Kernel.Frame

noncomputable section

namespace Cert.Kernel.A2A

open Cert.Kernel Cert.Kernel.Gen Cert.Kernel.Ring8
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 16000000 in
theorem body_pieces (K : GSem nD τ sig → ℕ) (c : Dev nD) (W : Waits sig Unit)
    (f16 : Buf (Elt F) ((c : Thread nD τ).loc main_v1_1)) (fr : Buf (Elt F) ((c : Thread nD τ).loc cc0_scratch0))
    (fwv : Buf (Elt F) ((c : Thread nD τ).loc cc0_scratch1)) (fc16 : Buf (Elt F) ((c : Thread nD τ).loc cc0_scratch2))
    (fo : Buf (Elt F) ((c : Thread nD τ).loc cc0_stg0_0)) (Kt : PUnit → sProp 𝕄) :
    iprop(preS m K c W f16 fr fwv fc16 fo ∗ (postS m c -∗ Kt ⟨⟩))
      ⊢ wp frame (wpE (defs₀ (F := F)) 𝒱₀ c none) Set.univ
          (cc0_body (Memref.whole main_arg0) (Memref.isWhole_whole _) (Memref.whole main_arg1) (Memref.isWhole_whole _)
            (Memref.whole cc0_stg0_0) (Memref.isWhole_whole _) (Memref.whole main_v1_1) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scratch7) Kt := by
  unfold preS invs poss reacheds payToks creds idleSems
  iintro ⟨⟨⟨#Ibar, #Is0, #Is1, #Is2, #Is3, #Is4, #Is5, #Is6, #Ir0, #Ir1, #Ir2, #Ir3, #Ir4, #Ir5, #Ir6, #Ibf1, #Ibf2, #Ibf3, #Ibf4, #Ibf5, #Ibf6, #Ibf7, #Irb0, #Irb1, #Irb2, #Irb3, #Irb4, #Irb5, #Irb6⟩,
      ⟨Pbar, Ps0, Ps1, Ps2, Ps3, Ps4, Ps5, Ps6, Pr0, Pr1, Pr2, Pr3, Pr4, Pr5, Pr6⟩,
      ⟨#Rbf1, #Rbf2, #Rbf3, #Rbf4, #Rbf5, #Rbf6, #Rbf7, #Rrb0, #Rrb1, #Rrb2, #Rrb3, #Rrb4, #Rrb5, #Rrb6, #Rs0, #Rs1, #Rs2, #Rs3, #Rs4, #Rs5, #Rs6, #Rr0, #Rr1, #Rr2, #Rr3, #Rr4, #Rr5, #Rr6⟩,
      ⟨Tbf1, Tbf2, Tbf3, Tbf4, Tbf5, Tbf6, Tbf7, Trb0, Trb1, Trb2, Trb3, Trb4, Trb5, Trb6, Ts0, Ts1, Ts2, Ts3, Ts4, Ts5, Ts6⟩,
    ⟨Cbar, Cr0, Cr1, Cr2, Cr3, Cr4, Cr5, Cr6⟩,
    ⟨Z1, Z9, Z17, Z18, Z19, Z20, Z21⟩, #Hlev,
    Hx0, Hx1, Hx2, Hx3, Hx4, Hx5, Hx6, Hx7,
    Hw00, Hw01, Hw10, Hw11, Hw20, Hw21, Hw30, Hw31, Hw40, Hw41, Hw50, Hw51, Hw60, Hw61, Hw70, Hw71,
    Hb0, Hb1, Hb2, Hb3, Hb4, Hb5, Hb6,
    Hr1, Hr2, Hr3, Hr4, Hr5, Hr6, Hr7, Hr0, Hv0, Hvh0, Hv1, Hvh1, Hc16, HO, Hout⟩, Hk⟩
  -- set the protocol's tokens, positions and credits aside until the step that spends each
  ihave Tbf1 := held_intro _ $$ Tbf1; ihave Tbf2 := held_intro _ $$ Tbf2; ihave Tbf3 := held_intro _ $$ Tbf3; ihave Tbf4 := held_intro _ $$ Tbf4
  ihave Tbf5 := held_intro _ $$ Tbf5; ihave Tbf6 := held_intro _ $$ Tbf6; ihave Tbf7 := held_intro _ $$ Tbf7
  ihave Trb0 := held_intro _ $$ Trb0; ihave Trb1 := held_intro _ $$ Trb1; ihave Trb2 := held_intro _ $$ Trb2; ihave Trb3 := held_intro _ $$ Trb3
  ihave Trb4 := held_intro _ $$ Trb4; ihave Trb5 := held_intro _ $$ Trb5; ihave Trb6 := held_intro _ $$ Trb6
  ihave Ts0 := held_intro _ $$ Ts0; ihave Ts1 := held_intro _ $$ Ts1; ihave Ts2 := held_intro _ $$ Ts2; ihave Ts3 := held_intro _ $$ Ts3
  ihave Ts4 := held_intro _ $$ Ts4; ihave Ts5 := held_intro _ $$ Ts5; ihave Ts6 := held_intro _ $$ Ts6
  ihave Pbar := held_intro _ $$ Pbar
  ihave Ps0 := held_intro _ $$ Ps0; ihave Ps1 := held_intro _ $$ Ps1; ihave Ps2 := held_intro _ $$ Ps2; ihave Ps3 := held_intro _ $$ Ps3
  ihave Ps4 := held_intro _ $$ Ps4; ihave Ps5 := held_intro _ $$ Ps5; ihave Ps6 := held_intro _ $$ Ps6
  ihave Pr0 := held_intro _ $$ Pr0; ihave Pr1 := held_intro _ $$ Pr1; ihave Pr2 := held_intro _ $$ Pr2; ihave Pr3 := held_intro _ $$ Pr3
  ihave Pr4 := held_intro _ $$ Pr4; ihave Pr5 := held_intro _ $$ Pr5; ihave Pr6 := held_intro _ $$ Pr6
  ihave Cbar := held_intro _ $$ Cbar
  ihave Cr0 := held_intro _ $$ Cr0; ihave Cr1 := held_intro _ $$ Cr1; ihave Cr2 := held_intro _ $$ Cr2; ihave Cr3 := held_intro _ $$ Cr3
  ihave Cr4 := held_intro _ $$ Cr4; ihave Cr5 := held_intro _ $$ Cr5; ihave Cr6 := held_intro _ $$ Cr6
  have hmwl : ∀ (sm : SemLoc sig) (O : CellTallies nD τ sig Unit), lv ((c : Thread nD τ), sm) () = 0 → AtLeast 1 O →
      ((levAts L lv : sProp 𝕄) ⊢ MayWait (c : Thread nD τ) sm () O) := fun sm O h1 h2 => mayWait_low c sm h1 O h2
  have hA0 : AtLeast 1 (OR0 c) := atLeast_mono (by decide) (atLeast_OR0 c)
  have hA1 : AtLeast 1 (OR1 c) := atLeast_mono (by decide) (atLeast_OR1 c)
  have hA2 : AtLeast 1 (OR2 c) := atLeast_mono (by decide) (atLeast_OR2 c)
  have hA3 : AtLeast 1 (OR3 c) := atLeast_mono (by decide) (atLeast_OR3 c)
  have hA4 : AtLeast 1 (OR4 c) := atLeast_mono (by decide) (atLeast_OR4 c)
  have hA5 : AtLeast 1 (OR5 c) := atLeast_mono (by decide) (atLeast_OR5 c)
  have hA6 : AtLeast 1 (OR6 c) := atLeast_mono (by decide) (atLeast_OR6 c)
  sl_exec_parts
  -- the signal to the device 1 ahead: duty 0 of its barrier cell, handing over this device's receive slot 1
  ihave T := held_elim $$ Tbf1
  iapply (wp_signal_step m K 𝒱₀ none (0 : Fin 7) c (fwd 1 c) rfl fr (OB2 c) rfl W) $$ [HO T Hr1]
  · isplitr; · iexact Ibf1
    isplitl [HO]; · iexact HO
    isplitl [T]; · iexact T
    isplitl [Hr1]; · iexact Hr1
    isplitr; · iexact Rr0
    iexact Rbf1
  iintro HO
  sl_exec_parts
  -- the signal to the device 2 ahead: duty 1 of its barrier cell, handing over this device's receive slot 2
  ihave T := held_elim $$ Tbf2
  iapply (wp_signal_step m K 𝒱₀ none (1 : Fin 7) c (fwd 2 c) rfl fr (OB3 c) rfl W) $$ [HO T Hr2]
  · isplitr; · iexact Ibf2
    isplitl [HO]; · iexact HO
    isplitl [T]; · iexact T
    isplitl [Hr2]; · iexact Hr2
    isplitr; · iexact Rr1
    iexact Rbf2
  iintro HO
  sl_exec_parts
  -- the signal to the device 3 ahead: duty 2 of its barrier cell, handing over this device's receive slot 3
  ihave T := held_elim $$ Tbf3
  iapply (wp_signal_step m K 𝒱₀ none (2 : Fin 7) c (fwd 3 c) rfl fr (OB4 c) rfl W) $$ [HO T Hr3]
  · isplitr; · iexact Ibf3
    isplitl [HO]; · iexact HO
    isplitl [T]; · iexact T
    isplitl [Hr3]; · iexact Hr3
    isplitr; · iexact Rr2
    iexact Rbf3
  iintro HO
  sl_exec_parts
  -- the signal to the device 4 ahead: duty 3 of its barrier cell, handing over this device's receive slot 4
  ihave T := held_elim $$ Tbf4
  iapply (wp_signal_step m K 𝒱₀ none (3 : Fin 7) c (fwd 4 c) rfl fr (OB5 c) rfl W) $$ [HO T Hr4]
  · isplitr; · iexact Ibf4
    isplitl [HO]; · iexact HO
    isplitl [T]; · iexact T
    isplitl [Hr4]; · iexact Hr4
    isplitr; · iexact Rr3
    iexact Rbf4
  iintro HO
  sl_exec_parts
  -- the signal to the device 5 ahead: duty 4 of its barrier cell, handing over this device's receive slot 5
  ihave T := held_elim $$ Tbf5
  iapply (wp_signal_step m K 𝒱₀ none (4 : Fin 7) c (fwd 5 c) rfl fr (OB6 c) rfl W) $$ [HO T Hr5]
  · isplitr; · iexact Ibf5
    isplitl [HO]; · iexact HO
    isplitl [T]; · iexact T
    isplitl [Hr5]; · iexact Hr5
    isplitr; · iexact Rr4
    iexact Rbf5
  iintro HO
  sl_exec_parts
  -- the signal to the device 6 ahead: duty 5 of its barrier cell, handing over this device's receive slot 6
  ihave T := held_elim $$ Tbf6
  iapply (wp_signal_step m K 𝒱₀ none (5 : Fin 7) c (fwd 6 c) rfl fr (OB7 c) rfl W) $$ [HO T Hr6]
  · isplitr; · iexact Ibf6
    isplitl [HO]; · iexact HO
    isplitl [T]; · iexact T
    isplitl [Hr6]; · iexact Hr6
    isplitr; · iexact Rr5
    iexact Rbf6
  iintro HO
  sl_exec_parts
  -- the signal to the device 7 ahead: duty 6 of its barrier cell, handing over this device's receive slot 7
  ihave T := held_elim $$ Tbf7
  iapply (wp_signal_step m K 𝒱₀ none (6 : Fin 7) c (fwd 7 c) rfl fr (OR0 c) rfl W) $$ [HO T Hr7]
  · isplitr; · iexact Ibf7
    isplitl [HO]; · iexact HO
    isplitl [T]; · iexact T
    isplitl [Hr7]; · iexact Hr7
    isplitr; · iexact Rr6
    iexact Rbf7
  iintro HO
  sl_exec_parts
  -- the barrier wait, owing the seven receive credits: the seven peers' slots come with it
  ihave Cb := held_elim _ $$ Cbar
  ihave Pb := held_elim _ $$ Pbar
  iapply (wp_bar_wait m K 𝒱₀ none c (OR0 c) (mayWait_bar c (OR0 c) (atLeast_OR0 c)) _ (Set.mem_univ _)) $$ [Cb HO Pb]
  · isplitr; · iexact Ibar
    isplitl [Cb]; · iexact Cb
    isplitl [HO]; · iexact HO
    isplitr; · iexact Hlev
    iexact Pb
  iintro ⟨HO, Pb, ⟨⟨%g1, Hq1⟩, #Rq1⟩, ⟨⟨%g2, Hq2⟩, #Rq2⟩, ⟨⟨%g3, Hq3⟩, #Rq3⟩, ⟨⟨%g4, Hq4⟩, #Rq4⟩, ⟨⟨%g5, Hq5⟩, #Rq5⟩, ⟨⟨%g6, Hq6⟩, #Rq6⟩, ⟨⟨%g7, Hq7⟩, #Rq7⟩⟩
  sl_exec_parts
  -- this device's own rows, cast: receive slot 0 holds what the landing contents say it holds
  ihave Hr0 := (slot0_step' m c _ _ _ _ (by rfl)) $$ Hr0
  -- step 1: the bf16 copy of the rows of the device 1 behind goes into that device's receive slot 1
  ihave Hb := (x16_step1' m c _ _ _ _ _ _ (by rfl)) $$ Hb0
  ihave Tsd := held_elim _ $$ Ts0
  ihave Trv := held_elim _ $$ Trb0
  iapply (wp_send_step m K 𝒱₀ none (0 : Fin 7) c _ (dev8_eq c) g1 (OR1 c) rfl _) $$ [Hb Hq1 HO Tsd Trv]
  · isplitr; · iexact Is0
    isplitr; · iexact Irb0
    isplitl [Hb]; · iexact Hb
    isplitl [Hq1]; · iexact Hq1
    isplitl [HO]; · iexact HO
    isplitl [Tsd]; · iexact Tsd
    isplitr; · iexact Rs0
    isplitl [Trv]; · iexact Trv
    iexact Rrb0
  iintro ⟨Csd0, HO⟩
  ihave Csd0 := held_intro _ $$ Csd0
  sl_exec_parts
  -- step 2: the bf16 copy of the rows of the device 2 behind goes into that device's receive slot 2
  ihave Hb := (x16_step2' m c _ _ _ _ _ _ (by rfl)) $$ Hb1
  ihave Tsd := held_elim _ $$ Ts1
  ihave Trv := held_elim _ $$ Trb1
  iapply (wp_send_step m K 𝒱₀ none (1 : Fin 7) c _ (dev9_eq c) g2 (OR2 c) rfl _) $$ [Hb Hq2 HO Tsd Trv]
  · isplitr; · iexact Is1
    isplitr; · iexact Irb1
    isplitl [Hb]; · iexact Hb
    isplitl [Hq2]; · iexact Hq2
    isplitl [HO]; · iexact HO
    isplitl [Tsd]; · iexact Tsd
    isplitr; · iexact Rs1
    isplitl [Trv]; · iexact Trv
    iexact Rrb1
  iintro ⟨Csd1, HO⟩
  ihave Csd1 := held_intro _ $$ Csd1
  sl_exec_parts
  -- step 3: the bf16 copy of the rows of the device 3 behind goes into that device's receive slot 3
  ihave Hb := (x16_step3' m c _ _ _ _ _ _ (by rfl)) $$ Hb2
  ihave Tsd := held_elim _ $$ Ts2
  ihave Trv := held_elim _ $$ Trb2
  iapply (wp_send_step m K 𝒱₀ none (2 : Fin 7) c _ (dev10_eq c) g3 (OR3 c) rfl _) $$ [Hb Hq3 HO Tsd Trv]
  · isplitr; · iexact Is2
    isplitr; · iexact Irb2
    isplitl [Hb]; · iexact Hb
    isplitl [Hq3]; · iexact Hq3
    isplitl [HO]; · iexact HO
    isplitl [Tsd]; · iexact Tsd
    isplitr; · iexact Rs2
    isplitl [Trv]; · iexact Trv
    iexact Rrb2
  iintro ⟨Csd2, HO⟩
  ihave Csd2 := held_intro _ $$ Csd2
  sl_exec_parts
  -- step 4: the bf16 copy of the rows of the device 4 behind goes into that device's receive slot 4
  ihave Hb := (x16_step4' m c _ _ _ _ _ _ (by rfl)) $$ Hb3
  ihave Tsd := held_elim _ $$ Ts3
  ihave Trv := held_elim _ $$ Trb3
  iapply (wp_send_step m K 𝒱₀ none (3 : Fin 7) c _ (dev11_eq c) g4 (OR4 c) rfl _) $$ [Hb Hq4 HO Tsd Trv]
  · isplitr; · iexact Is3
    isplitr; · iexact Irb3
    isplitl [Hb]; · iexact Hb
    isplitl [Hq4]; · iexact Hq4
    isplitl [HO]; · iexact HO
    isplitl [Tsd]; · iexact Tsd
    isplitr; · iexact Rs3
    isplitl [Trv]; · iexact Trv
    iexact Rrb3
  iintro ⟨Csd3, HO⟩
  ihave Csd3 := held_intro _ $$ Csd3
  sl_exec_parts
  -- step 5: the bf16 copy of the rows of the device 5 behind goes into that device's receive slot 5
  ihave Hb := (x16_step5' m c _ _ _ _ _ _ (by rfl)) $$ Hb4
  ihave Tsd := held_elim _ $$ Ts4
  ihave Trv := held_elim _ $$ Trb4
  iapply (wp_send_step m K 𝒱₀ none (4 : Fin 7) c _ (dev12_eq c) g5 (OR5 c) rfl _) $$ [Hb Hq5 HO Tsd Trv]
  · isplitr; · iexact Is4
    isplitr; · iexact Irb4
    isplitl [Hb]; · iexact Hb
    isplitl [Hq5]; · iexact Hq5
    isplitl [HO]; · iexact HO
    isplitl [Tsd]; · iexact Tsd
    isplitr; · iexact Rs4
    isplitl [Trv]; · iexact Trv
    iexact Rrb4
  iintro ⟨Csd4, HO⟩
  ihave Csd4 := held_intro _ $$ Csd4
  sl_exec_parts
  -- step 6: the bf16 copy of the rows of the device 6 behind goes into that device's receive slot 6
  ihave Hb := (x16_step6' m c _ _ _ _ _ _ (by rfl)) $$ Hb5
  ihave Tsd := held_elim _ $$ Ts5
  ihave Trv := held_elim _ $$ Trb5
  iapply (wp_send_step m K 𝒱₀ none (5 : Fin 7) c _ (dev13_eq c) g6 (OR6 c) rfl _) $$ [Hb Hq6 HO Tsd Trv]
  · isplitr; · iexact Is5
    isplitr; · iexact Irb5
    isplitl [Hb]; · iexact Hb
    isplitl [Hq6]; · iexact Hq6
    isplitl [HO]; · iexact HO
    isplitl [Tsd]; · iexact Tsd
    isplitr; · iexact Rs5
    isplitl [Trv]; · iexact Trv
    iexact Rrb5
  iintro ⟨Csd5, HO⟩
  ihave Csd5 := held_intro _ $$ Csd5
  sl_exec_parts
  -- step 7: the bf16 copy of the rows of the device 7 behind goes into that device's receive slot 7
  ihave Hb := (x16_step7' m c _ _ _ _ _ _ (by rfl)) $$ Hb6
  ihave Tsd := held_elim _ $$ Ts6
  ihave Trv := held_elim _ $$ Trb6
  iapply (wp_send_step m K 𝒱₀ none (6 : Fin 7) c _ (dev14_eq c) g7 0 (zero_add _).symm _) $$ [Hb Hq7 HO Tsd Trv]
  · isplitr; · iexact Is6
    isplitr; · iexact Irb6
    isplitl [Hb]; · iexact Hb
    isplitl [Hq7]; · iexact Hq7
    isplitl [HO]; · iexact HO
    isplitl [Tsd]; · iexact Tsd
    isplitr; · iexact Rs6
    isplitl [Trv]; · iexact Trv
    iexact Rrb6
  iintro ⟨Csd6, HO⟩
  ihave Csd6 := held_intro _ $$ Csd6
  sl_exec_parts
  -- each plane of the f32 staging buffer again in one piece: the weight blocks fill whole planes
  ihave Hp0 := (v_plane_join c 0 _ _) $$ [Hv0 Hvh0]
  · isplitl [Hv0]; · iexact Hv0
    iexact Hvh0
  icases Hp0 with ⟨%h0, Hp0⟩
  ihave Hp1 := (v_plane_join c 1 _ _) $$ [Hv1 Hvh1]
  · isplitl [Hv1]; · iexact Hv1
    iexact Hvh1
  icases Hp1 with ⟨%h1, Hp1⟩
  sl_exec_parts
  -- the wait for the rows sent by the device 1 ahead: receive slot 1 now holds them
  ihave Crv := held_elim _ $$ Cr0
  ihave Prv := held_elim _ $$ Pr0
  iapply (wp_recv_wait_step m K 𝒱₀ none (0 : Fin 7) c _ (Set.mem_univ _)) $$ [Crv HO Prv]
  · isplitr; · iexact Ir0
    isplitl [Crv]; · iexact Crv
    isplitl [HO]; · iexact HO
    iexact Prv
  iintro ⟨HO, Hr1, Zr0⟩
  sl_exec_parts
  -- the wait for the rows sent by the device 2 ahead: receive slot 2 now holds them
  ihave Crv := held_elim _ $$ Cr1
  ihave Prv := held_elim _ $$ Pr1
  iapply (wp_recv_wait_step m K 𝒱₀ none (1 : Fin 7) c _ (Set.mem_univ _)) $$ [Crv HO Prv]
  · isplitr; · iexact Ir1
    isplitl [Crv]; · iexact Crv
    isplitl [HO]; · iexact HO
    iexact Prv
  iintro ⟨HO, Hr2, Zr1⟩
  sl_exec_parts
  -- the wait for the rows sent by the device 3 ahead: receive slot 3 now holds them
  ihave Crv := held_elim _ $$ Cr2
  ihave Prv := held_elim _ $$ Pr2
  iapply (wp_recv_wait_step m K 𝒱₀ none (2 : Fin 7) c _ (Set.mem_univ _)) $$ [Crv HO Prv]
  · isplitr; · iexact Ir2
    isplitl [Crv]; · iexact Crv
    isplitl [HO]; · iexact HO
    iexact Prv
  iintro ⟨HO, Hr3, Zr2⟩
  sl_exec_parts
  -- the wait for the rows sent by the device 4 ahead: receive slot 4 now holds them
  ihave Crv := held_elim _ $$ Cr3
  ihave Prv := held_elim _ $$ Pr3
  iapply (wp_recv_wait_step m K 𝒱₀ none (3 : Fin 7) c _ (Set.mem_univ _)) $$ [Crv HO Prv]
  · isplitr; · iexact Ir3
    isplitl [Crv]; · iexact Crv
    isplitl [HO]; · iexact HO
    iexact Prv
  iintro ⟨HO, Hr4, Zr3⟩
  sl_exec_parts
  -- the wait for the rows sent by the device 5 ahead: receive slot 5 now holds them
  ihave Crv := held_elim _ $$ Cr4
  ihave Prv := held_elim _ $$ Pr4
  iapply (wp_recv_wait_step m K 𝒱₀ none (4 : Fin 7) c _ (Set.mem_univ _)) $$ [Crv HO Prv]
  · isplitr; · iexact Ir4
    isplitl [Crv]; · iexact Crv
    isplitl [HO]; · iexact HO
    iexact Prv
  iintro ⟨HO, Hr5, Zr4⟩
  sl_exec_parts
  -- the wait for the rows sent by the device 6 ahead: receive slot 6 now holds them
  ihave Crv := held_elim _ $$ Cr5
  ihave Prv := held_elim _ $$ Pr5
  iapply (wp_recv_wait_step m K 𝒱₀ none (5 : Fin 7) c _ (Set.mem_univ _)) $$ [Crv HO Prv]
  · isplitr; · iexact Ir5
    isplitl [Crv]; · iexact Crv
    isplitl [HO]; · iexact HO
    iexact Prv
  iintro ⟨HO, Hr6, Zr5⟩
  sl_exec_parts
  -- the wait for the rows sent by the device 7 ahead: receive slot 7 now holds them
  ihave Crv := held_elim _ $$ Cr6
  ihave Prv := held_elim _ $$ Pr6
  iapply (wp_recv_wait_step m K 𝒱₀ none (6 : Fin 7) c _ (Set.mem_univ _)) $$ [Crv HO Prv]
  · isplitr; · iexact Ir6
    isplitl [Crv]; · iexact Crv
    isplitl [HO]; · iexact HO
    iexact Prv
  iintro ⟨HO, Hr7, Zr6⟩
  sl_exec_parts
  -- the wait on send semaphore 1: the sent block is this device's again
  ihave Csd := held_elim _ $$ Csd0
  ihave Psd := held_elim _ $$ Ps0
  iapply (wp_send_wait_step m K 𝒱₀ none (0 : Fin 7) c _ (Set.mem_univ _)) $$ [Csd HO Psd]
  · isplitr; · iexact Is0
    isplitl [Csd]; · iexact Csd
    isplitl [HO]; · iexact HO
    iexact Psd
  iintro ⟨HO, Hb0, Zs0⟩
  sl_exec_parts
  -- the wait on send semaphore 2: the sent block is this device's again
  ihave Csd := held_elim _ $$ Csd1
  ihave Psd := held_elim _ $$ Ps1
  iapply (wp_send_wait_step m K 𝒱₀ none (1 : Fin 7) c _ (Set.mem_univ _)) $$ [Csd HO Psd]
  · isplitr; · iexact Is1
    isplitl [Csd]; · iexact Csd
    isplitl [HO]; · iexact HO
    iexact Psd
  iintro ⟨HO, Hb1, Zs1⟩
  sl_exec_parts
  -- the wait on send semaphore 3: the sent block is this device's again
  ihave Csd := held_elim _ $$ Csd2
  ihave Psd := held_elim _ $$ Ps2
  iapply (wp_send_wait_step m K 𝒱₀ none (2 : Fin 7) c _ (Set.mem_univ _)) $$ [Csd HO Psd]
  · isplitr; · iexact Is2
    isplitl [Csd]; · iexact Csd
    isplitl [HO]; · iexact HO
    iexact Psd
  iintro ⟨HO, Hb2, Zs2⟩
  sl_exec_parts
  -- the wait on send semaphore 4: the sent block is this device's again
  ihave Csd := held_elim _ $$ Csd3
  ihave Psd := held_elim _ $$ Ps3
  iapply (wp_send_wait_step m K 𝒱₀ none (3 : Fin 7) c _ (Set.mem_univ _)) $$ [Csd HO Psd]
  · isplitr; · iexact Is3
    isplitl [Csd]; · iexact Csd
    isplitl [HO]; · iexact HO
    iexact Psd
  iintro ⟨HO, Hb3, Zs3⟩
  sl_exec_parts
  -- the wait on send semaphore 5: the sent block is this device's again
  ihave Csd := held_elim _ $$ Csd4
  ihave Psd := held_elim _ $$ Ps4
  iapply (wp_send_wait_step m K 𝒱₀ none (4 : Fin 7) c _ (Set.mem_univ _)) $$ [Csd HO Psd]
  · isplitr; · iexact Is4
    isplitl [Csd]; · iexact Csd
    isplitl [HO]; · iexact HO
    iexact Psd
  iintro ⟨HO, Hb4, Zs4⟩
  sl_exec_parts
  -- the wait on send semaphore 6: the sent block is this device's again
  ihave Csd := held_elim _ $$ Csd5
  ihave Psd := held_elim _ $$ Ps5
  iapply (wp_send_wait_step m K 𝒱₀ none (5 : Fin 7) c _ (Set.mem_univ _)) $$ [Csd HO Psd]
  · isplitr; · iexact Is5
    isplitl [Csd]; · iexact Csd
    isplitl [HO]; · iexact HO
    iexact Psd
  iintro ⟨HO, Hb5, Zs5⟩
  sl_exec_parts
  -- the wait on send semaphore 7: the sent block is this device's again
  ihave Csd := held_elim _ $$ Csd6
  ihave Psd := held_elim _ $$ Ps6
  iapply (wp_send_wait_step m K 𝒱₀ none (6 : Fin 7) c _ (Set.mem_univ _)) $$ [Csd HO Psd]
  · isplitr; · iexact Is6
    isplitl [Csd]; · iexact Csd
    isplitl [HO]; · iexact HO
    iexact Psd
  iintro ⟨HO, Hb6, Zs6⟩
  sl_exec_parts
  -- the return: every array back in the shape the postcondition names
  ihave Hout := (out_convert m c _ _ _ _ _ _ _ _ _ _ _ _ _ _ _ _ _ _ _ _ _ _ _ _ _ _
      (aload_eq0 m c) (aload_eq1 m c) (aload_eq2 m c) (aload_eq3 m c) (aload_eq4 m c) (aload_eq5 m c) (aload_eq6 m c) (aload_eq7 m c)
      (wload0_eq_lit0 m 0 c _ _) (wload1_eq_lit1 m 0 c _ _) (wload0_eq_lit0 m 1 c _ _) (wload1_eq_lit1 m 1 c _ _) (wload0_eq_lit0 m 2 c _ _) (wload1_eq_lit1 m 2 c _ _) (wload0_eq_lit0 m 3 c _ _) (wload1_eq_lit1 m 3 c _ _) (wload0_eq_lit0 m 4 c _ _) (wload1_eq_lit1 m 4 c _ _) (wload0_eq_lit0 m 5 c _ _) (wload1_eq_lit1 m 5 c _ _) (wload0_eq_lit0 m 6 c _ _) (wload1_eq_lit1 m 6 c _ _) (wload0_eq_lit0 m 7 c _ _) (wload1_eq_lit1 m 7 c _ _)
      (by rfl)) $$ Hout
  rw [wp_ret]; imodintro
  iapply Hk
  unfold postS xferSems0 idleSems
  isplitr; · iempintro
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Hw00]; · iexact Hw00
  isplitl [Hw01]; · iexact Hw01
  isplitl [Hw10]; · iexact Hw10
  isplitl [Hw11]; · iexact Hw11
  isplitl [Hw20]; · iexact Hw20
  isplitl [Hw21]; · iexact Hw21
  isplitl [Hw30]; · iexact Hw30
  isplitl [Hw31]; · iexact Hw31
  isplitl [Hw40]; · iexact Hw40
  isplitl [Hw41]; · iexact Hw41
  isplitl [Hw50]; · iexact Hw50
  isplitl [Hw51]; · iexact Hw51
  isplitl [Hw60]; · iexact Hw60
  isplitl [Hw61]; · iexact Hw61
  isplitl [Hw70]; · iexact Hw70
  isplitl [Hw71]; · iexact Hw71
  isplitl [Hr0 Hr1 Hr2 Hr3 Hr4 Hr5 Hr6 Hr7]
  · iexists _, _, _, _, _, _, _, _
    isplitr; · iempintro
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [Hp0 Hp1]
  · iexists _, _
    isplitl [Hp0]; · iexact Hp0
    iexact Hp1
  isplitl [Hc16]; · iexists _; iexact Hc16
  isplitl [Zs0 Zs1 Zs2 Zs3 Zs4 Zs5 Zs6 Zr0 Zr1 Zr2 Zr3 Zr4 Zr5 Zr6]
  · isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    iexact Zr6
  isplitl [Z1 Z9 Z17 Z18 Z19 Z20 Z21]
  · isplitl [Z1]; · iexact Z1
    isplitl [Z9]; · iexact Z9
    isplitl [Z17]; · iexact Z17
    isplitl [Z18]; · iexact Z18
    isplitl [Z19]; · iexact Z19
    isplitl [Z20]; · iexact Z20
    iexact Z21
  isplitl [HO]; · iexists _; iexact HO
  iexact Hout

/-- info: 'Cert.Kernel.A2A.body_pieces' depends on axioms: [propext, Classical.choice, Quot.sound] -/
#guard_msgs in #print axioms body_pieces

end Cert.Kernel.A2A

end
-- ==== Proof.lean ====
/-
  The claim. Eight devices each hold a block of 1024 columns of `x` (8192 × 8192) and a copy of `w` (8192 × 4096);
  device `c` is to end with rows `1024 c … 1024 c + 1023` of gelu (x · w). Each device casts the row blocks of its
  column block to bf16 and sends the one belonging to the device `t` places behind it into that device's receive
  slot `t`, so that device `c` comes to hold its 1024 rows of every column block of `x`; it multiplies the block that
  arrived from the device `t` places ahead with the matching 1024 rows of `w`, one half of the columns at a time,
  adds the eight products in the order of the steps, and applies gelu. With the floats read as extended reals every cast is
  the identity and every product of blocks an exact sum, so the eight partial sums taken in the ring's order are the one
  sum over all 8192 indices by commutativity and associativity of addition, and the kernel's `0.044715 · y · y · y` is
  the reference's `0.044715 · (y · y · y)` by associativity of multiplication: device `c`'s result is block `c` of the
  reference's. The five conjuncts come from two runs of the kernel — one over machine words, one over the extended
  reals, the same text at the two float instances — each saying that every fair execution on the eight devices
  terminates with the result array at a named value and the two argument arrays as they were: the kernel's two frames
  are these runs with the value dropped, the reference's frame is its own run, nothing is rewritten between the two
  kernel texts, and the algebraic conjunct is the run over the extended reals with the named value computed.
-/
import proofs.«900489_g7700000000000490_dist_a2a_gemm_m8192_k8192_n4096_f32_gelu_v7x_i8_1_alg».proof.Defs
import proofs.«900489_g7700000000000490_dist_a2a_gemm_m8192_k8192_n4096_f32_gelu_v7x_i8_1_alg».proof.Proof.Claims
import proofs.«900489_g7700000000000490_dist_a2a_gemm_m8192_k8192_n4096_f32_gelu_v7x_i8_1_alg».proof.Proof.OutVal
import proofs.«900489_g7700000000000490_dist_a2a_gemm_m8192_k8192_n4096_f32_gelu_v7x_i8_1_alg».proof.Proof.BodyWrap
import proofs.«900489_g7700000000000490_dist_a2a_gemm_m8192_k8192_n4096_f32_gelu_v7x_i8_1_alg».proof.Proof.Body
import proofs.«900489_g7700000000000490_dist_a2a_gemm_m8192_k8192_n4096_f32_gelu_v7x_i8_1_alg».proof.Proof.Bits.BodyWrap
import proofs.«900489_g7700000000000490_dist_a2a_gemm_m8192_k8192_n4096_f32_gelu_v7x_i8_1_alg».proof.Proof.Bits.Body

noncomputable section

namespace Cert.Proof

open Idealize.ShloMosaic Idealize.SL.Sem

/-- Device `c`'s result over machine words, typed as the result array's contents. -/
def outAtB (m : (ℓ : Loc Cert.Kernel.nD Cert.Kernel.τ Cert.Kernel.sig) → Buf (Elt Bits) ℓ) (c : Dev Cert.Kernel.nD) :
    Buf (Elt Bits) ((c.tc : Thread Cert.Kernel.nD Cert.Kernel.τ).loc Cert.Kernel.main_v1_0) := Cert.Kernel.A2A.outAt (F := Bits) m c

/-- The run over machine words. -/
theorem runB (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_v1_0) = outAtB m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)) :=
  Cert.Kernel.A2A.run_ideal m ρ fun K c W f16 fr fwv fc16 fo Kt => Cert.Kernel.A2A.body_pieces m K c W f16 fr fwv fc16 fo Kt

/-- The run over the extended reals. -/
theorem runI (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1_0) = Cert.KernelIdeal.A2A.outAtI m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  Cert.KernelIdeal.A2A.run_ideal m ρ fun K c W f16 fr fwv fc16 fo Kt => Cert.KernelIdeal.A2A.body_pieces m K c W f16 fr fwv fc16 fo Kt

theorem claim : Cert.Claim :=
  Cert.Claims.claim_of_runs outAtB runB Cert.KernelIdeal.A2A.outAtI runI Cert.KernelIdeal.A2A.valI_outAt

/-- info: 'Cert.Proof.claim' depends on axioms: [propext, Classical.choice, Quot.sound] -/
#guard_msgs in #print axioms claim

end Cert.Proof

end
